-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16x2048 : Shape := ⟨2, ![16, 2048]⟩
abbrev S16 : Shape := ⟨1, ![16]⟩
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S3x256 : Shape := ⟨2, ![3, 256]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg1 : IVec S16 32) (main_v50 : IVec S_ 1) : IVec S_ 1 :=
  let main_c_19 : IVec S_ 32 := constantI S_ 32 1#32
  let main_v51 : IVec S16 32 := broadcastInDim S16 ![] bcast_S_S16 main_c_19
  let main_v52 : IVec S16 1 := cmpi .sge main_arg1 main_v51
  let main_c_20 : IVec S_ 32 := constantI S_ 32 2048#32
  let main_v53 : IVec S16 32 := broadcastInDim S16 ![] bcast_S_S16 main_c_20
  let main_v54 : IVec S16 1 := cmpi .sle main_arg1 main_v53
  let main_v55 : IVec S16 1 := andi main_v52 main_v54
  let main_c_21 : IVec S_ 1 := constantI S_ 1 1#1
  let main_v56 : IVec S_ 1 := (fun x v => Host.reduce IntOp.andi x v reducesTo_S16_S_d0 h_S_) main_v55 main_c_21
  let main_v57 : IVec S_ 1 := andi main_v50 main_v56
  main_v57

def fn_part2 {F : FTy → Type} [FloatOps F] (main_arg0 : IVec S16x2048 32) (main_arg1 : IVec S16 32) (main_arg9 : FVec F S3x256 .f32) (main_arg10 : FVec F S3 .f32) (main_v33 : IVec S_ 1) : IVec S_ 1 :=
  let main_v34 : FVec F S3x256 .f32 := Host.absf main_arg9
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_c_16 : IVec S_ 32 := constantI S_ 32 0#32
  let main_v44 : IVec S16x2048 32 := broadcastInDim S16x2048 ![] bcast_S_S16x2048 main_c_16
  let main_v45 : IVec S16x2048 1 := cmpi .sge main_arg0 main_v44
  let main_c_17 : IVec S_ 32 := constantI S_ 32 99999#32
  let main_v46 : IVec S16x2048 32 := broadcastInDim S16x2048 ![] bcast_S_S16x2048 main_c_17
  let main_v47 : IVec S16x2048 1 := cmpi .sle main_arg0 main_v46
  let main_v48 : IVec S16x2048 1 := andi main_v45 main_v47
  let main_c_18 : IVec S_ 1 := constantI S_ 1 1#1
  let main_v49 : IVec S_ 1 := (fun x v => Host.reduce IntOp.andi x v reducesTo_S16x2048_S_d0_1 h_S_) main_v48 main_c_18
  let main_v50 : IVec S_ 1 := andi main_v43 main_v49
  fn_part3 (F := F) main_arg1 main_v50

def fn_part1 {F : FTy → Type} [FloatOps F] (main_arg0 : IVec S16x2048 32) (main_arg1 : IVec S16 32) (main_arg6 : FVec F S128 .f32) (main_arg7 : FVec F S256x128 .f32) (main_arg8 : FVec F S256 .f32) (main_arg9 : FVec F S3x256 .f32) (main_arg10 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg1 main_arg9 main_arg10 main_v33

def fn {F : FTy → Type} [FloatOps F] (main_arg0 : IVec S16x2048 32) (main_arg1 : IVec S16 32) (main_arg2 : FVec F S100000x128 .f32) (main_arg3 : FVec F S128x128 .f32) (main_arg4 : FVec F S128 .f32) (main_arg5 : FVec F S128x128 .f32) (main_arg6 : FVec F S128 .f32) (main_arg7 : FVec F S256x128 .f32) (main_arg8 : FVec F S256 .f32) (main_arg9 : FVec F S3x256 .f32) (main_arg10 : FVec F S3 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg1 main_arg6 main_arg7 main_arg8 main_arg9 main_arg10 main_v13 main_v16
-- ==== Kernel.lean ====
abbrev S16x2048 : Shape := ⟨2, ![16, 2048]⟩
abbrev S16 : Shape := ⟨1, ![16]⟩
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S3x256 : Shape := ⟨2, ![3, 256]⟩
abbrev S3 : Shape := ⟨1, ![3]⟩
abbrev S2048x16 : Shape := ⟨2, ![2048, 16]⟩
abbrev S32768 : Shape := ⟨1, ![32768]⟩
abbrev S4096x128 : Shape := ⟨2, ![4096, 128]⟩
abbrev S_ : Shape := ⟨0, ![]⟩
abbrev S28672x128 : Shape := ⟨2, ![28672, 128]⟩
abbrev S16x1 : Shape := ⟨2, ![16, 1]⟩
abbrev S16x128 : Shape := ⟨2, ![16, 128]⟩
abbrev S1x256 : Shape := ⟨2, ![1, 256]⟩
abbrev S128x256 : Shape := ⟨2, ![128, 256]⟩
abbrev S1 : Shape := ⟨1, ![1]⟩
abbrev S1x128 : Shape := ⟨2, ![1, 128]⟩
abbrev S2 : Shape := ⟨1, ![2]⟩
abbrev S16x3 : Shape := ⟨2, ![16, 3]⟩
abbrev S7168x128 : Shape := ⟨2, ![7168, 128]⟩
abbrev S16x256 : Shape := ⟨2, ![16, 256]⟩

abbrev nBuf : Table → Nat
  | .hbm => 46
  | .local .tc .vmem => 24
  | .local .tc .smem => 2
  | .local .scVector .vmem => 10
  | _ => 0

abbrev bufTy : (tb : Table) → Fin (nBuf tb) → BufTy
  | .hbm, ⟨0, _⟩ => ⟨S16x2048, .i32⟩
  | .hbm, ⟨1, _⟩ => ⟨S16, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S256, .f32⟩
  | .hbm, ⟨9, _⟩ => ⟨S3x256, .f32⟩
  | .hbm, ⟨10, _⟩ => ⟨S3, .f32⟩
  | .hbm, ⟨11, _⟩ => ⟨S2048x16, .i32⟩
  | .hbm, ⟨12, _⟩ => ⟨S32768, .i32⟩
  | .hbm, ⟨13, _⟩ => ⟨S4096x128, .f32⟩
  | .hbm, ⟨14, _⟩ => ⟨S28672x128, .f32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16x1, .i32⟩
  | .hbm, ⟨19, _⟩ => ⟨S16x128, .i32⟩
  | .hbm, ⟨20, _⟩ => ⟨S1x256, .f32⟩
  | .hbm, ⟨21, _⟩ => ⟨S_, .f32⟩
  | .hbm, ⟨22, _⟩ => ⟨S128x256, .f32⟩
  | .hbm, ⟨23, _⟩ => ⟨S_, .i32⟩
  | .hbm, ⟨24, _⟩ => ⟨S1, .i32⟩
  | .hbm, ⟨25, _⟩ => ⟨S128x256, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1, .i32⟩
  | .hbm, ⟨39, _⟩ => ⟨S128x128, .f32⟩
  | .hbm, ⟨40, _⟩ => ⟨S1x128, .f32⟩
  | .hbm, ⟨41, _⟩ => ⟨S1x128, .f32⟩
  | .hbm, ⟨42, _⟩ => ⟨S16x128, .f32⟩
  | .hbm, ⟨43, _⟩ => ⟨S1x128, .f32⟩
  | .hbm, ⟨44, _⟩ => ⟨S1x128, .f32⟩
  | .hbm, ⟨45, _⟩ => ⟨S16x3, .f32⟩
  | .local .tc .vmem, ⟨0, _⟩ => ⟨S4096x128, .f32⟩
  | .local .tc .vmem, ⟨1, _⟩ => ⟨S128x128, .f32⟩
  | .local .tc .vmem, ⟨2, _⟩ => ⟨S128x128, .f32⟩
  | .local .tc .vmem, ⟨3, _⟩ => ⟨S1x128, .f32⟩
  | .local .tc .vmem, ⟨4, _⟩ => ⟨S1x128, .f32⟩
  | .local .tc .vmem, ⟨5, _⟩ => ⟨S16x128, .i32⟩
  | .local .tc .vmem, ⟨6, _⟩ => ⟨S16x128, .f32⟩
  | .local .tc .vmem, ⟨7, _⟩ => ⟨S16x128, .f32⟩
  | .local .tc .vmem, ⟨8, _⟩ => ⟨S4096x128, .f32⟩
  | .local .tc .vmem, ⟨9, _⟩ => ⟨S7168x128, .f32⟩
  | .local .tc .vmem, ⟨10, _⟩ => ⟨S7168x128, .f32⟩
  | .local .tc .vmem, ⟨11, _⟩ => ⟨S128x128, .f32⟩
  | .local .tc .vmem, ⟨12, _⟩ => ⟨S128x128, .f32⟩
  | .local .tc .vmem, ⟨13, _⟩ => ⟨S1x128, .f32⟩
  | .local .tc .vmem, ⟨14, _⟩ => ⟨S1x128, .f32⟩
  | .local .tc .vmem, ⟨15, _⟩ => ⟨S16x128, .i32⟩
  | .local .tc .vmem, ⟨16, _⟩ => ⟨S16x128, .f32⟩
  | .local .tc .vmem, ⟨17, _⟩ => ⟨S256x128, .f32⟩
  | .local .tc .vmem, ⟨18, _⟩ => ⟨S1x256, .f32⟩
  | .local .tc .vmem, ⟨19, _⟩ => ⟨S128x256, .f32⟩
  | .local .tc .vmem, ⟨20, _⟩ => ⟨S1x128, .f32⟩
  | .local .tc .vmem, ⟨21, _⟩ => ⟨S16x3, .f32⟩
  | .local .tc .vmem, ⟨22, _⟩ => ⟨S16x128, .f32⟩
  | .local .tc .vmem, ⟨23, _⟩ => ⟨S7168x128, .f32⟩
  | .local .tc .smem, ⟨0, _⟩ => ⟨S1, .i32⟩
  | .local .tc .smem, ⟨1, _⟩ => ⟨S1, .i32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128x128, .f32⟩
  | .local .scVector .vmem, ⟨4, _⟩ => ⟨S128x128, .f32⟩
  | .local .scVector .vmem, ⟨5, _⟩ => ⟨S128, .i32⟩
  | .local .scVector .vmem, ⟨6, _⟩ => ⟨S128, .i32⟩
  | .local .scVector .vmem, ⟨7, _⟩ => ⟨S128, .i32⟩
  | .local .scVector .vmem, ⟨8, _⟩ => ⟨S128x128, .f32⟩
  | .local .scVector .vmem, ⟨9, _⟩ => ⟨S128x128, .f32⟩
  | _, _ => ⟨S16x2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 38 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTables nBuf rfl bufTy 4 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v1_scv : Ref sig .scVector := ⟨.hbm, 12, rfl⟩
abbrev main_arg2_scv : Ref sig .scVector := ⟨.hbm, 2, rfl⟩
abbrev main_v2_scv : Ref sig .scVector := ⟨.hbm, 13, rfl⟩
abbrev main_v3_scv : Ref sig .scVector := ⟨.hbm, 14, rfl⟩
abbrev cc2_stg0_0 : Ref sig .tc := ⟨.vmem, 0, rfl⟩
abbrev cc2_stg1_0 : Ref sig .tc := ⟨.vmem, 1, rfl⟩
abbrev cc2_stg2_0 : Ref sig .tc := ⟨.vmem, 2, rfl⟩
abbrev cc2_stg3_0 : Ref sig .tc := ⟨.vmem, 3, rfl⟩
abbrev cc2_stg4_0 : Ref sig .tc := ⟨.vmem, 4, rfl⟩
abbrev cc2_stg5_0 : Ref sig .tc := ⟨.vmem, 5, rfl⟩
abbrev cc2_stg7_0 : Ref sig .tc := ⟨.vmem, 6, rfl⟩
abbrev cc2_scratch0 : Ref sig .tc := ⟨.vmem, 7, rfl⟩
abbrev cc2_scratch1 : Ref sig .tc := ⟨.vmem, 8, rfl⟩
abbrev cc3_stg0_0 : Ref sig .tc := ⟨.vmem, 9, rfl⟩
abbrev cc3_stg0_1 : Ref sig .tc := ⟨.vmem, 10, rfl⟩
abbrev cc3_stg1_0 : Ref sig .tc := ⟨.vmem, 11, rfl⟩
abbrev cc3_stg2_0 : Ref sig .tc := ⟨.vmem, 12, rfl⟩
abbrev cc3_stg3_0 : Ref sig .tc := ⟨.vmem, 13, rfl⟩
abbrev cc3_stg4_0 : Ref sig .tc := ⟨.vmem, 14, rfl⟩
abbrev cc3_stg5_0 : Ref sig .tc := ⟨.vmem, 15, rfl⟩
abbrev cc3_stg7_0 : Ref sig .tc := ⟨.vmem, 16, rfl⟩
abbrev cc3_stg8_0 : Ref sig .tc := ⟨.vmem, 17, rfl⟩
abbrev cc3_stg9_0 : Ref sig .tc := ⟨.vmem, 18, rfl⟩
abbrev cc3_stg10_0 : Ref sig .tc := ⟨.vmem, 19, rfl⟩
abbrev cc3_stg11_0 : Ref sig .tc := ⟨.vmem, 20, rfl⟩
abbrev cc3_stg12_0 : Ref sig .tc := ⟨.vmem, 21, rfl⟩
abbrev cc3_scratch0 : Ref sig .tc := ⟨.vmem, 22, rfl⟩
abbrev cc3_scratch1 : Ref sig .tc := ⟨.vmem, 23, rfl⟩
abbrev cc2_stg6_0 : Ref sig .tc := ⟨.smem, 0, rfl⟩
abbrev cc3_stg6_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_scratch0 : Ref sig .scVector := ⟨.vmem, 5, rfl⟩
abbrev cc1_scratch1 : Ref sig .scVector := ⟨.vmem, 6, rfl⟩
abbrev cc1_scratch2 : Ref sig .scVector := ⟨.vmem, 7, rfl⟩
abbrev cc1_scratch3 : Ref sig .scVector := ⟨.vmem, 8, rfl⟩
abbrev cc1_scratch4 : Ref sig .scVector := ⟨.vmem, 9, rfl⟩
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem9_0 : DmaSem sig := 34
abbrev cc3_sem10_0 : DmaSem sig := 35
abbrev cc3_sem11_0 : DmaSem sig := 36
abbrev cc3_sem12_0 : DmaSem sig := 37
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c2040_i32 : BitVec 32 := 2040#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c0_i32 v2
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32 : BitVec 32 := 16#32
  let c0_i32_2 : BitVec 32 := 0#32
  let v10 : BitVec 1 := Scalar.cmpi .sgt c16_i32 c0_i32_2
  let v11 : BitVec 32 := Scalar.extui v10
  let c0_i32_3 : BitVec 32 := 0#32
  let v12 : BitVec 1 := Scalar.cmpi .slt c16_i32 c0_i32_3
  let v13 : BitVec 32 := Scalar.extui v12
  let v14 : BitVec 32 := Scalar.subi v11 v13
  let v15 : BitVec 1 := Scalar.cmpi .ne v9 v14
  let v16 : BitVec 32 := Scalar.remsi v3 c16_i32
  let c0_i32_4 : BitVec 32 := 0#32
  let v17 : BitVec 1 := Scalar.cmpi .ne v16 c0_i32_4
  let v18 : BitVec 1 := Scalar.andi v15 v17
  let v4 : BitVec 32 := Scalar.divsi v3 c16_i32
  let c1_i32 : BitVec 32 := 1#32
  let v19 : BitVec 32 := Scalar.subi v4 c1_i32
  let v20 : BitVec 32 := Scalar.select v18 v19 v4
  let v21 : BitVec 32 := Scalar.subi c2040_i32 v20
  let c16_i32_5 : BitVec 32 := 16#32
  let v22 : BitVec 32 := Scalar.muli v21 c16_i32_5
  ![v22.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_18 : BitVec 32 := 0#32
  let v65 : BitVec 32 := Scalar.addi v2 c0_i32_18
  let c0_i32_19 : BitVec 32 := 0#32
  ![v65.toNat, 0]
abbrev grid1 : Pipeline.Grid := ⟨2, ![2, 16], ![false, false]⟩

def k1_off1 (i : grid1.Coords) : Fin 1 → Nat :=
  let c2040_i32 : BitVec 32 := 2040#32
  let c4096_i32 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c896_i32 : BitVec 32 := 896#32
  let v2 : BitVec 32 := Scalar.muli v1 c896_i32
  let v3 : BitVec 32 := Scalar.addi c4096_i32 v2
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c16_i32 : BitVec 32 := 16#32
  let c0_i32_1 : BitVec 32 := 0#32
  let v10 : BitVec 1 := Scalar.cmpi .sgt c16_i32 c0_i32_1
  let v11 : BitVec 32 := Scalar.extui v10
  let c0_i32_2 : BitVec 32 := 0#32
  let v12 : BitVec 1 := Scalar.cmpi .slt c16_i32 c0_i32_2
  let v13 : BitVec 32 := Scalar.extui v12
  let v14 : BitVec 32 := Scalar.subi v11 v13
  let v15 : BitVec 1 := Scalar.cmpi .ne v9 v14
  let v16 : BitVec 32 := Scalar.remsi v3 c16_i32
  let c0_i32_3 : BitVec 32 := 0#32
  let v17 : BitVec 1 := Scalar.cmpi .ne v16 c0_i32_3
  let v18 : BitVec 1 := Scalar.andi v15 v17
  let v4 : BitVec 32 := Scalar.divsi v3 c16_i32
  let c1_i32 : BitVec 32 := 1#32
  let v19 : BitVec 32 := Scalar.subi v4 c1_i32
  let v20 : BitVec 32 := Scalar.select v18 v19 v4
  let v21 : BitVec 32 := Scalar.subi c2040_i32 v20
  let c16_i32_4 : BitVec 32 := 16#32
  let v22 : BitVec 32 := Scalar.muli v21 c16_i32_4
  ![v22.toNat]
def k1_off2 (i : grid1.Coords) (c128_i32 : BitVec 32) : Fin 1 → Nat :=
  let c2040_i32_23 : BitVec 32 := 2040#32
  let c4096_i32_15 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c896_i32 : BitVec 32 := 896#32
  let v2 : BitVec 32 := Scalar.muli v1 c896_i32
  let v64 : BitVec 32 := Scalar.addi v2 c128_i32
  let v65 : BitVec 32 := Scalar.addi c4096_i32_15 v64
  let c0_i32_17 : BitVec 32 := 0#32
  let v67 : BitVec 1 := Scalar.cmpi .sgt v65 c0_i32_17
  let v68 : BitVec 32 := Scalar.extui v67
  let c0_i32_18 : BitVec 32 := 0#32
  let v69 : BitVec 1 := Scalar.cmpi .slt v65 c0_i32_18
  let v70 : BitVec 32 := Scalar.extui v69
  let v71 : BitVec 32 := Scalar.subi v68 v70
  let c16_i32_16 : BitVec 32 := 16#32
  let c0_i32_19 : BitVec 32 := 0#32
  let v72 : BitVec 1 := Scalar.cmpi .sgt c16_i32_16 c0_i32_19
  let v73 : BitVec 32 := Scalar.extui v72
  let c0_i32_20 : BitVec 32 := 0#32
  let v74 : BitVec 1 := Scalar.cmpi .slt c16_i32_16 c0_i32_20
  let v75 : BitVec 32 := Scalar.extui v74
  let v76 : BitVec 32 := Scalar.subi v73 v75
  let v77 : BitVec 1 := Scalar.cmpi .ne v71 v76
  let v78 : BitVec 32 := Scalar.remsi v65 c16_i32_16
  let c0_i32_21 : BitVec 32 := 0#32
  let v79 : BitVec 1 := Scalar.cmpi .ne v78 c0_i32_21
  let v80 : BitVec 1 := Scalar.andi v77 v79
  let v66 : BitVec 32 := Scalar.divsi v65 c16_i32_16
  let c1_i32_22 : BitVec 32 := 1#32
  let v81 : BitVec 32 := Scalar.subi v66 c1_i32_22
  let v82 : BitVec 32 := Scalar.select v80 v81 v66
  let v83 : BitVec 32 := Scalar.subi c2040_i32_23 v82
  let c16_i32_24 : BitVec 32 := 16#32
  let v84 : BitVec 32 := Scalar.muli v83 c16_i32_24
  ![v84.toNat]
def k1_off3 (i : grid1.Coords) (c0_i32_45 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c896_i32 : BitVec 32 := 896#32
  let v2 : BitVec 32 := Scalar.muli v1 c896_i32
  let v127 : BitVec 32 := Scalar.addi v2 c0_i32_45
  let c0_i32_46 : BitVec 32 := 0#32
  ![v127.toNat, 0]
abbrev grid2 : Pipeline.Grid := ⟨1, ![1], ![false]⟩

@[reducible] def k2_t1_loop (i : grid2.Coords) (v30 : BitVec 32) : Scf.Loop 32 :=
  let c32_i32 : BitVec 32 := 32#32
  let c0_i32_25 : BitVec 32 := 0#32
  let arg0 : BitVec 32 := BitVec.ofNat 32 (i 0).val
  let c256_i32 : BitVec 32 := 256#32
  let v3 : BitVec 32 := Scalar.muli arg0 c256_i32
  let v31 : BitVec 32 := Scalar.subi v30 v3
  let c0_i32_20 : BitVec 32 := 0#32
  let v33 : BitVec 1 := Scalar.cmpi .sgt v31 c0_i32_20
  let v34 : BitVec 32 := Scalar.extui v33
  let c0_i32_21 : BitVec 32 := 0#32
  let v35 : BitVec 1 := Scalar.cmpi .slt v31 c0_i32_21
  let v36 : BitVec 32 := Scalar.extui v35
  let v37 : BitVec 32 := Scalar.subi v34 v36
  let c8_i32 : BitVec 32 := 8#32
  let c0_i32_22 : BitVec 32 := 0#32
  let v38 : BitVec 1 := Scalar.cmpi .sgt c8_i32 c0_i32_22
  let v39 : BitVec 32 := Scalar.extui v38
  let c0_i32_23 : BitVec 32 := 0#32
  let v40 : BitVec 1 := Scalar.cmpi .slt c8_i32 c0_i32_23
  let v41 : BitVec 32 := Scalar.extui v40
  let v42 : BitVec 32 := Scalar.subi v39 v41
  let v43 : BitVec 1 := Scalar.cmpi .ne v37 v42
  let v44 : BitVec 32 := Scalar.remsi v31 c8_i32
  let c0_i32_24 : BitVec 32 := 0#32
  let v45 : BitVec 1 := Scalar.cmpi .ne v44 c0_i32_24
  let v46 : BitVec 1 := Scalar.andi v43 v45
  let v32 : BitVec 32 := Scalar.divsi v31 c8_i32
  let c1_i32 : BitVec 32 := 1#32
  let v47 : BitVec 32 := Scalar.subi v32 c1_i32
  let v48 : BitVec 32 := Scalar.select v46 v47 v32
  let v49 : BitVec 32 := Scalar.maxsi c0_i32_25 v48
  let v50 : BitVec 32 := Scalar.minsi c32_i32 v49
  let c32_i32_28 : BitVec 32 := 32#32
  let v52 : BitVec 32 := Scalar.subi c32_i32_28 v50
  let c1_i32_29 : BitVec 32 := 1#32
  let v54 : BitVec 32 := Scalar.divsi v52 c1_i32_29
  let v55 : BitVec 32 := Scalar.muli v54 c1_i32_29
  let v56 : BitVec 32 := Scalar.addi v50 v55
  let c1_i32_30 : BitVec 32 := 1#32
  ⟨v50, v56, c1_i32_30⟩
def k2_cond2 (i : grid2.Coords) (v4 : BitVec 32) : BitVec 1 :=
  let arg0 : BitVec 32 := BitVec.ofNat 32 (i 0).val
  let c256_i32 : BitVec 32 := 256#32
  let v3 : BitVec 32 := Scalar.muli arg0 c256_i32
  let c256_i32_1 : BitVec 32 := 256#32
  let v5 : BitVec 32 := Scalar.addi v3 c256_i32_1
  let v6 : BitVec 1 := Scalar.cmpi .slt v4 v5
  let v7 : BitVec 32 := Scalar.extui v6
  let c0_i32_2 : BitVec 32 := 0#32
  let v8 : BitVec 1 := Scalar.cmpi .ne v7 c0_i32_2
  v8

def k2_off1 (i : grid2.Coords) (v30 : BitVec 32) (k2_t1 : Fin (k2_t1_loop i v30).trips) (c0_i32_35 : BitVec 32) : Fin 2 → Nat :=
  let c32_i32 : BitVec 32 := 32#32
  let c0_i32_25 : BitVec 32 := 0#32
  let arg0 : BitVec 32 := BitVec.ofNat 32 (i 0).val
  let c256_i32 : BitVec 32 := 256#32
  let v3 : BitVec 32 := Scalar.muli arg0 c256_i32
  let v31 : BitVec 32 := Scalar.subi v30 v3
  let c0_i32_20 : BitVec 32 := 0#32
  let v33 : BitVec 1 := Scalar.cmpi .sgt v31 c0_i32_20
  let v34 : BitVec 32 := Scalar.extui v33
  let c0_i32_21 : BitVec 32 := 0#32
  let v35 : BitVec 1 := Scalar.cmpi .slt v31 c0_i32_21
  let v36 : BitVec 32 := Scalar.extui v35
  let v37 : BitVec 32 := Scalar.subi v34 v36
  let c8_i32 : BitVec 32 := 8#32
  let c0_i32_22 : BitVec 32 := 0#32
  let v38 : BitVec 1 := Scalar.cmpi .sgt c8_i32 c0_i32_22
  let v39 : BitVec 32 := Scalar.extui v38
  let c0_i32_23 : BitVec 32 := 0#32
  let v40 : BitVec 1 := Scalar.cmpi .slt c8_i32 c0_i32_23
  let v41 : BitVec 32 := Scalar.extui v40
  let v42 : BitVec 32 := Scalar.subi v39 v41
  let v43 : BitVec 1 := Scalar.cmpi .ne v37 v42
  let v44 : BitVec 32 := Scalar.remsi v31 c8_i32
  let c0_i32_24 : BitVec 32 := 0#32
  let v45 : BitVec 1 := Scalar.cmpi .ne v44 c0_i32_24
  let v46 : BitVec 1 := Scalar.andi v43 v45
  let v32 : BitVec 32 := Scalar.divsi v31 c8_i32
  let c1_i32 : BitVec 32 := 1#32
  let v47 : BitVec 32 := Scalar.subi v32 c1_i32
  let v48 : BitVec 32 := Scalar.select v46 v47 v32
  let v49 : BitVec 32 := Scalar.maxsi c0_i32_25 v48
  let v50 : BitVec 32 := Scalar.minsi c32_i32 v49
  let c1_i32_30 : BitVec 32 := 1#32
  let arg11 : BitVec 32 := Scf.iv v50 c1_i32_30 k2_t1
  let c8_i32_34 : BitVec 32 := 8#32
  let v62 : BitVec 32 := Scalar.muli arg11 c8_i32_34
  let v63 : BitVec 32 := Scalar.addi v62 c0_i32_35
  let c16_i32 : BitVec 32 := 16#32
  let v64 : BitVec 32 := Scalar.muli v63 c16_i32
  let v65 : Index := Scalar.indexCast v64
  let c0_36 : Index := 0#32
  ![v65.toNat, 0]
@[reducible] def k2_t2_loop (i : grid2.Coords) (v30 : BitVec 32) : Scf.Loop 32 :=
  let c32_i32 : BitVec 32 := 32#32
  let c0_i32_25 : BitVec 32 := 0#32
  let arg0 : BitVec 32 := BitVec.ofNat 32 (i 0).val
  let c256_i32 : BitVec 32 := 256#32
  let v3 : BitVec 32 := Scalar.muli arg0 c256_i32
  let v31 : BitVec 32 := Scalar.subi v30 v3
  let c0_i32_20 : BitVec 32 := 0#32
  let v33 : BitVec 1 := Scalar.cmpi .sgt v31 c0_i32_20
  let v34 : BitVec 32 := Scalar.extui v33
  let c0_i32_21 : BitVec 32 := 0#32
  let v35 : BitVec 1 := Scalar.cmpi .slt v31 c0_i32_21
  let v36 : BitVec 32 := Scalar.extui v35
  let v37 : BitVec 32 := Scalar.subi v34 v36
  let c8_i32 : BitVec 32 := 8#32
  let c0_i32_22 : BitVec 32 := 0#32
  let v38 : BitVec 1 := Scalar.cmpi .sgt c8_i32 c0_i32_22
  let v39 : BitVec 32 := Scalar.extui v38
  let c0_i32_23 : BitVec 32 := 0#32
  let v40 : BitVec 1 := Scalar.cmpi .slt c8_i32 c0_i32_23
  let v41 : BitVec 32 := Scalar.extui v40
  let v42 : BitVec 32 := Scalar.subi v39 v41
  let v43 : BitVec 1 := Scalar.cmpi .ne v37 v42
  let v44 : BitVec 32 := Scalar.remsi v31 c8_i32
  let c0_i32_24 : BitVec 32 := 0#32
  let v45 : BitVec 1 := Scalar.cmpi .ne v44 c0_i32_24
  let v46 : BitVec 1 := Scalar.andi v43 v45
  let v32 : BitVec 32 := Scalar.divsi v31 c8_i32
  let c1_i32 : BitVec 32 := 1#32
  let v47 : BitVec 32 := Scalar.subi v32 c1_i32
  let v48 : BitVec 32 := Scalar.select v46 v47 v32
  let v49 : BitVec 32 := Scalar.maxsi c0_i32_25 v48
  let v50 : BitVec 32 := Scalar.minsi c32_i32 v49
  let c32_i32_28 : BitVec 32 := 32#32
  let v52 : BitVec 32 := Scalar.subi c32_i32_28 v50
  let c1_i32_29 : BitVec 32 := 1#32
  let v54 : BitVec 32 := Scalar.divsi v52 c1_i32_29
  let v55 : BitVec 32 := Scalar.muli v54 c1_i32_29
  let v56 : BitVec 32 := Scalar.addi v50 v55
  let v53 : BitVec 32 := Scalar.addi v50 v52
  let c1_i32_31 : BitVec 32 := 1#32
  ⟨v56, v53, c1_i32_31⟩
def k2_off2 (i : grid2.Coords) (v30 : BitVec 32) (k2_t2 : Fin (k2_t2_loop i v30).trips) (c0_i32_35 : BitVec 32) : Fin 2 → Nat :=
  let c32_i32 : BitVec 32 := 32#32
  let c0_i32_25 : BitVec 32 := 0#32
  let arg0 : BitVec 32 := BitVec.ofNat 32 (i 0).val
  let c256_i32 : BitVec 32 := 256#32
  let v3 : BitVec 32 := Scalar.muli arg0 c256_i32
  let v31 : BitVec 32 := Scalar.subi v30 v3
  let c0_i32_20 : BitVec 32 := 0#32
  let v33 : BitVec 1 := Scalar.cmpi .sgt v31 c0_i32_20
  let v34 : BitVec 32 := Scalar.extui v33
  let c0_i32_21 : BitVec 32 := 0#32
  let v35 : BitVec 1 := Scalar.cmpi .slt v31 c0_i32_21
  let v36 : BitVec 32 := Scalar.extui v35
  let v37 : BitVec 32 := Scalar.subi v34 v36
  let c8_i32 : BitVec 32 := 8#32
  let c0_i32_22 : BitVec 32 := 0#32
  let v38 : BitVec 1 := Scalar.cmpi .sgt c8_i32 c0_i32_22
  let v39 : BitVec 32 := Scalar.extui v38
  let c0_i32_23 : BitVec 32 := 0#32
  let v40 : BitVec 1 := Scalar.cmpi .slt c8_i32 c0_i32_23
  let v41 : BitVec 32 := Scalar.extui v40
  let v42 : BitVec 32 := Scalar.subi v39 v41
  let v43 : BitVec 1 := Scalar.cmpi .ne v37 v42
  let v44 : BitVec 32 := Scalar.remsi v31 c8_i32
  let c0_i32_24 : BitVec 32 := 0#32
  let v45 : BitVec 1 := Scalar.cmpi .ne v44 c0_i32_24
  let v46 : BitVec 1 := Scalar.andi v43 v45
  let v32 : BitVec 32 := Scalar.divsi v31 c8_i32
  let c1_i32 : BitVec 32 := 1#32
  let v47 : BitVec 32 := Scalar.subi v32 c1_i32
  let v48 : BitVec 32 := Scalar.select v46 v47 v32
  let v49 : BitVec 32 := Scalar.maxsi c0_i32_25 v48
  let v50 : BitVec 32 := Scalar.minsi c32_i32 v49
  let c32_i32_28 : BitVec 32 := 32#32
  let v52 : BitVec 32 := Scalar.subi c32_i32_28 v50
  let c1_i32_29 : BitVec 32 := 1#32
  let v54 : BitVec 32 := Scalar.divsi v52 c1_i32_29
  let v55 : BitVec 32 := Scalar.muli v54 c1_i32_29
  let v56 : BitVec 32 := Scalar.addi v50 v55
  let c1_i32_31 : BitVec 32 := 1#32
  let arg11 : BitVec 32 := Scf.iv v56 c1_i32_31 k2_t2
  let c8_i32_34 : BitVec 32 := 8#32
  let v62 : BitVec 32 := Scalar.muli arg11 c8_i32_34
  let v63 : BitVec 32 := Scalar.addi v62 c0_i32_35
  let c16_i32 : BitVec 32 := 16#32
  let v64 : BitVec 32 := Scalar.muli v63 c16_i32
  let v65 : Index := Scalar.indexCast v64
  let c0_36 : Index := 0#32
  ![v65.toNat, 0]

def k2_chk1 (i : grid2.Coords) (v4 : BitVec 32) (v30 : BitVec 32) : Prop :=
  (∀ (k2_h2 : k2_cond2 i v4 = 1#1), (k2_t1_loop i v30).OK) ∧
  (∀ k2_t1 : Fin (k2_t1_loop i v30).trips, ∀ (k2_h2 : k2_cond2 i v4 = 1#1), ∀ (r : Fin 8), ∀ a, (k2_off1 i v30 k2_t1 (BitVec.ofNat 32 r.val)) a + S16x128.size a ≤ S4096x128.size a) ∧
  (∀ (k2_h2 : k2_cond2 i v4 = 1#1), (k2_t2_loop i v30).OK) ∧
  (∀ k2_t2 : Fin (k2_t2_loop i v30).trips, ∀ (k2_h2 : k2_cond2 i v4 = 1#1), ∀ (r : Fin 8), ∀ a, (k2_off2 i v30 k2_t2 (BitVec.ofNat 32 r.val)) a + S16x128.size a ≤ S4096x128.size a)
instance k2_chk1.dec : ∀ (i : grid2.Coords) (v4 : BitVec 32) (v30 : BitVec 32), Decidable (k2_chk1 i v4 v30) := fun i v4 v30 => decidable_of_iff' _ (Iff.of_eq (k2_chk1.eq_1 i v4 v30))
theorem k2_t1_ok : ∀ (i : grid2.Coords) (v4 : BitVec 32) (v30 : BitVec 32) (k2_hw1 : k2_chk1 i v4 v30), ∀ (k2_h2 : k2_cond2 i v4 = 1#1), (k2_t1_loop i v30).OK := fun i v4 v30 k2_hw1 k2_h2 => k2_hw1.1 k2_h2
theorem k2_off1_inb : ∀ (i : grid2.Coords) (v4 : BitVec 32) (v30 : BitVec 32) (k2_hw1 : k2_chk1 i v4 v30) (k2_t1 : Fin (k2_t1_loop i v30).trips), ∀ (k2_h2 : k2_cond2 i v4 = 1#1), ∀ (r : Fin 8), ∀ a, (k2_off1 i v30 k2_t1 (BitVec.ofNat 32 r.val)) a + S16x128.size a ≤ S4096x128.size a := fun i v4 v30 k2_hw1 k2_t1 k2_h2 r => k2_hw1.2.1 k2_t1 k2_h2 r
theorem k2_t2_ok : ∀ (i : grid2.Coords) (v4 : BitVec 32) (v30 : BitVec 32) (k2_hw1 : k2_chk1 i v4 v30), ∀ (k2_h2 : k2_cond2 i v4 = 1#1), (k2_t2_loop i v30).OK := fun i v4 v30 k2_hw1 k2_h2 => k2_hw1.2.2.1 k2_h2
theorem k2_off2_inb : ∀ (i : grid2.Coords) (v4 : BitVec 32) (v30 : BitVec 32) (k2_hw1 : k2_chk1 i v4 v30) (k2_t2 : Fin (k2_t2_loop i v30).trips), ∀ (k2_h2 : k2_cond2 i v4 = 1#1), ∀ (r : Fin 8), ∀ a, (k2_off2 i v30 k2_t2 (BitVec.ofNat 32 r.val)) a + S16x128.size a ≤ S4096x128.size a := fun i v4 v30 k2_hw1 k2_t2 k2_h2 r => k2_hw1.2.2.2 k2_t2 k2_h2 r

def k2_cond3 (i : grid2.Coords) : BitVec 1 :=
  let arg0 : BitVec 32 := BitVec.ofNat 32 (i 0).val
  let c0_i32_3 : BitVec 32 := 0#32
  let v9 : BitVec 1 := Scalar.cmpi .eq arg0 c0_i32_3
  let v10 : BitVec 32 := Scalar.extui v9
  let c0_i32_4 : BitVec 32 := 0#32
  let v11 : BitVec 1 := Scalar.cmpi .ne v10 c0_i32_4
  v11

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x128 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .smem S1 .i32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![4], ![false]⟩

@[reducible] def k3_t1_loop (i : grid3.Coords) (v31 : BitVec 32) : Scf.Loop 32 :=
  let c56_i32 : BitVec 32 := 56#32
  let c0_i32_24 : BitVec 32 := 0#32
  let c256_i32 : BitVec 32 := 256#32
  let arg0 : BitVec 32 := BitVec.ofNat 32 (i 0).val
  let c448_i32 : BitVec 32 := 448#32
  let v3 : BitVec 32 := Scalar.muli arg0 c448_i32
  let v4 : BitVec 32 := Scalar.addi c256_i32 v3
  let v32 : BitVec 32 := Scalar.subi v31 v4
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c8_i32 : BitVec 32 := 8#32
  let c0_i32_21 : BitVec 32 := 0#32
  let v39 : BitVec 1 := Scalar.cmpi .sgt c8_i32 c0_i32_21
  let v40 : BitVec 32 := Scalar.extui v39
  let c0_i32_22 : BitVec 32 := 0#32
  let v41 : BitVec 1 := Scalar.cmpi .slt c8_i32 c0_i32_22
  let v42 : BitVec 32 := Scalar.extui v41
  let v43 : BitVec 32 := Scalar.subi v40 v42
  let v44 : BitVec 1 := Scalar.cmpi .ne v38 v43
  let v45 : BitVec 32 := Scalar.remsi v32 c8_i32
  let c0_i32_23 : BitVec 32 := 0#32
  let v46 : BitVec 1 := Scalar.cmpi .ne v45 c0_i32_23
  let v47 : BitVec 1 := Scalar.andi v44 v46
  let v33 : BitVec 32 := Scalar.divsi v32 c8_i32
  let c1_i32 : BitVec 32 := 1#32
  let v48 : BitVec 32 := Scalar.subi v33 c1_i32
  let v49 : BitVec 32 := Scalar.select v47 v48 v33
  let v50 : BitVec 32 := Scalar.maxsi c0_i32_24 v49
  let v51 : BitVec 32 := Scalar.minsi c56_i32 v50
  let c56_i32_27 : BitVec 32 := 56#32
  let v53 : BitVec 32 := Scalar.subi c56_i32_27 v51
  let c1_i32_28 : BitVec 32 := 1#32
  let v55 : BitVec 32 := Scalar.divsi v53 c1_i32_28
  let v56 : BitVec 32 := Scalar.muli v55 c1_i32_28
  let v57 : BitVec 32 := Scalar.addi v51 v56
  let c1_i32_29 : BitVec 32 := 1#32
  ⟨v51, v57, c1_i32_29⟩
def k3_cond2 (i : grid3.Coords) (v5 : BitVec 32) : BitVec 1 :=
  let c256_i32 : BitVec 32 := 256#32
  let arg0 : BitVec 32 := BitVec.ofNat 32 (i 0).val
  let c448_i32 : BitVec 32 := 448#32
  let v3 : BitVec 32 := Scalar.muli arg0 c448_i32
  let v4 : BitVec 32 := Scalar.addi c256_i32 v3
  let c448_i32_1 : BitVec 32 := 448#32
  let v6 : BitVec 32 := Scalar.addi v4 c448_i32_1
  let v7 : BitVec 1 := Scalar.cmpi .slt v5 v6
  let v8 : BitVec 32 := Scalar.extui v7
  let c0_i32_2 : BitVec 32 := 0#32
  let v9 : BitVec 1 := Scalar.cmpi .ne v8 c0_i32_2
  v9

def k3_off1 (i : grid3.Coords) (v31 : BitVec 32) (k3_t1 : Fin (k3_t1_loop i v31).trips) (c0_i32_34 : BitVec 32) : Fin 2 → Nat :=
  let c56_i32 : BitVec 32 := 56#32
  let c0_i32_24 : BitVec 32 := 0#32
  let c256_i32 : BitVec 32 := 256#32
  let arg0 : BitVec 32 := BitVec.ofNat 32 (i 0).val
  let c448_i32 : BitVec 32 := 448#32
  let v3 : BitVec 32 := Scalar.muli arg0 c448_i32
  let v4 : BitVec 32 := Scalar.addi c256_i32 v3
  let v32 : BitVec 32 := Scalar.subi v31 v4
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c8_i32 : BitVec 32 := 8#32
  let c0_i32_21 : BitVec 32 := 0#32
  let v39 : BitVec 1 := Scalar.cmpi .sgt c8_i32 c0_i32_21
  let v40 : BitVec 32 := Scalar.extui v39
  let c0_i32_22 : BitVec 32 := 0#32
  let v41 : BitVec 1 := Scalar.cmpi .slt c8_i32 c0_i32_22
  let v42 : BitVec 32 := Scalar.extui v41
  let v43 : BitVec 32 := Scalar.subi v40 v42
  let v44 : BitVec 1 := Scalar.cmpi .ne v38 v43
  let v45 : BitVec 32 := Scalar.remsi v32 c8_i32
  let c0_i32_23 : BitVec 32 := 0#32
  let v46 : BitVec 1 := Scalar.cmpi .ne v45 c0_i32_23
  let v47 : BitVec 1 := Scalar.andi v44 v46
  let v33 : BitVec 32 := Scalar.divsi v32 c8_i32
  let c1_i32 : BitVec 32 := 1#32
  let v48 : BitVec 32 := Scalar.subi v33 c1_i32
  let v49 : BitVec 32 := Scalar.select v47 v48 v33
  let v50 : BitVec 32 := Scalar.maxsi c0_i32_24 v49
  let v51 : BitVec 32 := Scalar.minsi c56_i32 v50
  let c1_i32_29 : BitVec 32 := 1#32
  let arg16 : BitVec 32 := Scf.iv v51 c1_i32_29 k3_t1
  let c8_i32_33 : BitVec 32 := 8#32
  let v63 : BitVec 32 := Scalar.muli arg16 c8_i32_33
  let v64 : BitVec 32 := Scalar.addi v63 c0_i32_34
  let c16_i32 : BitVec 32 := 16#32
  let v65 : BitVec 32 := Scalar.muli v64 c16_i32
  let v66 : Index := Scalar.indexCast v65
  let c0_35 : Index := 0#32
  ![v66.toNat, 0]
@[reducible] def k3_t2_loop (i : grid3.Coords) (v31 : BitVec 32) : Scf.Loop 32 :=
  let c56_i32 : BitVec 32 := 56#32
  let c0_i32_24 : BitVec 32 := 0#32
  let c256_i32 : BitVec 32 := 256#32
  let arg0 : BitVec 32 := BitVec.ofNat 32 (i 0).val
  let c448_i32 : BitVec 32 := 448#32
  let v3 : BitVec 32 := Scalar.muli arg0 c448_i32
  let v4 : BitVec 32 := Scalar.addi c256_i32 v3
  let v32 : BitVec 32 := Scalar.subi v31 v4
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c8_i32 : BitVec 32 := 8#32
  let c0_i32_21 : BitVec 32 := 0#32
  let v39 : BitVec 1 := Scalar.cmpi .sgt c8_i32 c0_i32_21
  let v40 : BitVec 32 := Scalar.extui v39
  let c0_i32_22 : BitVec 32 := 0#32
  let v41 : BitVec 1 := Scalar.cmpi .slt c8_i32 c0_i32_22
  let v42 : BitVec 32 := Scalar.extui v41
  let v43 : BitVec 32 := Scalar.subi v40 v42
  let v44 : BitVec 1 := Scalar.cmpi .ne v38 v43
  let v45 : BitVec 32 := Scalar.remsi v32 c8_i32
  let c0_i32_23 : BitVec 32 := 0#32
  let v46 : BitVec 1 := Scalar.cmpi .ne v45 c0_i32_23
  let v47 : BitVec 1 := Scalar.andi v44 v46
  let v33 : BitVec 32 := Scalar.divsi v32 c8_i32
  let c1_i32 : BitVec 32 := 1#32
  let v48 : BitVec 32 := Scalar.subi v33 c1_i32
  let v49 : BitVec 32 := Scalar.select v47 v48 v33
  let v50 : BitVec 32 := Scalar.maxsi c0_i32_24 v49
  let v51 : BitVec 32 := Scalar.minsi c56_i32 v50
  let c56_i32_27 : BitVec 32 := 56#32
  let v53 : BitVec 32 := Scalar.subi c56_i32_27 v51
  let c1_i32_28 : BitVec 32 := 1#32
  let v55 : BitVec 32 := Scalar.divsi v53 c1_i32_28
  let v56 : BitVec 32 := Scalar.muli v55 c1_i32_28
  let v57 : BitVec 32 := Scalar.addi v51 v56
  let v54 : BitVec 32 := Scalar.addi v51 v53
  let c1_i32_30 : BitVec 32 := 1#32
  ⟨v57, v54, c1_i32_30⟩
def k3_off2 (i : grid3.Coords) (v31 : BitVec 32) (k3_t2 : Fin (k3_t2_loop i v31).trips) (c0_i32_34 : BitVec 32) : Fin 2 → Nat :=
  let c56_i32 : BitVec 32 := 56#32
  let c0_i32_24 : BitVec 32 := 0#32
  let c256_i32 : BitVec 32 := 256#32
  let arg0 : BitVec 32 := BitVec.ofNat 32 (i 0).val
  let c448_i32 : BitVec 32 := 448#32
  let v3 : BitVec 32 := Scalar.muli arg0 c448_i32
  let v4 : BitVec 32 := Scalar.addi c256_i32 v3
  let v32 : BitVec 32 := Scalar.subi v31 v4
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c8_i32 : BitVec 32 := 8#32
  let c0_i32_21 : BitVec 32 := 0#32
  let v39 : BitVec 1 := Scalar.cmpi .sgt c8_i32 c0_i32_21
  let v40 : BitVec 32 := Scalar.extui v39
  let c0_i32_22 : BitVec 32 := 0#32
  let v41 : BitVec 1 := Scalar.cmpi .slt c8_i32 c0_i32_22
  let v42 : BitVec 32 := Scalar.extui v41
  let v43 : BitVec 32 := Scalar.subi v40 v42
  let v44 : BitVec 1 := Scalar.cmpi .ne v38 v43
  let v45 : BitVec 32 := Scalar.remsi v32 c8_i32
  let c0_i32_23 : BitVec 32 := 0#32
  let v46 : BitVec 1 := Scalar.cmpi .ne v45 c0_i32_23
  let v47 : BitVec 1 := Scalar.andi v44 v46
  let v33 : BitVec 32 := Scalar.divsi v32 c8_i32
  let c1_i32 : BitVec 32 := 1#32
  let v48 : BitVec 32 := Scalar.subi v33 c1_i32
  let v49 : BitVec 32 := Scalar.select v47 v48 v33
  let v50 : BitVec 32 := Scalar.maxsi c0_i32_24 v49
  let v51 : BitVec 32 := Scalar.minsi c56_i32 v50
  let c56_i32_27 : BitVec 32 := 56#32
  let v53 : BitVec 32 := Scalar.subi c56_i32_27 v51
  let c1_i32_28 : BitVec 32 := 1#32
  let v55 : BitVec 32 := Scalar.divsi v53 c1_i32_28
  let v56 : BitVec 32 := Scalar.muli v55 c1_i32_28
  let v57 : BitVec 32 := Scalar.addi v51 v56
  let c1_i32_30 : BitVec 32 := 1#32
  let arg16 : BitVec 32 := Scf.iv v57 c1_i32_30 k3_t2
  let c8_i32_33 : BitVec 32 := 8#32
  let v63 : BitVec 32 := Scalar.muli arg16 c8_i32_33
  let v64 : BitVec 32 := Scalar.addi v63 c0_i32_34
  let c16_i32 : BitVec 32 := 16#32
  let v65 : BitVec 32 := Scalar.muli v64 c16_i32
  let v66 : Index := Scalar.indexCast v65
  let c0_35 : Index := 0#32
  ![v66.toNat, 0]

def k3_chk1 (i : grid3.Coords) (v5 : BitVec 32) (v31 : BitVec 32) : Prop :=
  (∀ (k3_h2 : k3_cond2 i v5 = 1#1), (k3_t1_loop i v31).OK) ∧
  (∀ k3_t1 : Fin (k3_t1_loop i v31).trips, ∀ (k3_h2 : k3_cond2 i v5 = 1#1), ∀ (r : Fin 8), ∀ a, (k3_off1 i v31 k3_t1 (BitVec.ofNat 32 r.val)) a + S16x128.size a ≤ S7168x128.size a) ∧
  (∀ (k3_h2 : k3_cond2 i v5 = 1#1), (k3_t2_loop i v31).OK) ∧
  (∀ k3_t2 : Fin (k3_t2_loop i v31).trips, ∀ (k3_h2 : k3_cond2 i v5 = 1#1), ∀ (r : Fin 8), ∀ a, (k3_off2 i v31 k3_t2 (BitVec.ofNat 32 r.val)) a + S16x128.size a ≤ S7168x128.size a)
instance k3_chk1.dec : ∀ (i : grid3.Coords) (v5 : BitVec 32) (v31 : BitVec 32), Decidable (k3_chk1 i v5 v31) := fun i v5 v31 => decidable_of_iff' _ (Iff.of_eq (k3_chk1.eq_1 i v5 v31))
theorem k3_t1_ok : ∀ (i : grid3.Coords) (v5 : BitVec 32) (v31 : BitVec 32) (k3_hw1 : k3_chk1 i v5 v31), ∀ (k3_h2 : k3_cond2 i v5 = 1#1), (k3_t1_loop i v31).OK := fun i v5 v31 k3_hw1 k3_h2 => k3_hw1.1 k3_h2
theorem k3_off1_inb : ∀ (i : grid3.Coords) (v5 : BitVec 32) (v31 : BitVec 32) (k3_hw1 : k3_chk1 i v5 v31) (k3_t1 : Fin (k3_t1_loop i v31).trips), ∀ (k3_h2 : k3_cond2 i v5 = 1#1), ∀ (r : Fin 8), ∀ a, (k3_off1 i v31 k3_t1 (BitVec.ofNat 32 r.val)) a + S16x128.size a ≤ S7168x128.size a := fun i v5 v31 k3_hw1 k3_t1 k3_h2 r => k3_hw1.2.1 k3_t1 k3_h2 r
theorem k3_t2_ok : ∀ (i : grid3.Coords) (v5 : BitVec 32) (v31 : BitVec 32) (k3_hw1 : k3_chk1 i v5 v31), ∀ (k3_h2 : k3_cond2 i v5 = 1#1), (k3_t2_loop i v31).OK := fun i v5 v31 k3_hw1 k3_h2 => k3_hw1.2.2.1 k3_h2
theorem k3_off2_inb : ∀ (i : grid3.Coords) (v5 : BitVec 32) (v31 : BitVec 32) (k3_hw1 : k3_chk1 i v5 v31) (k3_t2 : Fin (k3_t2_loop i v31).trips), ∀ (k3_h2 : k3_cond2 i v5 = 1#1), ∀ (r : Fin 8), ∀ a, (k3_off2 i v31 k3_t2 (BitVec.ofNat 32 r.val)) a + S16x128.size a ≤ S7168x128.size a := fun i v5 v31 k3_hw1 k3_t2 k3_h2 r => k3_hw1.2.2.2 k3_t2 k3_h2 r

def k3_cond3 (i : grid3.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_3 : BitVec 32 := 0#32
  let v12 : BitVec 1 := Scalar.cmpi .ne v11 c0_i32_3
  v12

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S7168x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x128 .i32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .smem S1 .i32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S16x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S16x3 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  transposes_S16x2048_S2048x16_1_0 : S16x2048.Transposes [1, 0] S2048x16
  shapeCasts_S2048x16_S32768 : S2048x16.ShapeCasts S32768
  inb_S128_S16_112 : ∀ a, (![112] : Fin 1 → Nat) a + S16.size a ≤ S128.size a
  h_S16 : 0 < S16.numel
  shapeCasts_S16_S16 : S16.ShapeCasts S16
  inb_S128_S16_0 : ∀ a, (![0] : Fin 1 → Nat) a + S16.size a ≤ S128.size a
  inb_S128_S16_96 : ∀ a, (![96] : Fin 1 → Nat) a + S16.size a ≤ S128.size a
  inb_S128_S16_16 : ∀ a, (![16] : Fin 1 → Nat) a + S16.size a ≤ S128.size a
  inb_S128_S16_80 : ∀ a, (![80] : Fin 1 → Nat) a + S16.size a ≤ S128.size a
  inb_S128_S16_32 : ∀ a, (![32] : Fin 1 → Nat) a + S16.size a ≤ S128.size a
  inb_S128_S16_64 : ∀ a, (![64] : Fin 1 → Nat) a + S16.size a ≤ S128.size a
  inb_S128_S16_48 : ∀ a, (![48] : Fin 1 → Nat) a + S16.size a ≤ S128.size a
  inb_S100000x128_S100000x128_0_0 : ∀ a, (![0, 0] : Fin 2 → Nat) a + S100000x128.size a ≤ S100000x128.size a
  gathers_S100000x128_S128x128 : S100000x128.Gathers 0 S128x128
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S256_S1x256_1 : S256.BroadcastsInDim S1x256 (![1] : Fin 1 → Fin S1x256.rank)
  bcast_S_S128x256 : S_.BroadcastsInDim S128x256 (![] : Fin 0 → Fin S128x256.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  reducesTo_S16_S_d0 : S16.ReducesTo [0] S_
  h_S_ : 0 < S_.numel
  shapeCasts_S_S1 : S_.ShapeCasts S1
  transposes_S128x128_S128x128_1_0 : S128x128.Transposes [1, 0] S128x128
  bcast_S128_S1x128_1 : S128.BroadcastsInDim S1x128 (![1] : Fin 1 → Fin S1x128.rank)
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1_S1_0 : ∀ a, (![0] : Fin 1 → Nat) a + S1.size a ≤ S1.size a
  numel1_S1 : S1.numel = 1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S128x128_S128x128 : S128x128.ShapeCasts S128x128
  inb_S7168x128_S7168x128_0_0 : ∀ a, (![0, 0] : Fin 2 → Nat) a + S7168x128.size a ≤ S7168x128.size a
  h_S7168x128 : 0 < S7168x128.numel
  shapeCasts_S7168x128_S7168x128 : S7168x128.ShapeCasts S7168x128
  broadcasts_S1x128_S7168x128 : S1x128.Broadcasts S7168x128
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S1x128_S16x128 : S1x128.Broadcasts S16x128
  iota_S16x128_d1_w32 : S16x128.Iotas .tc 32 [1]
  reduces_S16x128_S16 : S16x128.Reduces [1] S16
  shapeCasts_S16_S16x1 : S16.ShapeCasts S16x1
  broadcasts_S16x1_S16x128 : S16x1.Broadcasts S16x128
  slices_S16x128_o0_0_S16x3 : S16x128.Slices ![0, 0] S16x3
  inb_S16x3_S16x3_0_0 : ∀ a, (![0, 0] : Fin 2 → Nat) a + S16x3.size a ≤ S16x3.size a
  h_S16x3 : 0 < S16x3.numel
  scatter_S128x256_S1_S3x256_01_n_0_0_wf : ScatterDims.WF S128x256 S1 S3x256 [0, 1] [] [0] 0
  scatter_S1x128_S2_S3_0_0_01_0_wf : ScatterDims.WF S1x128 S2 S3 [0] [0] [0, 1] 0
  dot_S4096x128_S128x128_S4096x128_1_1_0_0_n_n_wf : DotDims.WF S4096x128 S128x128 S4096x128 [1] [1] [0] [0] [] []
  dot_S16x128_S128x128_S16x128_1_0_0_1_n_n_wf : DotDims.WF S16x128 S128x128 S16x128 [1] [0] [0] [1] [] []
  dot_S7168x128_S128x128_S7168x128_1_1_0_0_n_n_wf : DotDims.WF S7168x128 S128x128 S7168x128 [1] [1] [0] [0] [] []
  dot_S16x128_S256x128_S16x256_1_1_0_0_n_n_wf : DotDims.WF S16x128 S256x128 S16x256 [1] [1] [0] [0] [] []
  dot_S16x256_S128x256_S16x128_1_1_0_0_n_n_wf : DotDims.WF S16x256 S128x256 S16x128 [1] [1] [0] [0] [] []
  hcc0_scratch5 : 0 + S_.numel ≤ 38
  hcc0_scratch6 : 1 + S_.numel ≤ 38
  hcc0_scratch7 : 2 + S_.numel ≤ 38
  hcc0_scratch8 : 3 + S_.numel ≤ 38
  hcc0_scoped0 : 4 + S_.numel ≤ 38
  hcc1_scratch5 : 5 + S_.numel ≤ 38
  hcc1_scratch6 : 6 + S_.numel ≤ 38
  hcc1_scratch7 : 7 + S_.numel ≤ 38
  hcc1_scratch8 : 8 + S_.numel ≤ 38
  hcc1_scoped0 : 9 + S_.numel ≤ 38
  hcc1_scoped1 : 10 + S_.numel ≤ 38
  hcc1_scoped2 : 11 + S_.numel ≤ 38
  hcc1_scoped3 : 12 + S_.numel ≤ 38
  hcc1_scoped4 : 13 + S_.numel ≤ 38
  hcc1_scoped5 : 14 + S_.numel ≤ 38
  hcc1_scoped6 : 15 + S_.numel ≤ 38
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S32768.size a
  k0_off2_inb : ∀ i : grid0.Coords, ∀ a, (k0_off2 i) a + S128x128.size a ≤ S4096x128.size a
  hcore1 : grid1.bound 0 ≤ τ.nSC
  hsub1 : grid1.bound 1 ≤ τ.nSub
  k1_off1_inb : ∀ i : grid1.Coords, ∀ a, (k1_off1 i) a + S128.size a ≤ S32768.size a
  k1_off2_inb : ∀ i : grid1.Coords, ∀ (r : Fin 6), ∀ a, (k1_off2 i (BitVec.ofNat 32 (128 + 128 * r.val))) a + S128.size a ≤ S32768.size a
  k1_off3_inb : ∀ i : grid1.Coords, ∀ (r : Fin 7), ∀ a, (k1_off3 i (BitVec.ofNat 32 (128 * r.val))) a + S128x128.size a ≤ S28672x128.size a
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S4096x128.size a
  hwx2_0 : ∀ i : grid2.Coords, EltTy.bits .f32 = 32 ∨ (Rect.block (s := S4096x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x128.size a ≤ S16x128.size a
  hwx2_5 : ∀ i : grid2.Coords, EltTy.bits .i32 = 32 ∨ (Rect.block (s := S16x128) S16x128.size (cc2_transform_5 i) (hinb2_5 i)).WholeWords (EltTy.packing .i32)
  hstage2_6 : ∀ j, (stage2_6 j).IsWhole
  nbuf2_6 : grid2.bufCount reads2_6 false = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .i32 = 32 ∨ (Rect.block (s := S1) S1.size (cc2_transform_6 i) (hinb2_6 i)).WholeWords (EltTy.packing .i32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S16x128.size a ≤ S16x128.size a
  hwx2_7 : ∀ i : grid2.Coords, EltTy.bits .f32 = 32 ∨ (Rect.block (s := S16x128) S16x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S7168x128.size a ≤ S28672x128.size a
  hwx3_0 : ∀ i : grid3.Coords, EltTy.bits .f32 = 32 ∨ (Rect.block (s := S28672x128) S7168x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x128.size a ≤ S16x128.size a
  hwx3_5 : ∀ i : grid3.Coords, EltTy.bits .i32 = 32 ∨ (Rect.block (s := S16x128) S16x128.size (cc3_transform_5 i) (hinb3_5 i)).WholeWords (EltTy.packing .i32)
  hstage3_6 : ∀ j, (stage3_6 j).IsWhole
  nbuf3_6 : grid3.bufCount reads3_6 false = 1
  hreads3_6 : ∀ i i' : grid3.Coords, (∀ a, reads3_6 a = true → i a = i' a) → cc3_transform_6 i = cc3_transform_6 i'
  hinb3_6 : ∀ (i : grid3.Coords) a, (cc3_transform_6 i a + 1) * S1.size a ≤ S1.size a
  hwx3_6 : ∀ i : grid3.Coords, EltTy.bits .i32 = 32 ∨ (Rect.block (s := S1) S1.size (cc3_transform_6 i) (hinb3_6 i)).WholeWords (EltTy.packing .i32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S16x128.size a ≤ S16x128.size a
  hwx3_7 : ∀ i : grid3.Coords, EltTy.bits .f32 = 32 ∨ (Rect.block (s := S16x128) S16x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x128.size a ≤ S256x128.size a
  hwx3_8 : ∀ i : grid3.Coords, EltTy.bits .f32 = 32 ∨ (Rect.block (s := S256x128) S256x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x256.size a ≤ S1x256.size a
  hwx3_9 : ∀ i : grid3.Coords, EltTy.bits .f32 = 32 ∨ (Rect.block (s := S1x256) S1x256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128x256.size a ≤ S128x256.size a
  hwx3_10 : ∀ i : grid3.Coords, EltTy.bits .f32 = 32 ∨ (Rect.block (s := S128x256) S128x256.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S16x3.size a ≤ S16x3.size a
  hwx3_12 : ∀ i : grid3.Coords, EltTy.bits .f32 = 32 ∨ (Rect.block (s := S16x3) S16x3.size (cc3_transform_12 i) (hinb3_12 i)).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scoped0 : DmaSems sig S_ := SemArray.consecutive 4 S_ hcc0_scoped0
abbrev cc1_scratch5 : DmaSems sig S_ := SemArray.consecutive 5 S_ hcc1_scratch5
abbrev cc1_scratch6 : DmaSems sig S_ := SemArray.consecutive 6 S_ hcc1_scratch6
abbrev cc1_scratch7 : DmaSems sig S_ := SemArray.consecutive 7 S_ hcc1_scratch7
abbrev cc1_scratch8 : DmaSems sig S_ := SemArray.consecutive 8 S_ hcc1_scratch8
abbrev cc1_scoped0 : DmaSems sig S_ := SemArray.consecutive 9 S_ hcc1_scoped0
abbrev cc1_scoped1 : DmaSems sig S_ := SemArray.consecutive 10 S_ hcc1_scoped1
abbrev cc1_scoped2 : DmaSems sig S_ := SemArray.consecutive 11 S_ hcc1_scoped2
abbrev cc1_scoped3 : DmaSems sig S_ := SemArray.consecutive 12 S_ hcc1_scoped3
abbrev cc1_scoped4 : DmaSems sig S_ := SemArray.consecutive 13 S_ hcc1_scoped4
abbrev cc1_scoped5 : DmaSems sig S_ := SemArray.consecutive 14 S_ hcc1_scoped5
abbrev cc1_scoped6 : DmaSems sig S_ := SemArray.consecutive 15 S_ hcc1_scoped6
def scatter_S128x256_S1_S3x256_01_n_0_0 : ScatterDims S128x256 S1 S3x256 where
  updateWindowDims := [0, 1]
  insertedWindowDims := []
  scatterDimsToOperandDims := [0]
  indexVectorDim := 0
  wf := scatter_S128x256_S1_S3x256_01_n_0_0_wf
def scatter_S1x128_S2_S3_0_0_01_0 : ScatterDims S1x128 S2 S3 where
  updateWindowDims := [0]
  insertedWindowDims := [0]
  scatterDimsToOperandDims := [0, 1]
  indexVectorDim := 0
  wf := scatter_S1x128_S2_S3_0_0_01_0_wf
def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S7168x128_S128x128_S7168x128_1_1_0_0_n_n : DotDims S7168x128 S128x128 S7168x128 where
  lhsContracting := [1]
  rhsContracting := [1]
  lhsNonContracting := [0]
  rhsNonContracting := [0]
  lhsBatch := []
  rhsBatch := []
  wf := dot_S7168x128_S128x128_S7168x128_1_1_0_0_n_n_wf
def dot_S16x128_S256x128_S16x256_1_1_0_0_n_n : DotDims S16x128 S256x128 S16x256 where
  lhsContracting := [1]
  rhsContracting := [1]
  lhsNonContracting := [0]
  rhsNonContracting := [0]
  lhsBatch := []
  rhsBatch := []
  wf := dot_S16x128_S256x128_S16x256_1_1_0_0_n_n_wf
def dot_S16x256_S128x256_S16x128_1_1_0_0_n_n : DotDims S16x256 S128x256 S16x128 where
  lhsContracting := [1]
  rhsContracting := [1]
  lhsNonContracting := [0]
  rhsNonContracting := [0]
  lhsBatch := []
  rhsBatch := []
  wf := dot_S16x256_S128x256_S16x128_1_1_0_0_n_n_wf

abbrev win2_0 : Pipeline.Window sig grid2 :=
  Pipeline.Window.ofSpec (Memref.whole main_v2) S4096x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S16x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S1.size cc2_transform_6 reads2_6 false false 1 stage2_6 sem2_6
    hrank2 hreads2_6 hinb2_6 nbuf2_6 (Memref.isWhole_whole _) hwx2_6 hstage2_6

abbrev win2_7 : Pipeline.Window sig grid2 :=
  Pipeline.Window.ofSpec (Memref.whole main_v23) S16x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond3 i == 1#1) | ⟨_ + 8, h⟩ => absurd h (Nat.not_lt.2 (Nat.le_add_left _ _))

abbrev win3_0 : Pipeline.Window sig grid3 :=
  Pipeline.Window.ofSpec (Memref.whole main_v3) S7168x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v25) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S16x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v19) S1.size cc3_transform_6 reads3_6 false false 1 stage3_6 sem3_6
    hrank3 hreads3_6 hinb3_6 nbuf3_6 (Memref.isWhole_whole _) hwx3_6 hstage3_6

abbrev win3_7 : Pipeline.Window sig grid3 :=
  Pipeline.Window.ofSpec (Memref.whole main_v23) S16x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg7) S256x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v8) S1x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v11) S128x256.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v16) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v26) S16x3.size cc3_transform_12 reads3_12 true true 1 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev idle3 : Fin 13 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k3_cond3 i == 1#1) | ⟨_ + 13, h⟩ => absurd h (Nat.not_lt.2 (Nat.le_add_left _ _))

class Facts : Prop extends Facts₀ where

variable [Facts]
-- ==== ReferenceIdeal.lean ====
abbrev S16x2048 : Shape := ⟨2, ![16, 2048]⟩
abbrev S16 : Shape := ⟨1, ![16]⟩
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S3x256 : Shape := ⟨2, ![3, 256]⟩
abbrev S3 : Shape := ⟨1, ![3]⟩
abbrev S_ : Shape := ⟨0, ![]⟩
abbrev S16x128 : Shape := ⟨2, ![16, 128]⟩
abbrev S2048 : Shape := ⟨1, ![2048]⟩
abbrev S1 : Shape := ⟨1, ![1]⟩
abbrev S16x1 : Shape := ⟨2, ![16, 1]⟩
abbrev S1x1 : Shape := ⟨2, ![1, 1]⟩
abbrev S1x128 : Shape := ⟨2, ![1, 128]⟩
abbrev S128x256 : Shape := ⟨2, ![128, 256]⟩
abbrev S16x256 : Shape := ⟨2, ![16, 256]⟩
abbrev S1x256 : Shape := ⟨2, ![1, 256]⟩
abbrev S256x3 : Shape := ⟨2, ![256, 3]⟩
abbrev S16x3 : Shape := ⟨2, ![16, 3]⟩
abbrev S1x3 : Shape := ⟨2, ![1, 3]⟩

abbrev nBuf : Space → Nat
  | .hbm => 123
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S16, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S256, .f32⟩
  | .hbm, ⟨9, _⟩ => ⟨S3x256, .f32⟩
  | .hbm, ⟨10, _⟩ => ⟨S3, .f32⟩
  | .hbm, ⟨11, _⟩ => ⟨S_, .f32⟩
  | .hbm, ⟨12, _⟩ => ⟨S16x128, .f32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S16x2048, .i32⟩
  | .hbm, ⟨23, _⟩ => ⟨S100000x128, .f32⟩
  | .hbm, ⟨24, _⟩ => ⟨S128x128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S16, .i32⟩
  | .hbm, ⟨29, _⟩ => ⟨S_, .i32⟩
  | .hbm, ⟨30, _⟩ => ⟨S16x128, .f32⟩
  | .hbm, ⟨31, _⟩ => ⟨S_, .i32⟩
  | .hbm, ⟨32, _⟩ => ⟨S_, .i1⟩
  | .hbm, ⟨33, _⟩ => ⟨S1, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S16x1, .i32⟩
  | .hbm, ⟨49, _⟩ => ⟨S16, .i32⟩
  | .hbm, ⟨50, _⟩ => ⟨S_, .i32⟩
  | .hbm, ⟨51, _⟩ => ⟨S16, .i32⟩
  | .hbm, ⟨52, _⟩ => ⟨S16, .i1⟩
  | .hbm, ⟨53, _⟩ => ⟨S_, .i32⟩
  | .hbm, ⟨54, _⟩ => ⟨S16, .i32⟩
  | .hbm, ⟨55, _⟩ => ⟨S16, .i32⟩
  | .hbm, ⟨56, _⟩ => ⟨S16, .i32⟩
  | .hbm, ⟨57, _⟩ => ⟨S16x1, .i32⟩
  | .hbm, ⟨58, _⟩ => ⟨S1, .i32⟩
  | .hbm, ⟨59, _⟩ => ⟨S_, .i32⟩
  | .hbm, ⟨60, _⟩ => ⟨S16x1, .i32⟩
  | .hbm, ⟨61, _⟩ => ⟨S16x1, .i1⟩
  | .hbm, ⟨62, _⟩ => ⟨S1x1, .i32⟩
  | .hbm, ⟨63, _⟩ => ⟨S16x1, .i32⟩
  | .hbm, ⟨64, _⟩ => ⟨S16x1, .i1⟩
  | .hbm, ⟨65, _⟩ => ⟨S16x1, .i1⟩
  | .hbm, ⟨66, _⟩ => ⟨S_, .i1⟩
  | .hbm, ⟨67, _⟩ => ⟨S16, .i1⟩
  | .hbm, ⟨68, _⟩ => ⟨S16x128, .f32⟩
  | .hbm, ⟨69, _⟩ => ⟨S16x128, .i1⟩
  | .hbm, ⟨70, _⟩ => ⟨S_, .f32⟩
  | .hbm, ⟨71, _⟩ => ⟨S16x128, .f32⟩
  | .hbm, ⟨72, _⟩ => ⟨S16x128, .f32⟩
  | .hbm, ⟨73, _⟩ => ⟨S128x128, .f32⟩
  | .hbm, ⟨74, _⟩ => ⟨S16x128, .f32⟩
  | .hbm, ⟨75, _⟩ => ⟨S1x128, .f32⟩
  | .hbm, ⟨76, _⟩ => ⟨S16x128, .f32⟩
  | .hbm, ⟨77, _⟩ => ⟨S16x128, .f32⟩
  | .hbm, ⟨78, _⟩ => ⟨S128x128, .f32⟩
  | .hbm, ⟨79, _⟩ => ⟨S16x128, .f32⟩
  | .hbm, ⟨80, _⟩ => ⟨S16x128, .f32⟩
  | .hbm, ⟨81, _⟩ => ⟨S1x128, .f32⟩
  | .hbm, ⟨82, _⟩ => ⟨S16x128, .f32⟩
  | .hbm, ⟨83, _⟩ => ⟨S16x128, .f32⟩
  | .hbm, ⟨84, _⟩ => ⟨S16x128, .f32⟩
  | .hbm, ⟨85, _⟩ => ⟨S16, .i32⟩
  | .hbm, ⟨86, _⟩ => ⟨S16, .i1⟩
  | .hbm, ⟨87, _⟩ => ⟨S16x1, .i1⟩
  | .hbm, ⟨88, _⟩ => ⟨S16x128, .i1⟩
  | .hbm, ⟨89, _⟩ => ⟨S16x128, .f32⟩
  | .hbm, ⟨90, _⟩ => ⟨S_, .i32⟩
  | .hbm, ⟨91, _⟩ => ⟨S_, .i32⟩
  | .hbm, ⟨92, _⟩ => ⟨S128x256, .f32⟩
  | .hbm, ⟨93, _⟩ => ⟨S16x256, .f32⟩
  | .hbm, ⟨94, _⟩ => ⟨S1x256, .f32⟩
  | .hbm, ⟨95, _⟩ => ⟨S16x256, .f32⟩
  | .hbm, ⟨96, _⟩ => ⟨S16x256, .f32⟩
  | .hbm, ⟨97, _⟩ => ⟨S_, .f32⟩
  | .hbm, ⟨98, _⟩ => ⟨S16x256, .f32⟩
  | .hbm, ⟨99, _⟩ => ⟨S16x256, .f32⟩
  | .hbm, ⟨100, _⟩ => ⟨S256x3, .f32⟩
  | .hbm, ⟨101, _⟩ => ⟨S16x3, .f32⟩
  | .hbm, ⟨102, _⟩ => ⟨S1x3, .f32⟩
  | .hbm, ⟨103, _⟩ => ⟨S16x3, .f32⟩
  | .hbm, ⟨104, _⟩ => ⟨S16x3, .f32⟩
  | .hbm, ⟨105, _⟩ => ⟨S_, .f32⟩
  | .hbm, ⟨106, _⟩ => ⟨S16x3, .f32⟩
  | .hbm, ⟨107, _⟩ => ⟨S16x3, .f32⟩
  | .hbm, ⟨108, _⟩ => ⟨S_, .f32⟩
  | .hbm, ⟨109, _⟩ => ⟨S16, .f32⟩
  | .hbm, ⟨110, _⟩ => ⟨S_, .f32⟩
  | .hbm, ⟨111, _⟩ => ⟨S16, .f32⟩
  | .hbm, ⟨112, _⟩ => ⟨S16, .f32⟩
  | .hbm, ⟨113, _⟩ => ⟨S16x1, .f32⟩
  | .hbm, ⟨114, _⟩ => ⟨S16x3, .f32⟩
  | .hbm, ⟨115, _⟩ => ⟨S16x3, .f32⟩
  | .hbm, ⟨116, _⟩ => ⟨S16x3, .f32⟩
  | .hbm, ⟨117, _⟩ => ⟨S_, .f32⟩
  | .hbm, ⟨118, _⟩ => ⟨S16, .f32⟩
  | .hbm, ⟨119, _⟩ => ⟨S16x1, .f32⟩
  | .hbm, ⟨120, _⟩ => ⟨S16x1, .f32⟩
  | .hbm, ⟨121, _⟩ => ⟨S16x3, .f32⟩
  | .hbm, ⟨122, _⟩ => ⟨S16x3, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v6_3 : Ref sig .tc := ⟨.hbm, 24, rfl⟩
abbrev main_v6_4 : Ref sig .tc := ⟨.hbm, 25, rfl⟩
abbrev main_v6_5 : Ref sig .tc := ⟨.hbm, 26, rfl⟩
abbrev main_v6_6 : Ref sig .tc := ⟨.hbm, 27, rfl⟩
abbrev main_v6_7 : Ref sig .tc := ⟨.hbm, 28, rfl⟩
abbrev main_v6_8 : Ref sig .tc := ⟨.hbm, 29, rfl⟩
abbrev main_v6_9 : Ref sig .tc := ⟨.hbm, 30, rfl⟩
abbrev main_while0c_c_11 : Ref sig .tc := ⟨.hbm, 31, rfl⟩
abbrev main_while0c_v20 : Ref sig .tc := ⟨.hbm, 32, rfl⟩
abbrev main_while0b_call0_v0 : Ref sig .tc := ⟨.hbm, 33, rfl⟩
abbrev main_while0b_v20 : Ref sig .tc := ⟨.hbm, 34, rfl⟩
abbrev main_while0b_call1_c : Ref sig .tc := ⟨.hbm, 35, rfl⟩
abbrev main_while0b_call1_c_0 : Ref sig .tc := ⟨.hbm, 36, rfl⟩
abbrev main_while0b_call1_v0 : Ref sig .tc := ⟨.hbm, 37, rfl⟩
abbrev main_while0b_call1_c_1 : Ref sig .tc := ⟨.hbm, 38, rfl⟩
abbrev main_while0b_call1_c_2 : Ref sig .tc := ⟨.hbm, 39, rfl⟩
abbrev main_while0b_call1_v1 : Ref sig .tc := ⟨.hbm, 40, rfl⟩
abbrev main_while0b_call1_c_3 : Ref sig .tc := ⟨.hbm, 41, rfl⟩
abbrev main_while0b_call1_v2 : Ref sig .tc := ⟨.hbm, 42, rfl⟩
abbrev main_while0b_call1_c_4 : Ref sig .tc := ⟨.hbm, 43, rfl⟩
abbrev main_while0b_call1_v3 : Ref sig .tc := ⟨.hbm, 44, rfl⟩
abbrev main_while0b_call1_c_5 : Ref sig .tc := ⟨.hbm, 45, rfl⟩
abbrev main_while0b_call1_v4 : Ref sig .tc := ⟨.hbm, 46, rfl⟩
abbrev main_while0b_call1_v5 : Ref sig .tc := ⟨.hbm, 47, rfl⟩
abbrev main_while0b_call1_v6 : Ref sig .tc := ⟨.hbm, 48, rfl⟩
abbrev main_while0b_call1_v7 : Ref sig .tc := ⟨.hbm, 49, rfl⟩
abbrev main_while0b_call1_call0_c : Ref sig .tc := ⟨.hbm, 50, rfl⟩
abbrev main_while0b_call1_call0_v0 : Ref sig .tc := ⟨.hbm, 51, rfl⟩
abbrev main_while0b_call1_call0_v1 : Ref sig .tc := ⟨.hbm, 52, rfl⟩
abbrev main_while0b_call1_call0_c_0 : Ref sig .tc := ⟨.hbm, 53, rfl⟩
abbrev main_while0b_call1_call0_v2 : Ref sig .tc := ⟨.hbm, 54, rfl⟩
abbrev main_while0b_call1_call0_v3 : Ref sig .tc := ⟨.hbm, 55, rfl⟩
abbrev main_while0b_call1_call0_v4 : Ref sig .tc := ⟨.hbm, 56, rfl⟩
abbrev main_while0b_call1_call0_v5 : Ref sig .tc := ⟨.hbm, 57, rfl⟩
abbrev main_while0b_call1_call0_c_1 : Ref sig .tc := ⟨.hbm, 58, rfl⟩
abbrev main_while0b_call1_call0_c_2 : Ref sig .tc := ⟨.hbm, 59, rfl⟩
abbrev main_while0b_call1_call0_v6 : Ref sig .tc := ⟨.hbm, 60, rfl⟩
abbrev main_while0b_call1_call0_v7 : Ref sig .tc := ⟨.hbm, 61, rfl⟩
abbrev main_while0b_call1_call0_v8 : Ref sig .tc := ⟨.hbm, 62, rfl⟩
abbrev main_while0b_call1_call0_v9 : Ref sig .tc := ⟨.hbm, 63, rfl⟩
abbrev main_while0b_call1_call0_v10 : Ref sig .tc := ⟨.hbm, 64, rfl⟩
abbrev main_while0b_call1_call0_v11 : Ref sig .tc := ⟨.hbm, 65, rfl⟩
abbrev main_while0b_call1_call0_c_3 : Ref sig .tc := ⟨.hbm, 66, rfl⟩
abbrev main_while0b_call1_call0_v12 : Ref sig .tc := ⟨.hbm, 67, rfl⟩
abbrev main_while0b_call1_call0_v13 : Ref sig .tc := ⟨.hbm, 68, rfl⟩
abbrev main_while0b_call1_call0_v14 : Ref sig .tc := ⟨.hbm, 69, rfl⟩
abbrev main_while0b_call1_call0_cst : Ref sig .tc := ⟨.hbm, 70, rfl⟩
abbrev main_while0b_call1_call0_v15 : Ref sig .tc := ⟨.hbm, 71, rfl⟩
abbrev main_while0b_call1_v8 : Ref sig .tc := ⟨.hbm, 72, rfl⟩
abbrev main_while0b_call1_v9 : Ref sig .tc := ⟨.hbm, 73, rfl⟩
abbrev main_while0b_call1_v10 : Ref sig .tc := ⟨.hbm, 74, rfl⟩
abbrev main_while0b_call1_v11 : Ref sig .tc := ⟨.hbm, 75, rfl⟩
abbrev main_while0b_call1_v12 : Ref sig .tc := ⟨.hbm, 76, rfl⟩
abbrev main_while0b_call1_v13 : Ref sig .tc := ⟨.hbm, 77, rfl⟩
abbrev main_while0b_call1_v14 : Ref sig .tc := ⟨.hbm, 78, rfl⟩
abbrev main_while0b_call1_v15 : Ref sig .tc := ⟨.hbm, 79, rfl⟩
abbrev main_while0b_call1_v16 : Ref sig .tc := ⟨.hbm, 80, rfl⟩
abbrev main_while0b_call1_v17 : Ref sig .tc := ⟨.hbm, 81, rfl⟩
abbrev main_while0b_call1_v18 : Ref sig .tc := ⟨.hbm, 82, rfl⟩
abbrev main_while0b_call1_v19 : Ref sig .tc := ⟨.hbm, 83, rfl⟩
abbrev main_while0b_call1_v20 : Ref sig .tc := ⟨.hbm, 84, rfl⟩
abbrev main_while0b_call1_v21 : Ref sig .tc := ⟨.hbm, 85, rfl⟩
abbrev main_while0b_call1_v22 : Ref sig .tc := ⟨.hbm, 86, rfl⟩
abbrev main_while0b_call1_v23 : Ref sig .tc := ⟨.hbm, 87, rfl⟩
abbrev main_while0b_call1_call1_v0 : Ref sig .tc := ⟨.hbm, 88, rfl⟩
abbrev main_while0b_v21 : Ref sig .tc := ⟨.hbm, 89, rfl⟩
abbrev main_while0b_c_11 : Ref sig .tc := ⟨.hbm, 90, rfl⟩
abbrev main_while0b_v22 : Ref sig .tc := ⟨.hbm, 91, rfl⟩
abbrev main_v7 : Ref sig .tc := ⟨.hbm, 92, rfl⟩
abbrev main_v8 : Ref sig .tc := ⟨.hbm, 93, rfl⟩
abbrev main_v9 : Ref sig .tc := ⟨.hbm, 94, rfl⟩
abbrev main_v10 : Ref sig .tc := ⟨.hbm, 95, rfl⟩
abbrev main_v11 : Ref sig .tc := ⟨.hbm, 96, rfl⟩
abbrev main_call2_cst : Ref sig .tc := ⟨.hbm, 97, rfl⟩
abbrev main_call2_v0 : Ref sig .tc := ⟨.hbm, 98, rfl⟩
abbrev main_v12 : Ref sig .tc := ⟨.hbm, 99, rfl⟩
abbrev main_v13 : Ref sig .tc := ⟨.hbm, 100, rfl⟩
abbrev main_v14 : Ref sig .tc := ⟨.hbm, 101, rfl⟩
abbrev main_v15 : Ref sig .tc := ⟨.hbm, 102, rfl⟩
abbrev main_v16 : Ref sig .tc := ⟨.hbm, 103, rfl⟩
abbrev main_v17 : Ref sig .tc := ⟨.hbm, 104, rfl⟩
abbrev main_call3_cst : Ref sig .tc := ⟨.hbm, 105, rfl⟩
abbrev main_call3_v0 : Ref sig .tc := ⟨.hbm, 106, rfl⟩
abbrev main_v18 : Ref sig .tc := ⟨.hbm, 107, rfl⟩
abbrev main_call4_cst : Ref sig .tc := ⟨.hbm, 108, rfl⟩
abbrev main_call4_v0 : Ref sig .tc := ⟨.hbm, 109, rfl⟩
abbrev main_call4_cst_0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_v6 : Ref sig .tc := ⟨.hbm, 116, rfl⟩
abbrev main_call4_cst_1 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_v19 : Ref sig .tc := ⟨.hbm, 122, rfl⟩

abbrev nD : Nat := 1
abbrev τ : Topo := Topo.v7x

variable {F : FTy → Type} [FloatOps F]

abbrev main_while0_count : Scf.Loop 32 := ⟨0#32, 2048#32, 1#32⟩

class Facts₀ : Prop where
  bcast_S_S16x128 : S_.BroadcastsInDim S16x128 (![] : Fin 0 → Fin S16x128.rank)
  bcast_S_S2048 : S_.BroadcastsInDim S2048 (![] : Fin 0 → Fin S2048.rank)
  sliceFits_S2048_S1 : S2048.Slices (fun _ => 0) S1
  h_S_ : 0 < S_.numel
  shapeCasts_S1_S_ : S1.ShapeCasts S_
  sliceFits_S16x2048_S16x1 : S16x2048.Slices (fun _ => 0) S16x1
  shapeCasts_S16x1_S16 : S16x1.ShapeCasts S16
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x1_S16_d1 : S16x1.ReducesTo [1] S16
  bcast_S16_S16x128_0 : S16.BroadcastsInDim S16x128 (![0] : Fin 1 → Fin S16x128.rank)
  transposes_S128x128_S128x128_1_0 : S128x128.Transposes [1, 0] S128x128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  transposes_S256x128_S128x256_1_0 : S256x128.Transposes [1, 0] S128x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  transposes_S3x256_S256x3_1_0 : S3x256.Transposes [1, 0] S256x3
  bcast_S3_S1x3_1 : S3.BroadcastsInDim S1x3 (![1] : Fin 1 → Fin S1x3.rank)
  bcast_S1x3_S16x3_0_1 : S1x3.BroadcastsInDim S16x3 (![0, 1] : Fin 2 → Fin S16x3.rank)
  bcast_S_S16x3 : S_.BroadcastsInDim S16x3 (![] : Fin 0 → Fin S16x3.rank)
  reducesTo_S16x3_S16_d1 : S16x3.ReducesTo [1] S16
  bcast_S16x1_S16x3_0_1 : S16x1.BroadcastsInDim S16x3 (![0, 1] : Fin 2 → Fin S16x3.rank)
  gather_S100000x128_S16x1_S16x128_1_0_n_n_0_1_1128_wf : GatherDims.WF S100000x128 S16x1 S16x128 [1] [0] [] [0] [] 1 ![1, 128]
  dot_S16x128_S128x128_S16x128_1_0_0_1_n_n_wf : DotDims.WF S16x128 S128x128 S16x128 [1] [0] [0] [1] [] []
  dot_S16x128_S128x256_S16x256_1_0_0_1_n_n_wf : DotDims.WF S16x128 S128x256 S16x256 [1] [0] [0] [1] [] []
  dot_S16x256_S256x3_S16x3_1_0_0_1_n_n_wf : DotDims.WF S16x256 S256x3 S16x3 [1] [0] [0] [1] [] []
  main_while0_ok : main_while0_count.OK

variable [Facts₀]

def gather_S100000x128_S16x1_S16x128_1_0_n_n_0_1_1128 : GatherDims S100000x128 S16x1 S16x128 where
  offsetDims := [1]
  collapsedSliceDims := [0]
  operandBatchingDims := []
  startIndicesBatchingDims := []
  startIndexMap := [0]
  indexVectorDim := 1
  sliceSizes := ![1, 128]
  wf := gather_S100000x128_S16x1_S16x128_1_0_n_n_0_1_1128_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x128_S128x256_S16x256_1_0_0_1_n_n : DotDims S16x128 S128x256 S16x256 where
  lhsContracting := [1]
  rhsContracting := [0]
  lhsNonContracting := [0]
  rhsNonContracting := [1]
  lhsBatch := []
  rhsBatch := []
  wf := dot_S16x128_S128x256_S16x256_1_0_0_1_n_n_wf
def dot_S16x256_S256x3_S16x3_1_0_0_1_n_n : DotDims S16x256 S256x3 S16x3 where
  lhsContracting := [1]
  rhsContracting := [0]
  lhsNonContracting := [0]
  rhsNonContracting := [1]
  lhsBatch := []
  rhsBatch := []
  wf := dot_S16x256_S256x3_S16x3_1_0_0_1_n_n_wf

class Facts : Prop extends Facts₀ where

variable [Facts]
-- ==== Proof.Common.lean ====
/-
  Shared set-up for the idealized kernel's run: the program as the SparseCore launch theorem sees it (its call
  table, the body table under it, the variants), the resource algebra (the handshakes' rounds, one copy of the
  rounds algebra for the TensorCore pipelines' staging cells, the transfers' counters), and the locations of the
  arrays the four kernels read and write.
-/
import proofs.«205923_g40089224741417_cont_sun_m_110_39_alg».proof.KernelIdeal
import proofs.«205923_g40089224741417_cont_sun_m_110_39_alg».proof.Proof.Gen.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq (q : Fin 2) : (K (F := F)).nSub q = 16 := by
  match q with
  | 0 => rfl
  | 1 => rfl
theorem nCore_eq (q : Fin 2) : (K (F := F)).nCore q = 2 := by
  match q with
  | 0 => rfl
  | 1 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UPp : Type := UR sig nD τ
abbrev UU : Type := UH × (UPp × Counters)

/-- The machine's algebra at this program. -/
abbrev MM (F : FTy → Type) : Type := MT nD τ sig (HIx 2) (Elt F) ℕ UU ℕ

abbrev EH : Emb UH (MM F) := embL
abbrev EP : Emb UPp (MM F) := (Emb.inl : Emb UPp (UPp × Counters)).trans embR

instance EP_landsIn : (EP (F := F)).LandsIn (upEmb : UEmb _ (MM F)) := by unfold EP; infer_instance

/-! ## The arrays -/

/-- The flattened transposed tokens, the embedding table, the two gathered arrays, as the TensorCore names them. -/
abbrev tokLoc (d : Dev nD) : Loc nD τ sig := (SparseCore.T d).loc main_v1
abbrev embLoc (d : Dev nD) : Loc nD τ sig := (SparseCore.T d).loc main_arg2
abbrev x0Loc (d : Dev nD) : Loc nD τ sig := (SparseCore.T d).loc main_v2
abbrev x1Loc (d : Dev nD) : Loc nD τ sig := (SparseCore.T d).loc main_v3

/-! ## The gathered arrays

Global row `r` of the steps' array (step `r / 16`, sequence `r % 16`) is the table's row named by the token at
position `2047 - r / 16` of sequence `r % 16`, which the flattened transposed tokens hold at `(2047 - r / 16) * 16 + r % 16`.
The first kernel writes rows `0 … 4095`, the second rows `4096 … 32767`. Total: indices are reduced into range (they
are in range at every row under the precondition). -/

/-- The token global row `r` names. -/
def tokAt (tokT : S32768.Idx → Elt F .i32) (r : ℕ) : ℕ :=
  (tokT (ValueIdx.ix1 (⟨((2047 - r / 16) * 16 + r % 16) % 32768, Nat.mod_lt _ (by decide)⟩ : Fin 32768))).toNat

/-- Row `n` of the table at column `k`. -/
def embAt (emb : S100000x128.Idx → Elt F .f32) (n : ℕ) (k : ℕ) : Elt F .f32 :=
  emb (ValueIdx.ix2 (⟨n % 100000, Nat.mod_lt _ (by decide)⟩ : Fin 100000) (⟨k % 128, Nat.mod_lt _ (by decide)⟩ : Fin 128))

/-- What the first gather kernel leaves in its output: steps `0 … 255`. -/
def X0 (tokT : S32768.Idx → Elt F .i32) (emb : S100000x128.Idx → Elt F .f32) : S4096x128.Idx → Elt F .f32 :=
  fun j => embAt emb (tokAt tokT (j 0).val) (j 1).val

/-- What the second leaves: steps `256 … 2047`. -/
def X1 (tokT : S32768.Idx → Elt F .i32) (emb : S100000x128.Idx → Elt F .f32) : S28672x128.Idx → Elt F .f32 :=
  fun j => embAt emb (tokAt tokT (4096 + (j 0).val)) (j 1).val

/-- Rows `lo … lo + n - 1` of a rank-2 array, every column. -/
def rowsOf (s : Shape) [Fintype s.Idx] [NeZero s.rank] (lo n : ℕ) : Finset s.Idx :=
  Finset.univ.filter fun j => lo ≤ (j ⟨0, Nat.pos_of_ne_zero (NeZero.ne _)⟩).val ∧ (j ⟨0, Nat.pos_of_ne_zero (NeZero.ne _)⟩).val < lo + n

end Cert.Proof.KI

end
-- ==== Proof.Main.lean ====
/-
  The idealized kernel's program run on the whole machine: @main on the TensorCore as two host operations, the two
  SparseCore gather calls, twenty-seven host operations, the first recurrence region, two host operations and the
  second region; the valuations of the TensorCore's arrays between them; what the handshakes carry.
-/
import proofs.«205923_g40089224741417_cont_sun_m_110_39_alg».proof.Proof.Common
import proofs.«205923_g40089224741417_cont_sun_m_110_39_alg».proof.Proof.Gen.KernelIdeal.Launch
import proofs.«205923_g40089224741417_cont_sun_m_110_39_alg».proof.Proof.Gen.KernelIdeal.Points
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq seq after)

variable {F : FTy → Type} [FloatOps F] [Named F]

/-! ## @main's host stretches -/

/-- The transposition and flattening of the tokens, before the first gather. -/
abbrev opsA : List (HloOp τ sig (Elt F)) :=
  [ StableHlo.unary main_arg0 main_v0 ((transpose S2048x16 [1, 0] · transposes_S16x2048_S2048x16_1_0) : (⟨S16x2048, .i32⟩ : BufTy).Contents (Elt F) → (⟨S2048x16, .i32⟩ : BufTy).Contents (Elt F)),
    StableHlo.reshape main_v0 main_v1 rfl shapeCasts_S2048x16_S32768 ]

/-- The operands of the two recurrence regions, between the second gather and the first region. -/
abbrev opsB : List (HloOp τ sig (Elt F)) :=
  [ StableHlo.nullary main_c (constantI S_ 32 2048#32),
    StableHlo.unary main_c main_v4 (broadcastInDim S16 ![] bcast_S_S16 : (⟨S_, .i32⟩ : BufTy).Contents (Elt F) → (⟨S16, .i32⟩ : BufTy).Contents (Elt F)),
    StableHlo.binary main_v4 main_arg1 main_v5 (subi : (⟨S16, .i32⟩ : BufTy).Contents (Elt F) → (⟨S16, .i32⟩ : BufTy).Contents (Elt F) → (⟨S16, .i32⟩ : BufTy).Contents (Elt F)),
    StableHlo.unary main_v5 main_v6 (broadcastInDim S16x1 ![0] bcast_S16_S16x1_0 : (⟨S16, .i32⟩ : BufTy).Contents (Elt F) → (⟨S16x1, .i32⟩ : BufTy).Contents (Elt F)),
    StableHlo.unary main_v6 main_v7 (broadcastInDim S16x128 ![0, 1] bcast_S16x1_S16x128_0_1 : (⟨S16x1, .i32⟩ : BufTy).Contents (Elt F) → (⟨S16x128, .i32⟩ : BufTy).Contents (Elt F)),
    StableHlo.unary main_arg8 main_v8 (broadcastInDim S1x256 ![1] bcast_S256_S1x256_1 : (⟨S256, .f32⟩ : BufTy).Contents (Elt F) → (⟨S1x256, .f32⟩ : BufTy).Contents (Elt F)),
    StableHlo.nullary main_cst (constant S_ .f32 0x00000000#32),
    StableHlo.unary main_cst main_v9 (broadcastInDim S128x256 ![] bcast_S_S128x256 : (⟨S_, .f32⟩ : BufTy).Contents (Elt F) → (⟨S128x256, .f32⟩ : BufTy).Contents (Elt F)),
    StableHlo.nullary main_c_0 (constantI S_ 32 0#32),
    StableHlo.unary main_c_0 main_v10 (broadcastInDim S1 ![] bcast_S_S1 : (⟨S_, .i32⟩ : BufTy).Contents (Elt F) → (⟨S1, .i32⟩ : BufTy).Contents (Elt F)),
    StableHlo.ternary main_v9 main_v10 main_arg9 main_v11 ((fun x i u => Host.scatter scatter_S128x256_S1_S3x256_01_n_0_0 (fun _ b => b) x i u) : (⟨S128x256, .f32⟩ : BufTy).Contents (Elt F) → (⟨S1, .i32⟩ : BufTy).Contents (Elt F) → (⟨S3x256, .f32⟩ : BufTy).Contents (Elt F) → (⟨S128x256, .f32⟩ : BufTy).Contents (Elt F)),
    StableHlo.nullary main_cst_1 (constant S_ .f32 0x00000000#32),
    StableHlo.unary main_cst_1 main_v12 (broadcastInDim S1x128 ![] bcast_S_S1x128 : (⟨S_, .f32⟩ : BufTy).Contents (Elt F) → (⟨S1x128, .f32⟩ : BufTy).Contents (Elt F)),
    StableHlo.nullary main_c_2 (constantI S_ 32 0#32),
    StableHlo.unary main_c_2 main_v13 (broadcastInDim S1 ![] bcast_S_S1 : (⟨S_, .i32⟩ : BufTy).Contents (Elt F) → (⟨S1, .i32⟩ : BufTy).Contents (Elt F)),
    StableHlo.nullary main_c_3 (constantI S_ 32 0#32),
    StableHlo.unary main_c_3 main_v14 (broadcastInDim S1 ![] bcast_S_S1 : (⟨S_, .i32⟩ : BufTy).Contents (Elt F) → (⟨S1, .i32⟩ : BufTy).Contents (Elt F)),
    StableHlo.binary main_v13 main_v14 main_v15 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v12 main_v15 main_arg10 main_v16 ((fun x i u => Host.scatter scatter_S1x128_S2_S3_0_0_01_0 (fun _ b => b) x i u) : (⟨S1x128, .f32⟩ : BufTy).Contents (Elt F) → (⟨S2, .i32⟩ : BufTy).Contents (Elt F) → (⟨S3, .f32⟩ : BufTy).Contents (Elt F) → (⟨S1x128, .f32⟩ : BufTy).Contents (Elt F)),
    StableHlo.nullary main_c_4 (constantI S_ 32 2147483648#32),
    StableHlo.binary main_arg1 main_c_4 main_v17 ((fun x v => Host.reduce IntOp.maxsi x v reducesTo_S16_S_d0 h_S_) : (⟨S16, .i32⟩ : BufTy).Contents (Elt F) → (⟨S_, .i32⟩ : BufTy).Contents (Elt F) → (⟨S_, .i32⟩ : BufTy).Contents (Elt F)),
    StableHlo.nullary main_c_5 (constantI S_ 32 2048#32),
    StableHlo.binary main_c_5 main_v17 main_v18 (subi : (⟨S_, .i32⟩ : BufTy).Contents (Elt F) → (⟨S_, .i32⟩ : BufTy).Contents (Elt F) → (⟨S_, .i32⟩ : BufTy).Contents (Elt F)),
    StableHlo.reshape main_v18 main_v19 rfl shapeCasts_S_S1,
    StableHlo.unary main_arg5 main_v20 ((transpose S128x128 [1, 0] · transposes_S128x128_S128x128_1_0) : (⟨S128x128, .f32⟩ : BufTy).Contents (Elt F) → (⟨S128x128, .f32⟩ : BufTy).Contents (Elt F)),
    StableHlo.unary main_arg4 main_v21 (broadcastInDim S1x128 ![1] bcast_S128_S1x128_1 : (⟨S128, .f32⟩ : BufTy).Contents (Elt F) → (⟨S1x128, .f32⟩ : BufTy).Contents (Elt F)),
    StableHlo.unary main_arg6 main_v22 (broadcastInDim S1x128 ![1] bcast_S128_S1x128_1 : (⟨S128, .f32⟩ : BufTy).Contents (Elt F) → (⟨S1x128, .f32⟩ : BufTy).Contents (Elt F)) ]

/-- The two bias rows staged again for the second region. -/
abbrev opsC : List (HloOp τ sig (Elt F)) :=
  [ StableHlo.unary main_arg4 main_v24 (broadcastInDim S1x128 ![1] bcast_S128_S1x128_1 : (⟨S128, .f32⟩ : BufTy).Contents (Elt F) → (⟨S1x128, .f32⟩ : BufTy).Contents (Elt F)),
    StableHlo.unary main_arg6 main_v25 (broadcastInDim S1x128 ![1] bcast_S128_S1x128_1 : (⟨S128, .f32⟩ : BufTy).Contents (Elt F) → (⟨S1x128, .f32⟩ : BufTy).Contents (Elt F)) ]

/-- What follows the two gather calls, as a program of the pipelines' table. -/
def tailProg : Prog (TpuEff nD τ sig (Elt F) (ΛP (F := F)) .tc) PUnit :=
  seq opsB >>= fun _ => Prog.lift (.customCall (Pipeline.entry 0) ()) >>= fun _ =>
  seq opsC >>= fun _ => Prog.lift (.customCall (Pipeline.entry 1) ()) >>= fun _ => pure ⟨⟩

theorem main_eq (d : Dev nD) :
    main (F := F) d = (seq opsA >>= fun _ => (K (F := F)).run d 0 >>= fun _ => (K (F := F)).run d 1 >>= fun _ =>
      SparseCore.liftProg (tailProg (F := F))) := by
  first | rfl | (unfold main tailProg; simp only [seq, bind_assoc, pure_bind]; rfl)

/-! ## The TensorCore's arrays between the stretches -/

variable (m : (ℓ : Loc nD τ sig) → Buf (Elt F) ℓ) (ρ : Dev nD → PrngReg)

abbrev rTok : DevRef τ sig := Proc.devRef .tc (main_v1 : Ref sig .tc)
abbrev rEmb : DevRef τ sig := Proc.devRef .tc (main_arg2 : Ref sig .tc)
abbrev rX0 : DevRef τ sig := Proc.devRef .tc (main_v2 : Ref sig .tc)
abbrev rX1 : DevRef τ sig := Proc.devRef .tc (main_v3 : Ref sig .tc)
abbrev rMid : DevRef τ sig := Proc.devRef .tc (main_v23 : Ref sig .tc)
abbrev rOut : DevRef τ sig := Proc.devRef .tc (main_v26 : Ref sig .tc)

/-- At launch. -/
def W0 (d : Dev nD) : Valuation τ sig (Elt F) := fun b => m (d, b)
/-- After the tokens are transposed and flattened. -/
def WA (d : Dev nD) : Valuation τ sig (Elt F) := after opsA (W0 m d)
/-- The flattened transposed tokens and the table, as the gather kernels read them. -/
def tokT (d : Dev nD) : S32768.Idx → Elt F .i32 := WA m d rTok
def embT (d : Dev nD) : S100000x128.Idx → Elt F .f32 := WA m d rEmb
/-- After the first gather, after the second. -/
def W1 (d : Dev nD) : Valuation τ sig (Elt F) := Function.update (WA m d) rX0 (X0 (tokT m d) (embT m d))
def W2 (d : Dev nD) : Valuation τ sig (Elt F) := Function.update (W1 m d) rX1 (X1 (tokT m d) (embT m d))
/-- After the regions' operands are made. -/
def WB (d : Dev nD) : Valuation τ sig (Elt F) := after opsB (W2 m d)

/-! ## What the handshakes carry

Each gather call takes, per SparseCore and tile, a share of the flattened tokens and of the table and the tile's rows
of the call's output, and brings them back with the rows at the gathered values. A SparseCore's operands are its
sixteen tiles' at once, so the sequencer's split into tasks is the identity; the TensorCore splits the whole arrays
into the thirty-two tiles' parts at the call and joins them after it. -/

/-- Share number `n` of `2 ^ k` equal parts of a share: the binary digits of `n` choose the halves. -/
def leafSh : (k : ℕ) → PosShare TreeShare → ℕ → PosShare TreeShare
  | 0, q, _ => q
  | k + 1, q, n => if n % 2 = 0 then leafSh k q.left (n / 2) else leafSh k q.right (n / 2)

/-- The share tile `i` of SparseCore `c` holds of an array all thirty-two tiles read. -/
abbrev tileSh (c i : ℕ) : PosShare TreeShare := leafSh 5 fullShare (2 * i + c)

local notation "𝕄" => MM F

/-- Tile `(c, i)`'s part at the first call, its output rows at `f`. -/
abbrev tile0 (d : Dev nD) (c i : ℕ) (f : Buf (Elt F) (x0Loc d)) : sProp 𝕄 :=
  iprop((tokLoc d ↦{tileSh c i} tokT m d) ∗ (embLoc d ↦{tileSh c i} embT m d) ∗ x0Loc d ↦[rowsOf S4096x128 (256 * i + 128 * c) 128]{fullShare} f)
/-- and at the second. -/
abbrev tile1 (d : Dev nD) (c i : ℕ) (f : Buf (Elt F) (x1Loc d)) : sProp 𝕄 :=
  iprop((tokLoc d ↦{tileSh c i} tokT m d) ∗ (embLoc d ↦{tileSh c i} embT m d) ∗ x1Loc d ↦[rowsOf S28672x128 (1792 * i + 896 * c) 896]{fullShare} f)

def P : (K (F := F)).Pay (nD := nD) (Val := Elt F) (Name := ℕ) (U := UU) where
  st := fun q d c => match q with
    | 0 => bigSep Finset.univ fun i : Fin 16 => tile0 m d c.val i.val (WA m d rX0)
    | 1 => bigSep Finset.univ fun i : Fin 16 => tile1 m d c.val i.val (W1 m d rX1)
  dn := fun q d c => match q with
    | 0 => bigSep Finset.univ fun i : Fin 16 => tile0 m d c.val i.val (X0 (tokT m d) (embT m d))
    | 1 => bigSep Finset.univ fun i : Fin 16 => tile1 m d c.val i.val (X1 (tokT m d) (embT m d))
  go := fun q d c i => match q with
    | 0 => tile0 m d c.val i.val (WA m d rX0)
    | 1 => tile1 m d c.val i.val (W1 m d rX1)
  td := fun q d c i => match q with
    | 0 => tile0 m d c.val i.val (X0 (tokT m d) (embT m d))
    | 1 => tile1 m d c.val i.val (X1 (tokT m d) (embT m d))
  x := fun _ _ => iprop(emp)

instance P_storable : (P (F := F) m).IsStorable where
  st q d c := match q with
    | 0 => (inferInstance : BI.Storable (upEmb : UEmb _ 𝕄) (bigSep Finset.univ fun i : Fin 16 => tile0 m d c.val i.val (WA m d rX0)))
    | 1 => (inferInstance : BI.Storable (upEmb : UEmb _ 𝕄) (bigSep Finset.univ fun i : Fin 16 => tile1 m d c.val i.val (W1 m d rX1)))
  dn q d c := match q with
    | 0 => (inferInstance : BI.Storable (upEmb : UEmb _ 𝕄) (bigSep Finset.univ fun i : Fin 16 => tile0 m d c.val i.val (X0 (tokT m d) (embT m d))))
    | 1 => (inferInstance : BI.Storable (upEmb : UEmb _ 𝕄) (bigSep Finset.univ fun i : Fin 16 => tile1 m d c.val i.val (X1 (tokT m d) (embT m d))))
  go q d c i := match q with
    | 0 => (inferInstance : BI.Storable (upEmb : UEmb _ 𝕄) (tile0 m d c.val i.val (WA m d rX0)))
    | 1 => (inferInstance : BI.Storable (upEmb : UEmb _ 𝕄) (tile1 m d c.val i.val (W1 m d rX1)))
  td q d c i := match q with
    | 0 => (inferInstance : BI.Storable (upEmb : UEmb _ 𝕄) (tile0 m d c.val i.val (X0 (tokT m d) (embT m d))))
    | 1 => (inferInstance : BI.Storable (upEmb : UEmb _ 𝕄) (tile1 m d c.val i.val (X1 (tokT m d) (embT m d))))

end Cert.Proof.KI

end
-- ==== Proof.Gather0.lean ====
/-
  The first gather kernel's task on one vector subcore.

  Tile number `wid = 2 * subcore + core` fetches the 128 token words of positions `p₀ .. p₀ + 7`, `p₀ = 2040 - 8 * wid`
  (sixteen sequences each, flat offset `p₀ * 16`), reverses the eight 16-lane groups, gathers the table's rows at
  the reversed words and writes them to rows `[128 * wid, 128 * wid + 128)` of the output. Output row
  `r = 128 * wid + 16 * tl + i` so holds the table's row at the token of position `p₀ + 7 - tl = 2047 - r / 16` of
  sequence `i = r % 16`: the entry of `X0`.
-/
import proofs.«205923_g40089224741417_cont_sun_m_110_39_alg».proof.Proof.Common
import proofs.«205923_g40089224741417_cont_sun_m_110_39_alg».proof.Proof.Gen.KernelIdeal.Skeleton
import Idealize.ShloMosaic.Lib.ValueIdx
import Idealize.ShloMosaic.Lib.Writes
import Idealize.ShloMosaic.Lib.WritesUnit
import Idealize.ShloMosaic.Lib.Pipeline.Value
import Idealize.ShloMosaic.Lib.Exec.Geometry

noncomputable section

namespace Cert.Proof.KI.Gather0

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 2) (Elt F) ℕ UU ℕ

/-! ## The tile and the arrays as it addresses them -/

abbrev cV (L : grid0.Coords) : Fin τ.nSC := (L 0).castLE hcore0
abbrev jV (L : grid0.Coords) : Fin τ.nSub := (L 1).castLE hsub0

/-- The tile's first output row: `128 * (2 * subcore + core)`. -/
abbrev lo0 (L : grid0.Coords) : ℕ := 256 * (L 1).val + 128 * (L 0).val

local notation "tokV" => (Memref.whole Cert.KernelIdeal.main_v1_scv : Memref Cert.KernelIdeal.sig Kind.scVector Space.hbm Cert.KernelIdeal.S32768 EltTy.i32)
local notation "embV" => (Memref.whole Cert.KernelIdeal.main_arg2_scv : Memref Cert.KernelIdeal.sig Kind.scVector Space.hbm Cert.KernelIdeal.S100000x128 EltTy.f32)
local notation "outV" => (Memref.whole Cert.KernelIdeal.main_v2_scv : Memref Cert.KernelIdeal.sig Kind.scVector Space.hbm Cert.KernelIdeal.S4096x128 EltTy.f32)
local notation "s0V" => (Memref.whole Cert.KernelIdeal.cc0_scratch0 : Memref Cert.KernelIdeal.sig Kind.scVector Space.vmem Cert.KernelIdeal.S128 EltTy.i32)
local notation "s1V" => (Memref.whole Cert.KernelIdeal.cc0_scratch1 : Memref Cert.KernelIdeal.sig Kind.scVector Space.vmem Cert.KernelIdeal.S128 EltTy.i32)
local notation "s2V" => (Memref.whole Cert.KernelIdeal.cc0_scratch2 : Memref Cert.KernelIdeal.sig Kind.scVector Space.vmem Cert.KernelIdeal.S128 EltTy.i32)
local notation "s3V" => (Memref.whole Cert.KernelIdeal.cc0_scratch3 : Memref Cert.KernelIdeal.sig Kind.scVector Space.vmem Cert.KernelIdeal.S128x128 EltTy.f32)
local notation "s4V" => (Memref.whole Cert.KernelIdeal.cc0_scratch4 : Memref Cert.KernelIdeal.sig Kind.scVector Space.vmem Cert.KernelIdeal.S128x128 EltTy.f32)

/-- The 128 token words the tile fetches, the 128 output rows it writes and the whole table, as the program slices them. -/
abbrev tokK (L : grid0.Coords) : Memref sig .scVector .hbm S128 .i32 :=
  (tokV).slice (Rect.unit (s := S32768) (k0_off1 L) S128.size (k0_off1_inb L)) (fun _ => rfl)
abbrev outK (L : grid0.Coords) : Memref sig .scVector .hbm S128x128 .f32 :=
  (outV).slice (Rect.unit (s := S4096x128) (k0_off2 L) S128x128.size (k0_off2_inb L)) (fun _ => rfl)
abbrev embK : Memref sig .scVector .hbm S100000x128 .f32 :=
  (embV).slice (Rect.unit (s := S100000x128) ![0, 0] S100000x128.size inb_S100000x128_S100000x128_0_0) (fun _ => rfl)

/-- The rows the program's output slice names are the tile's 128 rows, every column. -/
theorem set_outK (L : grid0.Coords) : (outK L).view.set = rowsOf S4096x128 (lo0 L) 128 := by
  show ((View.whole (main_v2_scv : Ref sig .scVector)).slice (Rect.unit (s := S4096x128) (k0_off2 L) S128x128.size (k0_off2_inb L))).set = _
  rw [View.set_slice_whole]
  ext j
  rw [Rect.mem_set_unit, k0_off2_eq]
  unfold rowsOf
  simp only [Finset.mem_filter, Finset.mem_univ, true_and]
  constructor
  · intro h; exact h 0
  · intro h a
    match a with
    | 0 => exact h
    | 1 =>
      have h1 : (j 1).val < 128 := (j 1).isLt
      exact ⟨Nat.zero_le _, by show (j 1).val < 0 + 128; omega⟩

/-! ## The value: the reversed token groups, the gathered rows -/

/-- One 16-word group written at word `o` reads, at a word of the 128, the group's payload inside `[o, o + 16)` and the
    older writes outside. -/
theorem read_cons16 {κ : Kind} {sp : Space} (v : View sig κ sp S128 .i32) (f : v.ty.Contents (Elt F)) (o : ℕ)
    (inb : ∀ a, (![o] : Fin 1 → ℕ) a + S16.size a ≤ S128.size a)
    (w : (Rect.unit (s := S128) ![o] S16.size inb).shape.Idx → BitVec 32) (Ls : List (View.Piece (Elt F) S128 .i32)) (x : S128.Idx) :
    v.read (Elt F) (v.writes (Elt F) f ((⟨Rect.unit (s := S128) ![o] S16.size inb, w⟩ : View.Piece (Elt F) S128 .i32) :: Ls)) x
      = if h : o ≤ (x 0).val ∧ (x 0).val < o + 16 then w (ix1 ⟨(x 0).val - o, by omega⟩) else v.read (Elt F) (v.writes (Elt F) f Ls) x := by
  by_cases h : o ≤ (x 0).val ∧ (x 0).val < o + 16
  · rw [dif_pos h]
    exact View.read_writes_cons_unit_of_mem v f inb w Ls x (ix1 ⟨(x 0).val - o, by omega⟩) rfl (fun a => by
      match a with
      | ⟨0, _⟩ => show (x 0).val = o + ((x 0).val - o); omega)
  · rw [dif_neg h]
    exact View.read_writes_cons_unit_of_not_mem v f inb w Ls x rfl 0 (by show (x 0).val < o ∨ o + 16 ≤ (x 0).val; omega)

/-- Eight groups written at words `0, 16, …, 112`, group `k` holding group `7 - k` of `g`: word `x` then holds word
    `(7 - x / 16) * 16 + x % 16` of `g`, whatever was there before. -/
theorem read_rev {κ : Kind} {sp : Space} (v : View sig κ sp S128 .i32) (f : v.ty.Contents (Elt F)) (g : S128.Idx → BitVec 32)
    (w0 w1 w2 w3 w4 w5 w6 w7 : S16.Idx → BitVec 32)
    (h0 : ∀ (i : ℕ) (hi : i < 16), w0 (ix1 ⟨i, hi⟩) = g (ix1 ⟨112 + i, by omega⟩))
    (h1 : ∀ (i : ℕ) (hi : i < 16), w1 (ix1 ⟨i, hi⟩) = g (ix1 ⟨96 + i, by omega⟩))
    (h2 : ∀ (i : ℕ) (hi : i < 16), w2 (ix1 ⟨i, hi⟩) = g (ix1 ⟨80 + i, by omega⟩))
    (h3 : ∀ (i : ℕ) (hi : i < 16), w3 (ix1 ⟨i, hi⟩) = g (ix1 ⟨64 + i, by omega⟩))
    (h4 : ∀ (i : ℕ) (hi : i < 16), w4 (ix1 ⟨i, hi⟩) = g (ix1 ⟨48 + i, by omega⟩))
    (h5 : ∀ (i : ℕ) (hi : i < 16), w5 (ix1 ⟨i, hi⟩) = g (ix1 ⟨32 + i, by omega⟩))
    (h6 : ∀ (i : ℕ) (hi : i < 16), w6 (ix1 ⟨i, hi⟩) = g (ix1 ⟨16 + i, by omega⟩))
    (h7 : ∀ (i : ℕ) (hi : i < 16), w7 (ix1 ⟨i, hi⟩) = g (ix1 ⟨0 + i, by omega⟩))
    (x : S128.Idx) (hx : (7 - (x 0).val / 16) * 16 + (x 0).val % 16 < 128) :
    v.read (Elt F) (v.writes (Elt F) f
        [⟨Rect.unit (s := S128) ![112] S16.size inb_S128_S16_112, w7⟩, ⟨Rect.unit (s := S128) ![96] S16.size inb_S128_S16_96, w6⟩,
         ⟨Rect.unit (s := S128) ![80] S16.size inb_S128_S16_80, w5⟩, ⟨Rect.unit (s := S128) ![64] S16.size inb_S128_S16_64, w4⟩,
         ⟨Rect.unit (s := S128) ![48] S16.size inb_S128_S16_48, w3⟩, ⟨Rect.unit (s := S128) ![32] S16.size inb_S128_S16_32, w2⟩,
         ⟨Rect.unit (s := S128) ![16] S16.size inb_S128_S16_16, w1⟩, ⟨Rect.unit (s := S128) ![0] S16.size inb_S128_S16_0, w0⟩]) x
      = g (ix1 ⟨(7 - (x 0).val / 16) * 16 + (x 0).val % 16, hx⟩) := by
  have hx0 : (x 0).val < 128 := (x 0).isLt
  rw [read_cons16, read_cons16, read_cons16, read_cons16, read_cons16, read_cons16, read_cons16, read_cons16]
  split_ifs with c7 c6 c5 c4 c3 c2 c1 c0
  · rw [h7]; exact congrArg g (congrArg ix1 (Fin.ext (by dsimp only; omega)))
  · rw [h6]; exact congrArg g (congrArg ix1 (Fin.ext (by dsimp only; omega)))
  · rw [h5]; exact congrArg g (congrArg ix1 (Fin.ext (by dsimp only; omega)))
  · rw [h4]; exact congrArg g (congrArg ix1 (Fin.ext (by dsimp only; omega)))
  · rw [h3]; exact congrArg g (congrArg ix1 (Fin.ext (by dsimp only; omega)))
  · rw [h2]; exact congrArg g (congrArg ix1 (Fin.ext (by dsimp only; omega)))
  · rw [h1]; exact congrArg g (congrArg ix1 (Fin.ext (by dsimp only; omega)))
  · rw [h0]; exact congrArg g (congrArg ix1 (Fin.ext (by dsimp only; omega)))
  · exfalso; omega

/-- A buffer just overwritten whole reads, through any rectangle, the payload there. -/
theorem readAt_write_whole {κ : Kind} (b : Ref sig κ) (f w : b.ty.Contents (Elt F)) (r : LoadRect b.ty.shape) (x : r.shape.Idx) :
    (Memref.whole b).view.readAt (Elt F) r ((Memref.whole b).view.write (Elt F) f w Finset.univ) x = w (r.idx x) := by
  show (View.whole b).readAt (Elt F) r ((View.whole b).write (Elt F) f w Finset.univ) x = w (r.idx x)
  rw [View.write_whole_univ, View.readAt_apply, View.read_whole]

/-- A 16-word group loaded at word `o` of the first scratch just overwritten whole reads the payload's words
    `o .. o + 15`. -/
theorem load16 (f w : S128.Idx → BitVec 32) (o : ℕ) (ho : o + 16 ≤ 128) (inb : ∀ a, (![o] : Fin 1 → ℕ) a + S16.size a ≤ S128.size a) (i : ℕ) (hi : i < 16) :
    (s0V).view.readAt (Elt F) (Rect.unit (s := S128) ![o] S16.size inb).toLoadRect ((s0V).view.write (Elt F) f w Finset.univ) (ix1 ⟨i, hi⟩)
      = w (ix1 ⟨o + i, by omega⟩) :=
  (readAt_write_whole (F := F) cc0_scratch0 f w (Rect.unit (s := S128) ![o] S16.size inb).toLoadRect (ix1 ⟨i, hi⟩)).trans
    (congrArg w (funext fun a => by
      match a with
      | ⟨0, _⟩ => exact Fin.ext (by show o + 1 * i = o + i; omega)))

theorem L0_lt (L : grid0.Coords) : (L 0).val < 2 := (L 0).isLt
theorem L1_lt (L : grid0.Coords) : (L 1).val < 16 := (L 1).isLt

/-- The fetched slice reads the transposed tokens from flat offset `32640 - 128 * wid = (2040 - 8 * wid) * 16`. -/
theorem tokK_read (L : grid0.Coords) (tokT : S32768.Idx → BitVec 32) (x : S128.Idx) :
    (tokK L).view.read (Elt F) tokT x
      = tokT (ix1 ⟨32640 - (256 * (L 1).val + 128 * (L 0).val) + (x 0).val, by
          have := L0_lt L; have := L1_lt L; have : (x 0).val < 128 := (x 0).isLt; omega⟩) := by
  refine ((View.read_apply _ _).trans (cast_eq _ _)).trans (congrArg tokT ?_)
  funext a
  match a with
  | ⟨0, _⟩ =>
    refine Fin.ext ?_
    show k0_off1 L 0 + 1 * (x 0).val = 32640 - (256 * (L 1).val + 128 * (L 0).val) + (x 0).val
    rw [k0_off1_eq]
    show 32640 - (256 * (L 1).val + 128 * (L 0).val) + 1 * (x 0).val = _
    omega

/-- The gather's payload at row `j`, column `k`: the table's row the list names for `j`, at column `k`. -/
theorem gather_apply (tab : S100000x128.Idx → Elt F .f32) (r : Fin 128 → Fin 100000) (x : S128x128.Idx) :
    SparseCore.gatherPayload (F := F) gathers_S100000x128_S128x128 tab r x = tab (ix2 (r (x 0)) (x 1)) := by
  unfold SparseCore.gatherPayload
  refine congrArg tab (funext fun b => ?_)
  match b with
  | ⟨0, _⟩ => exact Shape.Gathers.idx_axis gathers_S100000x128_S128x128 r x
  | ⟨1, _⟩ => exact Fin.ext (Shape.Gathers.idx_of_ne gathers_S100000x128_S128x128 r x ⟨1, by decide⟩ (by decide))

/-- Entry `k` of a 128-word list is its word `k`. -/
theorem rows_apply (idx : S128.Idx → Elt F .i32) (h : ∀ x, (idx x).toNat < 100000) (k : Fin 128) :
    (SparseCore.rows (F := F) (si := S128) (o := 128) (z := 100000) idx rfl h k).val = (idx (ix1 k)).toNat := by
  unfold SparseCore.rows
  show (idx _).toNat = _
  congr 2
  exact (Equiv.symm_apply_eq _).mpr (Fin.ext (Shape.rowMajor_val_one (d := ![128]) (ix1 k)).symm)

/-- The table through the whole-table slice the program gathers from reads the table. -/
theorem embK_read (emb : S100000x128.Idx → Elt F .f32) (z : S100000x128.Idx) : (embK).view.read (Elt F) emb z = emb z := by
  refine ((View.read_apply _ _).trans (cast_eq _ _)).trans (congrArg emb ?_)
  funext a
  match a with
  | ⟨0, _⟩ => exact Fin.ext (by show 0 + 1 * (z 0).val = (z 0).val; omega)
  | ⟨1, _⟩ => exact Fin.ext (by show 0 + 1 * (z 1).val = (z 1).val; omega)

/-- Row `j`, column `k` of the output slice is row `128 * wid + j`, column `k` of the output. -/
theorem outK_emb (L : grid0.Coords) (y : S128x128.Idx) :
    (outK L).view.emb y = (ix2 (⟨256 * (L 1).val + 128 * (L 0).val + (y 0).val, by
      have := L0_lt L; have := L1_lt L; have : (y 0).val < 128 := (y 0).isLt; omega⟩ : Fin 4096) (y 1) : S4096x128.Idx) := by
  funext a
  match a with
  | ⟨0, _⟩ =>
    refine Fin.ext ?_
    show k0_off2 L 0 + 1 * (y 0).val = 256 * (L 1).val + 128 * (L 0).val + (y 0).val
    rw [k0_off2_eq]
    show 256 * (L 1).val + 128 * (L 0).val + 1 * (y 0).val = _
    omega
  | ⟨1, _⟩ =>
    refine Fin.ext ?_
    show k0_off2 L 1 + 1 * (y 1).val = (y 1).val
    rw [k0_off2_eq]
    show 0 + 1 * (y 1).val = _
    omega

/-- An entry of the first gathered array, its token's flat index given in any equal form. -/
theorem X0_eq (tokT : S32768.Idx → Elt F .i32) (emb : S100000x128.Idx → Elt F .f32) (r : Fin 4096) (k : Fin 128) (n : ℕ) (hn : n < 32768)
    (hr : (2047 - r.val / 16) * 16 + r.val % 16 = n) (hlt : (tokT (ix1 ⟨n, hn⟩)).toNat < 100000) :
    X0 tokT emb (ix2 r k) = emb (ix2 ⟨(tokT (ix1 ⟨n, hn⟩)).toNat, hlt⟩ k) := by
  have key : ∀ (a : Fin 32768) (b : Fin 100000) (c : Fin 128), a.val = n → b.val = (tokT (ix1 a)).toNat % 100000 → c.val = k.val % 128 →
      emb (ix2 b c) = emb (ix2 ⟨(tokT (ix1 ⟨n, hn⟩)).toNat, hlt⟩ k) := by
    intro a b c ha hb hc
    obtain rfl : a = ⟨n, hn⟩ := Fin.ext ha
    obtain rfl : b = ⟨_, hlt⟩ := Fin.ext (hb.trans (Nat.mod_eq_of_lt hlt))
    obtain rfl : c = k := Fin.ext (hc.trans (Nat.mod_eq_of_lt k.isLt))
    rfl
  unfold X0 embAt tokAt
  exact key _ _ _ ((Nat.mod_eq_of_lt (by rw [hr]; exact hn)).trans hr) rfl rfl

section Tile

variable (d : Dev nD) (L : grid0.Coords)

/-! ## The tile's own semaphores and buffers among its scoped ones -/

/-- The cell of the token fetch, of the gather and of the copy-out. -/
abbrev cellT (d : Dev nD) (c : Fin τ.nSC) (i : Fin τ.nSub) : GSem nD τ sig := (V d c i, .dma cc0_scoped0.sem)
abbrev cellG (d : Dev nD) (c : Fin τ.nSC) (i : Fin τ.nSub) : GSem nD τ sig := (V d c i, .dma cc0_scratch5.sem)
abbrev cellO (d : Dev nD) (c : Fin τ.nSC) (i : Fin τ.nSub) : GSem nD τ sig := (V d c i, .dma cc0_scratch7.sem)

theorem ownSems0_V :
    (ownSems0 (V d (cV L) (jV L)) : sProp 𝕄)
      = iprop(semVal (cellT d (cV L) (jV L)) 0 ∗ semVal (cellG d (cV L) (jV L)) 0 ∗ semVal (cellO d (cV L) (jV L)) 0
          ∗ bigSep ((((ownCells (V d (cV L) (jV L))).erase (cellT d (cV L) (jV L))).erase (cellG d (cV L) (jV L))).erase (cellO d (cV L) (jV L))) fun g => semVal g 0) := by
  unfold SparseCore.Cfg.ownSems0
  rw [SparseCore.bigSep_erase' ((mem_ownCells (g := cellT d (cV L) (jV L))).mpr ⟨rfl, by
      show (SemLoc.dma cc0_scoped0.sem : SemLoc sig).isScoped .scVector = true; decide⟩),
    SparseCore.bigSep_erase' (Finset.mem_erase.mpr ⟨by simp [cellT, cellG]; decide, (mem_ownCells (g := cellG d (cV L) (jV L))).mpr ⟨rfl, by
      show (SemLoc.dma cc0_scratch5.sem : SemLoc sig).isScoped .scVector = true; decide⟩⟩),
    SparseCore.bigSep_erase' (Finset.mem_erase.mpr ⟨by simp [cellG, cellO]; decide, Finset.mem_erase.mpr ⟨by simp [cellT, cellO]; decide,
      (mem_ownCells (g := cellO d (cV L) (jV L))).mpr ⟨rfl, by show (SemLoc.dma cc0_scratch7.sem : SemLoc sig).isScoped .scVector = true; decide⟩⟩⟩)]

/-- The three scratch buffers the task uses are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch3 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector (cV L) (jV L)) (b := (Proc.scVector (cV L) (jV L)).devRef cc0_scratch3) rfl⟩⟩)]

/-! ## The arrays as the tile holds them -/

theorem pts_tokV (q : PosShare TreeShare) (f : Buf (Elt F) (tokLoc d)) :
    ((tokV).view.loc (V d (cV L) (jV L)) ↦{q} f : sProp 𝕄) = tokLoc d ↦{q} f := rfl
theorem pts_embV (q : PosShare TreeShare) (f : Buf (Elt F) (embLoc d)) :
    ((embV).view.loc (V d (cV L) (jV L)) ↦{q} f : sProp 𝕄) = embLoc d ↦{q} f := rfl
theorem pts_outK (f : Buf (Elt F) (x0Loc d)) :
    ((outK L).view.loc (V d (cV L) (jV L)) ↦[(outK L).view.set]{fullShare} f : sProp 𝕄) = x0Loc d ↦[rowsOf S4096x128 (lo0 L) 128]{fullShare} f := by
  rw [set_outK]
theorem pts_s0V (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
theorem pts_s1V (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
theorem pts_s3V (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl

set_option maxHeartbeats 4000000 in
theorem tile_body (tokT : Buf (Elt F) (tokLoc d)) (emb : Buf (Elt F) (embLoc d)) (f0 : Buf (Elt F) (x0Loc d))
    (htok : ∀ j, (tokT j).toNat < 100000) (qt qe : PosShare TreeShare)
    (hF : (K (F := F)).Facts) (O : CellTallies nD τ sig (HIx 2)) (W : Waits sig (HIx 2)) (hO : ∀ g, O g none = 0) :
    iprop(levAts (K (F := F)).L (K (F := F)).lev ∗ emp
        ∗ ((tokLoc d ↦{qt} tokT) ∗ (embLoc d ↦{qe} emb) ∗ (x0Loc d ↦[rowsOf S4096x128 (lo0 L) 128]{fullShare} f0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__gather_body L tokV (Memref.isWhole_whole _) embV (Memref.isWhole_whole _) outV (Memref.isWhole_whole _)
            s0V (Memref.isWhole_whole _) s1V (Memref.isWhole_whole _) s2V (Memref.isWhole_whole _)
            s3V (Memref.isWhole_whole _) s4V (Memref.isWhole_whole _) cc0_scratch5 cc0_scratch6 cc0_scratch7 cc0_scratch8 cc0_scoped0)
          fun _ => iprop(((tokLoc d ↦{qt} tokT) ∗ (embLoc d ↦{qe} emb) ∗ (x0Loc d ↦[rowsOf S4096x128 (lo0 L) 128]{fullShare} X0 tokT emb))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  iintro ⟨#Hlv, -, ⟨Ht, He, Ho⟩, ⟨⟨%fs0, Hs0⟩, ⟨%fs1, Hs1⟩, ⟨%fs3, Hs3⟩, Hbufs⟩, ⟨HsemT, HsemG, HsemO, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Ht' := (Entails.of_eq (pts_tokV (F := F) d L _ _).symm) $$ Ht
  ihave He' := (Entails.of_eq (pts_embV (F := F) d L _ _).symm) $$ He
  ihave Ho' := (Entails.of_eq (pts_outK (F := F) d L _).symm) $$ Ho
  ihave Hs0' := (Entails.of_eq (pts_s0V (F := F) d L _).symm) $$ Hs0
  ihave Hs1' := (Entails.of_eq (pts_s1V (F := F) d L _).symm) $$ Hs1
  ihave Hs3' := (Entails.of_eq (pts_s3V (F := F) d L _).symm) $$ Hs3
  -- the token fetch and its wait, the eight loads and stores of the reversal
  sl_exec
  -- what the second scratch now holds: word x is the token of position p₀ + 7 - x / 16 of sequence x % 16
  have hs1 : ∀ x : S128.Idx, (s1V).view.read (Elt F) ((s1V).view.writes (Elt F) (s1V).view.junk (tile_body.sl.Hs1'_8 d L tokT fs0)) x
      = tokT (ix1 ⟨32640 - (256 * (L 1).val + 128 * (L 0).val) + ((7 - (x 0).val / 16) * 16 + (x 0).val % 16), by
          have := L0_lt L; have := L1_lt L; have : (x 0).val < 128 := (x 0).isLt; omega⟩) := by
    intro x
    have hx0 : (x 0).val < 128 := (x 0).isLt
    unfold tile_body.sl.Hs1'_8
    refine (read_rev (F := F) (s1V).view _ (tile_body.sl.dma0 d L tokT) _ _ _ _ _ _ _ _
      (fun i hi => by unfold tile_body.sl.v27 tile_body.sl.v24; rw [shapeCast_self, shapeCast_self]; exact load16 _ _ 112 (by omega) _ i hi)
      (fun i hi => by unfold tile_body.sl.v32 tile_body.sl.v29; rw [shapeCast_self, shapeCast_self]; exact load16 _ _ 96 (by omega) _ i hi)
      (fun i hi => by unfold tile_body.sl.v37 tile_body.sl.v34; rw [shapeCast_self, shapeCast_self]; exact load16 _ _ 80 (by omega) _ i hi)
      (fun i hi => by unfold tile_body.sl.v42 tile_body.sl.v39; rw [shapeCast_self, shapeCast_self]; exact load16 _ _ 64 (by omega) _ i hi)
      (fun i hi => by unfold tile_body.sl.v47 tile_body.sl.v44; rw [shapeCast_self, shapeCast_self]; exact load16 _ _ 48 (by omega) _ i hi)
      (fun i hi => by unfold tile_body.sl.v52 tile_body.sl.v49; rw [shapeCast_self, shapeCast_self]; exact load16 _ _ 32 (by omega) _ i hi)
      (fun i hi => by unfold tile_body.sl.v57 tile_body.sl.v54; rw [shapeCast_self, shapeCast_self]; exact load16 _ _ 16 (by omega) _ i hi)
      (fun i hi => by unfold tile_body.sl.v62 tile_body.sl.v59; rw [shapeCast_self, shapeCast_self]; exact load16 _ _ 0 (by omega) _ i hi)
      x (by omega)).trans ?_
    unfold tile_body.sl.dma0
    rw [ReadAs.apply_same]
    exact tokK_read (F := F) L tokT _
  have hin : ∀ x, ((s1V).view.read (Elt F) ((s1V).view.writes (Elt F) (s1V).view.junk (tile_body.sl.Hs1'_8 d L tokT fs0)) x).toNat
      < S100000x128.size gathers_S100000x128_S128x128.axis := fun x => by rw [hs1 x]; exact htok _
  -- the gather: a share of the table, the row buffer, the list's buffer, the cell at zero
  ihave Hes := (pointsTo_split_subset (q := qe) (f := emb) (S := Finset.univ) (Finset.subset_univ (embK).view.set)).1 $$ He'
  icases Hes with ⟨Hes, Her⟩
  have h3s : (s3V).view.set = Finset.univ := View.set_whole _
  have h1s : (s1V).view.set = Finset.univ := View.set_whole _
  ihave Hs3'' := (Entails.of_eq (show ((s3V).view.loc (V d (cV L) (jV L)) ↦{fullShare} fs3 : sProp 𝕄)
      = (s3V).view.loc (V d (cV L) (jV L)) ↦[(s3V).view.set]{fullShare} fs3 by rw [h3s])) $$ Hs3'
  ihave Hs1'' := (Entails.of_eq (show ((s1V).view.loc (V d (cV L) (jV L)) ↦{fullShare}
        (s1V).view.writes (Elt F) (s1V).view.junk (tile_body.sl.Hs1'_8 d L tokT fs0) : sProp 𝕄)
      = (s1V).view.loc (V d (cV L) (jV L)) ↦[(s1V).view.set]{fullShare} (s1V).view.writes (Elt F) (s1V).view.junk (tile_body.sl.Hs1'_8 d L tokT fs0)
      by rw [h1s])) $$ Hs1'
  iapply (SparseCore.wp_indirectGatherLocal countersEmb 𝒱₀ (V d (cV L) (jV L)) none (hg := gathers_S100000x128_S128x128) (default : HIx 2)
      (s3V).view.dmaCredit (SparseCore.sum_rowCredit_eq_dmaCredit (s3V) _ (fun _ => rfl)) h_S128x128 hin) $$ [Hes Hs3'' Hs1'' HsemG]
  · isplitl [Hes]; · iexact Hes
    isplitl [Hs3'']; · iexact Hs3''
    isplitl [Hs1'']; · iexact Hs1''
    iexact HsemG
  iintro Hfl
  sl_exec
  -- its wait: the row buffer written with the gathered rows, the table's share and the list back
  iapply (Transfers.wp_waitLocalO countersEmb 𝒱₀ (V d (cV L) (jV L)) none (default : HIx 2) (rfl : (s3V).view.dmaCredit = _)) $$ [Hfl HO]
  · isplitl [Hfl]; · iexact Hfl
    isplitl [HO]; · iexact HO
    iapply (Transfers.MayWaits.elim (SemLoc.dma cc0_scratch5.sem)) $$ Hmw
  iintro ⟨⟨Hs3', Hes, Hs1'⟩, HsemG, HO⟩
  ihave He' := (pointsTo_split_subset (q := qe) (f := emb) (S := Finset.univ) (Finset.subset_univ (embK).view.set)).2 $$ [Hes Her]; · isplitl [Hes] <;> iassumption
  ihave Hs3a := (Entails.of_eq (show ((s3V).view.loc (V d (cV L) (jV L)) ↦[(s3V).view.set]{fullShare} _ : sProp 𝕄)
      = (s3V).view.loc (V d (cV L) (jV L)) ↦{fullShare} _ by rw [h3s])) $$ Hs3'
  ihave Hs1a := (Entails.of_eq (show ((s1V).view.loc (V d (cV L) (jV L)) ↦[(s1V).view.set]{fullShare} _ : sProp 𝕄)
      = (s1V).view.loc (V d (cV L) (jV L)) ↦{fullShare} _ by rw [h1s])) $$ Hs1'
  -- the copy-out and its wait
  sl_exec
  have hval : ∀ j ∈ (outK L).view.set,
      (outK L).view.writes (Elt F) f0 [⟨Rect.whole S128x128, tile_body.sl.dma0_1 d L tokT emb fs0 fs3 hin⟩] j = X0 tokT emb j := by
    intro j hj
    obtain ⟨y, -, rfl⟩ := Finset.mem_map.mp hj
    refine (((View.read_apply _ _).trans (cast_eq _ _)).symm.trans (congrFun (View.read_writes_whole _ _ _) y)).trans ?_
    unfold tile_body.sl.dma0_1
    rw [ReadAs.apply_same, View.read_write_univ]
    refine (gather_apply _ _ y).trans ?_
    refine (embK_read _ _).trans ?_
    have hy0 : (y 0).val < 128 := (y 0).isLt
    have hL0 := L0_lt L
    have hL1 := L1_lt L
    have hn : 32640 - (256 * (L 1).val + 128 * (L 0).val) + ((7 - (y 0).val / 16) * 16 + (y 0).val % 16) < 32768 := by omega
    rw [outK_emb]
    refine Eq.trans ?_ (X0_eq tokT emb ⟨256 * (L 1).val + 128 * (L 0).val + (y 0).val, by omega⟩ (y 1) _ hn (by dsimp only; omega) (htok _)).symm
    refine congrArg emb (congrArg (fun r => ix2 r (y 1)) (Fin.ext ?_))
    exact (rows_apply _ _ _).trans (congrArg BitVec.toNat (hs1 (ix1 (y 0))))
  sl_step
  isplitl [Ht' He' Ho']
  · isplitl [Ht']; · iexact Ht'
    isplitl [He']; · iexact He'
    iapply (Entails.of_eq ((pointsTo_congr hval).trans (pts_outK (F := F) d L _))); iexact Ho'
  isplitl [Hs0' Hs1a Hs3a Hbufs]
  · isplitl [Hs0']; · iexists _; iexact Hs0'
    isplitl [Hs1a]; · iexists _; iexact Hs1a
    isplitl [Hs3a]; · iexists _; iexact Hs3a
    iexact Hbufs
  isplitl [HsemT HsemG HsemO Hsems]
  · isplitl [HsemT]; · iexact HsemT
    isplitl [HsemG]; · iexact HsemG
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The task as the launch theorem spells it -/

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0__gather_body (coordsV c s)
          tokV (Memref.isWhole_whole _) embV (Memref.isWhole_whole _) outV (Memref.isWhole_whole _)
          s0V (Memref.isWhole_whole _) s1V (Memref.isWhole_whole _) s2V (Memref.isWhole_whole _)
          s3V (Memref.isWhole_whole _) s4V (Memref.isWhole_whole _) cc0_scratch5 cc0_scratch6 cc0_scratch7 cc0_scratch8 cc0_scoped0) ⟨⟩ c s := rfl

theorem task_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The first call's task on vector subcore `i` of SparseCore `c`, in the launch theorem's own spelling of thread and
    program: from shares of the tokens and the table and the tile's 128 output rows, to the same with the rows at
    `X0`. -/
theorem tile_task0 (d : Dev nD) (c : Fin ((K (F := F)).nCore 0)) (i : Fin ((K (F := F)).nSub 0))
    (tokT : Buf (Elt F) (tokLoc d)) (emb : Buf (Elt F) (embLoc d)) (f0 : Buf (Elt F) (x0Loc d))
    (htok : ∀ j, (tokT j).toNat < 100000) (qt qe : PosShare TreeShare)
    (hF : (K (F := F)).Facts) (O : CellTallies nD τ sig (HIx 2)) (W : Waits sig (HIx 2)) (hO : ∀ g, O g none = 0) :
    iprop(levAts (K (F := F)).L (K (F := F)).lev ∗ emp
        ∗ ((tokLoc d ↦{qt} tokT) ∗ (embLoc d ↦{qe} emb)
            ∗ (x0Loc d ↦[rowsOf S4096x128 (256 * ((K (F := F)).sub 0 i).val + 128 * ((K (F := F)).core 0 c).val) 128]{fullShare} f0))
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) O W)
      ⊢ (wp frame (wpE (D (F := F)) 𝒱 (V d ((K (F := F)).core 0 c) ((K (F := F)).sub 0 i)) (some v₀)) Set.univ
          (D (F := F) (.scVector ((K (F := F)).core 0 c) ((K (F := F)).sub 0 i)) ((K (F := F)).body 0) ((K (F := F)).args 0))
          fun _ => iprop(((tokLoc d ↦{qt} tokT) ∗ (embLoc d ↦{qe} emb)
              ∗ (x0Loc d ↦[rowsOf S4096x128 (256 * ((K (F := F)).sub 0 i).val + 128 * ((K (F := F)).core 0 c).val) 128]{fullShare} X0 tokT emb))
            ∗ scopedBufs (V d ((K (F := F)).core 0 c) ((K (F := F)).sub 0 i)) ∗ scopedSems0 (V d ((K (F := F)).core 0 c) ((K (F := F)).sub 0 i))
            ∗ ∃ W', ⌜∀ p ∈ W', p ∈ W ∨ p.2 = none ∨ p.2 = some (0 : Fin 2)⌝ ∗ owes (V d ((K (F := F)).core 0 c) ((K (F := F)).sub 0 i)) O W') : sProp 𝕄) := by
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body d (coordsV ⟨_, hci.1⟩ ⟨_, hci.2⟩) tokT emb f0 htok qt qe hF O W hO).trans (wp_mono frame _ _ fun _ => task_post)

end Tile

end Cert.Proof.KI.Gather0

end
-- ==== Proof.Gather1.lean ====
/-
  The second SparseCore gather kernel at a symbolic tile: the body obligation with its value, and the launch-side
  wrappers. Tile `wid = 2 * subcore + core` fills rows `896 * wid … 896 * wid + 895` of the second gathered array in
  seven chunks of 128 rows, double-buffered: chunk `c`'s index list is built from the 128 tokens of eight steps (the
  latest step first in the fetch, so the list takes the fetch's sixteen-lane blocks in reverse), its rows are gathered
  from the table while chunk `c - 1`'s are written out. Each semaphore has one copy outstanding at a time and no
  buffer is touched between a copy's issue and its wait; two gathers are in flight at once on two semaphores, each
  with half of the tile's share of the table.
-/
import proofs.«205923_g40089224741417_cont_sun_m_110_39_alg».proof.Proof.Common
import proofs.«205923_g40089224741417_cont_sun_m_110_39_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.Tactic
import Idealize.ShloMosaic.Lib.Writes
import Idealize.ShloMosaic.Lib.Pipeline.Value
import Idealize.ShloMosaic.Lib.ValueIdx

noncomputable section

namespace Cert.Proof.KI.Gather1

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

local notation "tV" => (Memref.whole Cert.KernelIdeal.main_v1_scv : Memref Cert.KernelIdeal.sig Kind.scVector Space.hbm Cert.KernelIdeal.S32768 EltTy.i32)
local notation "eV" => (Memref.whole Cert.KernelIdeal.main_arg2_scv : Memref Cert.KernelIdeal.sig Kind.scVector Space.hbm Cert.KernelIdeal.S100000x128 EltTy.f32)
local notation "oV" => (Memref.whole Cert.KernelIdeal.main_v3_scv : Memref Cert.KernelIdeal.sig Kind.scVector Space.hbm Cert.KernelIdeal.S28672x128 EltTy.f32)
local notation "kV" => (Memref.whole Cert.KernelIdeal.cc1_scratch0 : Memref Cert.KernelIdeal.sig Kind.scVector Space.vmem Cert.KernelIdeal.S128 EltTy.i32)
local notation "aV" => (Memref.whole Cert.KernelIdeal.cc1_scratch1 : Memref Cert.KernelIdeal.sig Kind.scVector Space.vmem Cert.KernelIdeal.S128 EltTy.i32)
local notation "bV" => (Memref.whole Cert.KernelIdeal.cc1_scratch2 : Memref Cert.KernelIdeal.sig Kind.scVector Space.vmem Cert.KernelIdeal.S128 EltTy.i32)
local notation "rA" => (Memref.whole Cert.KernelIdeal.cc1_scratch3 : Memref Cert.KernelIdeal.sig Kind.scVector Space.vmem Cert.KernelIdeal.S128x128 EltTy.f32)
local notation "rB" => (Memref.whole Cert.KernelIdeal.cc1_scratch4 : Memref Cert.KernelIdeal.sig Kind.scVector Space.vmem Cert.KernelIdeal.S128x128 EltTy.f32)

/-! ## The tile -/

abbrev cV (L : grid1.Coords) : Fin τ.nSC := (L 0).castLE hcore1
abbrev jV (L : grid1.Coords) : Fin τ.nSub := (L 1).castLE hsub1

/-- The first of this tile's 896 output rows. -/
abbrev lo (L : grid1.Coords) : ℕ := 1792 * (L 1).val + 896 * (L 0).val

/-! ## This call's semaphores and buffers among the tile's own -/

/-- The call's eleven DMA semaphores: the two gathers', the two write-outs', the seven token fetches'. -/
def sems1 : Finset (DmaSem sig) :=
  {cc1_scratch5.sem, cc1_scratch6.sem, cc1_scratch7.sem, cc1_scratch8.sem, cc1_scoped0.sem, cc1_scoped1.sem, cc1_scoped2.sem,
    cc1_scoped3.sem, cc1_scoped4.sem, cc1_scoped5.sem, cc1_scoped6.sem}

/-- A thread's DMA cell. -/
def cellE (thr : Thread nD τ) : DmaSem sig ↪ GSem nD τ sig := ⟨fun s => (thr, .dma s), fun _ _ h => SemLoc.dma.inj (Prod.mk.inj h).2⟩

theorem sems1_scoped : ∀ s ∈ sems1, (SemLoc.dma s : SemLoc sig).isScoped .scVector = true := by decide

theorem sems1_sub (d : Dev nD) (L : grid1.Coords) : sems1.map (cellE (V d (cV L) (jV L))) ⊆ ownCells (V d (cV L) (jV L)) := by
  intro g hg
  obtain ⟨s, hs, rfl⟩ := Finset.mem_map.mp hg
  exact mem_ownCells.mpr ⟨rfl, sems1_scoped s hs⟩

theorem ownSems0_V (d : Dev nD) (L : grid1.Coords) :
    (ownSems0 (V d (cV L) (jV L)) : sProp 𝕄)
      = iprop((semVal (V d (cV L) (jV L), .dma cc1_scratch5.sem) 0 ∗ semVal (V d (cV L) (jV L), .dma cc1_scratch6.sem) 0
            ∗ semVal (V d (cV L) (jV L), .dma cc1_scratch7.sem) 0 ∗ semVal (V d (cV L) (jV L), .dma cc1_scratch8.sem) 0
            ∗ semVal (V d (cV L) (jV L), .dma cc1_scoped0.sem) 0 ∗ semVal (V d (cV L) (jV L), .dma cc1_scoped1.sem) 0
            ∗ semVal (V d (cV L) (jV L), .dma cc1_scoped2.sem) 0 ∗ semVal (V d (cV L) (jV L), .dma cc1_scoped3.sem) 0
            ∗ semVal (V d (cV L) (jV L), .dma cc1_scoped4.sem) 0 ∗ semVal (V d (cV L) (jV L), .dma cc1_scoped5.sem) 0
            ∗ semVal (V d (cV L) (jV L), .dma cc1_scoped6.sem) 0)
          ∗ bigSep (ownCells (V d (cV L) (jV L)) \ sems1.map (cellE (V d (cV L) (jV L)))) fun g => semVal g 0) := by
  unfold SparseCore.Cfg.ownSems0
  rw [SparseCore.bigSep_sdiff_split' (sems1_sub d L), BI.bigSep_map]
  unfold sems1
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), BI.bigSep_singleton]
  rfl

/-- The call's five scratch buffers: the fetched tokens, the two index lists, the two row buffers. -/
def bufs1 : Finset (Ref sig .scVector) := {cc1_scratch0, cc1_scratch1, cc1_scratch2, cc1_scratch3, cc1_scratch4}

def refE (p : Proc τ) : Ref sig p.kind ↪ DevRef τ sig := ⟨p.devRef, Proc.devRef_injective p⟩

theorem bufs1_sub (c : Fin τ.nSC) (j : Fin τ.nSub) :
    bufs1.map (refE (Proc.scVector c j)) ⊆ ownRefs (τ := τ) (sig := sig) (.scVector c j) := by
  intro b hb
  obtain ⟨r, hr, rfl⟩ := Finset.mem_map.mp hb
  refine SparseCore.Cfg.mem_ownRefs_of_owner (p := Proc.scVector c j) ?_
  unfold bufs1 at hr; simp only [Finset.mem_insert, Finset.mem_singleton] at hr
  rcases hr with rfl | rfl | rfl | rfl | rfl <;> rfl

theorem ownBufs_V (d : Dev nD) (L : grid1.Coords) :
    (ownBufs (V d (cV L) (jV L)) : sProp 𝕄)
      = iprop(((∃ f, (V d (cV L) (jV L)).loc cc1_scratch0 ↦{fullShare} f) ∗ (∃ f, (V d (cV L) (jV L)).loc cc1_scratch1 ↦{fullShare} f)
            ∗ (∃ f, (V d (cV L) (jV L)).loc cc1_scratch2 ↦{fullShare} f) ∗ (∃ f, (V d (cV L) (jV L)).loc cc1_scratch3 ↦{fullShare} f)
            ∗ (∃ f, (V d (cV L) (jV L)).loc cc1_scratch4 ↦{fullShare} f))
          ∗ bigSep (ownRefs (τ := τ) (.scVector (cV L) (jV L)) \ bufs1.map (refE (Proc.scVector (cV L) (jV L))))
              fun b => iprop(∃ f, ((d, b) : Loc nD τ sig) ↦{fullShare} f)) := by
  unfold SparseCore.Cfg.ownBufs
  rw [SparseCore.bigSep_sdiff_split' (bufs1_sub (cV L) (jV L)), BI.bigSep_map]
  unfold bufs1
  rw [SparseCore.bigSep_insert' (show (cc1_scratch0 : Ref sig .scVector) ∉ ({cc1_scratch1, cc1_scratch2, cc1_scratch3, cc1_scratch4} : Finset (Ref sig .scVector)) by decide),
    SparseCore.bigSep_insert' (show (cc1_scratch1 : Ref sig .scVector) ∉ ({cc1_scratch2, cc1_scratch3, cc1_scratch4} : Finset (Ref sig .scVector)) by decide),
    SparseCore.bigSep_insert' (show (cc1_scratch2 : Ref sig .scVector) ∉ ({cc1_scratch3, cc1_scratch4} : Finset (Ref sig .scVector)) by decide),
    SparseCore.bigSep_insert' (show (cc1_scratch3 : Ref sig .scVector) ∉ ({cc1_scratch4} : Finset (Ref sig .scVector)) by decide), BI.bigSep_singleton]
  rfl

/-! ## The seven output slices, as the program spells them -/

abbrev oSl0 (L : grid1.Coords) : Memref sig .scVector .hbm S128x128 .f32 :=
  (oV).slice (Rect.unit (s := S28672x128) (k1_off3 L 0#32) S128x128.size (k1_off3_inb L 0)) (fun _ => rfl)
abbrev oSl1 (L : grid1.Coords) : Memref sig .scVector .hbm S128x128 .f32 :=
  (oV).slice (Rect.unit (s := S28672x128) (k1_off3 L 128#32) S128x128.size (k1_off3_inb L 1)) (fun _ => rfl)
abbrev oSl2 (L : grid1.Coords) : Memref sig .scVector .hbm S128x128 .f32 :=
  (oV).slice (Rect.unit (s := S28672x128) (k1_off3 L 256#32) S128x128.size (k1_off3_inb L 2)) (fun _ => rfl)
abbrev oSl3 (L : grid1.Coords) : Memref sig .scVector .hbm S128x128 .f32 :=
  (oV).slice (Rect.unit (s := S28672x128) (k1_off3 L 384#32) S128x128.size (k1_off3_inb L 3)) (fun _ => rfl)
abbrev oSl4 (L : grid1.Coords) : Memref sig .scVector .hbm S128x128 .f32 :=
  (oV).slice (Rect.unit (s := S28672x128) (k1_off3 L 512#32) S128x128.size (k1_off3_inb L 4)) (fun _ => rfl)
abbrev oSl5 (L : grid1.Coords) : Memref sig .scVector .hbm S128x128 .f32 :=
  (oV).slice (Rect.unit (s := S28672x128) (k1_off3 L 640#32) S128x128.size (k1_off3_inb L 5)) (fun _ => rfl)
abbrev oSl6 (L : grid1.Coords) : Memref sig .scVector .hbm S128x128 .f32 :=
  (oV).slice (Rect.unit (s := S28672x128) (k1_off3 L 768#32) S128x128.size (k1_off3_inb L 6)) (fun _ => rfl)

/-! ## The arrays as the tile addresses them -/

theorem pts_tV (d : Dev nD) (L : grid1.Coords) (q : PosShare TreeShare) (f : Buf (Elt F) (tokLoc d)) :
    ((tV).view.loc (V d (cV L) (jV L)) ↦{q} f : sProp 𝕄) = (tokLoc d ↦{q} f) := rfl
theorem pts_eV (d : Dev nD) (L : grid1.Coords) (q : PosShare TreeShare) (f : Buf (Elt F) (embLoc d)) :
    ((eV).view.loc (V d (cV L) (jV L)) ↦{q} f : sProp 𝕄) = (embLoc d ↦{q} f) := rfl
theorem pts_kV (d : Dev nD) (L : grid1.Coords) (f : Buf (Elt F) ((V d (cV L) (jV L)).loc cc1_scratch0)) :
    ((kV).view.loc (V d (cV L) (jV L)) ↦{fullShare} f : sProp 𝕄) = ((V d (cV L) (jV L)).loc cc1_scratch0 ↦{fullShare} f) := rfl
theorem pts_aV (d : Dev nD) (L : grid1.Coords) (f : Buf (Elt F) ((V d (cV L) (jV L)).loc cc1_scratch1)) :
    ((aV).view.loc (V d (cV L) (jV L)) ↦{fullShare} f : sProp 𝕄) = ((V d (cV L) (jV L)).loc cc1_scratch1 ↦{fullShare} f) := rfl
theorem pts_bV (d : Dev nD) (L : grid1.Coords) (f : Buf (Elt F) ((V d (cV L) (jV L)).loc cc1_scratch2)) :
    ((bV).view.loc (V d (cV L) (jV L)) ↦{fullShare} f : sProp 𝕄) = ((V d (cV L) (jV L)).loc cc1_scratch2 ↦{fullShare} f) := rfl
theorem pts_rA (d : Dev nD) (L : grid1.Coords) (f : Buf (Elt F) ((V d (cV L) (jV L)).loc cc1_scratch3)) :
    ((rA).view.loc (V d (cV L) (jV L)) ↦{fullShare} f : sProp 𝕄) = ((V d (cV L) (jV L)).loc cc1_scratch3 ↦{fullShare} f) := rfl
theorem pts_rB (d : Dev nD) (L : grid1.Coords) (f : Buf (Elt F) ((V d (cV L) (jV L)).loc cc1_scratch4)) :
    ((rB).view.loc (V d (cV L) (jV L)) ↦{fullShare} f : sProp 𝕄) = ((V d (cV L) (jV L)).loc cc1_scratch4 ↦{fullShare} f) := rfl

/-! ## The slices' rows -/

theorem mem_rowsOf {a n : ℕ} {j : S28672x128.Idx} : j ∈ rowsOf S28672x128 a n ↔ a ≤ (j 0).val ∧ (j 0).val < a + n := by
  unfold rowsOf; simp only [Finset.mem_filter, Finset.mem_univ, true_and]; exact Iff.rfl

/-- A slice of 128 rows of the output, all columns, at offset `![a, 0]`, is rows `a … a + 127`. -/
theorem set_rows (off : Fin 2 → ℕ) (h : ∀ a, off a + S128x128.size a ≤ S28672x128.size a) (a : ℕ) (hoff : off = ![a, 0]) :
    ((oV).slice (Rect.unit (s := S28672x128) off S128x128.size h) (fun _ => rfl)).view.set = rowsOf S28672x128 a 128 := by
  subst hoff
  refine ((View.set_slice (View.whole (main_v3_scv : Ref sig .scVector)) _).trans Finset.map_refl).trans ?_
  refine Finset.ext fun j => ?_
  rw [Rect.mem_set_unit, mem_rowsOf]
  constructor
  · intro hj; exact hj 0
  · intro hj i
    match i with
    | 0 => exact hj
    | 1 => exact ⟨Nat.zero_le _, by have := (j 1).isLt; exact (Nat.zero_add _).symm ▸ this⟩

theorem rows_cover (a : ℕ) :
    (Finset.univ : Finset (Fin 7)).biUnion (fun r => rowsOf S28672x128 (a + 128 * r.val) 128) = rowsOf S28672x128 a 896 := by
  refine Finset.ext fun j => ?_
  simp only [Finset.mem_biUnion, Finset.mem_univ, true_and, mem_rowsOf]
  constructor
  · rintro ⟨r, h1, h2⟩; have := r.isLt; constructor <;> omega
  · rintro ⟨h1, h2⟩
    exact ⟨⟨((j 0).val - a) / 128, by omega⟩, by show a + 128 * (((j 0).val - a) / 128) ≤ _; omega, by show _ < a + 128 * (((j 0).val - a) / 128) + 128; omega⟩

theorem rows_disj (a : ℕ) : ∀ r ∈ (Finset.univ : Finset (Fin 7)), ∀ r' ∈ (Finset.univ : Finset (Fin 7)), r ≠ r' →
    Disjoint (rowsOf S28672x128 (a + 128 * r.val) 128) (rowsOf S28672x128 (a + 128 * r'.val) 128) := by
  intro r _ r' _ h
  refine Finset.disjoint_left.mpr fun j hj hj' => h (Fin.ext ?_)
  rw [mem_rowsOf] at hj hj'
  omega

/-! ## The output slices are the tile's rows, chunk by chunk -/

theorem pts_oSl0 (d : Dev nD) (L : grid1.Coords) (f : Buf (Elt F) (x1Loc d)) :
    ((oSl0 L).view.loc (V d (cV L) (jV L)) ↦[(oSl0 L).view.set]{fullShare} f : sProp 𝕄)
      = (x1Loc d ↦[rowsOf S28672x128 (lo L + 128 * 0) 128]{fullShare} f) := by
  rw [show (oSl0 L).view.set = rowsOf S28672x128 (lo L + 128 * 0) 128 from set_rows _ _ _ (k1_off3_eq L ⟨0, by decide⟩)]
theorem pts_oSl1 (d : Dev nD) (L : grid1.Coords) (f : Buf (Elt F) (x1Loc d)) :
    ((oSl1 L).view.loc (V d (cV L) (jV L)) ↦[(oSl1 L).view.set]{fullShare} f : sProp 𝕄)
      = (x1Loc d ↦[rowsOf S28672x128 (lo L + 128 * 1) 128]{fullShare} f) := by
  rw [show (oSl1 L).view.set = rowsOf S28672x128 (lo L + 128 * 1) 128 from set_rows _ _ _ (k1_off3_eq L ⟨1, by decide⟩)]
theorem pts_oSl2 (d : Dev nD) (L : grid1.Coords) (f : Buf (Elt F) (x1Loc d)) :
    ((oSl2 L).view.loc (V d (cV L) (jV L)) ↦[(oSl2 L).view.set]{fullShare} f : sProp 𝕄)
      = (x1Loc d ↦[rowsOf S28672x128 (lo L + 128 * 2) 128]{fullShare} f) := by
  rw [show (oSl2 L).view.set = rowsOf S28672x128 (lo L + 128 * 2) 128 from set_rows _ _ _ (k1_off3_eq L ⟨2, by decide⟩)]
theorem pts_oSl3 (d : Dev nD) (L : grid1.Coords) (f : Buf (Elt F) (x1Loc d)) :
    ((oSl3 L).view.loc (V d (cV L) (jV L)) ↦[(oSl3 L).view.set]{fullShare} f : sProp 𝕄)
      = (x1Loc d ↦[rowsOf S28672x128 (lo L + 128 * 3) 128]{fullShare} f) := by
  rw [show (oSl3 L).view.set = rowsOf S28672x128 (lo L + 128 * 3) 128 from set_rows _ _ _ (k1_off3_eq L ⟨3, by decide⟩)]
theorem pts_oSl4 (d : Dev nD) (L : grid1.Coords) (f : Buf (Elt F) (x1Loc d)) :
    ((oSl4 L).view.loc (V d (cV L) (jV L)) ↦[(oSl4 L).view.set]{fullShare} f : sProp 𝕄)
      = (x1Loc d ↦[rowsOf S28672x128 (lo L + 128 * 4) 128]{fullShare} f) := by
  rw [show (oSl4 L).view.set = rowsOf S28672x128 (lo L + 128 * 4) 128 from set_rows _ _ _ (k1_off3_eq L ⟨4, by decide⟩)]
theorem pts_oSl5 (d : Dev nD) (L : grid1.Coords) (f : Buf (Elt F) (x1Loc d)) :
    ((oSl5 L).view.loc (V d (cV L) (jV L)) ↦[(oSl5 L).view.set]{fullShare} f : sProp 𝕄)
      = (x1Loc d ↦[rowsOf S28672x128 (lo L + 128 * 5) 128]{fullShare} f) := by
  rw [show (oSl5 L).view.set = rowsOf S28672x128 (lo L + 128 * 5) 128 from set_rows _ _ _ (k1_off3_eq L ⟨5, by decide⟩)]
theorem pts_oSl6 (d : Dev nD) (L : grid1.Coords) (f : Buf (Elt F) (x1Loc d)) :
    ((oSl6 L).view.loc (V d (cV L) (jV L)) ↦[(oSl6 L).view.set]{fullShare} f : sProp 𝕄)
      = (x1Loc d ↦[rowsOf S28672x128 (lo L + 128 * 6) 128]{fullShare} f) := by
  rw [show (oSl6 L).view.set = rowsOf S28672x128 (lo L + 128 * 6) 128 from set_rows _ _ _ (k1_off3_eq L ⟨6, by decide⟩)]

/-! ## The index list

The fetched block holds the tokens of eight steps, the latest step first; the list takes its sixteen-lane blocks in the
opposite order, so that lane `16 * tl + i` of the list is lane `16 * (7 - tl) + i` of the fetch. -/

/-- The lane of the fetch that lane `n` of the list reads. -/
def revLane (n : ℕ) : ℕ := (7 - n / 16) * 16 + n % 16
theorem revLane_lt {n : ℕ} (h : n < 128) : revLane n < 128 := by unfold revLane; omega

/-- Sixteen lanes of the fetched tokens from lane `b`, as the vector the body stores. -/
def lanes (g : S128.Idx → Elt F .i32) (b : ℕ) (hb : ∀ a, ![b] a + S16.size a ≤ S128.size a) : S16.Idx → BitVec 32 :=
  shapeCast S16 (shapeCast S16 (View.readAt (Elt F) (kV).view (Rect.unit (s := S128) ![b] S16.size hb).toLoadRect g) shapeCasts_S16_S16) shapeCasts_S16_S16

theorem lanes_apply (g : S128.Idx → Elt F .i32) (b : ℕ) (hb : ∀ a, ![b] a + S16.size a ≤ S128.size a) (y : S16.Idx) :
    lanes g b hb y = g (ValueIdx.ix1 (⟨b + (y 0).val, by have := hb 0; have := (y 0).isLt; show b + (y 0).val < 128; simp [S16, S128] at *; omega⟩ : Fin 128)) := by
  unfold lanes
  have e1 : ∀ (w : S16.Idx → BitVec 32) (h h' : S16.ShapeCasts S16), shapeCast S16 (shapeCast S16 w h) h' = w :=
    fun w h h' => by rw [shapeCast_self, shapeCast_self]
  refine (congrFun (e1 _ _ _) y).trans ?_
  show g ((Rect.unit (s := S128) ![b] S16.size hb).toLoadRect.idx y) = g _
  congr 1
  funext a
  match a with
  | ⟨0, _⟩ => exact Fin.ext (by show ![b] 0 + 1 * (y 0).val = b + (y 0).val; simp)

/-- The eight stores of one build, the last first: block `tl` of the list from block `7 - tl` of the fetch. -/
def idxPieces (g : S128.Idx → Elt F .i32) : List (View.Piece (Elt F) S128 .i32) :=
  [⟨Rect.unit (s := S128) ![112] S16.size inb_S128_S16_112, lanes g 0 inb_S128_S16_0⟩,
   ⟨Rect.unit (s := S128) ![96] S16.size inb_S128_S16_96, lanes g 16 inb_S128_S16_16⟩,
   ⟨Rect.unit (s := S128) ![80] S16.size inb_S128_S16_80, lanes g 32 inb_S128_S16_32⟩,
   ⟨Rect.unit (s := S128) ![64] S16.size inb_S128_S16_64, lanes g 48 inb_S128_S16_48⟩,
   ⟨Rect.unit (s := S128) ![48] S16.size inb_S128_S16_48, lanes g 64 inb_S128_S16_64⟩,
   ⟨Rect.unit (s := S128) ![32] S16.size inb_S128_S16_32, lanes g 80 inb_S128_S16_80⟩,
   ⟨Rect.unit (s := S128) ![16] S16.size inb_S128_S16_16, lanes g 96 inb_S128_S16_96⟩,
   ⟨Rect.unit (s := S128) ![0] S16.size inb_S128_S16_0, lanes g 112 inb_S128_S16_112⟩]

/-- What the list holds after a build, whatever it held before. -/
def listOf (g : S128.Idx → Elt F .i32) : S128.Idx → Elt F .i32 :=
  fun x => g (ValueIdx.ix1 (⟨revLane (x 0).val, revLane_lt (x 0).isLt⟩ : Fin 128))

theorem read_idxPieces {κ : Kind} {sp : Space} (v : View sig κ sp S128 .i32) (f : v.ty.Contents (Elt F)) (g : S128.Idx → Elt F .i32) (x : S128.Idx) :
    v.read (Elt F) (v.writes (Elt F) f (idxPieces g)) x = listOf g x := by
  refine View.read_writes_apply_of_pieces v f (listOf g) (idxPieces g) ?_ x ?_
  · intro p hp y
    unfold idxPieces at hp
    simp only [List.mem_cons, List.not_mem_nil, or_false] at hp
    rcases hp with rfl | rfl | rfl | rfl | rfl | rfl | rfl | rfl <;>
    · show lanes g _ _ y = listOf g _
      rw [lanes_apply]; unfold listOf; congr 2
      apply Fin.ext
      show _ = revLane (_ + 1 * (y 0).val)
      have := (y 0).isLt
      simp only [Rect.off_unit, Rect.size_unit, S16, Matrix.cons_val_zero] at this ⊢
      unfold revLane; omega
  · have hx := (x 0).isLt
    have hx' : (x 0).val < 128 := hx
    unfold idxPieces
    have key : ∀ (b : ℕ) (hb : ∀ a, ![b] a + S16.size a ≤ S128.size a), b ≤ (x 0).val → (x 0).val < b + 16 → x ∈ (Rect.unit (s := S128) ![b] S16.size hb).set := by
      intro b hb h1 h2
      rw [Rect.mem_set_unit]
      intro a
      match a with
      | ⟨0, _⟩ => exact ⟨h1, h2⟩
    by_cases h7 : 112 ≤ (x 0).val
    · exact ⟨_, List.mem_cons_self, key 112 inb_S128_S16_112 h7 (by omega)⟩
    by_cases h6 : 96 ≤ (x 0).val
    · exact ⟨_, List.mem_cons_of_mem _ List.mem_cons_self, key 96 inb_S128_S16_96 h6 (by omega)⟩
    by_cases h5 : 80 ≤ (x 0).val
    · exact ⟨_, List.mem_cons_of_mem _ (List.mem_cons_of_mem _ List.mem_cons_self), key 80 inb_S128_S16_80 h5 (by omega)⟩
    by_cases h4 : 64 ≤ (x 0).val
    · exact ⟨_, List.mem_cons_of_mem _ (List.mem_cons_of_mem _ (List.mem_cons_of_mem _ List.mem_cons_self)), key 64 inb_S128_S16_64 h4 (by omega)⟩
    by_cases h3 : 48 ≤ (x 0).val
    · exact ⟨_, List.mem_cons_of_mem _ (List.mem_cons_of_mem _ (List.mem_cons_of_mem _ (List.mem_cons_of_mem _ List.mem_cons_self))), key 48 inb_S128_S16_48 h3 (by omega)⟩
    by_cases h2 : 32 ≤ (x 0).val
    · exact ⟨_, List.mem_cons_of_mem _ (List.mem_cons_of_mem _ (List.mem_cons_of_mem _ (List.mem_cons_of_mem _ (List.mem_cons_of_mem _ List.mem_cons_self)))), key 32 inb_S128_S16_32 h2 (by omega)⟩
    by_cases h1 : 16 ≤ (x 0).val
    · exact ⟨_, List.mem_cons_of_mem _ (List.mem_cons_of_mem _ (List.mem_cons_of_mem _ (List.mem_cons_of_mem _ (List.mem_cons_of_mem _ (List.mem_cons_of_mem _ List.mem_cons_self))))), key 16 inb_S128_S16_16 h1 (by omega)⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), key 0 inb_S128_S16_0 (Nat.zero_le _) (by omega)⟩

/-! ## The fetched tokens, the gathered rows -/

/-- Flat token `n`. -/
def tokIx (n : ℕ) (h : n < 32768) : S32768.Idx := ValueIdx.ix1 (⟨n, h⟩ : Fin 32768)

/-- The 128 tokens a fetch at offset `off` lands: lane `y` is the flat token `off + y`. -/
theorem tokPay_apply (tokT : S32768.Idx → Elt F .i32) (off : Fin 1 → ℕ) (h : ∀ a, off a + S128.size a ≤ S32768.size a) (y : S128.Idx) :
    View.read (Elt F) ((tV).slice (Rect.unit (s := S32768) off S128.size h) (fun _ => rfl)).view tokT y
      = tokT (tokIx (off 0 + (y 0).val) (by have h0 := h 0; have hy := (y 0).isLt; simp only [S128, S32768, Matrix.cons_val_zero] at h0 hy; omega)) := by
  have e : View.read (Elt F) ((tV).slice (Rect.unit (s := S32768) off S128.size h) (fun _ => rfl)).view tokT y
      = tokT (((tV).slice (Rect.unit (s := S32768) off S128.size h) (fun _ => rfl)).view.emb y) := by
    rw [View.read_apply]; exact cast_eq _ _
  rw [e]
  unfold tokIx
  congr 1
  funext a
  match a with
  | ⟨0, _⟩ => exact Fin.ext (by show off 0 + 1 * (y 0).val = off 0 + (y 0).val; omega)

/-- The table as the gathers address it: all of it. -/
abbrev eSl : Memref sig .scVector .hbm S100000x128 .f32 :=
  (eV).slice (Rect.unit (s := S100000x128) ![0, 0] S100000x128.size inb_S100000x128_S100000x128_0_0) (fun _ => rfl)

theorem rowMajor_symm_val (k : Fin S128.numel) : ((S128.rowMajor.symm k) 0).val = k.val := by
  have h := Shape.rowMajor_val_one (d := ![128]) (S128.rowMajor.symm k)
  rw [← h]
  exact congrArg Fin.val (Equiv.apply_symm_apply S128.rowMajor k)

/-- Chunk value: with the list holding, at lane `x`, flat token `28544 - a + revLane x` (`a` the chunk's first output
    row), the gather's payload at `(r, k)` is the gathered array's entry at row `a + r`. -/
theorem gather_value (tokT : S32768.Idx → Elt F .i32) (emb : S100000x128.Idx → Elt F .f32) (htok : ∀ j, (tokT j).toNat < 100000)
    (a : ℕ) (ha : a + 128 ≤ 28672) (ha16 : a % 16 = 0)
    (idx : S128.Idx → Elt F .i32)
    (hidx : ∀ x, ∃ h, idx x = tokT (tokIx (28544 - a + revLane (x 0).val) h))
    (hn : S128.numel = S128x128.size gathers_S100000x128_S128x128.axis')
    (hin : ∀ x, (idx x).toNat < S100000x128.size gathers_S100000x128_S128x128.axis) (y : S128x128.Idx) :
    SparseCore.gatherPayload gathers_S100000x128_S128x128 (View.read (Elt F) (eSl).view emb) (SparseCore.rows idx hn hin) y
      = X1 tokT emb (ValueIdx.ix2 (⟨a + (y 0).val, by have := (y 0).isLt; simp only [S128x128, Matrix.cons_val_zero] at this; omega⟩ : Fin 28672) (y 1)) := by
  have hy0 : (y 0).val < 128 := (y 0).isLt
  have hy1 : (y 1).val < 128 := (y 1).isLt
  unfold SparseCore.gatherPayload X1 embAt
  have e : ∀ z, View.read (Elt F) (eSl).view emb z = emb ((eSl).view.emb z) := fun z => by
    rw [View.read_apply]; exact cast_eq _ _
  rw [e]
  congr 1
  funext b
  match b with
  | ⟨0, _⟩ =>
    apply Fin.ext
    show 0 + 1 * ((gathers_S100000x128_S128x128.idx (SparseCore.rows idx hn hin) y) 0).val = _
    have e0 : (gathers_S100000x128_S128x128.idx (SparseCore.rows idx hn hin) y) 0 = SparseCore.rows idx hn hin (y gathers_S100000x128_S128x128.axis') :=
      Shape.Gathers.idx_axis gathers_S100000x128_S128x128 _ y
    rw [e0]
    obtain ⟨h, hx⟩ := hidx (S128.rowMajor.symm (Fin.cast hn.symm (y gathers_S100000x128_S128x128.axis')))
    have hxv : ((S128.rowMajor.symm (Fin.cast hn.symm (y gathers_S100000x128_S128x128.axis'))) 0).val = (y 0).val := rowMajor_symm_val _
    show 0 + 1 * (idx (S128.rowMajor.symm (Fin.cast hn.symm (y gathers_S100000x128_S128x128.axis')))).toNat = _
    rw [hx]
    show _ = (tokAt tokT (4096 + (a + (y 0).val))) % 100000
    unfold tokAt
    rw [Nat.mod_eq_of_lt (htok _)]
    have : tokIx (28544 - a + revLane ((S128.rowMajor.symm (Fin.cast hn.symm (y gathers_S100000x128_S128x128.axis'))) 0).val) h
        = ValueIdx.ix1 (⟨((2047 - (4096 + (a + (y 0).val)) / 16) * 16 + (4096 + (a + (y 0).val)) % 16) % 32768, Nat.mod_lt _ (by decide)⟩ : Fin 32768) := by
      unfold tokIx
      congr 1
      apply Fin.ext
      show 28544 - a + revLane _ = ((2047 - (4096 + (a + (y 0).val)) / 16) * 16 + (4096 + (a + (y 0).val)) % 16) % 32768
      rw [hxv]; unfold revLane; omega
    rw [this]; omega
  | ⟨1, _⟩ =>
    apply Fin.ext
    show 0 + 1 * ((gathers_S100000x128_S128x128.idx (SparseCore.rows idx hn hin) y) 1).val = (y 1).val % 128
    have e1 := Shape.Gathers.idx_of_ne gathers_S100000x128_S128x128 (SparseCore.rows idx hn hin) y 1 (by decide)
    rw [e1, Nat.mod_eq_of_lt hy1]
    show 0 + 1 * (y 1).val = (y 1).val
    omega

/-- After a build from fetched contents `g` (whatever earlier builds stored beneath), the list at lane `x` holds flat
    token `n + revLane x`, `n` the fetch's offset. -/
theorem list_fact {κ : Kind} {sp : Space} (v : View sig κ sp S128 .i32) (f : v.ty.Contents (Elt F))
    (Lp rest : List (View.Piece (Elt F) S128 .i32)) (g : S128.Idx → Elt F .i32) (hL : Lp = idxPieces g ++ rest)
    (tokT : S32768.Idx → Elt F .i32) (n : ℕ) (hg : ∀ y, ∃ h, g y = tokT (tokIx (n + (y 0).val) h)) (x : S128.Idx) :
    ∃ h, v.read (Elt F) (v.writes (Elt F) f Lp) x = tokT (tokIx (n + revLane (x 0).val) h) := by
  subst hL
  rw [View.writes_append, read_idxPieces]
  exact hg (ValueIdx.ix1 (⟨revLane (x 0).val, revLane_lt (x 0).isLt⟩ : Fin 128))

/-- The token scratch after a fetch at offset `![n]`: lane `y` is flat token `n + y`. -/
theorem tok_fact (tokT : S32768.Idx → Elt F .i32) (off : Fin 1 → ℕ) (h : ∀ a, off a + S128.size a ≤ S32768.size a) (n : ℕ) (hoff : off = ![n])
    (fprev : S128.Idx → Elt F .i32) (pay : S128.Idx → Elt F .i32)
    (hpay : pay = View.read (Elt F) ((tV).slice (Rect.unit (s := S32768) off S128.size h) (fun _ => rfl)).view tokT) (y : S128.Idx) :
    ∃ h', View.write (Elt F) (kV).view fprev pay Finset.univ y = tokT (tokIx (n + (y 0).val) h') := by
  subst hoff hpay
  exact ⟨_, (congrFun (View.write_whole_univ cc1_scratch0 fprev _) y).trans (tokPay_apply tokT ![n] h y)⟩

/-- A whole-buffer write is read back as written. -/
theorem wout_fact {κ : Kind} {sp : Space} (v : View sig κ sp S128x128 .f32) (f : v.ty.Contents (Elt F))
    (w : S128x128.Idx → Elt F .f32) (Lr : List (View.Piece (Elt F) S128x128 .f32)) (y : S128x128.Idx) :
    v.read (Elt F) (v.writes (Elt F) f (⟨Rect.whole S128x128, w⟩ :: Lr)) y = w y := by
  have h := View.read_writes_cons_emb v f (Rect.whole S128x128) w Lr y
  rwa [Rect.emb_whole_apply] at h

/-- A chunk's output slice written whole with a payload that is the array `G` at the chunk's rows holds `G` there. -/
theorem out_value (d : Dev nD) (L : grid1.Coords) (off : Fin 2 → ℕ) (h : ∀ a, off a + S128x128.size a ≤ S28672x128.size a) (a : ℕ) (hoff : off = ![a, 0])
    (f1 : Buf (Elt F) (x1Loc d)) (w : S128x128.Idx → Elt F .f32) (G : S28672x128.Idx → Elt F .f32)
    (hw : ∀ y : S128x128.Idx, ∃ hy, w y = G (ValueIdx.ix2 (⟨a + (y 0).val, hy⟩ : Fin 28672) (y 1))) :
    ((((oV).slice (Rect.unit (s := S28672x128) off S128x128.size h) (fun _ => rfl)).view.loc (V d (cV L) (jV L))
        ↦[((oV).slice (Rect.unit (s := S28672x128) off S128x128.size h) (fun _ => rfl)).view.set]{fullShare}
          ((oV).slice (Rect.unit (s := S28672x128) off S128x128.size h) (fun _ => rfl)).view.writes (Elt F) f1 [⟨Rect.whole S128x128, w⟩]) : sProp 𝕄)
      = (x1Loc d ↦[rowsOf S28672x128 a 128]{fullShare} G) := by
  rw [set_rows off h a hoff]
  subst hoff
  show (x1Loc d ↦[rowsOf S28672x128 a 128]{fullShare} _ : sProp 𝕄) = _
  refine pointsTo_congr fun i hi => ?_
  rw [mem_rowsOf] at hi
  have hi1 : (i 1).val < 128 := (i 1).isLt
  let y : S128x128.Idx := ValueIdx.ix2 (⟨(i 0).val - a, by omega⟩ : Fin 128) (⟨(i 1).val, hi1⟩ : Fin 128)
  have hiy : ((oV).slice (Rect.unit (s := S28672x128) ![a, 0] S128x128.size h) (fun _ => rfl)).view.emb y = i := by
    funext b
    match b with
    | ⟨0, _⟩ => exact Fin.ext (by show a + 1 * ((i 0).val - a) = (i 0).val; omega)
    | ⟨1, _⟩ => exact Fin.ext (by show 0 + 1 * (i 1).val = (i 1).val; omega)
  have r := wout_fact ((oV).slice (Rect.unit (s := S28672x128) ![a, 0] S128x128.size h) (fun _ => rfl)).view f1 w [] y
  rw [View.read_apply] at r
  obtain ⟨hy, e⟩ := hw y
  rw [← hiy]
  refine ((cast_eq _ _).symm.trans r).trans (e.trans ?_)
  congr 1
  funext b
  match b with
  | ⟨0, _⟩ => exact Fin.ext (by show a + ((i 0).val - a) = a + 1 * ((i 0).val - a); omega)
  | ⟨1, _⟩ => exact Fin.ext (by show (i 1).val = 0 + 1 * (i 1).val; omega)

/-! ## Offsets and bounds at a tile -/

theorem toff0 (L : grid1.Coords) : k1_off1 L = ![28544 - (lo L + 128 * 0)] := k1_off1_eq L

theorem toff (L : grid1.Coords) (r : Fin 6) :
    k1_off2 L (BitVec.ofNat 32 (128 + 128 * r.val)) = ![28544 - (lo L + 128 * (r.val + 1))] := by
  have h1 : (L 1).val < 16 := (L 1).isLt
  have h0 : (L 0).val < 2 := (L 0).isLt
  have hr := r.isLt
  refine (k1_off2_eq L r).trans (congrArg (fun n : ℕ => ![n]) ?_)
  show 28416 - (1792 * (L 1).val + 896 * (L 0).val + 128 * r.val) = 28544 - (1792 * (L 1).val + 896 * (L 0).val + 128 * (r.val + 1))
  omega

theorem lo_bounds (L : grid1.Coords) (c : ℕ) (hc : c < 7) : lo L + 128 * c + 128 ≤ 28672 ∧ (lo L + 128 * c) % 16 = 0 := by
  have h1 : (L 1).val < 16 := (L 1).isLt
  have h0 : (L 0).val < 2 := (L 0).isLt
  show 1792 * (L 1).val + 896 * (L 0).val + 128 * c + 128 ≤ 28672 ∧ (1792 * (L 1).val + 896 * (L 0).val + 128 * c) % 16 = 0
  constructor <;> omega

/-! ## The body at a symbolic tile -/

set_option maxHeartbeats 4000000 in
theorem tile_core (d : Dev nD) (L : grid1.Coords) (tokT : Buf (Elt F) (tokLoc d)) (emb : Buf (Elt F) (embLoc d)) (f1 : Buf (Elt F) (x1Loc d))
    (htok : ∀ j, (tokT j).toNat < 100000) (qt qe : PosShare TreeShare) (hF : (K (F := F)).Facts)
    (O : CellTallies nD τ sig (HIx 2)) (W : Waits sig (HIx 2)) (hO : ∀ g, O g none = 0) :
    iprop(levAts (K (F := F)).L (K (F := F)).lev ∗ emp
        ∗ ((tokLoc d ↦{qt} tokT) ∗ (embLoc d ↦{qe} emb)
          ∗ (x1Loc d ↦[rowsOf S28672x128 (lo L + 128 * 0) 128]{fullShare} f1)
          ∗ (x1Loc d ↦[rowsOf S28672x128 (lo L + 128 * 1) 128]{fullShare} f1)
          ∗ (x1Loc d ↦[rowsOf S28672x128 (lo L + 128 * 2) 128]{fullShare} f1)
          ∗ (x1Loc d ↦[rowsOf S28672x128 (lo L + 128 * 3) 128]{fullShare} f1)
          ∗ (x1Loc d ↦[rowsOf S28672x128 (lo L + 128 * 4) 128]{fullShare} f1)
          ∗ (x1Loc d ↦[rowsOf S28672x128 (lo L + 128 * 5) 128]{fullShare} f1)
          ∗ (x1Loc d ↦[rowsOf S28672x128 (lo L + 128 * 6) 128]{fullShare} f1))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__gather_body L tV (Memref.isWhole_whole _) eV (Memref.isWhole_whole _) oV (Memref.isWhole_whole _)
            kV (Memref.isWhole_whole _) aV (Memref.isWhole_whole _) bV (Memref.isWhole_whole _) rA (Memref.isWhole_whole _) rB (Memref.isWhole_whole _)
            cc1_scratch5 cc1_scratch6 cc1_scratch7 cc1_scratch8 cc1_scoped0 cc1_scoped1 cc1_scoped2 cc1_scoped3 cc1_scoped4 cc1_scoped5 cc1_scoped6)
          fun _ => iprop(((tokLoc d ↦{qt} tokT) ∗ (embLoc d ↦{qe} emb)
              ∗ (x1Loc d ↦[rowsOf S28672x128 (lo L + 128 * 0) 128]{fullShare} X1 tokT emb)
              ∗ (x1Loc d ↦[rowsOf S28672x128 (lo L + 128 * 1) 128]{fullShare} X1 tokT emb)
              ∗ (x1Loc d ↦[rowsOf S28672x128 (lo L + 128 * 2) 128]{fullShare} X1 tokT emb)
              ∗ (x1Loc d ↦[rowsOf S28672x128 (lo L + 128 * 3) 128]{fullShare} X1 tokT emb)
              ∗ (x1Loc d ↦[rowsOf S28672x128 (lo L + 128 * 4) 128]{fullShare} X1 tokT emb)
              ∗ (x1Loc d ↦[rowsOf S28672x128 (lo L + 128 * 5) 128]{fullShare} X1 tokT emb)
              ∗ (x1Loc d ↦[rowsOf S28672x128 (lo L + 128 * 6) 128]{fullShare} X1 tokT emb))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc1__gather_body_eq_skeleton]; unfold cc1__gather_body_skel
  rw [(K (F := F)).scopedBufs_V hF d (cV L) (jV L), SparseCore.Cfg.scopedSems0_V (Val := Elt F) d (cV L) (jV L), ownSems0_V, ownBufs_V]
  iintro ⟨#Hlv, -, ⟨Htok, Hemb, Ho0, Ho1, Ho2, Ho3, Ho4, Ho5, Ho6⟩, ⟨⟨⟨%fk, Hk⟩, ⟨%fa, Ha⟩, ⟨%fb, Hb⟩, ⟨%fra, HrA⟩, ⟨%frb, HrB⟩⟩, Hbufs⟩,
    ⟨⟨HgA, HgB, HwA, HwB, Hs0, Hs1, Hs2, Hs3, Hs4, Hs5, Hs6⟩, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Htok' := (Entails.of_eq (pts_tV (F := F) d L _ _).symm) $$ Htok
  ihave Hemb' := (Entails.of_eq (pts_eV (F := F) d L _ _).symm) $$ Hemb
  ihave Hk' := (Entails.of_eq (pts_kV (F := F) d L _).symm) $$ Hk
  ihave Ha' := (Entails.of_eq (pts_aV (F := F) d L _).symm) $$ Ha
  ihave Hb' := (Entails.of_eq (pts_bV (F := F) d L _).symm) $$ Hb
  ihave HrA' := (Entails.of_eq (pts_rA (F := F) d L _).symm) $$ HrA
  ihave HrB' := (Entails.of_eq (pts_rB (F := F) d L _).symm) $$ HrB
  ihave Ho0' := (Entails.of_eq (pts_oSl0 (F := F) d L _).symm) $$ Ho0
  ihave Ho1' := (Entails.of_eq (pts_oSl1 (F := F) d L _).symm) $$ Ho1
  ihave Ho2' := (Entails.of_eq (pts_oSl2 (F := F) d L _).symm) $$ Ho2
  ihave Ho3' := (Entails.of_eq (pts_oSl3 (F := F) d L _).symm) $$ Ho3
  ihave Ho4' := (Entails.of_eq (pts_oSl4 (F := F) d L _).symm) $$ Ho4
  ihave Ho5' := (Entails.of_eq (pts_oSl5 (F := F) d L _).symm) $$ Ho5
  ihave Ho6' := (Entails.of_eq (pts_oSl6 (F := F) d L _).symm) $$ Ho6
  ihave Hes := (pointsTo_share (PosShare.mem_left_op_right qe)).1 $$ Hemb'
  icases Hes with ⟨HeL, HeR⟩
  sl_exec
  -- chunk 0: what its list holds, hence in range
  have hidx0 : ∀ x, ∃ h, View.read (Elt F) (aV).view ((aV).view.writes (Elt F) (aV).view.junk (tile_core.sl.Ha'_8 d L tokT fk)) x
      = tokT (tokIx (28544 - (lo L + 128 * 0) + revLane (x 0).val) h) :=
    list_fact (aV).view _ _ [] (View.write (Elt F) (kV).view fk (tile_core.sl.dma0 d L tokT) Finset.univ) rfl tokT _
      (tok_fact tokT _ _ _ (toff0 L) fk (tile_core.sl.dma0 d L tokT) rfl)
  have hin0 : ∀ x, (View.read (Elt F) (aV).view ((aV).view.writes (Elt F) (aV).view.junk (tile_core.sl.Ha'_8 d L tokT fk)) x).toNat
      < S100000x128.size gathers_S100000x128_S128x128.axis := fun x => by
    obtain ⟨h, e⟩ := hidx0 x
    rw [e]; exact htok _
  sl_exec
  -- chunk 1: what its list holds, hence in range
  have hidx1 : ∀ x, ∃ h, View.read (Elt F) (bV).view ((bV).view.writes (Elt F) (bV).view.junk (tile_core.sl.Hb'_8 d L tokT fk)) x
      = tokT (tokIx (28544 - (lo L + 128 * 1) + revLane (x 0).val) h) :=
    list_fact (bV).view _ _ [] (View.write (Elt F) (kV).view (View.write (Elt F) (kV).view fk (tile_core.sl.dma0 d L tokT) Finset.univ) (tile_core.sl.dma0_1 d L tokT) Finset.univ) rfl tokT _
      (tok_fact tokT _ _ _ (toff L ⟨0, by decide⟩) (View.write (Elt F) (kV).view fk (tile_core.sl.dma0 d L tokT) Finset.univ) (tile_core.sl.dma0_1 d L tokT) rfl)
  have hin1 : ∀ x, (View.read (Elt F) (bV).view ((bV).view.writes (Elt F) (bV).view.junk (tile_core.sl.Hb'_8 d L tokT fk)) x).toNat
      < S100000x128.size gathers_S100000x128_S128x128.axis := fun x => by
    obtain ⟨h, e⟩ := hidx1 x
    rw [e]; exact htok _
  sl_exec
  -- chunk 2: what its list holds, hence in range
  have hidx2 : ∀ x, ∃ h, View.read (Elt F) (aV).view ((aV).view.writes (Elt F) (aV).view.junk (tile_core.sl.Ha'_16 d L tokT fk)) x
      = tokT (tokIx (28544 - (lo L + 128 * 2) + revLane (x 0).val) h) :=
    list_fact (aV).view _ _ (idxPieces (View.write (Elt F) (kV).view fk (tile_core.sl.dma0 d L tokT) Finset.univ)) (View.write (Elt F) (kV).view (View.write (Elt F) (kV).view (View.write (Elt F) (kV).view fk (tile_core.sl.dma0 d L tokT) Finset.univ) (tile_core.sl.dma0_1 d L tokT) Finset.univ) (tile_core.sl.dma0_3 d L tokT) Finset.univ) rfl tokT _
      (tok_fact tokT _ _ _ (toff L ⟨1, by decide⟩) (View.write (Elt F) (kV).view (View.write (Elt F) (kV).view fk (tile_core.sl.dma0 d L tokT) Finset.univ) (tile_core.sl.dma0_1 d L tokT) Finset.univ) (tile_core.sl.dma0_3 d L tokT) rfl)
  have hin2 : ∀ x, (View.read (Elt F) (aV).view ((aV).view.writes (Elt F) (aV).view.junk (tile_core.sl.Ha'_16 d L tokT fk)) x).toNat
      < S100000x128.size gathers_S100000x128_S128x128.axis := fun x => by
    obtain ⟨h, e⟩ := hidx2 x
    rw [e]; exact htok _
  sl_exec
  -- chunk 3: what its list holds, hence in range
  have hidx3 : ∀ x, ∃ h, View.read (Elt F) (bV).view ((bV).view.writes (Elt F) (bV).view.junk (tile_core.sl.Hb'_16 d L tokT fk)) x
      = tokT (tokIx (28544 - (lo L + 128 * 3) + revLane (x 0).val) h) :=
    list_fact (bV).view _ _ (idxPieces (View.write (Elt F) (kV).view (View.write (Elt F) (kV).view fk (tile_core.sl.dma0 d L tokT) Finset.univ) (tile_core.sl.dma0_1 d L tokT) Finset.univ)) (View.write (Elt F) (kV).view (View.write (Elt F) (kV).view (View.write (Elt F) (kV).view (View.write (Elt F) (kV).view fk (tile_core.sl.dma0 d L tokT) Finset.univ) (tile_core.sl.dma0_1 d L tokT) Finset.univ) (tile_core.sl.dma0_3 d L tokT) Finset.univ) (tile_core.sl.dma0_5 d L tokT) Finset.univ) rfl tokT _
      (tok_fact tokT _ _ _ (toff L ⟨2, by decide⟩) (View.write (Elt F) (kV).view (View.write (Elt F) (kV).view (View.write (Elt F) (kV).view fk (tile_core.sl.dma0 d L tokT) Finset.univ) (tile_core.sl.dma0_1 d L tokT) Finset.univ) (tile_core.sl.dma0_3 d L tokT) Finset.univ) (tile_core.sl.dma0_5 d L tokT) rfl)
  have hin3 : ∀ x, (View.read (Elt F) (bV).view ((bV).view.writes (Elt F) (bV).view.junk (tile_core.sl.Hb'_16 d L tokT fk)) x).toNat
      < S100000x128.size gathers_S100000x128_S128x128.axis := fun x => by
    obtain ⟨h, e⟩ := hidx3 x
    rw [e]; exact htok _
  sl_exec
  -- chunk 4: what its list holds, hence in range
  have hidx4 : ∀ x, ∃ h, View.read (Elt F) (aV).view ((aV).view.writes (Elt F) (aV).view.junk (tile_core.sl.Ha'_24 d L tokT fk)) x
      = tokT (tokIx (28544 - (lo L + 128 * 4) + revLane (x 0).val) h) :=
    list_fact (aV).view _ _ (idxPieces (View.write (Elt F) (kV).view (View.write (Elt F) (kV).view (View.write (Elt F) (kV).view fk (tile_core.sl.dma0 d L tokT) Finset.univ) (tile_core.sl.dma0_1 d L tokT) Finset.univ) (tile_core.sl.dma0_3 d L tokT) Finset.univ) ++ idxPieces (View.write (Elt F) (kV).view fk (tile_core.sl.dma0 d L tokT) Finset.univ)) (View.write (Elt F) (kV).view (View.write (Elt F) (kV).view (View.write (Elt F) (kV).view (View.write (Elt F) (kV).view (View.write (Elt F) (kV).view fk (tile_core.sl.dma0 d L tokT) Finset.univ) (tile_core.sl.dma0_1 d L tokT) Finset.univ) (tile_core.sl.dma0_3 d L tokT) Finset.univ) (tile_core.sl.dma0_5 d L tokT) Finset.univ) (tile_core.sl.dma0_7 d L tokT) Finset.univ) rfl tokT _
      (tok_fact tokT _ _ _ (toff L ⟨3, by decide⟩) (View.write (Elt F) (kV).view (View.write (Elt F) (kV).view (View.write (Elt F) (kV).view (View.write (Elt F) (kV).view fk (tile_core.sl.dma0 d L tokT) Finset.univ) (tile_core.sl.dma0_1 d L tokT) Finset.univ) (tile_core.sl.dma0_3 d L tokT) Finset.univ) (tile_core.sl.dma0_5 d L tokT) Finset.univ) (tile_core.sl.dma0_7 d L tokT) rfl)
  have hin4 : ∀ x, (View.read (Elt F) (aV).view ((aV).view.writes (Elt F) (aV).view.junk (tile_core.sl.Ha'_24 d L tokT fk)) x).toNat
      < S100000x128.size gathers_S100000x128_S128x128.axis := fun x => by
    obtain ⟨h, e⟩ := hidx4 x
    rw [e]; exact htok _
  sl_exec
  -- chunk 5: what its list holds, hence in range
  have hidx5 : ∀ x, ∃ h, View.read (Elt F) (bV).view ((bV).view.writes (Elt F) (bV).view.junk (tile_core.sl.Hb'_24 d L tokT fk)) x
      = tokT (tokIx (28544 - (lo L + 128 * 5) + revLane (x 0).val) h) :=
    list_fact (bV).view _ _ (idxPieces (View.write (Elt F) (kV).view (View.write (Elt F) (kV).view (View.write (Elt F) (kV).view (View.write (Elt F) (kV).view fk (tile_core.sl.dma0 d L tokT) Finset.univ) (tile_core.sl.dma0_1 d L tokT) Finset.univ) (tile_core.sl.dma0_3 d L tokT) Finset.univ) (tile_core.sl.dma0_5 d L tokT) Finset.univ) ++ idxPieces (View.write (Elt F) (kV).view (View.write (Elt F) (kV).view fk (tile_core.sl.dma0 d L tokT) Finset.univ) (tile_core.sl.dma0_1 d L tokT) Finset.univ)) (View.write (Elt F) (kV).view (View.write (Elt F) (kV).view (View.write (Elt F) (kV).view (View.write (Elt F) (kV).view (View.write (Elt F) (kV).view (View.write (Elt F) (kV).view fk (tile_core.sl.dma0 d L tokT) Finset.univ) (tile_core.sl.dma0_1 d L tokT) Finset.univ) (tile_core.sl.dma0_3 d L tokT) Finset.univ) (tile_core.sl.dma0_5 d L tokT) Finset.univ) (tile_core.sl.dma0_7 d L tokT) Finset.univ) (tile_core.sl.dma0_9 d L tokT) Finset.univ) rfl tokT _
      (tok_fact tokT _ _ _ (toff L ⟨4, by decide⟩) (View.write (Elt F) (kV).view (View.write (Elt F) (kV).view (View.write (Elt F) (kV).view (View.write (Elt F) (kV).view (View.write (Elt F) (kV).view fk (tile_core.sl.dma0 d L tokT) Finset.univ) (tile_core.sl.dma0_1 d L tokT) Finset.univ) (tile_core.sl.dma0_3 d L tokT) Finset.univ) (tile_core.sl.dma0_5 d L tokT) Finset.univ) (tile_core.sl.dma0_7 d L tokT) Finset.univ) (tile_core.sl.dma0_9 d L tokT) rfl)
  have hin5 : ∀ x, (View.read (Elt F) (bV).view ((bV).view.writes (Elt F) (bV).view.junk (tile_core.sl.Hb'_24 d L tokT fk)) x).toNat
      < S100000x128.size gathers_S100000x128_S128x128.axis := fun x => by
    obtain ⟨h, e⟩ := hidx5 x
    rw [e]; exact htok _
  sl_exec
  -- chunk 6: what its list holds, hence in range
  have hidx6 : ∀ x, ∃ h, View.read (Elt F) (aV).view ((aV).view.writes (Elt F) (aV).view.junk (tile_core.sl.Ha'_32 d L tokT fk)) x
      = tokT (tokIx (28544 - (lo L + 128 * 6) + revLane (x 0).val) h) :=
    list_fact (aV).view _ _ (idxPieces (View.write (Elt F) (kV).view (View.write (Elt F) (kV).view (View.write (Elt F) (kV).view (View.write (Elt F) (kV).view (View.write (Elt F) (kV).view fk (tile_core.sl.dma0 d L tokT) Finset.univ) (tile_core.sl.dma0_1 d L tokT) Finset.univ) (tile_core.sl.dma0_3 d L tokT) Finset.univ) (tile_core.sl.dma0_5 d L tokT) Finset.univ) (tile_core.sl.dma0_7 d L tokT) Finset.univ) ++ idxPieces (View.write (Elt F) (kV).view (View.write (Elt F) (kV).view (View.write (Elt F) (kV).view fk (tile_core.sl.dma0 d L tokT) Finset.univ) (tile_core.sl.dma0_1 d L tokT) Finset.univ) (tile_core.sl.dma0_3 d L tokT) Finset.univ) ++ idxPieces (View.write (Elt F) (kV).view fk (tile_core.sl.dma0 d L tokT) Finset.univ)) (View.write (Elt F) (kV).view (View.write (Elt F) (kV).view (View.write (Elt F) (kV).view (View.write (Elt F) (kV).view (View.write (Elt F) (kV).view (View.write (Elt F) (kV).view (View.write (Elt F) (kV).view fk (tile_core.sl.dma0 d L tokT) Finset.univ) (tile_core.sl.dma0_1 d L tokT) Finset.univ) (tile_core.sl.dma0_3 d L tokT) Finset.univ) (tile_core.sl.dma0_5 d L tokT) Finset.univ) (tile_core.sl.dma0_7 d L tokT) Finset.univ) (tile_core.sl.dma0_9 d L tokT) Finset.univ) (tile_core.sl.dma0_11 d L tokT) Finset.univ) rfl tokT _
      (tok_fact tokT _ _ _ (toff L ⟨5, by decide⟩) (View.write (Elt F) (kV).view (View.write (Elt F) (kV).view (View.write (Elt F) (kV).view (View.write (Elt F) (kV).view (View.write (Elt F) (kV).view (View.write (Elt F) (kV).view fk (tile_core.sl.dma0 d L tokT) Finset.univ) (tile_core.sl.dma0_1 d L tokT) Finset.univ) (tile_core.sl.dma0_3 d L tokT) Finset.univ) (tile_core.sl.dma0_5 d L tokT) Finset.univ) (tile_core.sl.dma0_7 d L tokT) Finset.univ) (tile_core.sl.dma0_9 d L tokT) Finset.univ) (tile_core.sl.dma0_11 d L tokT) rfl)
  have hin6 : ∀ x, (View.read (Elt F) (aV).view ((aV).view.writes (Elt F) (aV).view.junk (tile_core.sl.Ha'_32 d L tokT fk)) x).toNat
      < S100000x128.size gathers_S100000x128_S128x128.axis := fun x => by
    obtain ⟨h, e⟩ := hidx6 x
    rw [e]; exact htok _
  sl_exec
  have hval0 : ∀ y : S128x128.Idx, ∃ hy, tile_core.sl.dma0_2 d L tokT emb fk fra hin0 y
      = X1 tokT emb (ValueIdx.ix2 (⟨lo L + 128 * 0 + (y 0).val, hy⟩ : Fin 28672) (y 1)) := fun y =>
    ⟨_, ((show tile_core.sl.dma0_2 d L tokT emb fk fra hin0 y
        = View.read (Elt F) (rA).view ((rA).view.writes (Elt F) fra (⟨Rect.whole S128x128, tile_core.sl.gather0 d L tokT emb fk hin0⟩ :: _)) y from rfl).trans
      (wout_fact (rA).view fra _ _ y)).trans
      (gather_value tokT emb htok (lo L + 128 * 0) (lo_bounds L 0 (by decide)).1 (lo_bounds L 0 (by decide)).2 _ hidx0 _ hin0 y)⟩
  ihave Hx0 := (Entails.of_eq (out_value (F := F) d L _ (k1_off3_inb L 0) (lo L + 128 * 0) (k1_off3_eq L ⟨0, by decide⟩) f1 _ (X1 tokT emb) hval0)) $$ Ho0'
  have hval1 : ∀ y : S128x128.Idx, ∃ hy, tile_core.sl.dma0_4 d L tokT emb fk frb hin1 y
      = X1 tokT emb (ValueIdx.ix2 (⟨lo L + 128 * 1 + (y 0).val, hy⟩ : Fin 28672) (y 1)) := fun y =>
    ⟨_, ((show tile_core.sl.dma0_4 d L tokT emb fk frb hin1 y
        = View.read (Elt F) (rB).view ((rB).view.writes (Elt F) frb (⟨Rect.whole S128x128, tile_core.sl.gather0_1 d L tokT emb fk hin1⟩ :: _)) y from rfl).trans
      (wout_fact (rB).view frb _ _ y)).trans
      (gather_value tokT emb htok (lo L + 128 * 1) (lo_bounds L 1 (by decide)).1 (lo_bounds L 1 (by decide)).2 _ hidx1 _ hin1 y)⟩
  ihave Hx1 := (Entails.of_eq (out_value (F := F) d L _ (k1_off3_inb L 1) (lo L + 128 * 1) (k1_off3_eq L ⟨1, by decide⟩) f1 _ (X1 tokT emb) hval1)) $$ Ho1'
  have hval2 : ∀ y : S128x128.Idx, ∃ hy, tile_core.sl.dma0_6 d L tokT emb fk fra hin0 hin2 y
      = X1 tokT emb (ValueIdx.ix2 (⟨lo L + 128 * 2 + (y 0).val, hy⟩ : Fin 28672) (y 1)) := fun y =>
    ⟨_, ((show tile_core.sl.dma0_6 d L tokT emb fk fra hin0 hin2 y
        = View.read (Elt F) (rA).view ((rA).view.writes (Elt F) fra (⟨Rect.whole S128x128, tile_core.sl.gather0_2 d L tokT emb fk hin2⟩ :: _)) y from rfl).trans
      (wout_fact (rA).view fra _ _ y)).trans
      (gather_value tokT emb htok (lo L + 128 * 2) (lo_bounds L 2 (by decide)).1 (lo_bounds L 2 (by decide)).2 _ hidx2 _ hin2 y)⟩
  ihave Hx2 := (Entails.of_eq (out_value (F := F) d L _ (k1_off3_inb L 2) (lo L + 128 * 2) (k1_off3_eq L ⟨2, by decide⟩) f1 _ (X1 tokT emb) hval2)) $$ Ho2'
  have hval3 : ∀ y : S128x128.Idx, ∃ hy, tile_core.sl.dma0_8 d L tokT emb fk frb hin1 hin3 y
      = X1 tokT emb (ValueIdx.ix2 (⟨lo L + 128 * 3 + (y 0).val, hy⟩ : Fin 28672) (y 1)) := fun y =>
    ⟨_, ((show tile_core.sl.dma0_8 d L tokT emb fk frb hin1 hin3 y
        = View.read (Elt F) (rB).view ((rB).view.writes (Elt F) frb (⟨Rect.whole S128x128, tile_core.sl.gather0_3 d L tokT emb fk hin3⟩ :: _)) y from rfl).trans
      (wout_fact (rB).view frb _ _ y)).trans
      (gather_value tokT emb htok (lo L + 128 * 3) (lo_bounds L 3 (by decide)).1 (lo_bounds L 3 (by decide)).2 _ hidx3 _ hin3 y)⟩
  ihave Hx3 := (Entails.of_eq (out_value (F := F) d L _ (k1_off3_inb L 3) (lo L + 128 * 3) (k1_off3_eq L ⟨3, by decide⟩) f1 _ (X1 tokT emb) hval3)) $$ Ho3'
  have hval4 : ∀ y : S128x128.Idx, ∃ hy, tile_core.sl.dma0_10 d L tokT emb fk fra hin0 hin2 hin4 y
      = X1 tokT emb (ValueIdx.ix2 (⟨lo L + 128 * 4 + (y 0).val, hy⟩ : Fin 28672) (y 1)) := fun y =>
    ⟨_, ((show tile_core.sl.dma0_10 d L tokT emb fk fra hin0 hin2 hin4 y
        = View.read (Elt F) (rA).view ((rA).view.writes (Elt F) fra (⟨Rect.whole S128x128, tile_core.sl.gather0_4 d L tokT emb fk hin4⟩ :: _)) y from rfl).trans
      (wout_fact (rA).view fra _ _ y)).trans
      (gather_value tokT emb htok (lo L + 128 * 4) (lo_bounds L 4 (by decide)).1 (lo_bounds L 4 (by decide)).2 _ hidx4 _ hin4 y)⟩
  ihave Hx4 := (Entails.of_eq (out_value (F := F) d L _ (k1_off3_inb L 4) (lo L + 128 * 4) (k1_off3_eq L ⟨4, by decide⟩) f1 _ (X1 tokT emb) hval4)) $$ Ho4'
  have hval5 : ∀ y : S128x128.Idx, ∃ hy, tile_core.sl.dma0_12 d L tokT emb fk frb hin1 hin3 hin5 y
      = X1 tokT emb (ValueIdx.ix2 (⟨lo L + 128 * 5 + (y 0).val, hy⟩ : Fin 28672) (y 1)) := fun y =>
    ⟨_, ((show tile_core.sl.dma0_12 d L tokT emb fk frb hin1 hin3 hin5 y
        = View.read (Elt F) (rB).view ((rB).view.writes (Elt F) frb (⟨Rect.whole S128x128, tile_core.sl.gather0_5 d L tokT emb fk hin5⟩ :: _)) y from rfl).trans
      (wout_fact (rB).view frb _ _ y)).trans
      (gather_value tokT emb htok (lo L + 128 * 5) (lo_bounds L 5 (by decide)).1 (lo_bounds L 5 (by decide)).2 _ hidx5 _ hin5 y)⟩
  ihave Hx5 := (Entails.of_eq (out_value (F := F) d L _ (k1_off3_inb L 5) (lo L + 128 * 5) (k1_off3_eq L ⟨5, by decide⟩) f1 _ (X1 tokT emb) hval5)) $$ Ho5'
  have hval6 : ∀ y : S128x128.Idx, ∃ hy, tile_core.sl.dma0_13 d L tokT emb fk fra hin0 hin2 hin4 hin6 y
      = X1 tokT emb (ValueIdx.ix2 (⟨lo L + 128 * 6 + (y 0).val, hy⟩ : Fin 28672) (y 1)) := fun y =>
    ⟨_, ((show tile_core.sl.dma0_13 d L tokT emb fk fra hin0 hin2 hin4 hin6 y
        = View.read (Elt F) (rA).view ((rA).view.writes (Elt F) fra (⟨Rect.whole S128x128, tile_core.sl.gather0_6 d L tokT emb fk hin6⟩ :: _)) y from rfl).trans
      (wout_fact (rA).view fra _ _ y)).trans
      (gather_value tokT emb htok (lo L + 128 * 6) (lo_bounds L 6 (by decide)).1 (lo_bounds L 6 (by decide)).2 _ hidx6 _ hin6 y)⟩
  ihave Hx6 := (Entails.of_eq (out_value (F := F) d L _ (k1_off3_inb L 6) (lo L + 128 * 6) (k1_off3_eq L ⟨6, by decide⟩) f1 _ (X1 tokT emb) hval6)) $$ Ho6'
  sl_step
  isplitl [Htok' HeL HeR Hx0 Hx1 Hx2 Hx3 Hx4 Hx5 Hx6]
  · isplitl [Htok']; · iexact Htok'
    isplitl [HeL HeR]
    · iapply (pointsTo_share (PosShare.mem_left_op_right qe)).2
      isplitl [HeL]; · iexact HeL
      iexact HeR
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    iexact Hx6
  isplitl [Hk' Ha' Hb' HrA' HrB' Hbufs]
  · isplitl [Hk' Ha' Hb' HrA' HrB']
    · isplitl [Hk']; · iexists _; iexact Hk'
      isplitl [Ha']; · iexists _; iexact Ha'
      isplitl [Hb']; · iexists _; iexact Hb'
      isplitl [HrA']; · iexists _; iexact HrA'
      iexists _; iexact HrB'
    iexact Hbufs
  isplitl [HgA HgB HwA HwB Hs0 Hs1 Hs2 Hs3 Hs4 Hs5 Hs6 Hsems]
  · isplitl [HgA HgB HwA HwB Hs0 Hs1 Hs2 Hs3 Hs4 Hs5 Hs6]
    · isplitl [HgA]; · iexact HgA
      isplitl [HgB]; · iexact HgB
      isplitl [HwA]; · iexact HwA
      isplitl [HwB]; · iexact HwB
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    iexact Hsems
  iexists _; isplitr
  swap; · iexact HO
  ipureintro; intro p hp
  iterate 21 (rcases Finset.mem_insert.mp hp with hp | hp; · exact .inr (hp ▸ rfl))
  exact .inl hp

/-! ## The tile's 896 rows are the seven chunks' -/

theorem rows7 (d : Dev nD) (a : ℕ) (f : Buf (Elt F) (x1Loc d)) :
    (x1Loc d ↦[rowsOf S28672x128 a 896]{fullShare} f : sProp 𝕄)
      = iprop((x1Loc d ↦[rowsOf S28672x128 (a + 128 * 0) 128]{fullShare} f)
          ∗ (x1Loc d ↦[rowsOf S28672x128 (a + 128 * 1) 128]{fullShare} f)
          ∗ (x1Loc d ↦[rowsOf S28672x128 (a + 128 * 2) 128]{fullShare} f)
          ∗ (x1Loc d ↦[rowsOf S28672x128 (a + 128 * 3) 128]{fullShare} f)
          ∗ (x1Loc d ↦[rowsOf S28672x128 (a + 128 * 4) 128]{fullShare} f)
          ∗ (x1Loc d ↦[rowsOf S28672x128 (a + 128 * 5) 128]{fullShare} f)
          ∗ (x1Loc d ↦[rowsOf S28672x128 (a + 128 * 6) 128]{fullShare} f)) := by
  rw [← rows_cover a, pointsTo_biUnion Finset.univ _ (rows_disj a),
    bigSep_univ_succ, bigSep_univ_succ, bigSep_univ_succ, bigSep_univ_succ, bigSep_univ_succ, bigSep_univ_succ,
    BI.bigSep_univ_of_subsingleton (0 : Fin 1)]
  rfl

set_option maxHeartbeats 1000000 in
/-- The second gather kernel's body on vector subcore `(L 0, L 1)` of device `d`: from shares of the tokens and the
    table and the tile's 896 output rows, to the same with the rows holding the gathered array. -/
theorem tile_body (d : Dev nD) (L : grid1.Coords) (tokT : Buf (Elt F) (tokLoc d)) (emb : Buf (Elt F) (embLoc d)) (f1 : Buf (Elt F) (x1Loc d))
    (htok : ∀ j, (tokT j).toNat < 100000) (qt qe : PosShare TreeShare) (hF : (K (F := F)).Facts)
    (O : CellTallies nD τ sig (HIx 2)) (W : Waits sig (HIx 2)) (hO : ∀ g, O g none = 0) :
    iprop(levAts (K (F := F)).L (K (F := F)).lev ∗ emp
        ∗ ((tokLoc d ↦{qt} tokT) ∗ (embLoc d ↦{qe} emb) ∗ (x1Loc d ↦[rowsOf S28672x128 (lo L) 896]{fullShare} f1))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__gather_body L tV (Memref.isWhole_whole _) eV (Memref.isWhole_whole _) oV (Memref.isWhole_whole _)
            kV (Memref.isWhole_whole _) aV (Memref.isWhole_whole _) bV (Memref.isWhole_whole _) rA (Memref.isWhole_whole _) rB (Memref.isWhole_whole _)
            cc1_scratch5 cc1_scratch6 cc1_scratch7 cc1_scratch8 cc1_scoped0 cc1_scoped1 cc1_scoped2 cc1_scoped3 cc1_scoped4 cc1_scoped5 cc1_scoped6)
          fun _ => iprop(((tokLoc d ↦{qt} tokT) ∗ (embLoc d ↦{qe} emb) ∗ (x1Loc d ↦[rowsOf S28672x128 (lo L) 896]{fullShare} X1 tokT emb))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [rows7 d (lo L) f1, rows7 d (lo L) (X1 tokT emb)]
  exact tile_core d L tokT emb f1 htok qt qe hF O W hO

/-! ## The task as the launch theorem spells it -/

/-- The grid point of vector subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1__gather_body (coordsV c s)
          tV (Memref.isWhole_whole _) eV (Memref.isWhole_whole _) oV (Memref.isWhole_whole _)
            kV (Memref.isWhole_whole _) aV (Memref.isWhole_whole _) bV (Memref.isWhole_whole _) rA (Memref.isWhole_whole _) rB (Memref.isWhole_whole _)
            cc1_scratch5 cc1_scratch6 cc1_scratch7 cc1_scratch8 cc1_scoped0 cc1_scoped1 cc1_scoped2 cc1_scoped3 cc1_scoped4 cc1_scoped5 cc1_scoped6) ⟨⟩ c s := rfl

theorem task_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The second call's task on vector subcore `i` of SparseCore `c`, in the launch theorem's own spelling of thread and
    program: from shares of the tokens and the table and the tile's 896 output rows, to the same with the rows at
    `X1`. -/
theorem tile_task1 (d : Dev nD) (c : Fin ((K (F := F)).nCore 1)) (i : Fin ((K (F := F)).nSub 1))
    (tokT : Buf (Elt F) (tokLoc d)) (emb : Buf (Elt F) (embLoc d)) (f1 : Buf (Elt F) (x1Loc d))
    (htok : ∀ j, (tokT j).toNat < 100000) (qt qe : PosShare TreeShare)
    (hF : (K (F := F)).Facts) (O : CellTallies nD τ sig (HIx 2)) (W : Waits sig (HIx 2)) (hO : ∀ g, O g none = 0) :
    iprop(levAts (K (F := F)).L (K (F := F)).lev ∗ emp
        ∗ ((tokLoc d ↦{qt} tokT) ∗ (embLoc d ↦{qe} emb)
            ∗ (x1Loc d ↦[rowsOf S28672x128 (1792 * ((K (F := F)).sub 1 i).val + 896 * ((K (F := F)).core 1 c).val) 896]{fullShare} f1))
        ∗ scopedBufs (V d ((K (F := F)).core 1 c) ((K (F := F)).sub 1 i)) ∗ scopedSems0 (V d ((K (F := F)).core 1 c) ((K (F := F)).sub 1 i))
        ∗ owes (V d ((K (F := F)).core 1 c) ((K (F := F)).sub 1 i)) O W)
      ⊢ (wp frame (wpE (D (F := F)) 𝒱 (V d ((K (F := F)).core 1 c) ((K (F := F)).sub 1 i)) (some v₀)) Set.univ
          (D (F := F) (.scVector ((K (F := F)).core 1 c) ((K (F := F)).sub 1 i)) ((K (F := F)).body 1) ((K (F := F)).args 1))
          fun _ => iprop(((tokLoc d ↦{qt} tokT) ∗ (embLoc d ↦{qe} emb)
              ∗ (x1Loc d ↦[rowsOf S28672x128 (1792 * ((K (F := F)).sub 1 i).val + 896 * ((K (F := F)).core 1 c).val) 896]{fullShare} X1 tokT emb))
            ∗ scopedBufs (V d ((K (F := F)).core 1 c) ((K (F := F)).sub 1 i)) ∗ scopedSems0 (V d ((K (F := F)).core 1 c) ((K (F := F)).sub 1 i))
            ∗ ∃ W', ⌜∀ p ∈ W', p ∈ W ∨ p.2 = none ∨ p.2 = some (1 : Fin 2)⌝ ∗ owes (V d ((K (F := F)).core 1 c) ((K (F := F)).sub 1 i)) O W') : sProp 𝕄) := by
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tile_body d (coordsV ⟨_, hci.1⟩ ⟨_, hci.2⟩) tokT emb f1 htok qt qe hF O W hO).trans (wp_mono frame _ _ fun _ => task_post)

end Cert.Proof.KI.Gather1
end
-- ==== Proof.Split.lean ====
/-
  The gather calls at the TensorCore: the tokens, the table and a call's output leave the TensorCore's arrays as the
  thirty-two tiles' parts (a share of the tokens and of the table each, and the tile's rows of the output) and come
  back with the output at the gathered rows; and each tile's task as the launch theorem asks for it.
-/
import proofs.«205923_g40089224741417_cont_sun_m_110_39_alg».proof.Proof.Main
import proofs.«205923_g40089224741417_cont_sun_m_110_39_alg».proof.Proof.Gather0
import proofs.«205923_g40089224741417_cont_sun_m_110_39_alg».proof.Proof.Gather1

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq seq after)

variable {F : FTy → Type} [FloatOps F] [Named F]

variable (m : (ℓ : Loc nD τ sig) → Buf (Elt F) ℓ) (ρ : Dev nD → PrngReg)

local notation "𝕄" => MM F

/-! ## A share as its thirty-two leaves -/

omit [FloatOps F] [Named F] in
/-- An even number's leaf is the left half's leaf at its half … -/
theorem leafSh_even (k : ℕ) (q : PosShare TreeShare) (n : ℕ) : leafSh (k + 1) q (2 * n) = leafSh k q.left n := by
  rw [leafSh, if_pos (by omega), Nat.mul_div_cancel_left n (by decide)]
omit [FloatOps F] [Named F] in
/-- … an odd number's the right half's. -/
theorem leafSh_odd (k : ℕ) (q : PosShare TreeShare) (n : ℕ) : leafSh (k + 1) q (2 * n + 1) = leafSh k q.right n := by
  rw [leafSh, if_neg (by omega), show (2 * n + 1) / 2 = n by omega]

/-- The numbers below `2 ^ (k + 1)`: the even ones and the odd ones, each numbered by their halves. -/
def eoEquiv (k : ℕ) : Fin (2 ^ k) ⊕ Fin (2 ^ k) ≃ Fin (2 ^ (k + 1)) where
  toFun := Sum.elim (fun n => ⟨2 * n.val, by have := n.isLt; rw [pow_succ]; omega⟩) (fun n => ⟨2 * n.val + 1, by have := n.isLt; rw [pow_succ]; omega⟩)
  invFun n := if n.val % 2 = 0 then .inl ⟨n.val / 2, by have h2 : 2 ^ (k + 1) = 2 ^ k * 2 := pow_succ 2 k; have := n.isLt; omega⟩
    else .inr ⟨n.val / 2, by have h2 : 2 ^ (k + 1) = 2 ^ k * 2 := pow_succ 2 k; have := n.isLt; omega⟩
  left_inv := by
    rintro (n | n)
    · show (if (2 * n.val) % 2 = 0 then Sum.inl _ else Sum.inr _) = Sum.inl n
      rw [if_pos (by omega)]
      exact congrArg Sum.inl (Fin.ext (by show 2 * n.val / 2 = n.val; omega))
    · show (if (2 * n.val + 1) % 2 = 0 then Sum.inl _ else Sum.inr _) = Sum.inr n
      rw [if_neg (by omega)]
      exact congrArg Sum.inr (Fin.ext (by show (2 * n.val + 1) / 2 = n.val; omega))
  right_inv := by
    intro n
    by_cases h : n.val % 2 = 0
    · show Sum.elim _ _ (if n.val % 2 = 0 then Sum.inl _ else Sum.inr _) = n
      rw [if_pos h]
      exact Fin.ext (by show 2 * (n.val / 2) = n.val; omega)
    · show Sum.elim _ _ (if n.val % 2 = 0 then Sum.inl _ else Sum.inr _) = n
      rw [if_neg h]
      exact Fin.ext (by show 2 * (n.val / 2) + 1 = n.val; omega)

omit [FloatOps F] [Named F] in
/-- A points-to at a share is its `2 ^ k` leaves' at once: a share is its two halves', the left half's leaves the even
    numbers, the right half's the odd ones. -/
theorem pts_leaves {ℓ : Loc nD τ sig} (I : Finset (Idx ℓ)) (f : Buf (Elt F) ℓ) :
    ∀ (k : ℕ) (q : PosShare TreeShare), (ℓ ↦[I]{q} f : sProp 𝕄) = bigSep Finset.univ fun n : Fin (2 ^ k) => ℓ ↦[I]{leafSh k q n.val} f
  | 0, q => (bigSep_univ_of_subsingleton (0 : Fin 1) (Φ := fun n : Fin (2 ^ 0) => (ℓ ↦[I]{leafSh 0 q n.val} f : sProp 𝕄))).symm
  | k + 1, q => by
    rw [BI.Entails.antisymm (pointsTo_share (PosShare.mem_left_op_right q)).1 (pointsTo_share (PosShare.mem_left_op_right q)).2,
      pts_leaves I f k q.left, pts_leaves I f k q.right,
      bigSep_univ_equiv (eoEquiv k) (fun n : Fin (2 ^ (k + 1)) => (ℓ ↦[I]{leafSh (k + 1) q n.val} f : sProp 𝕄)), bigSep_univ_sum]
    congr 1 <;> refine bigSep_congr fun n _ => ?_
    · show (ℓ ↦[I]{leafSh k q.left n.val} f : sProp 𝕄) = ℓ ↦[I]{leafSh (k + 1) q (2 * n.val)} f
      rw [leafSh_even]
    · show (ℓ ↦[I]{leafSh k q.right n.val} f : sProp 𝕄) = ℓ ↦[I]{leafSh (k + 1) q (2 * n.val + 1)} f
      rw [leafSh_odd]

/-- Tile `i` of SparseCore `c` is tile number `2 * i + c` of the thirty-two. -/
def tileEquiv : Fin 2 × Fin 16 ≃ Fin (2 ^ 5) where
  toFun p := ⟨2 * p.2.val + p.1.val, by have := p.1.isLt; have := p.2.isLt; show 2 * p.2.val + p.1.val < 32; omega⟩
  invFun n := (⟨n.val % 2, by omega⟩, ⟨n.val / 2, by have : n.val < 32 := n.isLt; omega⟩)
  left_inv p := Prod.ext (Fin.ext (by have := p.1.isLt; show (2 * p.2.val + p.1.val) % 2 = p.1.val; omega))
    (Fin.ext (by have := p.1.isLt; show (2 * p.2.val + p.1.val) / 2 = p.2.val; omega))
  right_inv n := Fin.ext (by show 2 * (n.val / 2) + n.val % 2 = n.val; omega)

omit [FloatOps F] [Named F] in
/-- A points-to at a share is the thirty-two tiles' shares of it, by SparseCore and tile. -/
theorem pts_tiles {ℓ : Loc nD τ sig} (I : Finset (Idx ℓ)) (f : Buf (Elt F) ℓ) (q : PosShare TreeShare) :
    (ℓ ↦[I]{q} f : sProp 𝕄)
      = bigSep Finset.univ fun c : Fin 2 => bigSep Finset.univ fun i : Fin 16 => ℓ ↦[I]{leafSh 5 q (2 * i.val + c.val)} f := by
  rw [pts_leaves I f 5 q, bigSep_univ_equiv tileEquiv, bigSep_univ_prod]
  rfl

/-! ## An output as the thirty-two tiles' row blocks -/

omit [FloatOps F] [Named F] in
/-- A whole points-to along a finite family of pairwise disjoint element sets that cover the buffer. -/
theorem pts_cover {ℓ : Loc nD τ sig} {T : Type} [Fintype T] (Kset : T → Finset (Idx ℓ))
    (hd : ∀ t t', t ≠ t' → Disjoint (Kset t) (Kset t')) (hc : ∀ j, ∃ t, j ∈ Kset t) (q : PosShare TreeShare) (f : Buf (Elt F) ℓ) :
    (ℓ ↦{q} f : sProp 𝕄) = bigSep Finset.univ fun t => ℓ ↦[Kset t]{q} f := by
  have hU : Finset.univ.biUnion Kset = Finset.univ :=
    Finset.eq_univ_iff_forall.mpr fun j => Finset.mem_biUnion.mpr (let ⟨t, ht⟩ := hc j; ⟨t, Finset.mem_univ t, ht⟩)
  rw [← pointsTo_biUnion Finset.univ Kset (fun t _ t' _ h => hd t t' h), hU]

omit [FloatOps F] [Named F] in
theorem mem_rows0 (lo n : ℕ) (j : S4096x128.Idx) : j ∈ rowsOf S4096x128 lo n ↔ lo ≤ (j 0).val ∧ (j 0).val < lo + n := by
  unfold rowsOf; simp only [Finset.mem_filter, Finset.mem_univ, true_and]; exact Iff.rfl
omit [FloatOps F] [Named F] in
theorem mem_rows1 (lo n : ℕ) (j : S28672x128.Idx) : j ∈ rowsOf S28672x128 lo n ↔ lo ≤ (j 0).val ∧ (j 0).val < lo + n := by
  unfold rowsOf; simp only [Finset.mem_filter, Finset.mem_univ, true_and]; exact Iff.rfl

omit [FloatOps F] [Named F] in
/-- The first output whole is the thirty-two blocks of 128 rows, block `2 * i + c` tile `(c, i)`'s. -/
theorem pts_rows0 (d : Dev nD) (f : Buf (Elt F) (x0Loc d)) (q : PosShare TreeShare) :
    (x0Loc d ↦{q} f : sProp 𝕄)
      = bigSep Finset.univ fun c : Fin 2 => bigSep Finset.univ fun i : Fin 16 => x0Loc d ↦[rowsOf S4096x128 (256 * i.val + 128 * c.val) 128]{q} f := by
  rw [pts_cover (ℓ := x0Loc d) (T := Fin 2 × Fin 16) (fun p => rowsOf S4096x128 (256 * p.2.val + 128 * p.1.val) 128) ?_ ?_ q f, bigSep_univ_prod]
  · intro p p' h
    rw [Finset.disjoint_left]
    intro j hj hj'
    rw [mem_rows0] at hj hj'
    have := p.1.isLt; have := p'.1.isLt
    exact h (Prod.ext (Fin.ext (by omega)) (Fin.ext (by omega)))
  · intro j
    have hj : (j 0).val < 4096 := (j 0).isLt
    refine ⟨(⟨(j 0).val / 128 % 2, by omega⟩, ⟨(j 0).val / 256, by omega⟩), ?_⟩
    rw [mem_rows0]
    show 256 * ((j 0).val / 256) + 128 * ((j 0).val / 128 % 2) ≤ (j 0).val
      ∧ (j 0).val < 256 * ((j 0).val / 256) + 128 * ((j 0).val / 128 % 2) + 128
    omega

omit [FloatOps F] [Named F] in
/-- The second output whole is the thirty-two blocks of 896 rows. -/
theorem pts_rows1 (d : Dev nD) (f : Buf (Elt F) (x1Loc d)) (q : PosShare TreeShare) :
    (x1Loc d ↦{q} f : sProp 𝕄)
      = bigSep Finset.univ fun c : Fin 2 => bigSep Finset.univ fun i : Fin 16 => x1Loc d ↦[rowsOf S28672x128 (1792 * i.val + 896 * c.val) 896]{q} f := by
  rw [pts_cover (ℓ := x1Loc d) (T := Fin 2 × Fin 16) (fun p => rowsOf S28672x128 (1792 * p.2.val + 896 * p.1.val) 896) ?_ ?_ q f, bigSep_univ_prod]
  · intro p p' h
    rw [Finset.disjoint_left]
    intro j hj hj'
    rw [mem_rows1] at hj hj'
    have := p.1.isLt; have := p'.1.isLt
    exact h (Prod.ext (Fin.ext (by omega)) (Fin.ext (by omega)))
  · intro j
    have hj : (j 0).val < 28672 := (j 0).isLt
    refine ⟨(⟨(j 0).val / 896 % 2, by omega⟩, ⟨(j 0).val / 1792, by omega⟩), ?_⟩
    rw [mem_rows1]
    show 1792 * ((j 0).val / 1792) + 896 * ((j 0).val / 896 % 2) ≤ (j 0).val
      ∧ (j 0).val < 1792 * ((j 0).val / 1792) + 896 * ((j 0).val / 896 % 2) + 896
    omega

/-! ## The gather calls at the TensorCore: the whole arrays out to the thirty-two tiles and back -/

/-- The tokens, the table and the first output, whole, are the thirty-two tiles' parts at the first call. -/
theorem parts0 (d : Dev nD) (f : Buf (Elt F) (x0Loc d)) :
    (iprop((tokLoc d ↦{fullShare} tokT m d) ∗ (embLoc d ↦{fullShare} embT m d) ∗ (x0Loc d ↦{fullShare} f)) : sProp 𝕄)
      = bigSep Finset.univ fun c : Fin 2 => bigSep Finset.univ fun i : Fin 16 => tile0 m d c.val i.val f := by
  rw [pts_tiles (F := F) (ℓ := tokLoc d) Finset.univ (tokT m d) fullShare, pts_tiles (F := F) (ℓ := embLoc d) Finset.univ (embT m d) fullShare,
    pts_rows0 (F := F) d f fullShare]
  simp only [tile0, bigSep_sep']

/-- The same at the second call. -/
theorem parts1 (d : Dev nD) (f : Buf (Elt F) (x1Loc d)) :
    (iprop((tokLoc d ↦{fullShare} tokT m d) ∗ (embLoc d ↦{fullShare} embT m d) ∗ (x1Loc d ↦{fullShare} f)) : sProp 𝕄)
      = bigSep Finset.univ fun c : Fin 2 => bigSep Finset.univ fun i : Fin 16 => tile1 m d c.val i.val f := by
  rw [pts_tiles (F := F) (ℓ := tokLoc d) Finset.univ (tokT m d) fullShare, pts_tiles (F := F) (ℓ := embLoc d) Finset.univ (embT m d) fullShare,
    pts_rows1 (F := F) d f fullShare]
  simp only [tile1, bigSep_sep']

omit [FloatOps F] [Named F] in
/-- Three distinct buffers held are their three points-tos. -/
theorem held3 (c : Thread nD τ) {a b e : DevRef τ sig} (hab : a ≠ b) (hae : a ≠ e) (hbe : b ≠ e) (Vv : Valuation τ sig (Elt F)) :
    (held c {a, b, e} Vv : sProp 𝕄)
      = iprop(((c.1, a) ↦{fullShare} Vv a) ∗ ((c.1, b) ↦{fullShare} Vv b) ∗ ((c.1, e) ↦{fullShare} Vv e)) := by
  unfold StableHlo.held
  rw [bigSep_insert (by rw [Finset.mem_insert, Finset.mem_singleton]; exact fun h => h.elim hab hae),
    bigSep_insert (by rw [Finset.mem_singleton]; exact hbe), bigSep_singleton]
  rfl

omit [FloatOps F] [Named F] in
theorem tok_ne_emb : (rTok : DevRef τ sig) ≠ rEmb := StableHlo.devRef_ne_of_ne (by decide)
omit [FloatOps F] [Named F] in
theorem tok_ne_x0 : (rTok : DevRef τ sig) ≠ rX0 := StableHlo.devRef_ne_of_ne (by decide)
omit [FloatOps F] [Named F] in
theorem emb_ne_x0 : (rEmb : DevRef τ sig) ≠ rX0 := StableHlo.devRef_ne_of_ne (by decide)
omit [FloatOps F] [Named F] in
theorem tok_ne_x1 : (rTok : DevRef τ sig) ≠ rX1 := StableHlo.devRef_ne_of_ne (by decide)
omit [FloatOps F] [Named F] in
theorem emb_ne_x1 : (rEmb : DevRef τ sig) ≠ rX1 := StableHlo.devRef_ne_of_ne (by decide)
omit [FloatOps F] [Named F] in
theorem x0_ne_x1 : (rX0 : DevRef τ sig) ≠ rX1 := StableHlo.devRef_ne_of_ne (by decide)

omit [FloatOps F] [Named F] in
/-- A TensorCore array that is no kernel's scratch is among the unscoped buffers. -/
theorem mem_uc (b : Ref sig .tc) (h : (Proc.devRef .tc b : DevRef τ sig).isScoped = false) :
    (Proc.devRef .tc b : DevRef τ sig) ∈ Pipeline.ucRefs τ sig :=
  Finset.mem_filter.mpr ⟨StableHlo.devRef_mem_tcRefs b, by rw [h]; exact Bool.false_ne_true⟩

omit [FloatOps F] [Named F] in
theorem sub0 : ({rTok, rEmb, rX0} : Finset (DevRef τ sig)) ⊆ Pipeline.ucRefs τ sig := by
  intro b hb
  rw [Finset.mem_insert, Finset.mem_insert, Finset.mem_singleton] at hb
  rcases hb with rfl | rfl | rfl
  · exact mem_uc main_v1 rfl
  · exact mem_uc main_arg2 rfl
  · exact mem_uc main_v2 rfl
omit [FloatOps F] [Named F] in
theorem sub1 : ({rTok, rEmb, rX1} : Finset (DevRef τ sig)) ⊆ Pipeline.ucRefs τ sig := by
  intro b hb
  rw [Finset.mem_insert, Finset.mem_insert, Finset.mem_singleton] at hb
  rcases hb with rfl | rfl | rfl
  · exact mem_uc main_v1 rfl
  · exact mem_uc main_arg2 rfl
  · exact mem_uc main_v3 rfl

/-- The first call: the tokens, the table and the output leave the thread state as the two SparseCores' operands and
    come back with the output at the gathered rows. -/
theorem split0 (d : Dev nD) :
    (held (d.tc : Thread nD τ) (Pipeline.ucRefs τ sig) (WA m d) : sProp 𝕄)
      ⊢ iprop((bigSep Finset.univ fun c : Fin ((K (F := F)).nCore 0) => (P m).st 0 d c)
          ∗ ((bigSep Finset.univ fun c : Fin ((K (F := F)).nCore 0) => (P m).dn 0 d c)
              -∗ held (d.tc : Thread nD τ) (Pipeline.ucRefs τ sig) (W1 m d))) := by
  have hst : (bigSep Finset.univ fun c : Fin ((K (F := F)).nCore 0) => (P m).st 0 d c)
      = (iprop((tokLoc d ↦{fullShare} tokT m d) ∗ (embLoc d ↦{fullShare} embT m d) ∗ (x0Loc d ↦{fullShare} WA m d rX0)) : sProp 𝕄) :=
    (parts0 m d (WA m d rX0)).symm
  have hdn : (bigSep Finset.univ fun c : Fin ((K (F := F)).nCore 0) => (P m).dn 0 d c)
      = (iprop((tokLoc d ↦{fullShare} tokT m d) ∗ (embLoc d ↦{fullShare} embT m d) ∗ (x0Loc d ↦{fullShare} X0 (tokT m d) (embT m d))) : sProp 𝕄) :=
    (parts0 m d (X0 (tokT m d) (embT m d))).symm
  have hA : (held (d.tc : Thread nD τ) {rTok, rEmb, rX0} (WA m d) : sProp 𝕄)
      = iprop((tokLoc d ↦{fullShare} tokT m d) ∗ (embLoc d ↦{fullShare} embT m d) ∗ (x0Loc d ↦{fullShare} WA m d rX0)) :=
    held3 (d.tc) tok_ne_emb tok_ne_x0 emb_ne_x0 (WA m d)
  have hB : (held (d.tc : Thread nD τ) {rTok, rEmb, rX0} (W1 m d) : sProp 𝕄)
      = iprop((tokLoc d ↦{fullShare} tokT m d) ∗ (embLoc d ↦{fullShare} embT m d) ∗ (x0Loc d ↦{fullShare} X0 (tokT m d) (embT m d))) := by
    rw [held3 (d.tc) tok_ne_emb tok_ne_x0 emb_ne_x0 (W1 m d)]
    unfold W1
    rw [Function.update_of_ne tok_ne_x0, Function.update_of_ne emb_ne_x0, Function.update_self]
    rfl
  have hR : (held (d.tc : Thread nD τ) (Pipeline.ucRefs τ sig \ {rTok, rEmb, rX0}) (W1 m d) : sProp 𝕄)
      = held (d.tc : Thread nD τ) (Pipeline.ucRefs τ sig \ {rTok, rEmb, rX0}) (WA m d) :=
    StableHlo.held_congr (d.tc) fun b hb => by
      unfold W1
      exact Function.update_of_ne (fun e => (Finset.mem_sdiff.mp hb).2 (by rw [e]; simp)) _ _
  rw [StableHlo.held_sub_split (d.tc : Thread nD τ) sub0 (WA m d), StableHlo.held_sub_split (d.tc : Thread nD τ) sub0 (W1 m d), hA, hB, hR, hst, hdn]
  iintro ⟨H, Hr⟩
  isplitl [H]; · iexact H
  iintro H'
  isplitl [H']; · iexact H'
  iexact Hr

/-- The second call, likewise. -/
theorem split1 (d : Dev nD) :
    (held (d.tc : Thread nD τ) (Pipeline.ucRefs τ sig) (W1 m d) : sProp 𝕄)
      ⊢ iprop((bigSep Finset.univ fun c : Fin ((K (F := F)).nCore 1) => (P m).st 1 d c)
          ∗ ((bigSep Finset.univ fun c : Fin ((K (F := F)).nCore 1) => (P m).dn 1 d c)
              -∗ held (d.tc : Thread nD τ) (Pipeline.ucRefs τ sig) (W2 m d))) := by
  have hst : (bigSep Finset.univ fun c : Fin ((K (F := F)).nCore 1) => (P m).st 1 d c)
      = (iprop((tokLoc d ↦{fullShare} tokT m d) ∗ (embLoc d ↦{fullShare} embT m d) ∗ (x1Loc d ↦{fullShare} W1 m d rX1)) : sProp 𝕄) :=
    (parts1 m d (W1 m d rX1)).symm
  have hdn : (bigSep Finset.univ fun c : Fin ((K (F := F)).nCore 1) => (P m).dn 1 d c)
      = (iprop((tokLoc d ↦{fullShare} tokT m d) ∗ (embLoc d ↦{fullShare} embT m d) ∗ (x1Loc d ↦{fullShare} X1 (tokT m d) (embT m d))) : sProp 𝕄) :=
    (parts1 m d (X1 (tokT m d) (embT m d))).symm
  have hA : (held (d.tc : Thread nD τ) {rTok, rEmb, rX1} (W1 m d) : sProp 𝕄)
      = iprop((tokLoc d ↦{fullShare} tokT m d) ∗ (embLoc d ↦{fullShare} embT m d) ∗ (x1Loc d ↦{fullShare} W1 m d rX1)) := by
    rw [held3 (d.tc) tok_ne_emb tok_ne_x1 emb_ne_x1 (W1 m d)]
    unfold W1
    rw [Function.update_of_ne tok_ne_x0, Function.update_of_ne emb_ne_x0]
    rfl
  have hB : (held (d.tc : Thread nD τ) {rTok, rEmb, rX1} (W2 m d) : sProp 𝕄)
      = iprop((tokLoc d ↦{fullShare} tokT m d) ∗ (embLoc d ↦{fullShare} embT m d) ∗ (x1Loc d ↦{fullShare} X1 (tokT m d) (embT m d))) := by
    rw [held3 (d.tc) tok_ne_emb tok_ne_x1 emb_ne_x1 (W2 m d)]
    unfold W2 W1
    rw [Function.update_of_ne tok_ne_x1, Function.update_of_ne emb_ne_x1, Function.update_self,
      Function.update_of_ne tok_ne_x0, Function.update_of_ne emb_ne_x0]
    rfl
  have hR : (held (d.tc : Thread nD τ) (Pipeline.ucRefs τ sig \ {rTok, rEmb, rX1}) (W2 m d) : sProp 𝕄)
      = held (d.tc : Thread nD τ) (Pipeline.ucRefs τ sig \ {rTok, rEmb, rX1}) (W1 m d) :=
    StableHlo.held_congr (d.tc) fun b hb => by
      unfold W2
      exact Function.update_of_ne (fun e => (Finset.mem_sdiff.mp hb).2 (by rw [e]; simp)) _ _
  rw [StableHlo.held_sub_split (d.tc : Thread nD τ) sub1 (W1 m d), StableHlo.held_sub_split (d.tc : Thread nD τ) sub1 (W2 m d), hA, hB, hR, hst, hdn]
  iintro ⟨H, Hr⟩
  isplitl [H]; · iexact H
  iintro H'
  isplitl [H']; · iexact H'
  iexact Hr

/-! ## The tiles' tasks as the launch theorem asks for them -/

theorem tileObl0 (htok : ∀ d j, (tokT m d j).toNat < 100000) : (K (F := F)).TileObl (D (F := F)) 𝒱 (P m) v₀ 0 := by
  intro d c i O W hO _ _
  simp only [show (P m).ox = fun _ _ => 0 from rfl, add_zero]
  exact Gather0.tile_task0 d c i (tokT m d) (embT m d) (WA m d rX0) (htok d) (tileSh c.val i.val) (tileSh c.val i.val) facts O W hO

theorem tileObl1 (htok : ∀ d j, (tokT m d j).toNat < 100000) : (K (F := F)).TileObl (D (F := F)) 𝒱 (P m) v₀ 1 := by
  intro d c i O W hO _ _
  simp only [show (P m).ox = fun _ _ => 0 from rfl, add_zero]
  exact Gather1.tile_task1 d c i (tokT m d) (embT m d) (W1 m d rX1) (htok d) (tileSh c.val i.val) (tileSh c.val i.val) facts O W hO

end Cert.Proof.KI

end
-- ==== Proof.Chk.lean ====
/-
  The side conditions the two recurrence bodies assume of the word they load from scalar memory (the first active
  step): the loops over the blocks of eight steps have a meaning and the dynamic row offsets of their loads are in
  range. The first block `nblk0` is a word clamped to `[0, NB]` (`NB` blocks in the chunk: 32, 56), so the
  first loop runs blocks `nblk0 .. NB - 1`, the second none, and a block's eight steps read rows
  `(8 * blk + r) * 16 .. + 16` of the `128 * NB` rows — whatever the word was.
-/
import proofs.«205923_g40089224741417_cont_sun_m_110_39_alg».proof.Proof.Gen.KernelIdeal
import Idealize.ShloMosaic.Lib.Affine
import Mathlib.Tactic.NormNum
import Idealize.ShloMosaic.Lib.Scf

namespace Cert.Proof.KI.Chk

open Cert.KernelIdeal Cert.KernelIdeal.Gen
open Idealize.ShloMosaic
open Idealize.ShloMosaic.Affine (IsInt)

/-! ## The words the bodies compute, named -/

/-- Floor division by 8 as the bodies compute it: the truncated quotient, less one when the signs differ and the
    remainder is not zero. -/
def fd8 (d : BitVec 32) : BitVec 32 :=
  Scalar.select
    (Scalar.andi
      (Scalar.cmpi .ne (Scalar.subi (Scalar.extui (Scalar.cmpi .sgt d 0#32)) (Scalar.extui (Scalar.cmpi .slt d 0#32)))
        (Scalar.subi (Scalar.extui (Scalar.cmpi .sgt 8#32 0#32)) (Scalar.extui (Scalar.cmpi .slt 8#32 0#32))))
      (Scalar.cmpi .ne (Scalar.remsi d 8#32) 0#32))
    (Scalar.subi (Scalar.divsi d 8#32) 1#32) (Scalar.divsi d 8#32)
/-- A word clamped to `[0, NB]`: the first block. -/
def nbw (NB : ℕ) (x : BitVec 32) : BitVec 32 := Scalar.minsi (BitVec.ofNat 32 NB) (Scalar.maxsi 0#32 x)
/-- The first loop's upper bound, `lb + ((NB - lb) / 1) * 1`, and the second's, `lb + (NB - lb)`. -/
def ub1w (NB : ℕ) (v : BitVec 32) : BitVec 32 :=
  Scalar.addi v (Scalar.muli (Scalar.divsi (Scalar.subi (BitVec.ofNat 32 NB) v) 1#32) 1#32)
def ub2w (NB : ℕ) (v : BitVec 32) : BitVec 32 := Scalar.addi v (Scalar.subi (BitVec.ofNat 32 NB) v)
/-- The row of step `r` of the block at trip `t` of a loop from `lb` by one: `((lb + t) * 8 + r) * 16`. -/
def rowOff (lb : BitVec 32) (t : ℕ) (r : BitVec 32) : BitVec 32 :=
  Scalar.indexCast (Scalar.muli (Scalar.addi (Scalar.muli (Scf.iv lb 1#32 t) 8#32) r) 16#32)
/-- The first active step less the chunk's first step, in each region. -/
def k2d (i : grid2.Coords) (w : BitVec 32) : BitVec 32 := Scalar.subi w (Scalar.muli (BitVec.ofNat 32 (i 0).val) 256#32)
def k3d (i : grid3.Coords) (w : BitVec 32) : BitVec 32 :=
  Scalar.subi w (Scalar.addi 256#32 (Scalar.muli (BitVec.ofNat 32 (i 0).val) 448#32))

theorem k2_t1_loop_eq (i : grid2.Coords) (w : BitVec 32) :
    k2_t1_loop i w = ⟨nbw 32 (fd8 (k2d i w)), ub1w 32 (nbw 32 (fd8 (k2d i w))), 1#32⟩ := rfl
theorem k2_t2_loop_eq (i : grid2.Coords) (w : BitVec 32) :
    k2_t2_loop i w = ⟨ub1w 32 (nbw 32 (fd8 (k2d i w))), ub2w 32 (nbw 32 (fd8 (k2d i w))), 1#32⟩ := rfl
theorem k2_off1_eq' (i : grid2.Coords) (w : BitVec 32) (t : Fin (k2_t1_loop i w).trips) (r : BitVec 32) :
    k2_off1 i w t r = ![(rowOff (nbw 32 (fd8 (k2d i w))) t.val r).toNat, 0] := rfl
theorem k3_t1_loop_eq (i : grid3.Coords) (w : BitVec 32) :
    k3_t1_loop i w = ⟨nbw 56 (fd8 (k3d i w)), ub1w 56 (nbw 56 (fd8 (k3d i w))), 1#32⟩ := rfl
theorem k3_t2_loop_eq (i : grid3.Coords) (w : BitVec 32) :
    k3_t2_loop i w = ⟨ub1w 56 (nbw 56 (fd8 (k3d i w))), ub2w 56 (nbw 56 (fd8 (k3d i w))), 1#32⟩ := rfl
theorem k3_off1_eq' (i : grid3.Coords) (w : BitVec 32) (t : Fin (k3_t1_loop i w).trips) (r : BitVec 32) :
    k3_off1 i w t r = ![(rowOff (nbw 56 (fd8 (k3d i w))) t.val r).toNat, 0] := rfl

/-! ## The clamped first block, the loops' bounds, the row offsets: over any word -/

/-- A word clamped below by 0 and above by `NB` reads as an integer in `[0, NB]`. -/
theorem clamp (NB : ℕ) (hNB : NB < 2 ^ 31) (x : BitVec 32) : ∃ n : Int, IsInt (nbw NB x) n ∧ 0 ≤ n ∧ n ≤ NB :=
  ⟨min (NB : Int) (max ((0 : ℕ) : Int) x.toInt),
    Affine.minsi (Affine.ofNat NB ⟨rfl, hNB⟩) (Affine.maxsi (Affine.ofNat 0 ⟨rfl, by norm_num⟩) (Affine.word x) rfl) rfl, by omega, by omega⟩

theorem one_int : IsInt 1#32 ((1 : ℕ) : Int) := Affine.ofNat 1 ⟨rfl, by norm_num⟩

section Loops

variable {v : BitVec 32} {n : Int} (NB : ℕ) (hNB : NB < 2 ^ 20) (hv : IsInt v n) (h0 : 0 ≤ n) (h1 : n ≤ NB)
include hNB hv h0 h1

/-- The first loop's upper bound is `NB`. -/
theorem ub1_int : IsInt (ub1w NB v) NB := by
  have hNBi : IsInt (BitVec.ofNat 32 NB) (NB : Int) := Affine.ofNat NB ⟨rfl, by omega⟩
  have hs : IsInt (Scalar.subi (BitVec.ofNat 32 NB) v) ((NB : Int) - n) := Affine.subi hNBi hv ⟨rfl, by omega, by omega⟩
  have hd : IsInt (Scalar.divsi (Scalar.subi (BitVec.ofNat 32 NB) v) 1#32) ((NB : Int) - n) :=
    Affine.divsi_one hs one_int ⟨rfl, by norm_num⟩
  have hm : IsInt (Scalar.muli (Scalar.divsi (Scalar.subi (BitVec.ofNat 32 NB) v) 1#32) 1#32) ((NB : Int) - n) :=
    Affine.muli hd one_int ⟨by omega, by omega, by omega⟩
  exact Affine.addi hv hm ⟨by omega, by omega, by omega⟩

/-- The second loop's upper bound is `NB` too. -/
theorem ub2_int : IsInt (ub2w NB v) NB := by
  have hNBi : IsInt (BitVec.ofNat 32 NB) (NB : Int) := Affine.ofNat NB ⟨rfl, by omega⟩
  have hs : IsInt (Scalar.subi (BitVec.ofNat 32 NB) v) ((NB : Int) - n) := Affine.subi hNBi hv ⟨rfl, by omega, by omega⟩
  exact Affine.addi hv hs ⟨by omega, by omega, by omega⟩

/-- The first loop, from the first block to `NB` by one, has a meaning … -/
theorem ok1 : Scf.OK v (ub1w NB v) 1#32 :=
  Affine.ok hv (ub1_int NB hNB hv h0 h1) one_int ⟨by norm_num, by omega⟩

/-- … and `NB` less the first block trips. -/
theorem trips1 : Scf.trips v (ub1w NB v) 1#32 = ((NB : Int) - n).toNat := by
  have hub := ub1_int NB hNB hv h0 h1
  unfold Affine.IsInt at hv hub
  have h1' : (1#32 : BitVec 32).toInt = 1 := by decide
  rw [Scf.trips, hv, hub, h1']
  congr 1
  omega

/-- The second loop, from `NB` to `NB`, has a meaning and no trip. -/
theorem ok2 : Scf.OK (ub1w NB v) (ub2w NB v) 1#32 :=
  Affine.ok (ub1_int NB hNB hv h0 h1) (ub2_int NB hNB hv h0 h1) one_int ⟨by norm_num, by omega⟩
theorem trips2 : Scf.trips (ub1w NB v) (ub2w NB v) 1#32 = 0 :=
  Nat.le_zero.mp (Affine.trips_le (ub1_int NB hNB hv h0 h1) (ub2_int NB hNB hv h0 h1) one_int 0 ⟨by norm_num, by omega⟩)

/-- At trip `t` of the first loop the block is the first block plus `t`, below `NB`. -/
theorem iv1_int (t : ℕ) (ht : t < Scf.trips v (ub1w NB v) 1#32) : IsInt (Scf.iv v 1#32 t) (n + t) ∧ n + t ≤ (NB : Int) - 1 := by
  rw [trips1 NB hNB hv h0 h1] at ht
  exact ⟨Affine.iv hv one_int t ⟨by omega, by omega, by omega⟩, by omega⟩

/-- Step `r` of the block at trip `t` reads sixteen rows inside the `128 * NB` rows. -/
theorem off_inb (R : ℕ) (hR : 128 * NB = R) (t : ℕ) (ht : t < Scf.trips v (ub1w NB v) 1#32) (r : Fin 8) :
    ∀ a : Fin 2, ![(rowOff v t (BitVec.ofNat 32 r.val)).toNat, 0] a + ![16, 128] a ≤ ![R, 128] a := by
  obtain ⟨hiv, hlt⟩ := iv1_int NB hNB hv h0 h1 t ht
  have hr8 := r.isLt
  have h8 : IsInt (Scalar.muli (Scf.iv v 1#32 t) 8#32) ((n + t) * 8) :=
    Affine.muli hiv (Affine.ofNat (e := ((8 : ℕ) : Int)) 8 ⟨rfl, by norm_num⟩) ⟨by omega, by omega, by omega⟩
  have hr : IsInt (BitVec.ofNat 32 r.val) (r.val : Int) := Affine.ofNat r.val ⟨rfl, by omega⟩
  have ha : IsInt (Scalar.addi (Scalar.muli (Scf.iv v 1#32 t) 8#32) (BitVec.ofNat 32 r.val)) ((n + t) * 8 + r.val) :=
    Affine.addi h8 hr ⟨rfl, by omega, by omega⟩
  have h16 : IsInt (Scalar.muli (Scalar.addi (Scalar.muli (Scf.iv v 1#32 t) 8#32) (BitVec.ofNat 32 r.val)) 16#32) (((n + t) * 8 + r.val) * 16) :=
    Affine.muli ha (Affine.ofNat (e := ((16 : ℕ) : Int)) 16 ⟨rfl, by norm_num⟩) ⟨by omega, by omega, by omega⟩
  unfold rowOff
  exact Affine.inb_cons (Affine.indexCast h16) ⟨by omega, by omega⟩ (by decide)

end Loops

/-- A trip of a loop given by its three words is below their trip count. -/
theorem trip_lt {L : Scf.Loop 32} {a b c : BitVec 32} (hL : L = ⟨a, b, c⟩) (t : Fin L.trips) : t.val < Scf.trips a b c := by
  subst hL; exact t.isLt

/-! ## The two bodies' side conditions -/

/-- The first region's: for every word. -/
theorem k2_chk1_all (i : grid2.Coords) (v4 w : BitVec 32) : k2_chk1 i v4 w := by
  obtain ⟨n, hn, h0, h1⟩ := clamp 32 (by norm_num) (fd8 (k2d i w))
  unfold k2_chk1
  refine ⟨fun _ => ?_, fun t _ r => ?_, fun _ => ?_, fun t => ?_⟩
  · rw [k2_t1_loop_eq]; exact ok1 32 (by norm_num) hn h0 h1
  · have ht := trip_lt (k2_t1_loop_eq i w) t
    rw [k2_off1_eq']
    exact off_inb 32 (by norm_num) hn h0 h1 4096 (by norm_num) t.val ht r
  · rw [k2_t2_loop_eq]; exact ok2 32 (by norm_num) hn h0 h1
  · have ht := trip_lt (k2_t2_loop_eq i w) t
    rw [trips2 32 (by norm_num) hn h0 h1] at ht
    exact absurd ht (Nat.not_lt_zero _)

/-- The second region's. -/
theorem k3_chk1_all (i : grid3.Coords) (v5 w : BitVec 32) : k3_chk1 i v5 w := by
  obtain ⟨n, hn, h0, h1⟩ := clamp 56 (by norm_num) (fd8 (k3d i w))
  unfold k3_chk1
  refine ⟨fun _ => ?_, fun t _ r => ?_, fun _ => ?_, fun t => ?_⟩
  · rw [k3_t1_loop_eq]; exact ok1 56 (by norm_num) hn h0 h1
  · have ht := trip_lt (k3_t1_loop_eq i w) t
    rw [k3_off1_eq']
    exact off_inb 56 (by norm_num) hn h0 h1 7168 (by norm_num) t.val ht r
  · rw [k3_t2_loop_eq]; exact ok2 56 (by norm_num) hn h0 h1
  · have ht := trip_lt (k3_t2_loop_eq i w) t
    rw [trips2 56 (by norm_num) hn h0 h1] at ht
    exact absurd ht (Nat.not_lt_zero _)

/-- As the bodies meet them: the word loaded twice, in the range the precondition gives it. -/
theorem k2_chk1_of (i : grid2.Coords) (w : BitVec 32) (_hw : 0 ≤ w.toInt ∧ w.toInt ≤ 2047) : k2_chk1 i w w := k2_chk1_all i w w
theorem k3_chk1_of (i : grid3.Coords) (w : BitVec 32) (_hw : 0 ≤ w.toInt ∧ w.toInt ≤ 2047) : k3_chk1 i w w := k3_chk1_all i w w

end Cert.Proof.KI.Chk
-- ==== Proof.ScanARuns.lean ====
/-
  The first TensorCore call of the idealized kernel, `cc2__scan_a_body` (the recurrence over time steps 0..255): its
  body's runs. The grid has one point. The body resets the carried state `h` (16x128), reads the first active step
  `m` of the batch from SMEM and, when `m < 256`, stores the projections `x · W_ih^T + (b_ih + b_hh)` of all 256 steps
  to a scratch, applies the blocks of eight masked steps from block `nblk0 = clip (m / 8) 0 32` to block 31 to `h`
  (a counted loop and its remainder loop, which has no trip), and writes `h` to the result window.

  Here: the conditions on the grid coordinate; the side condition the body assumes of `m`, from `0 ≤ m ≤ 2047`, with
  the loops' trip counts in closed form; one trip of each loop as a pure function of the carried state (the
  skeleton's payloads applied to the rows of the projection scratch the trip reads) and the loops' invariants; and
  the body's triple on any whole staging memrefs, in the two control cases (`m < 256` or not), each with what the
  result window then holds.
-/
import proofs.«205923_g40089224741417_cont_sun_m_110_39_alg».proof.Proof.Common
import proofs.«205923_g40089224741417_cont_sun_m_110_39_alg».proof.Proof.Gen.KernelIdeal.Skeleton
import proofs.«205923_g40089224741417_cont_sun_m_110_39_alg».proof.Proof.Gen.KernelIdeal.Loops
import proofs.«205923_g40089224741417_cont_sun_m_110_39_alg».proof.Proof.Gen.KernelIdeal.Launch
import proofs.«205923_g40089224741417_cont_sun_m_110_39_alg».proof.Proof.Gen.KernelIdeal.Points
import Idealize.ShloMosaic.Lib.Exec
import Idealize.ShloMosaic.Lib.LoopEntry
import Idealize.ShloMosaic.Lib.Tactic
import Idealize.ShloMosaic.Lib.Pipeline.Kit
import Idealize.ShloMosaic.Lib.Pipeline.Regions
import Idealize.ShloMosaic.Lib.Pipeline.Frame
import Idealize.ShloMosaic.Lib.Pipeline.FrameBody

set_option maxRecDepth 8192
set_option maxHeartbeats 4000000

noncomputable section

namespace Cert.Proof.KI.ScanA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)
open Idealize.ShloMosaic.Pipeline (Dat Cfg Window BodyObligation BodyObligationLoose cellOf)
open Cert.Proof.KI

variable {F : FTy → Type} [FloatOps F] [Named F]

local notation "𝕄" => MM F

/-! ## The conditions on the grid coordinate

The grid has one point, so the point is both the first (the carried state is reset) and the last (the state is
written to the result window): both conditions hold at every coordinate, by evaluation. -/

theorem cond1_all : ∀ i : grid2.Coords,
    Scalar.cmpi .ne (Scalar.extui (Scalar.cmpi .eq (BitVec.ofNat 32 (i 0).val) 0#32)) 0#32 = 1#1 := by decide +kernel

theorem cond3_all : ∀ i : grid2.Coords, k2_cond3 i = 1#1 := by decide +kernel

/-! ## The side condition the body assumes of the word it reads

The body reads the first active step `m` of the batch (one word in SMEM) and assumes that the two loops' bounds are
well formed and that every row offset `16 (8 (nblk0 + k) + r)` lies in the projection scratch. Under the condition of
the branch (`m < 256`, signed) and for a word in `[0, 2047]`: the first loop runs from `nblk0 = m / 8 ≤ 31` to `32` in
steps of one, the remainder loop from `32` to `32`; so the blocks are `nblk0 + k ≤ 31` and the offsets at most
`16 · 255`. Each fact holds at each of the 256 words, at each block and step. -/

theorem cond2_lt : ∀ (i : grid2.Coords) (n : Fin 2048), k2_cond2 i (BitVec.ofNat 32 n.val) = 1#1 → n.val < 256 := by decide +kernel

theorem loop1_ops : ∀ (i : grid2.Coords) (n : Fin 256),
    (k2_t1_loop i (BitVec.ofNat 32 n.val)).lb = BitVec.ofNat 32 (n.val / 8) ∧ (k2_t1_loop i (BitVec.ofNat 32 n.val)).ub = 32#32
      ∧ (k2_t1_loop i (BitVec.ofNat 32 n.val)).st = 1#32 := by decide +kernel

theorem loop2_ops : ∀ (i : grid2.Coords) (n : Fin 256),
    (k2_t2_loop i (BitVec.ofNat 32 n.val)).lb = 32#32 ∧ (k2_t2_loop i (BitVec.ofNat 32 n.val)).ub = 32#32
      ∧ (k2_t2_loop i (BitVec.ofNat 32 n.val)).st = 1#32 := by decide +kernel

theorem ok_of_lb : ∀ b : Fin 33, Scf.OK (BitVec.ofNat 32 b.val) 32#32 1#32 := by decide +kernel

theorem trips_of_lb : ∀ b : Fin 33, Scf.trips (BitVec.ofNat 32 b.val) 32#32 1#32 = 32 - b.val := by decide +kernel

theorem off_inb : ∀ (b : Fin 32) (k : Fin 32) (r : Fin 8), b.val + k.val < 32 →
    (Scalar.indexCast (Scalar.muli (Scalar.addi (Scalar.muli (Scf.iv (BitVec.ofNat 32 b.val) 1#32 k.val) 8#32) (BitVec.ofNat 32 r.val)) 16#32)).toNat + 16 ≤ 4096 := by
  decide +kernel

theorem lt_of_cond2 (i : grid2.Coords) (w : BitVec 32) (hw : w.toNat ≤ 2047) (hc : k2_cond2 i w = 1#1) : w.toNat < 256 := by
  have e : BitVec.ofNat 32 w.toNat = w := by simp
  exact cond2_lt i ⟨w.toNat, by omega⟩ (by show k2_cond2 i (BitVec.ofNat 32 w.toNat) = 1#1; rw [e]; exact hc)

/-- The first loop's operands at a word below 256. -/
theorem loop1_at (i : grid2.Coords) (w : BitVec 32) (hn : w.toNat < 256) :
    (k2_t1_loop i w).lb = BitVec.ofNat 32 (w.toNat / 8) ∧ (k2_t1_loop i w).ub = 32#32 ∧ (k2_t1_loop i w).st = 1#32 := by
  have e : BitVec.ofNat 32 w.toNat = w := by simp
  have h1 : (k2_t1_loop i (BitVec.ofNat 32 w.toNat)).lb = BitVec.ofNat 32 (w.toNat / 8) ∧ (k2_t1_loop i (BitVec.ofNat 32 w.toNat)).ub = 32#32
      ∧ (k2_t1_loop i (BitVec.ofNat 32 w.toNat)).st = 1#32 := loop1_ops i ⟨w.toNat, hn⟩
  rwa [e] at h1

/-- The remainder loop's operands at a word below 256. -/
theorem loop2_at (i : grid2.Coords) (w : BitVec 32) (hn : w.toNat < 256) :
    (k2_t2_loop i w).lb = 32#32 ∧ (k2_t2_loop i w).ub = 32#32 ∧ (k2_t2_loop i w).st = 1#32 := by
  have e : BitVec.ofNat 32 w.toNat = w := by simp
  have h1 : (k2_t2_loop i (BitVec.ofNat 32 w.toNat)).lb = 32#32 ∧ (k2_t2_loop i (BitVec.ofNat 32 w.toNat)).ub = 32#32
      ∧ (k2_t2_loop i (BitVec.ofNat 32 w.toNat)).st = 1#32 := loop2_ops i ⟨w.toNat, hn⟩
  rwa [e] at h1

/-- The first loop's trip count at a word below 256: the blocks from `m / 8` to 31. -/
theorem trips1_at (i : grid2.Coords) (w : BitVec 32) (hn : w.toNat < 256) : (k2_t1_loop i w).trips = 32 - w.toNat / 8 := by
  obtain ⟨hlb, hub, hst⟩ := loop1_at i w hn
  show Scf.trips (k2_t1_loop i w).lb (k2_t1_loop i w).ub (k2_t1_loop i w).st = _
  rw [hlb, hub, hst]; exact trips_of_lb ⟨w.toNat / 8, by omega⟩

/-- The remainder loop has no trip. -/
theorem trips2_at (i : grid2.Coords) (w : BitVec 32) (hn : w.toNat < 256) : (k2_t2_loop i w).trips = 0 := by
  obtain ⟨hlb, hub, hst⟩ := loop2_at i w hn
  show Scf.trips (k2_t2_loop i w).lb (k2_t2_loop i w).ub (k2_t2_loop i w).st = _
  rw [hlb, hub, hst]; decide +kernel

theorem chk1_of_le (i : grid2.Coords) (w : BitVec 32) (hw : w.toNat ≤ 2047) (hc : k2_cond2 i w = 1#1) : k2_chk1 i w w := by
  have hn : w.toNat < 256 := lt_of_cond2 i w hw hc
  obtain ⟨hlb, hub, hst⟩ := loop1_at i w hn
  obtain ⟨hlb2, hub2, hst2⟩ := loop2_at i w hn
  refine ⟨fun _ => ?_, fun k _ r a => ?_, fun _ => ?_, fun k => ?_⟩
  · show Scf.OK (k2_t1_loop i w).lb (k2_t1_loop i w).ub (k2_t1_loop i w).st
    rw [hlb, hub, hst]; exact ok_of_lb ⟨w.toNat / 8, by omega⟩
  · have hk : k.val < 32 - w.toNat / 8 := (trips1_at i w hn) ▸ k.isLt
    have h := off_inb ⟨w.toNat / 8, by omega⟩ ⟨k.val, by omega⟩ r (by show w.toNat / 8 + k.val < 32; omega)
    have hoff : k2_off1 i w k (BitVec.ofNat 32 r.val)
        = ![(Scalar.indexCast (Scalar.muli (Scalar.addi (Scalar.muli (Scf.iv (k2_t1_loop i w).lb 1#32 k.val) 8#32) (BitVec.ofNat 32 r.val)) 16#32)).toNat, 0] := rfl
    rw [hoff, hlb]
    match a with
    | ⟨0, _⟩ => exact h
    | ⟨1, _⟩ => exact Nat.le_refl _
  · show Scf.OK (k2_t2_loop i w).lb (k2_t2_loop i w).ub (k2_t2_loop i w).st
    rw [hlb2, hub2, hst2]; decide +kernel
  · exact absurd (k.isLt.trans_eq (trips2_at i w hn)) (Nat.not_lt_zero _)

/-! ## One trip of the two counted loops, as a pure function

A trip of the first loop at block `k` (induction value `a = nblk0 + k`) applies eight masked steps of the
recurrence, steps `8 a` … `8 a + 7` of the chunk: step `r` reads the sixteen rows of the projection scratch at
row offset `16 (8 a + r)` and replaces the carried state `h` by `tanh (rows + h · W_hh^T)` on the batch rows whose
first active step is not later than the step, leaving the other rows as they are. The eight steps are the
skeleton's payloads: the first three (`k2_pay5`), the next four (`k2_pay6`) and the last (`k2_pay2`). The second
loop is the remainder loop of the same region (payloads `k2_pay7`, `k2_pay8`, `k2_pay3`). -/

/-- The sixteen rows of the projection scratch (contents `X`) that step `r` of block `k` of the first loop reads. -/
def rows1 (i : grid2.Coords) (arg10 : Memref sig .tc .vmem S4096x128 .f32) (v4 : Elt F .i32) (k2_h2 : k2_cond2 i v4 = 1#1) (v30 : Elt F .i32) (k2_hw1 : k2_chk1 i v4 v30)
    (X : BufTy.Contents (Elt F) arg10.view.ty) (k : Fin (k2_t1_loop i v30).trips) (r : Fin 8) : Vec F S16x128 .f32 :=
  View.readAt (Elt F) arg10.view (Rect.unit (s := S4096x128) (k2_off1 i v30 k (BitVec.ofNat 32 r.val)) S16x128.size (k2_off1_inb i v4 v30 k2_hw1 k k2_h2 r)).toLoadRect X

/-- One trip of the first loop: the eight masked steps of block `k` applied to the carried state `acc`. -/
def tripF1 (i : grid2.Coords) (arg10 : Memref sig .tc .vmem S4096x128 .f32) (v3 : BitVec 32) (v4 : Elt F .i32) (k2_h2 : k2_cond2 i v4 = 1#1) (v27 : FVec F S128x128 .f32) (v29 : IVec S16x128 32) (v30 : Elt F .i32) (k2_hw1 : k2_chk1 i v4 v30)
    (X : BufTy.Contents (Elt F) arg10.view.ty) (v50 : BitVec 32) (k : Fin (k2_t1_loop i v30).trips) (acc : Vec F S16x128 .f32) : Vec F S16x128 .f32 :=
  let a : BitVec 32 := Scf.iv v50 1#32 k
  let ld : Fin 8 → Vec F S16x128 .f32 := rows1 i arg10 v4 k2_h2 v30 k2_hw1 X k
  let h3 : FVec F S16x128 .f32 := k2_pay5 i v3 v27 v29 v30 v50 1#32 k acc (ld 0) (ld 1) (ld 2)
  let h7 : FVec F S16x128 .f32 := k2_pay6 v3 v27 v29 a h3 (Scalar.addi (Scalar.muli a 8#32) 3#32) (ld 3) (ld 4) (ld 5) (ld 6)
  k2_pay2 i v27 v29 a h7 (ld 7)

/-- The rows step `r` of block `k` of the remainder loop reads. -/
def rows2 (i : grid2.Coords) (arg10 : Memref sig .tc .vmem S4096x128 .f32) (v4 : Elt F .i32) (k2_h2 : k2_cond2 i v4 = 1#1) (v30 : Elt F .i32) (k2_hw1 : k2_chk1 i v4 v30)
    (X : BufTy.Contents (Elt F) arg10.view.ty) (k : Fin (k2_t2_loop i v30).trips) (r : Fin 8) : Vec F S16x128 .f32 :=
  View.readAt (Elt F) arg10.view (Rect.unit (s := S4096x128) (k2_off2 i v30 k (BitVec.ofNat 32 r.val)) S16x128.size (k2_off2_inb i v4 v30 k2_hw1 k k2_h2 r)).toLoadRect X

/-- One trip of the remainder loop. -/
def tripF2 (i : grid2.Coords) (arg10 : Memref sig .tc .vmem S4096x128 .f32) (v3 : BitVec 32) (v4 : Elt F .i32) (k2_h2 : k2_cond2 i v4 = 1#1) (v27 : FVec F S128x128 .f32) (v29 : IVec S16x128 32) (v30 : Elt F .i32) (k2_hw1 : k2_chk1 i v4 v30)
    (X : BufTy.Contents (Elt F) arg10.view.ty) (v56 : BitVec 32) (k : Fin (k2_t2_loop i v30).trips) (acc : Vec F S16x128 .f32) : Vec F S16x128 .f32 :=
  let a : BitVec 32 := Scf.iv v56 1#32 k
  let ld : Fin 8 → Vec F S16x128 .f32 := rows2 i arg10 v4 k2_h2 v30 k2_hw1 X k
  let h3 : FVec F S16x128 .f32 := k2_pay7 i v3 v27 v29 v30 v56 1#32 k acc (ld 0) (ld 1) (ld 2)
  let h7 : FVec F S16x128 .f32 := k2_pay8 v3 v27 v29 a h3 (Scalar.addi (Scalar.muli a 8#32) 3#32) (ld 3) (ld 4) (ld 5) (ld 6)
  k2_pay3 i v27 v29 a h7 (ld 7)

/-- The region of the first loop at a symbolic trip: it reads the projection scratch and yields `tripF1`. -/
theorem trip1_run (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S4096x128 .f32) (harg10 : arg10.IsWhole) (v3 : BitVec 32) (v4 : Elt F .i32) (k2_h2 : k2_cond2 i v4 = 1#1) (v27 : FVec F S128x128 .f32) (v29 : IVec S16x128 32) (v30 : Elt F .i32) (k2_hw1 : k2_chk1 i v4 v30)
    (X : BufTy.Contents (Elt F) arg10.view.ty) (v50 : BitVec 32) (k : Fin (k2_t1_loop i v30).trips) (E : Set ℕ) (acc : Vec F S16x128 .f32) :
    (arg10.view.loc (c : Thread nD τ) ↦[arg10.view.set]{fullShare} X : sProp 𝕄)
      ⊢ wp frame (wpE (defs₀ (F := F)) 𝒱₀ (c : Thread nD τ) none) E (k2_t1_body (F := F) i arg1 harg1 arg2 harg2 arg3 harg3 arg4 harg4 arg5 harg5 arg6 harg6 arg7 harg7 arg8 harg8 arg9 harg9 arg10 harg10 v3 v4 k2_h2 v27 v29 v30 k2_hw1 v50 k acc)
          (fun yld => iprop(⌜yld = tripF1 i arg10 v3 v4 k2_h2 v27 v29 v30 k2_hw1 X v50 k acc⌝ ∗ (arg10.view.loc (c : Thread nD τ) ↦[arg10.view.set]{fullShare} X))) := by
  unfold k2_t1_body
  iintro HR_arg10
  sl_exec
  sl_step
  isplitr
  · ipureintro; rfl
  · iexact HR_arg10

/-- The region of the remainder loop at a symbolic trip. -/
theorem trip2_run (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S4096x128 .f32) (harg10 : arg10.IsWhole) (v3 : BitVec 32) (v4 : Elt F .i32) (k2_h2 : k2_cond2 i v4 = 1#1) (v27 : FVec F S128x128 .f32) (v29 : IVec S16x128 32) (v30 : Elt F .i32) (k2_hw1 : k2_chk1 i v4 v30)
    (X : BufTy.Contents (Elt F) arg10.view.ty) (v56 : BitVec 32) (k : Fin (k2_t2_loop i v30).trips) (E : Set ℕ) (acc : Vec F S16x128 .f32) :
    (arg10.view.loc (c : Thread nD τ) ↦[arg10.view.set]{fullShare} X : sProp 𝕄)
      ⊢ wp frame (wpE (defs₀ (F := F)) 𝒱₀ (c : Thread nD τ) none) E (k2_t2_body (F := F) i arg1 harg1 arg2 harg2 arg3 harg3 arg4 harg4 arg5 harg5 arg6 harg6 arg7 harg7 arg8 harg8 arg9 harg9 arg10 harg10 v3 v4 k2_h2 v27 v29 v30 k2_hw1 v56 k acc)
          (fun yld => iprop(⌜yld = tripF2 i arg10 v3 v4 k2_h2 v27 v29 v30 k2_hw1 X v56 k acc⌝ ∗ (arg10.view.loc (c : Thread nD τ) ↦[arg10.view.set]{fullShare} X))) := by
  unfold k2_t2_body
  iintro HR_arg10
  sl_exec
  sl_step
  isplitr
  · ipureintro; rfl
  · iexact HR_arg10

/-! ## The two loops by their invariants -/

/-- The carried state before trip `k` of the first loop, from the value `init` the loop starts from: trip by trip. -/
def st1 (i : grid2.Coords) (arg10 : Memref sig .tc .vmem S4096x128 .f32) (v3 : BitVec 32) (v4 : Elt F .i32) (k2_h2 : k2_cond2 i v4 = 1#1) (v27 : FVec F S128x128 .f32) (v29 : IVec S16x128 32) (v30 : Elt F .i32) (k2_hw1 : k2_chk1 i v4 v30)
    (X : BufTy.Contents (Elt F) arg10.view.ty) (v50 : BitVec 32) (init : Vec F S16x128 .f32) : ℕ → Vec F S16x128 .f32
  | 0 => init
  | k + 1 =>
    if h : k < (k2_t1_loop i v30).trips then tripF1 i arg10 v3 v4 k2_h2 v27 v29 v30 k2_hw1 X v50 ⟨k, h⟩ (st1 i arg10 v3 v4 k2_h2 v27 v29 v30 k2_hw1 X v50 init k)
    else st1 i arg10 v3 v4 k2_h2 v27 v29 v30 k2_hw1 X v50 init k

theorem st1_zero (i : grid2.Coords) (arg10 : Memref sig .tc .vmem S4096x128 .f32) (v3 : BitVec 32) (v4 : Elt F .i32) (k2_h2 : k2_cond2 i v4 = 1#1) (v27 : FVec F S128x128 .f32) (v29 : IVec S16x128 32) (v30 : Elt F .i32) (k2_hw1 : k2_chk1 i v4 v30)
    (X : BufTy.Contents (Elt F) arg10.view.ty) (v50 : BitVec 32) (init : Vec F S16x128 .f32) :
    st1 i arg10 v3 v4 k2_h2 v27 v29 v30 k2_hw1 X v50 init 0 = init := rfl

theorem st1_succ (i : grid2.Coords) (arg10 : Memref sig .tc .vmem S4096x128 .f32) (v3 : BitVec 32) (v4 : Elt F .i32) (k2_h2 : k2_cond2 i v4 = 1#1) (v27 : FVec F S128x128 .f32) (v29 : IVec S16x128 32) (v30 : Elt F .i32) (k2_hw1 : k2_chk1 i v4 v30)
    (X : BufTy.Contents (Elt F) arg10.view.ty) (v50 : BitVec 32) (init : Vec F S16x128 .f32) (k : Fin (k2_t1_loop i v30).trips) :
    st1 i arg10 v3 v4 k2_h2 v27 v29 v30 k2_hw1 X v50 init (k.val + 1) = tripF1 i arg10 v3 v4 k2_h2 v27 v29 v30 k2_hw1 X v50 k (st1 i arg10 v3 v4 k2_h2 v27 v29 v30 k2_hw1 X v50 init k.val) := by
  rw [st1.eq_2]; exact dif_pos k.isLt

macro_rules | `(tactic| sl_pure) => `(tactic| sl_loop_entry Cert.Proof.KI.ScanA.st1 (Cert.Proof.KI.ScanA.st1_zero ..).symm)

/-- The invariant of the first loop before trip `k`: the projection scratch is held at its contents `X`, which no trip
    writes, and the carried state is `st1 … k`. -/
abbrev inv1 (c : Dev nD) (i : grid2.Coords) (arg10 : Memref sig .tc .vmem S4096x128 .f32) (v3 : BitVec 32) (v4 : Elt F .i32) (k2_h2 : k2_cond2 i v4 = 1#1) (v27 : FVec F S128x128 .f32) (v29 : IVec S16x128 32) (v30 : Elt F .i32) (k2_hw1 : k2_chk1 i v4 v30)
    (X : BufTy.Contents (Elt F) arg10.view.ty) (v50 : BitVec 32) (init : Vec F S16x128 .f32) (k : ℕ) (acc : Vec F S16x128 .f32) : sProp 𝕄 :=
  iprop((arg10.view.loc (c : Thread nD τ) ↦[arg10.view.set]{fullShare} X) ∗ ⌜acc = st1 i arg10 v3 v4 k2_h2 v27 v29 v30 k2_hw1 X v50 init k⌝)

set_option warn.classDefReducibility false in
/-- The first loop by its invariant: one trip is `trip1_run`. -/
@[sl_loop] def loopInv1 (c : Dev nD) (E : Set ℕ) (i : grid2.Coords) (arg1 : Memref sig .tc .vmem S4096x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S4096x128 .f32) (harg10 : arg10.IsWhole) (v3 : BitVec 32) (v4 : Elt F .i32) (k2_h2 : k2_cond2 i v4 = 1#1) (v27 : FVec F S128x128 .f32) (v29 : IVec S16x128 32) (v30 : Elt F .i32) (k2_hw1 : k2_chk1 i v4 v30)
    (v50 : BitVec 32) (X : BufTy.Contents (Elt F) arg10.view.ty) (init : Vec F S16x128 .f32) :
    LoopInvTy_k2_t1 (F := F) (HIx 2) ℕ UU ℕ 𝒱₀ c none E i arg1 harg1 arg2 harg2 arg3 harg3 arg4 harg4 arg5 harg5 arg6 harg6 arg7 harg7 arg8 harg8 arg9 harg9 arg10 harg10 v3 v4 k2_h2 v27 v29 v30 k2_hw1 v50 init where
  inv := inv1 c i arg10 v3 v4 k2_h2 v27 v29 v30 k2_hw1 X v50 init
  step k acc := by
    iintro ⟨HR, %h_acc⟩
    subst h_acc
    iapply (wp_wand_r Idealize.ShloMosaic.frame (wpE (defs₀ (F := F)) 𝒱₀ (c : Thread nD τ) none) E)
    isplitl [HR]
    · iapply (trip1_run c i arg1 harg1 arg2 harg2 arg3 harg3 arg4 harg4 arg5 harg5 arg6 harg6 arg7 harg7 arg8 harg8 arg9 harg9 arg10 harg10 v3 v4 k2_h2 v27 v29 v30 k2_hw1 X v50 k E _)
      iexact HR
    · iintro %yld ⟨%h_res, HR⟩
      isplitl [HR]; · iexact HR
      ipureintro; rw [h_res, st1_succ]

/-- The carried state before trip `k` of the remainder loop, from the value `init` the loop starts from: trip by trip. -/
def st2 (i : grid2.Coords) (arg10 : Memref sig .tc .vmem S4096x128 .f32) (v3 : BitVec 32) (v4 : Elt F .i32) (k2_h2 : k2_cond2 i v4 = 1#1) (v27 : FVec F S128x128 .f32) (v29 : IVec S16x128 32) (v30 : Elt F .i32) (k2_hw1 : k2_chk1 i v4 v30)
    (X : BufTy.Contents (Elt F) arg10.view.ty) (v56 : BitVec 32) (init : Vec F S16x128 .f32) : ℕ → Vec F S16x128 .f32
  | 0 => init
  | k + 1 =>
    if h : k < (k2_t2_loop i v30).trips then tripF2 i arg10 v3 v4 k2_h2 v27 v29 v30 k2_hw1 X v56 ⟨k, h⟩ (st2 i arg10 v3 v4 k2_h2 v27 v29 v30 k2_hw1 X v56 init k)
    else st2 i arg10 v3 v4 k2_h2 v27 v29 v30 k2_hw1 X v56 init k

theorem st2_zero (i : grid2.Coords) (arg10 : Memref sig .tc .vmem S4096x128 .f32) (v3 : BitVec 32) (v4 : Elt F .i32) (k2_h2 : k2_cond2 i v4 = 1#1) (v27 : FVec F S128x128 .f32) (v29 : IVec S16x128 32) (v30 : Elt F .i32) (k2_hw1 : k2_chk1 i v4 v30)
    (X : BufTy.Contents (Elt F) arg10.view.ty) (v56 : BitVec 32) (init : Vec F S16x128 .f32) :
    st2 i arg10 v3 v4 k2_h2 v27 v29 v30 k2_hw1 X v56 init 0 = init := rfl

theorem st2_succ (i : grid2.Coords) (arg10 : Memref sig .tc .vmem S4096x128 .f32) (v3 : BitVec 32) (v4 : Elt F .i32) (k2_h2 : k2_cond2 i v4 = 1#1) (v27 : FVec F S128x128 .f32) (v29 : IVec S16x128 32) (v30 : Elt F .i32) (k2_hw1 : k2_chk1 i v4 v30)
    (X : BufTy.Contents (Elt F) arg10.view.ty) (v56 : BitVec 32) (init : Vec F S16x128 .f32) (k : Fin (k2_t2_loop i v30).trips) :
    st2 i arg10 v3 v4 k2_h2 v27 v29 v30 k2_hw1 X v56 init (k.val + 1) = tripF2 i arg10 v3 v4 k2_h2 v27 v29 v30 k2_hw1 X v56 k (st2 i arg10 v3 v4 k2_h2 v27 v29 v30 k2_hw1 X v56 init k.val) := by
  rw [st2.eq_2]; exact dif_pos k.isLt

macro_rules | `(tactic| sl_pure) => `(tactic| sl_loop_entry Cert.Proof.KI.ScanA.st2 (Cert.Proof.KI.ScanA.st2_zero ..).symm)

/-- The invariant of the remainder loop before trip `k`: the projection scratch is held at its contents `X`, which no trip
    writes, and the carried state is `st2 … k`. -/
abbrev inv2 (c : Dev nD) (i : grid2.Coords) (arg10 : Memref sig .tc .vmem S4096x128 .f32) (v3 : BitVec 32) (v4 : Elt F .i32) (k2_h2 : k2_cond2 i v4 = 1#1) (v27 : FVec F S128x128 .f32) (v29 : IVec S16x128 32) (v30 : Elt F .i32) (k2_hw1 : k2_chk1 i v4 v30)
    (X : BufTy.Contents (Elt F) arg10.view.ty) (v56 : BitVec 32) (init : Vec F S16x128 .f32) (k : ℕ) (acc : Vec F S16x128 .f32) : sProp 𝕄 :=
  iprop((arg10.view.loc (c : Thread nD τ) ↦[arg10.view.set]{fullShare} X) ∗ ⌜acc = st2 i arg10 v3 v4 k2_h2 v27 v29 v30 k2_hw1 X v56 init k⌝)

set_option warn.classDefReducibility false in
/-- The remainder loop by its invariant: one trip is `trip2_run`. -/
@[sl_loop] def loopInv2 (c : Dev nD) (E : Set ℕ) (i : grid2.Coords) (arg1 : Memref sig .tc .vmem S4096x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S4096x128 .f32) (harg10 : arg10.IsWhole) (v3 : BitVec 32) (v4 : Elt F .i32) (k2_h2 : k2_cond2 i v4 = 1#1) (v27 : FVec F S128x128 .f32) (v29 : IVec S16x128 32) (v30 : Elt F .i32) (k2_hw1 : k2_chk1 i v4 v30)
    (v56 : BitVec 32) (X : BufTy.Contents (Elt F) arg10.view.ty) (init : Vec F S16x128 .f32) :
    LoopInvTy_k2_t2 (F := F) (HIx 2) ℕ UU ℕ 𝒱₀ c none E i arg1 harg1 arg2 harg2 arg3 harg3 arg4 harg4 arg5 harg5 arg6 harg6 arg7 harg7 arg8 harg8 arg9 harg9 arg10 harg10 v3 v4 k2_h2 v27 v29 v30 k2_hw1 v56 init where
  inv := inv2 c i arg10 v3 v4 k2_h2 v27 v29 v30 k2_hw1 X v56 init
  step k acc := by
    iintro ⟨HR, %h_acc⟩
    subst h_acc
    iapply (wp_wand_r Idealize.ShloMosaic.frame (wpE (defs₀ (F := F)) 𝒱₀ (c : Thread nD τ) none) E)
    isplitl [HR]
    · iapply (trip2_run c i arg1 harg1 arg2 harg2 arg3 harg3 arg4 harg4 arg5 harg5 arg6 harg6 arg7 harg7 arg8 harg8 arg9 harg9 arg10 harg10 v3 v4 k2_h2 v27 v29 v30 k2_hw1 X v56 k E _)
      iexact HR
    · iintro %yld ⟨%h_res, HR⟩
      isplitl [HR]; · iexact HR
      ipureintro; rw [h_res, st2_succ]

/-! ## The body on any staging memrefs -/

/-- The word the body reads from the SMEM window (the first active step `m` of the batch), as a run names it: the
    one cell of the window's buffer, held at the contents that read `x6`. -/
abbrev wordOf (arg7 : Memref sig .tc .smem S1 .i32) (harg7 : arg7.IsWhole) (x6 : Vec F S1 .i32) : Elt F .i32 :=
  arg7.view.readAt (Elt F) (Rect.unit (s := S1) ![0] S1.size inb_S1_S1_0).toLoadRect (harg7.unread x6) (Shape.Idx.first (numel1_S1.symm ▸ Nat.one_pos))

/-- Reading back a buffer's view after one store that covers it whole: the stored value. -/
theorem read_writes_whole16 {κ : Kind} {sp : Space} (v : View sig κ sp S16x128 .f32) (f : v.ty.Contents (Elt F)) (O : Vec F S16x128 .f32) :
    v.read (Elt F) (v.writes (Elt F) f [⟨Rect.unit (s := S16x128) ![0, 0] S16x128.size inb_S16x128_S16x128_0_0, O⟩]) = O := by
  funext y
  have hy : (Rect.unit (s := S16x128) ![0, 0] S16x128.size inb_S16x128_S16x128_0_0).emb y = y := by
    funext a; apply Fin.ext
    show (![0, 0] : Fin 2 → ℕ) a + 1 * (y a : ℕ) = y a
    fin_cases a <;> simp
  conv_lhs => rw [← hy]
  exact View.read_writes_cons_emb _ _ _ _ _ _

set_option maxHeartbeats 4000000 in
/-- THE BODY WHEN THE CHUNK IS LIVE (`m < 256`), on whole staging memrefs: the inputs' at their contents, the result's
    and the two scratch buffers at anything. The carried state is reset, the projections `x · W_ih^T + (b_ih + b_hh)` of
    all 256 steps are stored to the projection scratch, the blocks from `nblk0` on are applied to the state, and the
    state is written to the result window: what it then holds is named below, a function of the inputs' contents. -/
def runT (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S4096x128 .f32) (harg10 : arg10.IsWhole) (x0 : Vec F S4096x128 .f32) (x1 : Vec F S128x128 .f32) (x2 : Vec F S128x128 .f32) (x3 : Vec F S1x128 .f32) (x4 : Vec F S1x128 .f32) (x5 : Vec F S16x128 .i32) (x6 : Vec F S1 .i32)
    (hc : k2_cond2 i (wordOf arg7 harg7 x6) = 1#1) (hchk : k2_chk1 i (wordOf arg7 harg7 x6) (wordOf arg7 harg7 x6)) :
    { O : Vec F S16x128 .f32 // ∀ (K : PUnit → sProp 𝕄),
        iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6
          ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare x4 ∗ owns (c : Thread nD τ) arg6 fullShare x5
              ∗ owns (c : Thread nD τ) arg7 fullShare x6
              ∗ (∃ f, arg8.view.loc (c : Thread nD τ) ↦[arg8.view.set]{fullShare} arg8.view.writes (Elt F) f [⟨Rect.unit (s := S16x128) ![0, 0] S16x128.size inb_S16x128_S16x128_0_0, O⟩])
              ∗ (∃ d, owns (c : Thread nD τ) arg9 fullShare d) ∗ (∃ d, owns (c : Thread nD τ) arg10 fullShare d)) -∗ K ⟨⟩))
          ⊢ wp frame (wpE (defs₀ (F := F)) 𝒱₀ (c : Thread nD τ) none) Set.univ (cc2__scan_a_body i arg1 harg1 arg2 harg2 arg3 harg3 arg4 harg4 arg5 harg5 arg6 harg6 arg7 harg7 arg8 harg8 arg9 harg9 arg10 harg10) K } := by
  refine ⟨?_, fun K => ?run⟩
  case run =>
    simp only [cc2__scan_a_body_eq_skeleton]; unfold cc2__scan_a_body_skel
    simp only [k2_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, HS0⟩, ⟨%d9, %f9, -, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    have hg1 := cond1_all i
    have hg3 := cond3_all i
    sl_exec (disch := first | sl_exact hc | sl_exact hchk)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _, _; isplitr; swap; · iexact HS0
      ipureintro; rfl
    iexists _, _; isplitr; swap; · iexact HS1
    ipureintro; rfl

set_option maxHeartbeats 4000000 in
/-- THE BODY WHEN THE CHUNK IS SKIPPED (`m ≥ 256`): the carried state is reset and written to the result window. -/
def runF (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S4096x128 .f32) (harg10 : arg10.IsWhole) (x0 : Vec F S4096x128 .f32) (x1 : Vec F S128x128 .f32) (x2 : Vec F S128x128 .f32) (x3 : Vec F S1x128 .f32) (x4 : Vec F S1x128 .f32) (x5 : Vec F S16x128 .i32) (x6 : Vec F S1 .i32)
    (hc : ¬ k2_cond2 i (wordOf arg7 harg7 x6) = 1#1) :
    { O : Vec F S16x128 .f32 // ∀ (K : PUnit → sProp 𝕄),
        iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6
          ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare x4 ∗ owns (c : Thread nD τ) arg6 fullShare x5
              ∗ owns (c : Thread nD τ) arg7 fullShare x6
              ∗ (∃ f, arg8.view.loc (c : Thread nD τ) ↦[arg8.view.set]{fullShare} arg8.view.writes (Elt F) f [⟨Rect.unit (s := S16x128) ![0, 0] S16x128.size inb_S16x128_S16x128_0_0, O⟩])
              ∗ (∃ d, owns (c : Thread nD τ) arg9 fullShare d) ∗ (∃ d, owns (c : Thread nD τ) arg10 fullShare d)) -∗ K ⟨⟩))
          ⊢ wp frame (wpE (defs₀ (F := F)) 𝒱₀ (c : Thread nD τ) none) Set.univ (cc2__scan_a_body i arg1 harg1 arg2 harg2 arg3 harg3 arg4 harg4 arg5 harg5 arg6 harg6 arg7 harg7 arg8 harg8 arg9 harg9 arg10 harg10) K } := by
  refine ⟨?_, fun K => ?run⟩
  case run =>
    simp only [cc2__scan_a_body_eq_skeleton]; unfold cc2__scan_a_body_skel
    simp only [k2_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, HS0⟩, ⟨%d9, %f9, -, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    have hg1 := cond1_all i
    have hg3 := cond3_all i
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _, _; isplitr; swap; · iexact HS0
      ipureintro; rfl
    iexists _, _; isplitr; swap; · iexact HS1
    ipureintro; rfl

end Cert.Proof.KI.ScanA

end
-- ==== Proof.ScanA.lean ====
/-
  The first TensorCore call of the idealized kernel, `cc2__scan_a_body`: the region's proof data, its body obligation,
  and what the region leaves in its result array.

  The pipeline has eight windows on a grid of one point: the gathered rows of time steps 0..255 (4096x128), the two
  weight matrices, the two bias rows, the first active step of each batch row (16x128), the first active step `m` of
  the batch (one word in SMEM), and the result, the state after step 255 (16x128). Every input window's block is its
  whole array and is fetched at the point; the result's block is written back at the point. The body keeps nothing
  between points that it reads before writing, so the invariant is the scoped buffers no window stages.
-/
import proofs.«205923_g40089224741417_cont_sun_m_110_39_alg».proof.Proof.Common
import proofs.«205923_g40089224741417_cont_sun_m_110_39_alg».proof.Proof.Gen.KernelIdeal.Skeleton
import proofs.«205923_g40089224741417_cont_sun_m_110_39_alg».proof.Proof.Gen.KernelIdeal.Loops
import proofs.«205923_g40089224741417_cont_sun_m_110_39_alg».proof.Proof.Gen.KernelIdeal.Launch
import proofs.«205923_g40089224741417_cont_sun_m_110_39_alg».proof.Proof.Gen.KernelIdeal.Points
import proofs.«205923_g40089224741417_cont_sun_m_110_39_alg».proof.Proof.ScanARuns
import Idealize.ShloMosaic.Lib.Exec
import Idealize.ShloMosaic.Lib.Tactic
import Idealize.ShloMosaic.Lib.Pipeline.Kit
import Idealize.ShloMosaic.Lib.Pipeline.Regions
import Idealize.ShloMosaic.Lib.Pipeline.Frame
import Idealize.ShloMosaic.Lib.Pipeline.FrameBody
import Idealize.ShloMosaic.Lib.ValueIdx
import Idealize.ShloMosaic.Lib.Pipeline.Value

set_option maxRecDepth 8192
set_option maxHeartbeats 4000000

noncomputable section

namespace Cert.Proof.KI.ScanA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)
open Idealize.ShloMosaic.Pipeline (Dat Cfg Window BodyObligation BodyObligationLoose cellOf)
open Cert.Proof.KI

variable {F : FTy → Type} [FloatOps F] [Named F]

local notation "𝕄" => MM F

/-! ## The proof data of the region

The grid has one point. Every input window is fetched there, so the body finds each input's staging buffer at the
window's block of its array as the region is entered (`Vv`). The result window's buffer holds after the body what the
body leaves in the case at hand; it is written back at the point. Between points the body keeps nothing it needs: the
carried state and the projections live in two scratch buffers that are reset, respectively overwritten, before they
are read, so the invariant is the scoped buffers no window stages, each at some contents. -/

abbrev ms2_0 (t : Fin cfg2.N) : Memref sig .tc .vmem S4096x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S16x128 .i32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .smem S1 .i32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S16x128 .f32 := win2_7.stage (cfg2.slots t 7)
abbrev hs2_7 (t : Fin cfg2.N) : (ms2_7 t).IsWhole := hstage2_7 ((cfg2.slots t 7).cast nbuf2_7)
/-- The scratch operands: the carried state and the projections, whole scoped buffers of the kernel's own. -/
abbrev scM0 : Memref sig .tc .vmem S16x128 .f32 := Memref.whole cc2_scratch0
abbrev scM1 : Memref sig .tc .vmem S4096x128 .f32 := Memref.whole cc2_scratch1

section Data

variable (c : Dev nD) (Vv : (b : Ref sig .tc) → Buf (Elt F) ((c.tc : Thread nD τ).loc b))

/-- Window `w`'s block at point `t`, read off its array as the region finds it. -/
def iblk (w : Fin cfg2.W) (t : Fin cfg2.N) : ((cfg2.win w).xblock (cfg2.grid.coords t)).Idx → Elt F (cfg2.win w).elt :=
  ((cfg2.win w).blk t).view.read (Elt F) (Vv (Pipeline.arrRef spec2 w))

/-- The word the body reads at point `t`: the first active step of the batch, `m = 2048 - max lengths`. -/
abbrev wordAt (t : Fin cfg2.N) : Elt F .i32 := wordOf (ms2_6 t) (hs2_6 t) (iblk c Vv 6 t)

/-- What the result window's staging buffer holds after the body at point `t`: when `m < 256`, the state the blocks
    from `nblk0` to 31 leave, from the reset state (the side condition the body assumes holds of every word read
    under that condition, so the middle arm is never taken); else the reset state. -/
def outAt (t : Fin cfg2.N) : Vec F S16x128 .f32 :=
  if hc : k2_cond2 (grid2.coords t) (wordAt c Vv t) = 1#1 then
    if hk : k2_chk1 (grid2.coords t) (wordAt c Vv t) (wordAt c Vv t) then
      (runT c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM0 (Memref.isWhole_whole _) scM1 (Memref.isWhole_whole _) (iblk c Vv 0 t) (iblk c Vv 1 t) (iblk c Vv 2 t) (iblk c Vv 3 t) (iblk c Vv 4 t) (iblk c Vv 5 t) (iblk c Vv 6 t) hc hk).1
    else k2_pay1 (F := F)
  else (runF c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM0 (Memref.isWhole_whole _) scM1 (Memref.isWhole_whole _) (iblk c Vv 0 t) (iblk c Vv 1 t) (iblk c Vv 2 t) (iblk c Vv 3 t) (iblk c Vv 4 t) (iblk c Vv 5 t) (iblk c Vv 6 t) hc).1

/-- THE PROOF DATA of the first TensorCore call on core `c`: the arrays as the region finds them (`Vv`); after the body
    each input's buffer at its block and the result's at `outAt`; the invariant the scoped buffers no window stages;
    nothing owed, the recorded waits at or below the level of the launch's handshakes; full shares. -/
def datK : Dat τ (Elt F) (HIx 2) ℕ UU ℕ cfg2 c where
  A w := Vv (Pipeline.arrRef spec2 w)
  after w t := match w with
    | ⟨0, _⟩ => iblk c Vv 0 t
    | ⟨1, _⟩ => iblk c Vv 1 t
    | ⟨2, _⟩ => iblk c Vv 2 t
    | ⟨3, _⟩ => iblk c Vv 3 t
    | ⟨4, _⟩ => iblk c Vv 4 t
    | ⟨5, _⟩ => iblk c Vv 5 t
    | ⟨6, _⟩ => iblk c Vv 6 t
    | ⟨7, _⟩ => outAt c Vv t
  Φ _ := Pipeline.scopedRest spec2 c
  q _ := fullShare
  owed _ := 0
  recorded _ := {p | (K (F := F)).lev ((c.tc : Thread nD τ), p.1) p.2 ≤ 16}

theorem A_eq (w : Fin cfg2.W) : (datK c Vv).A w = Vv (Pipeline.arrRef spec2 w) := by dsimp only [datK]

theorem after2_0 (t : Fin cfg2.N) : (datK c Vv).after 0 t = iblk c Vv 0 t := by dsimp only [datK]
theorem after2_1 (t : Fin cfg2.N) : (datK c Vv).after 1 t = iblk c Vv 1 t := by dsimp only [datK]
theorem after2_2 (t : Fin cfg2.N) : (datK c Vv).after 2 t = iblk c Vv 2 t := by dsimp only [datK]
theorem after2_3 (t : Fin cfg2.N) : (datK c Vv).after 3 t = iblk c Vv 3 t := by dsimp only [datK]
theorem after2_4 (t : Fin cfg2.N) : (datK c Vv).after 4 t = iblk c Vv 4 t := by dsimp only [datK]
theorem after2_5 (t : Fin cfg2.N) : (datK c Vv).after 5 t = iblk c Vv 5 t := by dsimp only [datK]
theorem after2_6 (t : Fin cfg2.N) : (datK c Vv).after 6 t = iblk c Vv 6 t := by dsimp only [datK]
theorem after2_7 (t : Fin cfg2.N) : (datK c Vv).after 7 t = outAt c Vv t := by dsimp only [datK]

theorem before2_0 (t : Fin cfg2.N) (d) : (datK c Vv).before 0 t d = iblk c Vv 0 t :=
  ((datK c Vv).before_in_eq_fetched 0 rfl (fun _ => rfl) (fun _ _ _ => rfl) (fun t => by rw [after2_0]; unfold Dat.blockOf iblk; rw [A_eq]; try rfl) t d).trans
    (by unfold Dat.fetched Dat.blockOf iblk; rw [A_eq]; try rfl)
theorem before2_1 (t : Fin cfg2.N) (d) : (datK c Vv).before 1 t d = iblk c Vv 1 t :=
  ((datK c Vv).before_in_eq_fetched 1 rfl (fun _ => rfl) (fun _ _ _ => rfl) (fun t => by rw [after2_1]; unfold Dat.blockOf iblk; rw [A_eq]; try rfl) t d).trans
    (by unfold Dat.fetched Dat.blockOf iblk; rw [A_eq]; try rfl)
theorem before2_2 (t : Fin cfg2.N) (d) : (datK c Vv).before 2 t d = iblk c Vv 2 t :=
  ((datK c Vv).before_in_eq_fetched 2 rfl (fun _ => rfl) (fun _ _ _ => rfl) (fun t => by rw [after2_2]; unfold Dat.blockOf iblk; rw [A_eq]; try rfl) t d).trans
    (by unfold Dat.fetched Dat.blockOf iblk; rw [A_eq]; try rfl)
theorem before2_3 (t : Fin cfg2.N) (d) : (datK c Vv).before 3 t d = iblk c Vv 3 t :=
  ((datK c Vv).before_in_eq_fetched 3 rfl (fun _ => rfl) (fun _ _ _ => rfl) (fun t => by rw [after2_3]; unfold Dat.blockOf iblk; rw [A_eq]; try rfl) t d).trans
    (by unfold Dat.fetched Dat.blockOf iblk; rw [A_eq]; try rfl)
theorem before2_4 (t : Fin cfg2.N) (d) : (datK c Vv).before 4 t d = iblk c Vv 4 t :=
  ((datK c Vv).before_in_eq_fetched 4 rfl (fun _ => rfl) (fun _ _ _ => rfl) (fun t => by rw [after2_4]; unfold Dat.blockOf iblk; rw [A_eq]; try rfl) t d).trans
    (by unfold Dat.fetched Dat.blockOf iblk; rw [A_eq]; try rfl)
theorem before2_5 (t : Fin cfg2.N) (d) : (datK c Vv).before 5 t d = iblk c Vv 5 t :=
  ((datK c Vv).before_in_eq_fetched 5 rfl (fun _ => rfl) (fun _ _ _ => rfl) (fun t => by rw [after2_5]; unfold Dat.blockOf iblk; rw [A_eq]; try rfl) t d).trans
    (by unfold Dat.fetched Dat.blockOf iblk; rw [A_eq]; try rfl)
theorem before2_6 (t : Fin cfg2.N) (d) : (datK c Vv).before 6 t d = iblk c Vv 6 t :=
  ((datK c Vv).before_in_eq_fetched 6 rfl (fun _ => rfl) (fun _ _ _ => rfl) (fun t => by rw [after2_6]; unfold Dat.blockOf iblk; rw [A_eq]; try rfl) t d).trans
    (by unfold Dat.fetched Dat.blockOf iblk; rw [A_eq]; try rfl)

end Data

/-! ## The body obligation -/

section Obligation

variable (c : Dev nD) (Vv : (b : Ref sig .tc) → Buf (Elt F) ((c.tc : Thread nD τ).loc b))

/-- The two scratch buffers, as the body's run holds them, split off the scoped buffers no window stages. -/
theorem scopedRest_split : ∃ R : sProp 𝕄, (Pipeline.scopedRest spec2 c : sProp 𝕄)
    = iprop((∃ d, owns (c : Thread nD τ) scM0 fullShare d) ∗ (∃ d, owns (c : Thread nD τ) scM1 fullShare d) ∗ R) := by
  refine ⟨?_, ?_⟩
  swap
  · rw [scopedRest2_eq]; simp only [scM0, scM1, owns_whole]; rfl

/-- What the body is called with at point `t` (the library's body obligation's precondition, the windows one by one), -/
def bodyPre (t : Fin cfg2.N) : sProp 𝕄 :=
  iprop((datK c Vv).Φ t.castSucc ∗ (datK c Vv).owesAt none t.castSucc
    ∗ (∃ d, owns (c : Thread nD τ) (ms2_0 t) fullShare ((datK c Vv).before 0 t d))
    ∗ (∃ d, owns (c : Thread nD τ) (ms2_1 t) fullShare ((datK c Vv).before 1 t d))
    ∗ (∃ d, owns (c : Thread nD τ) (ms2_2 t) fullShare ((datK c Vv).before 2 t d))
    ∗ (∃ d, owns (c : Thread nD τ) (ms2_3 t) fullShare ((datK c Vv).before 3 t d))
    ∗ (∃ d, owns (c : Thread nD τ) (ms2_4 t) fullShare ((datK c Vv).before 4 t d))
    ∗ (∃ d, owns (c : Thread nD τ) (ms2_5 t) fullShare ((datK c Vv).before 5 t d))
    ∗ (∃ d, owns (c : Thread nD τ) (ms2_6 t) fullShare ((datK c Vv).before 6 t d))
    ∗ (∃ d, owns (c : Thread nD τ) (ms2_7 t) fullShare ((datK c Vv).before 7 t d)))

/-- and what it returns. -/
def bodyPost (t : Fin cfg2.N) : sProp 𝕄 :=
  iprop((datK c Vv).Φ t.succ ∗ (datK c Vv).owesAt none t.succ
    ∗ owns (c : Thread nD τ) (ms2_0 t) fullShare ((datK c Vv).after 0 t)
    ∗ owns (c : Thread nD τ) (ms2_1 t) fullShare ((datK c Vv).after 1 t)
    ∗ owns (c : Thread nD τ) (ms2_2 t) fullShare ((datK c Vv).after 2 t)
    ∗ owns (c : Thread nD τ) (ms2_3 t) fullShare ((datK c Vv).after 3 t)
    ∗ owns (c : Thread nD τ) (ms2_4 t) fullShare ((datK c Vv).after 4 t)
    ∗ owns (c : Thread nD τ) (ms2_5 t) fullShare ((datK c Vv).after 5 t)
    ∗ owns (c : Thread nD τ) (ms2_6 t) fullShare ((datK c Vv).after 6 t)
    ∗ owns (c : Thread nD τ) (ms2_7 t) fullShare ((datK c Vv).after 7 t))

/-- The body at the point: the inputs' memrefs hold their blocks (`before2_W`), so the run of the case at hand
    applies; the invariant hands the body its two scratch buffers and takes them back at whatever they then hold; the
    body waits for nothing and signals no one, so what the core owes passes through as it was. -/
theorem sound_body
    (hchk : ∀ t, k2_cond2 (grid2.coords t) (wordAt c Vv t) = 1#1 → k2_chk1 (grid2.coords t) (wordAt c Vv t) (wordAt c Vv t))
    (t : Fin cfg2.N) :
    bodyPre c Vv t ⊢ wp frame (wpE (defs₀ (F := F)) 𝒱₀ (c : Thread nD τ) none) Set.univ (bodyAt2 t) (fun _ => bodyPost c Vv t) := by
  unfold bodyPre bodyPost bodyAt2
  simp only [before2_0, before2_1, before2_2, before2_3, before2_4, before2_5, before2_6]
  rw [show (datK c Vv).Φ t.succ = (datK c Vv).Φ t.castSucc from rfl,
    show (datK c Vv).owesAt none t.succ = (datK c Vv).owesAt none t.castSucc from rfl,
    after2_0, after2_1, after2_2, after2_3, after2_4, after2_5, after2_6, after2_7]
  obtain ⟨R, hR⟩ := scopedRest_split (F := F) c
  rw [show (datK c Vv).Φ t.castSucc = Pipeline.scopedRest spec2 c from rfl, hR]
  iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hc : k2_cond2 (grid2.coords t) (wordAt c Vv t) = 1#1
  · have hk := hchk t hc
    unfold outAt; rw [dif_pos hc, dif_pos hk]
    iapply ((runT c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM0 (Memref.isWhole_whole _) scM1 (Memref.isWhole_whole _) (iblk c Vv 0 t) (iblk c Vv 1 t) (iblk c Vv 2 t) (iblk c Vv 3 t) (iblk c Vv 4 t) (iblk c Vv 5 t) (iblk c Vv 6 t) hc hk).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%e7, H7⟩, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact read_writes_whole16 _ _ _
  · unfold outAt; rw [dif_neg hc]
    iapply ((runF c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM0 (Memref.isWhole_whole _) scM1 (Memref.isWhole_whole _) (iblk c Vv 0 t) (iblk c Vv 1 t) (iblk c Vv 2 t) (iblk c Vv 3 t) (iblk c Vv 4 t) (iblk c Vv 5 t) (iblk c Vv 6 t) hc).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%e7, H7⟩, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact read_writes_whole16 _ _ _

/-- The library's body obligation, at the point. -/
theorem body_obligation
    (hchk : ∀ t, k2_cond2 (grid2.coords t) (wordAt c Vv t) = 1#1 → k2_chk1 (grid2.coords t) (wordAt c Vv t) (wordAt c Vv t)) :
    BodyObligation (datK (F := F) c Vv) (defs₀ (F := F)) 𝒱₀ none Set.univ := fun t => by
  rw [bigSep_W2, bigSep_W2]
  have h7 : cfg2.idle 7 (cfg2.grid.coords t) = false := by
    show (!(k2_cond3 (grid2.coords t) == 1#1)) = false
    rw [cond3_all]; rfl
  rw [h7]
  exact sound_body c Vv hchk t

/-- THE BODY OBLIGATION as the region rule takes it. -/
theorem hbodyK
    (hchk : ∀ t, k2_cond2 (grid2.coords t) (wordAt c Vv t) = 1#1 → k2_chk1 (grid2.coords t) (wordAt c Vv t) (wordAt c Vv t)) :
    BodyObligationLoose (datK (F := F) c Vv) (defs₀ (F := F)) 𝒱₀ none Set.univ :=
  (body_obligation c Vv hchk).loose

/-- The invariant at the first point is the scoped buffers no window stages, -/
theorem Phi_in : (Pipeline.scopedRest spec2 c : sProp 𝕄) ⊢ (datK c Vv).Φ 0 := .rfl

/-- and so it is at the last. -/
theorem Phi_out : (datK c Vv).Φ (Fin.last cfg2.N) ⊢ (Pipeline.scopedRest spec2 c : sProp 𝕄) := .rfl

end Obligation

/-! ## The region's data as the launch takes it -/

/-- The prefetched tables' admissible contents: no pipeline has a table. -/
abbrev adm : (p : Fin 2) → (pcfgs (F := F) p).Adm := fun p => (cfgs p).toPCfg_adm

section Launch

variable (c : Dev nD) (Vv : (b : Ref sig .tc) → Buf (Elt F) ((c.tc : Thread nD τ).loc b))

/-- The proof data at the launch's spelling of the pipeline's configuration. -/
abbrev datK' : Pipeline.Dat τ (Elt F) (HIx 2) ℕ UU ℕ (Pipeline.pin (pcfgs (F := F)) adm 0) c := datK c Vv

/-- A shape of one element has one index. -/
theorem S1_idx_eq (x y : S1.Idx) : x = y := by
  funext a; apply Fin.ext
  have hx := (x a).isLt; have hy := (y a).isLt
  have h1 : S1.size a = 1 := by fin_cases a; rfl
  omega

/-- The word the body reads is the one word of the array the SMEM window stages: its block is the whole array. -/
theorem wordAt_eq (t : Fin cfg2.N) : wordAt c Vv t = Vv main_v19 (ValueIdx.ix1 0) := by
  show View.readAt (Elt F) (ms2_6 t).view (Rect.unit (s := S1) ![0] S1.size inb_S1_S1_0).toLoadRect ((hs2_6 t).unread (iblk c Vv 6 t)) (Shape.Idx.first (numel1_S1.symm ▸ Nat.one_pos)) = _
  simp only [View.readAt_apply, Memref.IsWhole.read_unread]
  unfold iblk
  rw [View.read_apply, cast_eq]
  exact congrArg (Vv main_v19) (S1_idx_eq _ _)

theorem toNat_le_of_toInt (w : BitVec 32) (h : 0 ≤ w.toInt ∧ w.toInt ≤ 2047) : w.toNat ≤ 2047 := by
  have hlt := w.isLt
  rw [BitVec.toInt_eq_toNat_cond] at h
  split at h <;> omega

/-- THE BODY OBLIGATION, from the range of the first active step: `0 ≤ m ≤ 2047`. -/
theorem hbody (hm : 0 ≤ (Vv main_v19 (ValueIdx.ix1 0)).toInt ∧ (Vv main_v19 (ValueIdx.ix1 0)).toInt ≤ 2047) :
    Pipeline.BodyObligationLoose (datK' c Vv) (defs₀ (F := F)) 𝒱₀ none Set.univ :=
  hbodyK c Vv fun t hc => chk1_of_le _ _ (by rw [wordAt_eq]; exact toNat_le_of_toInt _ hm) hc

end Launch

/-! ## What the region leaves in its result array

Every window's block is its whole array: an index of the block is that index of the array. So each input's block
is the array as the region finds it, and the result array ends, at every index, at what the body left in the result
window's staging buffer at the one point. -/

section Value

variable (c : Dev nD) (Vv : (b : Ref sig .tc) → Buf (Elt F) ((c.tc : Thread nD τ).loc b))

/-- Every window's block index is zero on both axes at the point. -/
theorem index_zero : ∀ (w : Fin cfg2.W) (t : Fin cfg2.N) (a : Fin (cfg2.win w).shape.rank), (cfg2.win w).index t a = 0 := by decide +kernel

/-- Window 0's block is its array as the region finds it. -/
theorem iblk0_eq (t : Fin cfg2.N) : (iblk c Vv 0 t : Vec F S4096x128 .f32) = Vv main_v2 := by
  funext y
  unfold iblk
  rw [View.read_apply, cast_eq]
  refine congrArg (Vv main_v2) (funext fun a => Fin.ext ?_)
  exact Pipeline.Window.rect_emb_val_of_index_zero (cfg2.win 0) t a (index_zero 0 t a) y

/-- Window 1's block is its array as the region finds it. -/
theorem iblk1_eq (t : Fin cfg2.N) : (iblk c Vv 1 t : Vec F S128x128 .f32) = Vv main_arg3 := by
  funext y
  unfold iblk
  rw [View.read_apply, cast_eq]
  refine congrArg (Vv main_arg3) (funext fun a => Fin.ext ?_)
  exact Pipeline.Window.rect_emb_val_of_index_zero (cfg2.win 1) t a (index_zero 1 t a) y

/-- Window 2's block is its array as the region finds it. -/
theorem iblk2_eq (t : Fin cfg2.N) : (iblk c Vv 2 t : Vec F S128x128 .f32) = Vv main_v20 := by
  funext y
  unfold iblk
  rw [View.read_apply, cast_eq]
  refine congrArg (Vv main_v20) (funext fun a => Fin.ext ?_)
  exact Pipeline.Window.rect_emb_val_of_index_zero (cfg2.win 2) t a (index_zero 2 t a) y

/-- Window 3's block is its array as the region finds it. -/
theorem iblk3_eq (t : Fin cfg2.N) : (iblk c Vv 3 t : Vec F S1x128 .f32) = Vv main_v21 := by
  funext y
  unfold iblk
  rw [View.read_apply, cast_eq]
  refine congrArg (Vv main_v21) (funext fun a => Fin.ext ?_)
  exact Pipeline.Window.rect_emb_val_of_index_zero (cfg2.win 3) t a (index_zero 3 t a) y

/-- Window 4's block is its array as the region finds it. -/
theorem iblk4_eq (t : Fin cfg2.N) : (iblk c Vv 4 t : Vec F S1x128 .f32) = Vv main_v22 := by
  funext y
  unfold iblk
  rw [View.read_apply, cast_eq]
  refine congrArg (Vv main_v22) (funext fun a => Fin.ext ?_)
  exact Pipeline.Window.rect_emb_val_of_index_zero (cfg2.win 4) t a (index_zero 4 t a) y

/-- Window 5's block is its array as the region finds it. -/
theorem iblk5_eq (t : Fin cfg2.N) : (iblk c Vv 5 t : Vec F S16x128 .i32) = Vv main_v7 := by
  funext y
  unfold iblk
  rw [View.read_apply, cast_eq]
  refine congrArg (Vv main_v7) (funext fun a => Fin.ext ?_)
  exact Pipeline.Window.rect_emb_val_of_index_zero (cfg2.win 5) t a (index_zero 5 t a) y

/-- THE REGION'S RESULT: after the write-back of the one point the result array holds what the body left in the result
    window's staging buffer. -/
theorem arrAt_out : (datK c Vv).arrAt (7 : Fin cfg2.W) cfg2.N = outAt c Vv t2_0 := by
  funext y
  have h := (datK c Vv).arrAt_emb_eq_flushed 7
    (fun t t' _ _ hne => absurd ((fin_N2 t).trans (fin_N2 t').symm) hne) t2_0 (flush2_7 t2_0) y
  have e : ((cfg2.win 7).blk t2_0).view.emb y = y :=
    funext fun a => Fin.ext (Pipeline.Window.rect_emb_val_of_index_zero (cfg2.win 7) t2_0 a (index_zero 7 t2_0 a) y)
  rw [e, cast_eq] at h
  rw [h]
  show (cfg2.win 7).cut (cfg2.grid.coords t2_0) ((datK c Vv).after 7 t2_0) y = _
  rw [after2_7]
  rfl

end Value

end Cert.Proof.KI.ScanA

end
-- ==== Proof.ScanBRuns.lean ====
import proofs.«205923_g40089224741417_cont_sun_m_110_39_alg».proof.Proof.Common
import proofs.«205923_g40089224741417_cont_sun_m_110_39_alg».proof.Proof.Gen.KernelIdeal.Skeleton
import proofs.«205923_g40089224741417_cont_sun_m_110_39_alg».proof.Proof.Gen.KernelIdeal.Loops
import proofs.«205923_g40089224741417_cont_sun_m_110_39_alg».proof.Proof.Gen.KernelIdeal.Launch
import proofs.«205923_g40089224741417_cont_sun_m_110_39_alg».proof.Proof.Gen.KernelIdeal.Points
import Idealize.ShloMosaic.Lib.Pipeline.FrameBody
import Idealize.ShloMosaic.Lib.Ring
import Idealize.ShloMosaic.Lib.Tactic

set_option maxRecDepth 16384

/-
  The second TensorCore call's body (the scan over the steps 256..2047 in four chunks, then the head) on any whole
  memrefs: its two counted loops by their invariants, and the body's triple in each of its six control cases — the state
  taken from the first call's result or carried, the chunk run or skipped, the head applied or not.
-/
noncomputable section

namespace Cert.Proof.KI.ScanB

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 2) (Elt F) ℕ UU ℕ

/-! ## The two counted loops of the chunk, at this proof's resource algebra -/

/-! ### The counted loop `k3_t1_loop`: one trip, the carried state by recursion, the invariant -/

/-- One trip's resources: the projection scratch, which the region reads, at its contents. -/
abbrev Trip1 (c : Dev nD) (arg15 : Memref sig .tc .vmem S7168x128 .f32) (X : BufTy.Contents (Elt F) arg15.view.ty) : sProp 𝕄 :=
  iprop((arg15.view.loc (c : Thread nD τ) ↦[arg15.view.set]{fullShare} X))

/-- ONE TRIP at a symbolic trip `k` and carried state `acc`: eight rows of the projection scratch are read and the
    eight masked cell updates applied; what it yields, as a function of the carried state, is found by the run. -/
@[irreducible] def trip1 (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v51 : BitVec 32) (X : BufTy.Contents (Elt F) arg15.view.ty) (k : Fin (k3_t1_loop i v31).trips) :
    { R : ((Vec F S16x128 .f32) → Vec F S16x128 .f32) // ∀ (E : Set ℕ) (acc : Vec F S16x128 .f32),
      Trip1 (F := F) c arg15 X
      ⊢ wp frame (wpE (defs₀ (F := F)) 𝒱 (c : Thread nD τ) bd) E (k3_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 k acc)
          (fun yld => iprop(⌜yld = R acc⌝ ∗ Trip1 (F := F) c arg15 X)) } := by
  refine ⟨?_, fun E acc => ?run⟩
  case run =>
    unfold k3_t1_body
    iintro HR_arg15
    sl_exec
    sl_step
    sl_close

/-- The trip's result. -/
abbrev tripR1 (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v51 : BitVec 32) (X : BufTy.Contents (Elt F) arg15.view.ty) (k : Fin (k3_t1_loop i v31).trips) (acc : Vec F S16x128 .f32) : Vec F S16x128 .f32 :=
  (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 X k).1 acc

/-- Trip `k`'s contribution to the carried state; past the last trip, nothing. -/
@[irreducible] def st1Step (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v51 : BitVec 32) (X : BufTy.Contents (Elt F) arg15.view.ty) (init : Vec F S16x128 .f32) (k : ℕ) (prev : Vec F S16x128 .f32) : Vec F S16x128 .f32 :=
  if h : k < (k3_t1_loop i v31).trips then
    tripR1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 X ⟨k, h⟩ prev
  else prev

/-- The carried state before trip `k`, from the loop's initial state `init`. -/
def st1 (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v51 : BitVec 32) (X : BufTy.Contents (Elt F) arg15.view.ty) (init : Vec F S16x128 .f32) : ℕ → Vec F S16x128 .f32
  | 0 => init
  | k + 1 => st1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 X init k (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 X init k)

theorem st1_succ (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v51 : BitVec 32) (X : BufTy.Contents (Elt F) arg15.view.ty) (init : Vec F S16x128 .f32) (k : Fin (k3_t1_loop i v31).trips) :
    st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 X init (k.val + 1)
      = (tripR1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 X k (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 X init k.val)) := by
  rw [st1.eq_2]; unfold st1Step; exact dif_pos k.isLt

theorem st1_zero (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v51 : BitVec 32) (X : BufTy.Contents (Elt F) arg15.view.ty) (init : Vec F S16x128 .f32) :
    (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 X init 0) = init := rfl

macro_rules | `(tactic| sl_pure) => `(tactic| with_reducible exact (Cert.Proof.KI.ScanB.st1_zero ..).symm)

/-- The invariant before trip `k`: the projection scratch as it was; the carried state the recursion's. -/
abbrev inv1 (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v51 : BitVec 32) (X : BufTy.Contents (Elt F) arg15.view.ty) (init : Vec F S16x128 .f32) (k : ℕ) (acc : Vec F S16x128 .f32) : sProp 𝕄 :=
  iprop((arg15.view.loc (c : Thread nD τ) ↦[arg15.view.set]{fullShare} X) ∗ ⌜acc = (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 X init k)⌝)

set_option warn.classDefReducibility false in
/-- The loop by its invariant. -/
@[sl_loop] def loopInv1 (𝒱 : Variants) (c : Dev nD) (bd : Option 𝒱.V) (E : Set ℕ) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v51 : BitVec 32) (X : BufTy.Contents (Elt F) arg15.view.ty) (init : Vec F S16x128 .f32) :
    LoopInvTy_k3_t1 (F := F) (HIx 2) ℕ UU ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 init where
  inv := inv1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 X init
  step k acc := by
    iintro ⟨HR_arg15, %h_acc⟩
    subst h_acc
    iapply (wp_wand_r Idealize.ShloMosaic.frame (wpE (defs₀ (F := F)) 𝒱 (c : Thread nD τ) bd) E)
    isplitl [HR_arg15]
    · iapply ((trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 X k).2 E (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 X init k))
      iexact HR_arg15
    · iintro %yld ⟨%h_res, HR_arg15⟩
      isplitl [HR_arg15]; · iexact HR_arg15
      simp only [st1_succ]
      ipureintro; rw [h_res]

/-! ### The counted loop `k3_t2_loop`: one trip, the carried state by recursion, the invariant -/

/-- One trip's resources: the projection scratch, which the region reads, at its contents. -/
abbrev Trip2 (c : Dev nD) (arg15 : Memref sig .tc .vmem S7168x128 .f32) (X : BufTy.Contents (Elt F) arg15.view.ty) : sProp 𝕄 :=
  iprop((arg15.view.loc (c : Thread nD τ) ↦[arg15.view.set]{fullShare} X))

/-- ONE TRIP at a symbolic trip `k` and carried state `acc`: eight rows of the projection scratch are read and the
    eight masked cell updates applied; what it yields, as a function of the carried state, is found by the run. -/
@[irreducible] def trip2 (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v57 : BitVec 32) (X : BufTy.Contents (Elt F) arg15.view.ty) (k : Fin (k3_t2_loop i v31).trips) :
    { R : ((Vec F S16x128 .f32) → Vec F S16x128 .f32) // ∀ (E : Set ℕ) (acc : Vec F S16x128 .f32),
      Trip2 (F := F) c arg15 X
      ⊢ wp frame (wpE (defs₀ (F := F)) 𝒱 (c : Thread nD τ) bd) E (k3_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 k acc)
          (fun yld => iprop(⌜yld = R acc⌝ ∗ Trip2 (F := F) c arg15 X)) } := by
  refine ⟨?_, fun E acc => ?run⟩
  case run =>
    unfold k3_t2_body
    iintro HR_arg15
    sl_exec
    sl_step
    sl_close

/-- The trip's result. -/
abbrev tripR2 (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v57 : BitVec 32) (X : BufTy.Contents (Elt F) arg15.view.ty) (k : Fin (k3_t2_loop i v31).trips) (acc : Vec F S16x128 .f32) : Vec F S16x128 .f32 :=
  (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 X k).1 acc

/-- Trip `k`'s contribution to the carried state; past the last trip, nothing. -/
@[irreducible] def st2Step (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v57 : BitVec 32) (X : BufTy.Contents (Elt F) arg15.view.ty) (init : Vec F S16x128 .f32) (k : ℕ) (prev : Vec F S16x128 .f32) : Vec F S16x128 .f32 :=
  if h : k < (k3_t2_loop i v31).trips then
    tripR2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 X ⟨k, h⟩ prev
  else prev

/-- The carried state before trip `k`, from the loop's initial state `init`. -/
def st2 (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v57 : BitVec 32) (X : BufTy.Contents (Elt F) arg15.view.ty) (init : Vec F S16x128 .f32) : ℕ → Vec F S16x128 .f32
  | 0 => init
  | k + 1 => st2Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 X init k (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 X init k)

theorem st2_succ (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v57 : BitVec 32) (X : BufTy.Contents (Elt F) arg15.view.ty) (init : Vec F S16x128 .f32) (k : Fin (k3_t2_loop i v31).trips) :
    st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 X init (k.val + 1)
      = (tripR2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 X k (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 X init k.val)) := by
  rw [st2.eq_2]; unfold st2Step; exact dif_pos k.isLt

theorem st2_zero (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v57 : BitVec 32) (X : BufTy.Contents (Elt F) arg15.view.ty) (init : Vec F S16x128 .f32) :
    (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 X init 0) = init := rfl

macro_rules | `(tactic| sl_pure) => `(tactic| with_reducible exact (Cert.Proof.KI.ScanB.st2_zero ..).symm)

/-- The invariant before trip `k`: the projection scratch as it was; the carried state the recursion's. -/
abbrev inv2 (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v57 : BitVec 32) (X : BufTy.Contents (Elt F) arg15.view.ty) (init : Vec F S16x128 .f32) (k : ℕ) (acc : Vec F S16x128 .f32) : sProp 𝕄 :=
  iprop((arg15.view.loc (c : Thread nD τ) ↦[arg15.view.set]{fullShare} X) ∗ ⌜acc = (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 X init k)⌝)

set_option warn.classDefReducibility false in
/-- The loop by its invariant. -/
@[sl_loop] def loopInv2 (𝒱 : Variants) (c : Dev nD) (bd : Option 𝒱.V) (E : Set ℕ) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v57 : BitVec 32) (X : BufTy.Contents (Elt F) arg15.view.ty) (init : Vec F S16x128 .f32) :
    LoopInvTy_k3_t2 (F := F) (HIx 2) ℕ UU ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 init where
  inv := inv2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 X init
  step k acc := by
    iintro ⟨HR_arg15, %h_acc⟩
    subst h_acc
    iapply (wp_wand_r Idealize.ShloMosaic.frame (wpE (defs₀ (F := F)) 𝒱 (c : Thread nD τ) bd) E)
    isplitl [HR_arg15]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 X k).2 E (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 X init k))
      iexact HR_arg15
    · iintro %yld ⟨%h_res, HR_arg15⟩
      isplitl [HR_arg15]; · iexact HR_arg15
      simp only [st2_succ]
      ipureintro; rw [h_res]

/-! ## The body on any whole memrefs, case by case -/

set_option maxHeartbeats 4000000 in
/-- The body on whole memrefs in case A (the state initialised from the first call's: yes; the chunk run: yes; the head applied: no):
    the inputs come back as they were; each buffer the case stores into comes back with the case's pieces written, the
    pieces being what the run finds; a buffer it does not store into comes back as it was handed. -/
noncomputable def kernelRun_A (c : Dev nD) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole)
    (hc1 : (Scalar.cmpi .ne (Scalar.extui (Scalar.cmpi .eq (BitVec.ofNat 32 (i 0).val) 0#32)) 0#32) = 1#1) (hc3 : ¬k3_cond3 i = 1#1)
    (x1 : Vec F S7168x128 .f32) (x2 : Vec F S128x128 .f32) (x3 : Vec F S128x128 .f32) (x4 : Vec F S1x128 .f32) (x5 : Vec F S1x128 .f32) (x6 : Vec F S16x128 .i32) (x7 : Vec F S1 .i32) (x8 : Vec F S16x128 .f32) (x9 : Vec F S256x128 .f32) (x10 : Vec F S1x256 .f32) (x11 : Vec F S128x256 .f32) (x12 : Vec F S1x128 .f32)
    (hc2 : k3_cond2 i (arg7.view.readAt (Elt F) (Rect.unit (s := S1) ![0] S1.size inb_S1_S1_0).toLoadRect (harg7.unread x7) (Shape.Idx.first (numel1_S1.symm ▸ Nat.one_pos))) = 1#1) (hw : k3_chk1 i (arg7.view.readAt (Elt F) (Rect.unit (s := S1) ![0] S1.size inb_S1_S1_0).toLoadRect (harg7.unread x7) (Shape.Idx.first (numel1_S1.symm ▸ Nat.one_pos))) (arg7.view.readAt (Elt F) (Rect.unit (s := S1) ![0] S1.size inb_S1_S1_0).toLoadRect (harg7.unread x7) (Shape.Idx.first (numel1_S1.symm ▸ Nat.one_pos)))) :
    Σ' (LS0 : List (View.Piece (Elt F) S16x128 .f32)), { LS1 : List (View.Piece (Elt F) S7168x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) 𝒱₀ (c : Thread nD τ) none) E (cc3__scan_b_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc3__scan_b_body_eq_skeleton]; unfold cc3__scan_b_body_skel
    simp only [k3_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    obtain rfl := harg9.eq_unread hf9; obtain rfl := harg10.eq_unread hf10; obtain rfl := harg11.eq_unread hf11; obtain rfl := harg12.eq_unread hf12
    sl_exec (disch := first | sl_exact hc1 | sl_exact hc2 | sl_exact hc3 | sl_exact hw)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _, _; isplitr; swap; · iexact H13
      ipureintro; rfl
    isplitl [H14]; · iexists _; iexact H14
    iexists _; iexact H15

set_option maxHeartbeats 4000000 in
/-- The body on whole memrefs in case B (the state initialised from the first call's: yes; the chunk run: no; the head applied: no):
    the inputs come back as they were; each buffer the case stores into comes back with the case's pieces written, the
    pieces being what the run finds; a buffer it does not store into comes back as it was handed. -/
noncomputable def kernelRun_B (c : Dev nD) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole)
    (hc1 : (Scalar.cmpi .ne (Scalar.extui (Scalar.cmpi .eq (BitVec.ofNat 32 (i 0).val) 0#32)) 0#32) = 1#1) (hc3 : ¬k3_cond3 i = 1#1)
    (x1 : Vec F S7168x128 .f32) (x2 : Vec F S128x128 .f32) (x3 : Vec F S128x128 .f32) (x4 : Vec F S1x128 .f32) (x5 : Vec F S1x128 .f32) (x6 : Vec F S16x128 .i32) (x7 : Vec F S1 .i32) (x8 : Vec F S16x128 .f32) (x9 : Vec F S256x128 .f32) (x10 : Vec F S1x256 .f32) (x11 : Vec F S128x256 .f32) (x12 : Vec F S1x128 .f32)
    (hc2 : ¬k3_cond2 i (arg7.view.readAt (Elt F) (Rect.unit (s := S1) ![0] S1.size inb_S1_S1_0).toLoadRect (harg7.unread x7) (Shape.Idx.first (numel1_S1.symm ▸ Nat.one_pos))) = 1#1) :
    { LS0 : List (View.Piece (Elt F) S16x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ f, arg14.view.loc (c : Thread nD τ) ↦[arg14.view.set]{fullShare} arg14.view.writes (Elt F) f LS0) ∗ (∃ d, owns (c : Thread nD τ) arg15 fullShare d)) -∗ K ⟨⟩))
          ⊢ wp frame (wpE (defs₀ (F := F)) 𝒱₀ (c : Thread nD τ) none) E (cc3__scan_b_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc3__scan_b_body_eq_skeleton]; unfold cc3__scan_b_body_skel
    simp only [k3_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    obtain rfl := harg9.eq_unread hf9; obtain rfl := harg10.eq_unread hf10; obtain rfl := harg11.eq_unread hf11; obtain rfl := harg12.eq_unread hf12
    sl_exec (disch := first | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _, _; isplitr; swap; · iexact H13
      ipureintro; rfl
    isplitl [H14]; · iexists _; iexact H14
    iexists _, _; isplitr; swap; · iexact H15
    ipureintro; rfl

set_option maxHeartbeats 4000000 in
/-- The body on whole memrefs in case C (the state initialised from the first call's: no; the chunk run: yes; the head applied: no):
    the inputs come back as they were; each buffer the case stores into comes back with the case's pieces written, the
    pieces being what the run finds; a buffer it does not store into comes back as it was handed. -/
noncomputable def kernelRun_C (c : Dev nD) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole)
    (hc1 : ¬(Scalar.cmpi .ne (Scalar.extui (Scalar.cmpi .eq (BitVec.ofNat 32 (i 0).val) 0#32)) 0#32) = 1#1) (hc3 : ¬k3_cond3 i = 1#1)
    (x1 : Vec F S7168x128 .f32) (x2 : Vec F S128x128 .f32) (x3 : Vec F S128x128 .f32) (x4 : Vec F S1x128 .f32) (x5 : Vec F S1x128 .f32) (x6 : Vec F S16x128 .i32) (x7 : Vec F S1 .i32) (x8 : Vec F S16x128 .f32) (x9 : Vec F S256x128 .f32) (x10 : Vec F S1x256 .f32) (x11 : Vec F S128x256 .f32) (x12 : Vec F S1x128 .f32) (xs0 : Vec F S16x128 .f32)
    (hc2 : k3_cond2 i (arg7.view.readAt (Elt F) (Rect.unit (s := S1) ![0] S1.size inb_S1_S1_0).toLoadRect (harg7.unread x7) (Shape.Idx.first (numel1_S1.symm ▸ Nat.one_pos))) = 1#1) (hw : k3_chk1 i (arg7.view.readAt (Elt F) (Rect.unit (s := S1) ![0] S1.size inb_S1_S1_0).toLoadRect (harg7.unread x7) (Shape.Idx.first (numel1_S1.symm ▸ Nat.one_pos))) (arg7.view.readAt (Elt F) (Rect.unit (s := S1) ![0] S1.size inb_S1_S1_0).toLoadRect (harg7.unread x7) (Shape.Idx.first (numel1_S1.symm ▸ Nat.one_pos)))) :
    Σ' (LS0 : List (View.Piece (Elt F) S16x128 .f32)), { LS1 : List (View.Piece (Elt F) S7168x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare xs0 ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) 𝒱₀ (c : Thread nD τ) none) E (cc3__scan_b_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc3__scan_b_body_eq_skeleton]; unfold cc3__scan_b_body_skel
    simp only [k3_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%d15, %f15, -, H15⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    obtain rfl := harg9.eq_unread hf9; obtain rfl := harg10.eq_unread hf10; obtain rfl := harg11.eq_unread hf11; obtain rfl := harg12.eq_unread hf12
    obtain rfl := harg14.eq_unread hf14
    sl_exec (disch := first | sl_exact hc1 | sl_exact hc2 | sl_exact hc3 | sl_exact hw)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _, _; isplitr; swap; · iexact H13
      ipureintro; rfl
    isplitl [H14]; · iexists _; iexact H14
    iexists _; iexact H15

set_option maxHeartbeats 4000000 in
/-- The body on whole memrefs in case D (the state initialised from the first call's: no; the chunk run: no; the head applied: no):
    the inputs come back as they were; each buffer the case stores into comes back with the case's pieces written, the
    pieces being what the run finds; a buffer it does not store into comes back as it was handed. -/
theorem kernelRun_D (c : Dev nD) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole)
    (hc1 : ¬(Scalar.cmpi .ne (Scalar.extui (Scalar.cmpi .eq (BitVec.ofNat 32 (i 0).val) 0#32)) 0#32) = 1#1) (hc3 : ¬k3_cond3 i = 1#1)
    (x1 : Vec F S7168x128 .f32) (x2 : Vec F S128x128 .f32) (x3 : Vec F S128x128 .f32) (x4 : Vec F S1x128 .f32) (x5 : Vec F S1x128 .f32) (x6 : Vec F S16x128 .i32) (x7 : Vec F S1 .i32) (x8 : Vec F S16x128 .f32) (x9 : Vec F S256x128 .f32) (x10 : Vec F S1x256 .f32) (x11 : Vec F S128x256 .f32) (x12 : Vec F S1x128 .f32) (xs0 : Vec F S16x128 .f32)
    (hc2 : ¬k3_cond2 i (arg7.view.readAt (Elt F) (Rect.unit (s := S1) ![0] S1.size inb_S1_S1_0).toLoadRect (harg7.unread x7) (Shape.Idx.first (numel1_S1.symm ▸ Nat.one_pos))) = 1#1) :
    ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare xs0 ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare xs0 ∗ (∃ d, owns (c : Thread nD τ) arg15 fullShare d)) -∗ K ⟨⟩))
          ⊢ wp frame (wpE (defs₀ (F := F)) 𝒱₀ (c : Thread nD τ) none) E (cc3__scan_b_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc3__scan_b_body_eq_skeleton]; unfold cc3__scan_b_body_skel
  simp only [k3_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%d15, %f15, -, H15⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11; obtain rfl := harg12.eq_unread hf12
  obtain rfl := harg14.eq_unread hf14
  sl_exec (disch := first | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _, _; isplitr; swap; · iexact H13
    ipureintro; rfl
  isplitl [H14]
  · iexists _; isplitr; · ipureintro; exact harg14.read_unread _
    iexact H14
  iexists _, _; isplitr; swap; · iexact H15
  ipureintro; rfl

set_option maxHeartbeats 4000000 in
/-- The body on whole memrefs in case E (the state initialised from the first call's: no; the chunk run: yes; the head applied: yes):
    the inputs come back as they were; each buffer the case stores into comes back with the case's pieces written, the
    pieces being what the run finds; a buffer it does not store into comes back as it was handed. -/
noncomputable def kernelRun_E (c : Dev nD) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole)
    (hc1 : ¬(Scalar.cmpi .ne (Scalar.extui (Scalar.cmpi .eq (BitVec.ofNat 32 (i 0).val) 0#32)) 0#32) = 1#1) (hc3 : k3_cond3 i = 1#1)
    (x1 : Vec F S7168x128 .f32) (x2 : Vec F S128x128 .f32) (x3 : Vec F S128x128 .f32) (x4 : Vec F S1x128 .f32) (x5 : Vec F S1x128 .f32) (x6 : Vec F S16x128 .i32) (x7 : Vec F S1 .i32) (x8 : Vec F S16x128 .f32) (x9 : Vec F S256x128 .f32) (x10 : Vec F S1x256 .f32) (x11 : Vec F S128x256 .f32) (x12 : Vec F S1x128 .f32) (xs0 : Vec F S16x128 .f32)
    (hc2 : k3_cond2 i (arg7.view.readAt (Elt F) (Rect.unit (s := S1) ![0] S1.size inb_S1_S1_0).toLoadRect (harg7.unread x7) (Shape.Idx.first (numel1_S1.symm ▸ Nat.one_pos))) = 1#1) (hw : k3_chk1 i (arg7.view.readAt (Elt F) (Rect.unit (s := S1) ![0] S1.size inb_S1_S1_0).toLoadRect (harg7.unread x7) (Shape.Idx.first (numel1_S1.symm ▸ Nat.one_pos))) (arg7.view.readAt (Elt F) (Rect.unit (s := S1) ![0] S1.size inb_S1_S1_0).toLoadRect (harg7.unread x7) (Shape.Idx.first (numel1_S1.symm ▸ Nat.one_pos)))) :
    Σ' (L13 : List (View.Piece (Elt F) S16x3 .f32)), Σ' (LS0 : List (View.Piece (Elt F) S16x128 .f32)), { LS1 : List (View.Piece (Elt F) S7168x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare xs0 ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) 𝒱₀ (c : Thread nD τ) none) E (cc3__scan_b_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc3__scan_b_body_eq_skeleton]; unfold cc3__scan_b_body_skel
    simp only [k3_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%d15, %f15, -, H15⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    obtain rfl := harg9.eq_unread hf9; obtain rfl := harg10.eq_unread hf10; obtain rfl := harg11.eq_unread hf11; obtain rfl := harg12.eq_unread hf12
    obtain rfl := harg14.eq_unread hf14
    sl_exec (disch := first | sl_exact hc1 | sl_exact hc2 | sl_exact hc3 | sl_exact hw)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]; · iexists _; iexact H14
    iexists _; iexact H15

set_option maxHeartbeats 4000000 in
/-- The body on whole memrefs in case G (the state initialised from the first call's: no; the chunk run: no; the head applied: yes):
    the inputs come back as they were; each buffer the case stores into comes back with the case's pieces written, the
    pieces being what the run finds; a buffer it does not store into comes back as it was handed. -/
noncomputable def kernelRun_G (c : Dev nD) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole)
    (hc1 : ¬(Scalar.cmpi .ne (Scalar.extui (Scalar.cmpi .eq (BitVec.ofNat 32 (i 0).val) 0#32)) 0#32) = 1#1) (hc3 : k3_cond3 i = 1#1)
    (x1 : Vec F S7168x128 .f32) (x2 : Vec F S128x128 .f32) (x3 : Vec F S128x128 .f32) (x4 : Vec F S1x128 .f32) (x5 : Vec F S1x128 .f32) (x6 : Vec F S16x128 .i32) (x7 : Vec F S1 .i32) (x8 : Vec F S16x128 .f32) (x9 : Vec F S256x128 .f32) (x10 : Vec F S1x256 .f32) (x11 : Vec F S128x256 .f32) (x12 : Vec F S1x128 .f32) (xs0 : Vec F S16x128 .f32)
    (hc2 : ¬k3_cond2 i (arg7.view.readAt (Elt F) (Rect.unit (s := S1) ![0] S1.size inb_S1_S1_0).toLoadRect (harg7.unread x7) (Shape.Idx.first (numel1_S1.symm ▸ Nat.one_pos))) = 1#1) :
    { L13 : List (View.Piece (Elt F) S16x3 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare xs0 ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ owns (c : Thread nD τ) arg14 fullShare xs0 ∗ (∃ d, owns (c : Thread nD τ) arg15 fullShare d)) -∗ K ⟨⟩))
          ⊢ wp frame (wpE (defs₀ (F := F)) 𝒱₀ (c : Thread nD τ) none) E (cc3__scan_b_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc3__scan_b_body_eq_skeleton]; unfold cc3__scan_b_body_skel
    simp only [k3_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%d15, %f15, -, H15⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    obtain rfl := harg9.eq_unread hf9; obtain rfl := harg10.eq_unread hf10; obtain rfl := harg11.eq_unread hf11; obtain rfl := harg12.eq_unread hf12
    obtain rfl := harg14.eq_unread hf14
    sl_exec (disch := first | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]
    · iexists _; isplitr; · ipureintro; exact harg14.read_unread _
      iexact H14
    iexists _, _; isplitr; swap; · iexact H15
    ipureintro; rfl

end Cert.Proof.KI.ScanB

end
-- ==== Proof.ScanB.lean ====
/-
  The second TensorCore call (the scan over the steps 256..2047 in four chunks of 448, then the two-layer head and the
  log-softmax) as a region of the program: its proof data on a core — the windows' arrays as the region finds them, the
  carried state after each grid point, the result's staging contents —, the body obligation at every point (the side
  condition the body assumes of the one word it reads holds of every word), what the invariant is made of at entry and
  exit, and the region's result in the body's own functions.
-/
import proofs.«205923_g40089224741417_cont_sun_m_110_39_alg».proof.Proof.ScanBRuns
import proofs.«205923_g40089224741417_cont_sun_m_110_39_alg».proof.Proof.Chk
import Idealize.ShloMosaic.Lib.ValueIdx
import Idealize.ShloMosaic.Lib.Pipeline.Value

set_option maxRecDepth 16384

noncomputable section

namespace Cert.Proof.KI.ScanB

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 2) (Elt F) ℕ UU ℕ

/-! ## The grid's four points: which branch each takes, where the result's window is idle -/

/-- No pipeline of this program has a prefetched table. -/
abbrev adm : (p : Fin 2) → (pcfgs (F := F) p).Adm := fun p => (cfgs p).toPCfg_adm

/-- The first branch of the body: the carried state is taken from the first call's result. -/
abbrev cond1 (i : grid3.Coords) : Prop := (Scalar.cmpi .ne (Scalar.extui (Scalar.cmpi .eq (BitVec.ofNat 32 (i 0).val) 0#32)) 0#32) = 1#1
/-- It is taken at the first point only. -/
theorem hcond1 : ∀ t : Fin cfg3.N, cond1 (grid3.coords t) ↔ t.val = 0 :=
  (by decide +kernel : ∀ t : Fin grid3.N, cond1 (grid3.coords t) ↔ t.val = 0)
/-- The last branch of the body: the head is applied and the result stored. -/
abbrev cond3 (i : grid3.Coords) : Prop := k3_cond3 i = 1#1
/-- It is taken at the last point only. -/
theorem hcond3 : ∀ t : Fin cfg3.N, cond3 (grid3.coords t) ↔ t.val = 3 :=
  (by decide +kernel : ∀ t : Fin grid3.N, cond3 (grid3.coords t) ↔ t.val = 3)

/-- The result's window is never fetched; -/
theorem fetch12 : ∀ t : Fin cfg3.N, (cfg3.win 12).fetch t = false :=
  (by decide +kernel : ∀ t : Fin grid3.N, win3_12.fetch t = false)
/-- it is idle, and not written back, at every point but the last; -/
theorem idle12 : ∀ t : Fin cfg3.N, t.val ≠ 3 → cfg3.idle 12 (grid3.coords t) = true :=
  (by decide +kernel : ∀ t : Fin grid3.N, t.val ≠ 3 → idle3 12 (grid3.coords t) = true)
theorem noFlush12 : ∀ t : Fin cfg3.N, t.val ≠ 3 → (cfg3.win 12).flush t = false :=
  (by decide +kernel : ∀ t : Fin grid3.N, t.val ≠ 3 → win3_12.flush t = false)
/-- and live at the last. -/
theorem live12 : ∀ t : Fin cfg3.N, t.val = 3 → cfg3.idle 12 (grid3.coords t) = false :=
  (by decide +kernel : ∀ t : Fin grid3.N, t.val = 3 → idle3 12 (grid3.coords t) = false)

/-! ## The memrefs the body is called with -/

abbrev ms_0 (t : Fin cfg3.N) : Memref sig .tc .vmem S7168x128 .f32 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S128x128 .f32 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S128x128 .f32 := win3_2.stage (cfg3.slots t 2)
abbrev hs_2 (t : Fin cfg3.N) : (ms_2 t).IsWhole := hstage3_2 ((cfg3.slots t 2).cast nbuf3_2)
abbrev ms_3 (t : Fin cfg3.N) : Memref sig .tc .vmem S1x128 .f32 := win3_3.stage (cfg3.slots t 3)
abbrev hs_3 (t : Fin cfg3.N) : (ms_3 t).IsWhole := hstage3_3 ((cfg3.slots t 3).cast nbuf3_3)
abbrev ms_4 (t : Fin cfg3.N) : Memref sig .tc .vmem S1x128 .f32 := win3_4.stage (cfg3.slots t 4)
abbrev hs_4 (t : Fin cfg3.N) : (ms_4 t).IsWhole := hstage3_4 ((cfg3.slots t 4).cast nbuf3_4)
abbrev ms_5 (t : Fin cfg3.N) : Memref sig .tc .vmem S16x128 .i32 := win3_5.stage (cfg3.slots t 5)
abbrev hs_5 (t : Fin cfg3.N) : (ms_5 t).IsWhole := hstage3_5 ((cfg3.slots t 5).cast nbuf3_5)
abbrev ms_6 (t : Fin cfg3.N) : Memref sig .tc .smem S1 .i32 := win3_6.stage (cfg3.slots t 6)
abbrev hs_6 (t : Fin cfg3.N) : (ms_6 t).IsWhole := hstage3_6 ((cfg3.slots t 6).cast nbuf3_6)
abbrev ms_7 (t : Fin cfg3.N) : Memref sig .tc .vmem S16x128 .f32 := win3_7.stage (cfg3.slots t 7)
abbrev hs_7 (t : Fin cfg3.N) : (ms_7 t).IsWhole := hstage3_7 ((cfg3.slots t 7).cast nbuf3_7)
abbrev ms_8 (t : Fin cfg3.N) : Memref sig .tc .vmem S256x128 .f32 := win3_8.stage (cfg3.slots t 8)
abbrev hs_8 (t : Fin cfg3.N) : (ms_8 t).IsWhole := hstage3_8 ((cfg3.slots t 8).cast nbuf3_8)
abbrev ms_9 (t : Fin cfg3.N) : Memref sig .tc .vmem S1x256 .f32 := win3_9.stage (cfg3.slots t 9)
abbrev hs_9 (t : Fin cfg3.N) : (ms_9 t).IsWhole := hstage3_9 ((cfg3.slots t 9).cast nbuf3_9)
abbrev ms_10 (t : Fin cfg3.N) : Memref sig .tc .vmem S128x256 .f32 := win3_10.stage (cfg3.slots t 10)
abbrev hs_10 (t : Fin cfg3.N) : (ms_10 t).IsWhole := hstage3_10 ((cfg3.slots t 10).cast nbuf3_10)
abbrev ms_11 (t : Fin cfg3.N) : Memref sig .tc .vmem S1x128 .f32 := win3_11.stage (cfg3.slots t 11)
abbrev hs_11 (t : Fin cfg3.N) : (ms_11 t).IsWhole := hstage3_11 ((cfg3.slots t 11).cast nbuf3_11)
abbrev ms_12 (t : Fin cfg3.N) : Memref sig .tc .vmem S16x3 .f32 := win3_12.stage (cfg3.slots t 12)
abbrev hs_12 (t : Fin cfg3.N) : (ms_12 t).IsWhole := hstage3_12 ((cfg3.slots t 12).cast nbuf3_12)
/-- The two scratch operands: the carried state and the chunk's projected inputs. -/
abbrev scM0 : Memref sig .tc .vmem S16x128 .f32 := Memref.whole cc3_scratch0
abbrev scM1 : Memref sig .tc .vmem S7168x128 .f32 := Memref.whole cc3_scratch1
/-- The views through which the carried state's and the result's contents are stated. -/
abbrev VS0 : View sig .tc .vmem S16x128 .f32 := scM0.view
abbrev VO : View sig .tc .vmem S16x3 .f32 := (Memref.whole cc3_stg12_0 : Memref sig .tc .vmem S16x3 .f32).view

/-! ## The cases' stores cover what they are read through -/

/-- Case A's stores into the carried state's scratch cover it. -/
theorem cover_A_S0 (c : Dev nD) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole)
    (hc1 : (Scalar.cmpi .ne (Scalar.extui (Scalar.cmpi .eq (BitVec.ofNat 32 (i 0).val) 0#32)) 0#32) = 1#1) (hc3 : ¬k3_cond3 i = 1#1)
    (x1 : Vec F S7168x128 .f32) (x2 : Vec F S128x128 .f32) (x3 : Vec F S128x128 .f32) (x4 : Vec F S1x128 .f32) (x5 : Vec F S1x128 .f32) (x6 : Vec F S16x128 .i32) (x7 : Vec F S1 .i32) (x8 : Vec F S16x128 .f32) (x9 : Vec F S256x128 .f32) (x10 : Vec F S1x256 .f32) (x11 : Vec F S128x256 .f32) (x12 : Vec F S1x128 .f32)
    (hc2 : k3_cond2 i (arg7.view.readAt (Elt F) (Rect.unit (s := S1) ![0] S1.size inb_S1_S1_0).toLoadRect (harg7.unread x7) (Shape.Idx.first (numel1_S1.symm ▸ Nat.one_pos))) = 1#1) (hw : k3_chk1 i (arg7.view.readAt (Elt F) (Rect.unit (s := S1) ![0] S1.size inb_S1_S1_0).toLoadRect (harg7.unread x7) (Shape.Idx.first (numel1_S1.symm ▸ Nat.one_pos))) (arg7.view.readAt (Elt F) (Rect.unit (s := S1) ![0] S1.size inb_S1_S1_0).toLoadRect (harg7.unread x7) (Shape.Idx.first (numel1_S1.symm ▸ Nat.one_pos)))) (y : S16x128.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc3 x1 x2 x3 x4 x5 x6 x7 x8 x9 x10 x11 x12 hc2 hw).1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc3 x1 x2 x3 x4 x5 x6 x7 x8 x9 x10 x11 x12 hc2 hw).1 S16x128.size (by sl_kernel_rfl) y

/-- Case B's stores into the carried state's scratch cover it. -/
theorem cover_B_S0 (c : Dev nD) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole)
    (hc1 : (Scalar.cmpi .ne (Scalar.extui (Scalar.cmpi .eq (BitVec.ofNat 32 (i 0).val) 0#32)) 0#32) = 1#1) (hc3 : ¬k3_cond3 i = 1#1)
    (x1 : Vec F S7168x128 .f32) (x2 : Vec F S128x128 .f32) (x3 : Vec F S128x128 .f32) (x4 : Vec F S1x128 .f32) (x5 : Vec F S1x128 .f32) (x6 : Vec F S16x128 .i32) (x7 : Vec F S1 .i32) (x8 : Vec F S16x128 .f32) (x9 : Vec F S256x128 .f32) (x10 : Vec F S1x256 .f32) (x11 : Vec F S128x256 .f32) (x12 : Vec F S1x128 .f32)
    (hc2 : ¬k3_cond2 i (arg7.view.readAt (Elt F) (Rect.unit (s := S1) ![0] S1.size inb_S1_S1_0).toLoadRect (harg7.unread x7) (Shape.Idx.first (numel1_S1.symm ▸ Nat.one_pos))) = 1#1) (y : S16x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc3 x1 x2 x3 x4 x5 x6 x7 x8 x9 x10 x11 x12 hc2).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc3 x1 x2 x3 x4 x5 x6 x7 x8 x9 x10 x11 x12 hc2).1 S16x128.size (by sl_kernel_rfl) y

/-- Case C's stores into the carried state's scratch cover it. -/
theorem cover_C_S0 (c : Dev nD) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole)
    (hc1 : ¬(Scalar.cmpi .ne (Scalar.extui (Scalar.cmpi .eq (BitVec.ofNat 32 (i 0).val) 0#32)) 0#32) = 1#1) (hc3 : ¬k3_cond3 i = 1#1)
    (x1 : Vec F S7168x128 .f32) (x2 : Vec F S128x128 .f32) (x3 : Vec F S128x128 .f32) (x4 : Vec F S1x128 .f32) (x5 : Vec F S1x128 .f32) (x6 : Vec F S16x128 .i32) (x7 : Vec F S1 .i32) (x8 : Vec F S16x128 .f32) (x9 : Vec F S256x128 .f32) (x10 : Vec F S1x256 .f32) (x11 : Vec F S128x256 .f32) (x12 : Vec F S1x128 .f32) (xs0 : Vec F S16x128 .f32)
    (hc2 : k3_cond2 i (arg7.view.readAt (Elt F) (Rect.unit (s := S1) ![0] S1.size inb_S1_S1_0).toLoadRect (harg7.unread x7) (Shape.Idx.first (numel1_S1.symm ▸ Nat.one_pos))) = 1#1) (hw : k3_chk1 i (arg7.view.readAt (Elt F) (Rect.unit (s := S1) ![0] S1.size inb_S1_S1_0).toLoadRect (harg7.unread x7) (Shape.Idx.first (numel1_S1.symm ▸ Nat.one_pos))) (arg7.view.readAt (Elt F) (Rect.unit (s := S1) ![0] S1.size inb_S1_S1_0).toLoadRect (harg7.unread x7) (Shape.Idx.first (numel1_S1.symm ▸ Nat.one_pos)))) (y : S16x128.Idx) :
    ∃ pc ∈ (kernelRun_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc3 x1 x2 x3 x4 x5 x6 x7 x8 x9 x10 x11 x12 xs0 hc2 hw).1, y ∈ pc.1.set :=
  View.cover_of_tiledL (kernelRun_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc3 x1 x2 x3 x4 x5 x6 x7 x8 x9 x10 x11 x12 xs0 hc2 hw).1 S16x128.size (by sl_kernel_rfl) y

/-- Case E's stores into the carried state's scratch cover it. -/
theorem cover_E_S0 (c : Dev nD) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole)
    (hc1 : ¬(Scalar.cmpi .ne (Scalar.extui (Scalar.cmpi .eq (BitVec.ofNat 32 (i 0).val) 0#32)) 0#32) = 1#1) (hc3 : k3_cond3 i = 1#1)
    (x1 : Vec F S7168x128 .f32) (x2 : Vec F S128x128 .f32) (x3 : Vec F S128x128 .f32) (x4 : Vec F S1x128 .f32) (x5 : Vec F S1x128 .f32) (x6 : Vec F S16x128 .i32) (x7 : Vec F S1 .i32) (x8 : Vec F S16x128 .f32) (x9 : Vec F S256x128 .f32) (x10 : Vec F S1x256 .f32) (x11 : Vec F S128x256 .f32) (x12 : Vec F S1x128 .f32) (xs0 : Vec F S16x128 .f32)
    (hc2 : k3_cond2 i (arg7.view.readAt (Elt F) (Rect.unit (s := S1) ![0] S1.size inb_S1_S1_0).toLoadRect (harg7.unread x7) (Shape.Idx.first (numel1_S1.symm ▸ Nat.one_pos))) = 1#1) (hw : k3_chk1 i (arg7.view.readAt (Elt F) (Rect.unit (s := S1) ![0] S1.size inb_S1_S1_0).toLoadRect (harg7.unread x7) (Shape.Idx.first (numel1_S1.symm ▸ Nat.one_pos))) (arg7.view.readAt (Elt F) (Rect.unit (s := S1) ![0] S1.size inb_S1_S1_0).toLoadRect (harg7.unread x7) (Shape.Idx.first (numel1_S1.symm ▸ Nat.one_pos)))) (y : S16x128.Idx) :
    ∃ pc ∈ (kernelRun_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc3 x1 x2 x3 x4 x5 x6 x7 x8 x9 x10 x11 x12 xs0 hc2 hw).2.1, y ∈ pc.1.set :=
  View.cover_of_tiledL (kernelRun_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc3 x1 x2 x3 x4 x5 x6 x7 x8 x9 x10 x11 x12 xs0 hc2 hw).2.1 S16x128.size (by sl_kernel_rfl) y

/-- Case E's store into the result's staging buffer covers it. -/
theorem cover_E_O (c : Dev nD) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole)
    (hc1 : ¬(Scalar.cmpi .ne (Scalar.extui (Scalar.cmpi .eq (BitVec.ofNat 32 (i 0).val) 0#32)) 0#32) = 1#1) (hc3 : k3_cond3 i = 1#1)
    (x1 : Vec F S7168x128 .f32) (x2 : Vec F S128x128 .f32) (x3 : Vec F S128x128 .f32) (x4 : Vec F S1x128 .f32) (x5 : Vec F S1x128 .f32) (x6 : Vec F S16x128 .i32) (x7 : Vec F S1 .i32) (x8 : Vec F S16x128 .f32) (x9 : Vec F S256x128 .f32) (x10 : Vec F S1x256 .f32) (x11 : Vec F S128x256 .f32) (x12 : Vec F S1x128 .f32) (xs0 : Vec F S16x128 .f32)
    (hc2 : k3_cond2 i (arg7.view.readAt (Elt F) (Rect.unit (s := S1) ![0] S1.size inb_S1_S1_0).toLoadRect (harg7.unread x7) (Shape.Idx.first (numel1_S1.symm ▸ Nat.one_pos))) = 1#1) (hw : k3_chk1 i (arg7.view.readAt (Elt F) (Rect.unit (s := S1) ![0] S1.size inb_S1_S1_0).toLoadRect (harg7.unread x7) (Shape.Idx.first (numel1_S1.symm ▸ Nat.one_pos))) (arg7.view.readAt (Elt F) (Rect.unit (s := S1) ![0] S1.size inb_S1_S1_0).toLoadRect (harg7.unread x7) (Shape.Idx.first (numel1_S1.symm ▸ Nat.one_pos)))) (y : S16x3.Idx) :
    ∃ pc ∈ (kernelRun_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc3 x1 x2 x3 x4 x5 x6 x7 x8 x9 x10 x11 x12 xs0 hc2 hw).1, y ∈ pc.1.set :=
  View.cover_of_tiledL (kernelRun_E c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc3 x1 x2 x3 x4 x5 x6 x7 x8 x9 x10 x11 x12 xs0 hc2 hw).1 S16x3.size (by sl_kernel_rfl) y

/-- Case G's store into the result's staging buffer covers it. -/
theorem cover_G_O (c : Dev nD) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole)
    (hc1 : ¬(Scalar.cmpi .ne (Scalar.extui (Scalar.cmpi .eq (BitVec.ofNat 32 (i 0).val) 0#32)) 0#32) = 1#1) (hc3 : k3_cond3 i = 1#1)
    (x1 : Vec F S7168x128 .f32) (x2 : Vec F S128x128 .f32) (x3 : Vec F S128x128 .f32) (x4 : Vec F S1x128 .f32) (x5 : Vec F S1x128 .f32) (x6 : Vec F S16x128 .i32) (x7 : Vec F S1 .i32) (x8 : Vec F S16x128 .f32) (x9 : Vec F S256x128 .f32) (x10 : Vec F S1x256 .f32) (x11 : Vec F S128x256 .f32) (x12 : Vec F S1x128 .f32) (xs0 : Vec F S16x128 .f32)
    (hc2 : ¬k3_cond2 i (arg7.view.readAt (Elt F) (Rect.unit (s := S1) ![0] S1.size inb_S1_S1_0).toLoadRect (harg7.unread x7) (Shape.Idx.first (numel1_S1.symm ▸ Nat.one_pos))) = 1#1) (y : S16x3.Idx) :
    ∃ pc ∈ (kernelRun_G c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc3 x1 x2 x3 x4 x5 x6 x7 x8 x9 x10 x11 x12 xs0 hc2).1, y ∈ pc.1.set :=
  View.cover_of_tiledL (kernelRun_G c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc3 x1 x2 x3 x4 x5 x6 x7 x8 x9 x10 x11 x12 xs0 hc2).1 S16x3.size (by sl_kernel_rfl) y

/-! ## The region's data on one core -/

section Data

variable (c : Dev nD) (Vv : (b : Ref sig .tc) → Buf (Elt F) ((c.tc : Thread nD τ).loc b))

/-- Window `w`'s block at point `t`, read off its array as the region finds it. -/
def iblk (w : Fin cfg3.W) (t : Fin cfg3.N) : ((cfg3.win w).xblock (cfg3.grid.coords t)).Idx → Elt F (cfg3.win w).elt :=
  ((cfg3.win w).blk t).view.read (Elt F) (Vv (Pipeline.arrRef spec3 w))

/-- The first active step, as the body reads it from its one-word window at point `t`. -/
abbrev wordAt (t : Fin cfg3.N) : Elt F .i32 :=
  (ms_6 t).view.readAt (Elt F) (Rect.unit (s := S1) ![0] S1.size inb_S1_S1_0).toLoadRect ((hs_6 t).unread (iblk c Vv 6 t)) (Shape.Idx.first (numel1_S1.symm ▸ Nat.one_pos))

/-- The chunk of point `t` is run: the first active step lies before the chunk's end. -/
abbrev cond2 (t : Fin cfg3.N) : Prop := k3_cond2 (grid3.coords t) (wordAt c Vv t) = 1#1
/-- The side condition the body assumes of that word at point `t`. -/
abbrev chk (t : Fin cfg3.N) : Prop := k3_chk1 (grid3.coords t) (wordAt c Vv t) (wordAt c Vv t)

/-- The side condition holds of every word. -/
theorem hwAt (t : Fin cfg3.N) : chk c Vv t := Chk.k3_chk1_all _ _ _

/-- THE CARRIED STATE after the body at point `t`, from what the scratch held before it: at the first point the first
    call's result takes the place of what it held; a chunk that is run leaves the state its loops computed, one that is
    skipped leaves the state as it was. -/
def hStep (t : Fin cfg3.N) (hprev : Vec F S16x128 .f32) : Vec F S16x128 .f32 :=
  if h2 : cond2 c Vv t then
    if h0 : t.val = 0 then VS0.read (Elt F) (VS0.writes (Elt F) VS0.junk (kernelRun_A c (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) ((hcond1 t).mpr h0) (fun h => absurd ((hcond3 t).mp h) (by omega)) (iblk c Vv 0 t) (iblk c Vv 1 t) (iblk c Vv 2 t) (iblk c Vv 3 t) (iblk c Vv 4 t) (iblk c Vv 5 t) (iblk c Vv 6 t) (iblk c Vv 7 t) (iblk c Vv 8 t) (iblk c Vv 9 t) (iblk c Vv 10 t) (iblk c Vv 11 t) h2 (hwAt c Vv t)).1)
    else if h3 : t.val = 3 then VS0.read (Elt F) (VS0.writes (Elt F) VS0.junk (kernelRun_E c (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) (fun h => absurd ((hcond1 t).mp h) (by omega)) ((hcond3 t).mpr h3) (iblk c Vv 0 t) (iblk c Vv 1 t) (iblk c Vv 2 t) (iblk c Vv 3 t) (iblk c Vv 4 t) (iblk c Vv 5 t) (iblk c Vv 6 t) (iblk c Vv 7 t) (iblk c Vv 8 t) (iblk c Vv 9 t) (iblk c Vv 10 t) (iblk c Vv 11 t) hprev h2 (hwAt c Vv t)).2.1)
    else VS0.read (Elt F) (VS0.writes (Elt F) VS0.junk (kernelRun_C c (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) (fun h => h0 ((hcond1 t).mp h)) (fun h => h3 ((hcond3 t).mp h)) (iblk c Vv 0 t) (iblk c Vv 1 t) (iblk c Vv 2 t) (iblk c Vv 3 t) (iblk c Vv 4 t) (iblk c Vv 5 t) (iblk c Vv 6 t) (iblk c Vv 7 t) (iblk c Vv 8 t) (iblk c Vv 9 t) (iblk c Vv 10 t) (iblk c Vv 11 t) hprev h2 (hwAt c Vv t)).1)
  else
    if h0 : t.val = 0 then VS0.read (Elt F) (VS0.writes (Elt F) VS0.junk (kernelRun_B c (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) ((hcond1 t).mpr h0) (fun h => absurd ((hcond3 t).mp h) (by omega)) (iblk c Vv 0 t) (iblk c Vv 1 t) (iblk c Vv 2 t) (iblk c Vv 3 t) (iblk c Vv 4 t) (iblk c Vv 5 t) (iblk c Vv 6 t) (iblk c Vv 7 t) (iblk c Vv 8 t) (iblk c Vv 9 t) (iblk c Vv 10 t) (iblk c Vv 11 t) h2).1)
    else hprev

/-- What the result's staging buffer holds after the body at point `t`: at the last point the head of the state; at the
    others an arbitrary value nothing consults (the window is idle there and not written back). -/
def outAt (t : Fin cfg3.N) (hprev : Vec F S16x128 .f32) : Vec F S16x3 .f32 :=
  if h3 : t.val = 3 then
    if h2 : cond2 c Vv t then VO.read (Elt F) (VO.writes (Elt F) VO.junk (kernelRun_E c (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) (fun h => absurd ((hcond1 t).mp h) (by omega)) ((hcond3 t).mpr h3) (iblk c Vv 0 t) (iblk c Vv 1 t) (iblk c Vv 2 t) (iblk c Vv 3 t) (iblk c Vv 4 t) (iblk c Vv 5 t) (iblk c Vv 6 t) (iblk c Vv 7 t) (iblk c Vv 8 t) (iblk c Vv 9 t) (iblk c Vv 10 t) (iblk c Vv 11 t) hprev h2 (hwAt c Vv t)).1)
    else VO.read (Elt F) (VO.writes (Elt F) VO.junk (kernelRun_G c (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) (fun h => absurd ((hcond1 t).mp h) (by omega)) ((hcond3 t).mpr h3) (iblk c Vv 0 t) (iblk c Vv 1 t) (iblk c Vv 2 t) (iblk c Vv 3 t) (iblk c Vv 4 t) (iblk c Vv 5 t) (iblk c Vv 6 t) (iblk c Vv 7 t) (iblk c Vv 8 t) (iblk c Vv 9 t) (iblk c Vv 10 t) (iblk c Vv 11 t) hprev h2).1)
  else VO.read (Elt F) VO.junk

/-- The carried state after `n` points (before any: an arbitrary value, the scratch then holds anything). -/
def hAt : (n : ℕ) → n ≤ cfg3.N → Vec F S16x128 .f32
  | 0, _ => VS0.read (Elt F) VS0.junk
  | n + 1, hn => hStep c Vv ⟨n, hn⟩ (hAt n (Nat.le_of_lt hn))

/-- THE INVARIANT between points: the scoped buffers that are no staging buffer of this call, each at some contents,
    but the carried state's scratch, which after the first point holds the state the points so far computed. -/
def PhiS : (n : ℕ) → n ≤ cfg3.N → sProp 𝕄
  | 0, _ => iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ d, owns (c : Thread nD τ) scM0 fullShare d) ∗ (∃ d, owns (c : Thread nD τ) scM1 fullShare d) ∗ (∃ f : Buf (Elt F) ((c : Thread nD τ).loc cc2_stg6_0), ((c : Thread nD τ).loc cc2_stg6_0) ↦{fullShare} f))
  | n + 1, hn => iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ owns (c : Thread nD τ) scM0 fullShare (hAt c Vv (n + 1) hn) ∗ (∃ d, owns (c : Thread nD τ) scM1 fullShare d) ∗ (∃ f : Buf (Elt F) ((c : Thread nD τ).loc cc2_stg6_0), ((c : Thread nD τ).loc cc2_stg6_0) ↦{fullShare} f))

theorem PhiS_zero (n : ℕ) (h : n ≤ cfg3.N) (hz : n = 0) :
    PhiS c Vv n h = iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ d, owns (c : Thread nD τ) scM0 fullShare d) ∗ (∃ d, owns (c : Thread nD τ) scM1 fullShare d) ∗ (∃ f : Buf (Elt F) ((c : Thread nD τ).loc cc2_stg6_0), ((c : Thread nD τ).loc cc2_stg6_0) ↦{fullShare} f)) := by
  subst hz; rfl

theorem PhiS_succ (n : ℕ) (hn : n < cfg3.N) :
    PhiS c Vv (n + 1) hn = iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ owns (c : Thread nD τ) scM0 fullShare (hStep c Vv ⟨n, hn⟩ (hAt c Vv n (Nat.le_of_lt hn))) ∗ (∃ d, owns (c : Thread nD τ) scM1 fullShare d) ∗ (∃ f : Buf (Elt F) ((c : Thread nD τ).loc cc2_stg6_0), ((c : Thread nD τ).loc cc2_stg6_0) ↦{fullShare} f)) := rfl

theorem PhiS_pos (n : ℕ) (h : n ≤ cfg3.N) (hz : n ≠ 0) :
    PhiS c Vv n h = iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ owns (c : Thread nD τ) scM0 fullShare (hAt c Vv n h) ∗ (∃ d, owns (c : Thread nD τ) scM1 fullShare d) ∗ (∃ f : Buf (Elt F) ((c : Thread nD τ).loc cc2_stg6_0), ((c : Thread nD τ).loc cc2_stg6_0) ↦{fullShare} f)) := by
  cases n with
  | zero => exact absurd rfl hz
  | succ n => rfl

/-- THE PROOF DATA of the second call on core `c`: the arrays as the region finds them; after the body each input's buffer
    at its block, the result's at `outAt`; the invariant `PhiS`; nothing owed; full shares; the recorded wait pairs those
    at or below the TensorCore's level. -/
def datK : Dat τ (Elt F) (HIx 2) ℕ UU ℕ cfg3 c where
  A w := Vv (Pipeline.arrRef spec3 w)
  after w t := match w with
    | ⟨0, _⟩ => iblk c Vv 0 t
    | ⟨1, _⟩ => iblk c Vv 1 t
    | ⟨2, _⟩ => iblk c Vv 2 t
    | ⟨3, _⟩ => iblk c Vv 3 t
    | ⟨4, _⟩ => iblk c Vv 4 t
    | ⟨5, _⟩ => iblk c Vv 5 t
    | ⟨6, _⟩ => iblk c Vv 6 t
    | ⟨7, _⟩ => iblk c Vv 7 t
    | ⟨8, _⟩ => iblk c Vv 8 t
    | ⟨9, _⟩ => iblk c Vv 9 t
    | ⟨10, _⟩ => iblk c Vv 10 t
    | ⟨11, _⟩ => iblk c Vv 11 t
    | ⟨12, _⟩ => outAt c Vv t (hAt c Vv t.val (Nat.le_of_lt t.isLt))
  Φ t := PhiS c Vv t.val (Nat.le_of_lt_succ t.isLt)
  q _ := fullShare
  owed _ := 0
  recorded _ := {p | (K (F := F)).lev ((c.tc : Thread nD τ), p.1) p.2 ≤ 16}

/-- The same at the pinned configuration the several-region launch states its regions over. -/
abbrev datK' : Dat τ (Elt F) (HIx 2) ℕ UU ℕ (Pipeline.pin (pcfgs (F := F)) adm 1) c := datK c Vv

theorem A_eq (w : Fin cfg3.W) : (datK c Vv).A w = Vv (Pipeline.arrRef spec3 w) := by dsimp only [datK]

theorem PhiS_castSucc (t : Fin cfg3.N) : (datK c Vv).Φ t.castSucc = PhiS c Vv t.val (Nat.le_of_lt t.isLt) := by
  dsimp only [datK]; simp only [Fin.coe_castSucc]

theorem after_0 (t : Fin cfg3.N) : (datK c Vv).after 0 t = iblk c Vv 0 t := by dsimp only [datK]
theorem after_1 (t : Fin cfg3.N) : (datK c Vv).after 1 t = iblk c Vv 1 t := by dsimp only [datK]
theorem after_2 (t : Fin cfg3.N) : (datK c Vv).after 2 t = iblk c Vv 2 t := by dsimp only [datK]
theorem after_3 (t : Fin cfg3.N) : (datK c Vv).after 3 t = iblk c Vv 3 t := by dsimp only [datK]
theorem after_4 (t : Fin cfg3.N) : (datK c Vv).after 4 t = iblk c Vv 4 t := by dsimp only [datK]
theorem after_5 (t : Fin cfg3.N) : (datK c Vv).after 5 t = iblk c Vv 5 t := by dsimp only [datK]
theorem after_6 (t : Fin cfg3.N) : (datK c Vv).after 6 t = iblk c Vv 6 t := by dsimp only [datK]
theorem after_7 (t : Fin cfg3.N) : (datK c Vv).after 7 t = iblk c Vv 7 t := by dsimp only [datK]
theorem after_8 (t : Fin cfg3.N) : (datK c Vv).after 8 t = iblk c Vv 8 t := by dsimp only [datK]
theorem after_9 (t : Fin cfg3.N) : (datK c Vv).after 9 t = iblk c Vv 9 t := by dsimp only [datK]
theorem after_10 (t : Fin cfg3.N) : (datK c Vv).after 10 t = iblk c Vv 10 t := by dsimp only [datK]
theorem after_11 (t : Fin cfg3.N) : (datK c Vv).after 11 t = iblk c Vv 11 t := by dsimp only [datK]
theorem after_12 (t : Fin cfg3.N) : (datK c Vv).after 12 t = outAt c Vv t (hAt c Vv t.val (Nat.le_of_lt t.isLt)) := by dsimp only [datK]

/-- Each input's current staging buffer holds its block at every point, fetched there or not. -/
theorem before_0 (t : Fin cfg3.N) (d) : (datK c Vv).before 0 t d = iblk c Vv 0 t :=
  ((datK c Vv).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg3.N) (d) : (datK c Vv).before 1 t d = iblk c Vv 1 t :=
  ((datK c Vv).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg3.N) (d) : (datK c Vv).before 2 t d = iblk c Vv 2 t :=
  ((datK c Vv).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (t : Fin cfg3.N) (d) : (datK c Vv).before 3 t d = iblk c Vv 3 t :=
  ((datK c Vv).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (t : Fin cfg3.N) (d) : (datK c Vv).before 4 t d = iblk c Vv 4 t :=
  ((datK c Vv).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (t : Fin cfg3.N) (d) : (datK c Vv).before 5 t d = iblk c Vv 5 t :=
  ((datK c Vv).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (t : Fin cfg3.N) (d) : (datK c Vv).before 6 t d = iblk c Vv 6 t :=
  ((datK c Vv).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (t : Fin cfg3.N) (d) : (datK c Vv).before 7 t d = iblk c Vv 7 t :=
  ((datK c Vv).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (t : Fin cfg3.N) (d) : (datK c Vv).before 8 t d = iblk c Vv 8 t :=
  ((datK c Vv).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (t : Fin cfg3.N) (d) : (datK c Vv).before 9 t d = iblk c Vv 9 t :=
  ((datK c Vv).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (t : Fin cfg3.N) (d) : (datK c Vv).before 10 t d = iblk c Vv 10 t :=
  ((datK c Vv).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (t : Fin cfg3.N) (d) : (datK c Vv).before 11 t d = iblk c Vv 11 t :=
  ((datK c Vv).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)

/-- The result's staging buffer is handed to the body as the point before left it: nothing fetches it, and up to the last
    point nothing writes it back and the body leaves it alone. -/
theorem before_12 : ∀ (n : ℕ) (t : Fin cfg3.N), t.val = n → ∀ d, (datK c Vv).before 12 t d = d := by
  intro n
  induction n with
  | zero =>
    intro t ht d
    unfold Dat.before
    rw [if_neg (by rw [fetch12 t]; exact Bool.false_ne_true), if_pos ht]
  | succ n ih =>
    intro t ht d
    have hN : t.val < 4 := lt_of_lt_of_eq t.isLt N_3
    rw [Dat.before_of_pos _ 12 t (by omega) (fetch12 t) d]
    rw [if_neg (by rw [noFlush12 ⟨t.val - 1, Nat.lt_of_le_of_lt (Nat.sub_le _ _) t.isLt⟩ (by show t.val - 1 ≠ 3; omega)]; exact Bool.false_ne_true)]
    have hi := idle12 ⟨t.val - 1, Nat.lt_of_le_of_lt (Nat.sub_le _ _) t.isLt⟩ (by show t.val - 1 ≠ 3; omega)
    unfold Dat.left
    split
    · exact ih ⟨t.val - 1, Nat.lt_of_le_of_lt (Nat.sub_le _ _) t.isLt⟩ (by show t.val - 1 = n; omega) d
    · rename_i hfalse
      exact absurd (hi.symm.trans hfalse) (by decide)

/-! ## The body obligation -/

/-- What the body is called with at point `t`, the windows one by one, -/
def bodyPre (t : Fin cfg3.N) : sProp 𝕄 :=
  iprop((datK c Vv).Φ t.castSucc ∗ (datK c Vv).owesAt none t.castSucc
    ∗ (∃ d, owns (c : Thread nD τ) (ms_0 t) fullShare ((datK c Vv).before 0 t d))
    ∗ (∃ d, owns (c : Thread nD τ) (ms_1 t) fullShare ((datK c Vv).before 1 t d))
    ∗ (∃ d, owns (c : Thread nD τ) (ms_2 t) fullShare ((datK c Vv).before 2 t d))
    ∗ (∃ d, owns (c : Thread nD τ) (ms_3 t) fullShare ((datK c Vv).before 3 t d))
    ∗ (∃ d, owns (c : Thread nD τ) (ms_4 t) fullShare ((datK c Vv).before 4 t d))
    ∗ (∃ d, owns (c : Thread nD τ) (ms_5 t) fullShare ((datK c Vv).before 5 t d))
    ∗ (∃ d, owns (c : Thread nD τ) (ms_6 t) fullShare ((datK c Vv).before 6 t d))
    ∗ (∃ d, owns (c : Thread nD τ) (ms_7 t) fullShare ((datK c Vv).before 7 t d))
    ∗ (∃ d, owns (c : Thread nD τ) (ms_8 t) fullShare ((datK c Vv).before 8 t d))
    ∗ (∃ d, owns (c : Thread nD τ) (ms_9 t) fullShare ((datK c Vv).before 9 t d))
    ∗ (∃ d, owns (c : Thread nD τ) (ms_10 t) fullShare ((datK c Vv).before 10 t d))
    ∗ (∃ d, owns (c : Thread nD τ) (ms_11 t) fullShare ((datK c Vv).before 11 t d))
    ∗ (∃ d, owns (c : Thread nD τ) (ms_12 t) fullShare ((datK c Vv).before 12 t d)))

/-- and what it returns. -/
def bodyPost (t : Fin cfg3.N) : sProp 𝕄 :=
  iprop((datK c Vv).Φ t.succ ∗ (datK c Vv).owesAt none t.succ
    ∗ (datK c Vv).leavesExact 0 t
    ∗ (datK c Vv).leavesExact 1 t
    ∗ (datK c Vv).leavesExact 2 t
    ∗ (datK c Vv).leavesExact 3 t
    ∗ (datK c Vv).leavesExact 4 t
    ∗ (datK c Vv).leavesExact 5 t
    ∗ (datK c Vv).leavesExact 6 t
    ∗ (datK c Vv).leavesExact 7 t
    ∗ (datK c Vv).leavesExact 8 t
    ∗ (datK c Vv).leavesExact 9 t
    ∗ (datK c Vv).leavesExact 10 t
    ∗ (datK c Vv).leavesExact 11 t
    ∗ (datK c Vv).leavesExact 12 t)

theorem PhiS_succ_t (t : Fin cfg3.N) :
    PhiS c Vv (t.val + 1) t.isLt = iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ owns (c : Thread nD τ) scM0 fullShare (hStep c Vv t (hAt c Vv t.val (Nat.le_of_lt t.isLt))) ∗ (∃ d, owns (c : Thread nD τ) scM1 fullShare d) ∗ (∃ f : Buf (Elt F) ((c : Thread nD τ).loc cc2_stg6_0), ((c : Thread nD τ).loc cc2_stg6_0) ↦{fullShare} f)) := rfl

set_option maxHeartbeats 8000000 in
/-- The body at any point: the inputs' memrefs hold their blocks; the point's
    number and the word say which case it is in; that case's triple applies; the carried state's scratch goes in at what
    the points before left (at anything at the first point) and comes back at this point's state. -/
theorem sound_body (t : Fin cfg3.N) :
    bodyPre c Vv t ⊢ wp frame (wpE (defs₀ (F := F)) 𝒱₀ (c : Thread nD τ) none) Set.univ (bodyAt3 t) (fun _ => bodyPost c Vv t) := by
  unfold bodyPre bodyPost bodyAt3
  simp only [before_0, before_1, before_2, before_3, before_4, before_5, before_6, before_7, before_8, before_9, before_10, before_11]
  rw [show (datK c Vv).owesAt none t.succ = (datK c Vv).owesAt none t.castSucc from rfl]
  rw [show (datK c Vv).Φ t.succ = PhiS c Vv (t.val + 1) t.isLt from rfl, PhiS_succ_t]
  rw [show (datK c Vv).leavesExact 0 t = owns (c : Thread nD τ) (ms_0 t) fullShare ((datK c Vv).after 0 t) from by
    unfold Dat.leavesExact; rfl, after_0]
  rw [show (datK c Vv).leavesExact 1 t = owns (c : Thread nD τ) (ms_1 t) fullShare ((datK c Vv).after 1 t) from by
    unfold Dat.leavesExact; rfl, after_1]
  rw [show (datK c Vv).leavesExact 2 t = owns (c : Thread nD τ) (ms_2 t) fullShare ((datK c Vv).after 2 t) from by
    unfold Dat.leavesExact; rfl, after_2]
  rw [show (datK c Vv).leavesExact 3 t = owns (c : Thread nD τ) (ms_3 t) fullShare ((datK c Vv).after 3 t) from by
    unfold Dat.leavesExact; rfl, after_3]
  rw [show (datK c Vv).leavesExact 4 t = owns (c : Thread nD τ) (ms_4 t) fullShare ((datK c Vv).after 4 t) from by
    unfold Dat.leavesExact; rfl, after_4]
  rw [show (datK c Vv).leavesExact 5 t = owns (c : Thread nD τ) (ms_5 t) fullShare ((datK c Vv).after 5 t) from by
    unfold Dat.leavesExact; rfl, after_5]
  rw [show (datK c Vv).leavesExact 6 t = owns (c : Thread nD τ) (ms_6 t) fullShare ((datK c Vv).after 6 t) from by
    unfold Dat.leavesExact; rfl, after_6]
  rw [show (datK c Vv).leavesExact 7 t = owns (c : Thread nD τ) (ms_7 t) fullShare ((datK c Vv).after 7 t) from by
    unfold Dat.leavesExact; rfl, after_7]
  rw [show (datK c Vv).leavesExact 8 t = owns (c : Thread nD τ) (ms_8 t) fullShare ((datK c Vv).after 8 t) from by
    unfold Dat.leavesExact; rfl, after_8]
  rw [show (datK c Vv).leavesExact 9 t = owns (c : Thread nD τ) (ms_9 t) fullShare ((datK c Vv).after 9 t) from by
    unfold Dat.leavesExact; rfl, after_9]
  rw [show (datK c Vv).leavesExact 10 t = owns (c : Thread nD τ) (ms_10 t) fullShare ((datK c Vv).after 10 t) from by
    unfold Dat.leavesExact; rfl, after_10]
  rw [show (datK c Vv).leavesExact 11 t = owns (c : Thread nD τ) (ms_11 t) fullShare ((datK c Vv).after 11 t) from by
    unfold Dat.leavesExact; rfl, after_11]
  have hN : t.val < 4 := lt_of_lt_of_eq t.isLt N_3
  by_cases h2 : cond2 c Vv t
  · by_cases h0 : t.val = 0
    · rw [Dat.leavesExact_idle (datK c Vv) 12 t (idle12 t (by omega)) (noFlush12 t (by omega))]
      simp only [before_12 c Vv t.val t rfl]
      unfold hStep; rw [dif_pos h2, dif_pos h0]
      rw [PhiS_castSucc, PhiS_zero c Vv _ _ h0]
      iintro ⟨⟨R1, R2, R3, R4, R5, R6, R7, R8, R9, ⟨%ds0, HS0⟩, ⟨%ds1, HS1⟩, R12⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun_A c (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) ((hcond1 t).mpr h0) (fun h => absurd ((hcond3 t).mp h) (by omega)) (iblk c Vv 0 t) (iblk c Vv 1 t) (iblk c Vv 2 t) (iblk c Vv 3 t) (iblk c Vv 4 t) (iblk c Vv 5 t) (iblk c Vv 6 t) (iblk c Vv 7 t) (iblk c Vv 8 t) (iblk c Vv 9 t) (iblk c Vv 10 t) (iblk c Vv 11 t) h2 (hwAt c Vv t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexists _; iexact HS0
      isplitl [HS1]; · iexists _; iexact HS1
      iintro ⟨H0, H1, H2, H3, H4, H5, H6, H7, H8, H9, H10, H11, ⟨%e12, H12⟩, ⟨%es0, HS0⟩, ⟨%es1, HS1⟩⟩
      isplitl [R1 R2 R3 R4 R5 R6 R7 R8 R9 HS0 HS1 R12]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [HS0]
        · unfold owns; iexists _; isplitr
          swap; · iexact HS0
          ipureintro; exact View.read_writes_of_cover _ _ _ _ _ (cover_A_S0 c _ _ _ _ _ _ _ _ _ _ _ _ _ _ _ _ _ _ _ _ _ _ _ _ _ _ _ _ _ _ _ _ _ _ _ _ _ _ _ _ _ _ _ _ _ _ _)
        isplitl [HS1]
        · unfold owns; iexists _, _; isplitr; swap; · iexact HS1
          ipureintro; rfl
        iexact R12
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    · by_cases h3 : t.val = 3
      · rw [show (datK c Vv).leavesExact 12 t = owns (c : Thread nD τ) (ms_12 t) fullShare ((datK c Vv).after 12 t) from by
          unfold Dat.leavesExact; rw [live12 t h3], after_12]
        unfold outAt; rw [dif_pos h3, dif_pos h2]
        unfold hStep; rw [dif_pos h2, dif_neg h0, dif_pos h3]
        rw [PhiS_castSucc, PhiS_pos c Vv _ _ h0]
        iintro ⟨⟨R1, R2, R3, R4, R5, R6, R7, R8, R9, HS0, ⟨%ds1, HS1⟩, R12⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun_E c (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) (fun h => absurd ((hcond1 t).mp h) (by omega)) ((hcond3 t).mpr h3) (iblk c Vv 0 t) (iblk c Vv 1 t) (iblk c Vv 2 t) (iblk c Vv 3 t) (iblk c Vv 4 t) (iblk c Vv 5 t) (iblk c Vv 6 t) (iblk c Vv 7 t) (iblk c Vv 8 t) (iblk c Vv 9 t) (iblk c Vv 10 t) (iblk c Vv 11 t) (hAt c Vv t.val (Nat.le_of_lt t.isLt)) h2 (hwAt c Vv t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [HS0]; · iexact HS0
        isplitl [HS1]; · iexists _; iexact HS1
        iintro ⟨H0, H1, H2, H3, H4, H5, H6, H7, H8, H9, H10, H11, ⟨%e12, H12⟩, ⟨%es0, HS0⟩, ⟨%es1, HS1⟩⟩
        isplitl [R1 R2 R3 R4 R5 R6 R7 R8 R9 HS0 HS1 R12]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (cover_E_S0 c _ _ _ _ _ _ _ _ _ _ _ _ _ _ _ _ _ _ _ _ _ _ _ _ _ _ _ _ _ _ _ _ _ _ _ _ _ _ _ _ _ _ _ _ _ _ _ _)
          isplitl [HS1]
          · unfold owns; iexists _, _; isplitr; swap; · iexact HS1
            ipureintro; rfl
          iexact R12
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold owns; iexists _; isplitr
        swap; · iexact H12
        ipureintro; exact View.read_writes_of_cover _ _ _ _ _ (cover_E_O c _ _ _ _ _ _ _ _ _ _ _ _ _ _ _ _ _ _ _ _ _ _ _ _ _ _ _ _ _ _ _ _ _ _ _ _ _ _ _ _ _ _ _ _ _ _ _ _)
      · rw [Dat.leavesExact_idle (datK c Vv) 12 t (idle12 t (by omega)) (noFlush12 t (by omega))]
        simp only [before_12 c Vv t.val t rfl]
        unfold hStep; rw [dif_pos h2, dif_neg h0, dif_neg h3]
        rw [PhiS_castSucc, PhiS_pos c Vv _ _ h0]
        iintro ⟨⟨R1, R2, R3, R4, R5, R6, R7, R8, R9, HS0, ⟨%ds1, HS1⟩, R12⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun_C c (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) (fun h => h0 ((hcond1 t).mp h)) (fun h => h3 ((hcond3 t).mp h)) (iblk c Vv 0 t) (iblk c Vv 1 t) (iblk c Vv 2 t) (iblk c Vv 3 t) (iblk c Vv 4 t) (iblk c Vv 5 t) (iblk c Vv 6 t) (iblk c Vv 7 t) (iblk c Vv 8 t) (iblk c Vv 9 t) (iblk c Vv 10 t) (iblk c Vv 11 t) (hAt c Vv t.val (Nat.le_of_lt t.isLt)) h2 (hwAt c Vv t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [HS0]; · iexact HS0
        isplitl [HS1]; · iexists _; iexact HS1
        iintro ⟨H0, H1, H2, H3, H4, H5, H6, H7, H8, H9, H10, H11, ⟨%e12, H12⟩, ⟨%es0, HS0⟩, ⟨%es1, HS1⟩⟩
        isplitl [R1 R2 R3 R4 R5 R6 R7 R8 R9 HS0 HS1 R12]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (cover_C_S0 c _ _ _ _ _ _ _ _ _ _ _ _ _ _ _ _ _ _ _ _ _ _ _ _ _ _ _ _ _ _ _ _ _ _ _ _ _ _ _ _ _ _ _ _ _ _ _ _)
          isplitl [HS1]
          · unfold owns; iexists _, _; isplitr; swap; · iexact HS1
            ipureintro; rfl
          iexact R12
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12
  · by_cases h0 : t.val = 0
    · rw [Dat.leavesExact_idle (datK c Vv) 12 t (idle12 t (by omega)) (noFlush12 t (by omega))]
      simp only [before_12 c Vv t.val t rfl]
      unfold hStep; rw [dif_neg h2, dif_pos h0]
      rw [PhiS_castSucc, PhiS_zero c Vv _ _ h0]
      iintro ⟨⟨R1, R2, R3, R4, R5, R6, R7, R8, R9, ⟨%ds0, HS0⟩, ⟨%ds1, HS1⟩, R12⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun_B c (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) ((hcond1 t).mpr h0) (fun h => absurd ((hcond3 t).mp h) (by omega)) (iblk c Vv 0 t) (iblk c Vv 1 t) (iblk c Vv 2 t) (iblk c Vv 3 t) (iblk c Vv 4 t) (iblk c Vv 5 t) (iblk c Vv 6 t) (iblk c Vv 7 t) (iblk c Vv 8 t) (iblk c Vv 9 t) (iblk c Vv 10 t) (iblk c Vv 11 t) h2).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexists _; iexact HS0
      isplitl [HS1]; · iexists _; iexact HS1
      iintro ⟨H0, H1, H2, H3, H4, H5, H6, H7, H8, H9, H10, H11, ⟨%e12, H12⟩, ⟨%es0, HS0⟩, ⟨%es1, HS1⟩⟩
      isplitl [R1 R2 R3 R4 R5 R6 R7 R8 R9 HS0 HS1 R12]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [HS0]
        · unfold owns; iexists _; isplitr
          swap; · iexact HS0
          ipureintro; exact View.read_writes_of_cover _ _ _ _ _ (cover_B_S0 c _ _ _ _ _ _ _ _ _ _ _ _ _ _ _ _ _ _ _ _ _ _ _ _ _ _ _ _ _ _ _ _ _ _ _ _ _ _ _ _ _ _ _ _ _ _)
        isplitl [HS1]; · iexists _; iexact HS1
        iexact R12
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    · by_cases h3 : t.val = 3
      · rw [show (datK c Vv).leavesExact 12 t = owns (c : Thread nD τ) (ms_12 t) fullShare ((datK c Vv).after 12 t) from by
          unfold Dat.leavesExact; rw [live12 t h3], after_12]
        unfold outAt; rw [dif_pos h3, dif_neg h2]
        unfold hStep; rw [dif_neg h2, dif_neg h0]
        rw [PhiS_castSucc, PhiS_pos c Vv _ _ h0]
        iintro ⟨⟨R1, R2, R3, R4, R5, R6, R7, R8, R9, HS0, ⟨%ds1, HS1⟩, R12⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun_G c (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) (fun h => absurd ((hcond1 t).mp h) (by omega)) ((hcond3 t).mpr h3) (iblk c Vv 0 t) (iblk c Vv 1 t) (iblk c Vv 2 t) (iblk c Vv 3 t) (iblk c Vv 4 t) (iblk c Vv 5 t) (iblk c Vv 6 t) (iblk c Vv 7 t) (iblk c Vv 8 t) (iblk c Vv 9 t) (iblk c Vv 10 t) (iblk c Vv 11 t) (hAt c Vv t.val (Nat.le_of_lt t.isLt)) h2).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [HS0]; · iexact HS0
        isplitl [HS1]; · iexists _; iexact HS1
        iintro ⟨H0, H1, H2, H3, H4, H5, H6, H7, H8, H9, H10, H11, ⟨%e12, H12⟩, HS0, ⟨%es1, HS1⟩⟩
        isplitl [R1 R2 R3 R4 R5 R6 R7 R8 R9 HS0 HS1 R12]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]; · iexact HS0
          isplitl [HS1]; · iexists _; iexact HS1
          iexact R12
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold owns; iexists _; isplitr
        swap; · iexact H12
        ipureintro; exact View.read_writes_of_cover _ _ _ _ _ (cover_G_O c _ _ _ _ _ _ _ _ _ _ _ _ _ _ _ _ _ _ _ _ _ _ _ _ _ _ _ _ _ _ _ _ _ _ _ _ _ _ _ _ _ _ _ _ _ _ _)
      · rw [Dat.leavesExact_idle (datK c Vv) 12 t (idle12 t (by omega)) (noFlush12 t (by omega))]
        simp only [before_12 c Vv t.val t rfl]
        unfold hStep; rw [dif_neg h2, dif_neg h0]
        rw [PhiS_castSucc, PhiS_pos c Vv _ _ h0]
        iintro ⟨⟨R1, R2, R3, R4, R5, R6, R7, R8, R9, HS0, ⟨%ds1, HS1⟩, R12⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun_D c (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) (fun h => h0 ((hcond1 t).mp h)) (fun h => h3 ((hcond3 t).mp h)) (iblk c Vv 0 t) (iblk c Vv 1 t) (iblk c Vv 2 t) (iblk c Vv 3 t) (iblk c Vv 4 t) (iblk c Vv 5 t) (iblk c Vv 6 t) (iblk c Vv 7 t) (iblk c Vv 8 t) (iblk c Vv 9 t) (iblk c Vv 10 t) (iblk c Vv 11 t) (hAt c Vv t.val (Nat.le_of_lt t.isLt)) h2) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [HS0]; · iexact HS0
        isplitl [HS1]; · iexists _; iexact HS1
        iintro ⟨H0, H1, H2, H3, H4, H5, H6, H7, H8, H9, H10, H11, ⟨%e12, H12⟩, HS0, ⟨%es1, HS1⟩⟩
        isplitl [R1 R2 R3 R4 R5 R6 R7 R8 R9 HS0 HS1 R12]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]; · iexact HS0
          isplitl [HS1]; · iexists _; iexact HS1
          iexact R12
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12

/-- THE BODY OBLIGATION of the second call, at every point. -/
theorem hbodyK :
    Pipeline.BodyObligationLoose (datK c Vv) (defs₀ (F := F)) 𝒱₀ none Set.univ :=
  (show Pipeline.BodyObligation (datK c Vv) (defs₀ (F := F)) 𝒱₀ none Set.univ from fun t => by
    rw [bigSep_W3, bigSep_W3]
    exact sound_body c Vv t).loose

/-- The same over the pinned configuration, in the form the launch cites: the bound on the first active step is not
    needed (the side condition the body assumes holds of every word). -/
theorem hbody (hm : 0 ≤ (Vv main_v19 (ValueIdx.ix1 0)).toInt ∧ (Vv main_v19 (ValueIdx.ix1 0)).toInt ≤ 2047) :
    Pipeline.BodyObligationLoose (datK' c Vv) (defs₀ (F := F)) 𝒱₀ none Set.univ :=
  hbodyK c Vv

theorem datK_q (w : Fin cfg3.W) : (datK c Vv).q w = fullShare := rfl
theorem datK_owed (t : Fin (cfg3.N + 1)) : (datK c Vv).owed t = 0 := rfl
theorem datK_recorded (t : Fin (cfg3.N + 1)) :
    (datK c Vv).recorded t = {p | (K (F := F)).lev ((c.tc : Thread nD τ), p.1) p.2 ≤ 16} := rfl

/-- What the launch hands the region — the scoped buffers no window stages, each at some contents — is the invariant
    before the first point, -/
theorem Phi_in : (Pipeline.scopedRest (Ix := HIx 2) (Name := ℕ) (U := UU) (Lvl := ℕ) (Val := Elt F) spec3 c : sProp 𝕄) ⊢ (datK' c Vv).Φ 0 := by
  rw [show (datK c Vv).Φ 0 = PhiS c Vv 0 (Nat.zero_le _) from rfl, PhiS_zero c Vv 0 _ rfl, scopedRest3_eq]
  simp only [scM0, scM1, owns_whole]
  iintro ⟨R1, R2, R3, R4, R5, R6, R7, R8, R9, ⟨%f0, HS0⟩, ⟨%f1, HS1⟩, R12⟩
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [HS0]; · iexists _; iexact HS0
  isplitl [HS1]; · iexists _; iexact HS1
  iexact R12

/-- and the invariant after the last point gives them back, the carried state's contents forgotten. -/
theorem Phi_out : (datK' c Vv).Φ (Fin.last cfg3.N) ⊢ (Pipeline.scopedRest (Ix := HIx 2) (Name := ℕ) (U := UU) (Lvl := ℕ) (Val := Elt F) spec3 c : sProp 𝕄) := by
  rw [show (datK c Vv).Φ (Fin.last cfg3.N) = PhiS c Vv (Fin.last cfg3.N).val (Nat.le_of_lt_succ (Fin.last cfg3.N).isLt) from rfl,
    PhiS_pos c Vv _ _ (by rw [Fin.val_last]; have : cfg3.N = 4 := N_3; omega), scopedRest3_eq]
  simp only [scM0, scM1, owns_whole]
  iintro ⟨R1, R2, R3, R4, R5, R6, R7, R8, R9, HS0, HS1, R12⟩
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [HS0]; · iexists _; iexact HS0
  isplitl [HS1]; · iexact HS1
  iexact R12

end Data

/-! ## The value: what the region leaves, in the body's own functions -/

section Value

variable (c : Dev nD) (Vv : (b : Ref sig .tc) → Buf (Elt F) ((c.tc : Thread nD τ).loc b))

/-- Zero offsets, as the whole-buffer accesses spell them. -/
theorem hz2 : (![0, 0] : Fin 2 → ℕ) = fun _ => 0 := by
  funext a; fin_cases a <;> rfl

/-- A load of a whole buffer held at `x` reads `x`. -/
theorem rdW {sp : Space} {S : Shape} {e : EltTy} (m : Memref sig .tc sp S e) (hm : m.IsWhole) {off : Fin S.rank → ℕ}
    (h : off = fun _ => 0) (inb : ∀ a, off a + S.size a ≤ S.size a) (x : S.Idx → Elt F e) :
    m.view.readAt (Elt F) (Rect.unit off S.size inb).toLoadRect (hm.unread x) = x := by
  rw [View.readAt_eq_ld, hm.read_unread, View.ld_unit_zero h]

/-- What a buffer whose LAST store was of the whole buffer reads as: that store's payload. -/
theorem read_writes_whole_cons {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., View.mem_set_unit_zero h inb y⟩),
    View.canon_cons_unit_zero h]

/-- The chunk's base step at a grid point, as a word: `256 + 448·g`. -/
abbrev tbW (i : grid3.Coords) : BitVec 32 := Scalar.addi 256#32 (Scalar.muli (BitVec.ofNat 32 (i 0).val) 448#32)

/-- The projection scratch as the chunk's one store into it leaves it: the chunk's inputs times the input weights plus
    the summed biases. -/
def Xp (t : Fin cfg3.N) : BufTy.Contents (Elt F) scM1.view.ty :=
  scM1.view.writes (Elt F) scM1.view.junk
    [⟨Rect.unit (s := S7168x128) ![0, 0] S7168x128.size inb_S7168x128_S7168x128_0_0,
      k3_pay10 (iblk c Vv 0 t) (iblk c Vv 1 t) (iblk c Vv 3 t) (iblk c Vv 4 t)⟩]

/-- The state the chunk's loops start from: at the first point the first call's result, else the carried state. -/
def h₀ (t : Fin cfg3.N) (h : Vec F S16x128 .f32) : Vec F S16x128 .f32 :=
  if t.val = 0 then k3_pay1 (iblk c Vv 7 t) else h

/-- THE CHUNK'S TWO LOOPS at point `t` from the state `init`: the main loop over the blocks of eight steps from the first
    block that holds an active step, then the remainder loop. -/
def loopsB (t : Fin cfg3.N) (h2 : cond2 c Vv t) (init : Vec F S16x128 .f32) : Vec F S16x128 .f32 :=
  st2 𝒱₀ c none (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) (tbW (grid3.coords t)) (wordAt c Vv t) h2 (k3_pay11 (iblk c Vv 2 t)) (k3_pay12 (iblk c Vv 5 t)) (wordAt c Vv t) (hwAt c Vv t) (k3_t2_loop (grid3.coords t) (wordAt c Vv t)).lb (Xp c Vv t)
    (st1 𝒱₀ c none (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) (tbW (grid3.coords t)) (wordAt c Vv t) h2 (k3_pay11 (iblk c Vv 2 t)) (k3_pay12 (iblk c Vv 5 t)) (wordAt c Vv t) (hwAt c Vv t) (k3_t1_loop (grid3.coords t) (wordAt c Vv t)).lb (Xp c Vv t) init (k3_t1_loop (grid3.coords t) (wordAt c Vv t)).trips)
    (k3_t2_loop (grid3.coords t) (wordAt c Vv t)).trips

/-- ONE TRIP of the main loop, in the body's own functions: the eight rows of the projection scratch it reads, and the
    three payloads that apply the eight masked cell updates to the carried state. -/
theorem tripR1_eq (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v51 : BitVec 32)
    (X : BufTy.Contents (Elt F) arg15.view.ty) (k : Fin (k3_t1_loop i v31).trips) (acc : Vec F S16x128 .f32) :
    tripR1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v51 X k acc
      = k3_pay2 i v28 v30 (Scf.iv v51 1#32 k)
          (k3_pay7 v4 v28 v30 (Scf.iv v51 1#32 k)
            (k3_pay6 i v4 v28 v30 v31 v51 1#32 k acc
              (arg15.view.readAt (Elt F) (Rect.unit (s := S7168x128) (k3_off1 i v31 k 0#32) S16x128.size (k3_off1_inb i v5 v31 k3_hw1 k k3_h2 0)).toLoadRect X)
              (arg15.view.readAt (Elt F) (Rect.unit (s := S7168x128) (k3_off1 i v31 k 1#32) S16x128.size (k3_off1_inb i v5 v31 k3_hw1 k k3_h2 1)).toLoadRect X)
              (arg15.view.readAt (Elt F) (Rect.unit (s := S7168x128) (k3_off1 i v31 k 2#32) S16x128.size (k3_off1_inb i v5 v31 k3_hw1 k k3_h2 2)).toLoadRect X))
            (Scalar.addi (Scalar.muli (Scf.iv v51 1#32 k) 8#32) 3#32)
            (arg15.view.readAt (Elt F) (Rect.unit (s := S7168x128) (k3_off1 i v31 k 3#32) S16x128.size (k3_off1_inb i v5 v31 k3_hw1 k k3_h2 3)).toLoadRect X)
            (arg15.view.readAt (Elt F) (Rect.unit (s := S7168x128) (k3_off1 i v31 k 4#32) S16x128.size (k3_off1_inb i v5 v31 k3_hw1 k k3_h2 4)).toLoadRect X)
            (arg15.view.readAt (Elt F) (Rect.unit (s := S7168x128) (k3_off1 i v31 k 5#32) S16x128.size (k3_off1_inb i v5 v31 k3_hw1 k k3_h2 5)).toLoadRect X)
            (arg15.view.readAt (Elt F) (Rect.unit (s := S7168x128) (k3_off1 i v31 k 6#32) S16x128.size (k3_off1_inb i v5 v31 k3_hw1 k k3_h2 6)).toLoadRect X))
          (arg15.view.readAt (Elt F) (Rect.unit (s := S7168x128) (k3_off1 i v31 k 7#32) S16x128.size (k3_off1_inb i v5 v31 k3_hw1 k k3_h2 7)).toLoadRect X) := by
  unfold tripR1 trip1
  rfl

/-- ONE TRIP of the remainder loop, likewise. -/
theorem tripR2_eq (𝒱 : Variants) (c : Dev nD) (bd : Option 𝒱.V) (i : grid3.Coords) (arg1 : Memref sig .tc .vmem S7168x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S256x128 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S16x3 .f32) (harg13 : arg13.IsWhole) (arg14 : Memref sig .tc .vmem S16x128 .f32) (harg14 : arg14.IsWhole) (arg15 : Memref sig .tc .vmem S7168x128 .f32) (harg15 : arg15.IsWhole) (v4 : BitVec 32) (v5 : Elt F .i32) (k3_h2 : k3_cond2 i v5 = 1#1) (v28 : FVec F S128x128 .f32) (v30 : IVec S16x128 32) (v31 : Elt F .i32) (k3_hw1 : k3_chk1 i v5 v31) (v57 : BitVec 32)
    (X : BufTy.Contents (Elt F) arg15.view.ty) (k : Fin (k3_t2_loop i v31).trips) (acc : Vec F S16x128 .f32) :
    tripR2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v4 v5 k3_h2 v28 v30 v31 k3_hw1 v57 X k acc
      = k3_pay3 i v28 v30 (Scf.iv v57 1#32 k)
          (k3_pay9 v4 v28 v30 (Scf.iv v57 1#32 k)
            (k3_pay8 i v4 v28 v30 v31 v57 1#32 k acc
              (arg15.view.readAt (Elt F) (Rect.unit (s := S7168x128) (k3_off2 i v31 k 0#32) S16x128.size (k3_off2_inb i v5 v31 k3_hw1 k k3_h2 0)).toLoadRect X)
              (arg15.view.readAt (Elt F) (Rect.unit (s := S7168x128) (k3_off2 i v31 k 1#32) S16x128.size (k3_off2_inb i v5 v31 k3_hw1 k k3_h2 1)).toLoadRect X)
              (arg15.view.readAt (Elt F) (Rect.unit (s := S7168x128) (k3_off2 i v31 k 2#32) S16x128.size (k3_off2_inb i v5 v31 k3_hw1 k k3_h2 2)).toLoadRect X))
            (Scalar.addi (Scalar.muli (Scf.iv v57 1#32 k) 8#32) 3#32)
            (arg15.view.readAt (Elt F) (Rect.unit (s := S7168x128) (k3_off2 i v31 k 3#32) S16x128.size (k3_off2_inb i v5 v31 k3_hw1 k k3_h2 3)).toLoadRect X)
            (arg15.view.readAt (Elt F) (Rect.unit (s := S7168x128) (k3_off2 i v31 k 4#32) S16x128.size (k3_off2_inb i v5 v31 k3_hw1 k k3_h2 4)).toLoadRect X)
            (arg15.view.readAt (Elt F) (Rect.unit (s := S7168x128) (k3_off2 i v31 k 5#32) S16x128.size (k3_off2_inb i v5 v31 k3_hw1 k k3_h2 5)).toLoadRect X)
            (arg15.view.readAt (Elt F) (Rect.unit (s := S7168x128) (k3_off2 i v31 k 6#32) S16x128.size (k3_off2_inb i v5 v31 k3_hw1 k k3_h2 6)).toLoadRect X))
          (arg15.view.readAt (Elt F) (Rect.unit (s := S7168x128) (k3_off2 i v31 k 7#32) S16x128.size (k3_off2_inb i v5 v31 k3_hw1 k k3_h2 7)).toLoadRect X) := by
  unfold tripR2 trip2
  rfl

/-- The state after a chunk that is run, at a point that is neither the first nor the last. -/
theorem hStep_C (t : Fin cfg3.N) (h2 : cond2 c Vv t) (h0 : ¬t.val = 0) (h3 : ¬t.val = 3) (h : Vec F S16x128 .f32) :
    hStep c Vv t h = k3_pay4 (loopsB c Vv t h2 h) := by
  unfold hStep; rw [dif_pos h2, dif_neg h0, dif_neg h3]
  unfold kernelRun_C; dsimp only
  rw [read_writes_whole_cons _ _ hz2]
  sl_unfold_run_names
  rw [rdW (ms_0 t) (hs_0 t) hz2, rdW (ms_1 t) (hs_1 t) hz2, rdW (ms_2 t) (hs_2 t) hz2, rdW (ms_3 t) (hs_3 t) hz2, rdW (ms_4 t) (hs_4 t) hz2, rdW (ms_5 t) (hs_5 t) hz2, rdW scM0 (Memref.isWhole_whole _) hz2]
  rfl

/-- The state after a chunk that is run, at the first point. -/
theorem hStep_A (t : Fin cfg3.N) (h2 : cond2 c Vv t) (h0 : t.val = 0) (h : Vec F S16x128 .f32) :
    hStep c Vv t h = k3_pay4 (loopsB c Vv t h2 (k3_pay1 (iblk c Vv 7 t))) := by
  unfold hStep; rw [dif_pos h2, dif_pos h0]
  unfold kernelRun_A; dsimp only
  rw [read_writes_whole_cons _ _ hz2]
  sl_unfold_run_names
  rw [View.readCov_unit_zero _ hz2]
  rw [rdW (ms_0 t) (hs_0 t) hz2, rdW (ms_1 t) (hs_1 t) hz2, rdW (ms_2 t) (hs_2 t) hz2, rdW (ms_3 t) (hs_3 t) hz2, rdW (ms_4 t) (hs_4 t) hz2, rdW (ms_5 t) (hs_5 t) hz2, rdW (ms_7 t) (hs_7 t) hz2]
  rfl

/-- The state after a chunk that is run, at the last point. -/
theorem hStep_E (t : Fin cfg3.N) (h2 : cond2 c Vv t) (h3 : t.val = 3) (h : Vec F S16x128 .f32) :
    hStep c Vv t h = k3_pay4 (loopsB c Vv t h2 h) := by
  have h0 : ¬t.val = 0 := by omega
  unfold hStep; rw [dif_pos h2, dif_neg h0, dif_pos h3]
  unfold kernelRun_E; dsimp only
  sl_unfold_run_names
  rw [read_writes_whole_cons _ _ hz2]
  rw [rdW (ms_0 t) (hs_0 t) hz2, rdW (ms_1 t) (hs_1 t) hz2, rdW (ms_2 t) (hs_2 t) hz2, rdW (ms_3 t) (hs_3 t) hz2, rdW (ms_4 t) (hs_4 t) hz2, rdW (ms_5 t) (hs_5 t) hz2, rdW scM0 (Memref.isWhole_whole _) hz2]
  rfl

/-- The state after a chunk that is skipped, at the first point: the first call's result. -/
theorem hStep_B (t : Fin cfg3.N) (h2 : ¬cond2 c Vv t) (h0 : t.val = 0) (h : Vec F S16x128 .f32) :
    hStep c Vv t h = k3_pay1 (iblk c Vv 7 t) := by
  unfold hStep; rw [dif_neg h2, dif_pos h0]
  unfold kernelRun_B; dsimp only
  rw [read_writes_whole_cons _ _ hz2, rdW (ms_7 t) (hs_7 t) hz2]

/-- THE CARRIED STATE after one point, in the body's own functions. -/
theorem hStep_eq (t : Fin cfg3.N) (h : Vec F S16x128 .f32) :
    hStep c Vv t h = if h2 : cond2 c Vv t then k3_pay4 (loopsB c Vv t h2 (h₀ c Vv t h)) else h₀ c Vv t h := by
  by_cases h2 : cond2 c Vv t
  · rw [dif_pos h2]
    by_cases h0 : t.val = 0
    · rw [hStep_A c Vv t h2 h0]; unfold h₀; rw [if_pos h0]
    · unfold h₀; rw [if_neg h0]
      by_cases h3 : t.val = 3
      · exact hStep_E c Vv t h2 h3 h
      · exact hStep_C c Vv t h2 h0 h3 h
  · rw [dif_neg h2]
    by_cases h0 : t.val = 0
    · rw [hStep_B c Vv t h2 h0]; unfold h₀; rw [if_pos h0]
    · unfold h₀; rw [if_neg h0]; unfold hStep; rw [dif_neg h2, dif_neg h0]

/-- THE RESULT'S STAGING BUFFER after the last point: the head of the state that point leaves. -/
theorem outAt_last (t : Fin cfg3.N) (h3 : t.val = 3) (h : Vec F S16x128 .f32) :
    outAt c Vv t h = k3_pay5 (hStep c Vv t h) (iblk c Vv 8 t) (iblk c Vv 9 t) (iblk c Vv 10 t) (iblk c Vv 11 t) := by
  have h0 : ¬t.val = 0 := by omega
  by_cases h2 : cond2 c Vv t
  · rw [hStep_E c Vv t h2 h3]
    unfold outAt; rw [dif_pos h3, dif_pos h2]
    unfold kernelRun_E; dsimp only
    sl_unfold_run_names
    rw [read_writes_whole_cons _ _ hz2]
    rw [View.readCov_unit_zero _ hz2]
    rw [rdW (ms_0 t) (hs_0 t) hz2, rdW (ms_1 t) (hs_1 t) hz2, rdW (ms_2 t) (hs_2 t) hz2, rdW (ms_3 t) (hs_3 t) hz2, rdW (ms_4 t) (hs_4 t) hz2, rdW (ms_5 t) (hs_5 t) hz2, rdW scM0 (Memref.isWhole_whole _) hz2, rdW (ms_8 t) (hs_8 t) hz2, rdW (ms_9 t) (hs_9 t) hz2, rdW (ms_10 t) (hs_10 t) hz2, rdW (ms_11 t) (hs_11 t) hz2]
    rfl
  · rw [show hStep c Vv t h = h from by unfold hStep; rw [dif_neg h2, dif_neg h0]]
    unfold outAt; rw [dif_pos h3, dif_neg h2]
    unfold kernelRun_G; dsimp only
    rw [read_writes_whole_cons _ _ hz2]
    rw [rdW scM0 (Memref.isWhole_whole _) hz2, rdW (ms_8 t) (hs_8 t) hz2, rdW (ms_9 t) (hs_9 t) hz2, rdW (ms_10 t) (hs_10 t) hz2, rdW (ms_11 t) (hs_11 t) hz2]

/-- THE REGION'S RESULT: the result array after the last point, read through its one block (the whole array), is the
    head of the state the four points compute. -/
theorem result_block :
    ((cfg3.win 12).blk t3_3).view.read (Elt F) ((datK c Vv).arrAt 12 cfg3.N)
      = outAt c Vv t3_3 (hAt c Vv t3_3.val (Nat.le_of_lt t3_3.isLt)) := by
  have hf : (cfg3.win 12).flush t3_3 = true := (flush3_12 t3_3).mpr rfl
  have h := (datK c Vv).read_blk_arrAt_eq_flushed 12
    (fun t t' hf hf' hne => absurd (Fin.ext (by
      have h1 := (flush3_12 t).mp hf; have h2 := (flush3_12 t').mp hf'
      have := t.isLt; have := t'.isLt; have hN : cfg3.N = 4 := N_3; omega)) hne)
    cfg3.N t3_3 t3_3.isLt hf
  rw [h]
  show (cfg3.win 12).cut (cfg3.grid.coords t3_3) ((datK c Vv).after 12 t3_3) = _
  rw [after_12]; rfl

/-- The state after `n + 1` points is one more point's step. -/
theorem hAt_succ (n : ℕ) (hn : n < cfg3.N) :
    hAt c Vv (n + 1) hn = hStep c Vv ⟨n, hn⟩ (hAt c Vv n (Nat.le_of_lt hn)) := rfl

end Value

end Cert.Proof.KI.ScanB

end
-- ==== Proof.Launch.lean ====
/-
  The idealized kernel's program run on the whole machine: the regions as segments of @main, @main on the TensorCore
  (the host stretches, the two gather calls, the two recurrence regions), the launch element, the final memory, and
  the launch theorem applied.
-/
import proofs.«205923_g40089224741417_cont_sun_m_110_39_alg».proof.Proof.Main
import proofs.«205923_g40089224741417_cont_sun_m_110_39_alg».proof.Proof.Split
import proofs.«205923_g40089224741417_cont_sun_m_110_39_alg».proof.Proof.Chk
import proofs.«205923_g40089224741417_cont_sun_m_110_39_alg».proof.Proof.ScanA
import proofs.«205923_g40089224741417_cont_sun_m_110_39_alg».proof.Proof.ScanB
import Idealize.ShloMosaic.Lib.Pipeline.FrameSuffix
import Idealize.ShloMosaic.Lib.Pipeline.RegionsLoop

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq seq after)

variable {F : FTy → Type} [FloatOps F] [Named F]

variable (m : (ℓ : Loc nD τ sig) → Buf (Elt F) ℓ) (ρ : Dev nD → PrngReg)

local notation "𝕄" => MM F

/-! ## The regions' proof data -/

/-- The prefetched tables' admissible contents: no pipeline has a table. -/
abbrev adm : (p : Fin 2) → (pcfgs (F := F) p).Adm := fun p => (cfgs p).toPCfg_adm

/-- The TensorCore's arrays as a region finds them, by reference. -/
abbrev byRef (c : Dev nD) (W : Valuation τ sig (Elt F)) : (b : Ref sig .tc) → Buf (Elt F) ((c.tc : Thread nD τ).loc b) :=
  fun b => W (Proc.devRef .tc b)

/-! ### A region's `owes` in and out -/

section OwesKit
/-- The pairs at or below the gather calls' levels: what a region's proof data records. -/
abbrev recBelow (c : Dev nD) : Set (SemLoc sig × HIx 2) := {p | (K (F := F)).lev ((c.tc : Thread nD τ), p.1) p.2 ≤ 16}

variable {cfg : Pipeline.Cfg sig Λ₀} {c : Dev nD} (dat : Pipeline.Dat τ (Elt F) (HIx 2) ℕ UU ℕ cfg c)

theorem owes_in (t : Fin (cfg.N + 1)) (hrec : dat.recorded t = recBelow (F := F) c) (howed : dat.owed t = 0) :
    (iprop(∃ W, ⌜(K (F := F)).WBelow (c.tc : Thread nD τ) W 16⌝ ∗ owes (c.tc : Thread nD τ) (0 : CellTallies nD τ sig (HIx 2)) W) : sProp 𝕄)
      ⊢ dat.owesAt none t := by
  unfold Pipeline.Dat.owesAt Pipeline.owesWithin Pipeline.Dat.bound
  rw [hrec, howed]
  iintro ⟨%W, %hW, HO⟩
  iexists W; isplitr
  · ipureintro; exact fun p hp => Or.inl (hW p hp)
  · iexact HO

theorem owes_out (t : Fin (cfg.N + 1)) (hrec : dat.recorded t = recBelow (F := F) c) (howed : dat.owed t = 0) :
    dat.owesAt none t
      ⊢ (iprop(∃ W, ⌜(K (F := F)).WBelow (c.tc : Thread nD τ) W 16⌝ ∗ owes (c.tc : Thread nD τ) (0 : CellTallies nD τ sig (HIx 2)) W) : sProp 𝕄) := by
  unfold Pipeline.Dat.owesAt Pipeline.owesWithin Pipeline.Dat.bound
  rw [hrec, howed]
  iintro ⟨%W, %hW, HO⟩
  iexists W; isplitr
  · ipureintro
    intro p hp
    rcases hW (Finset.mem_coe.mpr hp) with h | ⟨w, s, rfl⟩
    · exact h
    · show (K (F := F)).lev _ none ≤ 16
      rw [SparseCore.Cfg.lev_none]; exact Nat.zero_le _
  · iexact HO

end OwesKit

variable [∀ e, Nonempty (Elt F e)]

/-- The first recurrence region's proof data at entry contents `Vv`, and the second's. -/
abbrev dat2 (c : Dev nD) (Vv : (b : Ref sig .tc) → Buf (Elt F) ((c.tc : Thread nD τ).loc b)) :
    Pipeline.Dat τ (Elt F) (HIx 2) ℕ UU ℕ (Pipeline.pin (pcfgs (F := F)) adm 0) c := ScanA.datK' c Vv
abbrev dat3 (c : Dev nD) (Vv : (b : Ref sig .tc) → Buf (Elt F) ((c.tc : Thread nD τ).loc b)) :
    Pipeline.Dat τ (Elt F) (HIx 2) ℕ UU ℕ (Pipeline.pin (pcfgs (F := F)) adm 1) c := ScanB.datK' c Vv

/-- After the first region: its arrays at what the pipeline leaves (the inputs as entered, the result's write-back),
    every other array as entered. After the two bias rows are staged again. -/
def W3 (d : Dev nD) : Valuation τ sig (Elt F) :=
  Pipeline.withArrays spec2 d (WB m d) fun w => (dat2 d (byRef d (WB m d))).arrAt w cfg2.N
def WC (d : Dev nD) : Valuation τ sig (Elt F) := after opsC (W3 m d)
/-- At the end: after the second region. -/
def W4 (d : Dev nD) : Valuation τ sig (Elt F) :=
  Pipeline.withArrays spec3 d (WC m d) fun w => (dat3 d (byRef d (WC m d))).arrAt w cfg3.N
/-- The state the first region leaves, and the program's result. -/
def hMid (c : Dev nD) : Buf (Elt F) ((c.tc : Thread nD τ).loc main_v23) := W3 m c rMid
def outV (c : Dev nD) : Buf (Elt F) ((c.tc : Thread nD τ).loc main_v26) := W4 m c rOut

/-- Every pipeline's proof data, each at its region's entry contents. -/
def pdats : (p : Fin 2) → (c : Dev nD) → Pipeline.Dat τ (Elt F) (HIx 2) ℕ UU ℕ (Pipeline.pin (pcfgs (F := F)) adm p) c
  | ⟨0, _⟩ => fun c => dat2 c (byRef c (WB m c))
  | ⟨1, _⟩ => fun c => dat3 c (byRef c (WC m c))

theorem Phi_in2 (c : Dev nD) :
    (Pipeline.scopedRest (Ix := HIx 2) (Name := ℕ) (U := UU) (Lvl := ℕ) (Val := Elt F) spec2 c : sProp 𝕄) ⊢ (pdats m 0 c).Φ 0 :=
  ScanA.Phi_in c (byRef c (WB m c))
theorem Phi_out2 (c : Dev nD) :
    (pdats m 0 c).Φ (Fin.last _) ⊢ (Pipeline.scopedRest (Ix := HIx 2) (Name := ℕ) (U := UU) (Lvl := ℕ) (Val := Elt F) spec2 c : sProp 𝕄) :=
  ScanA.Phi_out c (byRef c (WB m c))
theorem Phi_in3 (c : Dev nD) :
    (Pipeline.scopedRest (Ix := HIx 2) (Name := ℕ) (U := UU) (Lvl := ℕ) (Val := Elt F) spec3 c : sProp 𝕄) ⊢ (pdats m 1 c).Φ 0 :=
  ScanB.Phi_in c (byRef c (WC m c))
theorem Phi_out3 (c : Dev nD) :
    (pdats m 1 c).Φ (Fin.last _) ⊢ (Pipeline.scopedRest (Ix := HIx 2) (Name := ℕ) (U := UU) (Lvl := ℕ) (Val := Elt F) spec3 c : sProp 𝕄) :=
  ScanB.Phi_out c (byRef c (WC m c))

theorem W3_arr (c : Dev nD) (w : Fin cfg2.W) :
    W3 m c (Proc.devRef .tc (Pipeline.arrRef spec2 w)) = (dat2 c (byRef c (WB m c))).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = WB m c (Proc.devRef .tc b) := by
  unfold W3; exact Pipeline.withArrays_of_ne spec2 c _ _ b hb
theorem W4_arr (c : Dev nD) (w : Fin cfg3.W) :
    W4 m c (Proc.devRef .tc (Pipeline.arrRef spec3 w)) = (dat3 c (byRef c (WC m c))).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = WC m c (Proc.devRef .tc b) := by
  unfold W4; exact Pipeline.withArrays_of_ne spec3 c _ _ b hb

/-- What rides beside the arrays through the host stretches and the regions: the generator register at some state and
    the TensorCore's `owes`, at nothing (both gather calls are over). -/
abbrev Rr (c : Dev nD) : sProp 𝕄 :=
  iprop((∃ r, prngReg c r) ∗ ∃ W, ⌜(K (F := F)).WBelow (c.tc : Thread nD τ) W 16⌝ ∗ owes (c.tc : Thread nD τ) (0 : CellTallies nD τ sig (HIx 2)) W)

/-- The thread state at a valuation. -/
abbrev Tst (W : Dev nD → Valuation τ sig (Elt F)) (c : Dev nD) : sProp 𝕄 :=
  iprop(held (c.tc : Thread nD τ) (Pipeline.ucRefs τ sig) (W c) ∗ Rr c)

theorem opsA_sub' : (opsA : List (HloOp τ sig (Elt F))).Forall fun op => op.bufs ⊆ StableHlo.tcRefs τ sig :=
  ⟨StableHlo.unary_bufs_sub .., StableHlo.reshape_bufs_sub ..⟩
theorem opsA_fresh' : (opsA : List (HloOp τ sig (Elt F))).Forall fun op => op.fresh = ∅ := by
  simp only [List.Forall]; repeat' constructor
theorem opsA_sub : ∀ op ∈ (opsA : List (HloOp τ sig (Elt F))), op.bufs ⊆ Pipeline.ucRefs τ sig :=
  fun op h => Pipeline.sub_ucRefs op ((List.forall_iff_forall_mem.mp opsA_sub') op h)
theorem opsA_fresh : ∀ op ∈ (opsA : List (HloOp τ sig (Elt F))), op.fresh = ∅ :=
  fun op h => (List.forall_iff_forall_mem.mp opsA_fresh') op h
theorem opsB_sub' : (opsB : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.ternary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.ternary_bufs_sub .., StableHlo.nullary_bufs_sub .., StableHlo.binary_bufs_sub .., StableHlo.nullary_bufs_sub .., StableHlo.binary_bufs_sub .., StableHlo.reshape_bufs_sub .., StableHlo.unary_bufs_sub .., StableHlo.unary_bufs_sub .., StableHlo.unary_bufs_sub ..⟩
theorem opsB_fresh' : (opsB : List (HloOp τ sig (Elt F))).Forall fun op => op.fresh = ∅ := by
  simp only [List.Forall]; repeat' constructor
theorem opsB_sub : ∀ op ∈ (opsB : List (HloOp τ sig (Elt F))), op.bufs ⊆ Pipeline.ucRefs τ sig :=
  fun op h => Pipeline.sub_ucRefs op ((List.forall_iff_forall_mem.mp opsB_sub') op h)
theorem opsB_fresh : ∀ op ∈ (opsB : List (HloOp τ sig (Elt F))), op.fresh = ∅ :=
  fun op h => (List.forall_iff_forall_mem.mp opsB_fresh') op h
theorem opsC_sub' : (opsC : List (HloOp τ sig (Elt F))).Forall fun op => op.bufs ⊆ StableHlo.tcRefs τ sig :=
  ⟨StableHlo.unary_bufs_sub .., StableHlo.unary_bufs_sub ..⟩
theorem opsC_fresh' : (opsC : List (HloOp τ sig (Elt F))).Forall fun op => op.fresh = ∅ := by
  simp only [List.Forall]; repeat' constructor
theorem opsC_sub : ∀ op ∈ (opsC : List (HloOp τ sig (Elt F))), op.bufs ⊆ Pipeline.ucRefs τ sig :=
  fun op h => Pipeline.sub_ucRefs op ((List.forall_iff_forall_mem.mp opsC_sub') op h)
theorem opsC_fresh : ∀ op ∈ (opsC : List (HloOp τ sig (Elt F))), op.fresh = ∅ :=
  fun op h => (List.forall_iff_forall_mem.mp opsC_fresh') op h

abbrev hsegB : Pipeline.HostSeg (Name := ℕ) (U := UU) (pcfgs (F := F)) defs₀ 𝒱₀ (K (F := F)).L (K (F := F)).lev :=
  Pipeline.HostSeg.ofOps _ _ _ _ _ (Pipeline.ucRefs τ sig) opsB opsB_sub opsB_fresh (W2 m) Rr
abbrev hsegC : Pipeline.HostSeg (Name := ℕ) (U := UU) (pcfgs (F := F)) defs₀ 𝒱₀ (K (F := F)).L (K (F := F)).lev :=
  Pipeline.HostSeg.ofOps _ _ _ _ _ (Pipeline.ucRefs τ sig) opsC opsC_sub opsC_fresh (W3 m) Rr

set_option backward.isDefEq.respectTransparency.types false in
/-- THE FIRST RECURRENCE REGION over the thread state: entered from every array at `WB`, left at `W3`. -/
def reg0 : Pipeline.RegionSeg (pcfgs (F := F)) adm (pdats m) none defs₀ 𝒱₀ (K (F := F)).L (K (F := F)).lev 0 where
  win := launch2.win.to₀
  block_pos := launch2.block_pos
  stage_whole := launch2.stage_whole
  K := PEmpty
  osem k := k.elim
  ho := Pipeline.OwnSemFacts.none _
  hbody c := ScanA.hbodyK c (byRef c (WB m c)) (fun _ _ => Chk.k2_chk1_all _ _ _)
  hwaits := Pipeline.hwaits_of_owed_zero _ _ _ _ (K (F := F)).L (K (F := F)).lev 0 fun _ _ => rfl
  pre c := Tst (WB m) c
  post c := Tst (W3 m) c
  X c := iprop(emp)
  Y c := iprop(emp)
  Z c := iprop(Pipeline.unscopedRest (Ix := HIx 2) (Name := ℕ) (U := UU) (Lvl := ℕ) spec2 c (byRef c (WB m c))
    ∗ ((∃ r, prngReg c r) : sProp 𝕄))
  hentry c := by
    rw [Pipeline.ownSems0_none]
    have hsplit := Pipeline.arrays_of_unscopedBufs (p := 0) (pcfgs (F := F)) adm (pdats m) launch2.win launch2.arr_whole c
      ((pdats m 0 c).share_full fun _ => rfl) (byRef c (WB m c)) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (pdats m 0 c) 0 rfl rfl); iexact HO
    isplitr; · iempintro
    isplitl [Hrest]; · iexact Hrest
    iexact Hp
  hin c := by
    iintro ⟨-, -, Hr⟩
    iapply (Phi_in2 m c); iexact Hr
  hout c := by
    rw [Pipeline.ownSems0_none]
    iintro Hr
    isplitr; · iempintro
    isplitr; · iempintro
    iapply (Phi_out2 m c); iexact Hr
  hexit c := by
    have hjoin := Pipeline.unscopedBufs_of_arrays (p := 0) (pcfgs (F := F)) adm (Ix := HIx 2) (Name := ℕ) (U := UU) (Lvl := ℕ)
      launch2.win launch2.arr_whole c (pdats m) ((pdats m 0 c).share_full fun _ => rfl)
      (byRef c (WB m c)) (byRef c (W3 m c)) ((pdats m 0 c).arrAt · cfg2.N)
      (fun w => (W3_arr m c w).symm)
      (fun b hb => W3_of_ne m c b fun w e => hb (Finset.mem_image.mpr ⟨w, Finset.mem_univ _, e⟩))
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    iapply (owes_out (pdats m 0 c) (Fin.last _) rfl rfl); iexact HO

set_option backward.isDefEq.respectTransparency.types false in
/-- THE SECOND over the thread state: entered from every array at `WC`, left at `W4`. -/
def reg1 : Pipeline.RegionSeg (pcfgs (F := F)) adm (pdats m) none defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := ScanB.hbodyK c (byRef c (WC m c))
  hwaits := Pipeline.hwaits_of_owed_zero _ _ _ _ (K (F := F)).L (K (F := F)).lev 1 fun _ _ => rfl
  pre c := Tst (WC m) c
  post c := Tst (W4 m) c
  X c := iprop(emp)
  Y c := iprop(emp)
  Z c := iprop(Pipeline.unscopedRest (Ix := HIx 2) (Name := ℕ) (U := UU) (Lvl := ℕ) spec3 c (byRef c (WC m c))
    ∗ ((∃ r, prngReg c r) : sProp 𝕄))
  hentry c := by
    rw [Pipeline.ownSems0_none]
    have hsplit := Pipeline.arrays_of_unscopedBufs (p := 1) (pcfgs (F := F)) adm (pdats m) launch3.win launch3.arr_whole c
      ((pdats m 1 c).share_full fun _ => rfl) (byRef c (WC m c)) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (pdats m 1 c) 0 rfl rfl); iexact HO
    isplitr; · iempintro
    isplitl [Hrest]; · iexact Hrest
    iexact Hp
  hin c := by
    iintro ⟨-, -, Hr⟩
    iapply (Phi_in3 m c); iexact Hr
  hout c := by
    rw [Pipeline.ownSems0_none]
    iintro Hr
    isplitr; · iempintro
    isplitr; · iempintro
    iapply (Phi_out3 m c); iexact Hr
  hexit c := by
    have hjoin := Pipeline.unscopedBufs_of_arrays (p := 1) (pcfgs (F := F)) adm (Ix := HIx 2) (Name := ℕ) (U := UU) (Lvl := ℕ)
      launch3.win launch3.arr_whole c (pdats m) ((pdats m 1 c).share_full fun _ => rfl)
      (byRef c (WC m c)) (byRef c (W4 m c)) ((pdats m 1 c).arrAt · cfg3.N)
      (fun w => (W4_arr m c w).symm)
      (fun b hb => W4_of_ne m c b fun w e => hb (Finset.mem_image.mpr ⟨w, Finset.mem_univ _, e⟩))
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    iapply (owes_out (pdats m 1 c) (Fin.last _) rfl rfl); iexact HO

/-- What follows the gather calls, as segments. -/
abbrev segs : List (Pipeline.Seg (pcfgs (F := F)) adm (pdats m) none defs₀ 𝒱₀ (K (F := F)).L (K (F := F)).lev) :=
  [ .host (hsegB m), .region (reg0 m), .host (hsegC m), .region (reg1 m) ]

theorem tail_run : tailProg (F := F) = Pipeline.Seg.run (segs m) := by
  first | rfl | (unfold tailProg; simp only [Pipeline.Seg.run, Prog.lift, Prog.bind_op, Prog.bind_ret, bind_assoc, pure_bind]; rfl)

/-! ## @main on the TensorCore -/

/-- What @main starts from beside the launch's deal: both pipelines' staging cells' ghost state. -/
abbrev G0 (d : Dev nD) : sProp 𝕄 := Pipeline.ghostOn (pcfgs (F := F)) adm EP Finset.univ d

/-- What @main leaves the claim: every array at the last valuation. -/
abbrev FIN (d : Dev nD) : sProp 𝕄 := held (d.tc : Thread nD τ) (Pipeline.ucRefs τ sig) (W4 m d)

theorem unscoped_held (d : Dev nD) :
    (unscopedBufs d (fun b => m ((SparseCore.T d).loc b)) : sProp 𝕄) = held (d.tc : Thread nD τ) (Pipeline.ucRefs τ sig) (W0 m d) :=
  Pipeline.unscopedBufs_held d (W0 m d)

/-- The TensorCore's handshake state but its `owes`. -/
abbrev tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 2) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the last gather call the TensorCore owes nothing more: its handshake state is its `owes` at nothing, its
    recorded pairs below the calls' levels, and a remainder that the rest of @main does not touch. -/
theorem tcSt_ge (d : Dev nD) (n : ℕ) (hn : 2 ≤ n) :
    ((K (F := F)).tcSt EH d n : sProp 𝕄)
      = iprop((∃ W, ⌜(K (F := F)).WBelow (SparseCore.T d) W (8 * n)⌝ ∗ owes (SparseCore.T d) (0 : CellTallies nD τ sig (HIx 2)) W)
          ∗ tcRest (F := F) d n) := by
  unfold SparseCore.Cfg.tcSt
  rw [(K (F := F)).Otc_end d hn]

set_option backward.isDefEq.respectTransparency.types false in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G0 d)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscoped_held, main_eq]
  iintro ⟨#Hctx, Hst, ⟨Hb, Hheld, -, Hprng⟩, HG⟩
  ihave Hlev := (show (K (F := F)).ctx EH (P m) κ ⊢ (levAts (K (F := F)).L (K (F := F)).lev : sProp 𝕄) from SparseCore.Cfg.ctx_levAts κ) $$ Hctx
  -- the tokens transposed and flattened
  iapply (wp_seq (defs := (K (F := F)).defs (D (F := F))) 𝒱 none Set.univ d (Pipeline.ucRefs τ sig) _ opsA opsA_sub opsA_fresh (W0 m d)) $$ [Hb Hheld]
  · isplitl [Hb] <;> iassumption
  iintro ⟨Hb, Hheld⟩
  rw [show after opsA (W0 m d) = WA m d from rfl]
  simp only [wp_bind]
  -- the first gather call
  ihave Hs := (split0 m d) $$ Hheld
  icases Hs with ⟨Hst0, Hback⟩
  iapply ((K (F := F)).wp_run (D (F := F)) 𝒱 (EH := EH) (P := P m) κ d 0) $$ [Hst Hst0 Hback Hb Hprng HG]
  isplitr; · iexact Hctx
  isplitl [Hst]; · iexact Hst
  isplitl [Hst0]; · iexact Hst0
  iintro ⟨Hst, Hdn⟩
  ihave Hheld := Hback $$ Hdn
  -- the second
  ihave Hs := (split1 m d) $$ Hheld
  icases Hs with ⟨Hst1, Hback⟩
  iapply ((K (F := F)).wp_run (D (F := F)) 𝒱 (EH := EH) (P := P m) κ d 1) $$ [Hst Hst1 Hback Hb Hprng HG]
  isplitr; · iexact Hctx
  isplitl [Hst]; · iexact Hst
  isplitl [Hst1]; · iexact Hst1
  iintro ⟨Hst, Hdn⟩
  ihave Hheld := Hback $$ Hdn
  -- what follows, in the pipelines' table: the host stretches and the two regions
  ihave Hst' := (Entails.of_eq (tcSt_ge (F := F) d ((1 : Fin 2).val + 1) (by decide))) $$ Hst
  icases Hst' with ⟨⟨%W, %hW, HO⟩, Hrest⟩
  iapply ((K (F := F)).wp_liftProg (D (F := F)) 𝒱 (SparseCore.T d) Set.univ none (tailProg (F := F)) _)
  rw [tail_run m]
  iapply (Pipeline.wp_segs (pcfgs (F := F)) adm (pdats m) none cellOf_inj EP defs₀ 𝒱₀ (K (F := F)).L (K (F := F)).lev d
      (segs m) Finset.univ (Tst (W2 m)) (Tst (W4 m))
      (by simp only [segs, Pipeline.Seg.pipes_host, Pipeline.Seg.pipes_region, Pipeline.Seg.pipes_nil]; decide) (fun p _ => Finset.mem_univ p)
      ⟨fun _ => .rfl, fun _ => .rfl, fun _ => .rfl, fun _ => .rfl, fun _ => .rfl⟩) $$ [Hb Hheld Hprng HG HO Hrest]
  isplitl [Hrest]
  · iintro ⟨Hb, ⟨Hheld, -, %W', %hW', HO⟩⟩
    isplitl [HO Hrest]
    · iapply (Entails.of_eq (tcSt_ge (F := F) d 2 (le_refl 2)).symm)
      isplitl [HO]
      · iexists W'; isplitr
        · ipureintro; exact hW'
        · iexact HO
      iexact Hrest
    iexact Hheld
  isplitl [Hb]; · iexact Hb
  isplitl [Hheld Hprng HO]
  · isplitl [Hheld]; · iexact Hheld
    isplitl [Hprng]; · iexists _; iexact Hprng
    iexists W; isplitr; · ipureintro; exact hW
    iexact HO
  isplitl [Hlev]; · iexact Hlev
  iexact HG

/-! ## The launch element -/

def u₀ : UU :=
  (initOf (K (F := F)).hsCells (K (F := F)).hsToks, (initOf (Pipeline.cells cfgs cellOf_inj) (Pipeline.launchToks cfgs cellOf_inj), 1))

omit [FloatOps F] [Named F] in
theorem bigSep_emp' {I : Type} (s : Finset I) : (bigSep s fun _ => iprop(emp)) = (iprop(emp) : sProp 𝕄) := bigSep_emp_const s

theorem G0_eq : (bigSep Finset.univ fun d : Dev nD => (G0 (F := F) d : sProp 𝕄))
    = iprop((bigSep Finset.univ fun c : Dev nD => bigSep Finset.univ fun p : Fin 2 => Pipeline.cellsGhost cfgs (EP (F := F)) p c)
        ∗ (bigSep Finset.univ fun c : Dev nD => bigSep Finset.univ fun p : Fin 2 => (Pipeline.toksInit cfgs (EP (F := F)) p c : sProp 𝕄))) := by
  rw [← bigSep_sep']
  refine bigSep_congr fun d _ => ?_
  rw [← bigSep_sep']
  rfl

/-- The handshakes' rounds, and per device both pipelines' staging cells' ghost state and duty tokens. -/
theorem hu₀ : (ownU (u₀ (F := F)) : sProp 𝕄)
    ⊢ |={Set.univ}=> iprop(BI.own (EH (initOf (K (F := F)).hsCells (K (F := F)).hsToks)) ∗ (bigSep Finset.univ fun d : Dev nD => G0 (F := F) d)
        ∗ bigSep Finset.univ fun thr : Thread nD τ => bigSep Finset.univ fun q : Fin 2 => (P m).x q thr) := by
  unfold u₀
  iintro Hu
  ihave H := (ownU_pair _ _) $$ Hu
  icases H with ⟨HH, HR⟩
  ihave H2 := (own_pair_emb (embR : Emb (UPp × Counters) 𝕄) _ _) $$ HR
  icases H2 with ⟨HP, -⟩
  imod (Pipeline.fund_ghost cfgs (EP (F := F)) cellOf_inj) $$ HP with ⟨Hg, Htok⟩
  imodintro
  isplitl [HH]; · iexact HH
  isplitl [Hg Htok]
  · rw [G0_eq]
    isplitl [Hg]; · iexact Hg
    iexact Htok
  rw [show (bigSep Finset.univ fun thr : Thread nD τ => bigSep Finset.univ fun q : Fin 2 => (P (F := F) m).x q thr)
      = bigSep Finset.univ fun _ : Thread nD τ => (iprop(emp) : sProp 𝕄) from bigSep_congr fun _ _ => bigSep_emp' _, bigSep_emp']
  iempintro

/-! ## The final memory -/

def fq (d : Dev nD) (s' : Phys nD τ sig (Elt F)) : Prop := ∀ b ∈ Pipeline.ucRefs τ sig, s'.mem.mem (d, b) = W4 m d b

theorem hfin (d : Dev nD) (s' : Phys nD τ sig (Elt F)) : iprop(FIN m d ∗ SI s') ⊢ (⌜fq m d s'⌝ : sProp 𝕄) := by
  have h := pointsTo_read_all (Ix := HIx 2) (Name := ℕ) (U := UU) (Lvl := ℕ) (Pipeline.ucRefs τ sig) (fun b => ((d, b) : Loc nD τ sig)) (W4 m d) s'
  refine (show iprop(FIN m d ∗ SI s') ⊢ _ from h).trans ?_
  iintro ⟨%h, -⟩
  ipureintro; exact h

/-! ## The tiles' obligations and the sequencers' splits -/

omit [FloatOps F] [Named F] in
theorem split_id {A B : sProp 𝕄} : A ⊢ |={Set.univ}=> iprop(A ∗ (B -∗ B)) := by
  iintro H; imodintro
  isplitl [H]; · iexact H
  iintro H; iexact H

theorem vecSplit0 : (K (F := F)).VecSplit' (P m) 0 := fun _ _ => split_id
theorem vecSplit1 : (K (F := F)).VecSplit' (P m) 1 := fun _ _ => split_id

/-! ## The run -/

/-- Every array of the TensorCore ends at the last valuation. -/
def QC : PUnit × MemSt nD τ sig (Elt F) → Prop := fun r => ∀ c : Dev nD, ∀ b ∈ Pipeline.ucRefs τ sig, r.2.mem (c, b) = W4 m c b

theorem run_main [∀ e, Nonempty (Elt F e)] (htok : ∀ d j, (tokT m d j).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => tileObl0 m htok | 1 => tileObl1 m htok)
    (fun q _ => match q with | 0 => SparseCore.Cfg.VecSplit.of_plain (vecSplit0 m) | 1 => SparseCore.Cfg.VecSplit.of_plain (vecSplit1 m))
    m ρ main (G0 (F := F)) (FIN m) (u₀ (F := F)) (sep_elim_left.trans (hu₀ m)) (hmain m ρ) (fq m) (hfin m) (QC m) (fun _ h => h)

end Cert.Proof.KI

end
-- ==== Proof.ArgsKept.lean ====
/-
  The idealized kernel's run in the claim's own spelling: no host stretch of @main writes an argument array and the
  four arrays the kernels' calls replace (the two gathered arrays, the first recurrence's state, the result) are not
  arguments, so each argument ends at its launch contents and the result at the second recurrence's result array.
-/
import proofs.«205923_g40089224741417_cont_sun_m_110_39_alg».proof.Proof.Launch

noncomputable section

namespace Cert.Proof.KI

open Cert.KernelIdeal Cert.KernelIdeal.Gen

open Idealize.ShloMosaic
open Idealize.SL.Sem
open Idealize.ShloMosaic.StableHlo (after)

variable {F : FTy → Type} [FloatOps F] [Named F]

/-! ## Which arrays the host stretches write -/

/-- The arrays the stretch before the first gather writes. -/
abbrev opsA_W : List (Ref sig .tc) := [main_v0, main_v1]
/-- The arrays the stretch between the second gather and the first recurrence writes. -/
abbrev opsB_W : List (Ref sig .tc) :=
  [
    main_c, main_v4, main_v5, main_v6, main_v7, main_v8, main_cst, main_v9, main_c_0, main_v10, main_v11, main_cst_1,
    main_v12, main_c_2, main_v13, main_c_3, main_v14, main_v15, main_v16, main_c_4, main_v17, main_c_5, main_v18,
    main_v19, main_v20, main_v21, main_v22 ]
/-- The arrays the stretch between the two recurrences writes. -/
abbrev opsC_W : List (Ref sig .tc) := [main_v24, main_v25]

/-- One operation's result array is in a literal list of references. -/
local macro "w1" : term =>
  `(by simp only [StableHlo.nullary_writes, StableHlo.unary_writes, StableHlo.binary_writes, StableHlo.ternary_writes, StableHlo.reshape_writes, Finset.singleton_subset_iff, List.mem_toFinset]; exact List.mem_map_of_mem (by decide))

theorem opsA_writes : (opsA : List (HloOp τ sig (Elt F))).Forall fun op => op.writes ⊆ (opsA_W.map (Proc.devRef (τ := τ) .tc)).toFinset := by
  simp only [List.Forall]
  exact ⟨w1, w1⟩
set_option maxRecDepth 100000 in
theorem opsB_writes : (opsB : List (HloOp τ sig (Elt F))).Forall fun op => op.writes ⊆ (opsB_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1⟩
theorem opsC_writes : (opsC : List (HloOp τ sig (Elt F))).Forall fun op => op.writes ⊆ (opsC_W.map (Proc.devRef (τ := τ) .tc)).toFinset := by
  simp only [List.Forall]
  exact ⟨w1, w1⟩

/-! ## An array nothing writes, valuation by valuation -/

section Kept

variable (m : (ℓ : Loc nD τ sig) → Buf (Elt F) ℓ) (ρ : Dev nD → PrngReg) (d : Dev nD)

theorem WA_keep (r : Ref sig .tc) (h : r ∉ opsA_W) : WA m d (Proc.devRef .tc r) = W0 m d (Proc.devRef .tc r) :=
  StableHlo.after_of_writes_sub opsA _ opsA_writes h

theorem W1_keep (r : Ref sig .tc) (h : r ≠ main_v2) : W1 m d (Proc.devRef .tc r) = WA m d (Proc.devRef .tc r) :=
  Function.update_of_ne (StableHlo.devRef_ne_of_ne h) _ _

theorem W2_keep (r : Ref sig .tc) (h : r ≠ main_v3) : W2 m d (Proc.devRef .tc r) = W1 m d (Proc.devRef .tc r) :=
  Function.update_of_ne (StableHlo.devRef_ne_of_ne h) _ _

theorem WB_keep (r : Ref sig .tc) (h : r ∉ opsB_W) : WB m d (Proc.devRef .tc r) = W2 m d (Proc.devRef .tc r) :=
  StableHlo.after_of_writes_sub opsB _ opsB_writes h

variable [∀ e, Nonempty (Elt F e)]

/-- The first recurrence leaves an array that is none of its windows' as it found it. -/
theorem W3_keep (r : Ref sig .tc) (h : ∀ w, Pipeline.arrRef spec2 w ≠ r) :
    W3 m d (Proc.devRef .tc r) = WB m d (Proc.devRef .tc r) :=
  W3_of_ne m d r h

/-- and an input window's array too: the pipeline never writes an input. -/
theorem W3_in (w : Fin cfg2.W) (hin : ((Pipeline.pin (pcfgs (F := F)) adm 0).win w).isOut = false) :
    W3 m d (Proc.devRef .tc (Pipeline.arrRef spec2 w)) = WB m d (Proc.devRef .tc (Pipeline.arrRef spec2 w)) :=
  (W3_arr m d w).trans ((dat2 d (byRef d (WB m d))).arrAt_in w hin cfg2.N)

theorem WC_keep (r : Ref sig .tc) (h : r ∉ opsC_W) : WC m d (Proc.devRef .tc r) = W3 m d (Proc.devRef .tc r) :=
  StableHlo.after_of_writes_sub opsC _ opsC_writes h

/-- The second recurrence leaves an array that is none of its windows' as it found it. -/
theorem W4_keep' (r : Ref sig .tc) (h : ∀ w, Pipeline.arrRef spec3 w ≠ r) :
    W4 m d (Proc.devRef .tc r) = WC m d (Proc.devRef .tc r) :=
  W4_of_ne m d r h

/-- and an input window's array too. -/
theorem W4_in (w : Fin cfg3.W) (hin : ((Pipeline.pin (pcfgs (F := F)) adm 1).win w).isOut = false) :
    W4 m d (Proc.devRef .tc (Pipeline.arrRef spec3 w)) = WC m d (Proc.devRef .tc (Pipeline.arrRef spec3 w)) :=
  (W4_arr m d w).trans ((dat3 d (byRef d (WC m d))).arrAt_in w hin cfg3.N)

/-- An array that no host stretch writes, that neither gather call replaces and that both recurrences leave as they
    found it ends at its launch contents. -/
theorem W4_keep (r : Ref sig .tc) (hA : r ∉ opsA_W) (hB : r ∉ opsB_W) (hC : r ∉ opsC_W) (h2 : r ≠ main_v2) (h3 : r ≠ main_v3)
    (hR0 : W3 m d (Proc.devRef .tc r) = WB m d (Proc.devRef .tc r))
    (hR1 : W4 m d (Proc.devRef .tc r) = WC m d (Proc.devRef .tc r)) :
    W4 m d (Proc.devRef .tc r) = m ((d.tc : Thread nD τ).loc r) := by
  rw [hR1, WC_keep m d r hC, hR0, WB_keep m d r hB, W2_keep m d r h3, W1_keep m d r h2, WA_keep m d r hA]
  rfl

theorem W4_arg0 : W4 m d (Proc.devRef .tc main_arg0) = m ((d.tc : Thread nD τ).loc main_arg0) :=
  W4_keep m d main_arg0 (by decide) (by decide) (by decide) (by decide) (by decide)
    (W3_keep m d main_arg0 (by decide)) (W4_keep' m d main_arg0 (by decide))
theorem W4_arg1 : W4 m d (Proc.devRef .tc main_arg1) = m ((d.tc : Thread nD τ).loc main_arg1) :=
  W4_keep m d main_arg1 (by decide) (by decide) (by decide) (by decide) (by decide)
    (W3_keep m d main_arg1 (by decide)) (W4_keep' m d main_arg1 (by decide))
theorem W4_arg2 : W4 m d (Proc.devRef .tc main_arg2) = m ((d.tc : Thread nD τ).loc main_arg2) :=
  W4_keep m d main_arg2 (by decide) (by decide) (by decide) (by decide) (by decide)
    (W3_keep m d main_arg2 (by decide)) (W4_keep' m d main_arg2 (by decide))
theorem W4_arg4 : W4 m d (Proc.devRef .tc main_arg4) = m ((d.tc : Thread nD τ).loc main_arg4) :=
  W4_keep m d main_arg4 (by decide) (by decide) (by decide) (by decide) (by decide)
    (W3_keep m d main_arg4 (by decide)) (W4_keep' m d main_arg4 (by decide))
theorem W4_arg5 : W4 m d (Proc.devRef .tc main_arg5) = m ((d.tc : Thread nD τ).loc main_arg5) :=
  W4_keep m d main_arg5 (by decide) (by decide) (by decide) (by decide) (by decide)
    (W3_keep m d main_arg5 (by decide)) (W4_keep' m d main_arg5 (by decide))
theorem W4_arg6 : W4 m d (Proc.devRef .tc main_arg6) = m ((d.tc : Thread nD τ).loc main_arg6) :=
  W4_keep m d main_arg6 (by decide) (by decide) (by decide) (by decide) (by decide)
    (W3_keep m d main_arg6 (by decide)) (W4_keep' m d main_arg6 (by decide))
theorem W4_arg8 : W4 m d (Proc.devRef .tc main_arg8) = m ((d.tc : Thread nD τ).loc main_arg8) :=
  W4_keep m d main_arg8 (by decide) (by decide) (by decide) (by decide) (by decide)
    (W3_keep m d main_arg8 (by decide)) (W4_keep' m d main_arg8 (by decide))
theorem W4_arg9 : W4 m d (Proc.devRef .tc main_arg9) = m ((d.tc : Thread nD τ).loc main_arg9) :=
  W4_keep m d main_arg9 (by decide) (by decide) (by decide) (by decide) (by decide)
    (W3_keep m d main_arg9 (by decide)) (W4_keep' m d main_arg9 (by decide))
theorem W4_arg10 : W4 m d (Proc.devRef .tc main_arg10) = m ((d.tc : Thread nD τ).loc main_arg10) :=
  W4_keep m d main_arg10 (by decide) (by decide) (by decide) (by decide) (by decide)
    (W3_keep m d main_arg10 (by decide)) (W4_keep' m d main_arg10 (by decide))
/-- The input weights are window 1 of both recurrences. -/
theorem W4_arg3 : W4 m d (Proc.devRef .tc main_arg3) = m ((d.tc : Thread nD τ).loc main_arg3) :=
  W4_keep m d main_arg3 (by decide) (by decide) (by decide) (by decide) (by decide)
    (W3_in m d 1 rfl) (W4_in m d 1 rfl)
/-- The first layer's weights are window 8 of the second recurrence. -/
theorem W4_arg7 : W4 m d (Proc.devRef .tc main_arg7) = m ((d.tc : Thread nD τ).loc main_arg7) :=
  W4_keep m d main_arg7 (by decide) (by decide) (by decide) (by decide) (by decide)
    (W3_keep m d main_arg7 (by decide)) (W4_in m d 8 rfl)

/-- The result array ends at the second recurrence's result. -/
theorem W4_out : W4 m d rOut = outV m d := rfl

end Kept

/-! ## The run, in the claim's spelling -/

/-- Every weakly fair execution of the idealized kernel's program terminates without fault, with the result array at
    the second recurrence's result and every argument unchanged. -/
theorem run_claim [∀ e, Nonempty (Elt F e)] (m : (ℓ : Loc nD τ sig) → Buf (Elt F) ℓ) (ρ : Dev nD → PrngReg)
    (htok : ∀ d j, (tokT m d j).toNat < 100000) :
    θ_run (Cert.KernelIdeal.defs (F := F)) (Cert.KernelIdeal.threads (F := F)) ⟨m, fun _ => 0, ρ⟩
      (fun r => ∀ c : Dev nD,
        r.2.mem ((c.tc : Thread nD τ).loc main_v26) = outV m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) :=
  (θ_run (Cert.KernelIdeal.defs (F := F)) _ _).mono (fun r h c =>
    ⟨(h c _ (mem_uc main_v26 rfl)).trans (W4_out m c),
     (h c _ (mem_uc main_arg0 rfl)).trans (W4_arg0 m c),
     (h c _ (mem_uc main_arg1 rfl)).trans (W4_arg1 m c),
     (h c _ (mem_uc main_arg2 rfl)).trans (W4_arg2 m c),
     (h c _ (mem_uc main_arg3 rfl)).trans (W4_arg3 m c),
     (h c _ (mem_uc main_arg4 rfl)).trans (W4_arg4 m c),
     (h c _ (mem_uc main_arg5 rfl)).trans (W4_arg5 m c),
     (h c _ (mem_uc main_arg6 rfl)).trans (W4_arg6 m c),
     (h c _ (mem_uc main_arg7 rfl)).trans (W4_arg7 m c),
     (h c _ (mem_uc main_arg8 rfl)).trans (W4_arg8 m c),
     (h c _ (mem_uc main_arg9 rfl)).trans (W4_arg9 m c),
     (h c _ (mem_uc main_arg10 rfl)).trans (W4_arg10 m c)⟩)
    (run_main m ρ htok)

end Cert.Proof.KI

end
-- ==== Proof.Spec.lean ====
/-
  The reference's function, stated over the argument arrays alone (no program is imported): the hidden state after
  `t` scan steps, `hAt t`, is the reference's own loop step iterated from the zero state; the result `G` is its
  tail (two relu layers and a log-softmax over the three classes) at `hAt 2048`. Every operation is spelt by the
  library function the reference applies, at the ideal instance (floats extended reals, operations exact).

  One scan step, at counter `t` (position `p = 2047 - t`):
    h' = select (p < lengths[i]) (tanh (((emb[tokens[i, p]] · W_ihᵀ + b_ih) + h · W_hhᵀ) + b_hh)) h
  where the column `tokens[:, p]` is a clamped one-column slice, a negative token is wrapped by the vocabulary size,
  and a row whose wrapped token is outside `[0, 99999]` reads a quiet NaN instead of a table row.
-/
import Idealize.ShloMosaic.PureOps
import Idealize.ShloMosaic.PureOps.Ideal
import Idealize.ShloMosaic.Lib.ValueIdx

noncomputable section

namespace Cert.Proof.Spec

open Idealize.ShloMosaic

/-! ## Shapes (spelt as the reference spells them) -/

abbrev S16x2048 : Shape := ⟨2, ![16, 2048]⟩
abbrev S16 : Shape := ⟨1, ![16]⟩
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S3x256 : Shape := ⟨2, ![3, 256]⟩
abbrev S3 : Shape := ⟨1, ![3]⟩
abbrev S_ : Shape := ⟨0, ![]⟩
abbrev S16x128 : Shape := ⟨2, ![16, 128]⟩
abbrev S2048 : Shape := ⟨1, ![2048]⟩
abbrev S1 : Shape := ⟨1, ![1]⟩
abbrev S16x1 : Shape := ⟨2, ![16, 1]⟩
abbrev S1x1 : Shape := ⟨2, ![1, 1]⟩
abbrev S1x128 : Shape := ⟨2, ![1, 128]⟩
abbrev S128x256 : Shape := ⟨2, ![128, 256]⟩
abbrev S16x256 : Shape := ⟨2, ![16, 256]⟩
abbrev S1x256 : Shape := ⟨2, ![1, 256]⟩
abbrev S256x3 : Shape := ⟨2, ![256, 3]⟩
abbrev S16x3 : Shape := ⟨2, ![16, 3]⟩
abbrev S1x3 : Shape := ⟨2, ![1, 3]⟩

/-- An array of shape `s` and element type `e` at the ideal instance. -/
abbrev C (s : Shape) (e : EltTy) : Type := (⟨s, e⟩ : BufTy).Contents (Elt Ideal)

/-- The float operations at the ideal instance and the `f32` format (the format cannot be read off an extended real). -/
local notation "addF" => addf (F := Ideal) (φ := FTy.f32)
local notation "subF" => subf (F := Ideal) (φ := FTy.f32)
local notation "maxF" => maximumf (F := Ideal) (φ := FTy.f32)
local notation "tanhF" => Host.tanh (F := Ideal) (φ := FTy.f32)
local notation "expF" => Host.exp (F := Ideal) (φ := FTy.f32)
local notation "logF" => Host.log (F := Ideal) (φ := FTy.f32)
local notation "dotF" => Host.dotGeneral (F := Ideal) (φ₁ := FTy.f32) (φ₂ := FTy.f32)
local notation "cstF" => constant (F := Ideal) S_ FTy.f32

/-! ## The shape relations the operations take -/

theorem bcast_S_S16x128 : S_.BroadcastsInDim S16x128 (![] : Fin 0 → Fin S16x128.rank) := by decide
theorem bcast_S_S2048 : S_.BroadcastsInDim S2048 (![] : Fin 0 → Fin S2048.rank) := by decide
theorem sliceFits_S2048_S1 : S2048.Slices (fun _ => 0) S1 := by decide
theorem h_S_ : 0 < S_.numel := by decide
theorem shapeCasts_S1_S_ : S1.ShapeCasts S_ := by decide
theorem sliceFits_S16x2048_S16x1 : S16x2048.Slices (fun _ => 0) S16x1 := by decide
theorem shapeCasts_S16x1_S16 : S16x1.ShapeCasts S16 := by decide
theorem bcast_S_S16 : S_.BroadcastsInDim S16 (![] : Fin 0 → Fin S16.rank) := by decide
theorem bcast_S16_S16x1_0 : S16.BroadcastsInDim S16x1 (![0] : Fin 1 → Fin S16x1.rank) := by decide
theorem bcast_S_S16x1 : S_.BroadcastsInDim S16x1 (![] : Fin 0 → Fin S16x1.rank) := by decide
theorem bcast_S1_S1x1_1 : S1.BroadcastsInDim S1x1 (![1] : Fin 1 → Fin S1x1.rank) := by decide
theorem bcast_S1x1_S16x1_0_1 : S1x1.BroadcastsInDim S16x1 (![0, 1] : Fin 2 → Fin S16x1.rank) := by decide
theorem reducesTo_S16x1_S16_d1 : S16x1.ReducesTo [1] S16 := by decide
theorem bcast_S16_S16x128_0 : S16.BroadcastsInDim S16x128 (![0] : Fin 1 → Fin S16x128.rank) := by decide
theorem transposes_S128x128_S128x128_1_0 : S128x128.Transposes [1, 0] S128x128 := by decide
theorem bcast_S128_S1x128_1 : S128.BroadcastsInDim S1x128 (![1] : Fin 1 → Fin S1x128.rank) := by decide
theorem bcast_S1x128_S16x128_0_1 : S1x128.BroadcastsInDim S16x128 (![0, 1] : Fin 2 → Fin S16x128.rank) := by decide
theorem bcast_S16x1_S16x128_0_1 : S16x1.BroadcastsInDim S16x128 (![0, 1] : Fin 2 → Fin S16x128.rank) := by decide
theorem transposes_S256x128_S128x256_1_0 : S256x128.Transposes [1, 0] S128x256 := by decide
theorem bcast_S256_S1x256_1 : S256.BroadcastsInDim S1x256 (![1] : Fin 1 → Fin S1x256.rank) := by decide
theorem bcast_S1x256_S16x256_0_1 : S1x256.BroadcastsInDim S16x256 (![0, 1] : Fin 2 → Fin S16x256.rank) := by decide
theorem bcast_S_S16x256 : S_.BroadcastsInDim S16x256 (![] : Fin 0 → Fin S16x256.rank) := by decide
theorem transposes_S3x256_S256x3_1_0 : S3x256.Transposes [1, 0] S256x3 := by decide
theorem bcast_S3_S1x3_1 : S3.BroadcastsInDim S1x3 (![1] : Fin 1 → Fin S1x3.rank) := by decide
theorem bcast_S1x3_S16x3_0_1 : S1x3.BroadcastsInDim S16x3 (![0, 1] : Fin 2 → Fin S16x3.rank) := by decide
theorem bcast_S_S16x3 : S_.BroadcastsInDim S16x3 (![] : Fin 0 → Fin S16x3.rank) := by decide
theorem reducesTo_S16x3_S16_d1 : S16x3.ReducesTo [1] S16 := by decide
theorem bcast_S16x1_S16x3_0_1 : S16x1.BroadcastsInDim S16x3 (![0, 1] : Fin 2 → Fin S16x3.rank) := by decide
theorem gatherRows_wf : GatherDims.WF S100000x128 S16x1 S16x128 [1] [0] [] [0] [] 1 ![1, 128] := by decide
theorem dotHH_wf : DotDims.WF S16x128 S128x128 S16x128 [1] [0] [0] [1] [] [] := by decide
theorem dotH0_wf : DotDims.WF S16x128 S128x256 S16x256 [1] [0] [0] [1] [] [] := by decide
theorem dot01_wf : DotDims.WF S16x256 S256x3 S16x3 [1] [0] [0] [1] [] [] := by decide

/-- One table row per index: row `idx[i, 0]` of the table becomes row `i` of the result. -/
def gatherRows : GatherDims S100000x128 S16x1 S16x128 where
  offsetDims := [1]
  collapsedSliceDims := [0]
  operandBatchingDims := []
  startIndicesBatchingDims := []
  startIndexMap := [0]
  indexVectorDim := 1
  sliceSizes := ![1, 128]
  wf := gatherRows_wf
/-- `[16, 128] · [128, 128]`, the left operand's axis 1 against the right operand's axis 0. -/
def dotHH : DotDims S16x128 S128x128 S16x128 where
  lhsContracting := [1]
  rhsContracting := [0]
  lhsNonContracting := [0]
  rhsNonContracting := [1]
  lhsBatch := []
  rhsBatch := []
  wf := dotHH_wf
/-- `[16, 128] · [128, 256]`. -/
def dotH0 : DotDims S16x128 S128x256 S16x256 where
  lhsContracting := [1]
  rhsContracting := [0]
  lhsNonContracting := [0]
  rhsNonContracting := [1]
  lhsBatch := []
  rhsBatch := []
  wf := dotH0_wf
/-- `[16, 256] · [256, 3]`. -/
def dot01 : DotDims S16x256 S256x3 S16x3 where
  lhsContracting := [1]
  rhsContracting := [0]
  lhsNonContracting := [0]
  rhsNonContracting := [1]
  lhsBatch := []
  rhsBatch := []
  wf := dot01_wf

/-! ## One scan step -/

/-- The scanned positions, as the reference builds them: `2047 + (-1) * iota`, so entry `k` is `2047 - k`. -/
def positions : C S2048 .i32 :=
  addi (broadcastInDim S2048 ![] bcast_S_S2048 (constantI S_ 32 2047#32))
    (muli (broadcastInDim S2048 ![] bcast_S_S2048 (constantI S_ 32 4294967295#32)) (iotaInDim S2048 32 0))

/-- The position read at a counter's value from an array of positions: a clamped one-element slice, as a scalar. -/
def posOf (pos : C S2048 .i32) (ctr : C S_ .i32) : C S_ .i32 :=
  shapeCast S_ (Host.dynamicSlice S1 pos (fun k => ((![ctr] : Fin 1 → C S_ .i32) k (Shape.Idx.first h_S_)).toInt)
    sliceFits_S2048_S1) shapeCasts_S1_S_

/-- The counter of trip `t`, as a scalar array. -/
def ctr (t : ℕ) : C S_ .i32 := fun _ => BitVec.ofNat 32 t

/-- The position trip `t` reads. -/
def posAt (t : ℕ) : C S_ .i32 := posOf positions (ctr t)

/-- Column `p` of the tokens (a negative `p` wrapped by 2048; the slice clamped into the array), one token per row. -/
def tokCol (tokens : C S16x2048 .i32) (p : C S_ .i32) : C S16 .i32 :=
  let row : C S_ .i32 := select (cmpi .slt (constantI S_ 32 0#32) (constantI S_ 32 0#32))
    (addi (constantI S_ 32 0#32) (constantI S_ 32 16#32)) (constantI S_ 32 0#32)
  let col : C S_ .i32 := select (cmpi .slt p (constantI S_ 32 0#32)) (addi p (constantI S_ 32 2048#32)) p
  shapeCast S16 (Host.dynamicSlice S16x1 tokens (fun k => ((![row, col] : Fin 2 → C S_ .i32) k (Shape.Idx.first h_S_)).toInt)
    sliceFits_S16x2048_S16x1) shapeCasts_S16x1_S16

/-- The table's rows at the tokens: a negative token wrapped by the vocabulary size; a row whose wrapped token is
    outside `[0, 99999]` is filled with the quiet NaN. -/
def take (emb : C S100000x128 .f32) (tok : C S16 .i32) : C S16x128 .f32 :=
  let idx : C S16 .i32 := select (cmpi .slt tok (broadcastInDim S16 ![] bcast_S_S16 (constantI S_ 32 0#32)))
    (addi tok (broadcastInDim S16 ![] bcast_S_S16 (constantI S_ 32 100000#32))) tok
  let idx1 : C S16x1 .i32 := broadcastInDim S16x1 ![0] bcast_S16_S16x1_0 idx
  let ok : C S16x1 .i1 := andi (cmpi .sge idx1 (broadcastInDim S16x1 ![] bcast_S_S16x1 (constantI S_ 32 0#32)))
    (cmpi .sle idx1 (broadcastInDim S16x1 ![0, 1] bcast_S1x1_S16x1_0_1
      (broadcastInDim S1x1 ![1] bcast_S1_S1x1_1 (constantI S1 32 99999#32))))
  let okRow : C S16 .i1 := Host.reduce IntOp.andi ok (constantI S_ 1 1#1) reducesTo_S16x1_S16_d1 h_S_
  select (broadcastInDim S16x128 ![0] bcast_S16_S16x128_0 okRow) (Host.gather gatherRows emb idx1)
    (broadcastInDim S16x128 ![] bcast_S_S16x128 (cstF 0x7FC00000#32))

/-- The recurrent cell: `tanh (((x · W_ihᵀ + b_ih) + h · W_hhᵀ) + b_hh)`. -/
def cell (W_ih : C S128x128 .f32) (b_ih : C S128 .f32) (W_hh : C S128x128 .f32) (b_hh : C S128 .f32)
    (x h : C S16x128 .f32) : C S16x128 .f32 :=
  tanhF (addF (addF (addF
      (dotF dotHH none x (transpose S128x128 [1, 0] W_ih transposes_S128x128_S128x128_1_0))
      (broadcastInDim S16x128 ![0, 1] bcast_S1x128_S16x128_0_1 (broadcastInDim S1x128 ![1] bcast_S128_S1x128_1 b_ih)))
      (dotF dotHH none h (transpose S128x128 [1, 0] W_hh transposes_S128x128_S128x128_1_0)))
      (broadcastInDim S16x128 ![0, 1] bcast_S1x128_S16x128_0_1 (broadcastInDim S1x128 ![1] bcast_S128_S1x128_1 b_hh)))

/-- Which rows a step at position `p` updates: `p < lengths[i]` (signed), along every lane of row `i`. -/
def mask (lengths : C S16 .i32) (p : C S_ .i32) : C S16x128 .i1 :=
  broadcastInDim S16x128 ![0, 1] bcast_S16x1_S16x128_0_1 (broadcastInDim S16x1 ![0] bcast_S16_S16x1_0
    (cmpi .slt (broadcastInDim S16 ![] bcast_S_S16 p) lengths))

/-- One step at position `p`: the cell's value on the active rows, the state kept on the others. -/
def stepAt (tokens : C S16x2048 .i32) (lengths : C S16 .i32) (emb : C S100000x128 .f32) (W_ih : C S128x128 .f32)
    (b_ih : C S128 .f32) (W_hh : C S128x128 .f32) (b_hh : C S128 .f32) (p : C S_ .i32) (h : C S16x128 .f32) :
    C S16x128 .f32 :=
  select (mask lengths p) (cell W_ih b_ih W_hh b_hh (take emb (tokCol tokens p)) h) h

/-- The step of trip `t` (position `posAt t`). -/
def step (tokens : C S16x2048 .i32) (lengths : C S16 .i32) (emb : C S100000x128 .f32) (W_ih : C S128x128 .f32)
    (b_ih : C S128 .f32) (W_hh : C S128x128 .f32) (b_hh : C S128 .f32) (t : ℕ) (h : C S16x128 .f32) : C S16x128 .f32 :=
  stepAt tokens lengths emb W_ih b_ih W_hh b_hh (posAt t) h

/-- The state before the first step: zero. -/
def h0 : C S16x128 .f32 := broadcastInDim S16x128 ![] bcast_S_S16x128 (cstF 0x00000000#32)

/-- The state after `t` steps. -/
def hAt (tokens : C S16x2048 .i32) (lengths : C S16 .i32) (emb : C S100000x128 .f32) (W_ih : C S128x128 .f32)
    (b_ih : C S128 .f32) (W_hh : C S128x128 .f32) (b_hh : C S128 .f32) : ℕ → C S16x128 .f32
  | 0 => h0
  | t + 1 => step tokens lengths emb W_ih b_ih W_hh b_hh t (hAt tokens lengths emb W_ih b_ih W_hh b_hh t)

/-! ## The tail -/

/-- `max x 0` on `[16, 256]`. -/
def relu256 (x : C S16x256 .f32) : C S16x256 .f32 :=
  maxF x (broadcastInDim S16x256 ![] bcast_S_S16x256 (cstF 0x00000000#32))

/-- `max x 0` on `[16, 3]`. -/
def relu3 (x : C S16x3 .f32) : C S16x3 .f32 :=
  maxF x (broadcastInDim S16x3 ![] bcast_S_S16x3 (cstF 0x00000000#32))

/-- The log-softmax over the three classes: `(x - max) - log (sum (exp (x - max)))`, the maximum folded from `-∞`. -/
def logSoftmax (x : C S16x3 .f32) : C S16x3 .f32 :=
  let mx : C S16 .f32 := Host.reduce (FloatOps.maximumf (F := Ideal) (φ := .f32)) x (cstF 0xFF800000#32) reducesTo_S16x3_S16_d1 h_S_
  let mx' : C S16 .f32 := maxF (broadcastInDim S16 ![] bcast_S_S16 (cstF 0xFF800000#32)) mx
  let sh : C S16x3 .f32 := subF x (broadcastInDim S16x3 ![0, 1] bcast_S16x1_S16x3_0_1
    (broadcastInDim S16x1 ![0] bcast_S16_S16x1_0 mx'))
  let sm : C S16 .f32 := Host.reduceAdd (F := Ideal) (φ := FTy.f32) (expF sh) (cstF 0x00000000#32) reducesTo_S16x3_S16_d1 h_S_
  subF sh (broadcastInDim S16x3 ![0, 1] bcast_S16x1_S16x3_0_1
    (logF (broadcastInDim S16x1 ![0] bcast_S16_S16x1_0 sm)))

/-- The tail: `log_softmax (relu (relu (h · W0ᵀ + b0) · W1ᵀ + b1))`. -/
def tail (W0 : C S256x128 .f32) (b0 : C S256 .f32) (W1 : C S3x256 .f32) (b1 : C S3 .f32) (h : C S16x128 .f32) :
    C S16x3 .f32 :=
  logSoftmax (relu3 (addF
    (dotF dot01 none
      (relu256 (addF (dotF dotH0 none h (transpose S128x256 [1, 0] W0 transposes_S256x128_S128x256_1_0))
        (broadcastInDim S16x256 ![0, 1] bcast_S1x256_S16x256_0_1 (broadcastInDim S1x256 ![1] bcast_S256_S1x256_1 b0))))
      (transpose S256x3 [1, 0] W1 transposes_S3x256_S256x3_1_0))
    (broadcastInDim S16x3 ![0, 1] bcast_S1x3_S16x3_0_1 (broadcastInDim S1x3 ![1] bcast_S3_S1x3_1 b1))))

/-! ## The result -/

/-- The reference's result as one function of its eleven argument arrays. -/
def G (tokens : C S16x2048 .i32) (lengths : C S16 .i32) (emb : C S100000x128 .f32) (W_ih : C S128x128 .f32)
    (b_ih : C S128 .f32) (W_hh : C S128x128 .f32) (b_hh : C S128 .f32) (W0 : C S256x128 .f32) (b0 : C S256 .f32)
    (W1 : C S3x256 .f32) (b1 : C S3 .f32) : C S16x3 .f32 :=
  tail W0 b0 W1 b1 (hAt tokens lengths emb W_ih b_ih W_hh b_hh 2048)

end Cert.Proof.Spec

end
-- ==== Proof.RefRun.lean ====
/-
  The reference's run: every weakly fair execution of the idealized reference's @main terminates without fault,
  leaves its eleven arguments unchanged, and ends with its result equal to `Spec.G` of the arguments.

  The generated run gives every buffer at the fold of the program's operations: the stretch before the loop, the
  condition and the body 2048 times round, the failing condition, the stretches after the loop. Read here: one trip
  of the body takes the carried state `h` to `Spec.stepAt` of the carried arguments at the position the trip's
  counter reads; the loop never writes an argument, the positions or the carried copies of the arguments; so the
  state before the `k`-th condition is `Spec.hAt … k`, and the stretches after the loop are `Spec.tail`.
-/
import proofs.«205923_g40089224741417_cont_sun_m_110_39_alg».proof.ReferenceIdeal
import proofs.«205923_g40089224741417_cont_sun_m_110_39_alg».proof.Proof.Gen.ReferenceIdeal
import proofs.«205923_g40089224741417_cont_sun_m_110_39_alg».proof.Proof.Gen.ReferenceIdeal.Run
import proofs.«205923_g40089224741417_cont_sun_m_110_39_alg».proof.Proof.Spec

noncomputable section

namespace Cert.Proof.RefRun

open Cert.ReferenceIdeal Cert.ReferenceIdeal.Gen Cert.ReferenceIdeal.Value
open Idealize.ShloMosaic Idealize.ShloMosaic.TcCoe Idealize.SL.Sem
open Idealize.ShloMosaic.StableHlo

/-! ## An indexed operation's result, its index operands read one by one

The library reads an indexed operation's index operands as a family `fun k => …(ix k)…`; for a literal family of one
or two typed references the family is the literal vector of the operands' contents (case by case on `k`), which
the rewriting of the operations before it can then go on into. -/

section Indexed

variable {Val : EltTy → Type} {Ta T Ty : BufTy}

theorem unaryIndexed_one_result' (a : TRef sig Ta) (i0 : TRef sig T) (y : TRef sig Ty)
    (f : Ta.Contents Val → (Fin 1 → T.Contents Val) → Ty.Contents Val) (F : Valuation τ sig Val) :
    (TRef.unaryIndexed (τ := τ) a ![i0] y f : HloOp τ sig Val).result F (no_index (Proc.devRef .tc y.ref))
      = y.toBuf (f (a.ofBuf (F (Proc.devRef .tc a.ref))) ![i0.ofBuf (F (Proc.devRef .tc i0.ref))]) := by
  have hfam : (fun k => cast (congrArg (fun U : BufTy => U.Contents Val) ((![i0] k).ty_eq))
      (F (Proc.devRef .tc (![i0] k).ref))) = ![i0.ofBuf (F (Proc.devRef .tc i0.ref))] := by
    funext k; fin_cases k; rfl
  exact (unaryIndexed_result' (fun k => (![i0] k).ref) T _ _ _ _ _ F).trans
    (congrArg (fun g => y.toBuf (f (a.ofBuf (F (Proc.devRef .tc a.ref))) g)) hfam)

theorem unaryIndexed_two_result' (a : TRef sig Ta) (i0 i1 : TRef sig T) (y : TRef sig Ty)
    (f : Ta.Contents Val → (Fin 2 → T.Contents Val) → Ty.Contents Val) (F : Valuation τ sig Val) :
    (TRef.unaryIndexed (τ := τ) a ![i0, i1] y f : HloOp τ sig Val).result F (no_index (Proc.devRef .tc y.ref))
      = y.toBuf (f (a.ofBuf (F (Proc.devRef .tc a.ref)))
          ![i0.ofBuf (F (Proc.devRef .tc i0.ref)), i1.ofBuf (F (Proc.devRef .tc i1.ref))]) := by
  have hfam : (fun k => cast (congrArg (fun U : BufTy => U.Contents Val) ((![i0, i1] k).ty_eq))
      (F (Proc.devRef .tc (![i0, i1] k).ref)))
      = ![i0.ofBuf (F (Proc.devRef .tc i0.ref)), i1.ofBuf (F (Proc.devRef .tc i1.ref))] := by
    funext k; fin_cases k <;> rfl
  exact (unaryIndexed_result' (fun k => (![i0, i1] k).ref) T _ _ _ _ _ F).trans
    (congrArg (fun g => y.toBuf (f (a.ofBuf (F (Proc.devRef .tc a.ref))) g)) hfam)

end Indexed

/-- The operations' results by one rewriting pass, an indexed operation's index operands read one by one. -/
local macro "results_simp" : tactic =>
  `(tactic| (simp (disch := decide) only [after_cons, after_nil,
      nullary_result', unary_result', binary_result', ternary_result', reshape_result',
      unaryIndexed_one_result', unaryIndexed_two_result',
      nullary_result_ne', unary_result_ne', binary_result_ne', ternary_result_ne', reshape_result_ne',
      unaryIndexed_result_ne']))

/-! ## Which buffers each stretch writes -/

/-- The buffers @main writes before the loop. -/
abbrev preW : List (Ref sig .tc) :=
  [
    main_cst, main_v0, main_v1, main_c, main_v2, main_v3, main_c_0, main_v4, main_v5, main_c_1, main_v6_0, main_v6_1,
    main_v6_2, main_v6_3, main_v6_4, main_v6_5, main_v6_6, main_v6_7, main_v6_8, main_v6_9 ]
/-- The buffers the loop's condition and body write. -/
abbrev loopW : List (Ref sig .tc) :=
  [
    main_while0c_c_11, main_while0c_v20, main_while0b_call0_v0, main_while0b_v20, main_while0b_call1_c,
    main_while0b_call1_c_0, main_while0b_call1_v0, main_while0b_call1_c_1, main_while0b_call1_c_2,
    main_while0b_call1_v1, main_while0b_call1_c_3, main_while0b_call1_v2, main_while0b_call1_c_4,
    main_while0b_call1_v3, main_while0b_call1_c_5, main_while0b_call1_v4, main_while0b_call1_v5,
    main_while0b_call1_v6, main_while0b_call1_v7, main_while0b_call1_call0_c, main_while0b_call1_call0_v0,
    main_while0b_call1_call0_v1, main_while0b_call1_call0_c_0, main_while0b_call1_call0_v2,
    main_while0b_call1_call0_v3, main_while0b_call1_call0_v4, main_while0b_call1_call0_v5,
    main_while0b_call1_call0_c_1, main_while0b_call1_call0_c_2, main_while0b_call1_call0_v6,
    main_while0b_call1_call0_v7, main_while0b_call1_call0_v8, main_while0b_call1_call0_v9,
    main_while0b_call1_call0_v10, main_while0b_call1_call0_v11, main_while0b_call1_call0_c_3,
    main_while0b_call1_call0_v12, main_while0b_call1_call0_v13, main_while0b_call1_call0_v14,
    main_while0b_call1_call0_cst, main_while0b_call1_call0_v15, main_while0b_call1_v8, main_while0b_call1_v9,
    main_while0b_call1_v10, main_while0b_call1_v11, main_while0b_call1_v12, main_while0b_call1_v13,
    main_while0b_call1_v14, main_while0b_call1_v15, main_while0b_call1_v16, main_while0b_call1_v17,
    main_while0b_call1_v18, main_while0b_call1_v19, main_while0b_call1_v20, main_while0b_call1_v21,
    main_while0b_call1_v22, main_while0b_call1_v23, main_while0b_call1_call1_v0, main_while0b_v21, main_while0b_c_11,
    main_while0b_v22, main_v6_8, main_v6_9 ]
/-- The buffers @main writes after the loop. -/
abbrev postW : List (Ref sig .tc) :=
  [
    main_v7, main_v8, main_v9, main_v10, main_v11, main_call2_cst, main_call2_v0, main_v12, main_v13, main_v14,
    main_v15, main_v16, main_v17, main_call3_cst, main_call3_v0, main_v18, main_call4_cst, main_call4_v0,
    main_call4_cst_0, main_call4_v1, main_call4_v2, main_call4_v3, main_call4_v4, main_call4_v5, main_call4_v6,
    main_call4_cst_1, main_call4_v7, main_call4_v8, main_call4_v9, main_call4_v10, main_v19 ]

/-- One operation's result buffer is in a literal list of references. -/
local macro "w1" : term =>
  `(by simp only [StableHlo.nullary_writes, StableHlo.unary_writes, StableHlo.binary_writes, StableHlo.ternary_writes, StableHlo.reshape_writes, StableHlo.unaryIndexed_writes, Finset.singleton_subset_iff, List.mem_toFinset]; exact List.mem_map_of_mem (by decide))

set_option maxRecDepth 100000 in
set_option maxHeartbeats 4000000 in
theorem hostOps0_writes : (hostOps0 : List (HloOp τ sig (Elt Ideal))).Forall fun op => op.writes ⊆ (preW.map (Proc.devRef (τ := τ) .tc)).toFinset := by
  simp only [List.Forall]
  exact ⟨w1, w1, w1, w1, w1, w1, w1, w1, w1, w1, w1, w1, w1, w1, w1, w1, w1, w1, w1, w1⟩
set_option maxRecDepth 100000 in
set_option maxHeartbeats 4000000 in
theorem condOps_writes : (condOps : List (HloOp τ sig (Elt Ideal))).Forall fun op => op.writes ⊆ (loopW.map (Proc.devRef (τ := τ) .tc)).toFinset := by
  simp only [List.Forall]
  exact ⟨w1, w1⟩
set_option maxRecDepth 100000 in
set_option maxHeartbeats 4000000 in
theorem while0Ops0_writes : (while0Ops0 : List (HloOp τ sig (Elt Ideal))).Forall fun op => op.writes ⊆ (loopW.map (Proc.devRef (τ := τ) .tc)).toFinset := by
  simp only [List.Forall]
  exact ⟨w1, w1⟩
set_option maxRecDepth 100000 in
set_option maxHeartbeats 4000000 in
theorem while0Ops0_1_writes : (while0Ops0_1 : List (HloOp τ sig (Elt Ideal))).Forall fun op => op.writes ⊆ (loopW.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩
set_option maxRecDepth 100000 in
set_option maxHeartbeats 4000000 in
theorem while0Ops0_2_writes : (while0Ops0_2 : List (HloOp τ sig (Elt Ideal))).Forall fun op => op.writes ⊆ (loopW.map (Proc.devRef (τ := τ) .tc)).toFinset := by
  simp only [List.Forall]
  exact ⟨w1, w1, w1, w1⟩
set_option maxRecDepth 100000 in
set_option maxHeartbeats 4000000 in
theorem hostOps0_1_writes : (hostOps0_1 : List (HloOp τ sig (Elt Ideal))).Forall fun op => op.writes ⊆ (postW.map (Proc.devRef (τ := τ) .tc)).toFinset := by
  simp only [List.Forall]
  exact ⟨w1, w1, w1, w1, w1⟩
set_option maxRecDepth 100000 in
set_option maxHeartbeats 4000000 in
theorem hostOps0_2_writes : (hostOps0_2 : List (HloOp τ sig (Elt Ideal))).Forall fun op => op.writes ⊆ (postW.map (Proc.devRef (τ := τ) .tc)).toFinset := by
  simp only [List.Forall]
  exact ⟨w1, w1, w1⟩
set_option maxRecDepth 100000 in
set_option maxHeartbeats 4000000 in
theorem hostOps0_3_writes : (hostOps0_3 : List (HloOp τ sig (Elt Ideal))).Forall fun op => op.writes ⊆ (postW.map (Proc.devRef (τ := τ) .tc)).toFinset := by
  simp only [List.Forall]
  exact ⟨w1, w1, w1, w1, w1⟩
set_option maxRecDepth 100000 in
set_option maxHeartbeats 4000000 in
theorem hostOps0_4_writes : (hostOps0_4 : List (HloOp τ sig (Elt Ideal))).Forall fun op => op.writes ⊆ (postW.map (Proc.devRef (τ := τ) .tc)).toFinset := by
  simp only [List.Forall]
  exact ⟨w1, w1, w1⟩
set_option maxRecDepth 100000 in
set_option maxHeartbeats 4000000 in
theorem hostOps0_5_writes : (hostOps0_5 : List (HloOp τ sig (Elt Ideal))).Forall fun op => op.writes ⊆ (postW.map (Proc.devRef (τ := τ) .tc)).toFinset := by
  simp only [List.Forall]
  exact ⟨w1, w1, w1, w1, w1, w1, w1, w1, w1, w1, w1, w1, w1, w1, w1⟩

/-! ## What the loop and the stretches around it leave alone -/

/-- One trip round (the condition, then the body) keeps every buffer the loop does not write. -/
theorem trip_keep (X : Valuation τ sig (Elt Ideal)) (r : Ref sig .tc) (h : r ∉ loopW) :
    afterL bodyI (after condOps X) (Proc.devRef .tc r) = X (Proc.devRef .tc r) := by
  simp only [afterL_cons, afterL_nil]
  rw [after_of_writes_sub while0Ops0_2 _ while0Ops0_2_writes h, after_of_writes_sub while0Ops0_1 _ while0Ops0_1_writes h,
    after_of_writes_sub while0Ops0 _ while0Ops0_writes h, after_of_writes_sub condOps _ condOps_writes h]

/-- The failing condition and the stretches after the loop keep every buffer they do not write. -/
theorem post_keep (X : Valuation τ sig (Elt Ideal)) (r : Ref sig .tc) (h : r ∉ loopW) (h' : r ∉ postW) :
    afterL postI (after condOps X) (Proc.devRef .tc r) = X (Proc.devRef .tc r) := by
  simp only [afterL_cons, afterL_nil]
  rw [after_of_writes_sub hostOps0_5 _ hostOps0_5_writes h', after_of_writes_sub hostOps0_4 _ hostOps0_4_writes h',
    after_of_writes_sub hostOps0_3 _ hostOps0_3_writes h', after_of_writes_sub hostOps0_2 _ hostOps0_2_writes h',
    after_of_writes_sub hostOps0_1 _ hostOps0_1_writes h', after_of_writes_sub condOps _ condOps_writes h]

/-- The stretch before the loop keeps every buffer it does not write. -/
theorem pre_keep (X : Valuation τ sig (Elt Ideal)) (r : Ref sig .tc) (h : r ∉ preW) :
    afterL preI X (Proc.devRef .tc r) = X (Proc.devRef .tc r) := by
  simp only [afterL_cons, afterL_nil]
  rw [after_of_writes_sub hostOps0 _ hostOps0_writes h]

/-! ## One trip, and the tail -/

set_option maxRecDepth 100000 in
set_option maxHeartbeats 4000000 in
/-- One trip round takes the carried state to the reference's step of the carried arguments, at the position the
    counter reads off the carried positions. -/
theorem trip_h (X : Valuation τ sig (Elt Ideal)) :
    afterL bodyI (after condOps X) (Proc.devRef .tc main_v6_9)
      = Spec.stepAt (X (Proc.devRef .tc main_v6_1)) (X (Proc.devRef .tc main_v6_7)) (X (Proc.devRef .tc main_v6_2))
          (X (Proc.devRef .tc main_v6_3)) (X (Proc.devRef .tc main_v6_4)) (X (Proc.devRef .tc main_v6_5))
          (X (Proc.devRef .tc main_v6_6)) (Spec.posOf (X (Proc.devRef .tc main_v6_0)) (X (Proc.devRef .tc main_v6_8)))
          (X (Proc.devRef .tc main_v6_9)) := by
  simp only [afterL_cons, afterL_nil]
  results_simp
  rfl

set_option maxRecDepth 100000 in
set_option maxHeartbeats 4000000 in
/-- The failing condition and the stretches after the loop take the carried state to the reference's tail. -/
theorem post_out (X : Valuation τ sig (Elt Ideal)) :
    afterL postI (after condOps X) (Proc.devRef .tc main_v19)
      = Spec.tail (X (Proc.devRef .tc main_arg7)) (X (Proc.devRef .tc main_arg8)) (X (Proc.devRef .tc main_arg9))
          (X (Proc.devRef .tc main_arg10)) (X (Proc.devRef .tc main_v6_9)) := by
  simp only [afterL_cons, afterL_nil]
  after_results_simp
  rfl

/-! ## The loop's entry -/

section Run

variable (m : (ℓ : Loc nD τ sig) → Buf (Elt Ideal) ℓ) (c : Dev nD)

/-- A buffer the stretch before the loop does not write holds its launch contents at the loop's entry. -/
theorem entry_keep (r : Ref sig .tc) (h : r ∉ preW) :
    entryContents preI m c (Proc.devRef .tc r) = m ((c.tc : Thread nD τ).loc r) :=
  pre_keep (launchContents m c) r h

set_option maxRecDepth 100000 in
/-- The carried positions at the loop's entry. -/
theorem entry_pos : entryContents preI m c (Proc.devRef .tc main_v6_0) = Spec.positions := by
  simp only [entryContents, afterL_cons, afterL_nil]
  after_results
  rfl

set_option maxRecDepth 100000 in
/-- The carried state at the loop's entry: zero. -/
theorem entry_h : entryContents preI m c (Proc.devRef .tc main_v6_9) = Spec.h0 := by
  simp only [entryContents, afterL_cons, afterL_nil]
  after_results
  rfl

set_option maxRecDepth 100000 in
/-- The carried copies of the arguments at the loop's entry. -/
theorem entry_v6_1 : entryContents preI m c (Proc.devRef .tc main_v6_1) = (m ((c.tc : Thread nD τ).loc main_arg0)) := by
  simp only [entryContents, afterL_cons, afterL_nil]
  after_results
  rfl
set_option maxRecDepth 100000 in
theorem entry_v6_2 : entryContents preI m c (Proc.devRef .tc main_v6_2) = (m ((c.tc : Thread nD τ).loc main_arg2)) := by
  simp only [entryContents, afterL_cons, afterL_nil]
  after_results
  rfl
set_option maxRecDepth 100000 in
theorem entry_v6_3 : entryContents preI m c (Proc.devRef .tc main_v6_3) = (m ((c.tc : Thread nD τ).loc main_arg3)) := by
  simp only [entryContents, afterL_cons, afterL_nil]
  after_results
  rfl
set_option maxRecDepth 100000 in
theorem entry_v6_4 : entryContents preI m c (Proc.devRef .tc main_v6_4) = (m ((c.tc : Thread nD τ).loc main_arg4)) := by
  simp only [entryContents, afterL_cons, afterL_nil]
  after_results
  rfl
set_option maxRecDepth 100000 in
theorem entry_v6_5 : entryContents preI m c (Proc.devRef .tc main_v6_5) = (m ((c.tc : Thread nD τ).loc main_arg5)) := by
  simp only [entryContents, afterL_cons, afterL_nil]
  after_results
  rfl
set_option maxRecDepth 100000 in
theorem entry_v6_6 : entryContents preI m c (Proc.devRef .tc main_v6_6) = (m ((c.tc : Thread nD τ).loc main_arg6)) := by
  simp only [entryContents, afterL_cons, afterL_nil]
  after_results
  rfl
set_option maxRecDepth 100000 in
theorem entry_v6_7 : entryContents preI m c (Proc.devRef .tc main_v6_7) = (m ((c.tc : Thread nD τ).loc main_arg1)) := by
  simp only [entryContents, afterL_cons, afterL_nil]
  after_results
  rfl

/-! ## The fold, trip by trip -/

/-- A buffer the loop does not write holds, before every condition, what it held at the loop's entry. -/
theorem atK_keep (r : Ref sig .tc) (h : r ∉ loopW) :
    ∀ k, atK m k c (Proc.devRef .tc r) = entryContents preI m c (Proc.devRef .tc r)
  | 0 => rfl
  | k + 1 => by
    rw [show atK m (k + 1) c = afterL bodyI (after condOps (atK m k c)) from rfl, trip_keep _ r h, atK_keep r h k]

/-- The loop's induction variable, from 0 by 1, is the trip's number. -/
theorem iv_eq_ctr (k : ℕ) : (fun _ => Scf.iv 0#32 1#32 k : Spec.C Spec.S_ .i32) = Spec.ctr k := by
  funext _
  simp [Spec.ctr, Scf.iv]

/-- Before the `k`-th condition the counter is the trip's number. -/
theorem atK_ctr' (k : ℕ) : atK m k c (Proc.devRef .tc main_v6_8) = Spec.ctr k :=
  (atK_ctr m c k).trans (iv_eq_ctr k)

/-- Before the `k`-th condition the carried state is the reference's state after `k` steps. -/
theorem atK_h : ∀ k, atK m k c (Proc.devRef .tc main_v6_9)
    = Spec.hAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) k
  | 0 => entry_h m c
  | k + 1 => by
    rw [show atK m (k + 1) c = afterL bodyI (after condOps (atK m k c)) from rfl, trip_h, atK_h k,
      atK_keep m c main_v6_0 (by decide), atK_keep m c main_v6_1 (by decide), atK_keep m c main_v6_2 (by decide),
      atK_keep m c main_v6_3 (by decide), atK_keep m c main_v6_4 (by decide), atK_keep m c main_v6_5 (by decide),
      atK_keep m c main_v6_6 (by decide), atK_keep m c main_v6_7 (by decide), entry_pos, entry_v6_1, entry_v6_2,
      entry_v6_3, entry_v6_4, entry_v6_5, entry_v6_6, entry_v6_7, atK_ctr' m c k]
    rfl

/-- An argument holds its launch contents before every condition. -/
theorem atK_arg (r : Ref sig .tc) (h : r ∉ preW) (h' : r ∉ loopW) (k : ℕ) :
    atK m k c (Proc.devRef .tc r) = m ((c.tc : Thread nD τ).loc r) := by
  rw [atK_keep m c r h' k, entry_keep m c r h]

/-- An argument holds its launch contents at @main's end. -/
theorem final_arg (r : Ref sig .tc) (h : r ∉ preW) (h' : r ∉ loopW) (h'' : r ∉ postW) :
    finalContents condOps preI bodyI postI 2048 m c (Proc.devRef .tc r) = m ((c.tc : Thread nD τ).loc r) := by
  rw [show finalContents condOps preI bodyI postI 2048 m c = afterL postI (after condOps (atK m 2048 c)) from rfl,
    post_keep _ r h' h'', atK_arg m c r h h' 2048]

/-- The result at @main's end is the reference's function of the launch's arguments. -/
theorem final_out : finalContents condOps preI bodyI postI 2048 m c (Proc.devRef .tc main_v19)
    = Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [show finalContents condOps preI bodyI postI 2048 m c = afterL postI (after condOps (atK m 2048 c)) from rfl,
    post_out, atK_h m c 2048, atK_arg m c main_arg7 (by decide) (by decide) 2048,
    atK_arg m c main_arg8 (by decide) (by decide) 2048, atK_arg m c main_arg9 (by decide) (by decide) 2048,
    atK_arg m c main_arg10 (by decide) (by decide) 2048]
  rfl

end Run

/-! ## The run -/

/-- Every weakly fair execution of the reference's @main, from any memory with zero counters, terminates without
    fault; its result is `Spec.G` of the launch's arguments, and the arguments end unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v19)
            = Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) :=
  (θ_run (Cert.ReferenceIdeal.defs (F := Ideal)) _ _).mono (fun r h c =>
    ⟨(h c main_v19 rfl).trans (final_out m c),
     (h c main_arg0 rfl).trans (final_arg m c main_arg0 (by decide) (by decide) (by decide)),
     (h c main_arg1 rfl).trans (final_arg m c main_arg1 (by decide) (by decide) (by decide)),
     (h c main_arg2 rfl).trans (final_arg m c main_arg2 (by decide) (by decide) (by decide)),
     (h c main_arg3 rfl).trans (final_arg m c main_arg3 (by decide) (by decide) (by decide)),
     (h c main_arg4 rfl).trans (final_arg m c main_arg4 (by decide) (by decide) (by decide)),
     (h c main_arg5 rfl).trans (final_arg m c main_arg5 (by decide) (by decide) (by decide)),
     (h c main_arg6 rfl).trans (final_arg m c main_arg6 (by decide) (by decide) (by decide)),
     (h c main_arg7 rfl).trans (final_arg m c main_arg7 (by decide) (by decide) (by decide)),
     (h c main_arg8 rfl).trans (final_arg m c main_arg8 (by decide) (by decide) (by decide)),
     (h c main_arg9 rfl).trans (final_arg m c main_arg9 (by decide) (by decide) (by decide)),
     (h c main_arg10 rfl).trans (final_arg m c main_arg10 (by decide) (by decide) (by decide))⟩)
    (run_fold (F := Ideal) m ρ)

end Cert.Proof.RefRun

end
-- ==== Proof.KernelValue.lean ====
/-
  The mathematics that joins the kernel's way of computing to the reference's.

  The reference runs ONE masked recurrence over the time steps 0, 1, …, 2047 in order. The kernel
  computes the same recurrence but (a) cuts the steps into five chunks, [0,256) and then
  256 + g·448 for g = 0..3, (b) leaves a chunk out altogether when every row is still inactive at
  its end, and inside a chunk starts at a block of eight steps below which every row is inactive,
  (c) associates the cell's sum differently and multiplies a whole chunk of inputs by the input
  weights at once, (d) pads the second layer of the head to 128 lanes and takes the log-softmax
  over 128 lanes of which all but three hold -∞.  Each difference is a lemma below.

  Sections 1 and 2 are about an ABSTRACT step function `f : ℕ → σ → σ` (`f t` is the update of
  the state at time step `t`) and use nothing of the cell: a run of consecutive steps, the run in
  blocks, the steps that may be left out, the five chunks together.
-/
import Idealize.ShloMosaic.PureOps.Ideal
import Mathlib.Tactic.Ring
import Mathlib.Algebra.BigOperators.Fin
import Mathlib.Data.EReal.Operations
import Mathlib.Data.Finset.Lattice.Fold
import Mathlib.Order.Basic
import Mathlib.Data.Int.Basic
import Mathlib.Algebra.Order.Group.Int

noncomputable section

open scoped BigOperators

namespace Cert.Proof.KernelValue

/-! ## 1. A run of consecutive steps, and the same run taken in blocks -/

section Run

variable {σ : Type*}

/-- `run f a n s`: the steps `a, a+1, …, a+n-1` applied to `s` in that order. -/
def run (f : ℕ → σ → σ) (a : ℕ) : ℕ → σ → σ
  | 0, s => s
  | n + 1, s => f (a + n) (run f a n s)

@[simp] theorem run_zero (f : ℕ → σ → σ) (a : ℕ) (s : σ) : run f a 0 s = s := rfl

theorem run_succ (f : ℕ → σ → σ) (a n : ℕ) (s : σ) :
    run f a (n + 1) s = f (a + n) (run f a n s) := rfl

/-- The first step can be peeled off as well as the last. -/
theorem run_succ' (f : ℕ → σ → σ) (a n : ℕ) (s : σ) :
    run f a (n + 1) s = run f (a + 1) n (f a s) := by
  induction n with
  | zero => simp [run]
  | succ n ih =>
    rw [run_succ, ih, run_succ]
    congr 1
    · omega

/-- Two runs one after the other are one run. -/
theorem run_add (f : ℕ → σ → σ) (a n k : ℕ) (s : σ) :
    run f a (n + k) s = run f (a + n) k (run f a n s) := by
  induction k with
  | zero => rfl
  | succ k ih =>
    rw [← Nat.add_assoc, run_succ, ih, run_succ, Nat.add_assoc]

/-- A run depends on the steps it takes only. -/
theorem run_congr {f g : ℕ → σ → σ} (a n : ℕ)
    (h : ∀ t, a ≤ t → t < a + n → ∀ s, f t s = g t s) (s : σ) :
    run f a n s = run g a n s := by
  induction n with
  | zero => rfl
  | succ n ih =>
    rw [run_succ, run_succ, ih (fun t h1 h2 => h t h1 (by omega)), h (a + n) (by omega) (by omega)]

/-- Steps that are the identity can be left out. -/
theorem run_of_id (f : ℕ → σ → σ) (a n : ℕ)
    (h : ∀ t, a ≤ t → t < a + n → ∀ s, f t s = s) (s : σ) :
    run f a n s = s := by
  induction n with
  | zero => rfl
  | succ n ih =>
    rw [run_succ, ih (fun t h1 h2 => h t h1 (by omega)), h (a + n) (by omega) (by omega)]

/-- A block of eight steps, written out: what one trip of the kernel's loop body does
    (`j = 8·kb + jj` for `jj = 0, …, 7`, the eight updates one after the other). -/
theorem run_eight (f : ℕ → σ → σ) (a : ℕ) (s : σ) :
    run f a 8 s =
      f (a + 7) (f (a + 6) (f (a + 5) (f (a + 4) (f (a + 3) (f (a + 2) (f (a + 1) (f (a + 0) s))))))) :=
  rfl

/-- Blocks of `c` steps, the blocks `k0, k0+1, …, k0+n-1` of the chunk that starts at `tb`, are the run
    of the `c·n` steps from `tb + c·k0`. -/
theorem run_blocks (f : ℕ → σ → σ) (tb c k0 n : ℕ) (s : σ) :
    run (fun kb => run f (tb + c * kb) c) k0 n s = run f (tb + c * k0) (c * n) s := by
  induction n with
  | zero => rfl
  | succ n ih =>
    rw [run_succ, ih, Nat.mul_succ, run_add]
    congr 1
    · ring

end Run

/-! ## 2. The steps the kernel leaves out

  `m` is the first step at which any row is active: `f t` is the identity for `t < m`.  A chunk
  `[tb, tb + 8·nb)` is left out when `¬ (m < tb + 8·nb)`; otherwise the kernel runs the blocks
  `k0, …, nb - 1` where `k0 = clip(⌊(m - tb) / 8⌋, 0, nb)`: the blocks below `k0` hold steps `< m` only. -/

section Skip

variable {σ : Type*}

/-- The loop of one chunk: blocks `k0, …, nb-1` of eight steps each, from the chunk's base `tb`. -/
def blocksFrom (f : ℕ → σ → σ) (tb k0 nb : ℕ) (s : σ) : σ :=
  run (fun kb => run f (tb + 8 * kb) 8) k0 (nb - k0) s

/-- Starting at block `k0` instead of block 0 changes nothing when the `8·k0` steps left out are all
    below `m`. -/
theorem blocksFrom_eq_run (f : ℕ → σ → σ) (m tb k0 nb : ℕ)
    (hid : ∀ t, t < m → ∀ s, f t s = s)
    (hk0 : k0 ≤ nb) (hskip : k0 = 0 ∨ tb + 8 * k0 ≤ m) (s : σ) :
    blocksFrom f tb k0 nb s = run f tb (8 * nb) s := by
  unfold blocksFrom
  rw [run_blocks]
  have hsplit : 8 * nb = 8 * k0 + 8 * (nb - k0) := by omega
  rw [hsplit, run_add]
  congr 1
  symm
  apply run_of_id
  intro t h1 h2 s'
  apply hid
  rcases hskip with h | h
  · omega
  · omega

/-- A chunk none of whose steps reaches `m` is the identity. -/
theorem run_chunk_skipped (f : ℕ → σ → σ) (m tb n : ℕ)
    (hid : ∀ t, t < m → ∀ s, f t s = s) (hskip : ¬ (m < tb + n)) (s : σ) :
    run f tb n s = s := by
  apply run_of_id
  intro t _ h2 s'
  exact hid t (by omega) s'

/-- The first block of a chunk, as the kernel computes it on integers: `⌊(m - tb) / 8⌋` clipped to
    `[0, nb]`, in either order of the two bounds. -/
def nblk0 (m tb : ℤ) (nb : ℕ) : ℤ := min (max ((m - tb) / 8) 0) (nb : ℤ)

theorem nblk0_eq_max_min (m tb : ℤ) (nb : ℕ) :
    nblk0 m tb nb = max (min ((m - tb) / 8) (nb : ℤ)) 0 := by
  unfold nblk0
  have : (0 : ℤ) ≤ nb := Int.natCast_nonneg nb
  omega

theorem nblk0_nonneg (m tb : ℤ) (nb : ℕ) : 0 ≤ nblk0 m tb nb := by
  unfold nblk0
  have : (0 : ℤ) ≤ nb := Int.natCast_nonneg nb
  omega

theorem nblk0_le (m tb : ℤ) (nb : ℕ) : nblk0 m tb nb ≤ nb := by
  unfold nblk0
  omega

/-- The blocks below the first one hold steps below `m` only. -/
theorem nblk0_skip (m tb : ℤ) (nb : ℕ) : nblk0 m tb nb = 0 ∨ tb + 8 * nblk0 m tb nb ≤ m := by
  unfold nblk0
  have : (0 : ℤ) ≤ nb := Int.natCast_nonneg nb
  omega

/-- The same three facts for the natural number the loop's lower bound is. -/
theorem nblk0_toNat (m tb nb : ℕ) :
    (nblk0 m tb nb).toNat ≤ nb ∧
      ((nblk0 m tb nb).toNat = 0 ∨ tb + 8 * (nblk0 m tb nb).toNat ≤ m) := by
  have h0 := nblk0_nonneg m tb nb
  have h1 := nblk0_le m tb nb
  have h2 := nblk0_skip m tb nb
  omega

/-- ONE CHUNK AS THE KERNEL RUNS IT: nothing when `¬ (m < tb + 8·nb)`, else the blocks from the clipped
    first block to the chunk's last. -/
def chunkK (f : ℕ → σ → σ) (m tb nb : ℕ) (s : σ) : σ :=
  if m < tb + 8 * nb then blocksFrom f tb (nblk0 m tb nb).toNat nb s else s

/-- (iii) A chunk as the kernel runs it is the plain run of all the chunk's steps. -/
theorem chunkK_eq_run (f : ℕ → σ → σ) (m tb nb : ℕ)
    (hid : ∀ t, t < m → ∀ s, f t s = s) (s : σ) :
    chunkK f m tb nb s = run f tb (8 * nb) s := by
  unfold chunkK
  split
  · obtain ⟨h1, h2⟩ := nblk0_toNat m tb nb
    exact blocksFrom_eq_run f m tb _ nb hid h1 h2 s
  · rename_i h
    exact (run_chunk_skipped f m tb (8 * nb) hid h s).symm

end Skip

/-! ## 3. The five chunks together are the steps 0, …, 2047

  The first call runs the chunk `[0, 256)` from the zero state and hands its state to the second,
  which runs the chunks `256 + g·448`, `g = 0, 1, 2, 3`, each from the state the one before left. -/

section Head

variable {σ : Type*}

/-- The first call: one chunk of 256 steps (32 blocks) from step 0. -/
def scanA (f : ℕ → σ → σ) (m : ℕ) (s : σ) : σ := chunkK f m 0 32 s

/-- Grid point `g` of the second call: the chunk of 448 steps (56 blocks) from step `256 + 448·g`. -/
def scanBAt (f : ℕ → σ → σ) (m g : ℕ) (s : σ) : σ := chunkK f m (256 + 448 * g) 56 s

/-- The second call: its grid points `0, 1, 2, 3` in order, the state carried from one to the next. -/
def scanB (f : ℕ → σ → σ) (m : ℕ) (s : σ) : σ := run (scanBAt f m) 0 4 s

theorem scanA_eq_run (f : ℕ → σ → σ) (m : ℕ) (hid : ∀ t, t < m → ∀ s, f t s = s) (s : σ) :
    scanA f m s = run f 0 256 s :=
  chunkK_eq_run f m 0 32 hid s

theorem scanBAt_eq_run (f : ℕ → σ → σ) (m g : ℕ) (hid : ∀ t, t < m → ∀ s, f t s = s) (s : σ) :
    scanBAt f m g s = run f (256 + 448 * g) 448 s :=
  chunkK_eq_run f m (256 + 448 * g) 56 hid s

/-- The second call's grid points `0, …, n-1` are the `448·n` steps from 256. -/
theorem scanB_prefix (f : ℕ → σ → σ) (m n : ℕ) (hid : ∀ t, t < m → ∀ s, f t s = s) (s : σ) :
    run (scanBAt f m) 0 n s = run f 256 (448 * n) s := by
  have h : ∀ g, scanBAt f m g = run f (256 + 448 * g) 448 :=
    fun g => funext (scanBAt_eq_run f m g hid)
  have h' : scanBAt f m = fun g => run f (256 + 448 * g) 448 := funext h
  rw [h', run_blocks]

theorem scanB_eq_run (f : ℕ → σ → σ) (m : ℕ) (hid : ∀ t, t < m → ∀ s, f t s = s) (s : σ) :
    scanB f m s = run f 256 1792 s :=
  scanB_prefix f m 4 hid s

/-- (iv) THE HEAD: the two calls one after the other are the 2048 steps in order. -/
theorem scanB_scanA_eq_run (f : ℕ → σ → σ) (m : ℕ) (hid : ∀ t, t < m → ∀ s, f t s = s) (s : σ) :
    scanB f m (scanA f m s) = run f 0 2048 s := by
  rw [scanA_eq_run f m hid, scanB_eq_run f m hid]
  exact (run_add f 0 256 1792 s).symm

end Head

/-! ## 4. The masked step

  The state is one row of 128 lanes per sequence.  Row `i` is updated at step `t` exactly when
  `act i ≤ t` (`act i = 2048 - lengths i`); the reference says the same of the position `p = 2047 - t`
  it reads at that step: `p < lengths i`. -/

section Masked

variable {ι α : Type*}

/-- One masked step: the rows with `act i ≤ t` take the new value, the others keep theirs. -/
def maskedStep (act : ι → ℕ) (cell : ℕ → (ι → α) → ι → α) (t : ℕ) (h : ι → α) : ι → α :=
  fun i => if act i ≤ t then cell t h i else h i

/-- Below the least `act` the masked step changes nothing: the hypothesis sections 2 and 3 ask for. -/
theorem maskedStep_id (act : ι → ℕ) (cell : ℕ → (ι → α) → ι → α) (m : ℕ) (hm : ∀ i, m ≤ act i)
    (t : ℕ) (ht : t < m) (h : ι → α) : maskedStep act cell t h = h := by
  funext i
  unfold maskedStep
  rw [if_neg]
  have := hm i
  omega

/-- The two ways of saying "row `i` is active at step `t`": the reference's, of the position
    `2047 - t`, and the kernel's, of `act = 2048 - len`. -/
theorem active_iff (len t : ℕ) (ht : t ≤ 2047) : 2047 - t < len ↔ 2048 - len ≤ t := by omega

/-- `2048 - max` of the lengths is below every `act`: the kernel's `m`. -/
theorem m_le_act (len : ι → ℕ) (mx : ℕ) (hmx : ∀ i, len i ≤ mx) (i : ι) : 2048 - mx ≤ 2048 - len i := by
  have := hmx i
  omega

/-- Two masked steps agree where their cells agree on the rows that are active. -/
theorem maskedStep_congr (act : ι → ℕ) (cell cell' : ℕ → (ι → α) → ι → α) (t : ℕ) (h : ι → α)
    (hc : ∀ i, act i ≤ t → cell t h i = cell' t h i) :
    maskedStep act cell t h = maskedStep act cell' t h := by
  funext i
  unfold maskedStep
  split
  · rename_i hi; exact hc i hi
  · rfl

end Masked

/-! ## 5. The cell: the same sum associated two ways, the recurrent weights transposed beforehand

  The reference's cell at lane `j` is `tanh (((x·W_ihᵀ + b_ih) + h·W_hhᵀ) + b_hh)`; the kernel adds
  the two biases first, adds them to the input projection, and multiplies `h` by a matrix that
  was transposed before the call, contracting `h`'s lanes with that matrix's ROWS.  Addition of
  extended reals is commutative and associative with no side condition (also at the infinities),
  so nothing about finiteness is needed. -/

section Cell

open Idealize.ShloMosaic

/-- The reference's pre-activation at lane `j`. -/
def preR (Wih Whh : Fin 128 → Fin 128 → EReal) (bih bhh : Fin 128 → EReal) (x h : Fin 128 → EReal)
    (j : Fin 128) : EReal :=
  ((∑ k, x k * Wih j k + bih j) + ∑ k, h k * Whh j k) + bhh j

/-- The kernel's: `WhhT` is the transposed matrix, read with the contracted index FIRST. -/
def preK (Wih WhhT : Fin 128 → Fin 128 → EReal) (bih bhh : Fin 128 → EReal) (x h : Fin 128 → EReal)
    (j : Fin 128) : EReal :=
  (∑ k, x k * Wih j k + (bih j + bhh j)) + ∑ k, h k * WhhT k j

/-- (i) ASSOCIATION. -/
theorem preK_eq_preR (Wih Whh WhhT : Fin 128 → Fin 128 → EReal) (bih bhh : Fin 128 → EReal)
    (hT : ∀ k j, WhhT k j = Whh j k) (x h : Fin 128 → EReal) (j : Fin 128) :
    preK Wih WhhT bih bhh x h j = preR Wih Whh bih bhh x h j := by
  unfold preK preR
  have hs : ∑ k, h k * WhhT k j = ∑ k, h k * Whh j k :=
    Finset.sum_congr rfl (fun k _ => by rw [hT k j])
  rw [hs, ← add_assoc (∑ k, x k * Wih j k) (bih j) (bhh j),
    add_right_comm (∑ k, x k * Wih j k + bih j) (bhh j) (∑ k, h k * Whh j k)]

/-- The two cells, `tanh` of the two pre-activations, are one function. -/
theorem cellK_eq_cellR (Wih Whh WhhT : Fin 128 → Fin 128 → EReal) (bih bhh : Fin 128 → EReal)
    (hT : ∀ k j, WhhT k j = Whh j k) (x h : Fin 128 → EReal) (j : Fin 128) :
    Ideal.tanh (preK Wih WhhT bih bhh x h j) = Ideal.tanh (preR Wih Whh bih bhh x h j) := by
  rw [preK_eq_preR Wih Whh WhhT bih bhh hT x h j]

end Cell

/-! ## 6. The input projection of a whole chunk at once

  The kernel multiplies all `R = 16 · chunk` rows of a chunk's inputs by `W_ihᵀ` in one product and adds the
  summed bias, then reads rows `16·jj, …, 16·jj + 15` at the chunk's step `jj`.  A product's row `r`
  is made from the left operand's row `r` alone, so that is the projection of step `jj`'s sixteen
  inputs. -/

section Projection

/-- A product's row depends on that row of the left operand only (two operands of any heights). -/
theorem matmul_row_local {R R' : ℕ} (X : Fin R → Fin 128 → EReal) (X' : Fin R' → Fin 128 → EReal)
    (W : Fin 128 → Fin 128 → EReal) (r : Fin R) (r' : Fin R') (hrow : ∀ k, X r k = X' r' k)
    (j : Fin 128) : ∑ k, X r k * W j k = ∑ k, X' r' k * W j k :=
  Finset.sum_congr rfl (fun k _ => by rw [hrow k])

/-- The chunk's projection: row `r`, lane `j`. -/
def preChunk {R : ℕ} (X : Fin R → Fin 128 → EReal) (Wih : Fin 128 → Fin 128 → EReal)
    (bih bhh : Fin 128 → EReal) (r : Fin R) (j : Fin 128) : EReal :=
  ∑ k, X r k * Wih j k + (bih j + bhh j)

/-- (ii) BATCHED PROJECTION: what the kernel adds the recurrent product to at step `jj`, row `i`, is
    the kernel's pre-activation of that row's input, whatever else the chunk holds. -/
theorem preChunk_add_eq_preK {R : ℕ} (X : Fin R → Fin 128 → EReal)
    (Wih WhhT : Fin 128 → Fin 128 → EReal) (bih bhh : Fin 128 → EReal) (r : Fin R)
    (x h : Fin 128 → EReal) (hx : ∀ k, X r k = x k) (j : Fin 128) :
    preChunk X Wih bih bhh r j + ∑ k, h k * WhhT k j = preK Wih WhhT bih bhh x h j := by
  unfold preChunk preK
  rw [Finset.sum_congr rfl (fun k _ => by rw [hx k])]

/-- Row `16·jj + i` of a chunk of `16·n` rows, for step `jj < n` and sequence `i`. -/
def chunkRow {n : ℕ} (jj : Fin n) (i : Fin 16) : Fin (16 * n) :=
  ⟨16 * jj.val + i.val, by have := jj.isLt; have := i.isLt; omega⟩

@[simp] theorem chunkRow_val {n : ℕ} (jj : Fin n) (i : Fin 16) :
    (chunkRow jj i).val = 16 * jj.val + i.val := rfl

/-- (i) and (ii) together: the kernel's new row at step `jj` of a chunk is the reference's cell of that
    step's input. -/
theorem kernel_cell_eq {n : ℕ} (X : Fin (16 * n) → Fin 128 → EReal)
    (Wih Whh WhhT : Fin 128 → Fin 128 → EReal) (bih bhh : Fin 128 → EReal)
    (hT : ∀ k j, WhhT k j = Whh j k) (jj : Fin n) (i : Fin 16) (x h : Fin 128 → EReal)
    (hx : ∀ k, X (chunkRow jj i) k = x k) (j : Fin 128) :
    Idealize.ShloMosaic.Ideal.tanh (preChunk X Wih bih bhh (chunkRow jj i) j + ∑ k, h k * WhhT k j)
      = Idealize.ShloMosaic.Ideal.tanh (preR Wih Whh bih bhh x h j) := by
  rw [preChunk_add_eq_preK X Wih WhhT bih bhh (chunkRow jj i) x h hx j,
    preK_eq_preR Wih Whh WhhT bih bhh hT x h j]

end Projection

/-! ## 7. The head: two relu layers, the second padded to 128 lanes, and the log-softmax

  `relu` is `max · 0` on both sides.  The kernel's second layer has 128 output lanes: its weights
  are the reference's three rows above 125 rows of zeros, its bias the three entries before 125
  zeros; lane `c < 3` of it is the reference's lane `c`.  The kernel then puts `⊥` (the constant the
  statement names `-∞`) on the lanes `≥ 3` and takes the log-softmax over all 128 lanes:

  * the maximum over 128 lanes, from the reduction's initial value `⊥`, is the maximum over the three
    real lanes (`⊥` is the bottom of the order);
  * `⊥ - M = ⊥` for EVERY extended real `M` (`⊥ + y = ⊥` whatever `y`, also `y = ⊤`), and `exp ⊥ = 0`,
    so the sum over 128 lanes is the sum over three lanes plus 125 zeros;
  * the rest is lane by lane, and only lanes `< 3` are kept.

  No hypothesis of finiteness is needed anywhere in this section. -/

section Tail

open Idealize.ShloMosaic

/-- Lane `c < 3` among the 128. -/
def lane3 (c : Fin 3) : Fin 128 := ⟨c.val, by have := c.isLt; omega⟩

@[simp] theorem lane3_val (c : Fin 3) : (lane3 c).val = c.val := rfl

/-- A row's maximum as both programs take it: the fold of `max` over the lanes from `⊥`. -/
def rowMax {n : ℕ} (x : Fin n → EReal) : EReal := (Finset.univ : Finset (Fin n)).fold max ⊥ x

theorem rowMax_eq_sup {n : ℕ} (x : Fin n → EReal) : rowMax x = Finset.univ.sup x := rfl

/-- The maximum over 128 lanes of which all but the first three hold `⊥`. -/
theorem rowMax_pad (g : Fin 128 → EReal) (hg : ∀ c : Fin 128, 3 ≤ c.val → g c = ⊥) :
    rowMax g = rowMax (fun c : Fin 3 => g (lane3 c)) := by
  rw [rowMax_eq_sup, rowMax_eq_sup]
  apply le_antisymm
  · apply Finset.sup_le
    intro c _
    by_cases h : c.val < 3
    · exact Finset.le_sup (f := fun c : Fin 3 => g (lane3 c)) (Finset.mem_univ (⟨c.val, h⟩ : Fin 3))
    · rw [hg c (by omega)]; exact bot_le
  · apply Finset.sup_le
    intro c _
    exact Finset.le_sup (f := g) (Finset.mem_univ (lane3 c))

/-- A sum over 128 lanes of which all but the first three hold `0`. -/
theorem sum_pad (F : Fin 128 → EReal) (hF : ∀ c : Fin 128, 3 ≤ c.val → F c = 0) :
    ∑ c : Fin 128, F c = ∑ c : Fin 3, F (lane3 c) := by
  refine (Fin.sum_univ_add (fun c : Fin (3 + 125) => F c)).trans ?_
  have h2 : ∑ i : Fin 125, F (Fin.natAdd 3 i) = 0 :=
    Finset.sum_eq_zero (fun i _ => hF _ (by rw [Fin.coe_natAdd]; omega))
  rw [h2, add_zero]
  rfl

/-- `exp (⊥ - M) = 0` for every `M`. -/
theorem exp_bot_sub (M : EReal) : Ideal.exp (⊥ - M) = 0 := by
  rw [EReal.bot_sub]; rfl

/-- The log-softmax of a row of `n` lanes, as both programs compute it: subtract the row's maximum, then
    subtract the logarithm of the sum of the exponentials. -/
def logSoftmaxRow {n : ℕ} (x : Fin n → EReal) (c : Fin n) : EReal :=
  (x c - rowMax x) - Ideal.log (∑ c', Ideal.exp (x c' - rowMax x))

/-- The reference's spelling, with the host's redundant `max ⊥ ·` around the row's maximum and the sum's
    initial `0`, is the same function. -/
theorem logSoftmaxHost_eq {n : ℕ} (x : Fin n → EReal) (c : Fin n) :
    (x c - max ⊥ (rowMax x)) - Ideal.log (0 + ∑ c', Ideal.exp (x c' - max ⊥ (rowMax x)))
      = logSoftmaxRow x c := by
  unfold logSoftmaxRow
  rw [max_bot_left, zero_add]

/-- (v), the log-softmax: over 128 lanes with `⊥` beyond the third, read at a lane below 3, it is the
    log-softmax over the three lanes. -/
theorem logSoftmaxRow_pad (g : Fin 128 → EReal) (hg : ∀ c : Fin 128, 3 ≤ c.val → g c = ⊥) (c : Fin 3) :
    logSoftmaxRow g (lane3 c) = logSoftmaxRow (fun c : Fin 3 => g (lane3 c)) c := by
  unfold logSoftmaxRow
  rw [rowMax_pad g hg]
  rw [sum_pad (fun c' => Ideal.exp (g c' - rowMax (fun c : Fin 3 => g (lane3 c))))
    (fun c' h => by rw [hg c' h]; exact exp_bot_sub _)]

/-- A dense layer followed by `relu`: lane `c` of `max (x·Wᵀ + b) 0`. -/
def denseRelu {n k : ℕ} (W : Fin n → Fin k → EReal) (b : Fin n → EReal) (x : Fin k → EReal)
    (c : Fin n) : EReal :=
  max (∑ q, x q * W c q + b c) 0

/-- The second layer's weights as the kernel is given them: the three rows, then zeros. -/
def padW (W1 : Fin 3 → Fin 256 → EReal) (c : Fin 128) (q : Fin 256) : EReal :=
  if h : c.val < 3 then W1 ⟨c.val, h⟩ q else 0

/-- The second layer's bias as the kernel is given it: the three entries, then zeros. -/
def padB (b1 : Fin 3 → EReal) (c : Fin 128) : EReal :=
  if h : c.val < 3 then b1 ⟨c.val, h⟩ else 0

/-- (v), the padded layer: its lanes below 3 are the reference's. -/
theorem denseRelu_pad (W1 : Fin 3 → Fin 256 → EReal) (b1 : Fin 3 → EReal) (x : Fin 256 → EReal)
    (c : Fin 3) : denseRelu (padW W1) (padB b1) x (lane3 c) = denseRelu W1 b1 x c := by
  unfold denseRelu padW padB
  have hc : (lane3 c).val < 3 := c.isLt
  simp only [dif_pos hc]
  rfl

/-- The reference's head on one row of the final state. -/
def headR (W0 : Fin 256 → Fin 128 → EReal) (b0 : Fin 256 → EReal) (W1 : Fin 3 → Fin 256 → EReal)
    (b1 : Fin 3 → EReal) (h : Fin 128 → EReal) : Fin 3 → EReal :=
  logSoftmaxRow (denseRelu W1 b1 (denseRelu W0 b0 h))

/-- The kernel's: the padded second layer, `⊥` on the lanes `≥ 3`, the log-softmax over 128 lanes, the
    first three lanes kept. -/
def headK (W0 : Fin 256 → Fin 128 → EReal) (b0 : Fin 256 → EReal) (W1p : Fin 128 → Fin 256 → EReal)
    (b1p : Fin 128 → EReal) (h : Fin 128 → EReal) (c : Fin 3) : EReal :=
  logSoftmaxRow (fun l : Fin 128 => if l.val < 3 then denseRelu W1p b1p (denseRelu W0 b0 h) l else ⊥)
    (lane3 c)

/-- (v) THE HEAD: the kernel's head on the padded weights is the reference's head. -/
theorem headK_eq_headR (W0 : Fin 256 → Fin 128 → EReal) (b0 : Fin 256 → EReal)
    (W1 : Fin 3 → Fin 256 → EReal) (b1 : Fin 3 → EReal) (h : Fin 128 → EReal) (c : Fin 3) :
    headK W0 b0 (padW W1) (padB b1) h c = headR W0 b0 W1 b1 h c := by
  unfold headK headR
  rw [logSoftmaxRow_pad _ (fun l hl => by rw [if_neg (by omega)])]
  congr 1
  funext c'
  have hc : (lane3 c').val < 3 := c'.isLt
  rw [if_pos hc]
  exact denseRelu_pad W1 b1 _ c'

end Tail

/-! ## 8. The pieces together

  With `x t i` the input row of sequence `i` at step `t`, the kernel's two calls compute the
  reference's masked recurrence over the steps 0, …, 2047, and the kernel's head of a row of the final
  state is the reference's. -/

section Joined

open Idealize.ShloMosaic

/-- The reference's cell at step `t`: row `i`, lane `j`. -/
def cellRt (x : ℕ → Fin 16 → Fin 128 → EReal) (Wih Whh : Fin 128 → Fin 128 → EReal)
    (bih bhh : Fin 128 → EReal) (t : ℕ) (h : Fin 16 → Fin 128 → EReal) (i : Fin 16) : Fin 128 → EReal :=
  fun j => Ideal.tanh (preR Wih Whh bih bhh (x t i) (h i) j)

/-- The kernel's. -/
def cellKt (x : ℕ → Fin 16 → Fin 128 → EReal) (Wih WhhT : Fin 128 → Fin 128 → EReal)
    (bih bhh : Fin 128 → EReal) (t : ℕ) (h : Fin 16 → Fin 128 → EReal) (i : Fin 16) : Fin 128 → EReal :=
  fun j => Ideal.tanh (preK Wih WhhT bih bhh (x t i) (h i) j)

theorem cellKt_eq_cellRt (x : ℕ → Fin 16 → Fin 128 → EReal) (Wih Whh WhhT : Fin 128 → Fin 128 → EReal)
    (bih bhh : Fin 128 → EReal) (hT : ∀ k j, WhhT k j = Whh j k) :
    cellKt x Wih WhhT bih bhh = cellRt x Wih Whh bih bhh := by
  funext t h i j
  exact cellK_eq_cellR Wih Whh WhhT bih bhh hT (x t i) (h i) j

/-- THE SCAN: the kernel's two calls, chunked and with the inactive steps left out, end in the state
    the plain masked recurrence over the steps 0, …, 2047 ends in. -/
theorem kernel_scan_eq (act : Fin 16 → ℕ) (m : ℕ) (hm : ∀ i, m ≤ act i)
    (x : ℕ → Fin 16 → Fin 128 → EReal) (Wih Whh WhhT : Fin 128 → Fin 128 → EReal)
    (bih bhh : Fin 128 → EReal) (hT : ∀ k j, WhhT k j = Whh j k) (s : Fin 16 → Fin 128 → EReal) :
    scanB (maskedStep act (cellKt x Wih WhhT bih bhh)) m
        (scanA (maskedStep act (cellKt x Wih WhhT bih bhh)) m s)
      = run (maskedStep act (cellRt x Wih Whh bih bhh)) 0 2048 s := by
  rw [cellKt_eq_cellRt x Wih Whh WhhT bih bhh hT]
  exact scanB_scanA_eq_run _ m (fun t ht h => maskedStep_id act _ m hm t ht h) s

end Joined

end Cert.Proof.KernelValue

end
-- ==== Proof.HostOps.lean ====
/-
  What the host operations of the idealized kernel's @main compute, read at an index: the flattened transposed
  tokens and the table the two gather kernels read; the operands the two recurrence regions read (the transposed
  recurrent weights, the bias rows, each row's first active step, the first step at which any row is active, the
  head's first bias row, the head's second layer padded to 128 lanes); and what the precondition says of the two
  integer inputs (every token names a row of the table, every length lies in [1, 2048]).
-/
import proofs.«205923_g40089224741417_cont_sun_m_110_39_alg».proof.Proof.Main
import proofs.«205923_g40089224741417_cont_sun_m_110_39_alg».proof.Proof.KernelValue
import proofs.«205923_g40089224741417_cont_sun_m_110_39_alg».proof.Proof.Gen.Pre_input_domain
import proofs.«205923_g40089224741417_cont_sun_m_110_39_alg».proof.Pre_input_domain
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.Lib.ReduceAll

noncomputable section

namespace Cert.Proof.KI.HostOps

open Idealize.ShloMosaic Idealize.ShloMosaic.ValueIdx

/-! ## A. What the precondition says of the two integer inputs

The printed precondition is a conjunction, over all eleven arguments, of one `jnp.all` each; the tokens' says
`0 ≤ tokens ∧ tokens ≤ 99999` and the lengths' `1 ≤ lengths ∧ lengths ≤ 2048`, elementwise and signed. Stated over
arbitrary arrays so that it serves every float instance. -/

section Pre

variable {F : FTy → Type} [FloatOps F] [Cert.Pre_input_domain.Facts]

open Cert.Pre_input_domain in
instance : Subsingleton Cert.Pre_input_domain.S_.Idx := ⟨fun a b => funext fun d => d.elim0⟩

/-- A signed word in `[0, 99999]` is, unsigned, below 100000. -/
theorem toNat_lt_of_signed (v : BitVec 32) (h0 : (0#32 : BitVec 32).toInt ≤ v.toInt) (h1 : v.toInt ≤ (99999#32 : BitVec 32).toInt) :
    v.toNat < 100000 := by
  rw [show (0#32 : BitVec 32).toInt = 0 from by decide] at h0
  rw [show (99999#32 : BitVec 32).toInt = 99999 from by decide] at h1
  rw [BitVec.toInt_eq_toNat_cond] at h0 h1
  have := v.isLt
  split at h0 <;> omega

open Cert.Pre_input_domain in
/-- The two integer conjuncts of the printed precondition, read at an element: every token is below 100000 as an
    unsigned word, every length lies in `[1, 2048]` as a signed one. -/
theorem pre_ints (a0 : IVec S16x2048 32) (a1 : IVec S16 32) (a2 : FVec F S100000x128 .f32) (a3 : FVec F S128x128 .f32)
    (a4 : FVec F S128 .f32) (a5 : FVec F S128x128 .f32) (a6 : FVec F S128 .f32) (a7 : FVec F S256x128 .f32)
    (a8 : FVec F S256 .f32) (a9 : FVec F S3x256 .f32) (a10 : FVec F S3 .f32)
    (h : fn (F := F) a0 a1 a2 a3 a4 a5 a6 a7 a8 a9 a10 = fun _ => 1#1) :
    (∀ j, (a0 j).toNat < 100000) ∧ (∀ i, 1 ≤ (a1 i).toInt ∧ (a1 i).toInt ≤ 2048) := by
  have e := congrFun h ix0
  dsimp only [fn, fn_part1, fn_part2, fn_part3, andi] at e
  obtain ⟨⟨-, htok⟩, hlen⟩ := IntOp.andi_eq_one.1 e |>.imp_left IntOp.andi_eq_one.1
  refine ⟨fun j => ?_, fun i => ?_⟩
  · have := Host.reduce_andi_all _ _ _ _ _ htok j
    dsimp only [andi, cmpi, broadcastInDim, constantI] at this
    obtain ⟨h0, h1⟩ := IntOp.andi_eq_one.1 this
    exact toNat_lt_of_signed _ (IntOp.cmpi_sge.1 h0) (IntOp.cmpi_sle.1 h1)
  · have := Host.reduce_andi_all _ _ _ _ _ hlen i
    dsimp only [andi, cmpi, broadcastInDim, constantI] at this
    obtain ⟨h0, h1⟩ := IntOp.andi_eq_one.1 this
    have h0' := IntOp.cmpi_sge.1 h0
    have h1' := IntOp.cmpi_sle.1 h1
    rw [show (1#32 : BitVec 32).toInt = 1 from by decide] at h0'
    rw [show (2048#32 : BitVec 32).toInt = 2048 from by decide] at h1'
    exact ⟨h0', h1'⟩

end Pre

/-! ## The arrays of the TensorCore between the host stretches -/

open Cert.KernelIdeal Cert.KernelIdeal.Gen
open Idealize.ShloMosaic.StableHlo (after)

variable {F : FTy → Type} [FloatOps F] [Named F]
variable (m : (ℓ : Loc nD τ sig) → Buf (Elt F) ℓ)

/-- The precondition over the launch memory, at any float instance: the printed predicate of the eleven arguments
    is all ones on every device (`Cert.Pre_KernelIdeal` is this at the ideal instance). -/
def PreM [Cert.Pre_input_domain.Facts] : Prop :=
  ∀ d : Dev nD,
    Cert.Pre_input_domain.fn (F := F) (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))
      (m ((d.tc : Thread nD τ).loc main_arg5)) (m ((d.tc : Thread nD τ).loc main_arg6)) (m ((d.tc : Thread nD τ).loc main_arg7))
      (m ((d.tc : Thread nD τ).loc main_arg8)) (m ((d.tc : Thread nD τ).loc main_arg9)) (m ((d.tc : Thread nD τ).loc main_arg10))
      = fun _ => 1#1

/-- (A1) Every token of the launch memory names a row of the table. -/
theorem tokens_lt [Cert.Pre_input_domain.Facts] (h : PreM m) (d : Dev nD) (j : S16x2048.Idx) :
    (m ((d.tc : Thread nD τ).loc main_arg0) j).toNat < 100000 :=
  (pre_ints _ _ _ _ _ _ _ _ _ _ _ (h d)).1 j

/-- (A2) Every length of the launch memory lies in `[1, 2048]`. -/
theorem lengths_range [Cert.Pre_input_domain.Facts] (h : PreM m) (d : Dev nD) (i : S16.Idx) :
    1 ≤ (m ((d.tc : Thread nD τ).loc main_arg1) i).toInt ∧ (m ((d.tc : Thread nD τ).loc main_arg1) i).toInt ≤ 2048 :=
  (pre_ints _ _ _ _ _ _ _ _ _ _ _ (h d)).2 i

/-! ## B. What the gather kernels read -/

/-- The references the first host stretch writes. -/
abbrev opsA_W : List (Ref sig .tc) := [main_v0, main_v1]
theorem opsA_writes : (opsA : List (HloOp τ sig (Elt F))).Forall fun op => op.writes ⊆ (opsA_W.map (Proc.devRef (τ := τ) .tc)).toFinset := by
  simp only [List.Forall]
  exact (by simp only [StableHlo.unary_writes, StableHlo.reshape_writes, Finset.singleton_subset_iff, List.mem_toFinset]; exact ⟨List.mem_map_of_mem (by decide), List.mem_map_of_mem (by decide)⟩)

/-- A reference the first host stretch does not write is still the launch memory's after it. -/
theorem WA_of (d : Dev nD) (r : Ref sig .tc) (h : r ∉ opsA_W) : WA m d (Proc.devRef .tc r) = m ((d.tc : Thread nD τ).loc r) :=
  StableHlo.after_of_writes_sub opsA _ opsA_writes h

/-- The flattened transposed tokens, as a term of the launch memory's tokens. -/
theorem tokT_eq (d : Dev nD) :
    tokT m d = shapeCast S32768 (transpose S2048x16 [1, 0] (m ((d.tc : Thread nD τ).loc main_arg0) : S16x2048.Idx → Elt F .i32) transposes_S16x2048_S2048x16_1_0) shapeCasts_S2048x16_S32768 := by
  show after opsA (W0 m d) (Proc.devRef .tc main_v1) = _
  after_results
  rfl

/-- Position `p * 16 + i` of the flattened transposed tokens is token `p` of sequence `i`. -/
theorem tokT_apply (d : Dev nD) (p : Fin 2048) (i : Fin 16) (hlt : p.val * 16 + i.val < 32768) :
    tokT m d (ix1 ⟨p.val * 16 + i.val, hlt⟩) = m ((d.tc : Thread nD τ).loc main_arg0) (ix2 i p) := by
  rw [tokT_eq]
  refine (shapeCast_apply _ _ _ (ix2 p i) ?_).trans (transpose_ix2_apply _ _ p i)
  rw [Shape.rowMajor_val_two, Shape.rowMajor_val_one]
  rfl

/-- Every flattened token names a row of the table. -/
theorem tokT_lt (htok : ∀ (d : Dev nD) (j : S16x2048.Idx), (m ((d.tc : Thread nD τ).loc main_arg0) j).toNat < 100000)
    (d : Dev nD) (j : S32768.Idx) : (tokT m d j).toNat < 100000 := by
  obtain ⟨a, rfl⟩ : ∃ a : Fin 32768, j = ix1 a := ⟨j 0, eq_ix1 j⟩
  have ha : a.val < 32768 := a.isLt
  have hlt : a.val / 16 * 16 + a.val % 16 < 32768 := by omega
  have e : a = ⟨a.val / 16 * 16 + a.val % 16, hlt⟩ := Fin.ext (by show a.val = a.val / 16 * 16 + a.val % 16; omega)
  rw [e]
  have h := tokT_apply m d ⟨a.val / 16, by omega⟩ ⟨a.val % 16, Nat.mod_lt _ (by decide)⟩ hlt
  exact lt_of_eq_of_lt (congrArg BitVec.toNat h) (htok d _)

/-- The table the gather kernels read is the launch memory's. -/
theorem embT_eq (d : Dev nD) : embT m d = m ((d.tc : Thread nD τ).loc main_arg2) :=
  WA_of m d main_arg2 (by decide)

/-! ## C. The recurrence regions' operands -/

/-- A reference that neither the first host stretch nor a gather call writes is still the launch memory's when the
    regions' operands are made. -/
theorem W2_of (d : Dev nD) (r : Ref sig .tc) (h : r ∉ ([main_v0, main_v1, main_v2, main_v3] : List (Ref sig .tc))) :
    W2 m d (Proc.devRef .tc r) = m ((d.tc : Thread nD τ).loc r) := by
  have h2 : r ≠ main_v2 := fun e => h (by rw [e]; decide)
  have h3 : r ≠ main_v3 := fun e => h (by rw [e]; decide)
  have hA : r ∉ opsA_W := fun hm => h (List.mem_append_left [main_v2, main_v3] hm)
  unfold W2 W1
  rw [Function.update_of_ne (StableHlo.devRef_ne_of_ne h3), Function.update_of_ne (StableHlo.devRef_ne_of_ne h2)]
  exact WA_of m d r hA

/-- The references the second host stretch writes. -/
abbrev opsB_W : List (Ref sig .tc) :=
  [main_c, main_v4, main_v5, main_v6, main_v7, main_v8, main_cst, main_v9, main_c_0, main_v10, main_v11, main_cst_1, main_v12,
    main_c_2, main_v13, main_c_3, main_v14, main_v15, main_v16, main_c_4, main_v17, main_c_5, main_v18, main_v19, main_v20,
    main_v21, main_v22]
theorem opsB_writes : (opsB : List (HloOp τ sig (Elt F))).Forall fun op => op.writes ⊆ (opsB_W.map (Proc.devRef (τ := τ) .tc)).toFinset := by
  simp only [List.Forall]
  exact (by
    simp only [StableHlo.nullary_writes, StableHlo.unary_writes, StableHlo.binary_writes, StableHlo.ternary_writes,
      StableHlo.reshape_writes, Finset.singleton_subset_iff, List.mem_toFinset]
    repeat' apply And.intro
    all_goals exact List.mem_map_of_mem (by decide))

/-- A reference no host operation before the first region and no gather call writes is the launch memory's at the
    first region: the arguments the regions read whole (the input weights, the head's first weight matrix) among
    them. -/
theorem WB_of (d : Dev nD) (r : Ref sig .tc) (hB : r ∉ opsB_W)
    (h : r ∉ ([main_v0, main_v1, main_v2, main_v3] : List (Ref sig .tc))) :
    WB m d (Proc.devRef .tc r) = m ((d.tc : Thread nD τ).loc r) :=
  (StableHlo.after_of_writes_sub opsB _ opsB_writes hB).trans (W2_of m d r h)

/-- The two gathered arrays at the first region are the gather calls' results. -/
theorem WB_x0 (d : Dev nD) : WB m d rX0 = X0 (tokT m d) (embT m d) := by
  refine (StableHlo.after_of_writes_sub (r := main_v2) opsB _ opsB_writes (by decide)).trans ?_
  unfold W2 W1
  rw [Function.update_of_ne (StableHlo.devRef_ne_of_ne (by decide)), Function.update_self]
theorem WB_x1 (d : Dev nD) : WB m d rX1 = X1 (tokT m d) (embT m d) := by
  refine (StableHlo.after_of_writes_sub (r := main_v3) opsB _ opsB_writes (by decide)).trans ?_
  unfold W2
  rw [Function.update_self]

/-! ### Broadcasts read at an index -/

section Bcast

variable {α : Type}

/-- A vector as a `[1, b]` row reads, at `(u, n)`, the vector at `n`. -/
theorem bcast_row_apply {b : ℕ} (x : (⟨1, ![b]⟩ : Shape).Idx → α)
    (h : (⟨1, ![b]⟩ : Shape).BroadcastsInDim ⟨2, ![1, b]⟩ (![1] : Fin 1 → Fin 2)) (u : Fin 1) (n : Fin b) :
    broadcastInDim ⟨2, ![1, b]⟩ ![1] h x (ix2 u n) = x (ix1 n) := by
  refine broadcastInDim_apply _ h x _ (ix1 n) fun a => ?_
  match a with
  | ⟨0, _⟩ =>
    show n.val = if b = 1 then 0 else n.val
    split
    · have := n.isLt; omega
    · rfl

/-- A vector as an `[a, 1]` column and that column over `c` lanes read, at `(i, n)`, the vector at `i`. -/
theorem bcast_col_apply {a c : ℕ} (x : (⟨1, ![a]⟩ : Shape).Idx → α)
    (h₁ : (⟨1, ![a]⟩ : Shape).BroadcastsInDim ⟨2, ![a, 1]⟩ (![0] : Fin 1 → Fin 2))
    (h₂ : (⟨2, ![a, 1]⟩ : Shape).BroadcastsInDim ⟨2, ![a, c]⟩ (![0, 1] : Fin 2 → Fin 2)) (i : Fin a) (n : Fin c) :
    broadcastInDim ⟨2, ![a, c]⟩ ![0, 1] h₂ (broadcastInDim ⟨2, ![a, 1]⟩ ![0] h₁ x) (ix2 i n) = x (ix1 i) := by
  refine (broadcastInDim_apply _ h₂ _ _ (ix2 i (0 : Fin 1)) fun ax => ?_).trans
    (broadcastInDim_apply _ h₁ x _ (ix1 i) fun ax => ?_)
  · match ax with
    | ⟨0, _⟩ =>
      show i.val = if a = 1 then 0 else i.val
      split
      · have := i.isLt; omega
      · rfl
    | ⟨1, _⟩ => rfl
  · match ax with
    | ⟨0, _⟩ =>
      show i.val = if a = 1 then 0 else i.val
      split
      · have := i.isLt; omega
      · rfl

end Bcast

/-! ### The transposed recurrent weights -/

theorem WB_v20 (d : Dev nD) :
    (WB m d (Proc.devRef .tc main_v20) : S128x128.Idx → Elt F .f32)
      = transpose S128x128 [1, 0] (m ((d.tc : Thread nD τ).loc main_arg5) : S128x128.Idx → Elt F .f32) transposes_S128x128_S128x128_1_0 := by
  show after opsB (W2 m d) (Proc.devRef .tc main_v20) = _
  after_results
  rw [W2_of m d main_arg5 (by decide)]

/-- The first region's recurrent weights at `(k, n)` are `W_hh` at `(n, k)`. -/
theorem v20_apply (d : Dev nD) (k n : Fin 128) :
    (WB m d (Proc.devRef .tc main_v20) : S128x128.Idx → Elt F .f32) (ix2 k n) = m ((d.tc : Thread nD τ).loc main_arg5) (ix2 n k) := by
  rw [WB_v20]
  exact transpose_ix2_apply _ _ k n

/-! ### The bias rows -/

theorem WB_v21 (d : Dev nD) :
    (WB m d (Proc.devRef .tc main_v21) : S1x128.Idx → Elt F .f32)
      = broadcastInDim S1x128 ![1] bcast_S128_S1x128_1 (m ((d.tc : Thread nD τ).loc main_arg4) : S128.Idx → Elt F .f32) := by
  show after opsB (W2 m d) (Proc.devRef .tc main_v21) = _
  after_results
  rw [W2_of m d main_arg4 (by decide)]
theorem WB_v22 (d : Dev nD) :
    (WB m d (Proc.devRef .tc main_v22) : S1x128.Idx → Elt F .f32)
      = broadcastInDim S1x128 ![1] bcast_S128_S1x128_1 (m ((d.tc : Thread nD τ).loc main_arg6) : S128.Idx → Elt F .f32) := by
  show after opsB (W2 m d) (Proc.devRef .tc main_v22) = _
  after_results
  rw [W2_of m d main_arg6 (by decide)]

/-- The input bias row at lane `n` is `b_ih` at `n`. -/
theorem v21_apply (d : Dev nD) (u : Fin 1) (n : Fin 128) :
    (WB m d (Proc.devRef .tc main_v21) : S1x128.Idx → Elt F .f32) (ix2 u n) = m ((d.tc : Thread nD τ).loc main_arg4) (ix1 n) := by
  rw [WB_v21]; exact bcast_row_apply _ _ u n
/-- The recurrent bias row at lane `n` is `b_hh` at `n`. -/
theorem v22_apply (d : Dev nD) (u : Fin 1) (n : Fin 128) :
    (WB m d (Proc.devRef .tc main_v22) : S1x128.Idx → Elt F .f32) (ix2 u n) = m ((d.tc : Thread nD τ).loc main_arg6) (ix1 n) := by
  rw [WB_v22]; exact bcast_row_apply _ _ u n

/-- The two bias rows staged again before the second region, from any valuation. -/
theorem opsC_v24 (V : Valuation τ sig (Elt F)) :
    (after opsC V (Proc.devRef .tc main_v24) : S1x128.Idx → Elt F .f32)
      = broadcastInDim S1x128 ![1] bcast_S128_S1x128_1 (V (Proc.devRef .tc main_arg4) : S128.Idx → Elt F .f32) := by
  after_results
theorem opsC_v25 (V : Valuation τ sig (Elt F)) :
    (after opsC V (Proc.devRef .tc main_v25) : S1x128.Idx → Elt F .f32)
      = broadcastInDim S1x128 ![1] bcast_S128_S1x128_1 (V (Proc.devRef .tc main_arg6) : S128.Idx → Elt F .f32) := by
  after_results
/-- The references the third host stretch writes. -/
abbrev opsC_W : List (Ref sig .tc) := [main_v24, main_v25]
theorem opsC_writes : (opsC : List (HloOp τ sig (Elt F))).Forall fun op => op.writes ⊆ (opsC_W.map (Proc.devRef (τ := τ) .tc)).toFinset := by
  simp only [List.Forall]
  exact (by simp only [StableHlo.unary_writes, Finset.singleton_subset_iff, List.mem_toFinset]; exact ⟨List.mem_map_of_mem (by decide), List.mem_map_of_mem (by decide)⟩)
/-- A reference the third host stretch does not write keeps its contents. -/
theorem opsC_of (V : Valuation τ sig (Elt F)) (r : Ref sig .tc) (h : r ∉ opsC_W) :
    after opsC V (Proc.devRef .tc r) = V (Proc.devRef .tc r) :=
  StableHlo.after_of_writes_sub opsC _ opsC_writes h

/-! ### The head's first bias row -/

theorem WB_v8 (d : Dev nD) :
    (WB m d (Proc.devRef .tc main_v8) : S1x256.Idx → Elt F .f32)
      = broadcastInDim S1x256 ![1] bcast_S256_S1x256_1 (m ((d.tc : Thread nD τ).loc main_arg8) : S256.Idx → Elt F .f32) := by
  show after opsB (W2 m d) (Proc.devRef .tc main_v8) = _
  after_results
  rw [W2_of m d main_arg8 (by decide)]
/-- The head's first bias row at lane `j` is `b0` at `j`. -/
theorem v8_apply (d : Dev nD) (u : Fin 1) (j : Fin 256) :
    (WB m d (Proc.devRef .tc main_v8) : S1x256.Idx → Elt F .f32) (ix2 u j) = m ((d.tc : Thread nD τ).loc main_arg8) (ix1 j) := by
  rw [WB_v8]; exact bcast_row_apply _ _ u j

/-! ### Each row's first active step -/

theorem WB_v7 (d : Dev nD) :
    (WB m d (Proc.devRef .tc main_v7) : S16x128.Idx → BitVec 32)
      = broadcastInDim S16x128 ![0, 1] bcast_S16x1_S16x128_0_1 (broadcastInDim S16x1 ![0] bcast_S16_S16x1_0
          (subi (broadcastInDim S16 ![] bcast_S_S16 (constantI S_ 32 2048#32)) (m ((d.tc : Thread nD τ).loc main_arg1) : S16.Idx → BitVec 32))) := by
  show after opsB (W2 m d) (Proc.devRef .tc main_v7) = _
  after_results
  rw [W2_of m d main_arg1 (by decide)]

/-- Row `i`'s first active step, on every lane: `2048 - lengths i`. -/
theorem v7_apply (d : Dev nD) (i : Fin 16) (n : Fin 128) :
    (WB m d (Proc.devRef .tc main_v7) : S16x128.Idx → BitVec 32) (ix2 i n)
      = IntOp.subi 2048#32 (m ((d.tc : Thread nD τ).loc main_arg1) (ix1 i)) := by
  rw [WB_v7]
  exact (bcast_col_apply _ _ _ i n).trans rfl

/-! ### The first step at which any row is active

The signed maximum of the sixteen lengths, folded from the most negative word, subtracted from 2048. -/

section MaxLen

/-- The signed maximum of two words has the larger signed value, and is one of the two. -/
theorem maxsi_toInt (x y : BitVec 32) : (IntOp.maxsi x y).toInt = max x.toInt y.toInt := by
  unfold IntOp.maxsi
  split <;> rename_i h <;> rw [BitVec.slt_iff_toInt_lt] at h <;> omega
theorem maxsi_eq_or (x y : BitVec 32) : IntOp.maxsi x y = x ∨ IntOp.maxsi x y = y := by
  unfold IntOp.maxsi
  split
  · exact Or.inl rfl
  · exact Or.inr rfl

/-- A fold of the signed maximum is at least its start and every member, and is the start or a member. -/
theorem fold_maxsi_spec {ι : Type} [DecidableEq ι] (s : Finset ι) (b : BitVec 32) (f : ι → BitVec 32) :
    b.toInt ≤ (s.fold IntOp.maxsi b f).toInt ∧ (∀ i ∈ s, (f i).toInt ≤ (s.fold IntOp.maxsi b f).toInt)
      ∧ (s.fold IntOp.maxsi b f = b ∨ ∃ i ∈ s, s.fold IntOp.maxsi b f = f i) := by
  induction s using Finset.cons_induction with
  | empty => exact ⟨le_refl _, fun _ h => absurd h (Finset.notMem_empty _), Or.inl rfl⟩
  | cons a s ha ih =>
    obtain ⟨ih1, ih2, ih3⟩ := ih
    rw [Finset.fold_cons]
    have ht := maxsi_toInt (f a) (s.fold IntOp.maxsi b f)
    refine ⟨by omega, fun i hi => ?_, ?_⟩
    · rcases Finset.mem_cons.1 hi with rfl | hi
      · omega
      · have := ih2 i hi; omega
    · rcases maxsi_eq_or (f a) (s.fold IntOp.maxsi b f) with e | e
      · exact Or.inr ⟨a, Finset.mem_cons_self _ _, e⟩
      · rw [e]
        rcases ih3 with e' | ⟨i, hi, e'⟩
        · exact Or.inl e'
        · exact Or.inr ⟨i, Finset.mem_cons.2 (Or.inr hi), e'⟩

/-- The longest length, as the host computes it. -/
def maxLen (lengths : S16.Idx → BitVec 32) : BitVec 32 :=
  Host.reduce IntOp.maxsi lengths (constantI S_ 32 2147483648#32) reducesTo_S16_S_d0 h_S_ ix0

instance : Subsingleton S_.Idx := ⟨fun a b => funext fun d => d.elim0⟩

theorem maxLen_eq_fold (lengths : S16.Idx → BitVec 32) :
    maxLen lengths = (Finset.univ : Finset S16.Idx).fold IntOp.maxsi 2147483648#32 lengths := by
  unfold maxLen
  rw [Host.reduce_eq_fold, Finset.filter_true_of_mem (fun i _ => Subsingleton.elim _ _)]
  rfl

/-- Every length is at most the longest. -/
theorem le_maxLen (lengths : S16.Idx → BitVec 32) (i : S16.Idx) : (lengths i).toInt ≤ (maxLen lengths).toInt := by
  rw [maxLen_eq_fold]
  exact (fold_maxsi_spec _ _ _).2.1 i (Finset.mem_univ i)

/-- The longest length is one of the lengths. -/
theorem maxLen_mem (lengths : S16.Idx → BitVec 32) : ∃ i : S16.Idx, maxLen lengths = lengths i := by
  rcases (fold_maxsi_spec (Finset.univ : Finset S16.Idx) 2147483648#32 lengths).2.2 with e | ⟨i, -, e⟩
  · refine ⟨ix1 (0 : Fin 16), ?_⟩
    have h1 := le_maxLen lengths (ix1 (0 : Fin 16))
    rw [maxLen_eq_fold] at h1 ⊢
    rw [e] at h1 ⊢
    apply BitVec.eq_of_toInt_eq
    have h2 : (2147483648#32 : BitVec 32).toInt = -2147483648 := by decide
    have h3 := BitVec.le_toInt (lengths (ix1 (0 : Fin 16)))
    rw [h2] at h1 ⊢
    omega
  · exact ⟨i, (maxLen_eq_fold lengths).trans e⟩

/-- A length in `[1, 2048]` subtracted from 2048: no wrap, signed or unsigned. -/
theorem subi_2048 (v : BitVec 32) (h1 : 1 ≤ v.toInt) (h2 : v.toInt ≤ 2048) :
    (IntOp.subi 2048#32 v).toInt = 2048 - v.toInt ∧ (IntOp.subi 2048#32 v).toNat = 2048 - v.toNat
      ∧ 1 ≤ v.toNat ∧ v.toNat ≤ 2048 := by
  have hv := v.isLt
  have e := BitVec.toInt_eq_toNat_cond v
  have hN : 1 ≤ v.toNat ∧ v.toNat ≤ 2048 := by split at e <;> omega
  have hs : (IntOp.subi 2048#32 v).toNat = 2048 - v.toNat := by
    show (2048#32 - v).toNat = _
    rw [BitVec.toNat_sub, show (2048#32 : BitVec 32).toNat = 2048 from rfl]
    omega
  refine ⟨?_, hs, hN⟩
  have e' := BitVec.toInt_eq_toNat_cond (IntOp.subi 2048#32 v)
  rw [hs] at e'
  split at e <;> split at e' <;> omega

variable (lengths : S16.Idx → BitVec 32) (hlen : ∀ i : S16.Idx, 1 ≤ (lengths i).toInt ∧ (lengths i).toInt ≤ 2048)
include hlen

/-- Under the lengths' range the longest length lies in `[1, 2048]`. -/
theorem maxLen_range : 1 ≤ (maxLen lengths).toInt ∧ (maxLen lengths).toInt ≤ 2048 := by
  obtain ⟨i, e⟩ := maxLen_mem lengths
  rw [e]; exact hlen i

/-- The first active step `2048 - max lengths` lies in `[0, 2047]` … -/
theorem mStep_range : 0 ≤ (IntOp.subi 2048#32 (maxLen lengths)).toInt ∧ (IntOp.subi 2048#32 (maxLen lengths)).toInt ≤ 2047 := by
  obtain ⟨h1, h2⟩ := maxLen_range lengths hlen
  rw [(subi_2048 _ h1 h2).1]; omega

/-- … and is at most every row's first active step `2048 - lengths i`. -/
theorem mStep_le_act (i : S16.Idx) :
    (IntOp.subi 2048#32 (maxLen lengths)).toInt ≤ (IntOp.subi 2048#32 (lengths i)).toInt := by
  obtain ⟨h1, h2⟩ := maxLen_range lengths hlen
  rw [(subi_2048 _ h1 h2).1, (subi_2048 _ (hlen i).1 (hlen i).2).1]
  have := le_maxLen lengths i; omega

/-- Row `i`'s first active step lies in `[0, 2047]`. -/
theorem act_range (i : S16.Idx) :
    0 ≤ (IntOp.subi 2048#32 (lengths i)).toInt ∧ (IntOp.subi 2048#32 (lengths i)).toInt ≤ 2047 := by
  rw [(subi_2048 _ (hlen i).1 (hlen i).2).1]; have := hlen i; omega

/-- The same as natural numbers: `2048 - max` of the lengths' values, below every `2048 - lengths i`. -/
theorem mStep_toNat : (IntOp.subi 2048#32 (maxLen lengths)).toNat = 2048 - (maxLen lengths).toNat
    ∧ (∀ i, (lengths i).toNat ≤ (maxLen lengths).toNat) ∧ 1 ≤ (maxLen lengths).toNat ∧ (maxLen lengths).toNat ≤ 2048 := by
  obtain ⟨h1, h2⟩ := maxLen_range lengths hlen
  obtain ⟨-, e, hN1, hN2⟩ := subi_2048 _ h1 h2
  refine ⟨e, fun i => ?_, hN1, hN2⟩
  have hi := le_maxLen lengths i
  have a := BitVec.toInt_eq_toNat_cond (lengths i)
  have b := BitVec.toInt_eq_toNat_cond (maxLen lengths)
  have := (lengths i).isLt
  have := (maxLen lengths).isLt
  have := hlen i
  split at a <;> split at b <;> omega
theorem act_toNat (i : S16.Idx) : (IntOp.subi 2048#32 (lengths i)).toNat = 2048 - (lengths i).toNat
    ∧ 1 ≤ (lengths i).toNat ∧ (lengths i).toNat ≤ 2048 :=
  (subi_2048 _ (hlen i).1 (hlen i).2).2

end MaxLen

theorem WB_v19 (d : Dev nD) :
    (WB m d (Proc.devRef .tc main_v19) : S1.Idx → BitVec 32)
      = shapeCast S1 (subi (constantI S_ 32 2048#32)
          (Host.reduce IntOp.maxsi (m ((d.tc : Thread nD τ).loc main_arg1) : S16.Idx → BitVec 32) (constantI S_ 32 2147483648#32) reducesTo_S16_S_d0 h_S_))
          shapeCasts_S_S1 := by
  show after opsB (W2 m d) (Proc.devRef .tc main_v19) = _
  after_results
  rw [W2_of m d main_arg1 (by decide)]
  rfl

/-- The first step at which any row is active, as the regions are handed it: `2048 - max lengths`. -/
theorem v19_apply (d : Dev nD) (u : Fin 1) :
    (WB m d (Proc.devRef .tc main_v19) : S1.Idx → BitVec 32) (ix1 u)
      = IntOp.subi 2048#32 (maxLen (m ((d.tc : Thread nD τ).loc main_arg1))) := by
  rw [WB_v19]
  refine (shapeCast_apply _ _ _ ix0 ?_).trans rfl
  rw [Shape.rowMajor_val_one]
  have h1 := (S_.rowMajor ix0).isLt
  have h2 : u.val = 0 := by omega
  show (S_.rowMajor ix0).val = u.val
  have h3 : S_.numel = 1 := by decide
  omega

/-! ## Reading a scatter at an index -/

/-! ### A fold of pointwise overwrites, read at one place

A `stablehlo.scatter` whose body returns the update is a left fold, over the update's positions in row-major order,
of "overwrite the operand at the place this position lands". Read at one place of the operand, such a fold is the
operand where no position lands there, and the one update that lands there where exactly one does. -/

section Overwrite

variable {ι κ α : Type} [DecidableEq κ]

/-- Read at a place no step writes, the fold is where it started. -/
theorem foldl_overwrite_miss (g : ι → κ) (upd : ι → α) (step : (κ → α) → ι → κ → α)
    (hstep : ∀ r n i, step r n i = if i = g n then upd n else r i) (i : κ) :
    ∀ (l : List ι) (x : κ → α), (∀ n ∈ l, i ≠ g n) → l.foldl step x i = x i
  | [], _, _ => rfl
  | a :: l, x, h => by
    rw [List.foldl_cons, foldl_overwrite_miss g upd step hstep i l _ (fun n hn => h n (List.mem_cons_of_mem _ hn)), hstep,
      if_neg (h a List.mem_cons_self)]

/-- Over a list without repeats, read at a place exactly one step writes, the fold is that step's value. -/
theorem foldl_overwrite_hit (g : ι → κ) (upd : ι → α) (step : (κ → α) → ι → κ → α)
    (hstep : ∀ r n i, step r n i = if i = g n then upd n else r i) (i : κ) (n0 : ι) (hn0 : i = g n0) :
    ∀ (l : List ι) (x : κ → α), l.Nodup → n0 ∈ l → (∀ n ∈ l, i = g n → n = n0) → l.foldl step x i = upd n0
  | [], _, _, hm, _ => absurd hm List.not_mem_nil
  | a :: l, x, hnd, hm, huniq => by
    rw [List.foldl_cons]
    obtain ⟨ha, hnd'⟩ := List.nodup_cons.1 hnd
    by_cases e : a = n0
    · subst e
      rw [foldl_overwrite_miss g upd step hstep i l _
          (fun n hn e' => ha (huniq n (List.mem_cons_of_mem _ hn) e' ▸ hn)), hstep, if_pos hn0]
    · have hm' : n0 ∈ l := (List.mem_cons.1 hm).resolve_left (fun h => e h.symm)
      exact foldl_overwrite_hit g upd step hstep i n0 hn0 l _ hnd' hm' (fun n hn => huniq n (List.mem_cons_of_mem _ hn))

end Overwrite

/-! ### The head's second weight matrix: three rows written over 128 rows of zeros -/

section Scatter1

variable {α : Type}

/-- The dimension numbers of the scatter that lays a `[3, 256]` update at a start index over a `[128, 256]` operand. -/
abbrev sc1 : ScatterDims S128x256 S1 S3x256 := scatter_S128x256_S1_S3x256_01_n_0_0

/-- Where update position `(r, c)` lands when the start index is zero: operand position `(r, c)`. -/
def emb1 (jj : S3x256.Idx) : S128x256.Idx := ix2 ⟨(jj 0).val, Nat.lt_of_lt_of_le (jj 0).isLt (by decide)⟩ (jj 1)

theorem sc1_start (idx : IVec S1 32) (hidx : ∀ k, idx k = 0#32) (jj : S3x256.Idx) (a : Fin S128x256.rank) :
    sc1.start jj idx a = 0 := by
  unfold ScatterDims.start
  split
  · rw [hidx]; rfl
  · rfl

theorem sc1_window0 (jj : S3x256.Idx) : sc1.window jj (0 : Fin 2) = (jj 0).val := by
  unfold ScatterDims.window
  rw [dif_pos (by decide)]
  rfl

theorem sc1_window1 (jj : S3x256.Idx) : sc1.window jj (1 : Fin 2) = (jj 1).val := by
  unfold ScatterDims.window
  rw [dif_pos (by decide)]
  rfl

theorem sc1_resultIdx (idx : IVec S1 32) (hidx : ∀ k, idx k = 0#32) (jj : S3x256.Idx) :
    sc1.resultIdx? jj idx = some (emb1 jj) := by
  have h0 : (jj 0).val < 3 := (jj 0).isLt
  have h1 : (jj 1).val < 256 := (jj 1).isLt
  have hall : ∀ a, 0 ≤ sc1.start jj idx a + sc1.window jj a ∧ sc1.start jj idx a + sc1.window jj a < S128x256.size a := by
    intro a
    rw [sc1_start idx hidx]
    match a with
    | ⟨0, _⟩ =>
      rw [show (⟨0, by decide⟩ : Fin S128x256.rank) = (0 : Fin 2) from rfl, sc1_window0]
      show (0 : ℤ) ≤ 0 + ((jj 0).val : ℤ) ∧ 0 + ((jj 0).val : ℤ) < ((128 : ℕ) : ℤ)
      omega
    | ⟨1, _⟩ =>
      rw [show (⟨1, by decide⟩ : Fin S128x256.rank) = (1 : Fin 2) from rfl, sc1_window1]
      show (0 : ℤ) ≤ 0 + ((jj 1).val : ℤ) ∧ 0 + ((jj 1).val : ℤ) < ((256 : ℕ) : ℤ)
      omega
  unfold ScatterDims.resultIdx?
  rw [dif_pos hall]
  congr 1
  funext a
  apply Fin.ext
  match a with
  | ⟨0, _⟩ =>
    show (sc1.start jj idx (0 : Fin 2) + sc1.window jj (0 : Fin 2)).toNat = (jj 0).val
    rw [sc1_start idx hidx, sc1_window0]; omega
  | ⟨1, _⟩ =>
    show (sc1.start jj idx (1 : Fin 2) + sc1.window jj (1 : Fin 2)).toNat = (jj 1).val
    rw [sc1_start idx hidx, sc1_window1]; omega

/-- The scatter at the start index zero, read at row `r`, column `j`: the update's row `r` for `r < 3`, the operand
    below. -/
theorem scatter1_apply (x : S128x256.Idx → α) (idx : IVec S1 32) (hidx : ∀ k, idx k = 0#32) (upd : S3x256.Idx → α)
    (r : Fin 128) (j : Fin 256) :
    Host.scatter sc1 (fun _ b => b) x idx upd (ix2 r j) = if h : r.val < 3 then upd (ix2 ⟨r.val, h⟩ j) else x (ix2 r j) := by
  unfold Host.scatter
  by_cases h : r.val < 3
  · rw [dif_pos h]
    refine (foldl_overwrite_hit (fun n => emb1 (S3x256.rowMajor.symm n)) (fun n => upd (S3x256.rowMajor.symm n)) _ ?hs
      (ix2 r j) (S3x256.rowMajor (ix2 ⟨r.val, h⟩ j)) ?hn _ x (List.nodup_finRange _) (List.mem_finRange _) ?hu).trans ?hv
    case hs =>
      intro rr n i
      rw [sc1_resultIdx idx hidx]
    case hn =>
      show ix2 r j = emb1 (S3x256.rowMajor.symm (S3x256.rowMajor (ix2 ⟨r.val, h⟩ j)))
      rw [Equiv.symm_apply_apply]
      rfl
    case hu =>
      intro n _ e
      rw [← Equiv.symm_apply_eq]
      have e0 := congrArg (fun i : S128x256.Idx => (i 0).val) e
      have e1 := congrArg (fun i : S128x256.Idx => (i 1).val) e
      funext a
      apply Fin.ext
      match a with
      | ⟨0, _⟩ => exact e0.symm
      | ⟨1, _⟩ => exact e1.symm
    case hv =>
      show upd (S3x256.rowMajor.symm (S3x256.rowMajor (ix2 ⟨r.val, h⟩ j))) = _
      rw [Equiv.symm_apply_apply]
  · rw [dif_neg h]
    refine foldl_overwrite_miss (fun n => emb1 (S3x256.rowMajor.symm n)) (fun n => upd (S3x256.rowMajor.symm n)) _ ?hs
      (ix2 r j) _ x (fun n _ e => h ?hlt)
    case hs =>
      intro rr n i
      rw [sc1_resultIdx idx hidx]
    case hlt =>
      have e0 := congrArg (fun i : S128x256.Idx => (i 0).val) e
      have hlt : ((S3x256.rowMajor.symm n) 0).val < 3 := ((S3x256.rowMajor.symm n) 0).isLt
      show r.val < 3
      rw [show r.val = ((S3x256.rowMajor.symm n) 0).val from e0]
      exact hlt

end Scatter1

/-! ### The head's second bias row: three entries written over 128 lanes of zeros -/

section Scatter2

variable {α : Type}

/-- The dimension numbers of the scatter that lays a `[3]` update at a start position over a `[1, 128]` operand. -/
abbrev sc2 : ScatterDims S1x128 S2 S3 := scatter_S1x128_S2_S3_0_0_01_0

/-- Where update position `c` lands when the start position is `(0, 0)`: operand position `(0, c)`. -/
def emb2 (jj : S3.Idx) : S1x128.Idx := ix2 (0 : Fin 1) ⟨(jj 0).val, Nat.lt_of_lt_of_le (jj 0).isLt (by decide)⟩

theorem sc2_start (idx : IVec S2 32) (hidx : ∀ k, idx k = 0#32) (jj : S3.Idx) (a : Fin S1x128.rank) :
    sc2.start jj idx a = 0 := by
  unfold ScatterDims.start
  split
  · rw [hidx]; rfl
  · rfl

theorem sc2_window0 (jj : S3.Idx) : sc2.window jj (0 : Fin 2) = 0 := by
  unfold ScatterDims.window
  rw [dif_neg (by decide)]

theorem sc2_window1 (jj : S3.Idx) : sc2.window jj (1 : Fin 2) = (jj 0).val := by
  unfold ScatterDims.window
  rw [dif_pos (by decide)]
  rfl

theorem sc2_resultIdx (idx : IVec S2 32) (hidx : ∀ k, idx k = 0#32) (jj : S3.Idx) :
    sc2.resultIdx? jj idx = some (emb2 jj) := by
  have h0 : (jj 0).val < 3 := (jj 0).isLt
  have hall : ∀ a, 0 ≤ sc2.start jj idx a + sc2.window jj a ∧ sc2.start jj idx a + sc2.window jj a < S1x128.size a := by
    intro a
    rw [sc2_start idx hidx]
    match a with
    | ⟨0, _⟩ =>
      rw [show (⟨0, by decide⟩ : Fin S1x128.rank) = (0 : Fin 2) from rfl, sc2_window0]
      show (0 : ℤ) ≤ 0 + ((0 : ℕ) : ℤ) ∧ 0 + ((0 : ℕ) : ℤ) < ((1 : ℕ) : ℤ)
      omega
    | ⟨1, _⟩ =>
      rw [show (⟨1, by decide⟩ : Fin S1x128.rank) = (1 : Fin 2) from rfl, sc2_window1]
      show (0 : ℤ) ≤ 0 + ((jj 0).val : ℤ) ∧ 0 + ((jj 0).val : ℤ) < ((128 : ℕ) : ℤ)
      omega
  unfold ScatterDims.resultIdx?
  rw [dif_pos hall]
  congr 1
  funext a
  apply Fin.ext
  match a with
  | ⟨0, _⟩ =>
    show (sc2.start jj idx (0 : Fin 2) + sc2.window jj (0 : Fin 2)).toNat = 0
    rw [sc2_start idx hidx, sc2_window0]; omega
  | ⟨1, _⟩ =>
    show (sc2.start jj idx (1 : Fin 2) + sc2.window jj (1 : Fin 2)).toNat = (jj 0).val
    rw [sc2_start idx hidx, sc2_window1]; omega

/-- The scatter at the start position `(0, 0)`, read at lane `n`: the update's entry `n` for `n < 3`, the operand
    beyond. -/
theorem scatter2_apply (x : S1x128.Idx → α) (idx : IVec S2 32) (hidx : ∀ k, idx k = 0#32) (upd : S3.Idx → α)
    (u : Fin 1) (n : Fin 128) :
    Host.scatter sc2 (fun _ b => b) x idx upd (ix2 u n) = if h : n.val < 3 then upd (ix1 ⟨n.val, h⟩) else x (ix2 u n) := by
  have hu : u.val = 0 := by omega
  unfold Host.scatter
  by_cases h : n.val < 3
  · rw [dif_pos h]
    refine (foldl_overwrite_hit (fun k => emb2 (S3.rowMajor.symm k)) (fun k => upd (S3.rowMajor.symm k)) _ ?hs
      (ix2 u n) (S3.rowMajor (ix1 ⟨n.val, h⟩)) ?hn _ x (List.nodup_finRange _) (List.mem_finRange _) ?hu).trans ?hv
    case hs =>
      intro rr k i
      rw [sc2_resultIdx idx hidx]
    case hn =>
      show ix2 u n = emb2 (S3.rowMajor.symm (S3.rowMajor (ix1 ⟨n.val, h⟩)))
      rw [Equiv.symm_apply_apply]
      funext a
      apply Fin.ext
      match a with
      | ⟨0, _⟩ => exact hu
      | ⟨1, _⟩ => rfl
    case hu =>
      intro k _ e
      rw [← Equiv.symm_apply_eq]
      have e1 := congrArg (fun i : S1x128.Idx => (i 1).val) e
      funext a
      apply Fin.ext
      match a with
      | ⟨0, _⟩ => exact e1.symm
    case hv =>
      show upd (S3.rowMajor.symm (S3.rowMajor (ix1 ⟨n.val, h⟩))) = _
      rw [Equiv.symm_apply_apply]
  · rw [dif_neg h]
    refine foldl_overwrite_miss (fun k => emb2 (S3.rowMajor.symm k)) (fun k => upd (S3.rowMajor.symm k)) _ ?hs
      (ix2 u n) _ x (fun k _ e => h ?hlt)
    case hs =>
      intro rr k i
      rw [sc2_resultIdx idx hidx]
    case hlt =>
      have e1 := congrArg (fun i : S1x128.Idx => (i 1).val) e
      have hlt : ((S3.rowMajor.symm k) 0).val < 3 := ((S3.rowMajor.symm k) 0).isLt
      show n.val < 3
      rw [show n.val = ((S3.rowMajor.symm k) 0).val from e1]
      exact hlt

/-- Two one-word vectors of zero laid end to end are two zeros. -/
theorem concat_zero (a b : IVec S1 32) (ha : ∀ k, a k = 0#32) (hb : ∀ k, b k = 0#32) (k : S2.Idx) :
    concatenate S2 0 [⟨S1, a⟩, ⟨S1, b⟩] concatenates_S1_S1_S2_d0 k = 0#32 := by
  have hk : (k 0).val < 2 := (k 0).isLt
  by_cases h0 : (k 0).val = 0
  · rw [concatenate_pair_apply_left (0 : Fin 1) a b _ k rfl (ix1 (0 : Fin 1)) (fun c => by
      match c with
      | ⟨0, _⟩ => exact h0.symm)]
    exact ha _
  · rw [concatenate_pair_apply_right (0 : Fin 1) a b _ k rfl rfl (ix1 (0 : Fin 1))
      (fun c hc => absurd (Subsingleton.elim _ _) hc) (by show 0 + 1 = (k 0).val; omega)]
    exact hb _

end Scatter2

/-! ### The head's second layer, padded to 128 lanes

The second weight matrix is the three rows of `W1` written over a `[128, 256]` array of zeros, the second bias the
three entries of `b1` written over a `[1, 128]` row of zeros. -/

theorem WB_v11 (d : Dev nD) :
    (WB m d (Proc.devRef .tc main_v11) : S128x256.Idx → Elt F .f32)
      = Host.scatter scatter_S128x256_S1_S3x256_01_n_0_0 (fun _ b => b)
          (broadcastInDim S128x256 ![] bcast_S_S128x256 (constant (F := F) S_ .f32 0x00000000#32))
          (broadcastInDim S1 ![] bcast_S_S1 (constantI S_ 32 0#32))
          (m ((d.tc : Thread nD τ).loc main_arg9) : S3x256.Idx → Elt F .f32) := by
  show after opsB (W2 m d) (Proc.devRef .tc main_v11) = _
  after_results
  rw [W2_of m d main_arg9 (by decide)]

/-- The padded second weight matrix at `(r, j)`: `W1` at `(r, j)` for `r < 3`, zero below. -/
theorem v11_apply (d : Dev nD) (r : Fin 128) (j : Fin 256) :
    (WB m d (Proc.devRef .tc main_v11) : S128x256.Idx → Elt F .f32) (ix2 r j)
      = if h : r.val < 3 then m ((d.tc : Thread nD τ).loc main_arg9) (ix2 ⟨r.val, h⟩ j)
        else (FloatOps.ofBits .f32 0x00000000#32 : F .f32) := by
  rw [WB_v11]
  exact (scatter1_apply _ _ (fun _ => rfl) _ r j).trans rfl

theorem WB_v16 (d : Dev nD) :
    (WB m d (Proc.devRef .tc main_v16) : S1x128.Idx → Elt F .f32)
      = Host.scatter scatter_S1x128_S2_S3_0_0_01_0 (fun _ b => b)
          (broadcastInDim S1x128 ![] bcast_S_S1x128 (constant (F := F) S_ .f32 0x00000000#32))
          (concatenate S2 0 [⟨S1, broadcastInDim S1 ![] bcast_S_S1 (constantI S_ 32 0#32)⟩,
            ⟨S1, broadcastInDim S1 ![] bcast_S_S1 (constantI S_ 32 0#32)⟩] concatenates_S1_S1_S2_d0)
          (m ((d.tc : Thread nD τ).loc main_arg10) : S3.Idx → Elt F .f32) := by
  show after opsB (W2 m d) (Proc.devRef .tc main_v16) = _
  after_results
  rw [W2_of m d main_arg10 (by decide)]

/-- The padded second bias row at lane `n`: `b1` at `n` for `n < 3`, zero beyond. -/
theorem v16_apply (d : Dev nD) (u : Fin 1) (n : Fin 128) :
    (WB m d (Proc.devRef .tc main_v16) : S1x128.Idx → Elt F .f32) (ix2 u n)
      = if h : n.val < 3 then m ((d.tc : Thread nD τ).loc main_arg10) (ix1 ⟨n.val, h⟩)
        else (FloatOps.ofBits .f32 0x00000000#32 : F .f32) := by
  rw [WB_v16]
  exact (scatter2_apply _ _ (concat_zero _ _ (fun _ => rfl) (fun _ => rfl)) _ u n).trans rfl

/-! ### The arguments at the first region -/

/-- The input weights and the head's first weight matrix, which the regions read whole, are the launch memory's. -/
theorem WB_arg3 (d : Dev nD) : WB m d (Proc.devRef .tc main_arg3) = m ((d.tc : Thread nD τ).loc main_arg3) :=
  WB_of m d main_arg3 (by decide) (by decide)
theorem WB_arg7 (d : Dev nD) : WB m d (Proc.devRef .tc main_arg7) = m ((d.tc : Thread nD τ).loc main_arg7) :=
  WB_of m d main_arg7 (by decide) (by decide)

/-- Every argument is the launch memory's at the first region: no host operation and no gather call writes one. -/
theorem WB_args (d : Dev nD) :
    WB m d (Proc.devRef .tc main_arg0) = m ((d.tc : Thread nD τ).loc main_arg0)
    ∧ WB m d (Proc.devRef .tc main_arg1) = m ((d.tc : Thread nD τ).loc main_arg1)
    ∧ WB m d (Proc.devRef .tc main_arg2) = m ((d.tc : Thread nD τ).loc main_arg2)
    ∧ WB m d (Proc.devRef .tc main_arg3) = m ((d.tc : Thread nD τ).loc main_arg3)
    ∧ WB m d (Proc.devRef .tc main_arg4) = m ((d.tc : Thread nD τ).loc main_arg4)
    ∧ WB m d (Proc.devRef .tc main_arg5) = m ((d.tc : Thread nD τ).loc main_arg5)
    ∧ WB m d (Proc.devRef .tc main_arg6) = m ((d.tc : Thread nD τ).loc main_arg6)
    ∧ WB m d (Proc.devRef .tc main_arg7) = m ((d.tc : Thread nD τ).loc main_arg7)
    ∧ WB m d (Proc.devRef .tc main_arg8) = m ((d.tc : Thread nD τ).loc main_arg8)
    ∧ WB m d (Proc.devRef .tc main_arg9) = m ((d.tc : Thread nD τ).loc main_arg9)
    ∧ WB m d (Proc.devRef .tc main_arg10) = m ((d.tc : Thread nD τ).loc main_arg10) :=
  ⟨WB_of m d main_arg0 (by decide) (by decide),
    WB_of m d main_arg1 (by decide) (by decide),
    WB_of m d main_arg2 (by decide) (by decide),
    WB_of m d main_arg3 (by decide) (by decide),
    WB_of m d main_arg4 (by decide) (by decide),
    WB_of m d main_arg5 (by decide) (by decide),
    WB_of m d main_arg6 (by decide) (by decide),
    WB_of m d main_arg7 (by decide) (by decide),
    WB_of m d main_arg8 (by decide) (by decide),
    WB_of m d main_arg9 (by decide) (by decide),
    WB_of m d main_arg10 (by decide) (by decide)⟩

/-! ## The gathered rows the regions read

Row `t * 16 + i` of the steps' array is the table's row named by token `2047 - t` of sequence `i`: the first gather
call's array holds steps `0 … 255`, the second's steps `256 … 2047`. -/

/-- The token global row `t * 16 + i` names: position `2047 - t` of sequence `i`. -/
theorem tokAt_step (d : Dev nD) (t : ℕ) (ht : t < 2048) (i : Fin 16) :
    tokAt (tokT m d) (t * 16 + i.val)
      = (m ((d.tc : Thread nD τ).loc main_arg0) (ix2 i (⟨2047 - t, by omega⟩ : Fin 2048))).toNat := by
  have hi := i.isLt
  have hlt : (2047 - t) * 16 + i.val < 32768 := by omega
  have h := tokT_apply m d (⟨2047 - t, by omega⟩ : Fin 2048) i hlt
  unfold tokAt
  refine congrArg BitVec.toNat (Eq.trans (congrArg (fun a => tokT m d (ix1 a)) (Fin.ext ?_)) h)
  show ((2047 - (t * 16 + i.val) / 16) * 16 + (t * 16 + i.val) % 16) % 32768 = (2047 - t) * 16 + i.val
  omega

/-- A row of the table named by a number below its height, at a lane. -/
theorem embAt_row (emb : S100000x128.Idx → Elt F .f32) (n : ℕ) (hn : n < 100000) (k : Fin 128) :
    embAt emb n k.val = emb (ix2 (⟨n, hn⟩ : Fin 100000) k) := by
  unfold embAt
  congr 1
  funext a
  match a with
  | ⟨0, _⟩ => exact Fin.ext (Nat.mod_eq_of_lt hn)
  | ⟨1, _⟩ => exact Fin.ext (Nat.mod_eq_of_lt k.isLt)

variable (htok : ∀ (d : Dev nD) (j : S16x2048.Idx), (m ((d.tc : Thread nD τ).loc main_arg0) j).toNat < 100000)
include htok

/-- Step `t < 256`, sequence `i`, lane `k` of the first gathered array. -/
theorem X0_apply (d : Dev nD) (t : ℕ) (ht : t < 256) (i : Fin 16) (k : Fin 128) :
    X0 (tokT m d) (embT m d) (ix2 (⟨t * 16 + i.val, by have := i.isLt; omega⟩ : Fin 4096) k)
      = m ((d.tc : Thread nD τ).loc main_arg2)
          (ix2 (⟨(m ((d.tc : Thread nD τ).loc main_arg0) (ix2 i (⟨2047 - t, by omega⟩ : Fin 2048))).toNat, htok d _⟩ : Fin 100000) k) := by
  show embAt (embT m d) (tokAt (tokT m d) (t * 16 + i.val)) k.val = _
  rw [tokAt_step m d t (by omega) i, embAt_row _ _ (htok d _) k, embT_eq]

/-- Step `256 ≤ t < 2048`, sequence `i`, lane `k` of the second gathered array (its row `(t - 256) * 16 + i`). -/
theorem X1_apply (d : Dev nD) (t : ℕ) (h1 : 256 ≤ t) (h2 : t < 2048) (i : Fin 16) (k : Fin 128) :
    X1 (tokT m d) (embT m d) (ix2 (⟨(t - 256) * 16 + i.val, by have := i.isLt; omega⟩ : Fin 28672) k)
      = m ((d.tc : Thread nD τ).loc main_arg2)
          (ix2 (⟨(m ((d.tc : Thread nD τ).loc main_arg0) (ix2 i (⟨2047 - t, by omega⟩ : Fin 2048))).toNat, htok d _⟩ : Fin 100000) k) := by
  show embAt (embT m d) (tokAt (tokT m d) (4096 + ((t - 256) * 16 + i.val))) k.val = _
  rw [show 4096 + ((t - 256) * 16 + i.val) = t * 16 + i.val from by omega, tokAt_step m d t h2 i,
    embAt_row _ _ (htok d _) k, embT_eq]

omit htok

/-! ## At the ideal instance: the operands as plain matrices and rows

The kernel-side mathematics is stated over `mat w p q = w (ix2 p q)` and `bias v n = v (ix2 0 n)`; here each
operand of the regions is such a function of the launch memory's arguments. -/

section AtIdeal

open Cert.Proof.KernelValue (padW padB)

variable (mI : (ℓ : Loc nD τ sig) → Buf (Elt Ideal) ℓ) (d : Dev nD)

/-- A rank-2 argument as a matrix, a rank-1 argument as a row. -/
def argMat {a b : ℕ} (w : (⟨2, ![a, b]⟩ : Shape).Idx → EReal) : Fin a → Fin b → EReal := fun p q => w (ix2 p q)
def argVec {a : ℕ} (v : (⟨1, ![a]⟩ : Shape).Idx → EReal) : Fin a → EReal := fun p => v (ix1 p)

theorem ofBits_zero : (FloatOps.ofBits .f32 0x00000000#32 : Ideal .f32) = (0 : EReal) := by
  show Ideal.ofBits .f32 0x00000000#32 = 0
  simp [Ideal.ofBits, Ideal.ieee]

/-- The recurrent weights the regions read are `W_hh` transposed. -/
theorem whh_ideal (k n : Fin 128) :
    argMat (WB mI d (Proc.devRef .tc main_v20) : S128x128.Idx → EReal) k n
      = argMat (mI ((d.tc : Thread nD τ).loc main_arg5) : S128x128.Idx → EReal) n k :=
  v20_apply mI d k n

/-- The padded second weight matrix is `padW` of `W1`. -/
theorem w1_ideal (c : Fin 128) (q : Fin 256) :
    argMat (WB mI d (Proc.devRef .tc main_v11) : S128x256.Idx → EReal) c q
      = padW (argMat (mI ((d.tc : Thread nD τ).loc main_arg9) : S3x256.Idx → EReal)) c q := by
  unfold argMat padW
  rw [v11_apply mI d c q]
  split
  · rfl
  · exact ofBits_zero

/-- The padded second bias row is `padB` of `b1`. -/
theorem b1_ideal (u : Fin 1) (c : Fin 128) :
    (WB mI d (Proc.devRef .tc main_v16) : S1x128.Idx → EReal) (ix2 u c)
      = padB (argVec (mI ((d.tc : Thread nD τ).loc main_arg10) : S3.Idx → EReal)) c := by
  unfold argVec padB
  rw [v16_apply mI d u c]
  split
  · rfl
  · exact ofBits_zero

end AtIdeal

end Cert.Proof.KI.HostOps

end
-- ==== Proof.KernelSpec.lean ====
/-
  The reference's function, as the arrays' own operations spell it, read at an index: the state after `t` steps
  is the masked recurrence of `KernelValue` run over the steps `0, …, t-1`, and the tail at row `i`, class `c` is
  the head of `KernelValue` on row `i` of the state.
-/
import proofs.«205923_g40089224741417_cont_sun_m_110_39_alg».proof.Proof.Spec
import proofs.«205923_g40089224741417_cont_sun_m_110_39_alg».proof.Proof.KernelValue
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine

noncomputable section

open scoped BigOperators

namespace Cert.Proof.KernelSpec

open Cert.Proof.Spec Cert.Proof.KernelValue
open Idealize.ShloMosaic Idealize.ShloMosaic.ValueIdx

/-! ## Arrays by their coordinates -/

/-- A matrix by its two coordinates, in the order it is stored. -/
def mat2 {a b : ℕ} (w : FVec Ideal ⟨2, ![a, b]⟩ .f32) : Fin a → Fin b → EReal := fun p q => w (ix2 p q)
/-- A vector by its coordinate. -/
def vec1 {a : ℕ} (v : FVec Ideal ⟨1, ![a]⟩ .f32) : Fin a → EReal := fun p => v (ix1 p)

/-! ## The host's product read through a bijection of the contraction index -/

theorem dotGeneral_apply_of {A B K : ℕ} {sl sr : Shape} (d : DotDims sl sr ⟨2, ![A, B]⟩) (e : d.contr.Idx ≃ Fin K)
    (lhs : FVec Ideal sl .f32) (rhs : FVec Ideal sr .f32) (Lx : Fin A → Fin K → sl.Idx) (Rx : Fin B → Fin K → sr.Idx)
    (i : Fin A) (n : Fin B)
    (hL : ∀ k, d.lhsIdx (ix2 i n) (e.symm k) = Lx i k) (hR : ∀ k, d.rhsIdx (ix2 i n) (e.symm k) = Rx n k) :
    Host.dotGeneral (F := Ideal) d none lhs rhs (ix2 i n) = ∑ k : Fin K, lhs (Lx i k) * rhs (Rx n k) := by
  refine (Ideal.dotGeneral_apply d none .single lhs rhs (ix2 i n)).trans ?_
  rw [← Equiv.sum_comp e.symm]
  exact Finset.sum_congr rfl (fun k _ => by rw [hL k, hR k])

/-! ### The three products of the reference: the left operand's lanes against the right operand's ROWS -/

theorem lhs_dotHH_0 (j : S16x128.Idx) (k : dotHH.contr.Idx) : (dotHH.lhsIdx j k 0).val = (j 0).val := rfl
theorem lhs_dotHH_1 (j : S16x128.Idx) (k : dotHH.contr.Idx) :
    (dotHH.lhsIdx j k 1).val = (k ⟨0, by decide⟩).val := dotHH.lhsIdx_val_of_single (cl := 1) rfl j k
theorem rhs_dotHH_0 (j : S16x128.Idx) (k : dotHH.contr.Idx) :
    (dotHH.rhsIdx j k 0).val = (k ⟨0, by decide⟩).val := dotHH.rhsIdx_val_of_single (cr := 0) rfl j k
theorem rhs_dotHH_1 (j : S16x128.Idx) (k : dotHH.contr.Idx) : (dotHH.rhsIdx j k 1).val = (j 1).val := rfl

theorem dotHH_apply (x : FVec Ideal S16x128 .f32) (w : FVec Ideal S128x128 .f32) (i : Fin 16) (n : Fin 128) :
    Host.dotGeneral (F := Ideal) dotHH none x w (ix2 i n) = ∑ k : Fin 128, x (ix2 i k) * w (ix2 k n) := by
  refine dotGeneral_apply_of dotHH (contrEquiv1 dotHH 128 rfl rfl) x w (fun i k => ix2 i k) (fun n k => ix2 k n) i n
    (fun k => ?_) (fun k => ?_)
  · have hk := contrEquiv1_symm_val dotHH 128 rfl rfl k
    funext a
    match a with
    | ⟨0, _⟩ => exact Fin.ext (lhs_dotHH_0 _ _)
    | ⟨1, _⟩ => exact Fin.ext ((lhs_dotHH_1 _ _).trans hk)
  · have hk := contrEquiv1_symm_val dotHH 128 rfl rfl k
    funext a
    match a with
    | ⟨0, _⟩ => exact Fin.ext ((rhs_dotHH_0 _ _).trans hk)
    | ⟨1, _⟩ => exact Fin.ext (rhs_dotHH_1 _ _)

theorem lhs_dotH0_0 (j : S16x256.Idx) (k : dotH0.contr.Idx) : (dotH0.lhsIdx j k 0).val = (j 0).val := rfl
theorem lhs_dotH0_1 (j : S16x256.Idx) (k : dotH0.contr.Idx) :
    (dotH0.lhsIdx j k 1).val = (k ⟨0, by decide⟩).val := dotH0.lhsIdx_val_of_single (cl := 1) rfl j k
theorem rhs_dotH0_0 (j : S16x256.Idx) (k : dotH0.contr.Idx) :
    (dotH0.rhsIdx j k 0).val = (k ⟨0, by decide⟩).val := dotH0.rhsIdx_val_of_single (cr := 0) rfl j k
theorem rhs_dotH0_1 (j : S16x256.Idx) (k : dotH0.contr.Idx) : (dotH0.rhsIdx j k 1).val = (j 1).val := rfl

theorem dotH0_apply (x : FVec Ideal S16x128 .f32) (w : FVec Ideal S128x256 .f32) (i : Fin 16) (q : Fin 256) :
    Host.dotGeneral (F := Ideal) dotH0 none x w (ix2 i q) = ∑ k : Fin 128, x (ix2 i k) * w (ix2 k q) := by
  refine dotGeneral_apply_of dotH0 (contrEquiv1 dotH0 128 rfl rfl) x w (fun i k => ix2 i k) (fun q k => ix2 k q) i q
    (fun k => ?_) (fun k => ?_)
  · have hk := contrEquiv1_symm_val dotH0 128 rfl rfl k
    funext a
    match a with
    | ⟨0, _⟩ => exact Fin.ext (lhs_dotH0_0 _ _)
    | ⟨1, _⟩ => exact Fin.ext ((lhs_dotH0_1 _ _).trans hk)
  · have hk := contrEquiv1_symm_val dotH0 128 rfl rfl k
    funext a
    match a with
    | ⟨0, _⟩ => exact Fin.ext ((rhs_dotH0_0 _ _).trans hk)
    | ⟨1, _⟩ => exact Fin.ext (rhs_dotH0_1 _ _)

theorem lhs_dot01_0 (j : S16x3.Idx) (k : dot01.contr.Idx) : (dot01.lhsIdx j k 0).val = (j 0).val := rfl
theorem lhs_dot01_1 (j : S16x3.Idx) (k : dot01.contr.Idx) :
    (dot01.lhsIdx j k 1).val = (k ⟨0, by decide⟩).val := dot01.lhsIdx_val_of_single (cl := 1) rfl j k
theorem rhs_dot01_0 (j : S16x3.Idx) (k : dot01.contr.Idx) :
    (dot01.rhsIdx j k 0).val = (k ⟨0, by decide⟩).val := dot01.rhsIdx_val_of_single (cr := 0) rfl j k
theorem rhs_dot01_1 (j : S16x3.Idx) (k : dot01.contr.Idx) : (dot01.rhsIdx j k 1).val = (j 1).val := rfl

theorem dot01_apply (x : FVec Ideal S16x256 .f32) (w : FVec Ideal S256x3 .f32) (i : Fin 16) (c : Fin 3) :
    Host.dotGeneral (F := Ideal) dot01 none x w (ix2 i c) = ∑ q : Fin 256, x (ix2 i q) * w (ix2 q c) := by
  refine dotGeneral_apply_of dot01 (contrEquiv1 dot01 256 rfl rfl) x w (fun i q => ix2 i q) (fun c q => ix2 q c) i c
    (fun k => ?_) (fun k => ?_)
  · have hk := contrEquiv1_symm_val dot01 256 rfl rfl k
    funext a
    match a with
    | ⟨0, _⟩ => exact Fin.ext (lhs_dot01_0 _ _)
    | ⟨1, _⟩ => exact Fin.ext ((lhs_dot01_1 _ _).trans hk)
  · have hk := contrEquiv1_symm_val dot01 256 rfl rfl k
    funext a
    match a with
    | ⟨0, _⟩ => exact Fin.ext ((rhs_dot01_0 _ _).trans hk)
    | ⟨1, _⟩ => exact Fin.ext (rhs_dot01_1 _ _)

/-! ## Broadcasts read at an index -/

section Bcast
variable {α : Type}

/-- A vector `[b]` made a row `[1, b]` and repeated down `a` rows reads, at `(i, n)`, the vector at `n`. -/
theorem bcast_row_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (n : Fin b) :
    broadcastInDim ⟨2, ![a, b]⟩ ![0, 1] h2 (broadcastInDim ⟨2, ![1, b]⟩ ![1] h1 x) (ix2 i n) = x (ix1 n) := by
  rw [broadcastInDim_apply ![0, 1] h2 _ (ix2 i n) (ix2 (0 : Fin 1) n) (fun ax => by
    match ax with
    | ⟨0, _⟩ => rfl
    | ⟨1, _⟩ =>
      show n.val = if b = 1 then 0 else n.val
      split
      · have := n.isLt; omega
      · rfl)]
  exact broadcastInDim_apply ![1] h1 x (ix2 (0 : Fin 1) n) (ix1 n) (fun ax => by
    match ax with
    | ⟨0, _⟩ =>
      show n.val = if b = 1 then 0 else n.val
      split
      · have := n.isLt; omega
      · rfl)

/-- A vector `[a]` made a column `[a, 1]` reads, at `(i, u)`, the vector at `i`. -/
theorem bcast_col1_apply {a : ℕ} (x : (⟨1, ![a]⟩ : Shape).Idx → α)
    (h1 : (⟨1, ![a]⟩ : Shape).BroadcastsInDim ⟨2, ![a, 1]⟩ (![0] : Fin 1 → Fin 2)) (i : Fin a) (u : Fin 1) :
    broadcastInDim ⟨2, ![a, 1]⟩ ![0] h1 x (ix2 i u) = x (ix1 i) :=
  broadcastInDim_apply ![0] h1 x (ix2 i u) (ix1 i) (fun ax => by
    match ax with
    | ⟨0, _⟩ =>
      show i.val = if a = 1 then 0 else i.val
      split
      · have := i.isLt; omega
      · rfl)

/-- A column `[a, 1]` repeated along `b` lanes reads, at `(i, c)`, the column at `i`. -/
theorem bcast_col2_apply {a b : ℕ} (y : (⟨2, ![a, 1]⟩ : Shape).Idx → α)
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 y (ix2 i c) = y (ix2 i (0 : Fin 1)) :=
  broadcastInDim_apply ![0, 1] h2 y (ix2 i c) (ix2 i (0 : Fin 1)) (fun ax => by
    match ax with
    | ⟨0, _⟩ =>
      show i.val = if a = 1 then 0 else i.val
      split
      · have := i.isLt; omega
      · rfl
    | ⟨1, _⟩ => rfl)

end Bcast

/-! ## The tail -/

theorem relu256_apply (x : FVec Ideal S16x256 .f32) (j : S16x256.Idx) : relu256 x j = max (x j) 0 := by
  show max (x j) (Ideal.ofBits .f32 0x00000000#32) = _
  rw [Ideal.ofBits_zero_f32]

theorem relu3_apply (x : FVec Ideal S16x3 .f32) (j : S16x3.Idx) : relu3 x j = max (x j) 0 := by
  show max (x j) (Ideal.ofBits .f32 0x00000000#32) = _
  rw [Ideal.ofBits_zero_f32]

theorem reduces_S16x3_S16 : S16x3.Reduces [1] S16 := by decide

theorem lift_row3 (i : Fin 16) (k : Fin 3) : reduces_S16x3_S16.lift (ix1 i) k = ix2 i k := by
  funext a
  match a with
  | ⟨0, _⟩ => rfl
  | ⟨1, _⟩ => rfl

theorem ofBits_neg_inf : Ideal.ofBits .f32 0xFF800000#32 = (⊥ : EReal) := by simp [Ideal.ofBits, Ideal.ieee]

/-- The row's maximum as the reference folds it from `-∞`. -/
theorem hostRowMax_apply (x : FVec Ideal S16x3 .f32) (i : Fin 16) :
    Host.reduce (FloatOps.maximumf (F := Ideal) (φ := .f32)) x (constant (F := Ideal) S_ .f32 0xFF800000#32)
      reducesTo_S16x3_S16_d1 h_S_ (ix1 i) = rowMax (fun c' : Fin 3 => x (ix2 i c')) := by
  refine (Host.reduce_eq_fold_single _ x _ reducesTo_S16x3_S16_d1 reduces_S16x3_S16 h_S_ (ix1 i)).trans ?_
  show (Finset.univ : Finset (Fin 3)).fold max (Ideal.ofBits .f32 0xFF800000#32)
      (fun k => x (reduces_S16x3_S16.lift (ix1 i) k)) = _
  rw [ofBits_neg_inf]
  unfold rowMax
  congr 1
  funext k
  exact congrArg x (lift_row3 i k)

/-- The maximum the reference subtracts: the fold's value once more against `-∞`. -/
def mxV (x : FVec Ideal S16x3 .f32) : FVec Ideal S16 .f32 :=
  maximumf (broadcastInDim S16 ![] bcast_S_S16 (constant (F := Ideal) S_ .f32 0xFF800000#32))
    (Host.reduce (FloatOps.maximumf (F := Ideal) (φ := .f32)) x (constant (F := Ideal) S_ .f32 0xFF800000#32)
      reducesTo_S16x3_S16_d1 h_S_)

theorem mxV_apply (x : FVec Ideal S16x3 .f32) (i : Fin 16) :
    mxV x (ix1 i) = max ⊥ (rowMax (fun c' : Fin 3 => x (ix2 i c'))) := by
  show max (Ideal.ofBits .f32 0xFF800000#32) (Host.reduce (FloatOps.maximumf (F := Ideal) (φ := .f32)) x
      (constant (F := Ideal) S_ .f32 0xFF800000#32) reducesTo_S16x3_S16_d1 h_S_ (ix1 i)) = _
  rw [ofBits_neg_inf, hostRowMax_apply]

/-- The logits minus that maximum. -/
def shV (x : FVec Ideal S16x3 .f32) : FVec Ideal S16x3 .f32 :=
  subf x (broadcastInDim S16x3 ![0, 1] bcast_S16x1_S16x3_0_1 (broadcastInDim S16x1 ![0] bcast_S16_S16x1_0 (mxV x)))

theorem shV_apply (x : FVec Ideal S16x3 .f32) (i : Fin 16) (c : Fin 3) :
    shV x (ix2 i c) = x (ix2 i c) - max ⊥ (rowMax (fun c' : Fin 3 => x (ix2 i c'))) := by
  show x (ix2 i c) - broadcastInDim S16x3 ![0, 1] bcast_S16x1_S16x3_0_1
      (broadcastInDim S16x1 ![0] bcast_S16_S16x1_0 (mxV x)) (ix2 i c) = _
  rw [bcast_col2_apply, bcast_col1_apply, mxV_apply]

/-- The sum of the exponentials, from the host's initial `0`. -/
def smV (x : FVec Ideal S16x3 .f32) : FVec Ideal S16 .f32 :=
  Host.reduceAdd (F := Ideal) (φ := .f32) (Host.exp (shV x)) (constant (F := Ideal) S_ .f32 0x00000000#32)
    reducesTo_S16x3_S16_d1 h_S_

theorem smV_apply (x : FVec Ideal S16x3 .f32) (i : Fin 16) :
    smV x (ix1 i) = 0 + ∑ c' : Fin 3, Ideal.exp (x (ix2 i c') - max ⊥ (rowMax (fun c'' : Fin 3 => x (ix2 i c'')))) := by
  show Ideal.hostReduceAdd reducesTo_S16x3_S16_d1 (Host.exp (shV x)) (Ideal.ofBits .f32 0x00000000#32) (ix1 i) = _
  rw [Ideal.hostReduceAdd_single reducesTo_S16x3_S16_d1 reduces_S16x3_S16, Ideal.ofBits_zero_f32]
  congr 1
  show ∑ k : Fin 3, Ideal.exp (shV x (reduces_S16x3_S16.lift (ix1 i) k)) = _
  refine Finset.sum_congr rfl (fun k _ => ?_)
  rw [lift_row3, shV_apply]

theorem logSoftmax_eq (x : FVec Ideal S16x3 .f32) :
    logSoftmax x = subf (shV x) (broadcastInDim S16x3 ![0, 1] bcast_S16x1_S16x3_0_1
      (Host.log (broadcastInDim S16x1 ![0] bcast_S16_S16x1_0 (smV x)))) := rfl

/-- The reference's log-softmax at row `i`, class `c`. -/
theorem logSoftmax_apply (x : FVec Ideal S16x3 .f32) (i : Fin 16) (c : Fin 3) :
    logSoftmax x (ix2 i c) = logSoftmaxRow (fun c' : Fin 3 => x (ix2 i c')) c := by
  rw [← logSoftmaxHost_eq, logSoftmax_eq]
  show shV x (ix2 i c) - broadcastInDim S16x3 ![0, 1] bcast_S16x1_S16x3_0_1
      (Host.log (broadcastInDim S16x1 ![0] bcast_S16_S16x1_0 (smV x))) (ix2 i c) = _
  rw [bcast_col2_apply]
  show shV x (ix2 i c) - Ideal.log (broadcastInDim S16x1 ![0] bcast_S16_S16x1_0 (smV x) (ix2 i (0 : Fin 1))) = _
  rw [bcast_col1_apply, shV_apply, smV_apply]

/-- The first layer with its relu at row `i`, unit `q`. -/
theorem layer0_apply (W0 : FVec Ideal S256x128 .f32) (b0 : FVec Ideal S256 .f32) (h : FVec Ideal S16x128 .f32)
    (i : Fin 16) (q : Fin 256) :
    relu256 (addf (Host.dotGeneral (F := Ideal) dotH0 none h (transpose S128x256 [1, 0] W0 transposes_S256x128_S128x256_1_0))
        (broadcastInDim S16x256 ![0, 1] bcast_S1x256_S16x256_0_1 (broadcastInDim S1x256 ![1] bcast_S256_S1x256_1 b0))) (ix2 i q)
      = denseRelu (mat2 W0) (vec1 b0) (fun k => h (ix2 i k)) q := by
  rw [relu256_apply]
  show max (Host.dotGeneral (F := Ideal) dotH0 none h (transpose S128x256 [1, 0] W0 transposes_S256x128_S128x256_1_0) (ix2 i q)
      + broadcastInDim S16x256 ![0, 1] bcast_S1x256_S16x256_0_1 (broadcastInDim S1x256 ![1] bcast_S256_S1x256_1 b0) (ix2 i q)) 0 = _
  rw [dotH0_apply, bcast_row_apply]
  unfold denseRelu
  congr 2
  refine Finset.sum_congr rfl (fun k _ => ?_)
  rw [transpose_ix2_apply]
  rfl

/-- The second layer with its relu at row `i`, class `c`, over any `[16, 256]` input. -/
theorem layer1_apply (W1 : FVec Ideal S3x256 .f32) (b1 : FVec Ideal S3 .f32) (y : FVec Ideal S16x256 .f32)
    (i : Fin 16) (c : Fin 3) :
    relu3 (addf (Host.dotGeneral (F := Ideal) dot01 none y (transpose S256x3 [1, 0] W1 transposes_S3x256_S256x3_1_0))
        (broadcastInDim S16x3 ![0, 1] bcast_S1x3_S16x3_0_1 (broadcastInDim S1x3 ![1] bcast_S3_S1x3_1 b1))) (ix2 i c)
      = denseRelu (mat2 W1) (vec1 b1) (fun q => y (ix2 i q)) c := by
  rw [relu3_apply]
  show max (Host.dotGeneral (F := Ideal) dot01 none y (transpose S256x3 [1, 0] W1 transposes_S3x256_S256x3_1_0) (ix2 i c)
      + broadcastInDim S16x3 ![0, 1] bcast_S1x3_S16x3_0_1 (broadcastInDim S1x3 ![1] bcast_S3_S1x3_1 b1) (ix2 i c)) 0 = _
  rw [dot01_apply, bcast_row_apply]
  unfold denseRelu
  congr 2
  refine Finset.sum_congr rfl (fun q _ => ?_)
  rw [transpose_ix2_apply]
  rfl

/-- THE TAIL at row `i`, class `c`: the reference's head on row `i` of the state. -/
theorem tail_apply (W0 : FVec Ideal S256x128 .f32) (b0 : FVec Ideal S256 .f32) (W1 : FVec Ideal S3x256 .f32)
    (b1 : FVec Ideal S3 .f32) (h : FVec Ideal S16x128 .f32) (i : Fin 16) (c : Fin 3) :
    tail W0 b0 W1 b1 h (ix2 i c) = headR (mat2 W0) (vec1 b0) (mat2 W1) (vec1 b1) (fun k => h (ix2 i k)) c := by
  unfold tail
  rw [logSoftmax_apply]
  unfold headR
  congr 1
  funext c'
  rw [layer1_apply]
  congr 1
  funext q
  exact layer0_apply W0 b0 h i q

/-! ## The cell and the mask of one step -/

/-- The reference's cell at row `i`, lane `j`: `tanh` of the reference's pre-activation. -/
theorem cell_apply (W_ih : FVec Ideal S128x128 .f32) (b_ih : FVec Ideal S128 .f32) (W_hh : FVec Ideal S128x128 .f32)
    (b_hh : FVec Ideal S128 .f32) (x h : FVec Ideal S16x128 .f32) (i : Fin 16) (j : Fin 128) :
    cell W_ih b_ih W_hh b_hh x h (ix2 i j)
      = Ideal.tanh (preR (mat2 W_ih) (mat2 W_hh) (vec1 b_ih) (vec1 b_hh) (fun k => x (ix2 i k)) (fun k => h (ix2 i k)) j) := by
  show Ideal.tanh (((Host.dotGeneral (F := Ideal) dotHH none x (transpose S128x128 [1, 0] W_ih transposes_S128x128_S128x128_1_0) (ix2 i j)
        + broadcastInDim S16x128 ![0, 1] bcast_S1x128_S16x128_0_1 (broadcastInDim S1x128 ![1] bcast_S128_S1x128_1 b_ih) (ix2 i j))
      + Host.dotGeneral (F := Ideal) dotHH none h (transpose S128x128 [1, 0] W_hh transposes_S128x128_S128x128_1_0) (ix2 i j))
      + broadcastInDim S16x128 ![0, 1] bcast_S1x128_S16x128_0_1 (broadcastInDim S1x128 ![1] bcast_S128_S1x128_1 b_hh) (ix2 i j)) = _
  rw [dotHH_apply, dotHH_apply, bcast_row_apply, bcast_row_apply]
  unfold preR
  congr 3
  · congr 1
    refine Finset.sum_congr rfl (fun k _ => ?_)
    rw [transpose_ix2_apply]; rfl
  · refine Finset.sum_congr rfl (fun k _ => ?_)
    rw [transpose_ix2_apply]; rfl

/-- The mask at row `i` (any lane): the position is below the row's length, read signed. -/
theorem mask_apply (lengths : IVec S16 32) (p : IVec S_ 32) (i : Fin 16) (n : Fin 128) :
    mask lengths p (ix2 i n) = 1#1 ↔ (p ix0).toInt < (lengths (ix1 i)).toInt := by
  unfold mask
  rw [bcast_col2_apply, bcast_col1_apply]
  show IntOp.cmpi .slt (broadcastInDim S16 ![] bcast_S_S16 p (ix1 i)) (lengths (ix1 i)) = 1#1 ↔ _
  have hp : broadcastInDim S16 ![] bcast_S_S16 p (ix1 i) = p ix0 := congrArg p (eq_ix0 _)
  rw [hp]
  exact IntOp.cmpi_slt

/-- A small natural number as a 32-bit word reads back signed as itself. -/
theorem toInt_ofNat_small (t : ℕ) (ht : t < 2 ^ 31) : (BitVec.ofNat 32 t).toInt = (t : ℤ) := by
  rw [BitVec.toInt_eq_toNat_of_lt (by rw [BitVec.toNat_ofNat]; omega), BitVec.toNat_ofNat]
  congr 1
  omega

/-- `2047 + (-1) · p` on 32-bit words is `2047 - p` for `p ≤ 2047`. -/
theorem pos_arith (p : ℕ) (hp : p < 2048) :
    IntOp.addi 2047#32 (IntOp.muli 4294967295#32 (BitVec.ofNat 32 p)) = BitVec.ofNat 32 (2047 - p) := by
  apply BitVec.eq_of_toNat_eq
  show (2047#32 + 4294967295#32 * BitVec.ofNat 32 p).toNat = _
  rw [BitVec.toNat_add, BitVec.toNat_mul, BitVec.toNat_ofNat, BitVec.toNat_ofNat]
  simp only [BitVec.toNat_ofNat]
  omega

/-! ## The two clamped slices, and the casts around them -/

section Slices
variable {α : Type}

/-- A one-element slice of a vector at a start the clamp leaves inside it. -/
theorem dynamicSlice1_apply {n : ℕ} (x : (⟨1, ![n]⟩ : Shape).Idx → α) (start : Fin 1 → Int)
    (h : (⟨1, ![n]⟩ : Shape).Slices (fun _ => 0) ⟨1, ![1]⟩) (u : Fin 1) (p : Fin n)
    (hp : p.val = (min (max (start 0) 0) ((n - 1 : ℕ) : Int)).toNat) :
    Host.dynamicSlice ⟨1, ![1]⟩ x start h (ix1 u) = x (ix1 p) := by
  unfold Host.dynamicSlice
  refine extractStridedSlice_apply _ x _ (ix1 u) (ix1 p) (fun a => ?_)
  match a with
  | ⟨0, _⟩ =>
    show p.val = (min (max (start 0) 0) ((n - 1 : ℕ) : Int)).toNat + u.val
    have := u.isLt
    omega

/-- A one-column slice of a matrix, all its rows, at a column the clamp leaves inside it. -/
theorem dynamicSlice_col_apply {a n : ℕ} (x : (⟨2, ![a, n]⟩ : Shape).Idx → α) (start : Fin 2 → Int)
    (h : (⟨2, ![a, n]⟩ : Shape).Slices (fun _ => 0) ⟨2, ![a, 1]⟩) (i : Fin a) (u : Fin 1) (p : Fin n)
    (hp : p.val = (min (max (start 1) 0) ((n - 1 : ℕ) : Int)).toNat) :
    Host.dynamicSlice ⟨2, ![a, 1]⟩ x start h (ix2 i u) = x (ix2 i p) := by
  unfold Host.dynamicSlice
  refine extractStridedSlice_apply _ x _ (ix2 i u) (ix2 i p) (fun ax => ?_)
  match ax with
  | ⟨0, _⟩ =>
    show i.val = (min (max (start 0) 0) ((a - a : ℕ) : Int)).toNat + i.val
    have h0 : (a - a : ℕ) = 0 := Nat.sub_self a
    rw [h0]
    omega
  | ⟨1, _⟩ =>
    show p.val = (min (max (start 1) 0) ((n - 1 : ℕ) : Int)).toNat + u.val
    have := u.isLt
    omega

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A one-element array cast to a scalar reads its element. -/
theorem shapeCast_1_scalar_apply (x : (⟨1, ![1]⟩ : Shape).Idx → α)
    (h : (⟨1, ![1]⟩ : Shape).ShapeCasts ⟨0, ![]⟩) (j : (⟨0, ![]⟩ : Shape).Idx) :
    shapeCast ⟨0, ![]⟩ x h j = x (ix1 (0 : Fin 1)) :=
  shapeCast_apply x h _ _ (by
    rw [Shape.rowMajor_val_one]
    have h1 : (⟨0, ![]⟩ : Shape).numel = 1 := rfl
    have := ((⟨0, ![]⟩ : Shape).rowMajor j).isLt
    show 0 = ((⟨0, ![]⟩ : Shape).rowMajor j).val
    omega)

end Slices

/-! ## The position and the token column of a step -/

/-- THE POSITION of step `t`: `2047 - t`. -/
theorem posAt_apply (t : ℕ) (ht : t < 2048) (j : S_.Idx) : posAt t j = BitVec.ofNat 32 (2047 - t) := by
  unfold posAt posOf
  rw [shapeCast_1_scalar_apply]
  rw [dynamicSlice1_apply positions _ sliceFits_S2048_S1 0 ⟨t, ht⟩ (by
    show t = (min (max ((BitVec.ofNat 32 t).toInt) 0) ((2048 - 1 : ℕ) : Int)).toNat
    rw [toInt_ofNat_small t (by omega)]
    omega)]
  show IntOp.addi 2047#32 (IntOp.muli 4294967295#32 (BitVec.ofNat 32 t)) = _
  exact pos_arith t ht

/-- The column the reference slices at position `p`: `p` itself when it is not negative. -/
def colOf (p : IVec S_ 32) : IVec S_ 32 :=
  select (cmpi .slt p (constantI S_ 32 0#32)) (addi p (constantI S_ 32 2048#32)) p

/-- The row the reference slices from: zero. -/
def rowZ : IVec S_ 32 :=
  select (cmpi .slt (constantI S_ 32 0#32) (constantI S_ 32 0#32))
    (addi (constantI S_ 32 0#32) (constantI S_ 32 16#32)) (constantI S_ 32 0#32)

theorem tokCol_eq (tokens : IVec S16x2048 32) (p : IVec S_ 32) :
    tokCol tokens p = shapeCast S16 (Host.dynamicSlice S16x1 tokens
      (fun k => ((![rowZ, colOf p] : Fin 2 → C S_ .i32) k (Shape.Idx.first h_S_)).toInt) sliceFits_S16x2048_S16x1)
      shapeCasts_S16x1_S16 := rfl

theorem colOf_apply (p : IVec S_ 32) (pN : ℕ) (hpN : pN < 2048) (hp : ∀ j, p j = BitVec.ofNat 32 pN) (j : S_.Idx) :
    colOf p j = BitVec.ofNat 32 pN := by
  show Scalar.select (IntOp.cmpi .slt (p j) 0#32) (IntOp.addi (p j) 2048#32) (p j) = _
  rw [hp j]
  unfold Scalar.select
  rw [if_neg]
  intro hc
  have h1 : (BitVec.ofNat 32 pN).toInt < (0#32 : BitVec 32).toInt := IntOp.cmpi_slt.mp hc
  rw [toInt_ofNat_small pN (by omega)] at h1
  have h0 : (0#32 : BitVec 32).toInt = 0 := by decide
  omega

/-- THE TOKEN COLUMN at position `pN`: row `i`'s token there. -/
theorem tokCol_apply (tokens : IVec S16x2048 32) (p : IVec S_ 32) (pN : ℕ) (hpN : pN < 2048)
    (hp : ∀ j, p j = BitVec.ofNat 32 pN) (i : Fin 16) :
    tokCol tokens p (ix1 i) = tokens (ix2 i ⟨pN, hpN⟩) := by
  rw [tokCol_eq, shapeCast_a1_a_apply]
  refine dynamicSlice_col_apply tokens _ sliceFits_S16x2048_S16x1 i 0 ⟨pN, hpN⟩ ?_
  show pN = (min (max ((colOf p (Shape.Idx.first h_S_)).toInt) 0) ((2048 - 1 : ℕ) : Int)).toNat
  rw [colOf_apply p pN hpN hp, toInt_ofNat_small pN (by omega)]
  omega

/-! ## The table's rows at the tokens -/

/-- The index the reference gathers at: the token, wrapped by the vocabulary size when negative. -/
def wrapTok (tok : IVec S16 32) : IVec S16 32 :=
  select (cmpi .slt tok (broadcastInDim S16 ![] bcast_S_S16 (constantI S_ 32 0#32)))
    (addi tok (broadcastInDim S16 ![] bcast_S_S16 (constantI S_ 32 100000#32))) tok

/-- The same as a column of start indices. -/
def startCol (tok : IVec S16 32) : IVec S16x1 32 := broadcastInDim S16x1 ![0] bcast_S16_S16x1_0 (wrapTok tok)

/-- The range test `0 ≤ index ≤ 99999`. -/
def inRange (tok : IVec S16 32) : IVec S16x1 1 :=
  andi (cmpi .sge (startCol tok) (broadcastInDim S16x1 ![] bcast_S_S16x1 (constantI S_ 32 0#32)))
    (cmpi .sle (startCol tok) (broadcastInDim S16x1 ![0, 1] bcast_S1x1_S16x1_0_1
      (broadcastInDim S1x1 ![1] bcast_S1_S1x1_1 (constantI S1 32 99999#32))))

/-- The test per row. -/
def inRangeRow (tok : IVec S16 32) : IVec S16 1 :=
  Host.reduce IntOp.andi (inRange tok) (constantI S_ 1 1#1) reducesTo_S16x1_S16_d1 h_S_

theorem take_eq (emb : FVec Ideal S100000x128 .f32) (tok : IVec S16 32) :
    take emb tok = select (broadcastInDim S16x128 ![0] bcast_S16_S16x128_0 (inRangeRow tok))
      (Host.gather gatherRows emb (startCol tok))
      (broadcastInDim S16x128 ![] bcast_S_S16x128 (constant (F := Ideal) S_ .f32 0x7FC00000#32)) := rfl

theorem wrapTok_apply (tok : IVec S16 32) (i : Fin 16) (h0 : 0 ≤ (tok (ix1 i)).toInt) :
    wrapTok tok (ix1 i) = tok (ix1 i) := by
  show Scalar.select (IntOp.cmpi .slt (tok (ix1 i)) 0#32) (IntOp.addi (tok (ix1 i)) 100000#32) (tok (ix1 i)) = _
  unfold Scalar.select
  rw [if_neg]
  intro hc
  have h1 : (tok (ix1 i)).toInt < (0#32 : BitVec 32).toInt := IntOp.cmpi_slt.mp hc
  have hz : (0#32 : BitVec 32).toInt = 0 := by decide
  omega

theorem startCol_apply (tok : IVec S16 32) (i : Fin 16) (u : Fin 1) (h0 : 0 ≤ (tok (ix1 i)).toInt) :
    startCol tok (ix2 i u) = tok (ix1 i) := by
  unfold startCol
  rw [bcast_col1_apply, wrapTok_apply tok i h0]

theorem inRange_apply (tok : IVec S16 32) (i : Fin 16) (u : Fin 1)
    (h0 : 0 ≤ (tok (ix1 i)).toInt) (h1 : (tok (ix1 i)).toInt ≤ 99999) : inRange tok (ix2 i u) = 1#1 := by
  show IntOp.andi (IntOp.cmpi .sge (startCol tok (ix2 i u)) 0#32) (IntOp.cmpi .sle (startCol tok (ix2 i u)) 99999#32) = 1#1
  rw [startCol_apply tok i u h0]
  have hz : (0#32 : BitVec 32).toInt = 0 := by decide
  have hm : (99999#32 : BitVec 32).toInt = 99999 := by decide
  have ha : IntOp.cmpi .sge (tok (ix1 i)) 0#32 = 1#1 := IntOp.cmpi_sge.mpr (by rw [hz]; exact h0)
  have hb : IntOp.cmpi .sle (tok (ix1 i)) 99999#32 = 1#1 := IntOp.cmpi_sle.mpr (by rw [hm]; exact h1)
  rw [ha, hb]
  decide

theorem reduces_S16x1_S16 : S16x1.Reduces [1] S16 := by decide

theorem lift_col1 (i : Fin 16) (k : Fin 1) : reduces_S16x1_S16.lift (ix1 i) k = ix2 i k := by
  funext a
  match a with
  | ⟨0, _⟩ => rfl
  | ⟨1, _⟩ => rfl

/-- A fold over the one-element index set is one application of the operation. -/
theorem fold_fin1 {β : Type} (op : β → β → β) [Std.Commutative op] [Std.Associative op] (b : β) (f : Fin 1 → β) :
    (Finset.univ : Finset (Fin 1)).fold op b f = op (f 0) b := by
  rw [Finset.univ_unique, Finset.fold_singleton]
  rfl

theorem inRangeRow_apply (tok : IVec S16 32) (i : Fin 16)
    (h0 : 0 ≤ (tok (ix1 i)).toInt) (h1 : (tok (ix1 i)).toInt ≤ 99999) : inRangeRow tok (ix1 i) = 1#1 := by
  refine (Host.reduce_eq_fold_single IntOp.andi (inRange tok) _ reducesTo_S16x1_S16_d1 reduces_S16x1_S16 h_S_ (ix1 i)).trans ?_
  refine (fold_fin1 IntOp.andi 1#1 (fun k => inRange tok (reduces_S16x1_S16.lift (ix1 i) k))).trans ?_
  show IntOp.andi (inRange tok (reduces_S16x1_S16.lift (ix1 i) (0 : Fin 1))) 1#1 = 1#1
  rw [lift_col1, inRange_apply tok i _ h0 h1]
  decide

/-- THE GATHER at row `i`, lane `k`: row `r` of the table, `r` the start index read signed and clamped. -/
theorem gatherRows_apply (emb : FVec Ideal S100000x128 .f32) (idx1 : IVec S16x1 32) (i : Fin 16) (k : Fin 128)
    (r : Fin 100000) (hr : r.val = min (idx1 (ix2 i (0 : Fin 1))).toInt.toNat 99999) :
    Host.gather gatherRows emb idx1 (ix2 i k) = emb (ix2 r k) := by
  unfold Host.gather
  congr 1
  have hsi : gatherRows.siIdx (ix2 i k) ⟨List.idxOf (0 : Fin 2) gatherRows.startIndexMap,
      List.idxOf_lt_length_iff.2 (List.mem_singleton.mpr rfl)⟩ = ix2 i (0 : Fin 1) := by
    funext b
    refine Fin.ext ?_
    match b with
    | ⟨0, _⟩ => rfl
    | ⟨1, _⟩ => rfl
  have hs0 : gatherRows.start (ix2 i k) idx1 0 = min (idx1 (ix2 i (0 : Fin 1))).toInt.toNat 99999 := by
    unfold GatherDims.start
    rw [dif_pos (show (0 : Fin 2) ∈ gatherRows.startIndexMap from List.mem_singleton.mpr rfl), hsi]
    rfl
  have hb0 : gatherRows.batchCoord (ix2 i k) 0 = 0 := GatherDims.batchCoord_eq_zero _ _ _ List.not_mem_nil
  have ho0 : gatherRows.offCoord (ix2 i k) 0 = 0 :=
    GatherDims.offCoord_eq_zero _ _ _ (fun h => ((GatherDims.mem_sKept _ _).mp h).1 (List.mem_singleton.mpr rfl))
  have hs1 : gatherRows.start (ix2 i k) idx1 1 = 0 := by
    unfold GatherDims.start
    rw [dif_neg (show ¬ (1 : Fin 2) ∈ gatherRows.startIndexMap by decide)]
  have hb1 : gatherRows.batchCoord (ix2 i k) 1 = 0 := GatherDims.batchCoord_eq_zero _ _ _ List.not_mem_nil
  have ho1 : gatherRows.offCoord (ix2 i k) 1 = k.val := by
    unfold GatherDims.offCoord
    rw [dif_pos (show (1 : Fin 2) ∈ gatherRows.sKept by decide)]
    rfl
  funext a
  refine Fin.ext ?_
  show gatherRows.start (ix2 i k) idx1 a + gatherRows.batchCoord (ix2 i k) a + gatherRows.offCoord (ix2 i k) a = _
  match a with
  | ⟨0, _⟩ =>
    show gatherRows.start (ix2 i k) idx1 0 + gatherRows.batchCoord (ix2 i k) 0 + gatherRows.offCoord (ix2 i k) 0 = r.val
    rw [hs0, hb0, ho0, hr]
    rfl
  | ⟨1, _⟩ =>
    show gatherRows.start (ix2 i k) idx1 1 + gatherRows.batchCoord (ix2 i k) 1 + gatherRows.offCoord (ix2 i k) 1 = k.val
    rw [hs1, hb1, ho1]
    omega

/-- The table row a token in range names. -/
def tokRow (w : BitVec 32) : Fin 100000 := ⟨min w.toInt.toNat 99999, by omega⟩

/-- THE TABLE'S ROWS AT THE TOKENS: for a token in `[0, 99999]`, row `i` is the table's row of that token. -/
theorem take_apply (emb : FVec Ideal S100000x128 .f32) (tok : IVec S16 32) (i : Fin 16) (k : Fin 128)
    (h0 : 0 ≤ (tok (ix1 i)).toInt) (h1 : (tok (ix1 i)).toInt ≤ 99999) :
    take emb tok (ix2 i k) = emb (ix2 (tokRow (tok (ix1 i))) k) := by
  rw [take_eq]
  show Scalar.select (broadcastInDim S16x128 ![0] bcast_S16_S16x128_0 (inRangeRow tok) (ix2 i k))
      (Host.gather gatherRows emb (startCol tok) (ix2 i k)) _ = _
  have hrow : broadcastInDim S16x128 ![0] bcast_S16_S16x128_0 (inRangeRow tok) (ix2 i k) = inRangeRow tok (ix1 i) :=
    broadcastInDim_apply ![0] bcast_S16_S16x128_0 (inRangeRow tok) (ix2 i k) (ix1 i) (fun ax => by
      match ax with
      | ⟨0, _⟩ => rfl)
  rw [hrow, inRangeRow_apply tok i h0 h1]
  unfold Scalar.select
  have hone : (1#1 : BitVec 1) = 1 := rfl
  rw [if_pos hone]
  refine gatherRows_apply emb (startCol tok) i k (tokRow (tok (ix1 i))) ?_
  rw [startCol_apply tok i 0 h0]
  rfl

/-! ## The reference's state and result, read by rows -/

/-- A state by its rows. -/
def rowsOf (h : FVec Ideal S16x128 .f32) : Fin 16 → Fin 128 → EReal := fun i n => h (ix2 i n)

/-- The step at which row `i` becomes active: `2048 - lengths i`. -/
def actOf (lengths : IVec S16 32) : Fin 16 → ℕ := fun i => 2048 - (lengths (ix1 i)).toInt.toNat

/-- The input row of sequence `i` at step `t`: the table's row of the token at position `2047 - t`. -/
def xOf (tokens : IVec S16x2048 32) (emb : FVec Ideal S100000x128 .f32) : ℕ → Fin 16 → Fin 128 → EReal :=
  fun t i k => emb (ix2 (tokRow (tokens (ix2 i ⟨2047 - t, by omega⟩))) k)

/-- ONE STEP OF THE REFERENCE, by rows: the masked step of `KernelValue` at `t`, for tokens in `[0, 99999]` and
    lengths that are not negative. -/
theorem rows_step (tokens : IVec S16x2048 32) (lengths : IVec S16 32) (emb : FVec Ideal S100000x128 .f32)
    (W_ih : FVec Ideal S128x128 .f32) (b_ih : FVec Ideal S128 .f32) (W_hh : FVec Ideal S128x128 .f32)
    (b_hh : FVec Ideal S128 .f32) (t : ℕ) (ht : t < 2048) (h : FVec Ideal S16x128 .f32)
    (htok : ∀ i p, 0 ≤ (tokens (ix2 i p)).toInt ∧ (tokens (ix2 i p)).toInt ≤ 99999)
    (hlen : ∀ i, 0 ≤ (lengths (ix1 i)).toInt) :
    rowsOf (step tokens lengths emb W_ih b_ih W_hh b_hh t h)
      = maskedStep (actOf lengths)
          (cellRt (xOf tokens emb) (mat2 W_ih) (mat2 W_hh) (vec1 b_ih) (vec1 b_hh)) t (rowsOf h) := by
  funext i n
  show Scalar.select (mask lengths (posAt t) (ix2 i n))
      (cell W_ih b_ih W_hh b_hh (take emb (tokCol tokens (posAt t))) h (ix2 i n)) (h (ix2 i n)) = _
  have hpos : ∀ j, posAt t j = BitVec.ofNat 32 (2047 - t) := posAt_apply t ht
  have hcol : tokCol tokens (posAt t) (ix1 i) = tokens (ix2 i ⟨2047 - t, by omega⟩) :=
    tokCol_apply tokens (posAt t) (2047 - t) (by omega) hpos i
  have hL := hlen i
  unfold maskedStep Scalar.select
  by_cases hact : actOf lengths i ≤ t
  · have hm : mask lengths (posAt t) (ix2 i n) = 1 := (mask_apply lengths (posAt t) i n).mpr (by
      rw [hpos, toInt_ofNat_small _ (by omega)]
      unfold actOf at hact
      omega)
    rw [if_pos hm, if_pos hact, cell_apply]
    have hx : (fun k => take emb (tokCol tokens (posAt t)) (ix2 i k)) = xOf tokens emb t i := by
      funext k
      rw [take_apply emb _ i k (by rw [hcol]; exact (htok i _).1) (by rw [hcol]; exact (htok i _).2), hcol]
      rfl
    rw [hx]
    rfl
  · have hm : ¬ mask lengths (posAt t) (ix2 i n) = 1 := fun hc => hact (by
      have h2 := (mask_apply lengths (posAt t) i n).mp hc
      rw [hpos, toInt_ofNat_small _ (by omega)] at h2
      unfold actOf
      omega)
    rw [if_neg hm, if_neg hact]
    rfl

theorem rows_h0 : rowsOf h0 = fun _ _ => 0 := by
  funext i n
  show Ideal.ofBits .f32 0x00000000#32 = 0
  exact Ideal.ofBits_zero_f32

/-- THE REFERENCE'S STATE after `t` steps, by rows: the masked recurrence run over the steps `0, …, t - 1`
    from the zero state. -/
theorem rows_hAt (tokens : IVec S16x2048 32) (lengths : IVec S16 32) (emb : FVec Ideal S100000x128 .f32)
    (W_ih : FVec Ideal S128x128 .f32) (b_ih : FVec Ideal S128 .f32) (W_hh : FVec Ideal S128x128 .f32)
    (b_hh : FVec Ideal S128 .f32)
    (htok : ∀ i p, 0 ≤ (tokens (ix2 i p)).toInt ∧ (tokens (ix2 i p)).toInt ≤ 99999)
    (hlen : ∀ i, 0 ≤ (lengths (ix1 i)).toInt) (t : ℕ) (ht : t ≤ 2048) :
    rowsOf (hAt tokens lengths emb W_ih b_ih W_hh b_hh t)
      = run (maskedStep (actOf lengths) (cellRt (xOf tokens emb) (mat2 W_ih) (mat2 W_hh) (vec1 b_ih) (vec1 b_hh)))
          0 t (fun _ _ => 0) := by
  induction t with
  | zero => exact rows_h0
  | succ t ih =>
    show rowsOf (step tokens lengths emb W_ih b_ih W_hh b_hh t (hAt tokens lengths emb W_ih b_ih W_hh b_hh t)) = _
    rw [rows_step tokens lengths emb W_ih b_ih W_hh b_hh t (by omega) _ htok hlen, ih (by omega), run_succ,
      Nat.zero_add]

/-- THE REFERENCE'S RESULT at row `i`, class `c`: the head on row `i` of the recurrence run over all 2048 steps. -/
theorem G_apply (tokens : IVec S16x2048 32) (lengths : IVec S16 32) (emb : FVec Ideal S100000x128 .f32)
    (W_ih : FVec Ideal S128x128 .f32) (b_ih : FVec Ideal S128 .f32) (W_hh : FVec Ideal S128x128 .f32)
    (b_hh : FVec Ideal S128 .f32) (W0 : FVec Ideal S256x128 .f32) (b0 : FVec Ideal S256 .f32)
    (W1 : FVec Ideal S3x256 .f32) (b1 : FVec Ideal S3 .f32)
    (htok : ∀ i p, 0 ≤ (tokens (ix2 i p)).toInt ∧ (tokens (ix2 i p)).toInt ≤ 99999)
    (hlen : ∀ i, 0 ≤ (lengths (ix1 i)).toInt) (i : Fin 16) (c : Fin 3) :
    G tokens lengths emb W_ih b_ih W_hh b_hh W0 b0 W1 b1 (ix2 i c)
      = headR (mat2 W0) (vec1 b0) (mat2 W1) (vec1 b1)
          (run (maskedStep (actOf lengths) (cellRt (xOf tokens emb) (mat2 W_ih) (mat2 W_hh) (vec1 b_ih) (vec1 b_hh)))
            0 2048 (fun _ _ => 0) i) c := by
  unfold G
  rw [tail_apply]
  show headR _ _ _ _ (rowsOf (hAt tokens lengths emb W_ih b_ih W_hh b_hh 2048) i) c = _
  rw [rows_hAt tokens lengths emb W_ih b_ih W_hh b_hh htok hlen 2048 (le_refl _)]

/-- THE KERNEL'S VALUE IS THE REFERENCE'S: the kernel's head (padded second layer, `-∞` fill, 128-lane log-softmax)
    on row `i` of the state its two chunked calls leave — with the recurrent matrix transposed beforehand and
    `m` below every row's first active step — is the reference's result at `(i, c)`. -/
theorem kernel_value_eq_G (tokens : IVec S16x2048 32) (lengths : IVec S16 32) (emb : FVec Ideal S100000x128 .f32)
    (W_ih : FVec Ideal S128x128 .f32) (b_ih : FVec Ideal S128 .f32) (W_hh : FVec Ideal S128x128 .f32)
    (b_hh : FVec Ideal S128 .f32) (W0 : FVec Ideal S256x128 .f32) (b0 : FVec Ideal S256 .f32)
    (W1 : FVec Ideal S3x256 .f32) (b1 : FVec Ideal S3 .f32)
    (htok : ∀ i p, 0 ≤ (tokens (ix2 i p)).toInt ∧ (tokens (ix2 i p)).toInt ≤ 99999)
    (hlen : ∀ i, 0 ≤ (lengths (ix1 i)).toInt)
    (WhhT : Fin 128 → Fin 128 → EReal) (hT : ∀ k j, WhhT k j = mat2 W_hh j k)
    (m : ℕ) (hm : ∀ i, m ≤ actOf lengths i) (i : Fin 16) (c : Fin 3) :
    headK (mat2 W0) (vec1 b0) (padW (mat2 W1)) (padB (vec1 b1))
        (scanB (maskedStep (actOf lengths) (cellKt (xOf tokens emb) (mat2 W_ih) WhhT (vec1 b_ih) (vec1 b_hh))) m
          (scanA (maskedStep (actOf lengths) (cellKt (xOf tokens emb) (mat2 W_ih) WhhT (vec1 b_ih) (vec1 b_hh))) m
            (fun _ _ => 0)) i) c
      = G tokens lengths emb W_ih b_ih W_hh b_hh W0 b0 W1 b1 (ix2 i c) := by
  rw [G_apply tokens lengths emb W_ih b_ih W_hh b_hh W0 b0 W1 b1 htok hlen i c, headK_eq_headR,
    kernel_scan_eq (actOf lengths) m hm (xOf tokens emb) (mat2 W_ih) (mat2 W_hh) WhhT (vec1 b_ih) (vec1 b_hh) hT]

end Cert.Proof.KernelSpec

end
-- ==== Proof.KernelPayloads.lean ====
/-
  The values the two scan kernels store, read at an index (floats extended reals, operations exact).

  Each kernel body's stores are named functions of the body's loads.  Here every such function of the
  two scan kernels is read at a row `i` and a lane `n` and written as the index-level mathematics of
  `KernelValue`: one loop trip is eight masked steps, each `tanh (pre + h · whh)` where `act ≤ t`; the
  projection `pre` of a whole chunk is one product plus the summed bias; the last grid point's head is
  two relu layers and a log-softmax over 128 lanes of which all but three hold `-∞`.
-/
import proofs.«205923_g40089224741417_cont_sun_m_110_39_alg».proof.Proof.Gen.KernelIdeal.Skeleton
import proofs.«205923_g40089224741417_cont_sun_m_110_39_alg».proof.Proof.KernelValue
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine

noncomputable section

open scoped BigOperators

namespace Cert.Proof.KI.Payloads

open Cert.KernelIdeal Cert.KernelIdeal.Gen
open Idealize.ShloMosaic Idealize.ShloMosaic.ValueIdx
open Cert.Proof.KernelValue

/-! ## A product into the zero accumulator, read at an index through a bijection of the contraction index -/

/-- Whatever the dimension numbers: if the contraction index is `Fin K` through `e`, the left operand is read at
    `(i, k)` and the right operand at `R n k`, the product at `(i, n)` is `∑ k, lhs (i, k) * rhs (R n k)`. -/
theorem matmul_zero_apply_of {A B K : ℕ} {sl sr : Shape} (d : DotDims sl sr ⟨2, ![A, B]⟩) (e : d.contr.Idx ≃ Fin K)
    (lhs : FVec Ideal sl .f32) (rhs : FVec Ideal sr .f32) (Lx : Fin A → Fin K → sl.Idx) (Rx : Fin B → Fin K → sr.Idx)
    (i : Fin A) (n : Fin B)
    (hL : ∀ k, d.lhsIdx (ix2 i n) (e.symm k) = Lx i k) (hR : ∀ k, d.rhsIdx (ix2 i n) (e.symm k) = Rx n k) :
    matmul d none lhs rhs (constant (F := Ideal) ⟨2, ![A, B]⟩ .f32 0x00000000#32) (ix2 i n)
      = ∑ k : Fin K, lhs (Lx i k) * rhs (Rx n k) := by
  refine (Ideal.matmul_constant_zero_apply d none lhs rhs (ix2 i n)).trans ?_
  rw [← Equiv.sum_comp e.symm]
  exact Finset.sum_congr rfl (fun k _ => by rw [hL k, hR k])

/-! ## The recurrent product `h · whh`: the state's lanes against the matrix's ROWS -/

/-- Its dimension numbers. -/
abbrev Dhh : DotDims S16x128 S128x128 S16x128 := dot_S16x128_S128x128_S16x128_1_0_0_1_n_n

theorem lhs_Dhh_0 (j : S16x128.Idx) (k : Dhh.contr.Idx) : (Dhh.lhsIdx j k 0).val = (j 0).val := rfl
theorem lhs_Dhh_1 (j : S16x128.Idx) (k : Dhh.contr.Idx) :
    (Dhh.lhsIdx j k 1).val = (k ⟨0, by decide⟩).val := Dhh.lhsIdx_val_of_single (cl := 1) rfl j k
theorem rhs_Dhh_0 (j : S16x128.Idx) (k : Dhh.contr.Idx) :
    (Dhh.rhsIdx j k 0).val = (k ⟨0, by decide⟩).val := Dhh.rhsIdx_val_of_single (cr := 0) rfl j k
theorem rhs_Dhh_1 (j : S16x128.Idx) (k : Dhh.contr.Idx) : (Dhh.rhsIdx j k 1).val = (j 1).val := rfl

/-- The recurrent product at row `i`, lane `n`. -/
theorem matmul_hh_apply (h : FVec Ideal S16x128 .f32) (w : FVec Ideal S128x128 .f32) (i : Fin 16) (n : Fin 128) :
    matmul Dhh none h w (constant (F := Ideal) S16x128 .f32 0x00000000#32) (ix2 i n)
      = ∑ k : Fin 128, h (ix2 i k) * w (ix2 k n) := by
  refine matmul_zero_apply_of Dhh (contrEquiv1 Dhh 128 rfl rfl) h w (fun i k => ix2 i k) (fun n k => ix2 k n) i n
    (fun k => ?_) (fun k => ?_)
  · have hk := contrEquiv1_symm_val Dhh 128 rfl rfl k
    funext a
    match a with
    | ⟨0, _⟩ => exact Fin.ext (lhs_Dhh_0 _ _)
    | ⟨1, _⟩ => exact Fin.ext ((lhs_Dhh_1 _ _).trans hk)
  · have hk := contrEquiv1_symm_val Dhh 128 rfl rfl k
    funext a
    match a with
    | ⟨0, _⟩ => exact Fin.ext ((rhs_Dhh_0 _ _).trans hk)
    | ⟨1, _⟩ => exact Fin.ext (rhs_Dhh_1 _ _)

/-! ## One step of the loop body -/

/-- ONE STEP as a function of vectors: the rows with `act ≤ t` take `tanh (pre + h · whh)`, the others keep their
    state.  `pre` is the sixteen rows of the projection that belong to the step. -/
def stepV (whh : FVec Ideal S128x128 .f32) (act : IVec S16x128 32) (t : BitVec 32)
    (pre h : FVec Ideal S16x128 .f32) : FVec Ideal S16x128 .f32 :=
  select (cmpi .sle act (broadcast S16x128 t))
    (tanh (addf pre (matmul Dhh none h whh (constant (F := Ideal) S16x128 .f32 0x00000000#32)))) h

/-- The step at row `i`, lane `n`. -/
theorem stepV_apply (whh : FVec Ideal S128x128 .f32) (act : IVec S16x128 32) (t : BitVec 32)
    (pre h : FVec Ideal S16x128 .f32) (i : Fin 16) (n : Fin 128) :
    stepV whh act t pre h (ix2 i n)
      = if (act (ix2 i n)).toInt ≤ t.toInt
          then Ideal.tanh (pre (ix2 i n) + ∑ k : Fin 128, h (ix2 i k) * whh (ix2 k n))
          else h (ix2 i n) := by
  show Scalar.select (IntOp.cmpi .sle (act (ix2 i n)) t)
      (Ideal.tanh (pre (ix2 i n) + matmul Dhh none h whh (constant (F := Ideal) S16x128 .f32 0x00000000#32) (ix2 i n)))
      (h (ix2 i n)) = _
  rw [matmul_hh_apply]
  unfold Scalar.select
  by_cases hle : (act (ix2 i n)).toInt ≤ t.toInt
  · have hc : IntOp.cmpi .sle (act (ix2 i n)) t = 1 := IntOp.cmpi_sle.mpr hle
    rw [if_pos hc, if_pos hle]
  · have hc : ¬ IntOp.cmpi .sle (act (ix2 i n)) t = 1 := fun hc => hle (IntOp.cmpi_sle.mp hc)
    rw [if_neg hc, if_neg hle]

/-- A state as sixteen rows of 128 lanes. -/
def rows (h : FVec Ideal S16x128 .f32) : Fin 16 → Fin 128 → EReal := fun i n => h (ix2 i n)

/-- A weight matrix by its two coordinates, in the order it is stored. -/
def mat {a b : ℕ} (w : FVec Ideal ⟨2, ![a, b]⟩ .f32) : Fin a → Fin b → EReal := fun p q => w (ix2 p q)

/-- THE STEP AS A MASKED STEP: when every lane of row `i` of `act` holds the natural number `actN i`, and `t`
    holds `tN`, one vector step is the masked step at `tN` whose cell adds `h · whh` to `P` and takes `tanh`. -/
theorem rows_stepV (whh : FVec Ideal S128x128 .f32) (act : IVec S16x128 32) (t : BitVec 32)
    (pre h : FVec Ideal S16x128 .f32) (actN : Fin 16 → ℕ) (tN : ℕ)
    (hact : ∀ i n, (act (ix2 i n)).toInt = (actN i : ℤ)) (ht : t.toInt = (tN : ℤ)) :
    rows (stepV whh act t pre h)
      = maskedStep actN (fun (_ : ℕ) (hh : Fin 16 → Fin 128 → EReal) (i : Fin 16) (n : Fin 128) =>
          Ideal.tanh (rows pre i n + ∑ k : Fin 128, hh i k * mat whh k n)) tN (rows h) := by
  funext i n
  show stepV whh act t pre h (ix2 i n) = _
  rw [stepV_apply, hact i n, ht]
  unfold maskedStep
  by_cases hle : actN i ≤ tN
  · rw [if_pos (by exact_mod_cast hle), if_pos hle]; rfl
  · rw [if_neg (by exact_mod_cast hle), if_neg hle]; rfl

/-! ## The loop trips of the first call (`t_base = 256 · g`) as compositions of steps

  A trip `kb` makes the steps `8·kb + 0, …, 8·kb + 7`: three in the first payload, four in the second, the
  last in the third.  Each copy of the loop has its own three payloads of the same text. -/

/-- Steps 0, 1, 2 of a trip (first copy of the loop). -/
theorem k2_pay5_eq (i : grid2.Coords) (v3 : BitVec 32) (v27 : FVec Ideal S128x128 .f32) (v29 : IVec S16x128 32)
    (v30 : Elt Ideal .i32) (v50 c1 : BitVec 32) (k2_t1 : Fin (k2_t1_loop i v30).trips)
    (arg12 v66 v78 v90 : Vec Ideal S16x128 .f32) :
    k2_pay5 (F := Ideal) i v3 v27 v29 v30 v50 c1 k2_t1 arg12 v66 v78 v90
      = stepV v27 v29 (Scalar.addi v3 (Scalar.addi (Scalar.muli (Scf.iv v50 c1 k2_t1) 8#32) 2#32)) v90
          (stepV v27 v29 (Scalar.addi v3 (Scalar.addi (Scalar.muli (Scf.iv v50 c1 k2_t1) 8#32) 1#32)) v78
            (stepV v27 v29 (Scalar.addi v3 (Scalar.addi (Scalar.muli (Scf.iv v50 c1 k2_t1) 8#32) 0#32)) v66 arg12)) := rfl

/-- Steps 3, 4, 5, 6 of a trip (first copy). -/
theorem k2_pay6_eq (v3 : BitVec 32) (v27 : FVec Ideal S128x128 .f32) (v29 : IVec S16x128 32) (arg11 : BitVec 32)
    (v97 : FVec Ideal S16x128 .f32) (v99 : BitVec 32) (v102 v114 v126 v138 : Vec Ideal S16x128 .f32) :
    k2_pay6 (F := Ideal) v3 v27 v29 arg11 v97 v99 v102 v114 v126 v138
      = stepV v27 v29 (Scalar.addi v3 (Scalar.addi (Scalar.muli arg11 8#32) 6#32)) v138
          (stepV v27 v29 (Scalar.addi v3 (Scalar.addi (Scalar.muli arg11 8#32) 5#32)) v126
            (stepV v27 v29 (Scalar.addi v3 (Scalar.addi (Scalar.muli arg11 8#32) 4#32)) v114
              (stepV v27 v29 (Scalar.addi v3 v99) v102 v97))) := rfl

/-- Step 7 of a trip (first copy). -/
theorem k2_pay2_eq (i : grid2.Coords) (v27 : FVec Ideal S128x128 .f32) (v29 : IVec S16x128 32) (arg11 : BitVec 32)
    (v145 : FVec Ideal S16x128 .f32) (v150 : Vec Ideal S16x128 .f32) :
    k2_pay2 (F := Ideal) i v27 v29 arg11 v145 v150
      = stepV v27 v29 (Scalar.addi (Scalar.muli (BitVec.ofNat 32 (i 0).val) 256#32)
            (Scalar.addi (Scalar.muli arg11 8#32) 7#32)) v150 v145 := rfl

/-- Steps 0, 1, 2 of a trip (second copy). -/
theorem k2_pay7_eq (i : grid2.Coords) (v3 : BitVec 32) (v27 : FVec Ideal S128x128 .f32) (v29 : IVec S16x128 32)
    (v30 : Elt Ideal .i32) (v56 c1 : BitVec 32) (k2_t2 : Fin (k2_t2_loop i v30).trips)
    (arg12 v66 v78 v90 : Vec Ideal S16x128 .f32) :
    k2_pay7 (F := Ideal) i v3 v27 v29 v30 v56 c1 k2_t2 arg12 v66 v78 v90
      = stepV v27 v29 (Scalar.addi v3 (Scalar.addi (Scalar.muli (Scf.iv v56 c1 k2_t2) 8#32) 2#32)) v90
          (stepV v27 v29 (Scalar.addi v3 (Scalar.addi (Scalar.muli (Scf.iv v56 c1 k2_t2) 8#32) 1#32)) v78
            (stepV v27 v29 (Scalar.addi v3 (Scalar.addi (Scalar.muli (Scf.iv v56 c1 k2_t2) 8#32) 0#32)) v66 arg12)) := rfl

/-- Steps 3, 4, 5, 6 of a trip (second copy). -/
theorem k2_pay8_eq (v3 : BitVec 32) (v27 : FVec Ideal S128x128 .f32) (v29 : IVec S16x128 32) (arg11 : BitVec 32)
    (v97 : FVec Ideal S16x128 .f32) (v99 : BitVec 32) (v102 v114 v126 v138 : Vec Ideal S16x128 .f32) :
    k2_pay8 (F := Ideal) v3 v27 v29 arg11 v97 v99 v102 v114 v126 v138
      = stepV v27 v29 (Scalar.addi v3 (Scalar.addi (Scalar.muli arg11 8#32) 6#32)) v138
          (stepV v27 v29 (Scalar.addi v3 (Scalar.addi (Scalar.muli arg11 8#32) 5#32)) v126
            (stepV v27 v29 (Scalar.addi v3 (Scalar.addi (Scalar.muli arg11 8#32) 4#32)) v114
              (stepV v27 v29 (Scalar.addi v3 v99) v102 v97))) := rfl

/-- Step 7 of a trip (second copy). -/
theorem k2_pay3_eq (i : grid2.Coords) (v27 : FVec Ideal S128x128 .f32) (v29 : IVec S16x128 32) (arg11 : BitVec 32)
    (v145 : FVec Ideal S16x128 .f32) (v150 : Vec Ideal S16x128 .f32) :
    k2_pay3 (F := Ideal) i v27 v29 arg11 v145 v150
      = stepV v27 v29 (Scalar.addi (Scalar.muli (BitVec.ofNat 32 (i 0).val) 256#32)
            (Scalar.addi (Scalar.muli arg11 8#32) 7#32)) v150 v145 := rfl

/-! ## The loop trips of the second call (`t_base = 256 + 448 · g`) -/

/-- Steps 0, 1, 2 of a trip (first copy of the loop). -/
theorem k3_pay6_eq (i : grid3.Coords) (v4 : BitVec 32) (v28 : FVec Ideal S128x128 .f32) (v30 : IVec S16x128 32)
    (v31 : Elt Ideal .i32) (v51 c1 : BitVec 32) (k3_t1 : Fin (k3_t1_loop i v31).trips)
    (arg17 v67 v79 v91 : Vec Ideal S16x128 .f32) :
    k3_pay6 (F := Ideal) i v4 v28 v30 v31 v51 c1 k3_t1 arg17 v67 v79 v91
      = stepV v28 v30 (Scalar.addi v4 (Scalar.addi (Scalar.muli (Scf.iv v51 c1 k3_t1) 8#32) 2#32)) v91
          (stepV v28 v30 (Scalar.addi v4 (Scalar.addi (Scalar.muli (Scf.iv v51 c1 k3_t1) 8#32) 1#32)) v79
            (stepV v28 v30 (Scalar.addi v4 (Scalar.addi (Scalar.muli (Scf.iv v51 c1 k3_t1) 8#32) 0#32)) v67 arg17)) := rfl

/-- Steps 3, 4, 5, 6 of a trip (first copy). -/
theorem k3_pay7_eq (v4 : BitVec 32) (v28 : FVec Ideal S128x128 .f32) (v30 : IVec S16x128 32) (arg16 : BitVec 32)
    (v98 : FVec Ideal S16x128 .f32) (v100 : BitVec 32) (v103 v115 v127 v139 : Vec Ideal S16x128 .f32) :
    k3_pay7 (F := Ideal) v4 v28 v30 arg16 v98 v100 v103 v115 v127 v139
      = stepV v28 v30 (Scalar.addi v4 (Scalar.addi (Scalar.muli arg16 8#32) 6#32)) v139
          (stepV v28 v30 (Scalar.addi v4 (Scalar.addi (Scalar.muli arg16 8#32) 5#32)) v127
            (stepV v28 v30 (Scalar.addi v4 (Scalar.addi (Scalar.muli arg16 8#32) 4#32)) v115
              (stepV v28 v30 (Scalar.addi v4 v100) v103 v98))) := rfl

/-- Step 7 of a trip (first copy). -/
theorem k3_pay2_eq (i : grid3.Coords) (v28 : FVec Ideal S128x128 .f32) (v30 : IVec S16x128 32) (arg16 : BitVec 32)
    (v146 : FVec Ideal S16x128 .f32) (v151 : Vec Ideal S16x128 .f32) :
    k3_pay2 (F := Ideal) i v28 v30 arg16 v146 v151
      = stepV v28 v30 (Scalar.addi (Scalar.addi 256#32 (Scalar.muli (BitVec.ofNat 32 (i 0).val) 448#32))
            (Scalar.addi (Scalar.muli arg16 8#32) 7#32)) v151 v146 := rfl

/-- Steps 0, 1, 2 of a trip (second copy). -/
theorem k3_pay8_eq (i : grid3.Coords) (v4 : BitVec 32) (v28 : FVec Ideal S128x128 .f32) (v30 : IVec S16x128 32)
    (v31 : Elt Ideal .i32) (v57 c1 : BitVec 32) (k3_t2 : Fin (k3_t2_loop i v31).trips)
    (arg17 v67 v79 v91 : Vec Ideal S16x128 .f32) :
    k3_pay8 (F := Ideal) i v4 v28 v30 v31 v57 c1 k3_t2 arg17 v67 v79 v91
      = stepV v28 v30 (Scalar.addi v4 (Scalar.addi (Scalar.muli (Scf.iv v57 c1 k3_t2) 8#32) 2#32)) v91
          (stepV v28 v30 (Scalar.addi v4 (Scalar.addi (Scalar.muli (Scf.iv v57 c1 k3_t2) 8#32) 1#32)) v79
            (stepV v28 v30 (Scalar.addi v4 (Scalar.addi (Scalar.muli (Scf.iv v57 c1 k3_t2) 8#32) 0#32)) v67 arg17)) := rfl

/-- Steps 3, 4, 5, 6 of a trip (second copy). -/
theorem k3_pay9_eq (v4 : BitVec 32) (v28 : FVec Ideal S128x128 .f32) (v30 : IVec S16x128 32) (arg16 : BitVec 32)
    (v98 : FVec Ideal S16x128 .f32) (v100 : BitVec 32) (v103 v115 v127 v139 : Vec Ideal S16x128 .f32) :
    k3_pay9 (F := Ideal) v4 v28 v30 arg16 v98 v100 v103 v115 v127 v139
      = stepV v28 v30 (Scalar.addi v4 (Scalar.addi (Scalar.muli arg16 8#32) 6#32)) v139
          (stepV v28 v30 (Scalar.addi v4 (Scalar.addi (Scalar.muli arg16 8#32) 5#32)) v127
            (stepV v28 v30 (Scalar.addi v4 (Scalar.addi (Scalar.muli arg16 8#32) 4#32)) v115
              (stepV v28 v30 (Scalar.addi v4 v100) v103 v98))) := rfl

/-- Step 7 of a trip (second copy). -/
theorem k3_pay3_eq (i : grid3.Coords) (v28 : FVec Ideal S128x128 .f32) (v30 : IVec S16x128 32) (arg16 : BitVec 32)
    (v146 : FVec Ideal S16x128 .f32) (v151 : Vec Ideal S16x128 .f32) :
    k3_pay3 (F := Ideal) i v28 v30 arg16 v146 v151
      = stepV v28 v30 (Scalar.addi (Scalar.addi 256#32 (Scalar.muli (BitVec.ofNat 32 (i 0).val) 448#32))
            (Scalar.addi (Scalar.muli arg16 8#32) 7#32)) v151 v146 := rfl

/-! ## The values passed through unchanged, and the zero state -/

/-- The first call's initial state: every entry zero. -/
theorem k2_pay1_apply (j : S16x128.Idx) : k2_pay1 (F := Ideal) j = 0 := by
  show shapeCast S16x128 (broadcast S16x128 (Scalar.ofBits (F := Ideal) .f32 0x00000000#32)) shapeCasts_S16x128_S16x128 j = 0
  rw [shapeCast_self]
  exact Ideal.ofBits_zero_f32

theorem k2_pay4_eq (v58 : Vec Ideal S16x128 .f32) : k2_pay4 (F := Ideal) v58 = v58 := shapeCast_self _ _
theorem k2_pay10_eq (v26 : Vec Ideal S128x128 .f32) : k2_pay10 (F := Ideal) v26 = v26 := shapeCast_self _ _
theorem k2_pay11_eq (v28 : Vec Ideal S16x128 .i32) : k2_pay11 (F := Ideal) v28 = v28 := shapeCast_self _ _
theorem k3_pay1_eq (v13 : Vec Ideal S16x128 .f32) : k3_pay1 (F := Ideal) v13 = v13 := by
  show shapeCast S16x128 (shapeCast S16x128 v13 shapeCasts_S16x128_S16x128) shapeCasts_S16x128_S16x128 = v13
  rw [shapeCast_self, shapeCast_self]
theorem k3_pay4_eq (v59 : Vec Ideal S16x128 .f32) : k3_pay4 (F := Ideal) v59 = v59 := shapeCast_self _ _
theorem k3_pay11_eq (v27 : Vec Ideal S128x128 .f32) : k3_pay11 (F := Ideal) v27 = v27 := shapeCast_self _ _
theorem k3_pay12_eq (v29 : Vec Ideal S16x128 .i32) : k3_pay12 (F := Ideal) v29 = v29 := shapeCast_self _ _

/-! ## The projection of a whole chunk: one product against `W_ih`'s ROWS' lanes, plus the summed bias

  Both operands are contracted on their axis 1: entry `(r, n)` is `∑ k, x (r, k) * w (n, k)`. -/

/-- The first call's dimension numbers (4096 rows). -/
abbrev DihA : DotDims S4096x128 S128x128 S4096x128 := dot_S4096x128_S128x128_S4096x128_1_1_0_0_n_n
/-- The second call's (7168 rows). -/
abbrev DihB : DotDims S7168x128 S128x128 S7168x128 := dot_S7168x128_S128x128_S7168x128_1_1_0_0_n_n

theorem lhs_DihA_0 (j : S4096x128.Idx) (k : DihA.contr.Idx) : (DihA.lhsIdx j k 0).val = (j 0).val := rfl
theorem lhs_DihA_1 (j : S4096x128.Idx) (k : DihA.contr.Idx) :
    (DihA.lhsIdx j k 1).val = (k ⟨0, by decide⟩).val := DihA.lhsIdx_val_of_single (cl := 1) rfl j k
theorem rhs_DihA_0 (j : S4096x128.Idx) (k : DihA.contr.Idx) : (DihA.rhsIdx j k 0).val = (j 1).val := rfl
theorem rhs_DihA_1 (j : S4096x128.Idx) (k : DihA.contr.Idx) :
    (DihA.rhsIdx j k 1).val = (k ⟨0, by decide⟩).val := DihA.rhsIdx_val_of_single (cr := 1) rfl j k

theorem lhs_DihB_0 (j : S7168x128.Idx) (k : DihB.contr.Idx) : (DihB.lhsIdx j k 0).val = (j 0).val := rfl
theorem lhs_DihB_1 (j : S7168x128.Idx) (k : DihB.contr.Idx) :
    (DihB.lhsIdx j k 1).val = (k ⟨0, by decide⟩).val := DihB.lhsIdx_val_of_single (cl := 1) rfl j k
theorem rhs_DihB_0 (j : S7168x128.Idx) (k : DihB.contr.Idx) : (DihB.rhsIdx j k 0).val = (j 1).val := rfl
theorem rhs_DihB_1 (j : S7168x128.Idx) (k : DihB.contr.Idx) :
    (DihB.rhsIdx j k 1).val = (k ⟨0, by decide⟩).val := DihB.rhsIdx_val_of_single (cr := 1) rfl j k

theorem matmul_ihA_apply (x : FVec Ideal S4096x128 .f32) (w : FVec Ideal S128x128 .f32) (r : Fin 4096) (n : Fin 128) :
    matmul DihA none x w (constant (F := Ideal) S4096x128 .f32 0x00000000#32) (ix2 r n)
      = ∑ k : Fin 128, x (ix2 r k) * w (ix2 n k) := by
  refine matmul_zero_apply_of DihA (contrEquiv1 DihA 128 rfl rfl) x w (fun r k => ix2 r k) (fun n k => ix2 n k) r n
    (fun k => ?_) (fun k => ?_)
  · have hk := contrEquiv1_symm_val DihA 128 rfl rfl k
    funext a
    match a with
    | ⟨0, _⟩ => exact Fin.ext (lhs_DihA_0 _ _)
    | ⟨1, _⟩ => exact Fin.ext ((lhs_DihA_1 _ _).trans hk)
  · have hk := contrEquiv1_symm_val DihA 128 rfl rfl k
    funext a
    match a with
    | ⟨0, _⟩ => exact Fin.ext (rhs_DihA_0 _ _)
    | ⟨1, _⟩ => exact Fin.ext ((rhs_DihA_1 _ _).trans hk)

theorem matmul_ihB_apply (x : FVec Ideal S7168x128 .f32) (w : FVec Ideal S128x128 .f32) (r : Fin 7168) (n : Fin 128) :
    matmul DihB none x w (constant (F := Ideal) S7168x128 .f32 0x00000000#32) (ix2 r n)
      = ∑ k : Fin 128, x (ix2 r k) * w (ix2 n k) := by
  refine matmul_zero_apply_of DihB (contrEquiv1 DihB 128 rfl rfl) x w (fun r k => ix2 r k) (fun n k => ix2 n k) r n
    (fun k => ?_) (fun k => ?_)
  · have hk := contrEquiv1_symm_val DihB 128 rfl rfl k
    funext a
    match a with
    | ⟨0, _⟩ => exact Fin.ext (lhs_DihB_0 _ _)
    | ⟨1, _⟩ => exact Fin.ext ((lhs_DihB_1 _ _).trans hk)
  · have hk := contrEquiv1_symm_val DihB 128 rfl rfl k
    funext a
    match a with
    | ⟨0, _⟩ => exact Fin.ext (rhs_DihB_0 _ _)
    | ⟨1, _⟩ => exact Fin.ext ((rhs_DihB_1 _ _).trans hk)

/-- A bias row `[1, 128]` by its lane. -/
def bias {b : ℕ} (v : FVec Ideal ⟨2, ![1, b]⟩ .f32) : Fin b → EReal := fun n => v (ix2 (0 : Fin 1) n)

/-- THE PROJECTION OF THE FIRST CALL'S CHUNK at row `r`, lane `n`. -/
theorem k2_pay9_apply (v12 : Vec Ideal S4096x128 .f32) (v14 : Vec Ideal S128x128 .f32) (v16 v18 : Vec Ideal S1x128 .f32)
    (r : Fin 4096) (n : Fin 128) :
    k2_pay9 (F := Ideal) v12 v14 v16 v18 (ix2 r n)
      = preChunk (mat v12) (mat v14) (bias v16) (bias v18) r n := by
  show shapeCast S4096x128 (addf (matmul DihA none (shapeCast S4096x128 v12 shapeCasts_S4096x128_S4096x128) v14
        (constant (F := Ideal) S4096x128 .f32 0x00000000#32))
      (broadcastTo S4096x128 (addf (shapeCast S1x128 v16 shapeCasts_S1x128_S1x128) (shapeCast S1x128 v18 shapeCasts_S1x128_S1x128))
        broadcasts_S1x128_S4096x128)) shapeCasts_S4096x128_S4096x128 (ix2 r n) = _
  rw [shapeCast_self, shapeCast_self, shapeCast_self, shapeCast_self]
  show matmul DihA none v12 v14 (constant (F := Ideal) S4096x128 .f32 0x00000000#32) (ix2 r n)
      + broadcastTo S4096x128 (addf (φ := .f32) v16 v18) broadcasts_S1x128_S4096x128 (ix2 r n) = _
  rw [matmul_ihA_apply, broadcastTo_1b_ab_apply]
  rfl

/-- THE PROJECTION OF THE SECOND CALL'S CHUNK at row `r`, lane `n`. -/
theorem k3_pay10_apply (v13 : Vec Ideal S7168x128 .f32) (v15 : Vec Ideal S128x128 .f32) (v17 v19 : Vec Ideal S1x128 .f32)
    (r : Fin 7168) (n : Fin 128) :
    k3_pay10 (F := Ideal) v13 v15 v17 v19 (ix2 r n)
      = preChunk (mat v13) (mat v15) (bias v17) (bias v19) r n := by
  show shapeCast S7168x128 (addf (matmul DihB none (shapeCast S7168x128 v13 shapeCasts_S7168x128_S7168x128) v15
        (constant (F := Ideal) S7168x128 .f32 0x00000000#32))
      (broadcastTo S7168x128 (addf (shapeCast S1x128 v17 shapeCasts_S1x128_S1x128) (shapeCast S1x128 v19 shapeCasts_S1x128_S1x128))
        broadcasts_S1x128_S7168x128)) shapeCasts_S7168x128_S7168x128 (ix2 r n) = _
  rw [shapeCast_self, shapeCast_self, shapeCast_self, shapeCast_self]
  show matmul DihB none v13 v15 (constant (F := Ideal) S7168x128 .f32 0x00000000#32) (ix2 r n)
      + broadcastTo S7168x128 (addf (φ := .f32) v17 v19) broadcasts_S1x128_S7168x128 (ix2 r n) = _
  rw [matmul_ihB_apply, broadcastTo_1b_ab_apply]
  rfl

/-! ## The head of the last grid point: two relu layers, the fill, the log-softmax over 128 lanes

  Both layers contract axis 1 of both operands, like the projection. -/

/-- The first layer's dimension numbers: `[16,128] × [256,128] → [16,256]`. -/
abbrev D0 : DotDims S16x128 S256x128 S16x256 := dot_S16x128_S256x128_S16x256_1_1_0_0_n_n
/-- The second layer's: `[16,256] × [128,256] → [16,128]`. -/
abbrev D1 : DotDims S16x256 S128x256 S16x128 := dot_S16x256_S128x256_S16x128_1_1_0_0_n_n

theorem lhs_D0_0 (j : S16x256.Idx) (k : D0.contr.Idx) : (D0.lhsIdx j k 0).val = (j 0).val := rfl
theorem lhs_D0_1 (j : S16x256.Idx) (k : D0.contr.Idx) :
    (D0.lhsIdx j k 1).val = (k ⟨0, by decide⟩).val := D0.lhsIdx_val_of_single (cl := 1) rfl j k
theorem rhs_D0_0 (j : S16x256.Idx) (k : D0.contr.Idx) : (D0.rhsIdx j k 0).val = (j 1).val := rfl
theorem rhs_D0_1 (j : S16x256.Idx) (k : D0.contr.Idx) :
    (D0.rhsIdx j k 1).val = (k ⟨0, by decide⟩).val := D0.rhsIdx_val_of_single (cr := 1) rfl j k

theorem lhs_D1_0 (j : S16x128.Idx) (k : D1.contr.Idx) : (D1.lhsIdx j k 0).val = (j 0).val := rfl
theorem lhs_D1_1 (j : S16x128.Idx) (k : D1.contr.Idx) :
    (D1.lhsIdx j k 1).val = (k ⟨0, by decide⟩).val := D1.lhsIdx_val_of_single (cl := 1) rfl j k
theorem rhs_D1_0 (j : S16x128.Idx) (k : D1.contr.Idx) : (D1.rhsIdx j k 0).val = (j 1).val := rfl
theorem rhs_D1_1 (j : S16x128.Idx) (k : D1.contr.Idx) :
    (D1.rhsIdx j k 1).val = (k ⟨0, by decide⟩).val := D1.rhsIdx_val_of_single (cr := 1) rfl j k

theorem matmul_0_apply (x : FVec Ideal S16x128 .f32) (w : FVec Ideal S256x128 .f32) (i : Fin 16) (q : Fin 256) :
    matmul D0 none x w (constant (F := Ideal) S16x256 .f32 0x00000000#32) (ix2 i q)
      = ∑ k : Fin 128, x (ix2 i k) * w (ix2 q k) := by
  refine matmul_zero_apply_of D0 (contrEquiv1 D0 128 rfl rfl) x w (fun i k => ix2 i k) (fun q k => ix2 q k) i q
    (fun k => ?_) (fun k => ?_)
  · have hk := contrEquiv1_symm_val D0 128 rfl rfl k
    funext a
    match a with
    | ⟨0, _⟩ => exact Fin.ext (lhs_D0_0 _ _)
    | ⟨1, _⟩ => exact Fin.ext ((lhs_D0_1 _ _).trans hk)
  · have hk := contrEquiv1_symm_val D0 128 rfl rfl k
    funext a
    match a with
    | ⟨0, _⟩ => exact Fin.ext (rhs_D0_0 _ _)
    | ⟨1, _⟩ => exact Fin.ext ((rhs_D0_1 _ _).trans hk)

theorem matmul_1_apply (x : FVec Ideal S16x256 .f32) (w : FVec Ideal S128x256 .f32) (i : Fin 16) (l : Fin 128) :
    matmul D1 none x w (constant (F := Ideal) S16x128 .f32 0x00000000#32) (ix2 i l)
      = ∑ q : Fin 256, x (ix2 i q) * w (ix2 l q) := by
  refine matmul_zero_apply_of D1 (contrEquiv1 D1 256 rfl rfl) x w (fun i q => ix2 i q) (fun l q => ix2 l q) i l
    (fun k => ?_) (fun k => ?_)
  · have hk := contrEquiv1_symm_val D1 256 rfl rfl k
    funext a
    match a with
    | ⟨0, _⟩ => exact Fin.ext (lhs_D1_0 _ _)
    | ⟨1, _⟩ => exact Fin.ext ((lhs_D1_1 _ _).trans hk)
  · have hk := contrEquiv1_symm_val D1 256 rfl rfl k
    funext a
    match a with
    | ⟨0, _⟩ => exact Fin.ext (rhs_D1_0 _ _)
    | ⟨1, _⟩ => exact Fin.ext ((rhs_D1_1 _ _).trans hk)

/-- The first layer with its relu, as a function of vectors. -/
def layer0V (v13 : FVec Ideal S16x128 .f32) (v14 : FVec Ideal S256x128 .f32) (v16 : FVec Ideal S1x256 .f32) :
    FVec Ideal S16x256 .f32 :=
  maximumf (addf (matmul D0 none v13 v14 (constant (F := Ideal) S16x256 .f32 0x00000000#32))
      (broadcastTo S16x256 (shapeCast S1x256 v16 shapeCasts_S1x256_S1x256) broadcasts_S1x256_S16x256))
    (broadcast S16x256 (Scalar.ofBits (F := Ideal) .f32 0x00000000#32))

theorem layer0V_apply (v13 : FVec Ideal S16x128 .f32) (v14 : FVec Ideal S256x128 .f32) (v16 : FVec Ideal S1x256 .f32)
    (i : Fin 16) (q : Fin 256) :
    layer0V v13 v14 v16 (ix2 i q) = denseRelu (mat v14) (bias v16) (rows v13 i) q := by
  show max (matmul D0 none v13 v14 (constant (F := Ideal) S16x256 .f32 0x00000000#32) (ix2 i q)
      + broadcastTo S16x256 (shapeCast S1x256 v16 shapeCasts_S1x256_S1x256) broadcasts_S1x256_S16x256 (ix2 i q))
      (Ideal.ofBits .f32 0x00000000#32) = _
  rw [matmul_0_apply, shapeCast_self, broadcastTo_1b_ab_apply, Ideal.ofBits_zero_f32]
  rfl

/-- The second layer with its relu, over 128 output lanes. -/
def layer1V (x : FVec Ideal S16x256 .f32) (v22 : FVec Ideal S128x256 .f32) (v25 : FVec Ideal S1x128 .f32) :
    FVec Ideal S16x128 .f32 :=
  maximumf (addf (matmul D1 none x (shapeCast S128x256 v22 shapeCasts_S128x256_S128x256)
        (constant (F := Ideal) S16x128 .f32 0x00000000#32))
      (broadcastTo S16x128 (shapeCast S1x128 v25 shapeCasts_S1x128_S1x128) broadcasts_S1x128_S16x128))
    (broadcast S16x128 (Scalar.ofBits (F := Ideal) .f32 0x00000000#32))

theorem layer1V_apply (x : FVec Ideal S16x256 .f32) (v22 : FVec Ideal S128x256 .f32) (v25 : FVec Ideal S1x128 .f32)
    (i : Fin 16) (l : Fin 128) :
    layer1V x v22 v25 (ix2 i l) = denseRelu (mat v22) (bias v25) (fun q => x (ix2 i q)) l := by
  show max (matmul D1 none x (shapeCast S128x256 v22 shapeCasts_S128x256_S128x256)
        (constant (F := Ideal) S16x128 .f32 0x00000000#32) (ix2 i l)
      + broadcastTo S16x128 (shapeCast S1x128 v25 shapeCasts_S1x128_S1x128) broadcasts_S1x128_S16x128 (ix2 i l))
      (Ideal.ofBits .f32 0x00000000#32) = _
  rw [shapeCast_self, shapeCast_self, matmul_1_apply, broadcastTo_1b_ab_apply, Ideal.ofBits_zero_f32]
  rfl

/-- The constant the statement names `-∞` is the bottom of the extended reals. -/
theorem named_neg_big : Named.named (F := Ideal) κ "neg_big" (φ := .f32) 0xF149F2CA#32 = (⊥ : EReal) := rfl

/-- The lane test `lane < 3` on the 128 lanes. -/
theorem lane_lt3 : ∀ l : Fin 128, IntOp.cmpi .slt (BitVec.ofNat 32 l.val) 3#32 = 1#1 ↔ l.val < 3 := by decide

/-- The fill: the lanes `≥ 3` replaced by the named constant. -/
def logitsV (y : FVec Ideal S16x128 .f32) : FVec Ideal S16x128 .f32 :=
  select (cmpi .slt (iota .tc S16x128 32 [1] iota_S16x128_d1_w32) (broadcast S16x128 3#32)) y
    (broadcast S16x128 (Named.named (F := Ideal) κ "neg_big" (φ := .f32) 0xF149F2CA#32))

theorem logitsV_apply (y : FVec Ideal S16x128 .f32) (i : Fin 16) (l : Fin 128) :
    logitsV y (ix2 i l) = if l.val < 3 then y (ix2 i l) else ⊥ := by
  show Scalar.select (IntOp.cmpi .slt (iota .tc S16x128 32 [1] iota_S16x128_d1_w32 (ix2 i l)) 3#32) (y (ix2 i l))
      (Named.named (F := Ideal) κ "neg_big" (φ := .f32) 0xF149F2CA#32) = _
  rw [iota_single_apply, named_neg_big]
  show Scalar.select (IntOp.cmpi .slt (BitVec.ofNat 32 l.val) 3#32) (y (ix2 i l)) ⊥ = _
  unfold Scalar.select
  by_cases hl : l.val < 3
  · have hc : IntOp.cmpi .slt (BitVec.ofNat 32 l.val) 3#32 = 1 := (lane_lt3 l).mpr hl
    rw [if_pos hc, if_pos hl]
  · have hc : ¬ IntOp.cmpi .slt (BitVec.ofNat 32 l.val) 3#32 = 1 := fun hc => hl ((lane_lt3 l).mp hc)
    rw [if_neg hc, if_neg hl]

/-! ### The column forms of the two layout operations `keepdims` needs -/

/-- An `[a]` array cast to `[a, 1]` reads, at `(i, u)`, the operand at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p`. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The log-softmax over the 128 lanes, kept on lanes 0, 1, 2 -/

/-- A reduced row index with the lane put back. -/
theorem lift_row (i : Fin 16) (k : Fin 128) : reduces_S16x128_S16.lift (ix1 i) k = ix2 i k := by
  funext a
  match a with
  | ⟨0, _⟩ => rfl
  | ⟨1, _⟩ => rfl

/-- The pattern of the maximum's initial value is `-∞`. -/
theorem ofBits_neg_inf : Ideal.ofBits .f32 0xFF800000#32 = (⊥ : EReal) := by simp [Ideal.ofBits, Ideal.ieee]

/-- The rows' maxima. -/
def rowMaxV (g : FVec Ideal S16x128 .f32) : FVec Ideal S16 .f32 :=
  multiReduction (F := Ideal) .maximumf [1] S16 g 0xFF800000#32 reduces_S16x128_S16 (.inl rfl) rfl

theorem rowMaxV_apply (g : FVec Ideal S16x128 .f32) (i : Fin 16) :
    rowMaxV g (ix1 i) = rowMax (rows g i) := by
  refine (Ideal.multiReduction_maximumf_single g _ reduces_S16x128_S16 (.inl rfl) rfl (ix1 i)).trans ?_
  show (Finset.univ : Finset (Fin 128)).fold max (Ideal.ofBits .f32 0xFF800000#32)
      (fun k => g (reduces_S16x128_S16.lift (ix1 i) k)) = _
  rw [ofBits_neg_inf]
  unfold rowMax
  congr 1
  funext k
  exact congrArg g (lift_row i k)

/-- A value per row spread along the 128 lanes (`keepdims`, then the broadcast). -/
def colV (x : FVec Ideal S16 .f32) : FVec Ideal S16x128 .f32 :=
  broadcastTo S16x128 (shapeCast S16x1 x shapeCasts_S16_S16x1) broadcasts_S16x1_S16x128

theorem colV_apply (x : FVec Ideal S16 .f32) (i : Fin 16) (l : Fin 128) : colV x (ix2 i l) = x (ix1 i) := by
  unfold colV
  rw [broadcastTo_a1_ab_apply, shapeCast_a_a1_apply]

/-- The logits minus their row's maximum. -/
def shiftV (g : FVec Ideal S16x128 .f32) : FVec Ideal S16x128 .f32 := subf g (colV (rowMaxV g))

theorem shiftV_apply (g : FVec Ideal S16x128 .f32) (i : Fin 16) (l : Fin 128) :
    shiftV g (ix2 i l) = g (ix2 i l) - rowMax (rows g i) := by
  show g (ix2 i l) - colV (rowMaxV g) (ix2 i l) = _
  rw [colV_apply, rowMaxV_apply]

/-- The rows' sums of exponentials. -/
def sumExpV (g : FVec Ideal S16x128 .f32) : FVec Ideal S16 .f32 :=
  multiReduction (F := Ideal) .add [1] S16 (exp (shiftV g)) 0x00000000#32 reduces_S16x128_S16 (.inl rfl) rfl

theorem sumExpV_apply (g : FVec Ideal S16x128 .f32) (i : Fin 16) :
    sumExpV g (ix1 i) = ∑ l : Fin 128, Ideal.exp (rows g i l - rowMax (rows g i)) := by
  refine (Ideal.multiReduction_add_single (exp (shiftV g)) _ reduces_S16x128_S16 (.inl rfl) rfl (ix1 i)).trans ?_
  show ∑ k : Fin 128, Ideal.exp (shiftV g (reduces_S16x128_S16.lift (ix1 i) k)) = _
  refine Finset.sum_congr rfl (fun k _ => ?_)
  rw [lift_row, shiftV_apply]
  rfl

/-- The log-softmax over 128 lanes, lanes 0, 1, 2 kept. -/
def lsmV (g : FVec Ideal S16x128 .f32) : FVec Ideal S16x3 .f32 :=
  extractStridedSlice S16x3 ![0, 0]
    (subf (shiftV g)
      (broadcastTo S16x128 (log (shapeCast S16x1 (sumExpV g) shapeCasts_S16_S16x1)) broadcasts_S16x1_S16x128))
    slices_S16x128_o0_0_S16x3

theorem lsmV_apply (g : FVec Ideal S16x128 .f32) (i : Fin 16) (c : Fin 3) :
    lsmV g (ix2 i c) = logSoftmaxRow (rows g i) (lane3 c) := by
  unfold lsmV
  rw [slice2_axis1_apply 0 _ slices_S16x128_o0_0_S16x3 i c (lane3 c) (by simp)]
  show shiftV g (ix2 i (lane3 c))
      - broadcastTo S16x128 (log (shapeCast S16x1 (sumExpV g) shapeCasts_S16_S16x1)) broadcasts_S16x1_S16x128 (ix2 i (lane3 c)) = _
  rw [broadcastTo_a1_ab_apply]
  show shiftV g (ix2 i (lane3 c)) - Ideal.log (shapeCast S16x1 (sumExpV g) shapeCasts_S16_S16x1 (ix2 i (0 : Fin 1))) = _
  rw [shapeCast_a_a1_apply, shiftV_apply, sumExpV_apply]
  rfl

/-- THE HEAD's payload is the composition of the pieces above. -/
theorem k3_pay5_eq (v13 : Vec Ideal S16x128 .f32) (v14 : Vec Ideal S256x128 .f32) (v16 : Vec Ideal S1x256 .f32)
    (v22 : Vec Ideal S128x256 .f32) (v25 : Vec Ideal S1x128 .f32) :
    k3_pay5 (F := Ideal) v13 v14 v16 v22 v25 = lsmV (logitsV (layer1V (layer0V v13 v14 v16) v22 v25)) := rfl

/-- THE HEAD AT ROW `i`, CLASS `c`: the kernel's head of `KernelValue` on row `i` of the final state, with the
    weights as they are stored (`W0` as given, the second layer's padded matrix and bias). -/
theorem k3_pay5_apply (v13 : Vec Ideal S16x128 .f32) (v14 : Vec Ideal S256x128 .f32) (v16 : Vec Ideal S1x256 .f32)
    (v22 : Vec Ideal S128x256 .f32) (v25 : Vec Ideal S1x128 .f32) (i : Fin 16) (c : Fin 3) :
    k3_pay5 (F := Ideal) v13 v14 v16 v22 v25 (ix2 i c)
      = headK (mat v14) (bias v16) (mat v22) (bias v25) (rows v13 i) c := by
  rw [k3_pay5_eq, lsmV_apply]
  unfold headK
  congr 1
  funext l
  show logitsV (layer1V (layer0V v13 v14 v16) v22 v25) (ix2 i l) = _
  rw [logitsV_apply, layer1V_apply]
  congr 2
  funext q
  exact layer0V_apply v13 v14 v16 i q

end Cert.Proof.KI.Payloads

end
-- ==== Proof.KernelWords.lean ====
/-
  The 32-bit words of the two scan bodies read as the integers they hold.

  For `m` a word holding `0 ≤ mN ≤ 2047` and a grid point `g`: the branch condition is `mN < t_base + chunk`, the main
  loop's lower bound is the clipped first block `nblk0` of `KernelValue`, the main loop makes the remaining blocks and
  the remainder loop none.  Each is a closed form of a printed integer chain over the finitely many values of `m` and
  of the grid point, decided by evaluation.
-/
import proofs.«205923_g40089224741417_cont_sun_m_110_39_alg».proof.KernelIdeal
import proofs.«205923_g40089224741417_cont_sun_m_110_39_alg».proof.Proof.KernelValue
import Idealize.ShloMosaic.Lib.Decide

namespace Cert.Proof.KI.Words

open Cert.KernelIdeal
open Idealize.ShloMosaic
open Cert.Proof.KernelValue

/-- The first call's chunk base as the body computes it: `256 · g`. -/
def tbA (i : grid2.Coords) : BitVec 32 := Scalar.muli (BitVec.ofNat 32 (i 0).val) 256#32

/-- The second call's: `256 + 448 · g`. -/
def tbB (i : grid3.Coords) : BitVec 32 := Scalar.addi 256#32 (Scalar.muli (BitVec.ofNat 32 (i 0).val) 448#32)

theorem tbA_toNat : ∀ i : grid2.Coords, (tbA i).toNat = 256 * (i 0).val := by decide +kernel
theorem tbB_toNat : ∀ i : grid3.Coords, (tbB i).toNat = 256 + 448 * (i 0).val := by decide +kernel

/-! ## The first call -/

theorem k2_cond2_iff : ∀ (i : grid2.Coords) (mN : Fin 2048),
    k2_cond2 i (BitVec.ofNat 32 mN.val) = 1#1 ↔ mN.val < 256 * (i 0).val + 8 * 32 := by decide +kernel

theorem k2_lb_eq : ∀ (i : grid2.Coords) (mN : Fin 2048),
    (k2_t1_loop i (BitVec.ofNat 32 mN.val)).lb = BitVec.ofNat 32 (nblk0 mN.val (256 * (i 0).val : ℕ) 32).toNat := by
  decide +kernel

theorem k2_trips_eq : ∀ (i : grid2.Coords) (mN : Fin 2048),
    (k2_t1_loop i (BitVec.ofNat 32 mN.val)).trips = 32 - (nblk0 mN.val (256 * (i 0).val : ℕ) 32).toNat := by
  decide +kernel

theorem k2_trips2_eq : ∀ (i : grid2.Coords) (mN : Fin 2048), (k2_t2_loop i (BitVec.ofNat 32 mN.val)).trips = 0 := by
  decide +kernel

/-! ## The second call -/

theorem k3_cond2_iff : ∀ (i : grid3.Coords) (mN : Fin 2048),
    k3_cond2 i (BitVec.ofNat 32 mN.val) = 1#1 ↔ mN.val < (256 + 448 * (i 0).val) + 8 * 56 := by decide +kernel

theorem k3_lb_eq : ∀ (i : grid3.Coords) (mN : Fin 2048),
    (k3_t1_loop i (BitVec.ofNat 32 mN.val)).lb = BitVec.ofNat 32 (nblk0 mN.val (256 + 448 * (i 0).val : ℕ) 56).toNat := by
  decide +kernel

theorem k3_trips_eq : ∀ (i : grid3.Coords) (mN : Fin 2048),
    (k3_t1_loop i (BitVec.ofNat 32 mN.val)).trips = 56 - (nblk0 mN.val (256 + 448 * (i 0).val : ℕ) 56).toNat := by
  decide +kernel

theorem k3_trips2_eq : ∀ (i : grid3.Coords) (mN : Fin 2048), (k3_t2_loop i (BitVec.ofNat 32 mN.val)).trips = 0 := by
  decide +kernel

/-! ## Words and the numbers they hold -/

/-- A word that is not negative read signed is its unsigned value. -/
theorem toInt_toNat_of_nonneg (w : BitVec 32) (h : 0 ≤ w.toInt) : w.toInt.toNat = w.toNat := by
  have hc := BitVec.toInt_eq_toNat_cond w
  have hlt := w.isLt
  by_cases h2 : 2 * w.toNat < 2 ^ 32
  · rw [if_pos h2] at hc
    omega
  · rw [if_neg h2] at hc
    omega

/-- A word holding a natural number read signed is that number's word. -/
theorem eq_ofNat_of_toInt (m : BitVec 32) (mN : ℕ) (hm : m.toInt = (mN : ℤ)) : m = BitVec.ofNat 32 mN := by
  apply BitVec.eq_of_toNat_eq
  have h0 : 0 ≤ m.toInt := by rw [hm]; exact Int.natCast_nonneg _
  have h2 := toInt_toNat_of_nonneg m h0
  have hlt := m.isLt
  rw [BitVec.toNat_ofNat]
  omega

end Cert.Proof.KI.Words
-- ==== Proof.KernelJoin.lean ====
/-
  The kernel's two scan calls as functions of their inputs, joined to the reference's function.

  Each call's body computes, per grid point, a new state from the state it finds: nothing when the first active step
  lies beyond the chunk, else the projection of the chunk's inputs and then a counted loop of blocks of eight masked
  steps from a first block the body computes on 32-bit words.  Here that computation is written as a pure function
  of the payloads and of the rows the body loads, and shown to be the chunk of `KernelValue` (`chunkK`); with the
  gathered rows identified as the reference's inputs, all five chunks and the head together are the reference's result.
-/
import proofs.«205923_g40089224741417_cont_sun_m_110_39_alg».proof.Proof.Common
import proofs.«205923_g40089224741417_cont_sun_m_110_39_alg».proof.Proof.KernelPayloads
import proofs.«205923_g40089224741417_cont_sun_m_110_39_alg».proof.Proof.KernelSpec
import proofs.«205923_g40089224741417_cont_sun_m_110_39_alg».proof.Proof.KernelWords

noncomputable section

open scoped BigOperators

namespace Cert.Proof.KI.Join

open Cert.KernelIdeal Cert.KernelIdeal.Gen
open Idealize.ShloMosaic Idealize.ShloMosaic.ValueIdx
open Cert.Proof.KernelValue Cert.Proof.KI.Payloads Cert.Proof.KI.Words

/-! ## 1. The gathered rows are the reference's inputs -/

/-- THE FIRST GATHER'S ROWS: row `16·t + i` (`t < 256`) is the reference's input of sequence `i` at step `t`, when
    the flattened transposed tokens hold `tokens[i, p]` at `16·p + i` and every token is in `[0, 99999]`. -/
theorem tokAt_eq (tokT : IVec S32768 32) (tokens : IVec Spec.S16x2048 32)
    (htokT : ∀ (p : Fin 2048) (i : Fin 16), tokT (ix1 ⟨p.val * 16 + i.val, by have := p.isLt; have := i.isLt; omega⟩) = tokens (ix2 i p))
    (t : ℕ) (ht : t < 2048) (i : Fin 16) :
    tokAt (F := Ideal) tokT (t * 16 + i.val) = (tokens (ix2 i ⟨2047 - t, by omega⟩)).toNat := by
  have hi := i.isLt
  have hdiv : (t * 16 + i.val) / 16 = t := by omega
  have hmod : (t * 16 + i.val) % 16 = i.val := by omega
  unfold tokAt
  refine congrArg BitVec.toNat (Eq.trans (congrArg tokT ?_) (htokT ⟨2047 - t, by omega⟩ i))
  congr 1
  apply Fin.ext
  show ((2047 - (t * 16 + i.val) / 16) * 16 + (t * 16 + i.val) % 16) % 32768 = (2047 - t) * 16 + i.val
  rw [hdiv, hmod]
  omega

/-- A table row named through `tokAt`'s reductions is the reference's row, for a token in `[0, 99999]`. -/
theorem embAt_eq (emb : FVec Ideal S100000x128 .f32) (w : BitVec 32) (h0 : 0 ≤ w.toInt) (h1 : w.toInt ≤ 99999) (k : Fin 128) :
    embAt (F := Ideal) emb w.toNat k.val = emb (ix2 (KernelSpec.tokRow w) k) := by
  unfold embAt
  have hn := toInt_toNat_of_nonneg w h0
  have ha : (⟨w.toNat % 100000, Nat.mod_lt _ (by decide)⟩ : Fin 100000) = KernelSpec.tokRow w := by
    apply Fin.ext
    show w.toNat % 100000 = min w.toInt.toNat 99999
    omega
  have hb : (⟨k.val % 128, Nat.mod_lt _ (by decide)⟩ : Fin 128) = k := by
    apply Fin.ext
    show k.val % 128 = k.val
    have := k.isLt
    omega
  rw [ha, hb]

/-- THE FIRST GATHER'S ROWS: row `16·t + i` (`t < 256`) is the reference's input of sequence `i` at step `t`, when
    the flattened transposed tokens hold `tokens[i, p]` at `16·p + i` and every token is in `[0, 99999]`. -/
theorem X0_eq_xOf (tokT : IVec S32768 32) (tokens : IVec Spec.S16x2048 32) (emb : FVec Ideal S100000x128 .f32)
    (htokT : ∀ (p : Fin 2048) (i : Fin 16), tokT (ix1 ⟨p.val * 16 + i.val, by have := p.isLt; have := i.isLt; omega⟩) = tokens (ix2 i p))
    (htok : ∀ i p, 0 ≤ (tokens (ix2 i p)).toInt ∧ (tokens (ix2 i p)).toInt ≤ 99999)
    (t : ℕ) (ht : t < 256) (i : Fin 16) (k : Fin 128) :
    X0 (F := Ideal) tokT emb (ix2 ⟨t * 16 + i.val, by have := i.isLt; omega⟩ k) = KernelSpec.xOf tokens emb t i k := by
  show embAt (F := Ideal) emb (tokAt (F := Ideal) tokT (t * 16 + i.val)) k.val = _
  rw [tokAt_eq tokT tokens htokT t (by omega) i]
  exact embAt_eq emb _ (htok i _).1 (htok i _).2 k

/-- THE SECOND GATHER'S ROWS: row `16·(t - 256) + i` (`256 ≤ t < 2048`) likewise. -/
theorem X1_eq_xOf (tokT : IVec S32768 32) (tokens : IVec Spec.S16x2048 32) (emb : FVec Ideal S100000x128 .f32)
    (htokT : ∀ (p : Fin 2048) (i : Fin 16), tokT (ix1 ⟨p.val * 16 + i.val, by have := p.isLt; have := i.isLt; omega⟩) = tokens (ix2 i p))
    (htok : ∀ i p, 0 ≤ (tokens (ix2 i p)).toInt ∧ (tokens (ix2 i p)).toInt ≤ 99999)
    (t : ℕ) (ht0 : 256 ≤ t) (ht : t < 2048) (i : Fin 16) (k : Fin 128) :
    X1 (F := Ideal) tokT emb (ix2 ⟨(t - 256) * 16 + i.val, by have := i.isLt; omega⟩ k) = KernelSpec.xOf tokens emb t i k := by
  show embAt (F := Ideal) emb (tokAt (F := Ideal) tokT (4096 + ((t - 256) * 16 + i.val))) k.val = _
  have he : 4096 + ((t - 256) * 16 + i.val) = t * 16 + i.val := by omega
  rw [he, tokAt_eq tokT tokens htokT t ht i]
  exact embAt_eq emb _ (htok i _).1 (htok i _).2 k

/-! ## 2. The two bodies as pure functions of the payloads

  `ld jj` stands for the sixteen rows the body loads for step `jj` of the trip. -/

/-- The time word of step `jj` of the trip whose induction variable is `kb`: `t_base + (8·kb + jj)`. -/
def tWord (tb kb : BitVec 32) (jj : BitVec 32) : BitVec 32 := Scalar.addi tb (Scalar.addi (Scalar.muli kb 8#32) jj)

/-- ONE TRIP as eight steps in order. -/
def tripV (whh : FVec Ideal S128x128 .f32) (act : IVec S16x128 32) (tb kb : BitVec 32)
    (ld : Fin 8 → FVec Ideal S16x128 .f32) (acc : FVec Ideal S16x128 .f32) : FVec Ideal S16x128 .f32 :=
  stepV whh act (tWord tb kb 7#32) (ld 7)
    (stepV whh act (tWord tb kb 6#32) (ld 6)
      (stepV whh act (tWord tb kb 5#32) (ld 5)
        (stepV whh act (tWord tb kb 4#32) (ld 4)
          (stepV whh act (tWord tb kb 3#32) (ld 3)
            (stepV whh act (tWord tb kb 2#32) (ld 2)
              (stepV whh act (tWord tb kb 1#32) (ld 1)
                (stepV whh act (tWord tb kb 0#32) (ld 0) acc)))))))

/-- A trip of the first call's main loop, as its three payloads compose, is `tripV`. -/
theorem k2_trip1_eq (i : grid2.Coords) (v27 : FVec Ideal S128x128 .f32) (v29 : IVec S16x128 32) (v30 : Elt Ideal .i32)
    (v50 c1 : BitVec 32) (k : Fin (k2_t1_loop i v30).trips) (ld : Fin 8 → FVec Ideal S16x128 .f32)
    (acc : FVec Ideal S16x128 .f32) :
    k2_pay2 (F := Ideal) i v27 v29 (Scf.iv v50 c1 k)
        (k2_pay6 (F := Ideal) (tbA i) v27 v29 (Scf.iv v50 c1 k)
          (k2_pay5 (F := Ideal) i (tbA i) v27 v29 v30 v50 c1 k acc (ld 0) (ld 1) (ld 2))
          (Scalar.addi (Scalar.muli (Scf.iv v50 c1 k) 8#32) 3#32) (ld 3) (ld 4) (ld 5) (ld 6))
        (ld 7)
      = tripV v27 v29 (tbA i) (Scf.iv v50 c1 k) ld acc := rfl

/-- A trip of the first call's remainder loop likewise. -/
theorem k2_trip2_eq (i : grid2.Coords) (v27 : FVec Ideal S128x128 .f32) (v29 : IVec S16x128 32) (v30 : Elt Ideal .i32)
    (v56 c1 : BitVec 32) (k : Fin (k2_t2_loop i v30).trips) (ld : Fin 8 → FVec Ideal S16x128 .f32)
    (acc : FVec Ideal S16x128 .f32) :
    k2_pay3 (F := Ideal) i v27 v29 (Scf.iv v56 c1 k)
        (k2_pay8 (F := Ideal) (tbA i) v27 v29 (Scf.iv v56 c1 k)
          (k2_pay7 (F := Ideal) i (tbA i) v27 v29 v30 v56 c1 k acc (ld 0) (ld 1) (ld 2))
          (Scalar.addi (Scalar.muli (Scf.iv v56 c1 k) 8#32) 3#32) (ld 3) (ld 4) (ld 5) (ld 6))
        (ld 7)
      = tripV v27 v29 (tbA i) (Scf.iv v56 c1 k) ld acc := rfl

/-- A trip of the second call's main loop. -/
theorem k3_trip1_eq (i : grid3.Coords) (v28 : FVec Ideal S128x128 .f32) (v30 : IVec S16x128 32) (v31 : Elt Ideal .i32)
    (v51 c1 : BitVec 32) (k : Fin (k3_t1_loop i v31).trips) (ld : Fin 8 → FVec Ideal S16x128 .f32)
    (acc : FVec Ideal S16x128 .f32) :
    k3_pay2 (F := Ideal) i v28 v30 (Scf.iv v51 c1 k)
        (k3_pay7 (F := Ideal) (tbB i) v28 v30 (Scf.iv v51 c1 k)
          (k3_pay6 (F := Ideal) i (tbB i) v28 v30 v31 v51 c1 k acc (ld 0) (ld 1) (ld 2))
          (Scalar.addi (Scalar.muli (Scf.iv v51 c1 k) 8#32) 3#32) (ld 3) (ld 4) (ld 5) (ld 6))
        (ld 7)
      = tripV v28 v30 (tbB i) (Scf.iv v51 c1 k) ld acc := rfl

/-- A trip of the second call's remainder loop. -/
theorem k3_trip2_eq (i : grid3.Coords) (v28 : FVec Ideal S128x128 .f32) (v30 : IVec S16x128 32) (v31 : Elt Ideal .i32)
    (v57 c1 : BitVec 32) (k : Fin (k3_t2_loop i v31).trips) (ld : Fin 8 → FVec Ideal S16x128 .f32)
    (acc : FVec Ideal S16x128 .f32) :
    k3_pay3 (F := Ideal) i v28 v30 (Scf.iv v57 c1 k)
        (k3_pay9 (F := Ideal) (tbB i) v28 v30 (Scf.iv v57 c1 k)
          (k3_pay8 (F := Ideal) i (tbB i) v28 v30 v31 v57 c1 k acc (ld 0) (ld 1) (ld 2))
          (Scalar.addi (Scalar.muli (Scf.iv v57 c1 k) 8#32) 3#32) (ld 3) (ld 4) (ld 5) (ld 6))
        (ld 7)
      = tripV v28 v30 (tbB i) (Scf.iv v57 c1 k) ld acc := rfl

/-- THE CARRIED VALUE BEFORE TRIP `k` of a counted loop of `n` trips whose trip `j` is `body j`: the trips `0, …, k-1`
    in order from `init` (past the last trip nothing more happens). -/
def carried {σ : Type} {n : ℕ} (body : Fin n → σ → σ) (init : σ) : ℕ → σ
  | 0 => init
  | k + 1 => if h : k < n then body ⟨k, h⟩ (carried body init k) else carried body init k

theorem carried_zero {σ : Type} {n : ℕ} (body : Fin n → σ → σ) (init : σ) : carried body init 0 = init := rfl

theorem carried_succ {σ : Type} {n : ℕ} (body : Fin n → σ → σ) (init : σ) (k : Fin n) :
    carried body init (k.val + 1) = body k (carried body init k.val) := by
  show (if h : k.val < n then body ⟨k.val, h⟩ (carried body init k.val) else carried body init k.val) = _
  rw [dif_pos k.isLt]

/-- A loop of no trips carries its initial value. -/
theorem carried_of_no_trips {σ : Type} {n : ℕ} (hn : n = 0) (body : Fin n → σ → σ) (init : σ) (k : ℕ) :
    carried body init k = init := by
  induction k with
  | zero => rfl
  | succ k ih =>
    show (if h : k < n then body ⟨k, h⟩ (carried body init k) else carried body init k) = _
    rw [dif_neg (by omega), ih]

/-! ## 4. One trip is eight masked steps; a loop is a run of blocks; a body's effect is a chunk -/

/-- The time word of step `jj` of trip `k` of a loop from `lb` with step one, read as an integer: `t_base + 8·(lb + k) + jj`. -/
theorem tWord_toInt (tb lb : BitVec 32) (tbN lbN k jj : ℕ) (htb : tb.toNat = tbN) (hlb : lb.toNat = lbN)
    (h1 : tbN ≤ 1600) (h2 : lbN + k ≤ 56) (h3 : jj < 8) :
    (tWord tb (Scf.iv lb 1#32 k) (BitVec.ofNat 32 jj)).toInt = ((tbN + 8 * (lbN + k) + jj : ℕ) : ℤ) := by
  have hnat : (tWord tb (Scf.iv lb 1#32 k) (BitVec.ofNat 32 jj)).toNat = tbN + 8 * (lbN + k) + jj := by
    simp only [tWord, Scalar.addi, Scalar.muli, IntOp.addi, IntOp.muli, Scf.iv, BitVec.mul_one, BitVec.toNat_add,
      BitVec.toNat_mul, BitVec.toNat_ofNat, htb, hlb, Nat.reducePow, Nat.reduceMod]
    omega
  rw [BitVec.toInt_eq_toNat_of_lt (by rw [hnat]; omega), hnat]

/-- The kernel's cell at global step `t`: `tanh` of the projection's rows `P t` plus the recurrent product. -/
def cellP (P : ℕ → Fin 16 → Fin 128 → EReal) (WhhT : Fin 128 → Fin 128 → EReal) :
    ℕ → (Fin 16 → Fin 128 → EReal) → Fin 16 → Fin 128 → EReal :=
  fun t hh i n => Ideal.tanh (P t i n + ∑ k : Fin 128, hh i k * WhhT k n)

/-- One vector step whose loaded rows are the projection's rows of step `tN` is the masked step at `tN`. -/
theorem rows_stepV_P (whh : FVec Ideal S128x128 .f32) (act : IVec S16x128 32) (t : BitVec 32)
    (pre h : FVec Ideal S16x128 .f32) (actN : Fin 16 → ℕ) (tN : ℕ)
    (hact : ∀ i n, (act (ix2 i n)).toInt = (actN i : ℤ)) (ht : t.toInt = (tN : ℤ))
    (P : ℕ → Fin 16 → Fin 128 → EReal) (hpre : rows pre = P tN) :
    rows (stepV whh act t pre h) = maskedStep actN (cellP P (mat whh)) tN (rows h) := by
  rw [rows_stepV whh act t pre h actN tN hact ht, hpre]
  rfl

/-- ONE TRIP: the eight steps `t_base + 8·(lb + k) + 0, …, + 7` of the masked recurrence. -/
theorem rows_tripV (whh : FVec Ideal S128x128 .f32) (act : IVec S16x128 32) (tb lb : BitVec 32) (tbN lbN k : ℕ)
    (htb : tb.toNat = tbN) (hlb : lb.toNat = lbN) (h1 : tbN ≤ 1600) (h2 : lbN + k ≤ 56)
    (actN : Fin 16 → ℕ) (hact : ∀ i n, (act (ix2 i n)).toInt = (actN i : ℤ))
    (P : ℕ → Fin 16 → Fin 128 → EReal) (ld : Fin 8 → FVec Ideal S16x128 .f32)
    (hld : ∀ jj : Fin 8, rows (ld jj) = P (tbN + 8 * (lbN + k) + jj.val)) (acc : FVec Ideal S16x128 .f32) :
    rows (tripV whh act tb (Scf.iv lb 1#32 k) ld acc)
      = run (maskedStep actN (cellP P (mat whh))) (tbN + 8 * (lbN + k)) 8 (rows acc) := by
  unfold tripV
  rw [run_eight]
  rw [rows_stepV_P whh act _ (ld 7) _ actN _ hact (tWord_toInt tb lb tbN lbN k 7 htb hlb h1 h2 (by omega)) P (hld 7),
    rows_stepV_P whh act _ (ld 6) _ actN _ hact (tWord_toInt tb lb tbN lbN k 6 htb hlb h1 h2 (by omega)) P (hld 6),
    rows_stepV_P whh act _ (ld 5) _ actN _ hact (tWord_toInt tb lb tbN lbN k 5 htb hlb h1 h2 (by omega)) P (hld 5),
    rows_stepV_P whh act _ (ld 4) _ actN _ hact (tWord_toInt tb lb tbN lbN k 4 htb hlb h1 h2 (by omega)) P (hld 4),
    rows_stepV_P whh act _ (ld 3) _ actN _ hact (tWord_toInt tb lb tbN lbN k 3 htb hlb h1 h2 (by omega)) P (hld 3),
    rows_stepV_P whh act _ (ld 2) _ actN _ hact (tWord_toInt tb lb tbN lbN k 2 htb hlb h1 h2 (by omega)) P (hld 2),
    rows_stepV_P whh act _ (ld 1) _ actN _ hact (tWord_toInt tb lb tbN lbN k 1 htb hlb h1 h2 (by omega)) P (hld 1),
    rows_stepV_P whh act _ (ld 0) _ actN _ hact (tWord_toInt tb lb tbN lbN k 0 htb hlb h1 h2 (by omega)) P (hld 0)]

/-- A LOOP OF TRIPS from block `lb`: before trip `k` the carried value is the run of the blocks `lb, …, lb + k - 1`. -/
theorem rows_carried (whh : FVec Ideal S128x128 .f32) (act : IVec S16x128 32) (tb lb : BitVec 32) (tbN lbN n : ℕ)
    (htb : tb.toNat = tbN) (hlb : lb.toNat = lbN) (h1 : tbN ≤ 1600) (h2 : lbN + n ≤ 56)
    (actN : Fin 16 → ℕ) (hact : ∀ i n, (act (ix2 i n)).toInt = (actN i : ℤ))
    (P : ℕ → Fin 16 → Fin 128 → EReal) (ld : Fin n → Fin 8 → FVec Ideal S16x128 .f32)
    (hld : ∀ (j : Fin n) (jj : Fin 8), rows (ld j jj) = P (tbN + 8 * (lbN + j.val) + jj.val))
    (init : FVec Ideal S16x128 .f32) (k : ℕ) (hk : k ≤ n) :
    rows (carried (fun (j : Fin n) acc => tripV whh act tb (Scf.iv lb 1#32 j.val) (ld j) acc) init k)
      = run (fun kb => run (maskedStep actN (cellP P (mat whh))) (tbN + 8 * kb) 8) lbN k (rows init) := by
  induction k with
  | zero => rfl
  | succ k ih =>
    have hkn : k < n := by omega
    rw [carried_succ _ init ⟨k, hkn⟩, run_succ, ← ih (by omega)]
    exact rows_tripV whh act tb lb tbN lbN k htb hlb h1 (by omega) actN hact P (ld ⟨k, hkn⟩) (hld ⟨k, hkn⟩) _

/-- A BODY'S EFFECT ON THE STATE, abstractly: a condition word, a loop of `n` trips from block `lb`, and the integers
    they hold (`cond ↔ mN < t_base + 8·nb`, `lb = nblk0`, `n = nb - nblk0`) make it the chunk of `KernelValue`. -/
theorem rows_region (whh : FVec Ideal S128x128 .f32) (act : IVec S16x128 32) (cond : BitVec 1) (tb lb : BitVec 32)
    (tbN mN nb n : ℕ) (htb : tb.toNat = tbN) (h1 : tbN ≤ 1600) (hnb : nb ≤ 56)
    (hcond : cond = 1#1 ↔ mN < tbN + 8 * nb)
    (hlb : lb.toNat = (nblk0 mN tbN nb).toNat) (hn : n = nb - (nblk0 mN tbN nb).toNat)
    (actN : Fin 16 → ℕ) (hact : ∀ i n, (act (ix2 i n)).toInt = (actN i : ℤ))
    (P : ℕ → Fin 16 → Fin 128 → EReal) (ld : Fin n → Fin 8 → FVec Ideal S16x128 .f32)
    (hld : ∀ (j : Fin n) (jj : Fin 8), rows (ld j jj) = P (tbN + 8 * ((nblk0 mN tbN nb).toNat + j.val) + jj.val))
    (init : FVec Ideal S16x128 .f32) :
    rows (if cond = 1#1
        then carried (fun (j : Fin n) acc => tripV whh act tb (Scf.iv lb 1#32 j.val) (ld j) acc) init n
        else init)
      = chunkK (maskedStep actN (cellP P (mat whh))) mN tbN nb (rows init) := by
  obtain ⟨hle, _⟩ := nblk0_toNat mN tbN nb
  unfold chunkK
  by_cases hc : cond = 1#1
  · rw [if_pos hc, if_pos (hcond.mp hc)]
    unfold blocksFrom
    rw [rows_carried whh act tb lb tbN _ n htb hlb h1 (by omega) actN hact P ld hld init n (le_refl _), hn]
  · rw [if_neg hc, if_neg (fun h => hc (hcond.mpr h))]

/-- THE FIRST CALL'S EFFECT at its grid point: from the state `h` it finds, with `m` holding `mN ≤ 2047` and `ld k jj`
    the rows it loads for step `jj` of trip `k`. -/
def regionA (i : grid2.Coords) (m : BitVec 32) (whh : FVec Ideal S128x128 .f32) (act : IVec S16x128 32)
    (ld : Fin (k2_t1_loop i m).trips → Fin 8 → FVec Ideal S16x128 .f32) (h : FVec Ideal S16x128 .f32) :
    FVec Ideal S16x128 .f32 :=
  if k2_cond2 i m = 1#1
    then carried (fun (j : Fin (k2_t1_loop i m).trips) acc =>
      tripV whh act (tbA i) (Scf.iv (k2_t1_loop i m).lb 1#32 j.val) (ld j) acc) h (k2_t1_loop i m).trips
    else h

/-- The second call's effect at grid point `i`. -/
def regionB (i : grid3.Coords) (m : BitVec 32) (whh : FVec Ideal S128x128 .f32) (act : IVec S16x128 32)
    (ld : Fin (k3_t1_loop i m).trips → Fin 8 → FVec Ideal S16x128 .f32) (h : FVec Ideal S16x128 .f32) :
    FVec Ideal S16x128 .f32 :=
  if k3_cond2 i m = 1#1
    then carried (fun (j : Fin (k3_t1_loop i m).trips) acc =>
      tripV whh act (tbB i) (Scf.iv (k3_t1_loop i m).lb 1#32 j.val) (ld j) acc) h (k3_t1_loop i m).trips
    else h

/-- THE FIRST CALL IS ITS CHUNK: `[256·g, 256·g + 256)` of the masked recurrence, as `KernelValue` runs a chunk. -/
theorem rows_regionA (i : grid2.Coords) (mN : ℕ) (hmN : mN < 2048) (whh : FVec Ideal S128x128 .f32)
    (act : IVec S16x128 32) (actN : Fin 16 → ℕ) (hact : ∀ i n, (act (ix2 i n)).toInt = (actN i : ℤ))
    (P : ℕ → Fin 16 → Fin 128 → EReal)
    (ld : Fin (k2_t1_loop i (BitVec.ofNat 32 mN)).trips → Fin 8 → FVec Ideal S16x128 .f32)
    (hld : ∀ (j : Fin (k2_t1_loop i (BitVec.ofNat 32 mN)).trips) (jj : Fin 8),
      rows (ld j jj) = P (256 * (i 0).val + 8 * ((nblk0 mN (256 * (i 0).val : ℕ) 32).toNat + j.val) + jj.val))
    (h : FVec Ideal S16x128 .f32) :
    rows (regionA i (BitVec.ofNat 32 mN) whh act ld h)
      = chunkK (maskedStep actN (cellP P (mat whh))) mN (256 * (i 0).val) 32 (rows h) := by
  have hi : (i 0).val < 1 := (i 0).isLt
  obtain ⟨hle, _⟩ := nblk0_toNat mN (256 * (i 0).val) 32
  have hlbw : (k2_t1_loop i (BitVec.ofNat 32 mN)).lb = BitVec.ofNat 32 (nblk0 mN (256 * (i 0).val : ℕ) 32).toNat :=
    k2_lb_eq i ⟨mN, hmN⟩
  have htr : (k2_t1_loop i (BitVec.ofNat 32 mN)).trips = 32 - (nblk0 mN (256 * (i 0).val : ℕ) 32).toNat :=
    k2_trips_eq i ⟨mN, hmN⟩
  unfold regionA
  refine rows_region whh act _ (tbA i) _ (256 * (i 0).val) mN 32 _ (tbA_toNat i) (by omega) (by omega)
    (k2_cond2_iff i ⟨mN, hmN⟩) ?_ htr actN hact P ld hld h
  rw [hlbw, BitVec.toNat_ofNat]
  omega

/-- THE SECOND CALL'S GRID POINT `g` IS ITS CHUNK: `[256 + 448·g, 256 + 448·g + 448)`. -/
theorem rows_regionB (i : grid3.Coords) (mN : ℕ) (hmN : mN < 2048) (whh : FVec Ideal S128x128 .f32)
    (act : IVec S16x128 32) (actN : Fin 16 → ℕ) (hact : ∀ i n, (act (ix2 i n)).toInt = (actN i : ℤ))
    (P : ℕ → Fin 16 → Fin 128 → EReal)
    (ld : Fin (k3_t1_loop i (BitVec.ofNat 32 mN)).trips → Fin 8 → FVec Ideal S16x128 .f32)
    (hld : ∀ (j : Fin (k3_t1_loop i (BitVec.ofNat 32 mN)).trips) (jj : Fin 8),
      rows (ld j jj) = P ((256 + 448 * (i 0).val) + 8 * ((nblk0 mN (256 + 448 * (i 0).val : ℕ) 56).toNat + j.val) + jj.val))
    (h : FVec Ideal S16x128 .f32) :
    rows (regionB i (BitVec.ofNat 32 mN) whh act ld h)
      = scanBAt (maskedStep actN (cellP P (mat whh))) mN (i 0).val (rows h) := by
  have hi : (i 0).val < 4 := (i 0).isLt
  obtain ⟨hle, _⟩ := nblk0_toNat mN (256 + 448 * (i 0).val) 56
  have hlbw : (k3_t1_loop i (BitVec.ofNat 32 mN)).lb = BitVec.ofNat 32 (nblk0 mN (256 + 448 * (i 0).val : ℕ) 56).toNat :=
    k3_lb_eq i ⟨mN, hmN⟩
  have htr : (k3_t1_loop i (BitVec.ofNat 32 mN)).trips = 56 - (nblk0 mN (256 + 448 * (i 0).val : ℕ) 56).toNat :=
    k3_trips_eq i ⟨mN, hmN⟩
  unfold regionB scanBAt
  refine rows_region whh act _ (tbB i) _ (256 + 448 * (i 0).val) mN 56 _ (tbB_toNat i) (by omega) (by omega)
    (k3_cond2_iff i ⟨mN, hmN⟩) ?_ htr actN hact P ld hld h
  rw [hlbw, BitVec.toNat_ofNat]
  omega

/-! ## 5. The join -/

/-- With the projection of the inputs `x` as its rows, the kernel's cell is `KernelValue`'s. -/
theorem cellP_eq_cellKt (x : ℕ → Fin 16 → Fin 128 → EReal) (Wih WhhT : Fin 128 → Fin 128 → EReal)
    (bih bhh : Fin 128 → EReal) (P : ℕ → Fin 16 → Fin 128 → EReal)
    (hP : ∀ t i n, P t i n = ∑ k, x t i k * Wih n k + (bih n + bhh n)) :
    cellP P WhhT = cellKt x Wih WhhT bih bhh := by
  funext t hh i n
  show Ideal.tanh (P t i n + ∑ k : Fin 128, hh i k * WhhT k n) = Ideal.tanh (preK Wih WhhT bih bhh (x t i) (hh i) n)
  rw [hP]
  rfl

/-- The second call is its four grid points in order. -/
theorem scanB_eq_four {σ : Type} (f : ℕ → σ → σ) (m : ℕ) (s : σ) :
    scanB f m s = scanBAt f m 3 (scanBAt f m 2 (scanBAt f m 1 (scanBAt f m 0 s))) := rfl

/-- The first call is its one chunk. -/
theorem scanA_eq_chunk {σ : Type} (f : ℕ → σ → σ) (m : ℕ) (s : σ) : scanA f m s = chunkK f m 0 32 s := rfl

/-- THE KERNEL'S RESULT IS THE REFERENCE'S.  `hfin` is the state the second call's last grid point holds when it
    computes the head; its rows are the two calls' chunks from the zero state (the regions' theorems above give this);
    the operand vectors read as the arrays they were made from (the recurrent matrix transposed, the second layer
    padded, `m` below every row's first active step).  Then the head's payload at `(i, c)` is the reference's result. -/
theorem head_eq_G (tokens : IVec Spec.S16x2048 32) (lengths : IVec Spec.S16 32) (emb : FVec Ideal S100000x128 .f32)
    (W_ih : FVec Ideal S128x128 .f32) (b_ih : FVec Ideal Spec.S128 .f32) (W_hh : FVec Ideal S128x128 .f32)
    (b_hh : FVec Ideal Spec.S128 .f32) (W0 : FVec Ideal S256x128 .f32) (b0 : FVec Ideal Spec.S256 .f32)
    (W1 : FVec Ideal Spec.S3x256 .f32) (b1 : FVec Ideal Spec.S3 .f32)
    (htok : ∀ i p, 0 ≤ (tokens (ix2 i p)).toInt ∧ (tokens (ix2 i p)).toInt ≤ 99999)
    (hlen : ∀ i, 0 ≤ (lengths (ix1 i)).toInt)
    (mN : ℕ) (hm : ∀ i, mN ≤ KernelSpec.actOf lengths i)
    (whh : FVec Ideal S128x128 .f32) (hwhh : ∀ k j, mat whh k j = KernelSpec.mat2 W_hh j k)
    (P : ℕ → Fin 16 → Fin 128 → EReal)
    (hP : ∀ t i n, P t i n = ∑ k, KernelSpec.xOf tokens emb t i k * KernelSpec.mat2 W_ih n k
      + (KernelSpec.vec1 b_ih n + KernelSpec.vec1 b_hh n))
    (hfin : FVec Ideal S16x128 .f32)
    (hrows : rows hfin = scanB (maskedStep (KernelSpec.actOf lengths) (cellP P (mat whh))) mN
      (scanA (maskedStep (KernelSpec.actOf lengths) (cellP P (mat whh))) mN (fun _ _ => 0)))
    (v14 : Vec Ideal S256x128 .f32) (v16 : Vec Ideal S1x256 .f32) (v22 : Vec Ideal S128x256 .f32)
    (v25 : Vec Ideal S1x128 .f32)
    (h14 : mat v14 = KernelSpec.mat2 W0) (h16 : bias v16 = KernelSpec.vec1 b0)
    (h22 : mat v22 = padW (KernelSpec.mat2 W1)) (h25 : bias v25 = padB (KernelSpec.vec1 b1))
    (i : Fin 16) (c : Fin 3) :
    k3_pay5 (F := Ideal) hfin v14 v16 v22 v25 (ix2 i c)
      = Spec.G tokens lengths emb W_ih b_ih W_hh b_hh W0 b0 W1 b1 (ix2 i c) := by
  rw [k3_pay5_apply, h14, h16, h22, h25, hrows,
    cellP_eq_cellKt (KernelSpec.xOf tokens emb) (KernelSpec.mat2 W_ih) (mat whh) (KernelSpec.vec1 b_ih)
      (KernelSpec.vec1 b_hh) P hP]
  exact KernelSpec.kernel_value_eq_G tokens lengths emb W_ih b_ih W_hh b_hh W0 b0 W1 b1 htok hlen (mat whh) hwhh mN hm i c

/-! ## 6. The rows a trip loads

  Step `jj` of trip `k` loads sixteen rows of the projection from row `16·(8·(lb + k) + jj)`: the closed form of the
  printed offset chain, from the loop's lower bound. -/

/-- The row offset word of step `jj` of trip `k`, read as a natural number. -/
theorem rowOff_toNat (lb : BitVec 32) (lbN k jj : ℕ) (hlb : lb.toNat = lbN) (h2 : lbN + k ≤ 56) (h3 : jj < 8) :
    (Scalar.indexCast (Scalar.muli (Scalar.addi (Scalar.muli (Scf.iv lb 1#32 k) 8#32) (BitVec.ofNat 32 jj)) 16#32)).toNat
      = 16 * (8 * (lbN + k) + jj) := by
  simp only [Scalar.indexCast, Scalar.addi, Scalar.muli, IntOp.addi, IntOp.muli, Scf.iv, BitVec.mul_one, BitVec.toNat_add,
    BitVec.toNat_mul, BitVec.toNat_ofNat, hlb, Nat.reducePow, Nat.reduceMod]
  omega

/-- THE FIRST CALL'S LOAD OFFSETS in closed form. -/
theorem k2_off1_eq (i : grid2.Coords) (mN : ℕ) (hmN : mN < 2048) (k : Fin (k2_t1_loop i (BitVec.ofNat 32 mN)).trips)
    (r : Fin 8) :
    k2_off1 i (BitVec.ofNat 32 mN) k (BitVec.ofNat 32 r.val)
      = ![16 * (8 * ((nblk0 mN (256 * (i 0).val : ℕ) 32).toNat + k.val) + r.val), 0] := by
  obtain ⟨hle, _⟩ := nblk0_toNat mN (256 * (i 0).val) 32
  have hlbw : (k2_t1_loop i (BitVec.ofNat 32 mN)).lb = BitVec.ofNat 32 (nblk0 mN (256 * (i 0).val : ℕ) 32).toNat :=
    k2_lb_eq i ⟨mN, hmN⟩
  have htr : (k2_t1_loop i (BitVec.ofNat 32 mN)).trips = 32 - (nblk0 mN (256 * (i 0).val : ℕ) 32).toNat :=
    k2_trips_eq i ⟨mN, hmN⟩
  have hk := k.isLt
  have e : k2_off1 i (BitVec.ofNat 32 mN) k (BitVec.ofNat 32 r.val)
      = ![(Scalar.indexCast (Scalar.muli (Scalar.addi (Scalar.muli
          (Scf.iv (k2_t1_loop i (BitVec.ofNat 32 mN)).lb 1#32 k.val) 8#32) (BitVec.ofNat 32 r.val)) 16#32)).toNat, 0] := rfl
  rw [e, rowOff_toNat _ (nblk0 mN (256 * (i 0).val : ℕ) 32).toNat k.val r.val
    (by rw [hlbw, BitVec.toNat_ofNat]; omega) (by omega) r.isLt]

/-- THE SECOND CALL'S LOAD OFFSETS in closed form. -/
theorem k3_off1_eq (i : grid3.Coords) (mN : ℕ) (hmN : mN < 2048) (k : Fin (k3_t1_loop i (BitVec.ofNat 32 mN)).trips)
    (r : Fin 8) :
    k3_off1 i (BitVec.ofNat 32 mN) k (BitVec.ofNat 32 r.val)
      = ![16 * (8 * ((nblk0 mN (256 + 448 * (i 0).val : ℕ) 56).toNat + k.val) + r.val), 0] := by
  obtain ⟨hle, _⟩ := nblk0_toNat mN (256 + 448 * (i 0).val) 56
  have hlbw : (k3_t1_loop i (BitVec.ofNat 32 mN)).lb = BitVec.ofNat 32 (nblk0 mN (256 + 448 * (i 0).val : ℕ) 56).toNat :=
    k3_lb_eq i ⟨mN, hmN⟩
  have htr : (k3_t1_loop i (BitVec.ofNat 32 mN)).trips = 56 - (nblk0 mN (256 + 448 * (i 0).val : ℕ) 56).toNat :=
    k3_trips_eq i ⟨mN, hmN⟩
  have hk := k.isLt
  have e : k3_off1 i (BitVec.ofNat 32 mN) k (BitVec.ofNat 32 r.val)
      = ![(Scalar.indexCast (Scalar.muli (Scalar.addi (Scalar.muli
          (Scf.iv (k3_t1_loop i (BitVec.ofNat 32 mN)).lb 1#32 k.val) 8#32) (BitVec.ofNat 32 r.val)) 16#32)).toNat, 0] := rfl
  rw [e, rowOff_toNat _ (nblk0 mN (256 + 448 * (i 0).val : ℕ) 56).toNat k.val r.val
    (by rw [hlbw, BitVec.toNat_ofNat]; omega) (by omega) r.isLt]

end Cert.Proof.KI.Join

end
-- ==== Proof.ScanAValue.lean ====
/-
  The first recurrence call's body: what its two runs leave in the result window, as terms over the staged inputs —
  the reset state when the chunk is skipped; when it is live, the reset state carried through the blocks from the
  first one with an active step — and which rows of the stored projections each step of a block reads.
-/
import proofs.«205923_g40089224741417_cont_sun_m_110_39_alg».proof.Proof.ScanARuns
import Idealize.ShloMosaic.Lib.WholeRead
import Idealize.ShloMosaic.Lib.ValueIdx

set_option maxRecDepth 8192

noncomputable section

namespace Cert.Proof.KI.ScanA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)
open Idealize.ShloMosaic.Pipeline (Dat Cfg Window BodyObligation BodyObligationLoose cellOf)
open Cert.Proof.KI

variable {F : FTy → Type} [FloatOps F] [Named F]

local notation "𝕄" => MM F

/-! ## What the two runs leave in the result window -/

/-- A load of a whole staging memref through its full rectangle, the memref held at the contents that read `X`, reads `X`. -/
theorem readAt_unit0_unread {κ : Kind} {sp : Space} {s : Shape} {e : EltTy} {m : Memref sig κ sp s e} (h : m.IsWhole) (X : s.Idx → Elt F e)
    (off : Fin s.rank → ℕ) (hoff : ∀ a, off a = 0) (inb : ∀ a, off a + s.size a ≤ s.size a) :
    View.readAt (Elt F) m.view (Rect.unit (s := s) off s.size inb).toLoadRect (h.unread X) = X := by
  funext x
  rw [h.readAt_unread X _ x]
  congr 1
  funext a; apply Fin.ext
  show off a + 1 * (x a).val = (x a).val
  rw [hoff a]; omega

/-- The first block of the chunk with an active step, as the body computes it from the first active step `w`:
    `(w - 256 g) / 8` rounded down, clipped to `[0, 32]`. -/
def blk0 (i : grid2.Coords) (w : BitVec 32) : BitVec 32 :=
  let v31 : BitVec 32 := Scalar.subi w (Scalar.muli (BitVec.ofNat 32 (i 0).val) 256#32)
  let v32 : BitVec 32 := Scalar.divsi v31 8#32
  let v37 : BitVec 32 := Scalar.subi (Scalar.extui (Scalar.cmpi .sgt v31 0#32)) (Scalar.extui (Scalar.cmpi .slt v31 0#32))
  let v46 : BitVec 1 := Scalar.andi (Scalar.cmpi .ne v37 1#32) (Scalar.cmpi .ne (Scalar.remsi v31 8#32) 0#32)
  Scalar.minsi 32#32 (Scalar.maxsi 0#32 (Scalar.select v46 (Scalar.subi v32 1#32) v32))

/-- The block the first loop stops at, as the body computes it: the first block plus the whole trips to 32. -/
def blkEnd (i : grid2.Coords) (w : BitVec 32) : BitVec 32 :=
  Scalar.addi (blk0 i w) (Scalar.muli (Scalar.divsi (Scalar.subi 32#32 (blk0 i w)) 1#32) 1#32)

/-- The skipped chunk leaves the reset state in the result window. -/
theorem runF_val (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S4096x128 .f32) (harg10 : arg10.IsWhole) (x0 : Vec F S4096x128 .f32) (x1 : Vec F S128x128 .f32) (x2 : Vec F S128x128 .f32) (x3 : Vec F S1x128 .f32) (x4 : Vec F S1x128 .f32) (x5 : Vec F S16x128 .i32) (x6 : Vec F S1 .i32)
    (hc : ¬ k2_cond2 i (wordOf arg7 harg7 x6) = 1#1) :
    (runF (F := F) c i arg1 harg1 arg2 harg2 arg3 harg3 arg4 harg4 arg5 harg5 arg6 harg6 arg7 harg7 arg8 harg8 arg9 harg9 arg10 harg10 x0 x1 x2 x3 x4 x5 x6 hc).1 = k2_pay1 := by
  unfold runF
  show arg9.view.readCov [(⟨(Rect.unit (s := S16x128) ![0, 0] S16x128.size inb_S16x128_S16x128_0_0), k2_pay1⟩ : View.Piece (Elt F) S16x128 .f32)] (Rect.unit (s := S16x128) ![0, 0] S16x128.size inb_S16x128_S16x128_0_0).toLoadRect = k2_pay1
  exact View.readCov_cons_toLoadRect (Val := Elt F) _ _ _ _

set_option maxHeartbeats 4000000 in
/-- The live chunk leaves in the result window the reset state carried through the first loop's trips and then the
    remainder loop's, over the projection scratch as stored. -/
theorem runT_val (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S4096x128 .f32) (harg10 : arg10.IsWhole) (x0 : Vec F S4096x128 .f32) (x1 : Vec F S128x128 .f32) (x2 : Vec F S128x128 .f32) (x3 : Vec F S1x128 .f32) (x4 : Vec F S1x128 .f32) (x5 : Vec F S16x128 .i32) (x6 : Vec F S1 .i32)
    (hc : k2_cond2 i (wordOf arg7 harg7 x6) = 1#1) (hchk : k2_chk1 i (wordOf arg7 harg7 x6) (wordOf arg7 harg7 x6)) :
    (runT (F := F) c i arg1 harg1 arg2 harg2 arg3 harg3 arg4 harg4 arg5 harg5 arg6 harg6 arg7 harg7 arg8 harg8 arg9 harg9 arg10 harg10 x0 x1 x2 x3 x4 x5 x6 hc hchk).1
      = k2_pay4 (st2 i arg10 (Scalar.muli (BitVec.ofNat 32 (i 0).val) 256#32) (wordOf arg7 harg7 x6) hc (k2_pay10 x2) (k2_pay11 x5) (wordOf arg7 harg7 x6) hchk (arg10.view.writes (Elt F) arg10.view.junk [⟨Rect.unit (s := S4096x128) ![0, 0] S4096x128.size inb_S4096x128_S4096x128_0_0, k2_pay9 x0 x1 x3 x4⟩]) (blkEnd i (wordOf arg7 harg7 x6))
        (st1 i arg10 (Scalar.muli (BitVec.ofNat 32 (i 0).val) 256#32) (wordOf arg7 harg7 x6) hc (k2_pay10 x2) (k2_pay11 x5) (wordOf arg7 harg7 x6) hchk (arg10.view.writes (Elt F) arg10.view.junk [⟨Rect.unit (s := S4096x128) ![0, 0] S4096x128.size inb_S4096x128_S4096x128_0_0, k2_pay9 x0 x1 x3 x4⟩]) (blk0 i (wordOf arg7 harg7 x6)) k2_pay1 (k2_t1_loop i (wordOf arg7 harg7 x6)).trips)
        (k2_t2_loop i (wordOf arg7 harg7 x6)).trips) := by
  unfold runT
  show arg9.view.readCov ((⟨(Rect.unit (s := S16x128) ![0, 0] S16x128.size inb_S16x128_S16x128_0_0), k2_pay4 (st2 i arg10 (Scalar.muli (BitVec.ofNat 32 (i 0).val) 256#32) (wordOf arg7 harg7 x6) hc (k2_pay10 (View.readAt (Elt F) arg3.view (Rect.unit (s := S128x128) ![0, 0] S128x128.size inb_S128x128_S128x128_0_0).toLoadRect (harg3.unread x2))) (k2_pay11 (View.readAt (Elt F) arg6.view (Rect.unit (s := S16x128) ![0, 0] S16x128.size inb_S16x128_S16x128_0_0).toLoadRect (harg6.unread x5))) (wordOf arg7 harg7 x6) hchk (arg10.view.writes (Elt F) arg10.view.junk [⟨Rect.unit (s := S4096x128) ![0, 0] S4096x128.size inb_S4096x128_S4096x128_0_0, k2_pay9 (View.readAt (Elt F) arg1.view (Rect.unit (s := S4096x128) ![0, 0] S4096x128.size inb_S4096x128_S4096x128_0_0).toLoadRect (harg1.unread x0)) (View.readAt (Elt F) arg2.view (Rect.unit (s := S128x128) ![0, 0] S128x128.size inb_S128x128_S128x128_0_0).toLoadRect (harg2.unread x1)) (View.readAt (Elt F) arg4.view (Rect.unit (s := S1x128) ![0, 0] S1x128.size inb_S1x128_S1x128_0_0).toLoadRect (harg4.unread x3)) (View.readAt (Elt F) arg5.view (Rect.unit (s := S1x128) ![0, 0] S1x128.size inb_S1x128_S1x128_0_0).toLoadRect (harg5.unread x4))⟩]) (blkEnd i (wordOf arg7 harg7 x6))
        (st1 i arg10 (Scalar.muli (BitVec.ofNat 32 (i 0).val) 256#32) (wordOf arg7 harg7 x6) hc (k2_pay10 (View.readAt (Elt F) arg3.view (Rect.unit (s := S128x128) ![0, 0] S128x128.size inb_S128x128_S128x128_0_0).toLoadRect (harg3.unread x2))) (k2_pay11 (View.readAt (Elt F) arg6.view (Rect.unit (s := S16x128) ![0, 0] S16x128.size inb_S16x128_S16x128_0_0).toLoadRect (harg6.unread x5))) (wordOf arg7 harg7 x6) hchk (arg10.view.writes (Elt F) arg10.view.junk [⟨Rect.unit (s := S4096x128) ![0, 0] S4096x128.size inb_S4096x128_S4096x128_0_0, k2_pay9 (View.readAt (Elt F) arg1.view (Rect.unit (s := S4096x128) ![0, 0] S4096x128.size inb_S4096x128_S4096x128_0_0).toLoadRect (harg1.unread x0)) (View.readAt (Elt F) arg2.view (Rect.unit (s := S128x128) ![0, 0] S128x128.size inb_S128x128_S128x128_0_0).toLoadRect (harg2.unread x1)) (View.readAt (Elt F) arg4.view (Rect.unit (s := S1x128) ![0, 0] S1x128.size inb_S1x128_S1x128_0_0).toLoadRect (harg4.unread x3)) (View.readAt (Elt F) arg5.view (Rect.unit (s := S1x128) ![0, 0] S1x128.size inb_S1x128_S1x128_0_0).toLoadRect (harg5.unread x4))⟩]) (blk0 i (wordOf arg7 harg7 x6)) (View.readCov arg9.view [(⟨(Rect.unit (s := S16x128) ![0, 0] S16x128.size inb_S16x128_S16x128_0_0), k2_pay1⟩ : View.Piece (Elt F) S16x128 .f32)] (Rect.unit (s := S16x128) ![0, 0] S16x128.size inb_S16x128_S16x128_0_0).toLoadRect) (k2_t1_loop i (wordOf arg7 harg7 x6)).trips)
        (k2_t2_loop i (wordOf arg7 harg7 x6)).trips)⟩ : View.Piece (Elt F) S16x128 .f32)
      :: [(⟨(Rect.unit (s := S16x128) ![0, 0] S16x128.size inb_S16x128_S16x128_0_0), k2_pay1⟩ : View.Piece (Elt F) S16x128 .f32)]) (Rect.unit (s := S16x128) ![0, 0] S16x128.size inb_S16x128_S16x128_0_0).toLoadRect = _
  refine (View.readCov_cons_toLoadRect (Val := Elt F) _ _ _ _).trans ?_
  have e1 := readAt_unit0_unread (F := F) harg1 x0 ![0, 0] (by intro a; fin_cases a <;> rfl) inb_S4096x128_S4096x128_0_0
  have e2 := readAt_unit0_unread (F := F) harg2 x1 ![0, 0] (by intro a; fin_cases a <;> rfl) inb_S128x128_S128x128_0_0
  have e3 := readAt_unit0_unread (F := F) harg3 x2 ![0, 0] (by intro a; fin_cases a <;> rfl) inb_S128x128_S128x128_0_0
  have e4 := readAt_unit0_unread (F := F) harg4 x3 ![0, 0] (by intro a; fin_cases a <;> rfl) inb_S1x128_S1x128_0_0
  have e5 := readAt_unit0_unread (F := F) harg5 x4 ![0, 0] (by intro a; fin_cases a <;> rfl) inb_S1x128_S1x128_0_0
  have e6 := readAt_unit0_unread (F := F) harg6 x5 ![0, 0] (by intro a; fin_cases a <;> rfl) inb_S16x128_S16x128_0_0
  have e51 : View.readCov arg9.view [(⟨(Rect.unit (s := S16x128) ![0, 0] S16x128.size inb_S16x128_S16x128_0_0), k2_pay1⟩ : View.Piece (Elt F) S16x128 .f32)] (Rect.unit (s := S16x128) ![0, 0] S16x128.size inb_S16x128_S16x128_0_0).toLoadRect = k2_pay1 :=
    View.readCov_cons_toLoadRect (Val := Elt F) _ _ _ _
  rw [e1, e2, e3, e4, e5, e6, e51]

/-- The remainder loop has no trip at a word below 256: it hands on what the first loop left. -/
theorem st2_trips (i : grid2.Coords) (arg10 : Memref sig .tc .vmem S4096x128 .f32) (v3 : BitVec 32) (w : Elt F .i32) (hc : k2_cond2 i w = 1#1)
    (v27 : FVec F S128x128 .f32) (v29 : IVec S16x128 32) (hchk : k2_chk1 i w w) (X : BufTy.Contents (Elt F) arg10.view.ty) (v56 : BitVec 32)
    (init : Vec F S16x128 .f32) (hn : w.toNat < 256) :
    st2 i arg10 v3 w hc v27 v29 w hchk X v56 init (k2_t2_loop i w).trips = init := by
  rw [trips2_at i w hn]; rfl

/-! ## The rows a step reads -/

theorem off_val : ∀ (b : Fin 32) (k : Fin 32) (r : Fin 8), b.val + k.val < 32 →
    (Scalar.indexCast (Scalar.muli (Scalar.addi (Scalar.muli (Scf.iv (BitVec.ofNat 32 b.val) 1#32 k.val) 8#32) (BitVec.ofNat 32 r.val)) 16#32)).toNat
      = 16 * (8 * (b.val + k.val) + r.val) := by
  decide +kernel

/-- The row offset of step `r` of block `k` of the first loop, at a word below 256: `16 (8 (w / 8 + k) + r)`. -/
theorem off1_at (i : grid2.Coords) (w : BitVec 32) (hn : w.toNat < 256) (k : Fin (k2_t1_loop i w).trips) (r : Fin 8) :
    k2_off1 i w k (BitVec.ofNat 32 r.val) = ![16 * (8 * (w.toNat / 8 + k.val) + r.val), 0] := by
  obtain ⟨hlb, hub, hst⟩ := loop1_at i w hn
  have hk : k.val < 32 - w.toNat / 8 := (trips1_at i w hn) ▸ k.isLt
  have h := off_val ⟨w.toNat / 8, by omega⟩ ⟨k.val, by omega⟩ r (by show w.toNat / 8 + k.val < 32; omega)
  have hoff : k2_off1 i w k (BitVec.ofNat 32 r.val)
      = ![(Scalar.indexCast (Scalar.muli (Scalar.addi (Scalar.muli (Scf.iv (k2_t1_loop i w).lb 1#32 k.val) 8#32) (BitVec.ofNat 32 r.val)) 16#32)).toNat, 0] := rfl
  rw [hoff, hlb, h]

/-- Reading back a buffer's view after one store that covers it whole: the stored value. -/
theorem read_writes_whole4096 {κ : Kind} {sp : Space} (v : View sig κ sp S4096x128 .f32) (f : v.ty.Contents (Elt F)) (P : Vec F S4096x128 .f32) :
    v.read (Elt F) (v.writes (Elt F) f [⟨Rect.unit (s := S4096x128) ![0, 0] S4096x128.size inb_S4096x128_S4096x128_0_0, P⟩]) = P := by
  funext y
  have hy : (Rect.unit (s := S4096x128) ![0, 0] S4096x128.size inb_S4096x128_S4096x128_0_0).emb y = y := by
    funext a; apply Fin.ext
    show (![0, 0] : Fin 2 → ℕ) a + 1 * (y a : ℕ) = y a
    fin_cases a <;> simp
  conv_lhs => rw [← hy]
  exact View.read_writes_cons_emb _ _ _ _ _ _

/-- Step `r` of block `k` of the first loop reads rows `16 (8 (w / 8 + k) + r) …` of what the projection scratch was
    stored with. -/
theorem rows1_at (i : grid2.Coords) (arg10 : Memref sig .tc .vmem S4096x128 .f32) (w : Elt F .i32) (hc : k2_cond2 i w = 1#1) (hchk : k2_chk1 i w w)
    (P : Vec F S4096x128 .f32) (hn : w.toNat < 256) (k : Fin (k2_t1_loop i w).trips) (r : Fin 8) (y : S16x128.Idx) :
    ∃ hy, rows1 i arg10 w hc w hchk (arg10.view.writes (Elt F) arg10.view.junk [⟨Rect.unit (s := S4096x128) ![0, 0] S4096x128.size inb_S4096x128_S4096x128_0_0, P⟩]) k r y
      = P (ValueIdx.ix2 (⟨16 * (8 * (w.toNat / 8 + k.val) + r.val) + (y 0).val, hy⟩ : Fin 4096) (y 1)) := by
  have hoff := off1_at i w hn k r
  have hy0 : (y 0).val < 16 := (y 0).isLt
  have hk : k.val < 32 - w.toNat / 8 := (trips1_at i w hn) ▸ k.isLt
  have hr := r.isLt
  refine ⟨by omega, ?_⟩
  unfold rows1
  rw [View.readAt_unit_congr_cast arg10.view hoff, View.readAt_apply, read_writes_whole4096]
  congr 1
  funext a
  match a with
  | ⟨0, _⟩ => exact Fin.ext (by show 16 * (8 * (w.toNat / 8 + k.val) + r.val) + 1 * (y 0).val = 16 * (8 * (w.toNat / 8 + k.val) + r.val) + (y 0).val; omega)
  | ⟨1, _⟩ => exact Fin.ext (by show 0 + 1 * (y 1).val = (y 1).val; omega)

end Cert.Proof.KI.ScanA

end
-- ==== Proof.ScanABridge.lean ====
/-
  The first recurrence call's result joined to the masked recurrence: the carried state of the body's first loop is
  the carried value of its trips, a trip is eight steps in order, the remainder loop has no trip; so what the live
  chunk leaves in the result window is the first call's effect on the zero state, and — the rows each step loads
  being the stored projections' rows of that step — the result array's rows are the first call's chunk of the masked
  recurrence from zero. The skipped chunk leaves the zero state, which is that chunk too.
-/
import proofs.«205923_g40089224741417_cont_sun_m_110_39_alg».proof.Proof.ScanA
import proofs.«205923_g40089224741417_cont_sun_m_110_39_alg».proof.Proof.ScanAValue
import proofs.«205923_g40089224741417_cont_sun_m_110_39_alg».proof.Proof.KernelJoin

set_option maxRecDepth 8192

noncomputable section

namespace Cert.Proof.KI.ScanA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)
open Idealize.ShloMosaic.Pipeline (Dat Cfg Window BodyObligation BodyObligationLoose cellOf)
open Cert.Proof.KI

/-! ## The first loop's carried state is the trips' carried value -/

/-- One trip of the first loop is the eight steps in order. -/
theorem tripF1_eq (i : grid2.Coords) (arg10 : Memref sig .tc .vmem S4096x128 .f32) (w : Elt Ideal .i32) (hc : k2_cond2 i w = 1#1)
    (v27 : FVec Ideal S128x128 .f32) (v29 : IVec S16x128 32) (hchk : k2_chk1 i w w) (X : BufTy.Contents (Elt Ideal) arg10.view.ty) (v50 : BitVec 32)
    (k : Fin (k2_t1_loop i w).trips) (acc : Vec Ideal S16x128 .f32) :
    tripF1 (F := Ideal) i arg10 (Scalar.muli (BitVec.ofNat 32 (i 0).val) 256#32) w hc v27 v29 w hchk X v50 k acc
      = Join.tripV v27 v29 (Words.tbA i) (Scf.iv v50 1#32 k.val) (rows1 i arg10 w hc w hchk X k) acc :=
  Join.k2_trip1_eq i v27 v29 w v50 1#32 k (rows1 i arg10 w hc w hchk X k) acc

/-- The carried state before trip `k` of the first loop is the carried value of the trips `0 … k - 1`. -/
theorem st1_eq_carried (i : grid2.Coords) (arg10 : Memref sig .tc .vmem S4096x128 .f32) (w : Elt Ideal .i32) (hc : k2_cond2 i w = 1#1)
    (v27 : FVec Ideal S128x128 .f32) (v29 : IVec S16x128 32) (hchk : k2_chk1 i w w) (X : BufTy.Contents (Elt Ideal) arg10.view.ty) (v50 : BitVec 32)
    (init : Vec Ideal S16x128 .f32) (k : ℕ) (hk : k ≤ (k2_t1_loop i w).trips) :
    st1 (F := Ideal) i arg10 (Scalar.muli (BitVec.ofNat 32 (i 0).val) 256#32) w hc v27 v29 w hchk X v50 init k
      = Join.carried (fun (j : Fin (k2_t1_loop i w).trips) acc =>
          Join.tripV v27 v29 (Words.tbA i) (Scf.iv v50 1#32 j.val) (rows1 i arg10 w hc w hchk X j) acc) init k := by
  induction k with
  | zero => rfl
  | succ k ih =>
    have h : k < (k2_t1_loop i w).trips := by omega
    have e1 := st1_succ (F := Ideal) i arg10 (Scalar.muli (BitVec.ofNat 32 (i 0).val) 256#32) w hc v27 v29 w hchk X v50 init ⟨k, h⟩
    have e2 := Join.carried_succ (fun (j : Fin (k2_t1_loop i w).trips) acc =>
          Join.tripV v27 v29 (Words.tbA i) (Scf.iv v50 1#32 j.val) (rows1 i arg10 w hc w hchk X j) acc) init ⟨k, h⟩
    refine e1.trans (Eq.trans ?_ e2.symm)
    rw [tripF1_eq, ih (by omega)]

/-- The printed clip chain is the first loop's lower bound. -/
theorem blk0_eq_lb (i : grid2.Coords) (w : BitVec 32) : blk0 i w = (k2_t1_loop i w).lb := rfl

/-- The remainder loop hands on its initial value when it has no trip. -/
theorem st2_notrip (i : grid2.Coords) (arg10 : Memref sig .tc .vmem S4096x128 .f32) (v3 : BitVec 32) (w : Elt Ideal .i32) (hc : k2_cond2 i w = 1#1)
    (v27 : FVec Ideal S128x128 .f32) (v29 : IVec S16x128 32) (hchk : k2_chk1 i w w) (X : BufTy.Contents (Elt Ideal) arg10.view.ty) (v56 : BitVec 32)
    (init : Vec Ideal S16x128 .f32) (h0 : (k2_t2_loop i w).trips = 0) :
    st2 (F := Ideal) i arg10 v3 w hc v27 v29 w hchk X v56 init (k2_t2_loop i w).trips = init := by
  rw [h0]; rfl

/-! ## The live chunk's result is the first call's effect on the reset state -/

/-- The rows a step reads, from the closed form of its offset: rows `a …` of what the projection scratch was stored with. -/
theorem rows1_of_off (i : grid2.Coords) (arg10 : Memref sig .tc .vmem S4096x128 .f32) (w : Elt Ideal .i32) (hc : k2_cond2 i w = 1#1) (hchk : k2_chk1 i w w)
    (P : Vec Ideal S4096x128 .f32) (k : Fin (k2_t1_loop i w).trips) (r : Fin 8) (a : ℕ)
    (hoff : k2_off1 i w k (BitVec.ofNat 32 r.val) = ![a, 0]) (y : S16x128.Idx) :
    ∃ hy, rows1 (F := Ideal) i arg10 w hc w hchk (arg10.view.writes (Elt Ideal) arg10.view.junk [⟨Rect.unit (s := S4096x128) ![0, 0] S4096x128.size inb_S4096x128_S4096x128_0_0, P⟩]) k r y
      = P (ValueIdx.ix2 (⟨a + (y 0).val, hy⟩ : Fin 4096) (y 1)) := by
  have hy0 : (y 0).val < 16 := (y 0).isLt
  have hin := k2_off1_inb i w w hchk k hc r 0
  rw [hoff] at hin
  have hin' : a + 16 ≤ 4096 := hin
  refine ⟨by omega, ?_⟩
  unfold rows1
  rw [View.readAt_unit_congr_cast arg10.view hoff, View.readAt_apply, read_writes_whole4096]
  congr 1
  funext b
  match b with
  | ⟨0, _⟩ => exact Fin.ext (by show a + 1 * (y 0).val = a + (y 0).val; omega)
  | ⟨1, _⟩ => exact Fin.ext (by show 0 + 1 * (y 1).val = (y 1).val; omega)

set_option maxHeartbeats 4000000 in
/-- The live chunk leaves in the result window the first call's effect, as the join states it, on the reset state. -/
theorem runT_regionA (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S4096x128 .f32) (harg10 : arg10.IsWhole) (x0 : Vec Ideal S4096x128 .f32) (x1 : Vec Ideal S128x128 .f32) (x2 : Vec Ideal S128x128 .f32) (x3 : Vec Ideal S1x128 .f32) (x4 : Vec Ideal S1x128 .f32) (x5 : Vec Ideal S16x128 .i32) (x6 : Vec Ideal S1 .i32)
    (hc : k2_cond2 i (wordOf arg7 harg7 x6) = 1#1) (hchk : k2_chk1 i (wordOf arg7 harg7 x6) (wordOf arg7 harg7 x6))
    (h0 : (k2_t2_loop i (wordOf arg7 harg7 x6)).trips = 0) :
    (runT (F := Ideal) c i arg1 harg1 arg2 harg2 arg3 harg3 arg4 harg4 arg5 harg5 arg6 harg6 arg7 harg7 arg8 harg8 arg9 harg9 arg10 harg10 x0 x1 x2 x3 x4 x5 x6 hc hchk).1
      = Join.regionA i (wordOf arg7 harg7 x6) x2 x5
          (fun j => rows1 (F := Ideal) i arg10 (wordOf arg7 harg7 x6) hc (wordOf arg7 harg7 x6) hchk (arg10.view.writes (Elt Ideal) arg10.view.junk [⟨Rect.unit (s := S4096x128) ![0, 0] S4096x128.size inb_S4096x128_S4096x128_0_0, k2_pay9 (F := Ideal) x0 x1 x3 x4⟩]) j)
          (k2_pay1 (F := Ideal)) := by
  rw [runT_val, Payloads.k2_pay4_eq, Payloads.k2_pay10_eq, Payloads.k2_pay11_eq, st2_notrip _ _ _ _ _ _ _ _ _ _ _ h0,
    st1_eq_carried _ _ _ _ _ _ _ _ _ _ _ (le_refl _), blk0_eq_lb]
  unfold Join.regionA
  rw [if_pos hc]

/-! ## The result window's rows are the first call's chunk of the masked recurrence from zero -/

/-- The word the body reads is the SMEM window's one cell. -/
theorem wordOf_eq (arg7 : Memref sig .tc .smem S1 .i32) (harg7 : arg7.IsWhole) (x6 : Vec Ideal S1 .i32) :
    wordOf (F := Ideal) arg7 harg7 x6 = x6 (ValueIdx.ix1 (0 : Fin 1)) := by
  unfold wordOf
  rw [harg7.readAt_unread x6 _ _]
  congr 1
  funext a
  match a with
  | ⟨0, _⟩ => rfl

/-- The reset state by rows: zero. -/
theorem rows_pay1 : Payloads.rows (k2_pay1 (F := Ideal)) = fun _ _ => 0 := by
  funext r n; exact Payloads.k2_pay1_apply _

/-- The one grid point. -/
theorem i0_eq (i : grid2.Coords) : (i 0).val = 0 := by
  have h : (i 0).val < 1 := (i 0).isLt
  omega

set_option maxHeartbeats 4000000 in
/-- THE LIVE CHUNK: the result window's rows are the first call's chunk of the masked recurrence from the zero state. -/
theorem rows_runT (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S4096x128 .f32) (harg10 : arg10.IsWhole) (x0 : Vec Ideal S4096x128 .f32) (x1 : Vec Ideal S128x128 .f32) (x2 : Vec Ideal S128x128 .f32) (x3 : Vec Ideal S1x128 .f32) (x4 : Vec Ideal S1x128 .f32) (x5 : Vec Ideal S16x128 .i32) (x6 : Vec Ideal S1 .i32)
    (hc : k2_cond2 i (wordOf arg7 harg7 x6) = 1#1) (hchk : k2_chk1 i (wordOf arg7 harg7 x6) (wordOf arg7 harg7 x6))
    (mN : ℕ) (hmN : mN < 2048) (hm : (x6 (ValueIdx.ix1 (0 : Fin 1))).toInt = (mN : ℤ))
    (actN : Fin 16 → ℕ) (hact : ∀ r n, (x5 (ValueIdx.ix2 r n)).toInt = (actN r : ℤ))
    (P : ℕ → Fin 16 → Fin 128 → EReal)
    (hP : ∀ (t : ℕ) (ht : t < 256) (r : Fin 16) (n : Fin 128),
      k2_pay9 (F := Ideal) x0 x1 x3 x4 (ValueIdx.ix2 (⟨16 * t + r.val, by have := r.isLt; omega⟩ : Fin 4096) n) = P t r n) :
    Payloads.rows (runT (F := Ideal) c i arg1 harg1 arg2 harg2 arg3 harg3 arg4 harg4 arg5 harg5 arg6 harg6 arg7 harg7 arg8 harg8 arg9 harg9 arg10 harg10 x0 x1 x2 x3 x4 x5 x6 hc hchk).1
      = KernelValue.scanA (KernelValue.maskedStep actN (Join.cellP P (Payloads.mat x2))) mN (fun _ _ => 0) := by
  have hw : wordOf (F := Ideal) arg7 harg7 x6 = BitVec.ofNat 32 mN :=
    Words.eq_ofNat_of_toInt _ mN (by rw [wordOf_eq]; exact hm)
  have h0 : (k2_t2_loop i (wordOf (F := Ideal) arg7 harg7 x6)).trips = 0 := by rw [hw]; exact Words.k2_trips2_eq i ⟨mN, hmN⟩
  rw [runT_regionA c i arg1 harg1 arg2 harg2 arg3 harg3 arg4 harg4 arg5 harg5 arg6 harg6 arg7 harg7 arg8 harg8 arg9 harg9 arg10 harg10 x0 x1 x2 x3 x4 x5 x6 hc hchk h0]
  generalize wordOf (F := Ideal) arg7 harg7 x6 = w at hc hchk hw h0 ⊢
  subst hw
  have hi := i0_eq i
  have hnb := KernelValue.nblk0_toNat mN (256 * (i 0).val) 32
  have htr : (k2_t1_loop i (BitVec.ofNat 32 mN)).trips = 32 - (KernelValue.nblk0 mN (256 * (i 0).val : ℕ) 32).toNat :=
    Words.k2_trips_eq i ⟨mN, hmN⟩
  rw [Join.rows_regionA i mN hmN x2 x5 actN hact P _ ?hld, rows_pay1, hi]
  · rfl
  case hld =>
    intro j jj
    have hj := j.isLt
    funext r n
    obtain ⟨hy, e⟩ := rows1_of_off i arg10 (BitVec.ofNat 32 mN) hc hchk (k2_pay9 (F := Ideal) x0 x1 x3 x4) j jj _
      (Join.k2_off1_eq i mN hmN j jj) (ValueIdx.ix2 r n)
    show rows1 (F := Ideal) i arg10 (BitVec.ofNat 32 mN) hc (BitVec.ofNat 32 mN) hchk _ j jj (ValueIdx.ix2 r n) = _
    rw [e]
    have ht : 8 * ((KernelValue.nblk0 mN (256 * (i 0).val : ℕ) 32).toNat + j.val) + jj.val < 256 := by
      have := jj.isLt; omega
    have hp := hP _ ht r n
    exact hp.trans (congrArg (fun t => P t r n) (by rw [hi]; omega))

/-- THE SKIPPED CHUNK: the reset state's rows are the first call's chunk, which leaves the state alone. -/
theorem rows_runF (c : Dev nD) (i : grid2.Coords) (arg1 : Memref sig .tc .vmem S4096x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S16x128 .i32) (harg6 : arg6.IsWhole) (arg7 : Memref sig .tc .smem S1 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S4096x128 .f32) (harg10 : arg10.IsWhole) (x0 : Vec Ideal S4096x128 .f32) (x1 : Vec Ideal S128x128 .f32) (x2 : Vec Ideal S128x128 .f32) (x3 : Vec Ideal S1x128 .f32) (x4 : Vec Ideal S1x128 .f32) (x5 : Vec Ideal S16x128 .i32) (x6 : Vec Ideal S1 .i32)
    (hc : ¬ k2_cond2 i (wordOf arg7 harg7 x6) = 1#1)
    (mN : ℕ) (hmN : mN < 2048) (hm : (x6 (ValueIdx.ix1 (0 : Fin 1))).toInt = (mN : ℤ))
    (actN : Fin 16 → ℕ) (P : ℕ → Fin 16 → Fin 128 → EReal) :
    Payloads.rows (runF (F := Ideal) c i arg1 harg1 arg2 harg2 arg3 harg3 arg4 harg4 arg5 harg5 arg6 harg6 arg7 harg7 arg8 harg8 arg9 harg9 arg10 harg10 x0 x1 x2 x3 x4 x5 x6 hc).1
      = KernelValue.scanA (KernelValue.maskedStep actN (Join.cellP P (Payloads.mat x2))) mN (fun _ _ => 0) := by
  have hw : wordOf (F := Ideal) arg7 harg7 x6 = BitVec.ofNat 32 mN :=
    Words.eq_ofNat_of_toInt _ mN (by rw [wordOf_eq]; exact hm)
  have hi := i0_eq i
  have hlt : ¬ mN < 0 + 8 * 32 := by
    intro h
    refine hc ?_
    rw [hw]
    exact (Words.k2_cond2_iff i ⟨mN, hmN⟩).mpr (by show mN < 256 * (i 0).val + 8 * 32; omega)
  rw [runF_val, rows_pay1]
  unfold KernelValue.scanA KernelValue.chunkK
  rw [if_neg hlt]

/-! ## The region's result array -/

set_option maxHeartbeats 4000000 in
/-- THE FIRST RECURRENCE CALL'S RESULT, by rows: the first call's chunk of the masked recurrence from the zero state —
    given the first active step as a number, each row's first active step as a number, and the stored projections
    as the step-by-step rows `P`. -/
theorem rows_arrAt_out (c : Dev nD) (Vv : (b : Ref sig .tc) → Buf (Elt Ideal) ((c.tc : Thread nD τ).loc b))
    (mN : ℕ) (hmN : mN < 2048) (hm : ((Vv main_v19 : S1.Idx → BitVec 32) (ValueIdx.ix1 (0 : Fin 1))).toInt = (mN : ℤ))
    (actN : Fin 16 → ℕ) (hact : ∀ r n, ((Vv main_v7 : S16x128.Idx → BitVec 32) (ValueIdx.ix2 r n)).toInt = (actN r : ℤ))
    (P : ℕ → Fin 16 → Fin 128 → EReal)
    (hP : ∀ (t : ℕ) (ht : t < 256) (r : Fin 16) (n : Fin 128),
      k2_pay9 (F := Ideal) (Vv main_v2) (Vv main_arg3) (Vv main_v21) (Vv main_v22)
        (ValueIdx.ix2 (⟨16 * t + r.val, by have := r.isLt; omega⟩ : Fin 4096) n) = P t r n) :
    Payloads.rows ((datK c Vv).arrAt (7 : Fin cfg2.W) cfg2.N)
      = KernelValue.scanA (KernelValue.maskedStep actN (Join.cellP P (Payloads.mat (Vv main_v20)))) mN (fun _ _ => 0) := by
  have hwd : wordAt c Vv t2_0 = Vv main_v19 (ValueIdx.ix1 0) := wordAt_eq c Vv t2_0
  have hx6 : ((iblk c Vv 6 t2_0 : Vec Ideal S1 .i32) (ValueIdx.ix1 (0 : Fin 1))).toInt = (mN : ℤ) := by
    rw [← wordOf_eq (ms2_6 t2_0) (hs2_6 t2_0) (iblk c Vv 6 t2_0)]
    show (wordAt c Vv t2_0).toInt = _
    rw [hwd]; exact hm
  have hle : (wordAt c Vv t2_0).toNat ≤ 2047 :=
    toNat_le_of_toInt _ (by rw [hwd, hm]; constructor <;> omega)
  have hx5 : ∀ r n, ((iblk c Vv 5 t2_0 : Vec Ideal S16x128 .i32) (ValueIdx.ix2 r n)).toInt = (actN r : ℤ) := fun r n => by
    rw [congrFun (iblk5_eq c Vv t2_0) (ValueIdx.ix2 r n)]; exact hact r n
  have hx9 : ∀ (t : ℕ) (ht : t < 256) (r : Fin 16) (n : Fin 128),
      k2_pay9 (F := Ideal) (iblk c Vv 0 t2_0) (iblk c Vv 1 t2_0) (iblk c Vv 3 t2_0) (iblk c Vv 4 t2_0)
        (ValueIdx.ix2 (⟨16 * t + r.val, by have := r.isLt; omega⟩ : Fin 4096) n) = P t r n := fun t ht r n => by
    rw [iblk0_eq, iblk1_eq, iblk3_eq, iblk4_eq]; exact hP t ht r n
  rw [arrAt_out]
  unfold outAt
  split
  · rename_i hc
    split
    · rename_i hk
      rw [rows_runT c (grid2.coords t2_0) (ms2_0 t2_0) (hs2_0 t2_0) (ms2_1 t2_0) (hs2_1 t2_0) (ms2_2 t2_0) (hs2_2 t2_0) (ms2_3 t2_0) (hs2_3 t2_0) (ms2_4 t2_0) (hs2_4 t2_0) (ms2_5 t2_0) (hs2_5 t2_0) (ms2_6 t2_0) (hs2_6 t2_0) (ms2_7 t2_0) (hs2_7 t2_0) scM0 (Memref.isWhole_whole _) scM1 (Memref.isWhole_whole _) (iblk c Vv 0 t2_0) (iblk c Vv 1 t2_0) (iblk c Vv 2 t2_0) (iblk c Vv 3 t2_0) (iblk c Vv 4 t2_0) (iblk c Vv 5 t2_0) (iblk c Vv 6 t2_0) hc hk mN hmN hx6 actN hx5 P hx9, iblk2_eq]
    · rename_i hk
      exact absurd (chk1_of_le _ _ hle hc) hk
  · rename_i hc
    rw [rows_runF c (grid2.coords t2_0) (ms2_0 t2_0) (hs2_0 t2_0) (ms2_1 t2_0) (hs2_1 t2_0) (ms2_2 t2_0) (hs2_2 t2_0) (ms2_3 t2_0) (hs2_3 t2_0) (ms2_4 t2_0) (hs2_4 t2_0) (ms2_5 t2_0) (hs2_5 t2_0) (ms2_6 t2_0) (hs2_6 t2_0) (ms2_7 t2_0) (hs2_7 t2_0) scM0 (Memref.isWhole_whole _) scM1 (Memref.isWhole_whole _) (iblk c Vv 0 t2_0) (iblk c Vv 1 t2_0) (iblk c Vv 2 t2_0) (iblk c Vv 3 t2_0) (iblk c Vv 4 t2_0) (iblk c Vv 5 t2_0) (iblk c Vv 6 t2_0) hc mN hmN hx6 actN P, iblk2_eq]

end Cert.Proof.KI.ScanA

end
-- ==== Proof.ValueJoin.lean ====
/-
  The last join of the value: the idealized kernel's result array is the reference's function of the launch's
  arguments. The end of the argument is here in full: the kernel's head on the state its two chunked, step-skipping
  calls leave is the reference's result, once the operands the regions read are the launch's arguments (the
  recurrent weights transposed, the first active step below every row's, the tokens and lengths in range). What the
  two recurrence regions compute enters as two named statements about the arrays they leave.
-/
import proofs.«205923_g40089224741417_cont_sun_m_110_39_alg».proof.Proof.HostOps
import proofs.«205923_g40089224741417_cont_sun_m_110_39_alg».proof.Proof.Launch
import proofs.«205923_g40089224741417_cont_sun_m_110_39_alg».proof.Proof.KernelSpec
import proofs.«205923_g40089224741417_cont_sun_m_110_39_alg».proof.Proof.KernelPayloads
import proofs.«205923_g40089224741417_cont_sun_m_110_39_alg».proof.Proof.KernelJoin
import proofs.«205923_g40089224741417_cont_sun_m_110_39_alg».proof.Proof.ScanABridge
import proofs.«205923_g40089224741417_cont_sun_m_110_39_alg».proof.Proof.Spec

noncomputable section

namespace Cert.Proof.KI.ValueJoin

open Cert.KernelIdeal Cert.KernelIdeal.Gen
open Idealize.ShloMosaic Idealize.ShloMosaic.ValueIdx
open Cert.Proof.KernelValue Cert.Proof.KernelSpec Cert.Proof.KI.HostOps

variable (m : (ℓ : Loc nD τ sig) → Buf (Elt Ideal) ℓ) (c : Dev nD)

/-! ## The launch's arguments on device `c`, at their array types -/

abbrev tokens : IVec S16x2048 32 := m ((c.tc : Thread nD τ).loc main_arg0)
abbrev lengths : IVec S16 32 := m ((c.tc : Thread nD τ).loc main_arg1)
abbrev emb : FVec Ideal S100000x128 .f32 := m ((c.tc : Thread nD τ).loc main_arg2)
abbrev W_ih : FVec Ideal S128x128 .f32 := m ((c.tc : Thread nD τ).loc main_arg3)
abbrev b_ih : FVec Ideal S128 .f32 := m ((c.tc : Thread nD τ).loc main_arg4)
abbrev W_hh : FVec Ideal S128x128 .f32 := m ((c.tc : Thread nD τ).loc main_arg5)
abbrev b_hh : FVec Ideal S128 .f32 := m ((c.tc : Thread nD τ).loc main_arg6)
abbrev W0 : FVec Ideal S256x128 .f32 := m ((c.tc : Thread nD τ).loc main_arg7)
abbrev b0 : FVec Ideal S256 .f32 := m ((c.tc : Thread nD τ).loc main_arg8)
abbrev W1 : FVec Ideal S3x256 .f32 := m ((c.tc : Thread nD τ).loc main_arg9)
abbrev b1 : FVec Ideal S3 .f32 := m ((c.tc : Thread nD τ).loc main_arg10)

/-! ## The kernel's recurrence over the launch's arguments -/

/-- The recurrent weights as the regions read them: transposed. -/
def WhhT : Fin 128 → Fin 128 → EReal := fun k j => mat2 (W_hh m c) j k

/-- One masked step of the kernel at step `t`, by rows. -/
def fK : ℕ → (Fin 16 → Fin 128 → EReal) → Fin 16 → Fin 128 → EReal :=
  maskedStep (actOf (lengths m c))
    (cellKt (xOf (tokens m c) (emb m c)) (mat2 (W_ih m c)) (WhhT m c) (vec1 (b_ih m c)) (vec1 (b_hh m c)))

/-- The first step at which any row is active. -/
def mK : ℕ := 2048 - (maxLen (lengths m c)).toNat

/-! ## The end of the join -/

/-- A word below 100000 unsigned is in `[0, 99999]` signed. -/
theorem toInt_range_of_toNat_lt (v : BitVec 32) (h : v.toNat < 100000) : 0 ≤ v.toInt ∧ v.toInt ≤ 99999 := by
  have e := BitVec.toInt_eq_toNat_cond v
  split at e <;> omega

/-- The first active step is at or below every row's. -/
theorem mK_le_act (hlen : ∀ i : S16.Idx, 1 ≤ (lengths m c i).toInt ∧ (lengths m c i).toInt ≤ 2048) (i : Fin 16) :
    mK m c ≤ actOf (lengths m c) i := by
  obtain ⟨-, hle, -, -⟩ := mStep_toNat (lengths m c) hlen
  have h1 := hle (ix1 i)
  have h2 := hlen (ix1 i)
  have e := BitVec.toInt_eq_toNat_cond (lengths m c (ix1 i))
  have := (lengths m c (ix1 i)).isLt
  unfold mK actOf
  split at e <;> omega

/-- THE END: if the first region leaves the state the kernel's first call computes from zero, and the second leaves
    the kernel's head on the state its four chunks compute from that, the result is the reference's. -/
theorem join_end [Cert.Pre_input_domain.Facts] (h : PreM m) (A : S16x128.Idx → EReal) (O : S16x3.Idx → EReal)
    (HA : KernelSpec.rowsOf A = scanA (fK m c) (mK m c) (fun _ _ => 0))
    (HB : ∀ i cl, O (ix2 i cl)
      = headK (mat2 (W0 m c)) (vec1 (b0 m c)) (padW (mat2 (W1 m c))) (padB (vec1 (b1 m c)))
          (scanB (fK m c) (mK m c) (KernelSpec.rowsOf A) i) cl) :
    O = Spec.G (tokens m c) (lengths m c) (emb m c) (W_ih m c) (b_ih m c) (W_hh m c) (b_hh m c) (W0 m c) (b0 m c)
          (W1 m c) (b1 m c) := by
  have hlen := lengths_range m h c
  funext j
  obtain ⟨i, cl, rfl⟩ : ∃ i cl, j = ix2 i cl := ⟨j 0, j 1, eq_ix2 j⟩
  rw [HB, HA]
  exact kernel_value_eq_G (tokens m c) (lengths m c) (emb m c) (W_ih m c) (b_ih m c) (W_hh m c) (b_hh m c) (W0 m c)
    (b0 m c) (W1 m c) (b1 m c) (fun i p => toInt_range_of_toNat_lt _ (tokens_lt m h c _))
    (fun i => by have hl : 1 ≤ (lengths m c (ix1 i)).toInt ∧ (lengths m c (ix1 i)).toInt ≤ 2048 := hlen (ix1 i); omega) (WhhT m c) (fun _ _ => rfl) (mK m c) (mK_le_act m c hlen) i cl

/-! ## The valuations the two regions are entered from, at their operands

The first region is entered from the valuation after the second host stretch; its operands are read in the host
operations' module. The second is entered after the first region and the two bias rows' staging: the first region
leaves every array but its result as it found it, and the staging writes two rows only. -/

section Operands

open Cert.Proof.KI
open Idealize.ShloMosaic.StableHlo (after)

/-- The second region's entry valuation at a reference that is no array of the first region and that the staging
    does not write: as before the first region. -/
theorem WC_of_WB (r : Ref sig .tc) (hC : r ∉ opsC_W) (h2 : ∀ w, Pipeline.arrRef spec2 w ≠ r) :
    WC m c (Proc.devRef .tc r) = WB m c (Proc.devRef .tc r) :=
  (opsC_of (W3 m c) r hC).trans (W3_of_ne m c r h2)

/-- The same at an input array of the first region: the region reads it and does not write it back. -/
theorem WC_of_in (w : Fin cfg2.W) (hin : ((Pipeline.pin (pcfgs (F := Ideal)) adm 0).win w).isOut = false)
    (hC : Pipeline.arrRef spec2 w ∉ opsC_W) :
    WC m c (Proc.devRef .tc (Pipeline.arrRef spec2 w)) = WB m c (Proc.devRef .tc (Pipeline.arrRef spec2 w)) :=
  (opsC_of (W3 m c) _ hC).trans ((W3_arr m c w).trans (Pipeline.Dat.arrAt_in _ w hin cfg2.N))

/-- The state the first region leaves is what the second reads as its initial state. -/
theorem WC_hMid : WC m c rMid = hMid m c := opsC_of (W3 m c) main_v23 (by decide)

/-- The steps `256 … 2047` of the gathered rows. -/
theorem WC_x1 : WC m c rX1 = X1 (tokT m c) (embT m c) :=
  (WC_of_WB m c main_v3 (by decide) (by decide)).trans (WB_x1 m c)

/-- The input weights, the recurrent weights transposed, each row's first active step, the first active step. -/
theorem WC_arg3 : WC m c (Proc.devRef .tc main_arg3) = m ((c.tc : Thread nD τ).loc main_arg3) :=
  (WC_of_in m c 1 rfl (by decide)).trans (WB_arg3 m c)
theorem WC_v20 : WC m c (Proc.devRef .tc main_v20) = WB m c (Proc.devRef .tc main_v20) := WC_of_in m c 2 rfl (by decide)
theorem WC_v7 : WC m c (Proc.devRef .tc main_v7) = WB m c (Proc.devRef .tc main_v7) := WC_of_in m c 5 rfl (by decide)
theorem WC_v19 : WC m c (Proc.devRef .tc main_v19) = WB m c (Proc.devRef .tc main_v19) := WC_of_in m c 6 rfl (by decide)

/-- The two bias rows, staged again. -/
theorem WC_v24_apply (u : Fin 1) (n : Fin 128) :
    (WC m c (Proc.devRef .tc main_v24) : S1x128.Idx → EReal) (ix2 u n) = m ((c.tc : Thread nD τ).loc main_arg4) (ix1 n) := by
  show (after opsC (W3 m c) (Proc.devRef .tc main_v24) : S1x128.Idx → EReal) (ix2 u n) = _
  rw [opsC_v24 (W3 m c), HostOps.bcast_row_apply, W3_of_ne m c main_arg4 (by decide), (WB_args m c).2.2.2.2.1]
theorem WC_v25_apply (u : Fin 1) (n : Fin 128) :
    (WC m c (Proc.devRef .tc main_v25) : S1x128.Idx → EReal) (ix2 u n) = m ((c.tc : Thread nD τ).loc main_arg6) (ix1 n) := by
  show (after opsC (W3 m c) (Proc.devRef .tc main_v25) : S1x128.Idx → EReal) (ix2 u n) = _
  rw [opsC_v25 (W3 m c), HostOps.bcast_row_apply, W3_of_ne m c main_arg6 (by decide), (WB_args m c).2.2.2.2.2.2.1]

/-- The head's operands. -/
theorem WC_arg7 : WC m c (Proc.devRef .tc main_arg7) = m ((c.tc : Thread nD τ).loc main_arg7) :=
  (WC_of_WB m c main_arg7 (by decide) (by decide)).trans (WB_arg7 m c)
theorem WC_v8 : WC m c (Proc.devRef .tc main_v8) = WB m c (Proc.devRef .tc main_v8) := WC_of_WB m c main_v8 (by decide) (by decide)
theorem WC_v11 : WC m c (Proc.devRef .tc main_v11) = WB m c (Proc.devRef .tc main_v11) := WC_of_WB m c main_v11 (by decide) (by decide)
theorem WC_v16 : WC m c (Proc.devRef .tc main_v16) = WB m c (Proc.devRef .tc main_v16) := WC_of_WB m c main_v16 (by decide) (by decide)

/-- The program's result and the first region's are the regions' result arrays after their last points. -/
theorem outV_arr : outV m c = (dat3 c (byRef c (WC m c))).arrAt 12 cfg3.N := W4_arr m c 12
theorem hMid_arr : hMid m c = (dat2 c (byRef c (WB m c))).arrAt 7 cfg2.N := W3_arr m c 7

end Operands

/-! ## What the two regions compute, as the statements their modules prove

Each region's result array, by rows, is the kernel's chunked recurrence over whatever its operands hold: the first
region's from the zero state, the second's head on the four chunks from the first's result. The step function is
spelt over a projection `P` of the inputs (row `16·t + i` of the chunk's projection is `P t i`), the words of the
first-active-step operands read as natural numbers. -/

section Pieces

open Cert.Proof.KI Cert.Proof.KI.Payloads Cert.Proof.KI.Join

/-- The two regions' value statements at the valuations they are entered from. -/
structure Pieces : Prop where
  /-- The first region (its body's module and the bridge to the chunked recurrence). -/
  regA : ∀ (mN : ℕ) (_ : mN < 2048)
      (_ : ((WB m c (Proc.devRef .tc main_v19) : S1.Idx → BitVec 32) (ix1 (0 : Fin 1))).toInt = (mN : ℤ))
      (actN : Fin 16 → ℕ)
      (_ : ∀ i n, ((WB m c (Proc.devRef .tc main_v7) : S16x128.Idx → BitVec 32) (ix2 i n)).toInt = (actN i : ℤ))
      (P : ℕ → Fin 16 → Fin 128 → EReal)
      (_ : ∀ (t : ℕ) (ht : t < 256) (i : Fin 16) (n : Fin 128),
        k2_pay9 (F := Ideal) (WB m c rX0) (WB m c (Proc.devRef .tc main_arg3)) (WB m c (Proc.devRef .tc main_v21))
          (WB m c (Proc.devRef .tc main_v22)) (ix2 (⟨16 * t + i.val, by have := i.isLt; omega⟩ : Fin 4096) n) = P t i n),
      rows (hMid m c) = scanA (maskedStep actN (cellP P (mat (WB m c (Proc.devRef .tc main_v20))))) mN (fun _ _ => 0)
  /-- The second region: the head of the state its four points leave from the first region's result. -/
  regB : ∀ (mN : ℕ) (_ : mN < 2048)
      (_ : ((WC m c (Proc.devRef .tc main_v19) : S1.Idx → BitVec 32) (ix1 (0 : Fin 1))).toInt = (mN : ℤ))
      (actN : Fin 16 → ℕ)
      (_ : ∀ i n, ((WC m c (Proc.devRef .tc main_v7) : S16x128.Idx → BitVec 32) (ix2 i n)).toInt = (actN i : ℤ))
      (P : ℕ → Fin 16 → Fin 128 → EReal)
      (_ : ∀ (t : ℕ) (_ : 256 ≤ t) (ht : t < 2048) (i : Fin 16) (n : Fin 128),
        preChunk (mat (WC m c rX1 : S28672x128.Idx → EReal)) (mat (WC m c (Proc.devRef .tc main_arg3) : S128x128.Idx → EReal))
          (bias (WC m c (Proc.devRef .tc main_v24) : S1x128.Idx → EReal)) (bias (WC m c (Proc.devRef .tc main_v25) : S1x128.Idx → EReal))
          (⟨16 * (t - 256) + i.val, by have := i.isLt; omega⟩ : Fin 28672) n = P t i n)
      (i : Fin 16) (cl : Fin 3),
      (outV m c : S16x3.Idx → EReal) (ix2 i cl)
        = headK (mat (WC m c (Proc.devRef .tc main_arg7) : S256x128.Idx → EReal)) (bias (WC m c (Proc.devRef .tc main_v8) : S1x256.Idx → EReal))
            (mat (WC m c (Proc.devRef .tc main_v11) : S128x256.Idx → EReal)) (bias (WC m c (Proc.devRef .tc main_v16) : S1x128.Idx → EReal))
            (scanB (maskedStep actN (cellP P (mat (WC m c (Proc.devRef .tc main_v20) : S128x128.Idx → EReal)))) mN
              (rows (WC m c rMid)) i) cl

end Pieces

/-! ## The join -/

section Join

open Cert.Proof.KI Cert.Proof.KI.Payloads Cert.Proof.KI.Join

/-- The projection of the reference's inputs: what every row of a chunk's projection holds. -/
def PK : ℕ → Fin 16 → Fin 128 → EReal := fun t i n =>
  ∑ k, xOf (tokens m c) (emb m c) t i k * mat2 (W_ih m c) n k + (vec1 (b_ih m c) n + vec1 (b_hh m c) n)

variable [Cert.Pre_input_domain.Facts] (h : PreM m)
include h

theorem hlen' : ∀ i : S16.Idx, 1 ≤ (lengths m c i).toInt ∧ (lengths m c i).toInt ≤ 2048 := lengths_range m h c

theorem htok' (i : Fin 16) (p : Fin 2048) :
    0 ≤ (tokens m c (ix2 i p)).toInt ∧ (tokens m c (ix2 i p)).toInt ≤ 99999 :=
  toInt_range_of_toNat_lt _ (tokens_lt m h c _)

theorem mK_lt : mK m c < 2048 := by
  obtain ⟨-, -, h1, -⟩ := mStep_toNat (lengths m c) (hlen' m c h)
  unfold mK; omega

/-- The first-active-step word the regions read holds `mK`. -/
theorem mword_toInt : ((WB m c (Proc.devRef .tc main_v19) : S1.Idx → BitVec 32) (ix1 (0 : Fin 1))).toInt = (mK m c : ℤ) := by
  rw [v19_apply]
  show (IntOp.subi 2048#32 (maxLen (lengths m c))).toInt = _
  obtain ⟨e, -, -, -⟩ := mStep_toNat (lengths m c) (hlen' m c h)
  obtain ⟨h0, h1⟩ := mStep_range (lengths m c) (hlen' m c h)
  have ec := BitVec.toInt_eq_toNat_cond (IntOp.subi 2048#32 (maxLen (lengths m c)))
  unfold mK
  split at ec <;> omega

/-- Row `i`'s first-active-step word, on every lane, holds `actOf lengths i`. -/
theorem act_toInt (i : Fin 16) (n : Fin 128) :
    ((WB m c (Proc.devRef .tc main_v7) : S16x128.Idx → BitVec 32) (ix2 i n)).toInt = (actOf (lengths m c) i : ℤ) := by
  rw [v7_apply]
  show (IntOp.subi 2048#32 (lengths m c (ix1 i))).toInt = _
  obtain ⟨e, h1, h2⟩ := act_toNat (lengths m c) (hlen' m c h) (ix1 i)
  obtain ⟨r0, r1⟩ := act_range (lengths m c) (hlen' m c h) (ix1 i)
  have ec := BitVec.toInt_eq_toNat_cond (IntOp.subi 2048#32 (lengths m c (ix1 i)))
  have el := BitVec.toInt_eq_toNat_cond (lengths m c (ix1 i))
  have hl := hlen' m c h (ix1 i)
  unfold actOf
  split at ec <;> split at el <;> omega

/-- The recurrent weights the regions read, as a matrix, are the reference's transposed. -/
theorem whh_eq : mat (WB m c (Proc.devRef .tc main_v20) : S128x128.Idx → EReal) = WhhT m c := by
  funext k j
  exact v20_apply m c k j

/-- The kernel's cell over the projection is `KernelValue`'s over the reference's inputs. -/
theorem cell_eq : cellP (PK m c) (mat (WB m c (Proc.devRef .tc main_v20) : S128x128.Idx → EReal))
    = cellKt (xOf (tokens m c) (emb m c)) (mat2 (W_ih m c)) (WhhT m c) (vec1 (b_ih m c)) (vec1 (b_hh m c)) := by
  rw [whh_eq m c h]
  exact cellP_eq_cellKt _ _ _ _ _ (PK m c) (fun _ _ _ => rfl)

/-- The first gathered array's row `16·t + i` is the reference's input at step `t < 256`. -/
theorem x0_row (t : ℕ) (ht : t < 256) (i : Fin 16) (k : Fin 128) :
    (WB m c rX0 : S4096x128.Idx → EReal) (ix2 (⟨16 * t + i.val, by have := i.isLt; omega⟩ : Fin 4096) k)
      = xOf (tokens m c) (emb m c) t i k := by
  rw [WB_x0, embT_eq]
  have e : (⟨16 * t + i.val, by have := i.isLt; omega⟩ : Fin 4096) = ⟨t * 16 + i.val, by have := i.isLt; omega⟩ :=
    Fin.ext (by show 16 * t + i.val = t * 16 + i.val; omega)
  rw [e]
  exact X0_eq_xOf (tokT m c) (tokens m c) (emb m c) (fun p i => tokT_apply m c p i _) (fun i p => htok' m c h i p) t ht i k

/-- The second's row `16·(t - 256) + i`, at step `256 ≤ t < 2048`. -/
theorem x1_row (t : ℕ) (h1 : 256 ≤ t) (h2 : t < 2048) (i : Fin 16) (k : Fin 128) :
    (WC m c rX1 : S28672x128.Idx → EReal) (ix2 (⟨16 * (t - 256) + i.val, by have := i.isLt; omega⟩ : Fin 28672) k)
      = xOf (tokens m c) (emb m c) t i k := by
  rw [WC_x1, embT_eq]
  have e : (⟨16 * (t - 256) + i.val, by have := i.isLt; omega⟩ : Fin 28672) = ⟨(t - 256) * 16 + i.val, by have := i.isLt; omega⟩ :=
    Fin.ext (by show 16 * (t - 256) + i.val = (t - 256) * 16 + i.val; omega)
  rw [e]
  exact X1_eq_xOf (tokT m c) (tokens m c) (emb m c) (fun p i => tokT_apply m c p i _) (fun i p => htok' m c h i p) t h1 h2 i k

/-- The first chunk's projection, as the first region's operands give it, is the reference's. -/
theorem hPA (t : ℕ) (ht : t < 256) (i : Fin 16) (n : Fin 128) :
    k2_pay9 (F := Ideal) (WB m c rX0) (WB m c (Proc.devRef .tc main_arg3)) (WB m c (Proc.devRef .tc main_v21))
      (WB m c (Proc.devRef .tc main_v22)) (ix2 (⟨16 * t + i.val, by have := i.isLt; omega⟩ : Fin 4096) n) = PK m c t i n := by
  refine (k2_pay9_apply _ _ _ _ _ n).trans ?_
  have e1 : ∀ k, mat (WB m c rX0 : S4096x128.Idx → EReal) (⟨16 * t + i.val, by have := i.isLt; omega⟩ : Fin 4096) k
      = xOf (tokens m c) (emb m c) t i k := fun k => x0_row m c h t ht i k
  have e2 : ∀ k, mat (WB m c (Proc.devRef .tc main_arg3) : S128x128.Idx → EReal) n k = mat2 (W_ih m c) n k := fun k => by
    show (WB m c (Proc.devRef .tc main_arg3) : S128x128.Idx → EReal) (ix2 n k) = _
    rw [WB_arg3]; rfl
  have e3 : bias (WB m c (Proc.devRef .tc main_v21) : S1x128.Idx → EReal) n = vec1 (b_ih m c) n := v21_apply m c 0 n
  have e4 : bias (WB m c (Proc.devRef .tc main_v22) : S1x128.Idx → EReal) n = vec1 (b_hh m c) n := v22_apply m c 0 n
  unfold preChunk PK
  rw [e3, e4]
  exact congrArg (· + (vec1 (b_ih m c) n + vec1 (b_hh m c) n)) (Finset.sum_congr rfl fun k _ => by rw [e1 k, e2 k])

/-- The later chunks' projection, as the second region's operands give it, is the reference's. -/
theorem hPB (t : ℕ) (h1 : 256 ≤ t) (h2 : t < 2048) (i : Fin 16) (n : Fin 128) :
    preChunk (mat (WC m c rX1 : S28672x128.Idx → EReal)) (mat (WC m c (Proc.devRef .tc main_arg3) : S128x128.Idx → EReal))
      (bias (WC m c (Proc.devRef .tc main_v24) : S1x128.Idx → EReal)) (bias (WC m c (Proc.devRef .tc main_v25) : S1x128.Idx → EReal))
      (⟨16 * (t - 256) + i.val, by have := i.isLt; omega⟩ : Fin 28672) n = PK m c t i n := by
  have e1 : ∀ k, mat (WC m c rX1 : S28672x128.Idx → EReal) (⟨16 * (t - 256) + i.val, by have := i.isLt; omega⟩ : Fin 28672) k
      = xOf (tokens m c) (emb m c) t i k := fun k => x1_row m c h t h1 h2 i k
  have e2 : ∀ k, mat (WC m c (Proc.devRef .tc main_arg3) : S128x128.Idx → EReal) n k = mat2 (W_ih m c) n k := fun k => by
    show (WC m c (Proc.devRef .tc main_arg3) : S128x128.Idx → EReal) (ix2 n k) = _
    rw [WC_arg3]; rfl
  have e3 : bias (WC m c (Proc.devRef .tc main_v24) : S1x128.Idx → EReal) n = vec1 (b_ih m c) n := WC_v24_apply m c 0 n
  have e4 : bias (WC m c (Proc.devRef .tc main_v25) : S1x128.Idx → EReal) n = vec1 (b_hh m c) n := WC_v25_apply m c 0 n
  unfold preChunk PK
  rw [e3, e4]
  exact congrArg (· + (vec1 (b_ih m c) n + vec1 (b_hh m c) n)) (Finset.sum_congr rfl fun k _ => by rw [e1 k, e2 k])

/-- The head's operands, as the second region reads them, are the launch's arguments (the second layer padded). -/
theorem head_w0 : mat (WC m c (Proc.devRef .tc main_arg7) : S256x128.Idx → EReal) = mat2 (W0 m c) := by
  funext p q
  show (WC m c (Proc.devRef .tc main_arg7) : S256x128.Idx → EReal) (ix2 p q) = _
  rw [WC_arg7]; rfl
theorem head_b0 : bias (WC m c (Proc.devRef .tc main_v8) : S1x256.Idx → EReal) = vec1 (b0 m c) := by
  funext q
  show (WC m c (Proc.devRef .tc main_v8) : S1x256.Idx → EReal) (ix2 0 q) = _
  rw [WC_v8]; exact v8_apply m c 0 q
theorem head_w1 : mat (WC m c (Proc.devRef .tc main_v11) : S128x256.Idx → EReal) = padW (mat2 (W1 m c)) := by
  funext p q
  show (WC m c (Proc.devRef .tc main_v11) : S128x256.Idx → EReal) (ix2 p q) = _
  rw [WC_v11]; exact w1_ideal m c p q
theorem head_b1 : bias (WC m c (Proc.devRef .tc main_v16) : S1x128.Idx → EReal) = padB (vec1 (b1 m c)) := by
  funext q
  show (WC m c (Proc.devRef .tc main_v16) : S1x128.Idx → EReal) (ix2 0 q) = _
  rw [WC_v16]; exact b1_ideal m c 0 q

/-- THE VALUE: under the precondition, with the two regions' value statements, the idealized kernel's result array
    is the reference's function of the launch's arguments. -/
theorem outV_eq_G (pc : Pieces m c) :
    outV m c = Spec.G (tokens m c) (lengths m c) (emb m c) (W_ih m c) (b_ih m c) (W_hh m c) (b_hh m c) (W0 m c) (b0 m c)
      (W1 m c) (b1 m c) := by
  have hA := pc.regA (mK m c) (mK_lt m c h) (mword_toInt m c h) (actOf (lengths m c)) (act_toInt m c h) (PK m c) (hPA m c h)
  refine join_end m c h (hMid m c) (outV m c) ?_ ?_
  · show rows (hMid m c) = _
    rw [hA, cell_eq m c h]; rfl
  · intro i cl
    have hm' : ((WC m c (Proc.devRef .tc main_v19) : S1.Idx → BitVec 32) (ix1 (0 : Fin 1))).toInt = (mK m c : ℤ) := by
      rw [WC_v19]; exact mword_toInt m c h
    have hact' : ∀ i n, ((WC m c (Proc.devRef .tc main_v7) : S16x128.Idx → BitVec 32) (ix2 i n)).toInt = (actOf (lengths m c) i : ℤ) :=
      fun i n => by rw [WC_v7]; exact act_toInt m c h i n
    have hB := pc.regB (mK m c) (mK_lt m c h) hm' (actOf (lengths m c)) hact' (PK m c) (hPB m c h) i cl
    rw [hB, WC_hMid, WC_v20, cell_eq m c h, head_w0 m c h, head_b0 m c h, head_w1 m c h, head_b1 m c h]
    rfl

end Join

/-! ## The two regions' statements, from their modules -/

section Closed

open Cert.Proof.KI Cert.Proof.KI.Payloads Cert.Proof.KI.Join

/-- The first region's statement: its body's value at the valuation after the second host stretch. -/
theorem regA_holds (mN : ℕ) (hmN : mN < 2048)
    (hm : ((WB m c (Proc.devRef .tc main_v19) : S1.Idx → BitVec 32) (ix1 (0 : Fin 1))).toInt = (mN : ℤ))
    (actN : Fin 16 → ℕ)
    (hact : ∀ i n, ((WB m c (Proc.devRef .tc main_v7) : S16x128.Idx → BitVec 32) (ix2 i n)).toInt = (actN i : ℤ))
    (P : ℕ → Fin 16 → Fin 128 → EReal)
    (hP : ∀ (t : ℕ) (ht : t < 256) (i : Fin 16) (n : Fin 128),
      k2_pay9 (F := Ideal) (WB m c rX0) (WB m c (Proc.devRef .tc main_arg3)) (WB m c (Proc.devRef .tc main_v21))
        (WB m c (Proc.devRef .tc main_v22)) (ix2 (⟨16 * t + i.val, by have := i.isLt; omega⟩ : Fin 4096) n) = P t i n) :
    rows (hMid m c) = scanA (maskedStep actN (cellP P (mat (WB m c (Proc.devRef .tc main_v20))))) mN (fun _ _ => 0) := by
  rw [hMid_arr]
  exact ScanA.rows_arrAt_out c (byRef c (WB m c)) mN hmN hm actN hact P hP

end Closed

end Cert.Proof.KI.ValueJoin

end
-- ==== Proof.ScanBBridge.lean ====
/-
  The second recurrence call's body read against the arrays and the masked recurrence: what each window's block holds
  (the whole array, or for the gathered rows the 7168 rows of the point's chunk), the one word the body reads, the
  chunk's main loop as the carried value of its trips (a trip being eight steps in order, the remainder loop having
  no trip), and which rows of the chunk's stored projections each step of a trip loads.
-/
import proofs.«205923_g40089224741417_cont_sun_m_110_39_alg».proof.Proof.ScanB
import proofs.«205923_g40089224741417_cont_sun_m_110_39_alg».proof.Proof.KernelJoin
import Idealize.ShloMosaic.Lib.ValueIdx
import Idealize.ShloMosaic.Lib.Pipeline.Value
import Idealize.ShloMosaic.Lib.WholeRead

set_option maxRecDepth 16384

noncomputable section

namespace Cert.Proof.KI.ScanB

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What the body's windows hold: the arrays as the region finds them

Every window but the first stages its whole array at every point; the first stages, at point `t`, rows
`7168 t … 7168 t + 7167` of the gathered rows of the steps from 256 on. -/

section Readings

variable {F : FTy → Type} [FloatOps F] [Named F]
variable (c : Dev nD) (Vv : (b : Ref sig .tc) → Buf (Elt F) ((c.tc : Thread nD τ).loc b))

/-- A shape of one element has one index. -/
theorem S1_idx_eq (x y : S1.Idx) : x = y := by
  funext a; apply Fin.ext
  have hx := (x a).isLt; have hy := (y a).isLt
  have h1 : S1.size a = 1 := by fin_cases a; rfl
  omega

/-- Every window but the first has block index zero on every axis at every point; the first has it on its lanes. -/
theorem index3_zero : ∀ (w : Fin cfg3.W) (t : Fin cfg3.N) (a : Fin (cfg3.win w).shape.rank),
    w.val ≠ 0 ∨ a.val ≠ 0 → (cfg3.win w).index t a = 0 := by decide +kernel

/-- The first window's block at point `t` starts at row `7168 t`. -/
theorem index3_rows : ∀ (t : Fin cfg3.N) (a : Fin (cfg3.win 0).shape.rank),
    (cfg3.win 0).index t a * (cfg3.win 0).size a = if a.val = 0 then 7168 * t.val else 0 := by decide +kernel

/-- The word the body reads is the one word of the array the SMEM window stages. -/
theorem wordAt_eq (t : Fin cfg3.N) : wordAt c Vv t = Vv main_v19 (ValueIdx.ix1 0) := by
  show View.readAt (Elt F) (ms_6 t).view (Rect.unit (s := S1) ![0] S1.size inb_S1_S1_0).toLoadRect ((hs_6 t).unread (iblk c Vv 6 t)) (Shape.Idx.first (numel1_S1.symm ▸ Nat.one_pos)) = _
  simp only [View.readAt_apply, Memref.IsWhole.read_unread]
  unfold iblk
  rw [View.read_apply, cast_eq]
  exact congrArg (Vv main_v19) (S1_idx_eq _ _)

/-- Window 1's block is its array as the region finds it. -/
theorem iblk_1 (t : Fin cfg3.N) : (iblk c Vv 1 t : Vec F S128x128 .f32) = Vv main_arg3 := by
  funext y
  unfold iblk
  rw [View.read_apply, cast_eq]
  refine congrArg (Vv main_arg3) (funext fun a => Fin.ext ?_)
  exact Pipeline.Window.rect_emb_val_of_index_zero (cfg3.win 1) t a (index3_zero 1 t a (Or.inl (by decide))) y

/-- Window 2's block is its array as the region finds it. -/
theorem iblk_2 (t : Fin cfg3.N) : (iblk c Vv 2 t : Vec F S128x128 .f32) = Vv main_v20 := by
  funext y
  unfold iblk
  rw [View.read_apply, cast_eq]
  refine congrArg (Vv main_v20) (funext fun a => Fin.ext ?_)
  exact Pipeline.Window.rect_emb_val_of_index_zero (cfg3.win 2) t a (index3_zero 2 t a (Or.inl (by decide))) y

/-- Window 3's block is its array as the region finds it. -/
theorem iblk_3 (t : Fin cfg3.N) : (iblk c Vv 3 t : Vec F S1x128 .f32) = Vv main_v24 := by
  funext y
  unfold iblk
  rw [View.read_apply, cast_eq]
  refine congrArg (Vv main_v24) (funext fun a => Fin.ext ?_)
  exact Pipeline.Window.rect_emb_val_of_index_zero (cfg3.win 3) t a (index3_zero 3 t a (Or.inl (by decide))) y

/-- Window 4's block is its array as the region finds it. -/
theorem iblk_4 (t : Fin cfg3.N) : (iblk c Vv 4 t : Vec F S1x128 .f32) = Vv main_v25 := by
  funext y
  unfold iblk
  rw [View.read_apply, cast_eq]
  refine congrArg (Vv main_v25) (funext fun a => Fin.ext ?_)
  exact Pipeline.Window.rect_emb_val_of_index_zero (cfg3.win 4) t a (index3_zero 4 t a (Or.inl (by decide))) y

/-- Window 5's block is its array as the region finds it. -/
theorem iblk_5 (t : Fin cfg3.N) : (iblk c Vv 5 t : Vec F S16x128 .i32) = Vv main_v7 := by
  funext y
  unfold iblk
  rw [View.read_apply, cast_eq]
  refine congrArg (Vv main_v7) (funext fun a => Fin.ext ?_)
  exact Pipeline.Window.rect_emb_val_of_index_zero (cfg3.win 5) t a (index3_zero 5 t a (Or.inl (by decide))) y

/-- Window 7's block is its array as the region finds it. -/
theorem iblk_7 (t : Fin cfg3.N) : (iblk c Vv 7 t : Vec F S16x128 .f32) = Vv main_v23 := by
  funext y
  unfold iblk
  rw [View.read_apply, cast_eq]
  refine congrArg (Vv main_v23) (funext fun a => Fin.ext ?_)
  exact Pipeline.Window.rect_emb_val_of_index_zero (cfg3.win 7) t a (index3_zero 7 t a (Or.inl (by decide))) y

/-- Window 8's block is its array as the region finds it. -/
theorem iblk_8 (t : Fin cfg3.N) : (iblk c Vv 8 t : Vec F S256x128 .f32) = Vv main_arg7 := by
  funext y
  unfold iblk
  rw [View.read_apply, cast_eq]
  refine congrArg (Vv main_arg7) (funext fun a => Fin.ext ?_)
  exact Pipeline.Window.rect_emb_val_of_index_zero (cfg3.win 8) t a (index3_zero 8 t a (Or.inl (by decide))) y

/-- Window 9's block is its array as the region finds it. -/
theorem iblk_9 (t : Fin cfg3.N) : (iblk c Vv 9 t : Vec F S1x256 .f32) = Vv main_v8 := by
  funext y
  unfold iblk
  rw [View.read_apply, cast_eq]
  refine congrArg (Vv main_v8) (funext fun a => Fin.ext ?_)
  exact Pipeline.Window.rect_emb_val_of_index_zero (cfg3.win 9) t a (index3_zero 9 t a (Or.inl (by decide))) y

/-- Window 10's block is its array as the region finds it. -/
theorem iblk_10 (t : Fin cfg3.N) : (iblk c Vv 10 t : Vec F S128x256 .f32) = Vv main_v11 := by
  funext y
  unfold iblk
  rw [View.read_apply, cast_eq]
  refine congrArg (Vv main_v11) (funext fun a => Fin.ext ?_)
  exact Pipeline.Window.rect_emb_val_of_index_zero (cfg3.win 10) t a (index3_zero 10 t a (Or.inl (by decide))) y

/-- Window 11's block is its array as the region finds it. -/
theorem iblk_11 (t : Fin cfg3.N) : (iblk c Vv 11 t : Vec F S1x128 .f32) = Vv main_v16 := by
  funext y
  unfold iblk
  rw [View.read_apply, cast_eq]
  refine congrArg (Vv main_v16) (funext fun a => Fin.ext ?_)
  exact Pipeline.Window.rect_emb_val_of_index_zero (cfg3.win 11) t a (index3_zero 11 t a (Or.inl (by decide))) y

/-- Window 6's block (the one word) is its array as the region finds it. -/
theorem iblk_6 (t : Fin cfg3.N) : (iblk c Vv 6 t : Vec F S1 .i32) = Vv main_v19 := by
  funext y
  unfold iblk
  rw [View.read_apply, cast_eq]
  exact congrArg (Vv main_v19) (S1_idx_eq _ _)

/-- The first window's block at point `t`: row `r` of the block is row `7168 t + r` of the gathered rows. -/
theorem iblk0_apply (t : Fin cfg3.N) (r : Fin 7168) (k : Fin 128) :
    (iblk c Vv 0 t : Vec F S7168x128 .f32) (ValueIdx.ix2 r k)
      = (Vv main_v3 : S28672x128.Idx → Elt F .f32) (ValueIdx.ix2 (⟨7168 * t.val + r.val, by have := t.isLt; have := r.isLt; show _ < 28672; have : t.val < 4 := t.isLt; omega⟩ : Fin 28672) k) := by
  unfold iblk
  rw [View.read_apply, cast_eq]
  refine congrArg (Vv main_v3) (funext fun a => Fin.ext ?_)
  have h := Pipeline.Window.rect_emb_val (cfg3.win 0) t (ValueIdx.ix2 r k) a
  rw [index3_rows t a] at h
  match a with
  | ⟨0, _⟩ => exact h
  | ⟨1, _⟩ => exact h.trans (Nat.zero_add _)

/-- A read through the result window's block is a read of the array: the block is the whole array. -/
theorem read_blk12 (t : Fin cfg3.N) (X : ((cfg3.win 12).blk t).view.ty.Contents (Elt F)) (y : S16x3.Idx) :
    ((cfg3.win 12).blk t).view.read (Elt F) X y = X y := by
  rw [View.read_apply, cast_eq]
  refine congrArg X (funext fun a => Fin.ext ?_)
  exact Pipeline.Window.rect_emb_val_of_index_zero (cfg3.win 12) t a (index3_zero 12 t a (Or.inl (by decide))) y

end Readings

/-! ## The chunk's loops are the carried value of the trips; the rows a step loads -/

section Bridge

variable (c : Dev nD) (Vv : (b : Ref sig .tc) → Buf (Elt Ideal) ((c.tc : Thread nD τ).loc b))

/-- The sixteen rows of the projection scratch that step `jj` of trip `j` of the main loop loads at point `t`. -/
def ldB (t : Fin cfg3.N) (h2 : cond2 c Vv t) (j : Fin (k3_t1_loop (grid3.coords t) (wordAt c Vv t)).trips) (jj : Fin 8) : Vec Ideal S16x128 .f32 :=
  scM1.view.readAt (Elt Ideal)
    (Rect.unit (s := S7168x128) (k3_off1 (grid3.coords t) (wordAt c Vv t) j (BitVec.ofNat 32 jj.val)) S16x128.size
      (k3_off1_inb (grid3.coords t) (wordAt c Vv t) (wordAt c Vv t) (hwAt c Vv t) j h2 jj)).toLoadRect (Xp c Vv t)

/-- One trip of the main loop at point `t` is the eight steps in order. -/
theorem tripB_eq (t : Fin cfg3.N) (h2 : cond2 c Vv t) (j : Fin (k3_t1_loop (grid3.coords t) (wordAt c Vv t)).trips) (acc : Vec Ideal S16x128 .f32) :
    tripR1 (F := Ideal) 𝒱₀ c none (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) (tbW (grid3.coords t)) (wordAt c Vv t) h2 (k3_pay11 (iblk c Vv 2 t)) (k3_pay12 (iblk c Vv 5 t)) (wordAt c Vv t) (hwAt c Vv t) (k3_t1_loop (grid3.coords t) (wordAt c Vv t)).lb (Xp c Vv t) j acc
      = Join.tripV (k3_pay11 (iblk c Vv 2 t)) (k3_pay12 (iblk c Vv 5 t)) (Words.tbB (grid3.coords t)) (Scf.iv (k3_t1_loop (grid3.coords t) (wordAt c Vv t)).lb 1#32 j.val) (ldB c Vv t h2 j) acc := by
  rw [tripR1_eq]
  exact Join.k3_trip1_eq (grid3.coords t) _ _ (wordAt c Vv t) _ 1#32 j (ldB c Vv t h2 j) acc

/-- The carried state before trip `k` of the main loop at point `t` is the carried value of the trips `0 … k - 1`. -/
theorem st1B_eq_carried (t : Fin cfg3.N) (h2 : cond2 c Vv t) (init : Vec Ideal S16x128 .f32) (k : ℕ) (hk : k ≤ (k3_t1_loop (grid3.coords t) (wordAt c Vv t)).trips) :
    st1 (F := Ideal) 𝒱₀ c none (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) (tbW (grid3.coords t)) (wordAt c Vv t) h2 (k3_pay11 (iblk c Vv 2 t)) (k3_pay12 (iblk c Vv 5 t)) (wordAt c Vv t) (hwAt c Vv t) (k3_t1_loop (grid3.coords t) (wordAt c Vv t)).lb (Xp c Vv t) init k
      = Join.carried (fun (j : Fin (k3_t1_loop (grid3.coords t) (wordAt c Vv t)).trips) acc =>
          Join.tripV (k3_pay11 (iblk c Vv 2 t)) (k3_pay12 (iblk c Vv 5 t)) (Words.tbB (grid3.coords t)) (Scf.iv (k3_t1_loop (grid3.coords t) (wordAt c Vv t)).lb 1#32 j.val) (ldB c Vv t h2 j) acc) init k := by
  induction k with
  | zero => rfl
  | succ k ih =>
    have h : k < (k3_t1_loop (grid3.coords t) (wordAt c Vv t)).trips := by omega
    have e1 := st1_succ (F := Ideal) 𝒱₀ c none (grid3.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM0 (Memref.isWhole_whole _) scM1 (Memref.isWhole_whole _) (tbW (grid3.coords t)) (wordAt c Vv t) h2 (k3_pay11 (iblk c Vv 2 t)) (k3_pay12 (iblk c Vv 5 t)) (wordAt c Vv t) (hwAt c Vv t) (k3_t1_loop (grid3.coords t) (wordAt c Vv t)).lb (Xp c Vv t) init ⟨k, h⟩
    have e2 := Join.carried_succ (fun (j : Fin (k3_t1_loop (grid3.coords t) (wordAt c Vv t)).trips) acc =>
          Join.tripV (k3_pay11 (iblk c Vv 2 t)) (k3_pay12 (iblk c Vv 5 t)) (Words.tbB (grid3.coords t)) (Scf.iv (k3_t1_loop (grid3.coords t) (wordAt c Vv t)).lb 1#32 j.val) (ldB c Vv t h2 j) acc) init ⟨k, h⟩
    refine e1.trans (Eq.trans ?_ e2.symm)
    rw [tripB_eq, ih (by omega)]

/-- THE CHUNK'S LOOPS at point `t`, the remainder loop having no trip: the carried value of the main loop's trips. -/
theorem loopsB_eq (t : Fin cfg3.N) (h2 : cond2 c Vv t) (init : Vec Ideal S16x128 .f32)
    (h0 : (k3_t2_loop (grid3.coords t) (wordAt c Vv t)).trips = 0) :
    loopsB c Vv t h2 init
      = Join.carried (fun (j : Fin (k3_t1_loop (grid3.coords t) (wordAt c Vv t)).trips) acc =>
          Join.tripV (k3_pay11 (iblk c Vv 2 t)) (k3_pay12 (iblk c Vv 5 t)) (Words.tbB (grid3.coords t)) (Scf.iv (k3_t1_loop (grid3.coords t) (wordAt c Vv t)).lb 1#32 j.val) (ldB c Vv t h2 j) acc) init (k3_t1_loop (grid3.coords t) (wordAt c Vv t)).trips := by
  unfold loopsB
  rw [h0, st2_zero, st1B_eq_carried c Vv t h2 init _ (le_refl _)]

/-- The grid point's coordinate is its number. -/
theorem coords3_val : ∀ t : Fin cfg3.N, ((grid3.coords t) 0).val = t.val := by decide +kernel

/-- Reading back a buffer's view after one store that covers it whole: the stored value. -/
theorem read_writes_whole7168 {κ : Kind} {sp : Space} (v : View sig κ sp S7168x128 .f32) (f : v.ty.Contents (Elt Ideal)) (P : Vec Ideal S7168x128 .f32) :
    v.read (Elt Ideal) (v.writes (Elt Ideal) f [⟨Rect.unit (s := S7168x128) ![0, 0] S7168x128.size inb_S7168x128_S7168x128_0_0, P⟩]) = P := by
  funext y
  have hy : (Rect.unit (s := S7168x128) ![0, 0] S7168x128.size inb_S7168x128_S7168x128_0_0).emb y = y := by
    funext a; apply Fin.ext
    show (![0, 0] : Fin 2 → ℕ) a + 1 * (y a : ℕ) = y a
    fin_cases a <;> simp
  conv_lhs => rw [← hy]
  exact View.read_writes_cons_emb _ _ _ _ _ _

/-- The rows a step reads, from the closed form of its offset: rows `a …` of what the projection scratch was stored with. -/
theorem rowsB_of_off {κ : Kind} {sp : Space} (v : View sig κ sp S7168x128 .f32) (i : grid3.Coords) (w : BitVec 32) (hc : k3_cond2 i w = 1#1) (hchk : k3_chk1 i w w)
    (P : Vec Ideal S7168x128 .f32) (k : Fin (k3_t1_loop i w).trips) (r : Fin 8) (a : ℕ)
    (hoff : k3_off1 i w k (BitVec.ofNat 32 r.val) = ![a, 0]) (y : S16x128.Idx) :
    ∃ hy, v.readAt (Elt Ideal) (Rect.unit (s := S7168x128) (k3_off1 i w k (BitVec.ofNat 32 r.val)) S16x128.size (k3_off1_inb i w w hchk k hc r)).toLoadRect
        (v.writes (Elt Ideal) v.junk [⟨Rect.unit (s := S7168x128) ![0, 0] S7168x128.size inb_S7168x128_S7168x128_0_0, P⟩]) y
      = P (ValueIdx.ix2 (⟨a + (y 0).val, hy⟩ : Fin 7168) (y 1)) := by
  have hy0 : (y 0).val < 16 := (y 0).isLt
  have hin := k3_off1_inb i w w hchk k hc r 0
  rw [hoff] at hin
  have hin' : a + 16 ≤ 7168 := hin
  refine ⟨by omega, ?_⟩
  rw [View.readAt_unit_congr_cast v hoff, View.readAt_apply, read_writes_whole7168]
  congr 1
  funext b
  match b with
  | ⟨0, _⟩ => exact Fin.ext (by show a + 1 * (y 0).val = a + (y 0).val; omega)
  | ⟨1, _⟩ => exact Fin.ext (by show 0 + 1 * (y 1).val = (y 1).val; omega)

/-- The same at a word holding `mN`: the offset in closed form, from the first block with an active step. -/
theorem ldB_core {κ : Kind} {sp : Space} (v : View sig κ sp S7168x128 .f32) (i : grid3.Coords) (w : BitVec 32) (mN : ℕ) (hw : w = BitVec.ofNat 32 mN) (hmN : mN < 2048)
    (hc : k3_cond2 i w = 1#1) (hchk : k3_chk1 i w w) (P : Vec Ideal S7168x128 .f32) (k : Fin (k3_t1_loop i w).trips) (r : Fin 8) (y : S16x128.Idx) :
    ∃ hy, v.readAt (Elt Ideal) (Rect.unit (s := S7168x128) (k3_off1 i w k (BitVec.ofNat 32 r.val)) S16x128.size (k3_off1_inb i w w hchk k hc r)).toLoadRect
        (v.writes (Elt Ideal) v.junk [⟨Rect.unit (s := S7168x128) ![0, 0] S7168x128.size inb_S7168x128_S7168x128_0_0, P⟩]) y
      = P (ValueIdx.ix2 (⟨16 * (8 * ((KernelValue.nblk0 mN (256 + 448 * (i 0).val : ℕ) 56).toNat + k.val) + r.val) + (y 0).val, hy⟩ : Fin 7168) (y 1)) := by
  subst hw
  exact rowsB_of_off v i _ hc hchk P k r _ (Join.k3_off1_eq i mN hmN k r) y

set_option maxHeartbeats 2000000 in
/-- THE ROWS A STEP LOADS at point `t`: rows `16 (8 (nblk0 + j) + jj) …` of the chunk's stored projections. -/
theorem ldB_apply (t : Fin cfg3.N) (mN : ℕ) (hw : wordAt c Vv t = BitVec.ofNat 32 mN) (hmN : mN < 2048) (h2 : cond2 c Vv t)
    (j : Fin (k3_t1_loop (grid3.coords t) (wordAt c Vv t)).trips) (jj : Fin 8) (y : S16x128.Idx) :
    ∃ hy, ldB c Vv t h2 j jj y
      = k3_pay10 (F := Ideal) (iblk c Vv 0 t) (iblk c Vv 1 t) (iblk c Vv 3 t) (iblk c Vv 4 t)
          (ValueIdx.ix2 (⟨16 * (8 * ((KernelValue.nblk0 mN (256 + 448 * t.val : ℕ) 56).toNat + j.val) + jj.val) + (y 0).val, hy⟩ : Fin 7168) (y 1)) := by
  unfold ldB Xp
  have h := ldB_core scM1.view (grid3.coords t) (wordAt c Vv t) mN hw hmN h2 (hwAt c Vv t)
    (k3_pay10 (F := Ideal) (iblk c Vv 0 t) (iblk c Vv 1 t) (iblk c Vv 3 t) (iblk c Vv 4 t)) j jj y
  rw [coords3_val t] at h
  exact h

end Bridge

end Cert.Proof.KI.ScanB

end
-- ==== Proof.ScanBJoin.lean ====
/-
  The second recurrence region's result array as the head of the kernel's chunked recurrence: each of the four grid
  points' effect on the carried state is one chunk of the masked recurrence (the point's loop over the blocks from
  the first one with an active step, the projection's rows it loads being the rows of the whole chunk's projection),
  the first point starting from the first region's result; the last point's head is the kernel's head on the state
  the four chunks leave.
-/
import proofs.«205923_g40089224741417_cont_sun_m_110_39_alg».proof.Proof.ScanB
import proofs.«205923_g40089224741417_cont_sun_m_110_39_alg».proof.Proof.ScanBBridge
import proofs.«205923_g40089224741417_cont_sun_m_110_39_alg».proof.Proof.KernelJoin
import proofs.«205923_g40089224741417_cont_sun_m_110_39_alg».proof.Proof.KernelPayloads
import proofs.«205923_g40089224741417_cont_sun_m_110_39_alg».proof.Proof.KernelWords

noncomputable section

open scoped BigOperators

namespace Cert.Proof.KI.ScanB

open Cert.KernelIdeal Cert.KernelIdeal.Gen
open Idealize.ShloMosaic Idealize.ShloMosaic.ValueIdx
open Cert.Proof.KernelValue Cert.Proof.KI.Payloads Cert.Proof.KI.Join Cert.Proof.KI.Words

/-- The rows a step loads, over plain vectors: if `blk` is block `g` of the gathered rows `x1` and `v` holds rows
    `16·s + i` of the block's projection, then `v` is the whole array's projection at step `256 + 448·g + s`. -/
theorem rows_ld_core (g : ℕ) (hg : g < 4) (blk : Vec Ideal S7168x128 .f32) (x1 : FVec Ideal S28672x128 .f32)
    (hblk : ∀ (r : Fin 7168) (k : Fin 128), blk (ix2 r k) = x1 (ix2 (⟨7168 * g + r.val, by have := r.isLt; omega⟩ : Fin 28672) k))
    (wih : Vec Ideal S128x128 .f32) (b1 b2 : Vec Ideal S1x128 .f32) (Q : ℕ → Fin 16 → Fin 128 → EReal)
    (hQ : ∀ (t : ℕ) (_ : 256 ≤ t) (ht : t < 2048) (i : Fin 16) (n : Fin 128),
      preChunk (mat x1) (mat wih) (bias b1) (bias b2) (⟨16 * (t - 256) + i.val, by have := i.isLt; omega⟩ : Fin 28672) n = Q t i n)
    (s : ℕ) (hs : s < 448) (v : FVec Ideal S16x128 .f32)
    (hv : ∀ (i : Fin 16) (n : Fin 128),
      v (ix2 i n) = k3_pay10 (F := Ideal) blk wih b1 b2 (ix2 (⟨16 * s + i.val, by have := i.isLt; omega⟩ : Fin 7168) n)) :
    rows v = Q (256 + 448 * g + s) := by
  funext i n
  have hi := i.isLt
  show v (ix2 i n) = _
  rw [hv, k3_pay10_apply, ← hQ (256 + 448 * g + s) (by omega) (by omega) i n]
  unfold preChunk
  refine congrArg (· + (bias b1 n + bias b2 n)) (Finset.sum_congr rfl fun k _ => ?_)
  refine congrArg (· * mat wih n k) ?_
  show blk (ix2 _ k) = x1 (ix2 _ k)
  rw [hblk]
  refine congrArg (fun r => x1 (ix2 r k)) (Fin.ext ?_)
  show 7168 * g + (16 * s + i.val) = 16 * (256 + 448 * g + s - 256) + i.val
  omega

variable (c : Dev nD) (Vv : (b : Ref sig .tc) → Buf (Elt Ideal) ((c.tc : Thread nD τ).loc b))
variable (mN : ℕ) (hmN : mN < 2048)
  (hm : ((Vv main_v19 : S1.Idx → BitVec 32) (ix1 (0 : Fin 1))).toInt = (mN : ℤ))
variable (actN : Fin 16 → ℕ)
  (hact : ∀ i n, ((Vv main_v7 : S16x128.Idx → BitVec 32) (ix2 i n)).toInt = (actN i : ℤ))
variable (P : ℕ → Fin 16 → Fin 128 → EReal)
  (hP : ∀ (t : ℕ) (_ : 256 ≤ t) (ht : t < 2048) (i : Fin 16) (n : Fin 128),
    preChunk (mat (Vv main_v3 : S28672x128.Idx → EReal)) (mat (Vv main_arg3 : S128x128.Idx → EReal))
      (bias (Vv main_v24 : S1x128.Idx → EReal)) (bias (Vv main_v25 : S1x128.Idx → EReal))
      (⟨16 * (t - 256) + i.val, by have := i.isLt; omega⟩ : Fin 28672) n = P t i n)

/-- The kernel's masked step over the projection `P` and the recurrent weights the region reads. -/
abbrev fB : ℕ → (Fin 16 → Fin 128 → EReal) → Fin 16 → Fin 128 → EReal :=
  maskedStep actN (cellP P (mat (Vv main_v20 : S128x128.Idx → EReal)))

include hm in
/-- The first-active-step word every point reads is the word of `mN`. -/
theorem word_eq (t : Fin cfg3.N) : wordAt c Vv t = BitVec.ofNat 32 mN :=
  (wordAt_eq c Vv t).trans (eq_ofNat_of_toInt _ mN hm)

set_option maxHeartbeats 1000000 in
include hmN hm hP in
/-- The rows a point's trip loads are the projection's rows of the steps it makes. -/
theorem rows_ldB (t : Fin cfg3.N) (h2 : cond2 c Vv t)
    (j : Fin (k3_t1_loop (grid3.coords t) (wordAt c Vv t)).trips) (jj : Fin 8) :
    rows (ldB c Vv t h2 j jj)
      = P ((256 + 448 * t.val) + 8 * ((nblk0 mN (256 + 448 * t.val : ℕ) 56).toNat + j.val) + jj.val) := by
  have hw := word_eq c Vv mN hm t
  have ht4 : t.val < 4 := t.isLt
  have hc0 := coords3_val t
  have htr : (k3_t1_loop (grid3.coords t) (wordAt c Vv t)).trips = 56 - (nblk0 mN (256 + 448 * t.val : ℕ) 56).toNat := by
    have ht' : (k3_t1_loop (grid3.coords t) (BitVec.ofNat 32 mN)).trips
        = 56 - (nblk0 mN (256 + 448 * ((grid3.coords t) 0).val : ℕ) 56).toNat := k3_trips_eq (grid3.coords t) ⟨mN, hmN⟩
    rw [hw, ht', hc0]
  have hj : j.val < 56 - (nblk0 mN (256 + 448 * t.val : ℕ) 56).toNat := lt_of_lt_of_eq j.isLt htr
  have hjj := jj.isLt
  have hs : 8 * ((nblk0 mN (256 + 448 * t.val : ℕ) 56).toNat + j.val) + jj.val < 448 := by omega
  rw [Nat.add_assoc]
  refine rows_ld_core t.val ht4 (iblk c Vv 0 t : Vec Ideal S7168x128 .f32) (Vv main_v3 : S28672x128.Idx → EReal)
    (fun r k => iblk0_apply c Vv t r k) (Vv main_arg3 : S128x128.Idx → EReal) (Vv main_v24 : S1x128.Idx → EReal)
    (Vv main_v25 : S1x128.Idx → EReal) P hP _ hs (ldB c Vv t h2 j jj) (fun i n => ?_)
  obtain ⟨hy, e⟩ := ldB_apply c Vv t mN hw hmN h2 j jj (ix2 i n)
  have e2 : k3_pay10 (F := Ideal) (iblk c Vv 0 t) (iblk c Vv 1 t) (iblk c Vv 3 t) (iblk c Vv 4 t)
      = k3_pay10 (F := Ideal) (iblk c Vv 0 t) (Vv main_arg3) (Vv main_v24) (Vv main_v25) :=
    ((congrArg (fun w : Vec Ideal S128x128 .f32 => k3_pay10 (F := Ideal) (iblk c Vv 0 t) w (iblk c Vv 3 t) (iblk c Vv 4 t))
        (iblk_1 c Vv t)).trans
      (congrArg (fun w : Vec Ideal S1x128 .f32 => k3_pay10 (F := Ideal) (iblk c Vv 0 t) (Vv main_arg3) w (iblk c Vv 4 t))
        (iblk_3 c Vv t))).trans
      (congrArg (fun w : Vec Ideal S1x128 .f32 => k3_pay10 (F := Ideal) (iblk c Vv 0 t) (Vv main_arg3) (Vv main_v24) w)
        (iblk_4 c Vv t))
  exact e.trans (congrFun e2 _)

set_option maxHeartbeats 2000000 in
include hmN hm hact hP in
/-- ONE GRID POINT: its effect on the carried state is its chunk of the masked recurrence, from the state the point
    starts from. -/
theorem rows_hStep (t : Fin cfg3.N) (h : FVec Ideal S16x128 .f32) :
    rows (hStep c Vv t h) = scanBAt (fB c Vv actN P) mN t.val (rows (h₀ c Vv t h)) := by
  have hw := word_eq c Vv mN hm t
  have ht4 : t.val < 4 := t.isLt
  have hc0 := coords3_val t
  have hcond : cond2 c Vv t ↔ mN < (256 + 448 * t.val) + 8 * 56 := by
    have hc' : k3_cond2 (grid3.coords t) (BitVec.ofNat 32 mN) = 1#1 ↔ mN < (256 + 448 * ((grid3.coords t) 0).val) + 8 * 56 :=
      k3_cond2_iff (grid3.coords t) ⟨mN, hmN⟩
    show k3_cond2 (grid3.coords t) (wordAt c Vv t) = 1#1 ↔ _
    rw [hw, hc', hc0]
  have htr : (k3_t1_loop (grid3.coords t) (wordAt c Vv t)).trips = 56 - (nblk0 mN (256 + 448 * t.val : ℕ) 56).toNat := by
    have ht' : (k3_t1_loop (grid3.coords t) (BitVec.ofNat 32 mN)).trips
        = 56 - (nblk0 mN (256 + 448 * ((grid3.coords t) 0).val : ℕ) 56).toNat := k3_trips_eq (grid3.coords t) ⟨mN, hmN⟩
    rw [hw, ht', hc0]
  have htr2 : (k3_t2_loop (grid3.coords t) (wordAt c Vv t)).trips = 0 := by
    have ht2' : (k3_t2_loop (grid3.coords t) (BitVec.ofNat 32 mN)).trips = 0 := k3_trips2_eq (grid3.coords t) ⟨mN, hmN⟩
    rw [hw]; exact ht2'
  have hlb : (k3_t1_loop (grid3.coords t) (wordAt c Vv t)).lb.toNat = (nblk0 mN (256 + 448 * t.val : ℕ) 56).toNat := by
    obtain ⟨hle, _⟩ := nblk0_toNat mN (256 + 448 * t.val) 56
    have hl : (k3_t1_loop (grid3.coords t) (BitVec.ofNat 32 mN)).lb
        = BitVec.ofNat 32 (nblk0 mN (256 + 448 * ((grid3.coords t) 0).val : ℕ) 56).toNat := k3_lb_eq (grid3.coords t) ⟨mN, hmN⟩
    rw [hw, hl, hc0, BitVec.toNat_ofNat]
    omega
  have htb : (tbB (grid3.coords t)).toNat = 256 + 448 * t.val := by rw [tbB_toNat, hc0]
  have hact5 : ∀ i n, ((k3_pay12 (F := Ideal) (iblk c Vv 5 t) : S16x128.Idx → BitVec 32) (ix2 i n)).toInt = (actN i : ℤ) := by
    intro i n
    rw [k3_pay12_eq, iblk_5 c Vv t]
    exact hact i n
  have hwhh : mat (k3_pay11 (F := Ideal) (iblk c Vv 2 t)) = mat (Vv main_v20 : S128x128.Idx → EReal) := by
    rw [k3_pay11_eq, iblk_2 c Vv t]
  rw [hStep_eq]
  unfold scanBAt chunkK
  by_cases h2 : cond2 c Vv t
  · rw [dif_pos h2, if_pos (hcond.mp h2), k3_pay4_eq, loopsB_eq c Vv t h2 _ htr2]
    unfold blocksFrom
    have hR := rows_carried (k3_pay11 (F := Ideal) (iblk c Vv 2 t)) (k3_pay12 (F := Ideal) (iblk c Vv 5 t))
      (tbB (grid3.coords t)) (k3_t1_loop (grid3.coords t) (wordAt c Vv t)).lb (256 + 448 * t.val)
      (nblk0 mN (256 + 448 * t.val : ℕ) 56).toNat (k3_t1_loop (grid3.coords t) (wordAt c Vv t)).trips htb hlb (by omega)
      (by rw [htr]; have := (nblk0_toNat mN (256 + 448 * t.val) 56).1; omega) actN hact5 P (ldB c Vv t h2)
      (rows_ldB c Vv mN hmN hm P hP t h2) (h₀ c Vv t h) _ (le_refl _)
    rw [hR, hwhh, htr]
    try rfl
  · rw [dif_neg h2, if_neg (fun hlt => h2 (hcond.mpr hlt))]

include hmN hm hact hP in
/-- THE FOUR POINTS: after `n ≥ 1` points the carried state is the chunks `0, …, n - 1` of the recurrence from the
    first region's result. -/
theorem rows_hAt : ∀ (n : ℕ) (hn : n + 1 ≤ cfg3.N),
    rows (hAt c Vv (n + 1) hn) = run (scanBAt (fB c Vv actN P) mN) 0 (n + 1) (rows (Vv main_v23 : S16x128.Idx → EReal))
  | 0, hn => by
    show rows (hStep c Vv ⟨0, hn⟩ (hAt c Vv 0 (Nat.le_of_lt hn))) = _
    rw [rows_hStep c Vv mN hmN hm actN hact P hP ⟨0, hn⟩]
    have e0 : h₀ c Vv ⟨0, hn⟩ (hAt c Vv 0 (Nat.le_of_lt hn)) = (Vv main_v23 : S16x128.Idx → EReal) := by
      unfold h₀
      rw [if_pos rfl, k3_pay1_eq, iblk_7 c Vv ⟨0, hn⟩]
    rw [e0]
    rfl
  | n + 1, hn => by
    show rows (hStep c Vv ⟨n + 1, hn⟩ (hAt c Vv (n + 1) (Nat.le_of_lt hn))) = _
    rw [rows_hStep c Vv mN hmN hm actN hact P hP ⟨n + 1, hn⟩]
    have e0 : h₀ c Vv ⟨n + 1, hn⟩ (hAt c Vv (n + 1) (Nat.le_of_lt hn)) = hAt c Vv (n + 1) (Nat.le_of_lt hn) := by
      unfold h₀
      rw [if_neg (Nat.succ_ne_zero n)]
    rw [e0, rows_hAt n (Nat.le_of_lt hn), run_succ (scanBAt (fB c Vv actN P) mN) 0 (n + 1), Nat.zero_add]

include hmN hm hact hP in
/-- THE RESULT: the region's result array at row `i`, class `cl`, is the kernel's head on row `i` of the state the
    four chunks leave from the first region's result. -/
theorem out_apply (i : Fin 16) (cl : Fin 3) :
    ((datK c Vv).arrAt (12 : Fin cfg3.W) cfg3.N : S16x3.Idx → EReal) (ix2 i cl)
      = headK (mat (Vv main_arg7 : S256x128.Idx → EReal)) (bias (Vv main_v8 : S1x256.Idx → EReal))
          (mat (Vv main_v11 : S128x256.Idx → EReal)) (bias (Vv main_v16 : S1x128.Idx → EReal))
          (scanB (fB c Vv actN P) mN (rows (Vv main_v23 : S16x128.Idx → EReal)) i) cl := by
  have rb := congrFun (result_block c Vv) (ix2 i cl)
  rw [read_blk12] at rb
  rw [rb, outAt_last c Vv t3_3 rfl _, k3_pay5_apply, iblk_8 c Vv t3_3, iblk_9 c Vv t3_3, iblk_10 c Vv t3_3,
    iblk_11 c Vv t3_3]
  have hr := rows_hAt c Vv mN hmN hm actN hact P hP 3 (le_refl _)
  show headK _ _ _ _ (rows (hAt c Vv 4 (le_refl _)) i) cl = _
  rw [hr]
  rfl

end Cert.Proof.KI.ScanB

end
-- ==== Proof.ValueClosed.lean ====
/-
  The value, closed: the two recurrence regions' value statements, each from its region's modules, put into the last
  join. Under the precondition the idealized kernel's result array is the reference's function of the launch's
  arguments.
-/
import proofs.«205923_g40089224741417_cont_sun_m_110_39_alg».proof.Proof.ValueJoin
import proofs.«205923_g40089224741417_cont_sun_m_110_39_alg».proof.Proof.ScanBJoin

noncomputable section

namespace Cert.Proof.KI.ValueJoin

open Cert.KernelIdeal Cert.KernelIdeal.Gen
open Idealize.ShloMosaic Idealize.ShloMosaic.ValueIdx
open Cert.Proof.KernelValue Cert.Proof.KernelSpec Cert.Proof.KI.HostOps
open Cert.Proof.KI Cert.Proof.KI.Payloads Cert.Proof.KI.Join

variable (m : (ℓ : Loc nD τ sig) → Buf (Elt Ideal) ℓ) (c : Dev nD)

/-- The second region's statement: its body's value at the valuation after the first region and the bias rows'
    staging. -/
theorem regB_holds (mN : ℕ) (hmN : mN < 2048)
    (hm : ((WC m c (Proc.devRef .tc main_v19) : S1.Idx → BitVec 32) (ix1 (0 : Fin 1))).toInt = (mN : ℤ))
    (actN : Fin 16 → ℕ)
    (hact : ∀ i n, ((WC m c (Proc.devRef .tc main_v7) : S16x128.Idx → BitVec 32) (ix2 i n)).toInt = (actN i : ℤ))
    (P : ℕ → Fin 16 → Fin 128 → EReal)
    (hP : ∀ (t : ℕ) (_ : 256 ≤ t) (ht : t < 2048) (i : Fin 16) (n : Fin 128),
      preChunk (mat (WC m c rX1 : S28672x128.Idx → EReal)) (mat (WC m c (Proc.devRef .tc main_arg3) : S128x128.Idx → EReal))
        (bias (WC m c (Proc.devRef .tc main_v24) : S1x128.Idx → EReal)) (bias (WC m c (Proc.devRef .tc main_v25) : S1x128.Idx → EReal))
        (⟨16 * (t - 256) + i.val, by have := i.isLt; omega⟩ : Fin 28672) n = P t i n)
    (i : Fin 16) (cl : Fin 3) :
    (outV m c : S16x3.Idx → EReal) (ix2 i cl)
      = headK (mat (WC m c (Proc.devRef .tc main_arg7) : S256x128.Idx → EReal)) (bias (WC m c (Proc.devRef .tc main_v8) : S1x256.Idx → EReal))
          (mat (WC m c (Proc.devRef .tc main_v11) : S128x256.Idx → EReal)) (bias (WC m c (Proc.devRef .tc main_v16) : S1x128.Idx → EReal))
          (scanB (maskedStep actN (cellP P (mat (WC m c (Proc.devRef .tc main_v20) : S128x128.Idx → EReal)))) mN
            (rows (WC m c rMid)) i) cl := by
  rw [outV_arr]
  exact ScanB.out_apply c (byRef c (WC m c)) mN hmN hm actN hact P hP i cl

/-- Both regions' statements. -/
theorem pieces : Pieces m c := ⟨regA_holds m c, regB_holds m c⟩

/-- THE VALUE: under the precondition the idealized kernel's result array is the reference's function of the launch's
    arguments. -/
theorem outV_eq_G_closed [Cert.Pre_input_domain.Facts] (h : PreM m) :
    outV m c = Spec.G (tokens m c) (lengths m c) (emb m c) (W_ih m c) (b_ih m c) (W_hh m c) (b_hh m c) (W0 m c) (b0 m c)
      (W1 m c) (b1 m c) :=
  outV_eq_G m c h (pieces m c)

end Cert.Proof.KI.ValueJoin

end
-- ==== Proof.Value.lean ====
/-
  What the assembly of the claim takes from the value side and from the precondition, each as one named statement:
  under the precondition every flattened token names a row of the table (at both instances: what the gather kernels'
  frames need), and the idealized kernel's result array is the reference's function `Spec.G` of the arguments (the
  two recurrences' result arrays read row by row, joined to the reference's step iterated and its tail).
-/
import proofs.«205923_g40089224741417_cont_sun_m_110_39_alg».proof.Defs
import proofs.«205923_g40089224741417_cont_sun_m_110_39_alg».proof.Proof.Gen.Pre_input_domain
import proofs.«205923_g40089224741417_cont_sun_m_110_39_alg».proof.Proof.ArgsKept
import proofs.«205923_g40089224741417_cont_sun_m_110_39_alg».proof.Proof.ArgsKeptB
import proofs.«205923_g40089224741417_cont_sun_m_110_39_alg».proof.Proof.HostOps
import proofs.«205923_g40089224741417_cont_sun_m_110_39_alg».proof.Proof.HostOpsB
import proofs.«205923_g40089224741417_cont_sun_m_110_39_alg».proof.Proof.Spec
import proofs.«205923_g40089224741417_cont_sun_m_110_39_alg».proof.Proof.ValueClosed

noncomputable section

namespace Cert.Proof.Value

open Idealize.ShloMosaic Idealize.SL.Sem

/-- Under the precondition, at the ideal instance, every flattened transposed token is below the table's height. -/
theorem htok_of_pre (m : (ℓ : Loc Cert.KernelIdeal.nD Cert.KernelIdeal.τ Cert.KernelIdeal.sig) → Buf (Elt Ideal) ℓ)
    (h : Cert.Pre_KernelIdeal m) : ∀ d j, (KI.tokT (F := Ideal) m d j).toNat < 100000 :=
  KI.HostOps.tokT_lt m (fun d j => KI.HostOps.tokens_lt m h d j)

/-- The same at the bit-exact instance, for the printed kernel (the tokens are integers: the argument is the same). -/
theorem htok_of_preB (m : (ℓ : Loc Cert.Kernel.nD Cert.Kernel.τ Cert.Kernel.sig) → Buf (Elt Bits) ℓ)
    (h : Cert.Pre_Kernel m) : ∀ d j, (KB.tokT (F := Bits) m d j).toNat < 100000 :=
  KB.HostOps.tokT_lt m (fun d j => KB.HostOps.tokens_lt m h d j)

/-- THE VALUE: under the precondition the idealized kernel's result array is the reference's function of the
    launch's arguments. -/
theorem outV_eq_G (m : (ℓ : Loc Cert.KernelIdeal.nD Cert.KernelIdeal.τ Cert.KernelIdeal.sig) → Buf (Elt Ideal) ℓ)
    (h : Cert.Pre_KernelIdeal m) (c : Dev Cert.KernelIdeal.nD) :
    KI.outV (F := Ideal) m c
      = Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) := by
  first
    | exact KI.ValueJoin.outV_eq_G_closed m c h
    | exact KI.ValueJoin.outV_eq_G_closed m c (show KI.HostOps.PreM m from h)
    | (unfold Cert.Pre_KernelIdeal at h; exact KI.ValueJoin.outV_eq_G_closed m c h)

end Cert.Proof.Value

end
-- ==== Proof.lean ====
/-
  The claim: the printed kernel and its idealization run on the whole machine (the TensorCore, the two SparseCores'
  sequencers and their thirty-two tiles) to the end without fault and leave the eleven arguments unchanged; the
  idealized reference does the same on the TensorCore; the idealized kernel differs from the printed one in one
  named constant, the fill of the padded classes, which stands for minus infinity; and at the ideal instance, from
  memories agreeing on the arguments, the idealized kernel's result array and the idealized reference's are equal.

  Both kernel frames are one run stated with the strongest post (the result array named, the arguments unchanged)
  with the result dropped; the reference's frame is its run with the value dropped. The algebraic claim names the
  common result `Spec.G` of the arguments: the reference's run ends there (its loop's step iterated 2048 times, then
  the two relu layers and the log-softmax), and so does the kernel's (the two gathered arrays are the table's rows at
  the transposed tokens; the two recurrences apply the same step to the rows whose sequence has begun, skipping the
  chunks before the longest sequence's first step; the second ends with the same layers over the padded classes).
-/
import proofs.«205923_g40089224741417_cont_sun_m_110_39_alg».proof.Defs
import proofs.«205923_g40089224741417_cont_sun_m_110_39_alg».proof.Proof.Gen.Kernel
import proofs.«205923_g40089224741417_cont_sun_m_110_39_alg».proof.Proof.Gen.Kernel.Skeleton
import proofs.«205923_g40089224741417_cont_sun_m_110_39_alg».proof.Proof.Gen.Kernel.Loops
import proofs.«205923_g40089224741417_cont_sun_m_110_39_alg».proof.Proof.Gen.Kernel.Launch
import proofs.«205923_g40089224741417_cont_sun_m_110_39_alg».proof.Proof.Gen.Kernel.Regions
import proofs.«205923_g40089224741417_cont_sun_m_110_39_alg».proof.Proof.Gen.Kernel.Points
import proofs.«205923_g40089224741417_cont_sun_m_110_39_alg».proof.Proof.Gen.KernelIdeal
import proofs.«205923_g40089224741417_cont_sun_m_110_39_alg».proof.Proof.Gen.KernelIdeal.Skeleton
import proofs.«205923_g40089224741417_cont_sun_m_110_39_alg».proof.Proof.Gen.KernelIdeal.Loops
import proofs.«205923_g40089224741417_cont_sun_m_110_39_alg».proof.Proof.Gen.KernelIdeal.Launch
import proofs.«205923_g40089224741417_cont_sun_m_110_39_alg».proof.Proof.Gen.KernelIdeal.Regions
import proofs.«205923_g40089224741417_cont_sun_m_110_39_alg».proof.Proof.Gen.KernelIdeal.Points
import proofs.«205923_g40089224741417_cont_sun_m_110_39_alg».proof.Proof.Gen.ReferenceIdeal
import proofs.«205923_g40089224741417_cont_sun_m_110_39_alg».proof.Proof.Gen.Pre_input_domain
import Idealize.ShloMosaic.Adequacy
import Idealize.ShloMosaic.Init
import proofs.«205923_g40089224741417_cont_sun_m_110_39_alg».proof.Proof.ArgsKept
import proofs.«205923_g40089224741417_cont_sun_m_110_39_alg».proof.Proof.ArgsKeptB
import proofs.«205923_g40089224741417_cont_sun_m_110_39_alg».proof.Proof.RefRun
import proofs.«205923_g40089224741417_cont_sun_m_110_39_alg».proof.Proof.Value

noncomputable section

namespace Cert.Proof

open Idealize.ShloMosaic Idealize.SL.Sem

/-- The printed kernel's frame: its run at the bit-exact instance, the result dropped. -/
theorem frame_Kernel : Cert.frame_Kernel := fun m g hpre =>
  (θ_run (Cert.Kernel.defs (F := Bits)) _ _).mono (fun _ h c => (h c).2)
    (KB.run_claim (F := Bits) m g (Value.htok_of_preB m hpre))

/-- The idealized kernel's frame: its run at the ideal instance, the result dropped. -/
theorem frame_KernelIdeal : Cert.frame_KernelIdeal := fun m g hpre =>
  (θ_run (Cert.KernelIdeal.defs (F := Ideal)) _ _).mono (fun _ h c => (h c).2)
    (KI.run_claim (F := Ideal) m g (Value.htok_of_pre m hpre))

/-- The idealized reference's frame: its run, the value dropped (it needs no precondition). -/
theorem frame_ReferenceIdeal : Cert.frame_ReferenceIdeal := fun m g _ =>
  (θ_run (Cert.ReferenceIdeal.defs (F := Ideal)) _ _).mono (fun _ h c => (h c).2) (RefRun.run m g)

/-- The one named constant: the certificate's table gives the fill of the padded classes the value minus infinity. -/
theorem preserves : Cert.preserves_Kernel_KernelIdeal :=
  IdealRules.named_const.statement Cert.KernelIdeal.κ "neg_big" .f32 0xF149F2CA#32 ⊥ rfl

/-- At the ideal instance both programs end with `Spec.G` of the arguments. -/
theorem algebraic : Cert.algebraic_KernelIdeal_ReferenceIdeal := fun m g m' g' hpre hagree =>
  ⟨fun c => KI.outV (F := Ideal) m c, KI.run_claim (F := Ideal) m g (Value.htok_of_pre m hpre),
    (θ_run (Cert.ReferenceIdeal.defs (F := Ideal)) _ _).mono (fun _ h c =>
      ⟨(h c).1.trans (by
          rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
          exact (Value.outV_eq_G m hpre c).symm),
        (h c).2⟩)
      (RefRun.run m' g')⟩

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, preserves, algebraic⟩

end Cert.Proof

end
